-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v891)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v891) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v741) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2x128x128x128x16 : Shape := ⟨5, ![2, 128, 128, 128, 16]⟩
abbrev S2x64x64x64x32 : Shape := ⟨5, ![2, 64, 64, 64, 32]⟩
abbrev S2x32x32x32x64 : Shape := ⟨5, ![2, 32, 32, 32, 64]⟩
abbrev S2x16x16x16x128 : Shape := ⟨5, ![2, 16, 16, 16, 128]⟩
abbrev S2x8x8x8x256 : Shape := ⟨5, ![2, 8, 8, 8, 256]⟩
abbrev S2x100000x3 : Shape := ⟨3, ![2, 100000, 3]⟩
abbrev S_ : Shape := ⟨0, ![]⟩

class Facts : Prop where
  bcast_S_S2x128x128x128x16 : S_.BroadcastsInDim S2x128x128x128x16 (![] : Fin 0 → Fin S2x128x128x128x16.rank)
  reducesTo_S2x128x128x128x16_S_d0_1_2_3_4 : S2x128x128x128x16.ReducesTo [0, 1, 2, 3, 4] S_
  h_S_ : 0 < S_.numel
  bcast_S_S2x64x64x64x32 : S_.BroadcastsInDim S2x64x64x64x32 (![] : Fin 0 → Fin S2x64x64x64x32.rank)
  reducesTo_S2x64x64x64x32_S_d0_1_2_3_4 : S2x64x64x64x32.ReducesTo [0, 1, 2, 3, 4] S_
  bcast_S_S2x32x32x32x64 : S_.BroadcastsInDim S2x32x32x32x64 (![] : Fin 0 → Fin S2x32x32x32x64.rank)
  reducesTo_S2x32x32x32x64_S_d0_1_2_3_4 : S2x32x32x32x64.ReducesTo [0, 1, 2, 3, 4] S_
  bcast_S_S2x16x16x16x128 : S_.BroadcastsInDim S2x16x16x16x128 (![] : Fin 0 → Fin S2x16x16x16x128.rank)
  reducesTo_S2x16x16x16x128_S_d0_1_2_3_4 : S2x16x16x16x128.ReducesTo [0, 1, 2, 3, 4] S_
  bcast_S_S2x8x8x8x256 : S_.BroadcastsInDim S2x8x8x8x256 (![] : Fin 0 → Fin S2x8x8x8x256.rank)
  reducesTo_S2x8x8x8x256_S_d0_1_2_3_4 : S2x8x8x8x256.ReducesTo [0, 1, 2, 3, 4] S_
  bcast_S_S2x100000x3 : S_.BroadcastsInDim S2x100000x3 (![] : Fin 0 → Fin S2x100000x3.rank)
  reducesTo_S2x100000x3_S_d0_1_2 : S2x100000x3.ReducesTo [0, 1, 2] S_

variable [Facts]

def fn_part1 {F : FTy → Type} [FloatOps F] (main_arg4 : FVec F S2x8x8x8x256 .f32) (main_arg5 : FVec F S2x100000x3 .f32) (main_v13 : IVec S_ 1) (main_v16 : IVec S2x16x16x16x128 1) : IVec S_ 1 :=
  let main_c_5 : IVec S_ 1 := constantI S_ 1 1#1
  let main_v17 : IVec S_ 1 := (fun x v => Host.reduce IntOp.andi x v reducesTo_S2x16x16x16x128_S_d0_1_2_3_4 h_S_) main_v16 main_c_5
  let main_v18 : IVec S_ 1 := andi main_v13 main_v17
  let main_v19 : FVec F S2x8x8x8x256 .f32 := Host.absf main_arg4
  let main_cst_6 : FVec F S_ .f32 := constant S_ .f32 0x7F800000#32
  let main_v20 : FVec F S2x8x8x8x256 .f32 := broadcastInDim S2x8x8x8x256 ![] bcast_S_S2x8x8x8x256 main_cst_6
  let main_v21 : IVec S2x8x8x8x256 1 := cmpf .olt main_v19 main_v20
  let main_c_7 : IVec S_ 1 := constantI S_ 1 1#1
  let main_v22 : IVec S_ 1 := (fun x v => Host.reduce IntOp.andi x v reducesTo_S2x8x8x8x256_S_d0_1_2_3_4 h_S_) main_v21 main_c_7
  let main_v23 : IVec S_ 1 := andi main_v18 main_v22
  let main_v24 : FVec F S2x100000x3 .f32 := Host.absf main_arg5
  let main_cst_8 : FVec F S_ .f32 := constant S_ .f32 0x7F800000#32
  let main_v25 : FVec F S2x100000x3 .f32 := broadcastInDim S2x100000x3 ![] bcast_S_S2x100000x3 main_cst_8
  let main_v26 : IVec S2x100000x3 1 := cmpf .olt main_v24 main_v25
  let main_c_9 : IVec S_ 1 := constantI S_ 1 1#1
  let main_v27 : IVec S_ 1 := (fun x v => Host.reduce IntOp.andi x v reducesTo_S2x100000x3_S_d0_1_2 h_S_) main_v26 main_c_9
  let main_v28 : IVec S_ 1 := andi main_v23 main_v27
  main_v28

def fn {F : FTy → Type} [FloatOps F] (main_arg0 : FVec F S2x128x128x128x16 .f32) (main_arg1 : FVec F S2x64x64x64x32 .f32) (main_arg2 : FVec F S2x32x32x32x64 .f32) (main_arg3 : FVec F S2x16x16x16x128 .f32) (main_arg4 : FVec F S2x8x8x8x256 .f32) (main_arg5 : FVec F S2x100000x3 .f32) : IVec S_ 1 :=
  let main_v0 : FVec F S2x128x128x128x16 .f32 := Host.absf main_arg0
  let main_cst : FVec F S_ .f32 := constant S_ .f32 0x7F800000#32
  let main_v1 : FVec F S2x128x128x128x16 .f32 := broadcastInDim S2x128x128x128x16 ![] bcast_S_S2x128x128x128x16 main_cst
  let main_v2 : IVec S2x128x128x128x16 1 := cmpf .olt main_v0 main_v1
  let main_c : IVec S_ 1 := constantI S_ 1 1#1
  let main_v3 : IVec S_ 1 := (fun x v => Host.reduce IntOp.andi x v reducesTo_S2x128x128x128x16_S_d0_1_2_3_4 h_S_) main_v2 main_c
  let main_v4 : FVec F S2x64x64x64x32 .f32 := Host.absf main_arg1
  let main_cst_0 : FVec F S_ .f32 := constant S_ .f32 0x7F800000#32
  let main_v5 : FVec F S2x64x64x64x32 .f32 := broadcastInDim S2x64x64x64x32 ![] bcast_S_S2x64x64x64x32 main_cst_0
  let main_v6 : IVec S2x64x64x64x32 1 := cmpf .olt main_v4 main_v5
  let main_c_1 : IVec S_ 1 := constantI S_ 1 1#1
  let main_v7 : IVec S_ 1 := (fun x v => Host.reduce IntOp.andi x v reducesTo_S2x64x64x64x32_S_d0_1_2_3_4 h_S_) main_v6 main_c_1
  let main_v8 : IVec S_ 1 := andi main_v3 main_v7
  let main_v9 : FVec F S2x32x32x32x64 .f32 := Host.absf main_arg2
  let main_cst_2 : FVec F S_ .f32 := constant S_ .f32 0x7F800000#32
  let main_v10 : FVec F S2x32x32x32x64 .f32 := broadcastInDim S2x32x32x32x64 ![] bcast_S_S2x32x32x32x64 main_cst_2
  let main_v11 : IVec S2x32x32x32x64 1 := cmpf .olt main_v9 main_v10
  let main_c_3 : IVec S_ 1 := constantI S_ 1 1#1
  let main_v12 : IVec S_ 1 := (fun x v => Host.reduce IntOp.andi x v reducesTo_S2x32x32x32x64_S_d0_1_2_3_4 h_S_) main_v11 main_c_3
  let main_v13 : IVec S_ 1 := andi main_v8 main_v12
  let main_v14 : FVec F S2x16x16x16x128 .f32 := Host.absf main_arg3
  let main_cst_4 : FVec F S_ .f32 := constant S_ .f32 0x7F800000#32
  let main_v15 : FVec F S2x16x16x16x128 .f32 := broadcastInDim S2x16x16x16x128 ![] bcast_S_S2x16x16x16x128 main_cst_4
  let main_v16 : IVec S2x16x16x16x128 1 := cmpf .olt main_v14 main_v15
  fn_part1 (F := F) main_arg4 main_arg5 main_v13 main_v16
-- ==== Kernel.lean ====
abbrev S2x128x128x128x16 : Shape := ⟨5, ![2, 128, 128, 128, 16]⟩
abbrev S2x64x64x64x32 : Shape := ⟨5, ![2, 64, 64, 64, 32]⟩
abbrev S2x32x32x32x64 : Shape := ⟨5, ![2, 32, 32, 32, 64]⟩
abbrev S2x16x16x16x128 : Shape := ⟨5, ![2, 16, 16, 16, 128]⟩
abbrev S2x8x8x8x256 : Shape := ⟨5, ![2, 8, 8, 8, 256]⟩
abbrev S2x100000x3 : Shape := ⟨3, ![2, 100000, 3]⟩
abbrev S3 : Shape := ⟨1, ![3]⟩
abbrev S200000x3 : Shape := ⟨2, ![200000, 3]⟩
abbrev S2 : Shape := ⟨1, ![2]⟩
abbrev S2x100000 : Shape := ⟨2, ![2, 100000]⟩
abbrev S200000 : Shape := ⟨1, ![200000]⟩
abbrev S1x3 : Shape := ⟨2, ![1, 3]⟩
abbrev S_ : Shape := ⟨0, ![]⟩
abbrev S200000x1 : Shape := ⟨2, ![200000, 1]⟩
abbrev S200704 : Shape := ⟨1, ![200704]⟩
abbrev S200704x1 : Shape := ⟨2, ![200704, 1]⟩
abbrev S200704x8 : Shape := ⟨2, ![200704, 8]⟩
abbrev S200704x4 : Shape := ⟨2, ![200704, 4]⟩
abbrev S200704x32 : Shape := ⟨2, ![200704, 32]⟩
abbrev S200704x64 : Shape := ⟨2, ![200704, 64]⟩
abbrev S200704x128 : Shape := ⟨2, ![200704, 128]⟩
abbrev S1024x32 : Shape := ⟨2, ![1024, 32]⟩
abbrev S1024x8 : Shape := ⟨2, ![1024, 8]⟩
abbrev S1024x64 : Shape := ⟨2, ![1024, 64]⟩
abbrev S1024x128 : Shape := ⟨2, ![1024, 128]⟩
abbrev S1024x1 : Shape := ⟨2, ![1024, 1]⟩
abbrev S200000x32 : Shape := ⟨2, ![200000, 32]⟩
abbrev S200000x64 : Shape := ⟨2, ![200000, 64]⟩
abbrev S200000x128 : Shape := ⟨2, ![200000, 128]⟩
abbrev S200000x224 : Shape := ⟨2, ![200000, 224]⟩
abbrev S2x100000x224 : Shape := ⟨3, ![2, 100000, 224]⟩

abbrev nBuf : Space → Nat
  | .hbm => 1206
  | .vmem => 60
  | .smem => 0
  | _ => 0

abbrev hbmTy0_0 (i : Nat) : BufTy := match i % 128 with
  | 0 => ⟨S2x128x128x128x16, .f32⟩
  | 1 => ⟨S2x64x64x64x32, .f32⟩
  | 2 => ⟨S2x32x32x32x64, .f32⟩
  | 3 => ⟨S2x16x16x16x128, .f32⟩
  | 4 => ⟨S2x8x8x8x256, .f32⟩
  | 5 => ⟨S2x100000x3, .f32⟩
  | 6 => ⟨S3, .f32⟩
  | 7 => ⟨S3, .f32⟩
  | 8 => ⟨S3, .f32⟩
  | 9 => ⟨S200000x3, .f32⟩
  | 10 => ⟨S2, .i32⟩
  | 11 => ⟨S2x100000, .i32⟩
  | 12 => ⟨S200000, .i32⟩
  | 13 => ⟨S1x3, .f32⟩
  | 14 => ⟨S200000x3, .f32⟩
  | 15 => ⟨S200000x3, .f32⟩
  | 16 => ⟨S_, .f32⟩
  | 17 => ⟨S_, .f32⟩
  | 18 => ⟨S_, .f32⟩
  | 19 => ⟨S200000x3, .f32⟩
  | 20 => ⟨S200000x3, .f32⟩
  | 21 => ⟨S_, .f32⟩
  | 22 => ⟨S200000x3, .f32⟩
  | 23 => ⟨S200000x3, .f32⟩
  | 24 => ⟨S200000x1, .f32⟩
  | 25 => ⟨S200000, .f32⟩
  | 26 => ⟨S200000, .f32⟩
  | 27 => ⟨S200000x1, .f32⟩
  | 28 => ⟨S200000, .f32⟩
  | 29 => ⟨S200000, .f32⟩
  | 30 => ⟨S200000x1, .f32⟩
  | 31 => ⟨S200000, .f32⟩
  | 32 => ⟨S200000, .f32⟩
  | 33 => ⟨S200000x1, .f32⟩
  | 34 => ⟨S200000, .f32⟩
  | 35 => ⟨S200000, .f32⟩
  | 36 => ⟨S200000x1, .f32⟩
  | 37 => ⟨S200000, .f32⟩
  | 38 => ⟨S200000, .f32⟩
  | 39 => ⟨S200000x1, .f32⟩
  | 40 => ⟨S200000, .f32⟩
  | 41 => ⟨S200000, .f32⟩
  | 42 => ⟨S200000, .i32⟩
  | 43 => ⟨S200000, .i32⟩
  | 44 => ⟨S200000, .i32⟩
  | 45 => ⟨S200000, .i32⟩
  | 46 => ⟨S200000, .i32⟩
  | 47 => ⟨S200000, .i32⟩
  | 48 => ⟨S200000x1, .f32⟩
  | 49 => ⟨S200000, .f32⟩
  | 50 => ⟨S200000, .f32⟩
  | 51 => ⟨S200000x1, .f32⟩
  | 52 => ⟨S200000, .f32⟩
  | 53 => ⟨S200000, .f32⟩
  | 54 => ⟨S200000x1, .f32⟩
  | 55 => ⟨S200000, .f32⟩
  | 56 => ⟨S200000, .f32⟩
  | 57 => ⟨S200000x1, .f32⟩
  | 58 => ⟨S200000, .f32⟩
  | 59 => ⟨S200000, .f32⟩
  | 60 => ⟨S200000x1, .f32⟩
  | 61 => ⟨S200000, .f32⟩
  | 62 => ⟨S200000, .f32⟩
  | 63 => ⟨S200000x1, .f32⟩
  | 64 => ⟨S200000, .f32⟩
  | 65 => ⟨S200000, .f32⟩
  | 66 => ⟨S200000, .f32⟩
  | 67 => ⟨S200000, .f32⟩
  | 68 => ⟨S200000, .f32⟩
  | 69 => ⟨S200000, .f32⟩
  | 70 => ⟨S200000, .f32⟩
  | 71 => ⟨S200000, .f32⟩
  | 72 => ⟨S200000, .f32⟩
  | 73 => ⟨S200000, .f32⟩
  | 74 => ⟨S200000, .f32⟩
  | 75 => ⟨S200000, .f32⟩
  | 76 => ⟨S200000, .f32⟩
  | 77 => ⟨S200000, .f32⟩
  | 78 => ⟨S200000, .f32⟩
  | 79 => ⟨S200000, .f32⟩
  | 80 => ⟨S200000, .f32⟩
  | 81 => ⟨S200000, .f32⟩
  | 82 => ⟨S_, .i32⟩
  | 83 => ⟨S_, .i32⟩
  | 84 => ⟨S200704, .i32⟩
  | 85 => ⟨S_, .i32⟩
  | 86 => ⟨S_, .i32⟩
  | 87 => ⟨S200704, .i32⟩
  | 88 => ⟨S_, .i32⟩
  | 89 => ⟨S_, .i32⟩
  | 90 => ⟨S200704, .i32⟩
  | 91 => ⟨S_, .i32⟩
  | 92 => ⟨S_, .i32⟩
  | 93 => ⟨S200704, .i32⟩
  | 94 => ⟨S_, .i32⟩
  | 95 => ⟨S_, .i32⟩
  | 96 => ⟨S200704, .i32⟩
  | 97 => ⟨S_, .i32⟩
  | 98 => ⟨S_, .i32⟩
  | 99 => ⟨S200704, .i32⟩
  | 100 => ⟨S_, .i32⟩
  | 101 => ⟨S_, .i32⟩
  | 102 => ⟨S200704, .i32⟩
  | 103 => ⟨S_, .f32⟩
  | 104 => ⟨S_, .f32⟩
  | 105 => ⟨S200704, .f32⟩
  | 106 => ⟨S_, .f32⟩
  | 107 => ⟨S_, .f32⟩
  | 108 => ⟨S200704, .f32⟩
  | 109 => ⟨S_, .f32⟩
  | 110 => ⟨S_, .f32⟩
  | 111 => ⟨S200704, .f32⟩
  | 112 => ⟨S_, .f32⟩
  | 113 => ⟨S_, .f32⟩
  | 114 => ⟨S200704, .f32⟩
  | 115 => ⟨S_, .f32⟩
  | 116 => ⟨S_, .f32⟩
  | 117 => ⟨S200704, .f32⟩
  | 118 => ⟨S_, .f32⟩
  | 119 => ⟨S_, .f32⟩
  | 120 => ⟨S200704, .f32⟩
  | 121 => ⟨S_, .f32⟩
  | 122 => ⟨S_, .f32⟩
  | 123 => ⟨S200704, .f32⟩
  | 124 => ⟨S_, .f32⟩
  | 125 => ⟨S_, .f32⟩
  | 126 => ⟨S200704, .f32⟩
  | 127 => ⟨S200704x1, .f32⟩
  | _ => ⟨S2x128x128x128x16, .f32⟩

abbrev hbmTy0_1 (i : Nat) : BufTy := match i % 128 with
  | 0 => ⟨S200704x1, .f32⟩
  | 1 => ⟨S200704x1, .f32⟩
  | 2 => ⟨S200704x1, .f32⟩
  | 3 => ⟨S200704x1, .f32⟩
  | 4 => ⟨S200704x1, .f32⟩
  | 5 => ⟨S200704x1, .f32⟩
  | 6 => ⟨S200704x1, .f32⟩
  | 7 => ⟨S200704x8, .f32⟩
  | 8 => ⟨S_, .i32⟩
  | 9 => ⟨S200704, .i32⟩
  | 10 => ⟨S200704, .i1⟩
  | 11 => ⟨S_, .i32⟩
  | 12 => ⟨S200704, .i32⟩
  | 13 => ⟨S200704, .i32⟩
  | 14 => ⟨S200704, .i32⟩
  | 15 => ⟨S_, .i32⟩
  | 16 => ⟨S200704, .i32⟩
  | 17 => ⟨S200704, .i1⟩
  | 18 => ⟨S_, .i32⟩
  | 19 => ⟨S200704, .i32⟩
  | 20 => ⟨S200704, .i32⟩
  | 21 => ⟨S200704, .i32⟩
  | 22 => ⟨S_, .i32⟩
  | 23 => ⟨S200704, .i32⟩
  | 24 => ⟨S200704, .i1⟩
  | 25 => ⟨S_, .i32⟩
  | 26 => ⟨S200704, .i32⟩
  | 27 => ⟨S200704, .i32⟩
  | 28 => ⟨S200704, .i32⟩
  | 29 => ⟨S_, .i32⟩
  | 30 => ⟨S200704, .i32⟩
  | 31 => ⟨S200704, .i1⟩
  | 32 => ⟨S_, .i32⟩
  | 33 => ⟨S200704, .i32⟩
  | 34 => ⟨S200704, .i32⟩
  | 35 => ⟨S200704, .i32⟩
  | 36 => ⟨S200704x1, .i32⟩
  | 37 => ⟨S200704x1, .i32⟩
  | 38 => ⟨S200704x1, .i32⟩
  | 39 => ⟨S200704x1, .i32⟩
  | 40 => ⟨S200704x4, .i32⟩
  | 41 => ⟨S200704x32, .f32⟩
  | 42 => ⟨S_, .i32⟩
  | 43 => ⟨S200704, .i32⟩
  | 44 => ⟨S200704, .i1⟩
  | 45 => ⟨S_, .i32⟩
  | 46 => ⟨S200704, .i32⟩
  | 47 => ⟨S200704, .i32⟩
  | 48 => ⟨S200704, .i32⟩
  | 49 => ⟨S_, .i32⟩
  | 50 => ⟨S200704, .i32⟩
  | 51 => ⟨S200704, .i1⟩
  | 52 => ⟨S_, .i32⟩
  | 53 => ⟨S200704, .i32⟩
  | 54 => ⟨S200704, .i32⟩
  | 55 => ⟨S200704, .i32⟩
  | 56 => ⟨S_, .i32⟩
  | 57 => ⟨S200704, .i32⟩
  | 58 => ⟨S200704, .i1⟩
  | 59 => ⟨S_, .i32⟩
  | 60 => ⟨S200704, .i32⟩
  | 61 => ⟨S200704, .i32⟩
  | 62 => ⟨S200704, .i32⟩
  | 63 => ⟨S_, .i32⟩
  | 64 => ⟨S200704, .i32⟩
  | 65 => ⟨S200704, .i1⟩
  | 66 => ⟨S_, .i32⟩
  | 67 => ⟨S200704, .i32⟩
  | 68 => ⟨S200704, .i32⟩
  | 69 => ⟨S200704, .i32⟩
  | 70 => ⟨S200704x1, .i32⟩
  | 71 => ⟨S200704x1, .i32⟩
  | 72 => ⟨S200704x1, .i32⟩
  | 73 => ⟨S200704x1, .i32⟩
  | 74 => ⟨S200704x4, .i32⟩
  | 75 => ⟨S200704x32, .f32⟩
  | 76 => ⟨S_, .i32⟩
  | 77 => ⟨S200704, .i32⟩
  | 78 => ⟨S200704, .i1⟩
  | 79 => ⟨S_, .i32⟩
  | 80 => ⟨S200704, .i32⟩
  | 81 => ⟨S200704, .i32⟩
  | 82 => ⟨S200704, .i32⟩
  | 83 => ⟨S_, .i32⟩
  | 84 => ⟨S200704, .i32⟩
  | 85 => ⟨S200704, .i1⟩
  | 86 => ⟨S_, .i32⟩
  | 87 => ⟨S200704, .i32⟩
  | 88 => ⟨S200704, .i32⟩
  | 89 => ⟨S200704, .i32⟩
  | 90 => ⟨S_, .i32⟩
  | 91 => ⟨S200704, .i32⟩
  | 92 => ⟨S200704, .i1⟩
  | 93 => ⟨S_, .i32⟩
  | 94 => ⟨S200704, .i32⟩
  | 95 => ⟨S200704, .i32⟩
  | 96 => ⟨S200704, .i32⟩
  | 97 => ⟨S_, .i32⟩
  | 98 => ⟨S200704, .i32⟩
  | 99 => ⟨S200704, .i1⟩
  | 100 => ⟨S_, .i32⟩
  | 101 => ⟨S200704, .i32⟩
  | 102 => ⟨S200704, .i32⟩
  | 103 => ⟨S200704, .i32⟩
  | 104 => ⟨S200704x1, .i32⟩
  | 105 => ⟨S200704x1, .i32⟩
  | 106 => ⟨S200704x1, .i32⟩
  | 107 => ⟨S200704x1, .i32⟩
  | 108 => ⟨S200704x4, .i32⟩
  | 109 => ⟨S200704x32, .f32⟩
  | 110 => ⟨S_, .i32⟩
  | 111 => ⟨S200704, .i32⟩
  | 112 => ⟨S200704, .i1⟩
  | 113 => ⟨S_, .i32⟩
  | 114 => ⟨S200704, .i32⟩
  | 115 => ⟨S200704, .i32⟩
  | 116 => ⟨S200704, .i32⟩
  | 117 => ⟨S_, .i32⟩
  | 118 => ⟨S200704, .i32⟩
  | 119 => ⟨S200704, .i1⟩
  | 120 => ⟨S_, .i32⟩
  | 121 => ⟨S200704, .i32⟩
  | 122 => ⟨S200704, .i32⟩
  | 123 => ⟨S200704, .i32⟩
  | 124 => ⟨S_, .i32⟩
  | 125 => ⟨S200704, .i32⟩
  | 126 => ⟨S200704, .i1⟩
  | 127 => ⟨S_, .i32⟩
  | _ => ⟨S2x128x128x128x16, .f32⟩

abbrev hbmTy0_2 (i : Nat) : BufTy := match i % 128 with
  | 0 => ⟨S200704, .i32⟩
  | 1 => ⟨S200704, .i32⟩
  | 2 => ⟨S200704, .i32⟩
  | 3 => ⟨S_, .i32⟩
  | 4 => ⟨S200704, .i32⟩
  | 5 => ⟨S200704, .i1⟩
  | 6 => ⟨S_, .i32⟩
  | 7 => ⟨S200704, .i32⟩
  | 8 => ⟨S200704, .i32⟩
  | 9 => ⟨S200704, .i32⟩
  | 10 => ⟨S200704x1, .i32⟩
  | 11 => ⟨S200704x1, .i32⟩
  | 12 => ⟨S200704x1, .i32⟩
  | 13 => ⟨S200704x1, .i32⟩
  | 14 => ⟨S200704x4, .i32⟩
  | 15 => ⟨S200704x32, .f32⟩
  | 16 => ⟨S_, .i32⟩
  | 17 => ⟨S200704, .i32⟩
  | 18 => ⟨S200704, .i1⟩
  | 19 => ⟨S_, .i32⟩
  | 20 => ⟨S200704, .i32⟩
  | 21 => ⟨S200704, .i32⟩
  | 22 => ⟨S200704, .i32⟩
  | 23 => ⟨S_, .i32⟩
  | 24 => ⟨S200704, .i32⟩
  | 25 => ⟨S200704, .i1⟩
  | 26 => ⟨S_, .i32⟩
  | 27 => ⟨S200704, .i32⟩
  | 28 => ⟨S200704, .i32⟩
  | 29 => ⟨S200704, .i32⟩
  | 30 => ⟨S_, .i32⟩
  | 31 => ⟨S200704, .i32⟩
  | 32 => ⟨S200704, .i1⟩
  | 33 => ⟨S_, .i32⟩
  | 34 => ⟨S200704, .i32⟩
  | 35 => ⟨S200704, .i32⟩
  | 36 => ⟨S200704, .i32⟩
  | 37 => ⟨S_, .i32⟩
  | 38 => ⟨S200704, .i32⟩
  | 39 => ⟨S200704, .i1⟩
  | 40 => ⟨S_, .i32⟩
  | 41 => ⟨S200704, .i32⟩
  | 42 => ⟨S200704, .i32⟩
  | 43 => ⟨S200704, .i32⟩
  | 44 => ⟨S200704x1, .i32⟩
  | 45 => ⟨S200704x1, .i32⟩
  | 46 => ⟨S200704x1, .i32⟩
  | 47 => ⟨S200704x1, .i32⟩
  | 48 => ⟨S200704x4, .i32⟩
  | 49 => ⟨S200704x32, .f32⟩
  | 50 => ⟨S_, .i32⟩
  | 51 => ⟨S200704, .i32⟩
  | 52 => ⟨S200704, .i1⟩
  | 53 => ⟨S_, .i32⟩
  | 54 => ⟨S200704, .i32⟩
  | 55 => ⟨S200704, .i32⟩
  | 56 => ⟨S200704, .i32⟩
  | 57 => ⟨S_, .i32⟩
  | 58 => ⟨S200704, .i32⟩
  | 59 => ⟨S200704, .i1⟩
  | 60 => ⟨S_, .i32⟩
  | 61 => ⟨S200704, .i32⟩
  | 62 => ⟨S200704, .i32⟩
  | 63 => ⟨S200704, .i32⟩
  | 64 => ⟨S_, .i32⟩
  | 65 => ⟨S200704, .i32⟩
  | 66 => ⟨S200704, .i1⟩
  | 67 => ⟨S_, .i32⟩
  | 68 => ⟨S200704, .i32⟩
  | 69 => ⟨S200704, .i32⟩
  | 70 => ⟨S200704, .i32⟩
  | 71 => ⟨S_, .i32⟩
  | 72 => ⟨S200704, .i32⟩
  | 73 => ⟨S200704, .i1⟩
  | 74 => ⟨S_, .i32⟩
  | 75 => ⟨S200704, .i32⟩
  | 76 => ⟨S200704, .i32⟩
  | 77 => ⟨S200704, .i32⟩
  | 78 => ⟨S200704x1, .i32⟩
  | 79 => ⟨S200704x1, .i32⟩
  | 80 => ⟨S200704x1, .i32⟩
  | 81 => ⟨S200704x1, .i32⟩
  | 82 => ⟨S200704x4, .i32⟩
  | 83 => ⟨S200704x32, .f32⟩
  | 84 => ⟨S_, .i32⟩
  | 85 => ⟨S200704, .i32⟩
  | 86 => ⟨S200704, .i1⟩
  | 87 => ⟨S_, .i32⟩
  | 88 => ⟨S200704, .i32⟩
  | 89 => ⟨S200704, .i32⟩
  | 90 => ⟨S200704, .i32⟩
  | 91 => ⟨S_, .i32⟩
  | 92 => ⟨S200704, .i32⟩
  | 93 => ⟨S200704, .i1⟩
  | 94 => ⟨S_, .i32⟩
  | 95 => ⟨S200704, .i32⟩
  | 96 => ⟨S200704, .i32⟩
  | 97 => ⟨S200704, .i32⟩
  | 98 => ⟨S_, .i32⟩
  | 99 => ⟨S200704, .i32⟩
  | 100 => ⟨S200704, .i1⟩
  | 101 => ⟨S_, .i32⟩
  | 102 => ⟨S200704, .i32⟩
  | 103 => ⟨S200704, .i32⟩
  | 104 => ⟨S200704, .i32⟩
  | 105 => ⟨S_, .i32⟩
  | 106 => ⟨S200704, .i32⟩
  | 107 => ⟨S200704, .i1⟩
  | 108 => ⟨S_, .i32⟩
  | 109 => ⟨S200704, .i32⟩
  | 110 => ⟨S200704, .i32⟩
  | 111 => ⟨S200704, .i32⟩
  | 112 => ⟨S200704x1, .i32⟩
  | 113 => ⟨S200704x1, .i32⟩
  | 114 => ⟨S200704x1, .i32⟩
  | 115 => ⟨S200704x1, .i32⟩
  | 116 => ⟨S200704x4, .i32⟩
  | 117 => ⟨S200704x32, .f32⟩
  | 118 => ⟨S_, .i32⟩
  | 119 => ⟨S200704, .i32⟩
  | 120 => ⟨S200704, .i1⟩
  | 121 => ⟨S_, .i32⟩
  | 122 => ⟨S200704, .i32⟩
  | 123 => ⟨S200704, .i32⟩
  | 124 => ⟨S200704, .i32⟩
  | 125 => ⟨S_, .i32⟩
  | 126 => ⟨S200704, .i32⟩
  | 127 => ⟨S200704, .i1⟩
  | _ => ⟨S2x128x128x128x16, .f32⟩

abbrev hbmTy0_3 (i : Nat) : BufTy := match i % 128 with
  | 0 => ⟨S_, .i32⟩
  | 1 => ⟨S200704, .i32⟩
  | 2 => ⟨S200704, .i32⟩
  | 3 => ⟨S200704, .i32⟩
  | 4 => ⟨S_, .i32⟩
  | 5 => ⟨S200704, .i32⟩
  | 6 => ⟨S200704, .i1⟩
  | 7 => ⟨S_, .i32⟩
  | 8 => ⟨S200704, .i32⟩
  | 9 => ⟨S200704, .i32⟩
  | 10 => ⟨S200704, .i32⟩
  | 11 => ⟨S_, .i32⟩
  | 12 => ⟨S200704, .i32⟩
  | 13 => ⟨S200704, .i1⟩
  | 14 => ⟨S_, .i32⟩
  | 15 => ⟨S200704, .i32⟩
  | 16 => ⟨S200704, .i32⟩
  | 17 => ⟨S200704, .i32⟩
  | 18 => ⟨S200704x1, .i32⟩
  | 19 => ⟨S200704x1, .i32⟩
  | 20 => ⟨S200704x1, .i32⟩
  | 21 => ⟨S200704x1, .i32⟩
  | 22 => ⟨S200704x4, .i32⟩
  | 23 => ⟨S200704x32, .f32⟩
  | 24 => ⟨S1x3, .f32⟩
  | 25 => ⟨S200000x3, .f32⟩
  | 26 => ⟨S200000x3, .f32⟩
  | 27 => ⟨S_, .f32⟩
  | 28 => ⟨S_, .f32⟩
  | 29 => ⟨S_, .f32⟩
  | 30 => ⟨S200000x3, .f32⟩
  | 31 => ⟨S200000x3, .f32⟩
  | 32 => ⟨S_, .f32⟩
  | 33 => ⟨S200000x3, .f32⟩
  | 34 => ⟨S200000x3, .f32⟩
  | 35 => ⟨S200000x1, .f32⟩
  | 36 => ⟨S200000, .f32⟩
  | 37 => ⟨S200000, .f32⟩
  | 38 => ⟨S200000x1, .f32⟩
  | 39 => ⟨S200000, .f32⟩
  | 40 => ⟨S200000, .f32⟩
  | 41 => ⟨S200000x1, .f32⟩
  | 42 => ⟨S200000, .f32⟩
  | 43 => ⟨S200000, .f32⟩
  | 44 => ⟨S200000x1, .f32⟩
  | 45 => ⟨S200000, .f32⟩
  | 46 => ⟨S200000, .f32⟩
  | 47 => ⟨S200000x1, .f32⟩
  | 48 => ⟨S200000, .f32⟩
  | 49 => ⟨S200000, .f32⟩
  | 50 => ⟨S200000x1, .f32⟩
  | 51 => ⟨S200000, .f32⟩
  | 52 => ⟨S200000, .f32⟩
  | 53 => ⟨S200000, .i32⟩
  | 54 => ⟨S200000, .i32⟩
  | 55 => ⟨S200000, .i32⟩
  | 56 => ⟨S200000, .i32⟩
  | 57 => ⟨S200000, .i32⟩
  | 58 => ⟨S200000, .i32⟩
  | 59 => ⟨S200000x1, .f32⟩
  | 60 => ⟨S200000, .f32⟩
  | 61 => ⟨S200000, .f32⟩
  | 62 => ⟨S200000x1, .f32⟩
  | 63 => ⟨S200000, .f32⟩
  | 64 => ⟨S200000, .f32⟩
  | 65 => ⟨S200000x1, .f32⟩
  | 66 => ⟨S200000, .f32⟩
  | 67 => ⟨S200000, .f32⟩
  | 68 => ⟨S200000x1, .f32⟩
  | 69 => ⟨S200000, .f32⟩
  | 70 => ⟨S200000, .f32⟩
  | 71 => ⟨S200000x1, .f32⟩
  | 72 => ⟨S200000, .f32⟩
  | 73 => ⟨S200000, .f32⟩
  | 74 => ⟨S200000x1, .f32⟩
  | 75 => ⟨S200000, .f32⟩
  | 76 => ⟨S200000, .f32⟩
  | 77 => ⟨S200000, .f32⟩
  | 78 => ⟨S200000, .f32⟩
  | 79 => ⟨S200000, .f32⟩
  | 80 => ⟨S200000, .f32⟩
  | 81 => ⟨S200000, .f32⟩
  | 82 => ⟨S200000, .f32⟩
  | 83 => ⟨S200000, .f32⟩
  | 84 => ⟨S200000, .f32⟩
  | 85 => ⟨S200000, .f32⟩
  | 86 => ⟨S200000, .f32⟩
  | 87 => ⟨S200000, .f32⟩
  | 88 => ⟨S200000, .f32⟩
  | 89 => ⟨S200000, .f32⟩
  | 90 => ⟨S200000, .f32⟩
  | 91 => ⟨S200000, .f32⟩
  | 92 => ⟨S200000, .f32⟩
  | 93 => ⟨S_, .i32⟩
  | 94 => ⟨S_, .i32⟩
  | 95 => ⟨S200704, .i32⟩
  | 96 => ⟨S_, .i32⟩
  | 97 => ⟨S_, .i32⟩
  | 98 => ⟨S200704, .i32⟩
  | 99 => ⟨S_, .i32⟩
  | 100 => ⟨S_, .i32⟩
  | 101 => ⟨S200704, .i32⟩
  | 102 => ⟨S_, .i32⟩
  | 103 => ⟨S_, .i32⟩
  | 104 => ⟨S200704, .i32⟩
  | 105 => ⟨S_, .i32⟩
  | 106 => ⟨S_, .i32⟩
  | 107 => ⟨S200704, .i32⟩
  | 108 => ⟨S_, .i32⟩
  | 109 => ⟨S_, .i32⟩
  | 110 => ⟨S200704, .i32⟩
  | 111 => ⟨S_, .i32⟩
  | 112 => ⟨S_, .i32⟩
  | 113 => ⟨S200704, .i32⟩
  | 114 => ⟨S_, .f32⟩
  | 115 => ⟨S_, .f32⟩
  | 116 => ⟨S200704, .f32⟩
  | 117 => ⟨S_, .f32⟩
  | 118 => ⟨S_, .f32⟩
  | 119 => ⟨S200704, .f32⟩
  | 120 => ⟨S_, .f32⟩
  | 121 => ⟨S_, .f32⟩
  | 122 => ⟨S200704, .f32⟩
  | 123 => ⟨S_, .f32⟩
  | 124 => ⟨S_, .f32⟩
  | 125 => ⟨S200704, .f32⟩
  | 126 => ⟨S_, .f32⟩
  | 127 => ⟨S_, .f32⟩
  | _ => ⟨S2x128x128x128x16, .f32⟩

abbrev hbmTy0_4 (i : Nat) : BufTy := match i % 128 with
  | 0 => ⟨S200704, .f32⟩
  | 1 => ⟨S_, .f32⟩
  | 2 => ⟨S_, .f32⟩
  | 3 => ⟨S200704, .f32⟩
  | 4 => ⟨S_, .f32⟩
  | 5 => ⟨S_, .f32⟩
  | 6 => ⟨S200704, .f32⟩
  | 7 => ⟨S_, .f32⟩
  | 8 => ⟨S_, .f32⟩
  | 9 => ⟨S200704, .f32⟩
  | 10 => ⟨S200704x1, .f32⟩
  | 11 => ⟨S200704x1, .f32⟩
  | 12 => ⟨S200704x1, .f32⟩
  | 13 => ⟨S200704x1, .f32⟩
  | 14 => ⟨S200704x1, .f32⟩
  | 15 => ⟨S200704x1, .f32⟩
  | 16 => ⟨S200704x1, .f32⟩
  | 17 => ⟨S200704x1, .f32⟩
  | 18 => ⟨S200704x8, .f32⟩
  | 19 => ⟨S_, .i32⟩
  | 20 => ⟨S200704, .i32⟩
  | 21 => ⟨S200704, .i1⟩
  | 22 => ⟨S_, .i32⟩
  | 23 => ⟨S200704, .i32⟩
  | 24 => ⟨S200704, .i32⟩
  | 25 => ⟨S200704, .i32⟩
  | 26 => ⟨S_, .i32⟩
  | 27 => ⟨S200704, .i32⟩
  | 28 => ⟨S200704, .i1⟩
  | 29 => ⟨S_, .i32⟩
  | 30 => ⟨S200704, .i32⟩
  | 31 => ⟨S200704, .i32⟩
  | 32 => ⟨S200704, .i32⟩
  | 33 => ⟨S_, .i32⟩
  | 34 => ⟨S200704, .i32⟩
  | 35 => ⟨S200704, .i1⟩
  | 36 => ⟨S_, .i32⟩
  | 37 => ⟨S200704, .i32⟩
  | 38 => ⟨S200704, .i32⟩
  | 39 => ⟨S200704, .i32⟩
  | 40 => ⟨S_, .i32⟩
  | 41 => ⟨S200704, .i32⟩
  | 42 => ⟨S200704, .i1⟩
  | 43 => ⟨S_, .i32⟩
  | 44 => ⟨S200704, .i32⟩
  | 45 => ⟨S200704, .i32⟩
  | 46 => ⟨S200704, .i32⟩
  | 47 => ⟨S200704x1, .i32⟩
  | 48 => ⟨S200704x1, .i32⟩
  | 49 => ⟨S200704x1, .i32⟩
  | 50 => ⟨S200704x1, .i32⟩
  | 51 => ⟨S200704x4, .i32⟩
  | 52 => ⟨S200704x64, .f32⟩
  | 53 => ⟨S_, .i32⟩
  | 54 => ⟨S200704, .i32⟩
  | 55 => ⟨S200704, .i1⟩
  | 56 => ⟨S_, .i32⟩
  | 57 => ⟨S200704, .i32⟩
  | 58 => ⟨S200704, .i32⟩
  | 59 => ⟨S200704, .i32⟩
  | 60 => ⟨S_, .i32⟩
  | 61 => ⟨S200704, .i32⟩
  | 62 => ⟨S200704, .i1⟩
  | 63 => ⟨S_, .i32⟩
  | 64 => ⟨S200704, .i32⟩
  | 65 => ⟨S200704, .i32⟩
  | 66 => ⟨S200704, .i32⟩
  | 67 => ⟨S_, .i32⟩
  | 68 => ⟨S200704, .i32⟩
  | 69 => ⟨S200704, .i1⟩
  | 70 => ⟨S_, .i32⟩
  | 71 => ⟨S200704, .i32⟩
  | 72 => ⟨S200704, .i32⟩
  | 73 => ⟨S200704, .i32⟩
  | 74 => ⟨S_, .i32⟩
  | 75 => ⟨S200704, .i32⟩
  | 76 => ⟨S200704, .i1⟩
  | 77 => ⟨S_, .i32⟩
  | 78 => ⟨S200704, .i32⟩
  | 79 => ⟨S200704, .i32⟩
  | 80 => ⟨S200704, .i32⟩
  | 81 => ⟨S200704x1, .i32⟩
  | 82 => ⟨S200704x1, .i32⟩
  | 83 => ⟨S200704x1, .i32⟩
  | 84 => ⟨S200704x1, .i32⟩
  | 85 => ⟨S200704x4, .i32⟩
  | 86 => ⟨S200704x64, .f32⟩
  | 87 => ⟨S_, .i32⟩
  | 88 => ⟨S200704, .i32⟩
  | 89 => ⟨S200704, .i1⟩
  | 90 => ⟨S_, .i32⟩
  | 91 => ⟨S200704, .i32⟩
  | 92 => ⟨S200704, .i32⟩
  | 93 => ⟨S200704, .i32⟩
  | 94 => ⟨S_, .i32⟩
  | 95 => ⟨S200704, .i32⟩
  | 96 => ⟨S200704, .i1⟩
  | 97 => ⟨S_, .i32⟩
  | 98 => ⟨S200704, .i32⟩
  | 99 => ⟨S200704, .i32⟩
  | 100 => ⟨S200704, .i32⟩
  | 101 => ⟨S_, .i32⟩
  | 102 => ⟨S200704, .i32⟩
  | 103 => ⟨S200704, .i1⟩
  | 104 => ⟨S_, .i32⟩
  | 105 => ⟨S200704, .i32⟩
  | 106 => ⟨S200704, .i32⟩
  | 107 => ⟨S200704, .i32⟩
  | 108 => ⟨S_, .i32⟩
  | 109 => ⟨S200704, .i32⟩
  | 110 => ⟨S200704, .i1⟩
  | 111 => ⟨S_, .i32⟩
  | 112 => ⟨S200704, .i32⟩
  | 113 => ⟨S200704, .i32⟩
  | 114 => ⟨S200704, .i32⟩
  | 115 => ⟨S200704x1, .i32⟩
  | 116 => ⟨S200704x1, .i32⟩
  | 117 => ⟨S200704x1, .i32⟩
  | 118 => ⟨S200704x1, .i32⟩
  | 119 => ⟨S200704x4, .i32⟩
  | 120 => ⟨S200704x64, .f32⟩
  | 121 => ⟨S_, .i32⟩
  | 122 => ⟨S200704, .i32⟩
  | 123 => ⟨S200704, .i1⟩
  | 124 => ⟨S_, .i32⟩
  | 125 => ⟨S200704, .i32⟩
  | 126 => ⟨S200704, .i32⟩
  | 127 => ⟨S200704, .i32⟩
  | _ => ⟨S2x128x128x128x16, .f32⟩

abbrev hbmTy0_5 (i : Nat) : BufTy := match i % 128 with
  | 0 => ⟨S_, .i32⟩
  | 1 => ⟨S200704, .i32⟩
  | 2 => ⟨S200704, .i1⟩
  | 3 => ⟨S_, .i32⟩
  | 4 => ⟨S200704, .i32⟩
  | 5 => ⟨S200704, .i32⟩
  | 6 => ⟨S200704, .i32⟩
  | 7 => ⟨S_, .i32⟩
  | 8 => ⟨S200704, .i32⟩
  | 9 => ⟨S200704, .i1⟩
  | 10 => ⟨S_, .i32⟩
  | 11 => ⟨S200704, .i32⟩
  | 12 => ⟨S200704, .i32⟩
  | 13 => ⟨S200704, .i32⟩
  | 14 => ⟨S_, .i32⟩
  | 15 => ⟨S200704, .i32⟩
  | 16 => ⟨S200704, .i1⟩
  | 17 => ⟨S_, .i32⟩
  | 18 => ⟨S200704, .i32⟩
  | 19 => ⟨S200704, .i32⟩
  | 20 => ⟨S200704, .i32⟩
  | 21 => ⟨S200704x1, .i32⟩
  | 22 => ⟨S200704x1, .i32⟩
  | 23 => ⟨S200704x1, .i32⟩
  | 24 => ⟨S200704x1, .i32⟩
  | 25 => ⟨S200704x4, .i32⟩
  | 26 => ⟨S200704x64, .f32⟩
  | 27 => ⟨S_, .i32⟩
  | 28 => ⟨S200704, .i32⟩
  | 29 => ⟨S200704, .i1⟩
  | 30 => ⟨S_, .i32⟩
  | 31 => ⟨S200704, .i32⟩
  | 32 => ⟨S200704, .i32⟩
  | 33 => ⟨S200704, .i32⟩
  | 34 => ⟨S_, .i32⟩
  | 35 => ⟨S200704, .i32⟩
  | 36 => ⟨S200704, .i1⟩
  | 37 => ⟨S_, .i32⟩
  | 38 => ⟨S200704, .i32⟩
  | 39 => ⟨S200704, .i32⟩
  | 40 => ⟨S200704, .i32⟩
  | 41 => ⟨S_, .i32⟩
  | 42 => ⟨S200704, .i32⟩
  | 43 => ⟨S200704, .i1⟩
  | 44 => ⟨S_, .i32⟩
  | 45 => ⟨S200704, .i32⟩
  | 46 => ⟨S200704, .i32⟩
  | 47 => ⟨S200704, .i32⟩
  | 48 => ⟨S_, .i32⟩
  | 49 => ⟨S200704, .i32⟩
  | 50 => ⟨S200704, .i1⟩
  | 51 => ⟨S_, .i32⟩
  | 52 => ⟨S200704, .i32⟩
  | 53 => ⟨S200704, .i32⟩
  | 54 => ⟨S200704, .i32⟩
  | 55 => ⟨S200704x1, .i32⟩
  | 56 => ⟨S200704x1, .i32⟩
  | 57 => ⟨S200704x1, .i32⟩
  | 58 => ⟨S200704x1, .i32⟩
  | 59 => ⟨S200704x4, .i32⟩
  | 60 => ⟨S200704x64, .f32⟩
  | 61 => ⟨S_, .i32⟩
  | 62 => ⟨S200704, .i32⟩
  | 63 => ⟨S200704, .i1⟩
  | 64 => ⟨S_, .i32⟩
  | 65 => ⟨S200704, .i32⟩
  | 66 => ⟨S200704, .i32⟩
  | 67 => ⟨S200704, .i32⟩
  | 68 => ⟨S_, .i32⟩
  | 69 => ⟨S200704, .i32⟩
  | 70 => ⟨S200704, .i1⟩
  | 71 => ⟨S_, .i32⟩
  | 72 => ⟨S200704, .i32⟩
  | 73 => ⟨S200704, .i32⟩
  | 74 => ⟨S200704, .i32⟩
  | 75 => ⟨S_, .i32⟩
  | 76 => ⟨S200704, .i32⟩
  | 77 => ⟨S200704, .i1⟩
  | 78 => ⟨S_, .i32⟩
  | 79 => ⟨S200704, .i32⟩
  | 80 => ⟨S200704, .i32⟩
  | 81 => ⟨S200704, .i32⟩
  | 82 => ⟨S_, .i32⟩
  | 83 => ⟨S200704, .i32⟩
  | 84 => ⟨S200704, .i1⟩
  | 85 => ⟨S_, .i32⟩
  | 86 => ⟨S200704, .i32⟩
  | 87 => ⟨S200704, .i32⟩
  | 88 => ⟨S200704, .i32⟩
  | 89 => ⟨S200704x1, .i32⟩
  | 90 => ⟨S200704x1, .i32⟩
  | 91 => ⟨S200704x1, .i32⟩
  | 92 => ⟨S200704x1, .i32⟩
  | 93 => ⟨S200704x4, .i32⟩
  | 94 => ⟨S200704x64, .f32⟩
  | 95 => ⟨S_, .i32⟩
  | 96 => ⟨S200704, .i32⟩
  | 97 => ⟨S200704, .i1⟩
  | 98 => ⟨S_, .i32⟩
  | 99 => ⟨S200704, .i32⟩
  | 100 => ⟨S200704, .i32⟩
  | 101 => ⟨S200704, .i32⟩
  | 102 => ⟨S_, .i32⟩
  | 103 => ⟨S200704, .i32⟩
  | 104 => ⟨S200704, .i1⟩
  | 105 => ⟨S_, .i32⟩
  | 106 => ⟨S200704, .i32⟩
  | 107 => ⟨S200704, .i32⟩
  | 108 => ⟨S200704, .i32⟩
  | 109 => ⟨S_, .i32⟩
  | 110 => ⟨S200704, .i32⟩
  | 111 => ⟨S200704, .i1⟩
  | 112 => ⟨S_, .i32⟩
  | 113 => ⟨S200704, .i32⟩
  | 114 => ⟨S200704, .i32⟩
  | 115 => ⟨S200704, .i32⟩
  | 116 => ⟨S_, .i32⟩
  | 117 => ⟨S200704, .i32⟩
  | 118 => ⟨S200704, .i1⟩
  | 119 => ⟨S_, .i32⟩
  | 120 => ⟨S200704, .i32⟩
  | 121 => ⟨S200704, .i32⟩
  | 122 => ⟨S200704, .i32⟩
  | 123 => ⟨S200704x1, .i32⟩
  | 124 => ⟨S200704x1, .i32⟩
  | 125 => ⟨S200704x1, .i32⟩
  | 126 => ⟨S200704x1, .i32⟩
  | 127 => ⟨S200704x4, .i32⟩
  | _ => ⟨S2x128x128x128x16, .f32⟩

abbrev hbmTy0_6 (i : Nat) : BufTy := match i % 128 with
  | 0 => ⟨S200704x64, .f32⟩
  | 1 => ⟨S_, .i32⟩
  | 2 => ⟨S200704, .i32⟩
  | 3 => ⟨S200704, .i1⟩
  | 4 => ⟨S_, .i32⟩
  | 5 => ⟨S200704, .i32⟩
  | 6 => ⟨S200704, .i32⟩
  | 7 => ⟨S200704, .i32⟩
  | 8 => ⟨S_, .i32⟩
  | 9 => ⟨S200704, .i32⟩
  | 10 => ⟨S200704, .i1⟩
  | 11 => ⟨S_, .i32⟩
  | 12 => ⟨S200704, .i32⟩
  | 13 => ⟨S200704, .i32⟩
  | 14 => ⟨S200704, .i32⟩
  | 15 => ⟨S_, .i32⟩
  | 16 => ⟨S200704, .i32⟩
  | 17 => ⟨S200704, .i1⟩
  | 18 => ⟨S_, .i32⟩
  | 19 => ⟨S200704, .i32⟩
  | 20 => ⟨S200704, .i32⟩
  | 21 => ⟨S200704, .i32⟩
  | 22 => ⟨S_, .i32⟩
  | 23 => ⟨S200704, .i32⟩
  | 24 => ⟨S200704, .i1⟩
  | 25 => ⟨S_, .i32⟩
  | 26 => ⟨S200704, .i32⟩
  | 27 => ⟨S200704, .i32⟩
  | 28 => ⟨S200704, .i32⟩
  | 29 => ⟨S200704x1, .i32⟩
  | 30 => ⟨S200704x1, .i32⟩
  | 31 => ⟨S200704x1, .i32⟩
  | 32 => ⟨S200704x1, .i32⟩
  | 33 => ⟨S200704x4, .i32⟩
  | 34 => ⟨S200704x64, .f32⟩
  | 35 => ⟨S1x3, .f32⟩
  | 36 => ⟨S200000x3, .f32⟩
  | 37 => ⟨S200000x3, .f32⟩
  | 38 => ⟨S_, .f32⟩
  | 39 => ⟨S_, .f32⟩
  | 40 => ⟨S_, .f32⟩
  | 41 => ⟨S200000x3, .f32⟩
  | 42 => ⟨S200000x3, .f32⟩
  | 43 => ⟨S_, .f32⟩
  | 44 => ⟨S200000x3, .f32⟩
  | 45 => ⟨S200000x3, .f32⟩
  | 46 => ⟨S200000x1, .f32⟩
  | 47 => ⟨S200000, .f32⟩
  | 48 => ⟨S200000, .f32⟩
  | 49 => ⟨S200000x1, .f32⟩
  | 50 => ⟨S200000, .f32⟩
  | 51 => ⟨S200000, .f32⟩
  | 52 => ⟨S200000x1, .f32⟩
  | 53 => ⟨S200000, .f32⟩
  | 54 => ⟨S200000, .f32⟩
  | 55 => ⟨S200000x1, .f32⟩
  | 56 => ⟨S200000, .f32⟩
  | 57 => ⟨S200000, .f32⟩
  | 58 => ⟨S200000x1, .f32⟩
  | 59 => ⟨S200000, .f32⟩
  | 60 => ⟨S200000, .f32⟩
  | 61 => ⟨S200000x1, .f32⟩
  | 62 => ⟨S200000, .f32⟩
  | 63 => ⟨S200000, .f32⟩
  | 64 => ⟨S200000, .i32⟩
  | 65 => ⟨S200000, .i32⟩
  | 66 => ⟨S200000, .i32⟩
  | 67 => ⟨S200000, .i32⟩
  | 68 => ⟨S200000, .i32⟩
  | 69 => ⟨S200000, .i32⟩
  | 70 => ⟨S200000x1, .f32⟩
  | 71 => ⟨S200000, .f32⟩
  | 72 => ⟨S200000, .f32⟩
  | 73 => ⟨S200000x1, .f32⟩
  | 74 => ⟨S200000, .f32⟩
  | 75 => ⟨S200000, .f32⟩
  | 76 => ⟨S200000x1, .f32⟩
  | 77 => ⟨S200000, .f32⟩
  | 78 => ⟨S200000, .f32⟩
  | 79 => ⟨S200000x1, .f32⟩
  | 80 => ⟨S200000, .f32⟩
  | 81 => ⟨S200000, .f32⟩
  | 82 => ⟨S200000x1, .f32⟩
  | 83 => ⟨S200000, .f32⟩
  | 84 => ⟨S200000, .f32⟩
  | 85 => ⟨S200000x1, .f32⟩
  | 86 => ⟨S200000, .f32⟩
  | 87 => ⟨S200000, .f32⟩
  | 88 => ⟨S200000, .f32⟩
  | 89 => ⟨S200000, .f32⟩
  | 90 => ⟨S200000, .f32⟩
  | 91 => ⟨S200000, .f32⟩
  | 92 => ⟨S200000, .f32⟩
  | 93 => ⟨S200000, .f32⟩
  | 94 => ⟨S200000, .f32⟩
  | 95 => ⟨S200000, .f32⟩
  | 96 => ⟨S200000, .f32⟩
  | 97 => ⟨S200000, .f32⟩
  | 98 => ⟨S200000, .f32⟩
  | 99 => ⟨S200000, .f32⟩
  | 100 => ⟨S200000, .f32⟩
  | 101 => ⟨S200000, .f32⟩
  | 102 => ⟨S200000, .f32⟩
  | 103 => ⟨S200000, .f32⟩
  | 104 => ⟨S_, .i32⟩
  | 105 => ⟨S_, .i32⟩
  | 106 => ⟨S200704, .i32⟩
  | 107 => ⟨S_, .i32⟩
  | 108 => ⟨S_, .i32⟩
  | 109 => ⟨S200704, .i32⟩
  | 110 => ⟨S_, .i32⟩
  | 111 => ⟨S_, .i32⟩
  | 112 => ⟨S200704, .i32⟩
  | 113 => ⟨S_, .i32⟩
  | 114 => ⟨S_, .i32⟩
  | 115 => ⟨S200704, .i32⟩
  | 116 => ⟨S_, .i32⟩
  | 117 => ⟨S_, .i32⟩
  | 118 => ⟨S200704, .i32⟩
  | 119 => ⟨S_, .i32⟩
  | 120 => ⟨S_, .i32⟩
  | 121 => ⟨S200704, .i32⟩
  | 122 => ⟨S_, .i32⟩
  | 123 => ⟨S_, .i32⟩
  | 124 => ⟨S200704, .i32⟩
  | 125 => ⟨S_, .f32⟩
  | 126 => ⟨S_, .f32⟩
  | 127 => ⟨S200704, .f32⟩
  | _ => ⟨S2x128x128x128x16, .f32⟩

abbrev hbmTy0_7 (i : Nat) : BufTy := match i % 128 with
  | 0 => ⟨S_, .f32⟩
  | 1 => ⟨S_, .f32⟩
  | 2 => ⟨S200704, .f32⟩
  | 3 => ⟨S_, .f32⟩
  | 4 => ⟨S_, .f32⟩
  | 5 => ⟨S200704, .f32⟩
  | 6 => ⟨S_, .f32⟩
  | 7 => ⟨S_, .f32⟩
  | 8 => ⟨S200704, .f32⟩
  | 9 => ⟨S_, .f32⟩
  | 10 => ⟨S_, .f32⟩
  | 11 => ⟨S200704, .f32⟩
  | 12 => ⟨S_, .f32⟩
  | 13 => ⟨S_, .f32⟩
  | 14 => ⟨S200704, .f32⟩
  | 15 => ⟨S_, .f32⟩
  | 16 => ⟨S_, .f32⟩
  | 17 => ⟨S200704, .f32⟩
  | 18 => ⟨S_, .f32⟩
  | 19 => ⟨S_, .f32⟩
  | 20 => ⟨S200704, .f32⟩
  | 21 => ⟨S200704x1, .f32⟩
  | 22 => ⟨S200704x1, .f32⟩
  | 23 => ⟨S200704x1, .f32⟩
  | 24 => ⟨S200704x1, .f32⟩
  | 25 => ⟨S200704x1, .f32⟩
  | 26 => ⟨S200704x1, .f32⟩
  | 27 => ⟨S200704x1, .f32⟩
  | 28 => ⟨S200704x1, .f32⟩
  | 29 => ⟨S200704x8, .f32⟩
  | 30 => ⟨S_, .i32⟩
  | 31 => ⟨S200704, .i32⟩
  | 32 => ⟨S200704, .i1⟩
  | 33 => ⟨S_, .i32⟩
  | 34 => ⟨S200704, .i32⟩
  | 35 => ⟨S200704, .i32⟩
  | 36 => ⟨S200704, .i32⟩
  | 37 => ⟨S_, .i32⟩
  | 38 => ⟨S200704, .i32⟩
  | 39 => ⟨S200704, .i1⟩
  | 40 => ⟨S_, .i32⟩
  | 41 => ⟨S200704, .i32⟩
  | 42 => ⟨S200704, .i32⟩
  | 43 => ⟨S200704, .i32⟩
  | 44 => ⟨S_, .i32⟩
  | 45 => ⟨S200704, .i32⟩
  | 46 => ⟨S200704, .i1⟩
  | 47 => ⟨S_, .i32⟩
  | 48 => ⟨S200704, .i32⟩
  | 49 => ⟨S200704, .i32⟩
  | 50 => ⟨S200704, .i32⟩
  | 51 => ⟨S_, .i32⟩
  | 52 => ⟨S200704, .i32⟩
  | 53 => ⟨S200704, .i1⟩
  | 54 => ⟨S_, .i32⟩
  | 55 => ⟨S200704, .i32⟩
  | 56 => ⟨S200704, .i32⟩
  | 57 => ⟨S200704, .i32⟩
  | 58 => ⟨S200704x1, .i32⟩
  | 59 => ⟨S200704x1, .i32⟩
  | 60 => ⟨S200704x1, .i32⟩
  | 61 => ⟨S200704x1, .i32⟩
  | 62 => ⟨S200704x4, .i32⟩
  | 63 => ⟨S200704x128, .f32⟩
  | 64 => ⟨S_, .i32⟩
  | 65 => ⟨S200704, .i32⟩
  | 66 => ⟨S200704, .i1⟩
  | 67 => ⟨S_, .i32⟩
  | 68 => ⟨S200704, .i32⟩
  | 69 => ⟨S200704, .i32⟩
  | 70 => ⟨S200704, .i32⟩
  | 71 => ⟨S_, .i32⟩
  | 72 => ⟨S200704, .i32⟩
  | 73 => ⟨S200704, .i1⟩
  | 74 => ⟨S_, .i32⟩
  | 75 => ⟨S200704, .i32⟩
  | 76 => ⟨S200704, .i32⟩
  | 77 => ⟨S200704, .i32⟩
  | 78 => ⟨S_, .i32⟩
  | 79 => ⟨S200704, .i32⟩
  | 80 => ⟨S200704, .i1⟩
  | 81 => ⟨S_, .i32⟩
  | 82 => ⟨S200704, .i32⟩
  | 83 => ⟨S200704, .i32⟩
  | 84 => ⟨S200704, .i32⟩
  | 85 => ⟨S_, .i32⟩
  | 86 => ⟨S200704, .i32⟩
  | 87 => ⟨S200704, .i1⟩
  | 88 => ⟨S_, .i32⟩
  | 89 => ⟨S200704, .i32⟩
  | 90 => ⟨S200704, .i32⟩
  | 91 => ⟨S200704, .i32⟩
  | 92 => ⟨S200704x1, .i32⟩
  | 93 => ⟨S200704x1, .i32⟩
  | 94 => ⟨S200704x1, .i32⟩
  | 95 => ⟨S200704x1, .i32⟩
  | 96 => ⟨S200704x4, .i32⟩
  | 97 => ⟨S200704x128, .f32⟩
  | 98 => ⟨S_, .i32⟩
  | 99 => ⟨S200704, .i32⟩
  | 100 => ⟨S200704, .i1⟩
  | 101 => ⟨S_, .i32⟩
  | 102 => ⟨S200704, .i32⟩
  | 103 => ⟨S200704, .i32⟩
  | 104 => ⟨S200704, .i32⟩
  | 105 => ⟨S_, .i32⟩
  | 106 => ⟨S200704, .i32⟩
  | 107 => ⟨S200704, .i1⟩
  | 108 => ⟨S_, .i32⟩
  | 109 => ⟨S200704, .i32⟩
  | 110 => ⟨S200704, .i32⟩
  | 111 => ⟨S200704, .i32⟩
  | 112 => ⟨S_, .i32⟩
  | 113 => ⟨S200704, .i32⟩
  | 114 => ⟨S200704, .i1⟩
  | 115 => ⟨S_, .i32⟩
  | 116 => ⟨S200704, .i32⟩
  | 117 => ⟨S200704, .i32⟩
  | 118 => ⟨S200704, .i32⟩
  | 119 => ⟨S_, .i32⟩
  | 120 => ⟨S200704, .i32⟩
  | 121 => ⟨S200704, .i1⟩
  | 122 => ⟨S_, .i32⟩
  | 123 => ⟨S200704, .i32⟩
  | 124 => ⟨S200704, .i32⟩
  | 125 => ⟨S200704, .i32⟩
  | 126 => ⟨S200704x1, .i32⟩
  | 127 => ⟨S200704x1, .i32⟩
  | _ => ⟨S2x128x128x128x16, .f32⟩

abbrev hbmTy0_8 (i : Nat) : BufTy := match i % 128 with
  | 0 => ⟨S200704x1, .i32⟩
  | 1 => ⟨S200704x1, .i32⟩
  | 2 => ⟨S200704x4, .i32⟩
  | 3 => ⟨S200704x128, .f32⟩
  | 4 => ⟨S_, .i32⟩
  | 5 => ⟨S200704, .i32⟩
  | 6 => ⟨S200704, .i1⟩
  | 7 => ⟨S_, .i32⟩
  | 8 => ⟨S200704, .i32⟩
  | 9 => ⟨S200704, .i32⟩
  | 10 => ⟨S200704, .i32⟩
  | 11 => ⟨S_, .i32⟩
  | 12 => ⟨S200704, .i32⟩
  | 13 => ⟨S200704, .i1⟩
  | 14 => ⟨S_, .i32⟩
  | 15 => ⟨S200704, .i32⟩
  | 16 => ⟨S200704, .i32⟩
  | 17 => ⟨S200704, .i32⟩
  | 18 => ⟨S_, .i32⟩
  | 19 => ⟨S200704, .i32⟩
  | 20 => ⟨S200704, .i1⟩
  | 21 => ⟨S_, .i32⟩
  | 22 => ⟨S200704, .i32⟩
  | 23 => ⟨S200704, .i32⟩
  | 24 => ⟨S200704, .i32⟩
  | 25 => ⟨S_, .i32⟩
  | 26 => ⟨S200704, .i32⟩
  | 27 => ⟨S200704, .i1⟩
  | 28 => ⟨S_, .i32⟩
  | 29 => ⟨S200704, .i32⟩
  | 30 => ⟨S200704, .i32⟩
  | 31 => ⟨S200704, .i32⟩
  | 32 => ⟨S200704x1, .i32⟩
  | 33 => ⟨S200704x1, .i32⟩
  | 34 => ⟨S200704x1, .i32⟩
  | 35 => ⟨S200704x1, .i32⟩
  | 36 => ⟨S200704x4, .i32⟩
  | 37 => ⟨S200704x128, .f32⟩
  | 38 => ⟨S_, .i32⟩
  | 39 => ⟨S200704, .i32⟩
  | 40 => ⟨S200704, .i1⟩
  | 41 => ⟨S_, .i32⟩
  | 42 => ⟨S200704, .i32⟩
  | 43 => ⟨S200704, .i32⟩
  | 44 => ⟨S200704, .i32⟩
  | 45 => ⟨S_, .i32⟩
  | 46 => ⟨S200704, .i32⟩
  | 47 => ⟨S200704, .i1⟩
  | 48 => ⟨S_, .i32⟩
  | 49 => ⟨S200704, .i32⟩
  | 50 => ⟨S200704, .i32⟩
  | 51 => ⟨S200704, .i32⟩
  | 52 => ⟨S_, .i32⟩
  | 53 => ⟨S200704, .i32⟩
  | 54 => ⟨S200704, .i1⟩
  | 55 => ⟨S_, .i32⟩
  | 56 => ⟨S200704, .i32⟩
  | 57 => ⟨S200704, .i32⟩
  | 58 => ⟨S200704, .i32⟩
  | 59 => ⟨S_, .i32⟩
  | 60 => ⟨S200704, .i32⟩
  | 61 => ⟨S200704, .i1⟩
  | 62 => ⟨S_, .i32⟩
  | 63 => ⟨S200704, .i32⟩
  | 64 => ⟨S200704, .i32⟩
  | 65 => ⟨S200704, .i32⟩
  | 66 => ⟨S200704x1, .i32⟩
  | 67 => ⟨S200704x1, .i32⟩
  | 68 => ⟨S200704x1, .i32⟩
  | 69 => ⟨S200704x1, .i32⟩
  | 70 => ⟨S200704x4, .i32⟩
  | 71 => ⟨S200704x128, .f32⟩
  | 72 => ⟨S_, .i32⟩
  | 73 => ⟨S200704, .i32⟩
  | 74 => ⟨S200704, .i1⟩
  | 75 => ⟨S_, .i32⟩
  | 76 => ⟨S200704, .i32⟩
  | 77 => ⟨S200704, .i32⟩
  | 78 => ⟨S200704, .i32⟩
  | 79 => ⟨S_, .i32⟩
  | 80 => ⟨S200704, .i32⟩
  | 81 => ⟨S200704, .i1⟩
  | 82 => ⟨S_, .i32⟩
  | 83 => ⟨S200704, .i32⟩
  | 84 => ⟨S200704, .i32⟩
  | 85 => ⟨S200704, .i32⟩
  | 86 => ⟨S_, .i32⟩
  | 87 => ⟨S200704, .i32⟩
  | 88 => ⟨S200704, .i1⟩
  | 89 => ⟨S_, .i32⟩
  | 90 => ⟨S200704, .i32⟩
  | 91 => ⟨S200704, .i32⟩
  | 92 => ⟨S200704, .i32⟩
  | 93 => ⟨S_, .i32⟩
  | 94 => ⟨S200704, .i32⟩
  | 95 => ⟨S200704, .i1⟩
  | 96 => ⟨S_, .i32⟩
  | 97 => ⟨S200704, .i32⟩
  | 98 => ⟨S200704, .i32⟩
  | 99 => ⟨S200704, .i32⟩
  | 100 => ⟨S200704x1, .i32⟩
  | 101 => ⟨S200704x1, .i32⟩
  | 102 => ⟨S200704x1, .i32⟩
  | 103 => ⟨S200704x1, .i32⟩
  | 104 => ⟨S200704x4, .i32⟩
  | 105 => ⟨S200704x128, .f32⟩
  | 106 => ⟨S_, .i32⟩
  | 107 => ⟨S200704, .i32⟩
  | 108 => ⟨S200704, .i1⟩
  | 109 => ⟨S_, .i32⟩
  | 110 => ⟨S200704, .i32⟩
  | 111 => ⟨S200704, .i32⟩
  | 112 => ⟨S200704, .i32⟩
  | 113 => ⟨S_, .i32⟩
  | 114 => ⟨S200704, .i32⟩
  | 115 => ⟨S200704, .i1⟩
  | 116 => ⟨S_, .i32⟩
  | 117 => ⟨S200704, .i32⟩
  | 118 => ⟨S200704, .i32⟩
  | 119 => ⟨S200704, .i32⟩
  | 120 => ⟨S_, .i32⟩
  | 121 => ⟨S200704, .i32⟩
  | 122 => ⟨S200704, .i1⟩
  | 123 => ⟨S_, .i32⟩
  | 124 => ⟨S200704, .i32⟩
  | 125 => ⟨S200704, .i32⟩
  | 126 => ⟨S200704, .i32⟩
  | 127 => ⟨S_, .i32⟩
  | _ => ⟨S2x128x128x128x16, .f32⟩

abbrev hbmTy0_9 (i : Nat) : BufTy := match i % 128 with
  | 0 => ⟨S200704, .i32⟩
  | 1 => ⟨S200704, .i1⟩
  | 2 => ⟨S_, .i32⟩
  | 3 => ⟨S200704, .i32⟩
  | 4 => ⟨S200704, .i32⟩
  | 5 => ⟨S200704, .i32⟩
  | 6 => ⟨S200704x1, .i32⟩
  | 7 => ⟨S200704x1, .i32⟩
  | 8 => ⟨S200704x1, .i32⟩
  | 9 => ⟨S200704x1, .i32⟩
  | 10 => ⟨S200704x4, .i32⟩
  | 11 => ⟨S200704x128, .f32⟩
  | 12 => ⟨S_, .i32⟩
  | 13 => ⟨S200704, .i32⟩
  | 14 => ⟨S200704, .i1⟩
  | 15 => ⟨S_, .i32⟩
  | 16 => ⟨S200704, .i32⟩
  | 17 => ⟨S200704, .i32⟩
  | 18 => ⟨S200704, .i32⟩
  | 19 => ⟨S_, .i32⟩
  | 20 => ⟨S200704, .i32⟩
  | 21 => ⟨S200704, .i1⟩
  | 22 => ⟨S_, .i32⟩
  | 23 => ⟨S200704, .i32⟩
  | 24 => ⟨S200704, .i32⟩
  | 25 => ⟨S200704, .i32⟩
  | 26 => ⟨S_, .i32⟩
  | 27 => ⟨S200704, .i32⟩
  | 28 => ⟨S200704, .i1⟩
  | 29 => ⟨S_, .i32⟩
  | 30 => ⟨S200704, .i32⟩
  | 31 => ⟨S200704, .i32⟩
  | 32 => ⟨S200704, .i32⟩
  | 33 => ⟨S_, .i32⟩
  | 34 => ⟨S200704, .i32⟩
  | 35 => ⟨S200704, .i1⟩
  | 36 => ⟨S_, .i32⟩
  | 37 => ⟨S200704, .i32⟩
  | 38 => ⟨S200704, .i32⟩
  | 39 => ⟨S200704, .i32⟩
  | 40 => ⟨S200704x1, .i32⟩
  | 41 => ⟨S200704x1, .i32⟩
  | 42 => ⟨S200704x1, .i32⟩
  | 43 => ⟨S200704x1, .i32⟩
  | 44 => ⟨S200704x4, .i32⟩
  | 45 => ⟨S200704x128, .f32⟩
  | 46 => ⟨S200704x32, .f32⟩
  | 47 => ⟨S200704x64, .f32⟩
  | 48 => ⟨S200704x128, .f32⟩
  | 49 => ⟨S200000x32, .f32⟩
  | 50 => ⟨S200000x64, .f32⟩
  | 51 => ⟨S200000x128, .f32⟩
  | 52 => ⟨S200000x224, .f32⟩
  | 53 => ⟨S2x100000x224, .f32⟩
  | _ => ⟨S2x128x128x128x16, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | 5 => hbmTy0_5 i
  | 6 => hbmTy0_6 i
  | 7 => hbmTy0_7 i
  | 8 => hbmTy0_8 i
  | 9 => hbmTy0_9 i
  | _ => ⟨S2x128x128x128x16, .f32⟩

abbrev bufTy : (tb : Table) → Fin (tcTables nBuf tb) → BufTy
  | .hbm, ⟨i, _⟩ => hbmTy i
  | .local _ .vmem, ⟨0, _⟩ => ⟨S1024x32, .f32⟩
  | .local _ .vmem, ⟨1, _⟩ => ⟨S1024x32, .f32⟩
  | .local _ .vmem, ⟨2, _⟩ => ⟨S1024x32, .f32⟩
  | .local _ .vmem, ⟨3, _⟩ => ⟨S1024x32, .f32⟩
  | .local _ .vmem, ⟨4, _⟩ => ⟨S1024x32, .f32⟩
  | .local _ .vmem, ⟨5, _⟩ => ⟨S1024x32, .f32⟩
  | .local _ .vmem, ⟨6, _⟩ => ⟨S1024x32, .f32⟩
  | .local _ .vmem, ⟨7, _⟩ => ⟨S1024x32, .f32⟩
  | .local _ .vmem, ⟨8, _⟩ => ⟨S1024x32, .f32⟩
  | .local _ .vmem, ⟨9, _⟩ => ⟨S1024x32, .f32⟩
  | .local _ .vmem, ⟨10, _⟩ => ⟨S1024x32, .f32⟩
  | .local _ .vmem, ⟨11, _⟩ => ⟨S1024x32, .f32⟩
  | .local _ .vmem, ⟨12, _⟩ => ⟨S1024x32, .f32⟩
  | .local _ .vmem, ⟨13, _⟩ => ⟨S1024x32, .f32⟩
  | .local _ .vmem, ⟨14, _⟩ => ⟨S1024x32, .f32⟩
  | .local _ .vmem, ⟨15, _⟩ => ⟨S1024x32, .f32⟩
  | .local _ .vmem, ⟨16, _⟩ => ⟨S1024x8, .f32⟩
  | .local _ .vmem, ⟨17, _⟩ => ⟨S1024x8, .f32⟩
  | .local _ .vmem, ⟨18, _⟩ => ⟨S1024x64, .f32⟩
  | .local _ .vmem, ⟨19, _⟩ => ⟨S1024x64, .f32⟩
  | .local _ .vmem, ⟨20, _⟩ => ⟨S1024x64, .f32⟩
  | .local _ .vmem, ⟨21, _⟩ => ⟨S1024x64, .f32⟩
  | .local _ .vmem, ⟨22, _⟩ => ⟨S1024x64, .f32⟩
  | .local _ .vmem, ⟨23, _⟩ => ⟨S1024x64, .f32⟩
  | .local _ .vmem, ⟨24, _⟩ => ⟨S1024x64, .f32⟩
  | .local _ .vmem, ⟨25, _⟩ => ⟨S1024x64, .f32⟩
  | .local _ .vmem, ⟨26, _⟩ => ⟨S1024x64, .f32⟩
  | .local _ .vmem, ⟨27, _⟩ => ⟨S1024x64, .f32⟩
  | .local _ .vmem, ⟨28, _⟩ => ⟨S1024x64, .f32⟩
  | .local _ .vmem, ⟨29, _⟩ => ⟨S1024x64, .f32⟩
  | .local _ .vmem, ⟨30, _⟩ => ⟨S1024x64, .f32⟩
  | .local _ .vmem, ⟨31, _⟩ => ⟨S1024x64, .f32⟩
  | .local _ .vmem, ⟨32, _⟩ => ⟨S1024x64, .f32⟩
  | .local _ .vmem, ⟨33, _⟩ => ⟨S1024x64, .f32⟩
  | .local _ .vmem, ⟨34, _⟩ => ⟨S1024x8, .f32⟩
  | .local _ .vmem, ⟨35, _⟩ => ⟨S1024x8, .f32⟩
  | .local _ .vmem, ⟨36, _⟩ => ⟨S1024x128, .f32⟩
  | .local _ .vmem, ⟨37, _⟩ => ⟨S1024x128, .f32⟩
  | .local _ .vmem, ⟨38, _⟩ => ⟨S1024x128, .f32⟩
  | .local _ .vmem, ⟨39, _⟩ => ⟨S1024x128, .f32⟩
  | .local _ .vmem, ⟨40, _⟩ => ⟨S1024x128, .f32⟩
  | .local _ .vmem, ⟨41, _⟩ => ⟨S1024x128, .f32⟩
  | .local _ .vmem, ⟨42, _⟩ => ⟨S1024x128, .f32⟩
  | .local _ .vmem, ⟨43, _⟩ => ⟨S1024x128, .f32⟩
  | .local _ .vmem, ⟨44, _⟩ => ⟨S1024x128, .f32⟩
  | .local _ .vmem, ⟨45, _⟩ => ⟨S1024x128, .f32⟩
  | .local _ .vmem, ⟨46, _⟩ => ⟨S1024x128, .f32⟩
  | .local _ .vmem, ⟨47, _⟩ => ⟨S1024x128, .f32⟩
  | .local _ .vmem, ⟨48, _⟩ => ⟨S1024x128, .f32⟩
  | .local _ .vmem, ⟨49, _⟩ => ⟨S1024x128, .f32⟩
  | .local _ .vmem, ⟨50, _⟩ => ⟨S1024x128, .f32⟩
  | .local _ .vmem, ⟨51, _⟩ => ⟨S1024x128, .f32⟩
  | .local _ .vmem, ⟨52, _⟩ => ⟨S1024x8, .f32⟩
  | .local _ .vmem, ⟨53, _⟩ => ⟨S1024x8, .f32⟩
  | .local _ .vmem, ⟨54, _⟩ => ⟨S1024x32, .f32⟩
  | .local _ .vmem, ⟨55, _⟩ => ⟨S1024x32, .f32⟩
  | .local _ .vmem, ⟨56, _⟩ => ⟨S1024x64, .f32⟩
  | .local _ .vmem, ⟨57, _⟩ => ⟨S1024x64, .f32⟩
  | .local _ .vmem, ⟨58, _⟩ => ⟨S1024x128, .f32⟩
  | .local _ .vmem, ⟨59, _⟩ => ⟨S1024x128, .f32⟩
  | _, _ => ⟨S2x128x128x128x16, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | _, _ => false

abbrev semScoped : Fin 0 → Bool
  | ⟨_, h⟩ => absurd h (Nat.not_lt_zero _)

abbrev dmaSemScoped : Fin 60 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | _ => false

abbrev sig : RefSig :=
  ofTc nBuf bufTy 0 60 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_cst_0 : Ref sig .tc := ⟨.hbm, 7, rfl⟩
abbrev main_cst_1 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_cst_2 : Ref sig .tc := ⟨.hbm, 16, rfl⟩
abbrev main_cst_3 : Ref sig .tc := ⟨.hbm, 17, rfl⟩
abbrev main_call0_v0 : Ref sig .tc := ⟨.hbm, 18, rfl⟩
abbrev main_call0_v1 : Ref sig .tc := ⟨.hbm, 19, rfl⟩
abbrev main_call0_v2 : Ref sig .tc := ⟨.hbm, 20, rfl⟩
abbrev main_call0_v3 : Ref sig .tc := ⟨.hbm, 21, rfl⟩
abbrev main_call0_v4 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_v53 : Ref sig .tc := ⟨.hbm, 69, rfl⟩
abbrev main_v54 : Ref sig .tc := ⟨.hbm, 70, rfl⟩
abbrev main_v55 : Ref sig .tc := ⟨.hbm, 71, rfl⟩
abbrev main_v56 : Ref sig .tc := ⟨.hbm, 72, rfl⟩
abbrev main_v57 : Ref sig .tc := ⟨.hbm, 73, rfl⟩
abbrev main_v58 : Ref sig .tc := ⟨.hbm, 74, rfl⟩
abbrev main_v59 : Ref sig .tc := ⟨.hbm, 75, rfl⟩
abbrev main_v60 : Ref sig .tc := ⟨.hbm, 76, rfl⟩
abbrev main_v61 : Ref sig .tc := ⟨.hbm, 77, rfl⟩
abbrev main_v62 : Ref sig .tc := ⟨.hbm, 78, rfl⟩
abbrev main_v63 : Ref sig .tc := ⟨.hbm, 79, rfl⟩
abbrev main_v64 : Ref sig .tc := ⟨.hbm, 80, rfl⟩
abbrev main_v65 : Ref sig .tc := ⟨.hbm, 81, rfl⟩
abbrev main_c : Ref sig .tc := ⟨.hbm, 82, rfl⟩
abbrev main_call1_v0 : Ref sig .tc := ⟨.hbm, 83, rfl⟩
abbrev main_v66 : Ref sig .tc := ⟨.hbm, 84, rfl⟩
abbrev main_c_4 : Ref sig .tc := ⟨.hbm, 85, rfl⟩
abbrev main_call2_v0 : Ref sig .tc := ⟨.hbm, 86, rfl⟩
abbrev main_v67 : Ref sig .tc := ⟨.hbm, 87, rfl⟩
abbrev main_c_5 : Ref sig .tc := ⟨.hbm, 88, rfl⟩
abbrev main_call3_v0 : Ref sig .tc := ⟨.hbm, 89, rfl⟩
abbrev main_v68 : Ref sig .tc := ⟨.hbm, 90, rfl⟩
abbrev main_c_6 : Ref sig .tc := ⟨.hbm, 91, rfl⟩
abbrev main_call4_v0 : Ref sig .tc := ⟨.hbm, 92, rfl⟩
abbrev main_v69 : Ref sig .tc := ⟨.hbm, 93, rfl⟩
abbrev main_c_7 : Ref sig .tc := ⟨.hbm, 94, rfl⟩
abbrev main_call5_v0 : Ref sig .tc := ⟨.hbm, 95, rfl⟩
abbrev main_v70 : Ref sig .tc := ⟨.hbm, 96, rfl⟩
abbrev main_c_8 : Ref sig .tc := ⟨.hbm, 97, rfl⟩
abbrev main_call6_v0 : Ref sig .tc := ⟨.hbm, 98, rfl⟩
abbrev main_v71 : Ref sig .tc := ⟨.hbm, 99, rfl⟩
abbrev main_c_9 : Ref sig .tc := ⟨.hbm, 100, rfl⟩
abbrev main_call7_v0 : Ref sig .tc := ⟨.hbm, 101, rfl⟩
abbrev main_v72 : Ref sig .tc := ⟨.hbm, 102, rfl⟩
abbrev main_cst_10 : Ref sig .tc := ⟨.hbm, 103, rfl⟩
abbrev main_call8_v0 : Ref sig .tc := ⟨.hbm, 104, rfl⟩
abbrev main_v73 : Ref sig .tc := ⟨.hbm, 105, rfl⟩
abbrev main_cst_11 : Ref sig .tc := ⟨.hbm, 106, rfl⟩
abbrev main_call9_v0 : Ref sig .tc := ⟨.hbm, 107, rfl⟩
abbrev main_v74 : Ref sig .tc := ⟨.hbm, 108, rfl⟩
abbrev main_cst_12 : Ref sig .tc := ⟨.hbm, 109, rfl⟩
abbrev main_call10_v0 : Ref sig .tc := ⟨.hbm, 110, rfl⟩
abbrev main_v75 : Ref sig .tc := ⟨.hbm, 111, rfl⟩
abbrev main_cst_13 : Ref sig .tc := ⟨.hbm, 112, rfl⟩
abbrev main_call11_v0 : Ref sig .tc := ⟨.hbm, 113, rfl⟩
abbrev main_v76 : Ref sig .tc := ⟨.hbm, 114, rfl⟩
abbrev main_cst_14 : Ref sig .tc := ⟨.hbm, 115, rfl⟩
abbrev main_call12_v0 : Ref sig .tc := ⟨.hbm, 116, rfl⟩
abbrev main_v77 : Ref sig .tc := ⟨.hbm, 117, rfl⟩
abbrev main_cst_15 : Ref sig .tc := ⟨.hbm, 118, rfl⟩
abbrev main_call13_v0 : Ref sig .tc := ⟨.hbm, 119, rfl⟩
abbrev main_v78 : Ref sig .tc := ⟨.hbm, 120, rfl⟩
abbrev main_cst_16 : Ref sig .tc := ⟨.hbm, 121, rfl⟩
abbrev main_call14_v0 : Ref sig .tc := ⟨.hbm, 122, rfl⟩
abbrev main_v79 : Ref sig .tc := ⟨.hbm, 123, rfl⟩
abbrev main_cst_17 : Ref sig .tc := ⟨.hbm, 124, rfl⟩
abbrev main_call15_v0 : Ref sig .tc := ⟨.hbm, 125, rfl⟩
abbrev main_v80 : Ref sig .tc := ⟨.hbm, 126, rfl⟩
abbrev main_v81 : Ref sig .tc := ⟨.hbm, 127, rfl⟩
abbrev main_v82 : Ref sig .tc := ⟨.hbm, 128, rfl⟩
abbrev main_v83 : Ref sig .tc := ⟨.hbm, 129, rfl⟩
abbrev main_v84 : Ref sig .tc := ⟨.hbm, 130, rfl⟩
abbrev main_v85 : Ref sig .tc := ⟨.hbm, 131, rfl⟩
abbrev main_v86 : Ref sig .tc := ⟨.hbm, 132, rfl⟩
abbrev main_v87 : Ref sig .tc := ⟨.hbm, 133, rfl⟩
abbrev main_v88 : Ref sig .tc := ⟨.hbm, 134, rfl⟩
abbrev main_v89 : Ref sig .tc := ⟨.hbm, 135, rfl⟩
abbrev main_c_18 : Ref sig .tc := ⟨.hbm, 136, rfl⟩
abbrev main_v90 : Ref sig .tc := ⟨.hbm, 137, rfl⟩
abbrev main_v91 : Ref sig .tc := ⟨.hbm, 138, rfl⟩
abbrev main_c_19 : Ref sig .tc := ⟨.hbm, 139, rfl⟩
abbrev main_v92 : Ref sig .tc := ⟨.hbm, 140, rfl⟩
abbrev main_v93 : Ref sig .tc := ⟨.hbm, 141, rfl⟩
abbrev main_v94 : Ref sig .tc := ⟨.hbm, 142, rfl⟩
abbrev main_c_20 : Ref sig .tc := ⟨.hbm, 143, rfl⟩
abbrev main_v95 : Ref sig .tc := ⟨.hbm, 144, rfl⟩
abbrev main_v96 : Ref sig .tc := ⟨.hbm, 145, rfl⟩
abbrev main_c_21 : Ref sig .tc := ⟨.hbm, 146, rfl⟩
abbrev main_v97 : Ref sig .tc := ⟨.hbm, 147, rfl⟩
abbrev main_v98 : Ref sig .tc := ⟨.hbm, 148, rfl⟩
abbrev main_v99 : Ref sig .tc := ⟨.hbm, 149, rfl⟩
abbrev main_c_22 : Ref sig .tc := ⟨.hbm, 150, rfl⟩
abbrev main_v100 : Ref sig .tc := ⟨.hbm, 151, rfl⟩
abbrev main_v101 : Ref sig .tc := ⟨.hbm, 152, rfl⟩
abbrev main_c_23 : Ref sig .tc := ⟨.hbm, 153, rfl⟩
abbrev main_v102 : Ref sig .tc := ⟨.hbm, 154, rfl⟩
abbrev main_v103 : Ref sig .tc := ⟨.hbm, 155, rfl⟩
abbrev main_v104 : Ref sig .tc := ⟨.hbm, 156, rfl⟩
abbrev main_c_24 : Ref sig .tc := ⟨.hbm, 157, rfl⟩
abbrev main_v105 : Ref sig .tc := ⟨.hbm, 158, rfl⟩
abbrev main_v106 : Ref sig .tc := ⟨.hbm, 159, rfl⟩
abbrev main_c_25 : Ref sig .tc := ⟨.hbm, 160, rfl⟩
abbrev main_v107 : Ref sig .tc := ⟨.hbm, 161, rfl⟩
abbrev main_v108 : Ref sig .tc := ⟨.hbm, 162, rfl⟩
abbrev main_v109 : Ref sig .tc := ⟨.hbm, 163, rfl⟩
abbrev main_v110 : Ref sig .tc := ⟨.hbm, 164, rfl⟩
abbrev main_v111 : Ref sig .tc := ⟨.hbm, 165, rfl⟩
abbrev main_v112 : Ref sig .tc := ⟨.hbm, 166, rfl⟩
abbrev main_v113 : Ref sig .tc := ⟨.hbm, 167, rfl⟩
abbrev main_v114 : Ref sig .tc := ⟨.hbm, 168, rfl⟩
abbrev main_v115 : Ref sig .tc := ⟨.hbm, 169, rfl⟩
abbrev main_c_26 : Ref sig .tc := ⟨.hbm, 170, rfl⟩
abbrev main_v116 : Ref sig .tc := ⟨.hbm, 171, rfl⟩
abbrev main_v117 : Ref sig .tc := ⟨.hbm, 172, rfl⟩
abbrev main_c_27 : Ref sig .tc := ⟨.hbm, 173, rfl⟩
abbrev main_v118 : Ref sig .tc := ⟨.hbm, 174, rfl⟩
abbrev main_v119 : Ref sig .tc := ⟨.hbm, 175, rfl⟩
abbrev main_v120 : Ref sig .tc := ⟨.hbm, 176, rfl⟩
abbrev main_c_28 : Ref sig .tc := ⟨.hbm, 177, rfl⟩
abbrev main_v121 : Ref sig .tc := ⟨.hbm, 178, rfl⟩
abbrev main_v122 : Ref sig .tc := ⟨.hbm, 179, rfl⟩
abbrev main_c_29 : Ref sig .tc := ⟨.hbm, 180, rfl⟩
abbrev main_v123 : Ref sig .tc := ⟨.hbm, 181, rfl⟩
abbrev main_v124 : Ref sig .tc := ⟨.hbm, 182, rfl⟩
abbrev main_v125 : Ref sig .tc := ⟨.hbm, 183, rfl⟩
abbrev main_c_30 : Ref sig .tc := ⟨.hbm, 184, rfl⟩
abbrev main_v126 : Ref sig .tc := ⟨.hbm, 185, rfl⟩
abbrev main_v127 : Ref sig .tc := ⟨.hbm, 186, rfl⟩
abbrev main_c_31 : Ref sig .tc := ⟨.hbm, 187, rfl⟩
abbrev main_v128 : Ref sig .tc := ⟨.hbm, 188, rfl⟩
abbrev main_v129 : Ref sig .tc := ⟨.hbm, 189, rfl⟩
abbrev main_v130 : Ref sig .tc := ⟨.hbm, 190, rfl⟩
abbrev main_c_32 : Ref sig .tc := ⟨.hbm, 191, rfl⟩
abbrev main_v131 : Ref sig .tc := ⟨.hbm, 192, rfl⟩
abbrev main_v132 : Ref sig .tc := ⟨.hbm, 193, rfl⟩
abbrev main_c_33 : Ref sig .tc := ⟨.hbm, 194, rfl⟩
abbrev main_v133 : Ref sig .tc := ⟨.hbm, 195, rfl⟩
abbrev main_v134 : Ref sig .tc := ⟨.hbm, 196, rfl⟩
abbrev main_v135 : Ref sig .tc := ⟨.hbm, 197, rfl⟩
abbrev main_v136 : Ref sig .tc := ⟨.hbm, 198, rfl⟩
abbrev main_v137 : Ref sig .tc := ⟨.hbm, 199, rfl⟩
abbrev main_v138 : Ref sig .tc := ⟨.hbm, 200, rfl⟩
abbrev main_v139 : Ref sig .tc := ⟨.hbm, 201, rfl⟩
abbrev main_v140 : Ref sig .tc := ⟨.hbm, 202, rfl⟩
abbrev main_v141 : Ref sig .tc := ⟨.hbm, 203, rfl⟩
abbrev main_c_34 : Ref sig .tc := ⟨.hbm, 204, rfl⟩
abbrev main_v142 : Ref sig .tc := ⟨.hbm, 205, rfl⟩
abbrev main_v143 : Ref sig .tc := ⟨.hbm, 206, rfl⟩
abbrev main_c_35 : Ref sig .tc := ⟨.hbm, 207, rfl⟩
abbrev main_v144 : Ref sig .tc := ⟨.hbm, 208, rfl⟩
abbrev main_v145 : Ref sig .tc := ⟨.hbm, 209, rfl⟩
abbrev main_v146 : Ref sig .tc := ⟨.hbm, 210, rfl⟩
abbrev main_c_36 : Ref sig .tc := ⟨.hbm, 211, rfl⟩
abbrev main_v147 : Ref sig .tc := ⟨.hbm, 212, rfl⟩
abbrev main_v148 : Ref sig .tc := ⟨.hbm, 213, rfl⟩
abbrev main_c_37 : Ref sig .tc := ⟨.hbm, 214, rfl⟩
abbrev main_v149 : Ref sig .tc := ⟨.hbm, 215, rfl⟩
abbrev main_v150 : Ref sig .tc := ⟨.hbm, 216, rfl⟩
abbrev main_v151 : Ref sig .tc := ⟨.hbm, 217, rfl⟩
abbrev main_c_38 : Ref sig .tc := ⟨.hbm, 218, rfl⟩
abbrev main_v152 : Ref sig .tc := ⟨.hbm, 219, rfl⟩
abbrev main_v153 : Ref sig .tc := ⟨.hbm, 220, rfl⟩
abbrev main_c_39 : Ref sig .tc := ⟨.hbm, 221, rfl⟩
abbrev main_v154 : Ref sig .tc := ⟨.hbm, 222, rfl⟩
abbrev main_v155 : Ref sig .tc := ⟨.hbm, 223, rfl⟩
abbrev main_v156 : Ref sig .tc := ⟨.hbm, 224, rfl⟩
abbrev main_c_40 : Ref sig .tc := ⟨.hbm, 225, rfl⟩
abbrev main_v157 : Ref sig .tc := ⟨.hbm, 226, rfl⟩
abbrev main_v158 : Ref sig .tc := ⟨.hbm, 227, rfl⟩
abbrev main_c_41 : Ref sig .tc := ⟨.hbm, 228, rfl⟩
abbrev main_v159 : Ref sig .tc := ⟨.hbm, 229, rfl⟩
abbrev main_v160 : Ref sig .tc := ⟨.hbm, 230, rfl⟩
abbrev main_v161 : Ref sig .tc := ⟨.hbm, 231, rfl⟩
abbrev main_v162 : Ref sig .tc := ⟨.hbm, 232, rfl⟩
abbrev main_v163 : Ref sig .tc := ⟨.hbm, 233, rfl⟩
abbrev main_v164 : Ref sig .tc := ⟨.hbm, 234, rfl⟩
abbrev main_v165 : Ref sig .tc := ⟨.hbm, 235, rfl⟩
abbrev main_v166 : Ref sig .tc := ⟨.hbm, 236, rfl⟩
abbrev main_v167 : Ref sig .tc := ⟨.hbm, 237, rfl⟩
abbrev main_c_42 : Ref sig .tc := ⟨.hbm, 238, rfl⟩
abbrev main_v168 : Ref sig .tc := ⟨.hbm, 239, rfl⟩
abbrev main_v169 : Ref sig .tc := ⟨.hbm, 240, rfl⟩
abbrev main_c_43 : Ref sig .tc := ⟨.hbm, 241, rfl⟩
abbrev main_v170 : Ref sig .tc := ⟨.hbm, 242, rfl⟩
abbrev main_v171 : Ref sig .tc := ⟨.hbm, 243, rfl⟩
abbrev main_v172 : Ref sig .tc := ⟨.hbm, 244, rfl⟩
abbrev main_c_44 : Ref sig .tc := ⟨.hbm, 245, rfl⟩
abbrev main_v173 : Ref sig .tc := ⟨.hbm, 246, rfl⟩
abbrev main_v174 : Ref sig .tc := ⟨.hbm, 247, rfl⟩
abbrev main_c_45 : Ref sig .tc := ⟨.hbm, 248, rfl⟩
abbrev main_v175 : Ref sig .tc := ⟨.hbm, 249, rfl⟩
abbrev main_v176 : Ref sig .tc := ⟨.hbm, 250, rfl⟩
abbrev main_v177 : Ref sig .tc := ⟨.hbm, 251, rfl⟩
abbrev main_c_46 : Ref sig .tc := ⟨.hbm, 252, rfl⟩
abbrev main_v178 : Ref sig .tc := ⟨.hbm, 253, rfl⟩
abbrev main_v179 : Ref sig .tc := ⟨.hbm, 254, rfl⟩
abbrev main_c_47 : Ref sig .tc := ⟨.hbm, 255, rfl⟩
abbrev main_v180 : Ref sig .tc := ⟨.hbm, 256, rfl⟩
abbrev main_v181 : Ref sig .tc := ⟨.hbm, 257, rfl⟩
abbrev main_v182 : Ref sig .tc := ⟨.hbm, 258, rfl⟩
abbrev main_c_48 : Ref sig .tc := ⟨.hbm, 259, rfl⟩
abbrev main_v183 : Ref sig .tc := ⟨.hbm, 260, rfl⟩
abbrev main_v184 : Ref sig .tc := ⟨.hbm, 261, rfl⟩
abbrev main_c_49 : Ref sig .tc := ⟨.hbm, 262, rfl⟩
abbrev main_v185 : Ref sig .tc := ⟨.hbm, 263, rfl⟩
abbrev main_v186 : Ref sig .tc := ⟨.hbm, 264, rfl⟩
abbrev main_v187 : Ref sig .tc := ⟨.hbm, 265, rfl⟩
abbrev main_v188 : Ref sig .tc := ⟨.hbm, 266, rfl⟩
abbrev main_v189 : Ref sig .tc := ⟨.hbm, 267, rfl⟩
abbrev main_v190 : Ref sig .tc := ⟨.hbm, 268, rfl⟩
abbrev main_v191 : Ref sig .tc := ⟨.hbm, 269, rfl⟩
abbrev main_v192 : Ref sig .tc := ⟨.hbm, 270, rfl⟩
abbrev main_v193 : Ref sig .tc := ⟨.hbm, 271, rfl⟩
abbrev main_c_50 : Ref sig .tc := ⟨.hbm, 272, rfl⟩
abbrev main_v194 : Ref sig .tc := ⟨.hbm, 273, rfl⟩
abbrev main_v195 : Ref sig .tc := ⟨.hbm, 274, rfl⟩
abbrev main_c_51 : Ref sig .tc := ⟨.hbm, 275, rfl⟩
abbrev main_v196 : Ref sig .tc := ⟨.hbm, 276, rfl⟩
abbrev main_v197 : Ref sig .tc := ⟨.hbm, 277, rfl⟩
abbrev main_v198 : Ref sig .tc := ⟨.hbm, 278, rfl⟩
abbrev main_c_52 : Ref sig .tc := ⟨.hbm, 279, rfl⟩
abbrev main_v199 : Ref sig .tc := ⟨.hbm, 280, rfl⟩
abbrev main_v200 : Ref sig .tc := ⟨.hbm, 281, rfl⟩
abbrev main_c_53 : Ref sig .tc := ⟨.hbm, 282, rfl⟩
abbrev main_v201 : Ref sig .tc := ⟨.hbm, 283, rfl⟩
abbrev main_v202 : Ref sig .tc := ⟨.hbm, 284, rfl⟩
abbrev main_v203 : Ref sig .tc := ⟨.hbm, 285, rfl⟩
abbrev main_c_54 : Ref sig .tc := ⟨.hbm, 286, rfl⟩
abbrev main_v204 : Ref sig .tc := ⟨.hbm, 287, rfl⟩
abbrev main_v205 : Ref sig .tc := ⟨.hbm, 288, rfl⟩
abbrev main_c_55 : Ref sig .tc := ⟨.hbm, 289, rfl⟩
abbrev main_v206 : Ref sig .tc := ⟨.hbm, 290, rfl⟩
abbrev main_v207 : Ref sig .tc := ⟨.hbm, 291, rfl⟩
abbrev main_v208 : Ref sig .tc := ⟨.hbm, 292, rfl⟩
abbrev main_c_56 : Ref sig .tc := ⟨.hbm, 293, rfl⟩
abbrev main_v209 : Ref sig .tc := ⟨.hbm, 294, rfl⟩
abbrev main_v210 : Ref sig .tc := ⟨.hbm, 295, rfl⟩
abbrev main_c_57 : Ref sig .tc := ⟨.hbm, 296, rfl⟩
abbrev main_v211 : Ref sig .tc := ⟨.hbm, 297, rfl⟩
abbrev main_v212 : Ref sig .tc := ⟨.hbm, 298, rfl⟩
abbrev main_v213 : Ref sig .tc := ⟨.hbm, 299, rfl⟩
abbrev main_v214 : Ref sig .tc := ⟨.hbm, 300, rfl⟩
abbrev main_v215 : Ref sig .tc := ⟨.hbm, 301, rfl⟩
abbrev main_v216 : Ref sig .tc := ⟨.hbm, 302, rfl⟩
abbrev main_v217 : Ref sig .tc := ⟨.hbm, 303, rfl⟩
abbrev main_v218 : Ref sig .tc := ⟨.hbm, 304, rfl⟩
abbrev main_v219 : Ref sig .tc := ⟨.hbm, 305, rfl⟩
abbrev main_c_58 : Ref sig .tc := ⟨.hbm, 306, rfl⟩
abbrev main_v220 : Ref sig .tc := ⟨.hbm, 307, rfl⟩
abbrev main_v221 : Ref sig .tc := ⟨.hbm, 308, rfl⟩
abbrev main_c_59 : Ref sig .tc := ⟨.hbm, 309, rfl⟩
abbrev main_v222 : Ref sig .tc := ⟨.hbm, 310, rfl⟩
abbrev main_v223 : Ref sig .tc := ⟨.hbm, 311, rfl⟩
abbrev main_v224 : Ref sig .tc := ⟨.hbm, 312, rfl⟩
abbrev main_c_60 : Ref sig .tc := ⟨.hbm, 313, rfl⟩
abbrev main_v225 : Ref sig .tc := ⟨.hbm, 314, rfl⟩
abbrev main_v226 : Ref sig .tc := ⟨.hbm, 315, rfl⟩
abbrev main_c_61 : Ref sig .tc := ⟨.hbm, 316, rfl⟩
abbrev main_v227 : Ref sig .tc := ⟨.hbm, 317, rfl⟩
abbrev main_v228 : Ref sig .tc := ⟨.hbm, 318, rfl⟩
abbrev main_v229 : Ref sig .tc := ⟨.hbm, 319, rfl⟩
abbrev main_c_62 : Ref sig .tc := ⟨.hbm, 320, rfl⟩
abbrev main_v230 : Ref sig .tc := ⟨.hbm, 321, rfl⟩
abbrev main_v231 : Ref sig .tc := ⟨.hbm, 322, rfl⟩
abbrev main_c_63 : Ref sig .tc := ⟨.hbm, 323, rfl⟩
abbrev main_v232 : Ref sig .tc := ⟨.hbm, 324, rfl⟩
abbrev main_v233 : Ref sig .tc := ⟨.hbm, 325, rfl⟩
abbrev main_v234 : Ref sig .tc := ⟨.hbm, 326, rfl⟩
abbrev main_c_64 : Ref sig .tc := ⟨.hbm, 327, rfl⟩
abbrev main_v235 : Ref sig .tc := ⟨.hbm, 328, rfl⟩
abbrev main_v236 : Ref sig .tc := ⟨.hbm, 329, rfl⟩
abbrev main_c_65 : Ref sig .tc := ⟨.hbm, 330, rfl⟩
abbrev main_v237 : Ref sig .tc := ⟨.hbm, 331, rfl⟩
abbrev main_v238 : Ref sig .tc := ⟨.hbm, 332, rfl⟩
abbrev main_v239 : Ref sig .tc := ⟨.hbm, 333, rfl⟩
abbrev main_v240 : Ref sig .tc := ⟨.hbm, 334, rfl⟩
abbrev main_v241 : Ref sig .tc := ⟨.hbm, 335, rfl⟩
abbrev main_v242 : Ref sig .tc := ⟨.hbm, 336, rfl⟩
abbrev main_v243 : Ref sig .tc := ⟨.hbm, 337, rfl⟩
abbrev main_v244 : Ref sig .tc := ⟨.hbm, 338, rfl⟩
abbrev main_v245 : Ref sig .tc := ⟨.hbm, 339, rfl⟩
abbrev main_c_66 : Ref sig .tc := ⟨.hbm, 340, rfl⟩
abbrev main_v246 : Ref sig .tc := ⟨.hbm, 341, rfl⟩
abbrev main_v247 : Ref sig .tc := ⟨.hbm, 342, rfl⟩
abbrev main_c_67 : Ref sig .tc := ⟨.hbm, 343, rfl⟩
abbrev main_v248 : Ref sig .tc := ⟨.hbm, 344, rfl⟩
abbrev main_v249 : Ref sig .tc := ⟨.hbm, 345, rfl⟩
abbrev main_v250 : Ref sig .tc := ⟨.hbm, 346, rfl⟩
abbrev main_c_68 : Ref sig .tc := ⟨.hbm, 347, rfl⟩
abbrev main_v251 : Ref sig .tc := ⟨.hbm, 348, rfl⟩
abbrev main_v252 : Ref sig .tc := ⟨.hbm, 349, rfl⟩
abbrev main_c_69 : Ref sig .tc := ⟨.hbm, 350, rfl⟩
abbrev main_v253 : Ref sig .tc := ⟨.hbm, 351, rfl⟩
abbrev main_v254 : Ref sig .tc := ⟨.hbm, 352, rfl⟩
abbrev main_v255 : Ref sig .tc := ⟨.hbm, 353, rfl⟩
abbrev main_c_70 : Ref sig .tc := ⟨.hbm, 354, rfl⟩
abbrev main_v256 : Ref sig .tc := ⟨.hbm, 355, rfl⟩
abbrev main_v257 : Ref sig .tc := ⟨.hbm, 356, rfl⟩
abbrev main_c_71 : Ref sig .tc := ⟨.hbm, 357, rfl⟩
abbrev main_v258 : Ref sig .tc := ⟨.hbm, 358, rfl⟩
abbrev main_v259 : Ref sig .tc := ⟨.hbm, 359, rfl⟩
abbrev main_v260 : Ref sig .tc := ⟨.hbm, 360, rfl⟩
abbrev main_c_72 : Ref sig .tc := ⟨.hbm, 361, rfl⟩
abbrev main_v261 : Ref sig .tc := ⟨.hbm, 362, rfl⟩
abbrev main_v262 : Ref sig .tc := ⟨.hbm, 363, rfl⟩
abbrev main_c_73 : Ref sig .tc := ⟨.hbm, 364, rfl⟩
abbrev main_v263 : Ref sig .tc := ⟨.hbm, 365, rfl⟩
abbrev main_v264 : Ref sig .tc := ⟨.hbm, 366, rfl⟩
abbrev main_v265 : Ref sig .tc := ⟨.hbm, 367, rfl⟩
abbrev main_v266 : Ref sig .tc := ⟨.hbm, 368, rfl⟩
abbrev main_v267 : Ref sig .tc := ⟨.hbm, 369, rfl⟩
abbrev main_v268 : Ref sig .tc := ⟨.hbm, 370, rfl⟩
abbrev main_v269 : Ref sig .tc := ⟨.hbm, 371, rfl⟩
abbrev main_v270 : Ref sig .tc := ⟨.hbm, 372, rfl⟩
abbrev main_v271 : Ref sig .tc := ⟨.hbm, 373, rfl⟩
abbrev main_c_74 : Ref sig .tc := ⟨.hbm, 374, rfl⟩
abbrev main_v272 : Ref sig .tc := ⟨.hbm, 375, rfl⟩
abbrev main_v273 : Ref sig .tc := ⟨.hbm, 376, rfl⟩
abbrev main_c_75 : Ref sig .tc := ⟨.hbm, 377, rfl⟩
abbrev main_v274 : Ref sig .tc := ⟨.hbm, 378, rfl⟩
abbrev main_v275 : Ref sig .tc := ⟨.hbm, 379, rfl⟩
abbrev main_v276 : Ref sig .tc := ⟨.hbm, 380, rfl⟩
abbrev main_c_76 : Ref sig .tc := ⟨.hbm, 381, rfl⟩
abbrev main_v277 : Ref sig .tc := ⟨.hbm, 382, rfl⟩
abbrev main_v278 : Ref sig .tc := ⟨.hbm, 383, rfl⟩
abbrev main_c_77 : Ref sig .tc := ⟨.hbm, 384, rfl⟩
abbrev main_v279 : Ref sig .tc := ⟨.hbm, 385, rfl⟩
abbrev main_v280 : Ref sig .tc := ⟨.hbm, 386, rfl⟩
abbrev main_v281 : Ref sig .tc := ⟨.hbm, 387, rfl⟩
abbrev main_c_78 : Ref sig .tc := ⟨.hbm, 388, rfl⟩
abbrev main_v282 : Ref sig .tc := ⟨.hbm, 389, rfl⟩
abbrev main_v283 : Ref sig .tc := ⟨.hbm, 390, rfl⟩
abbrev main_c_79 : Ref sig .tc := ⟨.hbm, 391, rfl⟩
abbrev main_v284 : Ref sig .tc := ⟨.hbm, 392, rfl⟩
abbrev main_v285 : Ref sig .tc := ⟨.hbm, 393, rfl⟩
abbrev main_v286 : Ref sig .tc := ⟨.hbm, 394, rfl⟩
abbrev main_c_80 : Ref sig .tc := ⟨.hbm, 395, rfl⟩
abbrev main_v287 : Ref sig .tc := ⟨.hbm, 396, rfl⟩
abbrev main_v288 : Ref sig .tc := ⟨.hbm, 397, rfl⟩
abbrev main_c_81 : Ref sig .tc := ⟨.hbm, 398, rfl⟩
abbrev main_v289 : Ref sig .tc := ⟨.hbm, 399, rfl⟩
abbrev main_v290 : Ref sig .tc := ⟨.hbm, 400, rfl⟩
abbrev main_v291 : Ref sig .tc := ⟨.hbm, 401, rfl⟩
abbrev main_v292 : Ref sig .tc := ⟨.hbm, 402, rfl⟩
abbrev main_v293 : Ref sig .tc := ⟨.hbm, 403, rfl⟩
abbrev main_v294 : Ref sig .tc := ⟨.hbm, 404, rfl⟩
abbrev main_v295 : Ref sig .tc := ⟨.hbm, 405, rfl⟩
abbrev main_v296 : Ref sig .tc := ⟨.hbm, 406, rfl⟩
abbrev main_v297 : Ref sig .tc := ⟨.hbm, 407, rfl⟩
abbrev main_v298 : Ref sig .tc := ⟨.hbm, 408, rfl⟩
abbrev main_v299 : Ref sig .tc := ⟨.hbm, 409, rfl⟩
abbrev main_v300 : Ref sig .tc := ⟨.hbm, 410, rfl⟩
abbrev main_cst_82 : Ref sig .tc := ⟨.hbm, 411, rfl⟩
abbrev main_cst_83 : Ref sig .tc := ⟨.hbm, 412, rfl⟩
abbrev main_call16_v0 : Ref sig .tc := ⟨.hbm, 413, rfl⟩
abbrev main_call16_v1 : Ref sig .tc := ⟨.hbm, 414, rfl⟩
abbrev main_call16_v2 : Ref sig .tc := ⟨.hbm, 415, rfl⟩
abbrev main_call16_v3 : Ref sig .tc := ⟨.hbm, 416, rfl⟩
abbrev main_call16_v4 : Ref sig .tc := ⟨.hbm, 417, rfl⟩
abbrev main_v301 : Ref sig .tc := ⟨.hbm, 418, rfl⟩
abbrev main_v302 : Ref sig .tc := ⟨.hbm, 419, rfl⟩
abbrev main_v303 : Ref sig .tc := ⟨.hbm, 420, rfl⟩
abbrev main_v304 : Ref sig .tc := ⟨.hbm, 421, rfl⟩
abbrev main_v305 : Ref sig .tc := ⟨.hbm, 422, rfl⟩
abbrev main_v306 : Ref sig .tc := ⟨.hbm, 423, rfl⟩
abbrev main_v307 : Ref sig .tc := ⟨.hbm, 424, rfl⟩
abbrev main_v308 : Ref sig .tc := ⟨.hbm, 425, rfl⟩
abbrev main_v309 : Ref sig .tc := ⟨.hbm, 426, rfl⟩
abbrev main_v310 : Ref sig .tc := ⟨.hbm, 427, rfl⟩
abbrev main_v311 : Ref sig .tc := ⟨.hbm, 428, rfl⟩
abbrev main_v312 : Ref sig .tc := ⟨.hbm, 429, rfl⟩
abbrev main_v313 : Ref sig .tc := ⟨.hbm, 430, rfl⟩
abbrev main_v314 : Ref sig .tc := ⟨.hbm, 431, rfl⟩
abbrev main_v315 : Ref sig .tc := ⟨.hbm, 432, rfl⟩
abbrev main_v316 : Ref sig .tc := ⟨.hbm, 433, rfl⟩
abbrev main_v317 : Ref sig .tc := ⟨.hbm, 434, rfl⟩
abbrev main_v318 : Ref sig .tc := ⟨.hbm, 435, rfl⟩
abbrev main_v319 : Ref sig .tc := ⟨.hbm, 436, rfl⟩
abbrev main_v320 : Ref sig .tc := ⟨.hbm, 437, rfl⟩
abbrev main_v321 : Ref sig .tc := ⟨.hbm, 438, rfl⟩
abbrev main_v322 : Ref sig .tc := ⟨.hbm, 439, rfl⟩
abbrev main_v323 : Ref sig .tc := ⟨.hbm, 440, rfl⟩
abbrev main_v324 : Ref sig .tc := ⟨.hbm, 441, rfl⟩
abbrev main_v325 : Ref sig .tc := ⟨.hbm, 442, rfl⟩
abbrev main_v326 : Ref sig .tc := ⟨.hbm, 443, rfl⟩
abbrev main_v327 : Ref sig .tc := ⟨.hbm, 444, rfl⟩
abbrev main_v328 : Ref sig .tc := ⟨.hbm, 445, rfl⟩
abbrev main_v329 : Ref sig .tc := ⟨.hbm, 446, rfl⟩
abbrev main_v330 : Ref sig .tc := ⟨.hbm, 447, rfl⟩
abbrev main_v331 : Ref sig .tc := ⟨.hbm, 448, rfl⟩
abbrev main_v332 : Ref sig .tc := ⟨.hbm, 449, rfl⟩
abbrev main_v333 : Ref sig .tc := ⟨.hbm, 450, rfl⟩
abbrev main_v334 : Ref sig .tc := ⟨.hbm, 451, rfl⟩
abbrev main_v335 : Ref sig .tc := ⟨.hbm, 452, rfl⟩
abbrev main_v336 : Ref sig .tc := ⟨.hbm, 453, rfl⟩
abbrev main_v337 : Ref sig .tc := ⟨.hbm, 454, rfl⟩
abbrev main_v338 : Ref sig .tc := ⟨.hbm, 455, rfl⟩
abbrev main_v339 : Ref sig .tc := ⟨.hbm, 456, rfl⟩
abbrev main_v340 : Ref sig .tc := ⟨.hbm, 457, rfl⟩
abbrev main_v341 : Ref sig .tc := ⟨.hbm, 458, rfl⟩
abbrev main_v342 : Ref sig .tc := ⟨.hbm, 459, rfl⟩
abbrev main_v343 : Ref sig .tc := ⟨.hbm, 460, rfl⟩
abbrev main_v344 : Ref sig .tc := ⟨.hbm, 461, rfl⟩
abbrev main_v345 : Ref sig .tc := ⟨.hbm, 462, rfl⟩
abbrev main_v346 : Ref sig .tc := ⟨.hbm, 463, rfl⟩
abbrev main_v347 : Ref sig .tc := ⟨.hbm, 464, rfl⟩
abbrev main_v348 : Ref sig .tc := ⟨.hbm, 465, rfl⟩
abbrev main_v349 : Ref sig .tc := ⟨.hbm, 466, rfl⟩
abbrev main_v350 : Ref sig .tc := ⟨.hbm, 467, rfl⟩
abbrev main_v351 : Ref sig .tc := ⟨.hbm, 468, rfl⟩
abbrev main_v352 : Ref sig .tc := ⟨.hbm, 469, rfl⟩
abbrev main_v353 : Ref sig .tc := ⟨.hbm, 470, rfl⟩
abbrev main_v354 : Ref sig .tc := ⟨.hbm, 471, rfl⟩
abbrev main_v355 : Ref sig .tc := ⟨.hbm, 472, rfl⟩
abbrev main_v356 : Ref sig .tc := ⟨.hbm, 473, rfl⟩
abbrev main_v357 : Ref sig .tc := ⟨.hbm, 474, rfl⟩
abbrev main_v358 : Ref sig .tc := ⟨.hbm, 475, rfl⟩
abbrev main_v359 : Ref sig .tc := ⟨.hbm, 476, rfl⟩
abbrev main_c_84 : Ref sig .tc := ⟨.hbm, 477, rfl⟩
abbrev main_call17_v0 : Ref sig .tc := ⟨.hbm, 478, rfl⟩
abbrev main_v360 : Ref sig .tc := ⟨.hbm, 479, rfl⟩
abbrev main_c_85 : Ref sig .tc := ⟨.hbm, 480, rfl⟩
abbrev main_call18_v0 : Ref sig .tc := ⟨.hbm, 481, rfl⟩
abbrev main_v361 : Ref sig .tc := ⟨.hbm, 482, rfl⟩
abbrev main_c_86 : Ref sig .tc := ⟨.hbm, 483, rfl⟩
abbrev main_call19_v0 : Ref sig .tc := ⟨.hbm, 484, rfl⟩
abbrev main_v362 : Ref sig .tc := ⟨.hbm, 485, rfl⟩
abbrev main_c_87 : Ref sig .tc := ⟨.hbm, 486, rfl⟩
abbrev main_call20_v0 : Ref sig .tc := ⟨.hbm, 487, rfl⟩
abbrev main_v363 : Ref sig .tc := ⟨.hbm, 488, rfl⟩
abbrev main_c_88 : Ref sig .tc := ⟨.hbm, 489, rfl⟩
abbrev main_call21_v0 : Ref sig .tc := ⟨.hbm, 490, rfl⟩
abbrev main_v364 : Ref sig .tc := ⟨.hbm, 491, rfl⟩
abbrev main_c_89 : Ref sig .tc := ⟨.hbm, 492, rfl⟩
abbrev main_call22_v0 : Ref sig .tc := ⟨.hbm, 493, rfl⟩
abbrev main_v365 : Ref sig .tc := ⟨.hbm, 494, rfl⟩
abbrev main_c_90 : Ref sig .tc := ⟨.hbm, 495, rfl⟩
abbrev main_call23_v0 : Ref sig .tc := ⟨.hbm, 496, rfl⟩
abbrev main_v366 : Ref sig .tc := ⟨.hbm, 497, rfl⟩
abbrev main_cst_91 : Ref sig .tc := ⟨.hbm, 498, rfl⟩
abbrev main_call24_v0 : Ref sig .tc := ⟨.hbm, 499, rfl⟩
abbrev main_v367 : Ref sig .tc := ⟨.hbm, 500, rfl⟩
abbrev main_cst_92 : Ref sig .tc := ⟨.hbm, 501, rfl⟩
abbrev main_call25_v0 : Ref sig .tc := ⟨.hbm, 502, rfl⟩
abbrev main_v368 : Ref sig .tc := ⟨.hbm, 503, rfl⟩
abbrev main_cst_93 : Ref sig .tc := ⟨.hbm, 504, rfl⟩
abbrev main_call26_v0 : Ref sig .tc := ⟨.hbm, 505, rfl⟩
abbrev main_v369 : Ref sig .tc := ⟨.hbm, 506, rfl⟩
abbrev main_cst_94 : Ref sig .tc := ⟨.hbm, 507, rfl⟩
abbrev main_call27_v0 : Ref sig .tc := ⟨.hbm, 508, rfl⟩
abbrev main_v370 : Ref sig .tc := ⟨.hbm, 509, rfl⟩
abbrev main_cst_95 : Ref sig .tc := ⟨.hbm, 510, rfl⟩
abbrev main_call28_v0 : Ref sig .tc := ⟨.hbm, 511, rfl⟩
abbrev main_v371 : Ref sig .tc := ⟨.hbm, 512, rfl⟩
abbrev main_cst_96 : Ref sig .tc := ⟨.hbm, 513, rfl⟩
abbrev main_call29_v0 : Ref sig .tc := ⟨.hbm, 514, rfl⟩
abbrev main_v372 : Ref sig .tc := ⟨.hbm, 515, rfl⟩
abbrev main_cst_97 : Ref sig .tc := ⟨.hbm, 516, rfl⟩
abbrev main_call30_v0 : Ref sig .tc := ⟨.hbm, 517, rfl⟩
abbrev main_v373 : Ref sig .tc := ⟨.hbm, 518, rfl⟩
abbrev main_cst_98 : Ref sig .tc := ⟨.hbm, 519, rfl⟩
abbrev main_call31_v0 : Ref sig .tc := ⟨.hbm, 520, rfl⟩
abbrev main_v374 : Ref sig .tc := ⟨.hbm, 521, rfl⟩
abbrev main_v375 : Ref sig .tc := ⟨.hbm, 522, rfl⟩
abbrev main_v376 : Ref sig .tc := ⟨.hbm, 523, rfl⟩
abbrev main_v377 : Ref sig .tc := ⟨.hbm, 524, rfl⟩
abbrev main_v378 : Ref sig .tc := ⟨.hbm, 525, rfl⟩
abbrev main_v379 : Ref sig .tc := ⟨.hbm, 526, rfl⟩
abbrev main_v380 : Ref sig .tc := ⟨.hbm, 527, rfl⟩
abbrev main_v381 : Ref sig .tc := ⟨.hbm, 528, rfl⟩
abbrev main_v382 : Ref sig .tc := ⟨.hbm, 529, rfl⟩
abbrev main_v383 : Ref sig .tc := ⟨.hbm, 530, rfl⟩
abbrev main_c_99 : Ref sig .tc := ⟨.hbm, 531, rfl⟩
abbrev main_v384 : Ref sig .tc := ⟨.hbm, 532, rfl⟩
abbrev main_v385 : Ref sig .tc := ⟨.hbm, 533, rfl⟩
abbrev main_c_100 : Ref sig .tc := ⟨.hbm, 534, rfl⟩
abbrev main_v386 : Ref sig .tc := ⟨.hbm, 535, rfl⟩
abbrev main_v387 : Ref sig .tc := ⟨.hbm, 536, rfl⟩
abbrev main_v388 : Ref sig .tc := ⟨.hbm, 537, rfl⟩
abbrev main_c_101 : Ref sig .tc := ⟨.hbm, 538, rfl⟩
abbrev main_v389 : Ref sig .tc := ⟨.hbm, 539, rfl⟩
abbrev main_v390 : Ref sig .tc := ⟨.hbm, 540, rfl⟩
abbrev main_c_102 : Ref sig .tc := ⟨.hbm, 541, rfl⟩
abbrev main_v391 : Ref sig .tc := ⟨.hbm, 542, rfl⟩
abbrev main_v392 : Ref sig .tc := ⟨.hbm, 543, rfl⟩
abbrev main_v393 : Ref sig .tc := ⟨.hbm, 544, rfl⟩
abbrev main_c_103 : Ref sig .tc := ⟨.hbm, 545, rfl⟩
abbrev main_v394 : Ref sig .tc := ⟨.hbm, 546, rfl⟩
abbrev main_v395 : Ref sig .tc := ⟨.hbm, 547, rfl⟩
abbrev main_c_104 : Ref sig .tc := ⟨.hbm, 548, rfl⟩
abbrev main_v396 : Ref sig .tc := ⟨.hbm, 549, rfl⟩
abbrev main_v397 : Ref sig .tc := ⟨.hbm, 550, rfl⟩
abbrev main_v398 : Ref sig .tc := ⟨.hbm, 551, rfl⟩
abbrev main_c_105 : Ref sig .tc := ⟨.hbm, 552, rfl⟩
abbrev main_v399 : Ref sig .tc := ⟨.hbm, 553, rfl⟩
abbrev main_v400 : Ref sig .tc := ⟨.hbm, 554, rfl⟩
abbrev main_c_106 : Ref sig .tc := ⟨.hbm, 555, rfl⟩
abbrev main_v401 : Ref sig .tc := ⟨.hbm, 556, rfl⟩
abbrev main_v402 : Ref sig .tc := ⟨.hbm, 557, rfl⟩
abbrev main_v403 : Ref sig .tc := ⟨.hbm, 558, rfl⟩
abbrev main_v404 : Ref sig .tc := ⟨.hbm, 559, rfl⟩
abbrev main_v405 : Ref sig .tc := ⟨.hbm, 560, rfl⟩
abbrev main_v406 : Ref sig .tc := ⟨.hbm, 561, rfl⟩
abbrev main_v407 : Ref sig .tc := ⟨.hbm, 562, rfl⟩
abbrev main_v408 : Ref sig .tc := ⟨.hbm, 563, rfl⟩
abbrev main_v409 : Ref sig .tc := ⟨.hbm, 564, rfl⟩
abbrev main_c_107 : Ref sig .tc := ⟨.hbm, 565, rfl⟩
abbrev main_v410 : Ref sig .tc := ⟨.hbm, 566, rfl⟩
abbrev main_v411 : Ref sig .tc := ⟨.hbm, 567, rfl⟩
abbrev main_c_108 : Ref sig .tc := ⟨.hbm, 568, rfl⟩
abbrev main_v412 : Ref sig .tc := ⟨.hbm, 569, rfl⟩
abbrev main_v413 : Ref sig .tc := ⟨.hbm, 570, rfl⟩
abbrev main_v414 : Ref sig .tc := ⟨.hbm, 571, rfl⟩
abbrev main_c_109 : Ref sig .tc := ⟨.hbm, 572, rfl⟩
abbrev main_v415 : Ref sig .tc := ⟨.hbm, 573, rfl⟩
abbrev main_v416 : Ref sig .tc := ⟨.hbm, 574, rfl⟩
abbrev main_c_110 : Ref sig .tc := ⟨.hbm, 575, rfl⟩
abbrev main_v417 : Ref sig .tc := ⟨.hbm, 576, rfl⟩
abbrev main_v418 : Ref sig .tc := ⟨.hbm, 577, rfl⟩
abbrev main_v419 : Ref sig .tc := ⟨.hbm, 578, rfl⟩
abbrev main_c_111 : Ref sig .tc := ⟨.hbm, 579, rfl⟩
abbrev main_v420 : Ref sig .tc := ⟨.hbm, 580, rfl⟩
abbrev main_v421 : Ref sig .tc := ⟨.hbm, 581, rfl⟩
abbrev main_c_112 : Ref sig .tc := ⟨.hbm, 582, rfl⟩
abbrev main_v422 : Ref sig .tc := ⟨.hbm, 583, rfl⟩
abbrev main_v423 : Ref sig .tc := ⟨.hbm, 584, rfl⟩
abbrev main_v424 : Ref sig .tc := ⟨.hbm, 585, rfl⟩
abbrev main_c_113 : Ref sig .tc := ⟨.hbm, 586, rfl⟩
abbrev main_v425 : Ref sig .tc := ⟨.hbm, 587, rfl⟩
abbrev main_v426 : Ref sig .tc := ⟨.hbm, 588, rfl⟩
abbrev main_c_114 : Ref sig .tc := ⟨.hbm, 589, rfl⟩
abbrev main_v427 : Ref sig .tc := ⟨.hbm, 590, rfl⟩
abbrev main_v428 : Ref sig .tc := ⟨.hbm, 591, rfl⟩
abbrev main_v429 : Ref sig .tc := ⟨.hbm, 592, rfl⟩
abbrev main_v430 : Ref sig .tc := ⟨.hbm, 593, rfl⟩
abbrev main_v431 : Ref sig .tc := ⟨.hbm, 594, rfl⟩
abbrev main_v432 : Ref sig .tc := ⟨.hbm, 595, rfl⟩
abbrev main_v433 : Ref sig .tc := ⟨.hbm, 596, rfl⟩
abbrev main_v434 : Ref sig .tc := ⟨.hbm, 597, rfl⟩
abbrev main_v435 : Ref sig .tc := ⟨.hbm, 598, rfl⟩
abbrev main_c_115 : Ref sig .tc := ⟨.hbm, 599, rfl⟩
abbrev main_v436 : Ref sig .tc := ⟨.hbm, 600, rfl⟩
abbrev main_v437 : Ref sig .tc := ⟨.hbm, 601, rfl⟩
abbrev main_c_116 : Ref sig .tc := ⟨.hbm, 602, rfl⟩
abbrev main_v438 : Ref sig .tc := ⟨.hbm, 603, rfl⟩
abbrev main_v439 : Ref sig .tc := ⟨.hbm, 604, rfl⟩
abbrev main_v440 : Ref sig .tc := ⟨.hbm, 605, rfl⟩
abbrev main_c_117 : Ref sig .tc := ⟨.hbm, 606, rfl⟩
abbrev main_v441 : Ref sig .tc := ⟨.hbm, 607, rfl⟩
abbrev main_v442 : Ref sig .tc := ⟨.hbm, 608, rfl⟩
abbrev main_c_118 : Ref sig .tc := ⟨.hbm, 609, rfl⟩
abbrev main_v443 : Ref sig .tc := ⟨.hbm, 610, rfl⟩
abbrev main_v444 : Ref sig .tc := ⟨.hbm, 611, rfl⟩
abbrev main_v445 : Ref sig .tc := ⟨.hbm, 612, rfl⟩
abbrev main_c_119 : Ref sig .tc := ⟨.hbm, 613, rfl⟩
abbrev main_v446 : Ref sig .tc := ⟨.hbm, 614, rfl⟩
abbrev main_v447 : Ref sig .tc := ⟨.hbm, 615, rfl⟩
abbrev main_c_120 : Ref sig .tc := ⟨.hbm, 616, rfl⟩
abbrev main_v448 : Ref sig .tc := ⟨.hbm, 617, rfl⟩
abbrev main_v449 : Ref sig .tc := ⟨.hbm, 618, rfl⟩
abbrev main_v450 : Ref sig .tc := ⟨.hbm, 619, rfl⟩
abbrev main_c_121 : Ref sig .tc := ⟨.hbm, 620, rfl⟩
abbrev main_v451 : Ref sig .tc := ⟨.hbm, 621, rfl⟩
abbrev main_v452 : Ref sig .tc := ⟨.hbm, 622, rfl⟩
abbrev main_c_122 : Ref sig .tc := ⟨.hbm, 623, rfl⟩
abbrev main_v453 : Ref sig .tc := ⟨.hbm, 624, rfl⟩
abbrev main_v454 : Ref sig .tc := ⟨.hbm, 625, rfl⟩
abbrev main_v455 : Ref sig .tc := ⟨.hbm, 626, rfl⟩
abbrev main_v456 : Ref sig .tc := ⟨.hbm, 627, rfl⟩
abbrev main_v457 : Ref sig .tc := ⟨.hbm, 628, rfl⟩
abbrev main_v458 : Ref sig .tc := ⟨.hbm, 629, rfl⟩
abbrev main_v459 : Ref sig .tc := ⟨.hbm, 630, rfl⟩
abbrev main_v460 : Ref sig .tc := ⟨.hbm, 631, rfl⟩
abbrev main_v461 : Ref sig .tc := ⟨.hbm, 632, rfl⟩
abbrev main_c_123 : Ref sig .tc := ⟨.hbm, 633, rfl⟩
abbrev main_v462 : Ref sig .tc := ⟨.hbm, 634, rfl⟩
abbrev main_v463 : Ref sig .tc := ⟨.hbm, 635, rfl⟩
abbrev main_c_124 : Ref sig .tc := ⟨.hbm, 636, rfl⟩
abbrev main_v464 : Ref sig .tc := ⟨.hbm, 637, rfl⟩
abbrev main_v465 : Ref sig .tc := ⟨.hbm, 638, rfl⟩
abbrev main_v466 : Ref sig .tc := ⟨.hbm, 639, rfl⟩
abbrev main_c_125 : Ref sig .tc := ⟨.hbm, 640, rfl⟩
abbrev main_v467 : Ref sig .tc := ⟨.hbm, 641, rfl⟩
abbrev main_v468 : Ref sig .tc := ⟨.hbm, 642, rfl⟩
abbrev main_c_126 : Ref sig .tc := ⟨.hbm, 643, rfl⟩
abbrev main_v469 : Ref sig .tc := ⟨.hbm, 644, rfl⟩
abbrev main_v470 : Ref sig .tc := ⟨.hbm, 645, rfl⟩
abbrev main_v471 : Ref sig .tc := ⟨.hbm, 646, rfl⟩
abbrev main_c_127 : Ref sig .tc := ⟨.hbm, 647, rfl⟩
abbrev main_v472 : Ref sig .tc := ⟨.hbm, 648, rfl⟩
abbrev main_v473 : Ref sig .tc := ⟨.hbm, 649, rfl⟩
abbrev main_c_128 : Ref sig .tc := ⟨.hbm, 650, rfl⟩
abbrev main_v474 : Ref sig .tc := ⟨.hbm, 651, rfl⟩
abbrev main_v475 : Ref sig .tc := ⟨.hbm, 652, rfl⟩
abbrev main_v476 : Ref sig .tc := ⟨.hbm, 653, rfl⟩
abbrev main_c_129 : Ref sig .tc := ⟨.hbm, 654, rfl⟩
abbrev main_v477 : Ref sig .tc := ⟨.hbm, 655, rfl⟩
abbrev main_v478 : Ref sig .tc := ⟨.hbm, 656, rfl⟩
abbrev main_c_130 : Ref sig .tc := ⟨.hbm, 657, rfl⟩
abbrev main_v479 : Ref sig .tc := ⟨.hbm, 658, rfl⟩
abbrev main_v480 : Ref sig .tc := ⟨.hbm, 659, rfl⟩
abbrev main_v481 : Ref sig .tc := ⟨.hbm, 660, rfl⟩
abbrev main_v482 : Ref sig .tc := ⟨.hbm, 661, rfl⟩
abbrev main_v483 : Ref sig .tc := ⟨.hbm, 662, rfl⟩
abbrev main_v484 : Ref sig .tc := ⟨.hbm, 663, rfl⟩
abbrev main_v485 : Ref sig .tc := ⟨.hbm, 664, rfl⟩
abbrev main_v486 : Ref sig .tc := ⟨.hbm, 665, rfl⟩
abbrev main_v487 : Ref sig .tc := ⟨.hbm, 666, rfl⟩
abbrev main_c_131 : Ref sig .tc := ⟨.hbm, 667, rfl⟩
abbrev main_v488 : Ref sig .tc := ⟨.hbm, 668, rfl⟩
abbrev main_v489 : Ref sig .tc := ⟨.hbm, 669, rfl⟩
abbrev main_c_132 : Ref sig .tc := ⟨.hbm, 670, rfl⟩
abbrev main_v490 : Ref sig .tc := ⟨.hbm, 671, rfl⟩
abbrev main_v491 : Ref sig .tc := ⟨.hbm, 672, rfl⟩
abbrev main_v492 : Ref sig .tc := ⟨.hbm, 673, rfl⟩
abbrev main_c_133 : Ref sig .tc := ⟨.hbm, 674, rfl⟩
abbrev main_v493 : Ref sig .tc := ⟨.hbm, 675, rfl⟩
abbrev main_v494 : Ref sig .tc := ⟨.hbm, 676, rfl⟩
abbrev main_c_134 : Ref sig .tc := ⟨.hbm, 677, rfl⟩
abbrev main_v495 : Ref sig .tc := ⟨.hbm, 678, rfl⟩
abbrev main_v496 : Ref sig .tc := ⟨.hbm, 679, rfl⟩
abbrev main_v497 : Ref sig .tc := ⟨.hbm, 680, rfl⟩
abbrev main_c_135 : Ref sig .tc := ⟨.hbm, 681, rfl⟩
abbrev main_v498 : Ref sig .tc := ⟨.hbm, 682, rfl⟩
abbrev main_v499 : Ref sig .tc := ⟨.hbm, 683, rfl⟩
abbrev main_c_136 : Ref sig .tc := ⟨.hbm, 684, rfl⟩
abbrev main_v500 : Ref sig .tc := ⟨.hbm, 685, rfl⟩
abbrev main_v501 : Ref sig .tc := ⟨.hbm, 686, rfl⟩
abbrev main_v502 : Ref sig .tc := ⟨.hbm, 687, rfl⟩
abbrev main_c_137 : Ref sig .tc := ⟨.hbm, 688, rfl⟩
abbrev main_v503 : Ref sig .tc := ⟨.hbm, 689, rfl⟩
abbrev main_v504 : Ref sig .tc := ⟨.hbm, 690, rfl⟩
abbrev main_c_138 : Ref sig .tc := ⟨.hbm, 691, rfl⟩
abbrev main_v505 : Ref sig .tc := ⟨.hbm, 692, rfl⟩
abbrev main_v506 : Ref sig .tc := ⟨.hbm, 693, rfl⟩
abbrev main_v507 : Ref sig .tc := ⟨.hbm, 694, rfl⟩
abbrev main_v508 : Ref sig .tc := ⟨.hbm, 695, rfl⟩
abbrev main_v509 : Ref sig .tc := ⟨.hbm, 696, rfl⟩
abbrev main_v510 : Ref sig .tc := ⟨.hbm, 697, rfl⟩
abbrev main_v511 : Ref sig .tc := ⟨.hbm, 698, rfl⟩
abbrev main_v512 : Ref sig .tc := ⟨.hbm, 699, rfl⟩
abbrev main_v513 : Ref sig .tc := ⟨.hbm, 700, rfl⟩
abbrev main_c_139 : Ref sig .tc := ⟨.hbm, 701, rfl⟩
abbrev main_v514 : Ref sig .tc := ⟨.hbm, 702, rfl⟩
abbrev main_v515 : Ref sig .tc := ⟨.hbm, 703, rfl⟩
abbrev main_c_140 : Ref sig .tc := ⟨.hbm, 704, rfl⟩
abbrev main_v516 : Ref sig .tc := ⟨.hbm, 705, rfl⟩
abbrev main_v517 : Ref sig .tc := ⟨.hbm, 706, rfl⟩
abbrev main_v518 : Ref sig .tc := ⟨.hbm, 707, rfl⟩
abbrev main_c_141 : Ref sig .tc := ⟨.hbm, 708, rfl⟩
abbrev main_v519 : Ref sig .tc := ⟨.hbm, 709, rfl⟩
abbrev main_v520 : Ref sig .tc := ⟨.hbm, 710, rfl⟩
abbrev main_c_142 : Ref sig .tc := ⟨.hbm, 711, rfl⟩
abbrev main_v521 : Ref sig .tc := ⟨.hbm, 712, rfl⟩
abbrev main_v522 : Ref sig .tc := ⟨.hbm, 713, rfl⟩
abbrev main_v523 : Ref sig .tc := ⟨.hbm, 714, rfl⟩
abbrev main_c_143 : Ref sig .tc := ⟨.hbm, 715, rfl⟩
abbrev main_v524 : Ref sig .tc := ⟨.hbm, 716, rfl⟩
abbrev main_v525 : Ref sig .tc := ⟨.hbm, 717, rfl⟩
abbrev main_c_144 : Ref sig .tc := ⟨.hbm, 718, rfl⟩
abbrev main_v526 : Ref sig .tc := ⟨.hbm, 719, rfl⟩
abbrev main_v527 : Ref sig .tc := ⟨.hbm, 720, rfl⟩
abbrev main_v528 : Ref sig .tc := ⟨.hbm, 721, rfl⟩
abbrev main_c_145 : Ref sig .tc := ⟨.hbm, 722, rfl⟩
abbrev main_v529 : Ref sig .tc := ⟨.hbm, 723, rfl⟩
abbrev main_v530 : Ref sig .tc := ⟨.hbm, 724, rfl⟩
abbrev main_c_146 : Ref sig .tc := ⟨.hbm, 725, rfl⟩
abbrev main_v531 : Ref sig .tc := ⟨.hbm, 726, rfl⟩
abbrev main_v532 : Ref sig .tc := ⟨.hbm, 727, rfl⟩
abbrev main_v533 : Ref sig .tc := ⟨.hbm, 728, rfl⟩
abbrev main_v534 : Ref sig .tc := ⟨.hbm, 729, rfl⟩
abbrev main_v535 : Ref sig .tc := ⟨.hbm, 730, rfl⟩
abbrev main_v536 : Ref sig .tc := ⟨.hbm, 731, rfl⟩
abbrev main_v537 : Ref sig .tc := ⟨.hbm, 732, rfl⟩
abbrev main_v538 : Ref sig .tc := ⟨.hbm, 733, rfl⟩
abbrev main_v539 : Ref sig .tc := ⟨.hbm, 734, rfl⟩
abbrev main_c_147 : Ref sig .tc := ⟨.hbm, 735, rfl⟩
abbrev main_v540 : Ref sig .tc := ⟨.hbm, 736, rfl⟩
abbrev main_v541 : Ref sig .tc := ⟨.hbm, 737, rfl⟩
abbrev main_c_148 : Ref sig .tc := ⟨.hbm, 738, rfl⟩
abbrev main_v542 : Ref sig .tc := ⟨.hbm, 739, rfl⟩
abbrev main_v543 : Ref sig .tc := ⟨.hbm, 740, rfl⟩
abbrev main_v544 : Ref sig .tc := ⟨.hbm, 741, rfl⟩
abbrev main_c_149 : Ref sig .tc := ⟨.hbm, 742, rfl⟩
abbrev main_v545 : Ref sig .tc := ⟨.hbm, 743, rfl⟩
abbrev main_v546 : Ref sig .tc := ⟨.hbm, 744, rfl⟩
abbrev main_c_150 : Ref sig .tc := ⟨.hbm, 745, rfl⟩
abbrev main_v547 : Ref sig .tc := ⟨.hbm, 746, rfl⟩
abbrev main_v548 : Ref sig .tc := ⟨.hbm, 747, rfl⟩
abbrev main_v549 : Ref sig .tc := ⟨.hbm, 748, rfl⟩
abbrev main_c_151 : Ref sig .tc := ⟨.hbm, 749, rfl⟩
abbrev main_v550 : Ref sig .tc := ⟨.hbm, 750, rfl⟩
abbrev main_v551 : Ref sig .tc := ⟨.hbm, 751, rfl⟩
abbrev main_c_152 : Ref sig .tc := ⟨.hbm, 752, rfl⟩
abbrev main_v552 : Ref sig .tc := ⟨.hbm, 753, rfl⟩
abbrev main_v553 : Ref sig .tc := ⟨.hbm, 754, rfl⟩
abbrev main_v554 : Ref sig .tc := ⟨.hbm, 755, rfl⟩
abbrev main_c_153 : Ref sig .tc := ⟨.hbm, 756, rfl⟩
abbrev main_v555 : Ref sig .tc := ⟨.hbm, 757, rfl⟩
abbrev main_v556 : Ref sig .tc := ⟨.hbm, 758, rfl⟩
abbrev main_c_154 : Ref sig .tc := ⟨.hbm, 759, rfl⟩
abbrev main_v557 : Ref sig .tc := ⟨.hbm, 760, rfl⟩
abbrev main_v558 : Ref sig .tc := ⟨.hbm, 761, rfl⟩
abbrev main_v559 : Ref sig .tc := ⟨.hbm, 762, rfl⟩
abbrev main_v560 : Ref sig .tc := ⟨.hbm, 763, rfl⟩
abbrev main_v561 : Ref sig .tc := ⟨.hbm, 764, rfl⟩
abbrev main_v562 : Ref sig .tc := ⟨.hbm, 765, rfl⟩
abbrev main_v563 : Ref sig .tc := ⟨.hbm, 766, rfl⟩
abbrev main_v564 : Ref sig .tc := ⟨.hbm, 767, rfl⟩
abbrev main_v565 : Ref sig .tc := ⟨.hbm, 768, rfl⟩
abbrev main_c_155 : Ref sig .tc := ⟨.hbm, 769, rfl⟩
abbrev main_v566 : Ref sig .tc := ⟨.hbm, 770, rfl⟩
abbrev main_v567 : Ref sig .tc := ⟨.hbm, 771, rfl⟩
abbrev main_c_156 : Ref sig .tc := ⟨.hbm, 772, rfl⟩
abbrev main_v568 : Ref sig .tc := ⟨.hbm, 773, rfl⟩
abbrev main_v569 : Ref sig .tc := ⟨.hbm, 774, rfl⟩
abbrev main_v570 : Ref sig .tc := ⟨.hbm, 775, rfl⟩
abbrev main_c_157 : Ref sig .tc := ⟨.hbm, 776, rfl⟩
abbrev main_v571 : Ref sig .tc := ⟨.hbm, 777, rfl⟩
abbrev main_v572 : Ref sig .tc := ⟨.hbm, 778, rfl⟩
abbrev main_c_158 : Ref sig .tc := ⟨.hbm, 779, rfl⟩
abbrev main_v573 : Ref sig .tc := ⟨.hbm, 780, rfl⟩
abbrev main_v574 : Ref sig .tc := ⟨.hbm, 781, rfl⟩
abbrev main_v575 : Ref sig .tc := ⟨.hbm, 782, rfl⟩
abbrev main_c_159 : Ref sig .tc := ⟨.hbm, 783, rfl⟩
abbrev main_v576 : Ref sig .tc := ⟨.hbm, 784, rfl⟩
abbrev main_v577 : Ref sig .tc := ⟨.hbm, 785, rfl⟩
abbrev main_c_160 : Ref sig .tc := ⟨.hbm, 786, rfl⟩
abbrev main_v578 : Ref sig .tc := ⟨.hbm, 787, rfl⟩
abbrev main_v579 : Ref sig .tc := ⟨.hbm, 788, rfl⟩
abbrev main_v580 : Ref sig .tc := ⟨.hbm, 789, rfl⟩
abbrev main_c_161 : Ref sig .tc := ⟨.hbm, 790, rfl⟩
abbrev main_v581 : Ref sig .tc := ⟨.hbm, 791, rfl⟩
abbrev main_v582 : Ref sig .tc := ⟨.hbm, 792, rfl⟩
abbrev main_c_162 : Ref sig .tc := ⟨.hbm, 793, rfl⟩
abbrev main_v583 : Ref sig .tc := ⟨.hbm, 794, rfl⟩
abbrev main_v584 : Ref sig .tc := ⟨.hbm, 795, rfl⟩
abbrev main_v585 : Ref sig .tc := ⟨.hbm, 796, rfl⟩
abbrev main_v586 : Ref sig .tc := ⟨.hbm, 797, rfl⟩
abbrev main_v587 : Ref sig .tc := ⟨.hbm, 798, rfl⟩
abbrev main_v588 : Ref sig .tc := ⟨.hbm, 799, rfl⟩
abbrev main_v589 : Ref sig .tc := ⟨.hbm, 800, rfl⟩
abbrev main_v590 : Ref sig .tc := ⟨.hbm, 801, rfl⟩
abbrev main_v591 : Ref sig .tc := ⟨.hbm, 802, rfl⟩
abbrev main_v592 : Ref sig .tc := ⟨.hbm, 803, rfl⟩
abbrev main_v593 : Ref sig .tc := ⟨.hbm, 804, rfl⟩
abbrev main_v594 : Ref sig .tc := ⟨.hbm, 805, rfl⟩
abbrev main_cst_163 : Ref sig .tc := ⟨.hbm, 806, rfl⟩
abbrev main_cst_164 : Ref sig .tc := ⟨.hbm, 807, rfl⟩
abbrev main_call32_v0 : Ref sig .tc := ⟨.hbm, 808, rfl⟩
abbrev main_call32_v1 : Ref sig .tc := ⟨.hbm, 809, rfl⟩
abbrev main_call32_v2 : Ref sig .tc := ⟨.hbm, 810, rfl⟩
abbrev main_call32_v3 : Ref sig .tc := ⟨.hbm, 811, rfl⟩
abbrev main_call32_v4 : Ref sig .tc := ⟨.hbm, 812, rfl⟩
abbrev main_v595 : Ref sig .tc := ⟨.hbm, 813, rfl⟩
abbrev main_v596 : Ref sig .tc := ⟨.hbm, 814, rfl⟩
abbrev main_v597 : Ref sig .tc := ⟨.hbm, 815, rfl⟩
abbrev main_v598 : Ref sig .tc := ⟨.hbm, 816, rfl⟩
abbrev main_v599 : Ref sig .tc := ⟨.hbm, 817, rfl⟩
abbrev main_v600 : Ref sig .tc := ⟨.hbm, 818, rfl⟩
abbrev main_v601 : Ref sig .tc := ⟨.hbm, 819, rfl⟩
abbrev main_v602 : Ref sig .tc := ⟨.hbm, 820, rfl⟩
abbrev main_v603 : Ref sig .tc := ⟨.hbm, 821, rfl⟩
abbrev main_v604 : Ref sig .tc := ⟨.hbm, 822, rfl⟩
abbrev main_v605 : Ref sig .tc := ⟨.hbm, 823, rfl⟩
abbrev main_v606 : Ref sig .tc := ⟨.hbm, 824, rfl⟩
abbrev main_v607 : Ref sig .tc := ⟨.hbm, 825, rfl⟩
abbrev main_v608 : Ref sig .tc := ⟨.hbm, 826, rfl⟩
abbrev main_v609 : Ref sig .tc := ⟨.hbm, 827, rfl⟩
abbrev main_v610 : Ref sig .tc := ⟨.hbm, 828, rfl⟩
abbrev main_v611 : Ref sig .tc := ⟨.hbm, 829, rfl⟩
abbrev main_v612 : Ref sig .tc := ⟨.hbm, 830, rfl⟩
abbrev main_v613 : Ref sig .tc := ⟨.hbm, 831, rfl⟩
abbrev main_v614 : Ref sig .tc := ⟨.hbm, 832, rfl⟩
abbrev main_v615 : Ref sig .tc := ⟨.hbm, 833, rfl⟩
abbrev main_v616 : Ref sig .tc := ⟨.hbm, 834, rfl⟩
abbrev main_v617 : Ref sig .tc := ⟨.hbm, 835, rfl⟩
abbrev main_v618 : Ref sig .tc := ⟨.hbm, 836, rfl⟩
abbrev main_v619 : Ref sig .tc := ⟨.hbm, 837, rfl⟩
abbrev main_v620 : Ref sig .tc := ⟨.hbm, 838, rfl⟩
abbrev main_v621 : Ref sig .tc := ⟨.hbm, 839, rfl⟩
abbrev main_v622 : Ref sig .tc := ⟨.hbm, 840, rfl⟩
abbrev main_v623 : Ref sig .tc := ⟨.hbm, 841, rfl⟩
abbrev main_v624 : Ref sig .tc := ⟨.hbm, 842, rfl⟩
abbrev main_v625 : Ref sig .tc := ⟨.hbm, 843, rfl⟩
abbrev main_v626 : Ref sig .tc := ⟨.hbm, 844, rfl⟩
abbrev main_v627 : Ref sig .tc := ⟨.hbm, 845, rfl⟩
abbrev main_v628 : Ref sig .tc := ⟨.hbm, 846, rfl⟩
abbrev main_v629 : Ref sig .tc := ⟨.hbm, 847, rfl⟩
abbrev main_v630 : Ref sig .tc := ⟨.hbm, 848, rfl⟩
abbrev main_v631 : Ref sig .tc := ⟨.hbm, 849, rfl⟩
abbrev main_v632 : Ref sig .tc := ⟨.hbm, 850, rfl⟩
abbrev main_v633 : Ref sig .tc := ⟨.hbm, 851, rfl⟩
abbrev main_v634 : Ref sig .tc := ⟨.hbm, 852, rfl⟩
abbrev main_v635 : Ref sig .tc := ⟨.hbm, 853, rfl⟩
abbrev main_v636 : Ref sig .tc := ⟨.hbm, 854, rfl⟩
abbrev main_v637 : Ref sig .tc := ⟨.hbm, 855, rfl⟩
abbrev main_v638 : Ref sig .tc := ⟨.hbm, 856, rfl⟩
abbrev main_v639 : Ref sig .tc := ⟨.hbm, 857, rfl⟩
abbrev main_v640 : Ref sig .tc := ⟨.hbm, 858, rfl⟩
abbrev main_v641 : Ref sig .tc := ⟨.hbm, 859, rfl⟩
abbrev main_v642 : Ref sig .tc := ⟨.hbm, 860, rfl⟩
abbrev main_v643 : Ref sig .tc := ⟨.hbm, 861, rfl⟩
abbrev main_v644 : Ref sig .tc := ⟨.hbm, 862, rfl⟩
abbrev main_v645 : Ref sig .tc := ⟨.hbm, 863, rfl⟩
abbrev main_v646 : Ref sig .tc := ⟨.hbm, 864, rfl⟩
abbrev main_v647 : Ref sig .tc := ⟨.hbm, 865, rfl⟩
abbrev main_v648 : Ref sig .tc := ⟨.hbm, 866, rfl⟩
abbrev main_v649 : Ref sig .tc := ⟨.hbm, 867, rfl⟩
abbrev main_v650 : Ref sig .tc := ⟨.hbm, 868, rfl⟩
abbrev main_v651 : Ref sig .tc := ⟨.hbm, 869, rfl⟩
abbrev main_v652 : Ref sig .tc := ⟨.hbm, 870, rfl⟩
abbrev main_v653 : Ref sig .tc := ⟨.hbm, 871, rfl⟩
abbrev main_c_165 : Ref sig .tc := ⟨.hbm, 872, rfl⟩
abbrev main_call33_v0 : Ref sig .tc := ⟨.hbm, 873, rfl⟩
abbrev main_v654 : Ref sig .tc := ⟨.hbm, 874, rfl⟩
abbrev main_c_166 : Ref sig .tc := ⟨.hbm, 875, rfl⟩
abbrev main_call34_v0 : Ref sig .tc := ⟨.hbm, 876, rfl⟩
abbrev main_v655 : Ref sig .tc := ⟨.hbm, 877, rfl⟩
abbrev main_c_167 : Ref sig .tc := ⟨.hbm, 878, rfl⟩
abbrev main_call35_v0 : Ref sig .tc := ⟨.hbm, 879, rfl⟩
abbrev main_v656 : Ref sig .tc := ⟨.hbm, 880, rfl⟩
abbrev main_c_168 : Ref sig .tc := ⟨.hbm, 881, rfl⟩
abbrev main_call36_v0 : Ref sig .tc := ⟨.hbm, 882, rfl⟩
abbrev main_v657 : Ref sig .tc := ⟨.hbm, 883, rfl⟩
abbrev main_c_169 : Ref sig .tc := ⟨.hbm, 884, rfl⟩
abbrev main_call37_v0 : Ref sig .tc := ⟨.hbm, 885, rfl⟩
abbrev main_v658 : Ref sig .tc := ⟨.hbm, 886, rfl⟩
abbrev main_c_170 : Ref sig .tc := ⟨.hbm, 887, rfl⟩
abbrev main_call38_v0 : Ref sig .tc := ⟨.hbm, 888, rfl⟩
abbrev main_v659 : Ref sig .tc := ⟨.hbm, 889, rfl⟩
abbrev main_c_171 : Ref sig .tc := ⟨.hbm, 890, rfl⟩
abbrev main_call39_v0 : Ref sig .tc := ⟨.hbm, 891, rfl⟩
abbrev main_v660 : Ref sig .tc := ⟨.hbm, 892, rfl⟩
abbrev main_cst_172 : Ref sig .tc := ⟨.hbm, 893, rfl⟩
abbrev main_call40_v0 : Ref sig .tc := ⟨.hbm, 894, rfl⟩
abbrev main_v661 : Ref sig .tc := ⟨.hbm, 895, rfl⟩
abbrev main_cst_173 : Ref sig .tc := ⟨.hbm, 896, rfl⟩
abbrev main_call41_v0 : Ref sig .tc := ⟨.hbm, 897, rfl⟩
abbrev main_v662 : Ref sig .tc := ⟨.hbm, 898, rfl⟩
abbrev main_cst_174 : Ref sig .tc := ⟨.hbm, 899, rfl⟩
abbrev main_call42_v0 : Ref sig .tc := ⟨.hbm, 900, rfl⟩
abbrev main_v663 : Ref sig .tc := ⟨.hbm, 901, rfl⟩
abbrev main_cst_175 : Ref sig .tc := ⟨.hbm, 902, rfl⟩
abbrev main_call43_v0 : Ref sig .tc := ⟨.hbm, 903, rfl⟩
abbrev main_v664 : Ref sig .tc := ⟨.hbm, 904, rfl⟩
abbrev main_cst_176 : Ref sig .tc := ⟨.hbm, 905, rfl⟩
abbrev main_call44_v0 : Ref sig .tc := ⟨.hbm, 906, rfl⟩
abbrev main_v665 : Ref sig .tc := ⟨.hbm, 907, rfl⟩
abbrev main_cst_177 : Ref sig .tc := ⟨.hbm, 908, rfl⟩
abbrev main_call45_v0 : Ref sig .tc := ⟨.hbm, 909, rfl⟩
abbrev main_v666 : Ref sig .tc := ⟨.hbm, 910, rfl⟩
abbrev main_cst_178 : Ref sig .tc := ⟨.hbm, 911, rfl⟩
abbrev main_call46_v0 : Ref sig .tc := ⟨.hbm, 912, rfl⟩
abbrev main_v667 : Ref sig .tc := ⟨.hbm, 913, rfl⟩
abbrev main_cst_179 : Ref sig .tc := ⟨.hbm, 914, rfl⟩
abbrev main_call47_v0 : Ref sig .tc := ⟨.hbm, 915, rfl⟩
abbrev main_v668 : Ref sig .tc := ⟨.hbm, 916, rfl⟩
abbrev main_v669 : Ref sig .tc := ⟨.hbm, 917, rfl⟩
abbrev main_v670 : Ref sig .tc := ⟨.hbm, 918, rfl⟩
abbrev main_v671 : Ref sig .tc := ⟨.hbm, 919, rfl⟩
abbrev main_v672 : Ref sig .tc := ⟨.hbm, 920, rfl⟩
abbrev main_v673 : Ref sig .tc := ⟨.hbm, 921, rfl⟩
abbrev main_v674 : Ref sig .tc := ⟨.hbm, 922, rfl⟩
abbrev main_v675 : Ref sig .tc := ⟨.hbm, 923, rfl⟩
abbrev main_v676 : Ref sig .tc := ⟨.hbm, 924, rfl⟩
abbrev main_v677 : Ref sig .tc := ⟨.hbm, 925, rfl⟩
abbrev main_c_180 : Ref sig .tc := ⟨.hbm, 926, rfl⟩
abbrev main_v678 : Ref sig .tc := ⟨.hbm, 927, rfl⟩
abbrev main_v679 : Ref sig .tc := ⟨.hbm, 928, rfl⟩
abbrev main_c_181 : Ref sig .tc := ⟨.hbm, 929, rfl⟩
abbrev main_v680 : Ref sig .tc := ⟨.hbm, 930, rfl⟩
abbrev main_v681 : Ref sig .tc := ⟨.hbm, 931, rfl⟩
abbrev main_v682 : Ref sig .tc := ⟨.hbm, 932, rfl⟩
abbrev main_c_182 : Ref sig .tc := ⟨.hbm, 933, rfl⟩
abbrev main_v683 : Ref sig .tc := ⟨.hbm, 934, rfl⟩
abbrev main_v684 : Ref sig .tc := ⟨.hbm, 935, rfl⟩
abbrev main_c_183 : Ref sig .tc := ⟨.hbm, 936, rfl⟩
abbrev main_v685 : Ref sig .tc := ⟨.hbm, 937, rfl⟩
abbrev main_v686 : Ref sig .tc := ⟨.hbm, 938, rfl⟩
abbrev main_v687 : Ref sig .tc := ⟨.hbm, 939, rfl⟩
abbrev main_c_184 : Ref sig .tc := ⟨.hbm, 940, rfl⟩
abbrev main_v688 : Ref sig .tc := ⟨.hbm, 941, rfl⟩
abbrev main_v689 : Ref sig .tc := ⟨.hbm, 942, rfl⟩
abbrev main_c_185 : Ref sig .tc := ⟨.hbm, 943, rfl⟩
abbrev main_v690 : Ref sig .tc := ⟨.hbm, 944, rfl⟩
abbrev main_v691 : Ref sig .tc := ⟨.hbm, 945, rfl⟩
abbrev main_v692 : Ref sig .tc := ⟨.hbm, 946, rfl⟩
abbrev main_c_186 : Ref sig .tc := ⟨.hbm, 947, rfl⟩
abbrev main_v693 : Ref sig .tc := ⟨.hbm, 948, rfl⟩
abbrev main_v694 : Ref sig .tc := ⟨.hbm, 949, rfl⟩
abbrev main_c_187 : Ref sig .tc := ⟨.hbm, 950, rfl⟩
abbrev main_v695 : Ref sig .tc := ⟨.hbm, 951, rfl⟩
abbrev main_v696 : Ref sig .tc := ⟨.hbm, 952, rfl⟩
abbrev main_v697 : Ref sig .tc := ⟨.hbm, 953, rfl⟩
abbrev main_v698 : Ref sig .tc := ⟨.hbm, 954, rfl⟩
abbrev main_v699 : Ref sig .tc := ⟨.hbm, 955, rfl⟩
abbrev main_v700 : Ref sig .tc := ⟨.hbm, 956, rfl⟩
abbrev main_v701 : Ref sig .tc := ⟨.hbm, 957, rfl⟩
abbrev main_v702 : Ref sig .tc := ⟨.hbm, 958, rfl⟩
abbrev main_v703 : Ref sig .tc := ⟨.hbm, 959, rfl⟩
abbrev main_c_188 : Ref sig .tc := ⟨.hbm, 960, rfl⟩
abbrev main_v704 : Ref sig .tc := ⟨.hbm, 961, rfl⟩
abbrev main_v705 : Ref sig .tc := ⟨.hbm, 962, rfl⟩
abbrev main_c_189 : Ref sig .tc := ⟨.hbm, 963, rfl⟩
abbrev main_v706 : Ref sig .tc := ⟨.hbm, 964, rfl⟩
abbrev main_v707 : Ref sig .tc := ⟨.hbm, 965, rfl⟩
abbrev main_v708 : Ref sig .tc := ⟨.hbm, 966, rfl⟩
abbrev main_c_190 : Ref sig .tc := ⟨.hbm, 967, rfl⟩
abbrev main_v709 : Ref sig .tc := ⟨.hbm, 968, rfl⟩
abbrev main_v710 : Ref sig .tc := ⟨.hbm, 969, rfl⟩
abbrev main_c_191 : Ref sig .tc := ⟨.hbm, 970, rfl⟩
abbrev main_v711 : Ref sig .tc := ⟨.hbm, 971, rfl⟩
abbrev main_v712 : Ref sig .tc := ⟨.hbm, 972, rfl⟩
abbrev main_v713 : Ref sig .tc := ⟨.hbm, 973, rfl⟩
abbrev main_c_192 : Ref sig .tc := ⟨.hbm, 974, rfl⟩
abbrev main_v714 : Ref sig .tc := ⟨.hbm, 975, rfl⟩
abbrev main_v715 : Ref sig .tc := ⟨.hbm, 976, rfl⟩
abbrev main_c_193 : Ref sig .tc := ⟨.hbm, 977, rfl⟩
abbrev main_v716 : Ref sig .tc := ⟨.hbm, 978, rfl⟩
abbrev main_v717 : Ref sig .tc := ⟨.hbm, 979, rfl⟩
abbrev main_v718 : Ref sig .tc := ⟨.hbm, 980, rfl⟩
abbrev main_c_194 : Ref sig .tc := ⟨.hbm, 981, rfl⟩
abbrev main_v719 : Ref sig .tc := ⟨.hbm, 982, rfl⟩
abbrev main_v720 : Ref sig .tc := ⟨.hbm, 983, rfl⟩
abbrev main_c_195 : Ref sig .tc := ⟨.hbm, 984, rfl⟩
abbrev main_v721 : Ref sig .tc := ⟨.hbm, 985, rfl⟩
abbrev main_v722 : Ref sig .tc := ⟨.hbm, 986, rfl⟩
abbrev main_v723 : Ref sig .tc := ⟨.hbm, 987, rfl⟩
abbrev main_v724 : Ref sig .tc := ⟨.hbm, 988, rfl⟩
abbrev main_v725 : Ref sig .tc := ⟨.hbm, 989, rfl⟩
abbrev main_v726 : Ref sig .tc := ⟨.hbm, 990, rfl⟩
abbrev main_v727 : Ref sig .tc := ⟨.hbm, 991, rfl⟩
abbrev main_v728 : Ref sig .tc := ⟨.hbm, 992, rfl⟩
abbrev main_v729 : Ref sig .tc := ⟨.hbm, 993, rfl⟩
abbrev main_c_196 : Ref sig .tc := ⟨.hbm, 994, rfl⟩
abbrev main_v730 : Ref sig .tc := ⟨.hbm, 995, rfl⟩
abbrev main_v731 : Ref sig .tc := ⟨.hbm, 996, rfl⟩
abbrev main_c_197 : Ref sig .tc := ⟨.hbm, 997, rfl⟩
abbrev main_v732 : Ref sig .tc := ⟨.hbm, 998, rfl⟩
abbrev main_v733 : Ref sig .tc := ⟨.hbm, 999, rfl⟩
abbrev main_v734 : Ref sig .tc := ⟨.hbm, 1000, rfl⟩
abbrev main_c_198 : Ref sig .tc := ⟨.hbm, 1001, rfl⟩
abbrev main_v735 : Ref sig .tc := ⟨.hbm, 1002, rfl⟩
abbrev main_v736 : Ref sig .tc := ⟨.hbm, 1003, rfl⟩
abbrev main_c_199 : Ref sig .tc := ⟨.hbm, 1004, rfl⟩
abbrev main_v737 : Ref sig .tc := ⟨.hbm, 1005, rfl⟩
abbrev main_v738 : Ref sig .tc := ⟨.hbm, 1006, rfl⟩
abbrev main_v739 : Ref sig .tc := ⟨.hbm, 1007, rfl⟩
abbrev main_c_200 : Ref sig .tc := ⟨.hbm, 1008, rfl⟩
abbrev main_v740 : Ref sig .tc := ⟨.hbm, 1009, rfl⟩
abbrev main_v741 : Ref sig .tc := ⟨.hbm, 1010, rfl⟩
abbrev main_c_201 : Ref sig .tc := ⟨.hbm, 1011, rfl⟩
abbrev main_v742 : Ref sig .tc := ⟨.hbm, 1012, rfl⟩
abbrev main_v743 : Ref sig .tc := ⟨.hbm, 1013, rfl⟩
abbrev main_v744 : Ref sig .tc := ⟨.hbm, 1014, rfl⟩
abbrev main_c_202 : Ref sig .tc := ⟨.hbm, 1015, rfl⟩
abbrev main_v745 : Ref sig .tc := ⟨.hbm, 1016, rfl⟩
abbrev main_v746 : Ref sig .tc := ⟨.hbm, 1017, rfl⟩
abbrev main_c_203 : Ref sig .tc := ⟨.hbm, 1018, rfl⟩
abbrev main_v747 : Ref sig .tc := ⟨.hbm, 1019, rfl⟩
abbrev main_v748 : Ref sig .tc := ⟨.hbm, 1020, rfl⟩
abbrev main_v749 : Ref sig .tc := ⟨.hbm, 1021, rfl⟩
abbrev main_v750 : Ref sig .tc := ⟨.hbm, 1022, rfl⟩
abbrev main_v751 : Ref sig .tc := ⟨.hbm, 1023, rfl⟩
abbrev main_v752 : Ref sig .tc := ⟨.hbm, 1024, rfl⟩
abbrev main_v753 : Ref sig .tc := ⟨.hbm, 1025, rfl⟩
abbrev main_v754 : Ref sig .tc := ⟨.hbm, 1026, rfl⟩
abbrev main_v755 : Ref sig .tc := ⟨.hbm, 1027, rfl⟩
abbrev main_c_204 : Ref sig .tc := ⟨.hbm, 1028, rfl⟩
abbrev main_v756 : Ref sig .tc := ⟨.hbm, 1029, rfl⟩
abbrev main_v757 : Ref sig .tc := ⟨.hbm, 1030, rfl⟩
abbrev main_c_205 : Ref sig .tc := ⟨.hbm, 1031, rfl⟩
abbrev main_v758 : Ref sig .tc := ⟨.hbm, 1032, rfl⟩
abbrev main_v759 : Ref sig .tc := ⟨.hbm, 1033, rfl⟩
abbrev main_v760 : Ref sig .tc := ⟨.hbm, 1034, rfl⟩
abbrev main_c_206 : Ref sig .tc := ⟨.hbm, 1035, rfl⟩
abbrev main_v761 : Ref sig .tc := ⟨.hbm, 1036, rfl⟩
abbrev main_v762 : Ref sig .tc := ⟨.hbm, 1037, rfl⟩
abbrev main_c_207 : Ref sig .tc := ⟨.hbm, 1038, rfl⟩
abbrev main_v763 : Ref sig .tc := ⟨.hbm, 1039, rfl⟩
abbrev main_v764 : Ref sig .tc := ⟨.hbm, 1040, rfl⟩
abbrev main_v765 : Ref sig .tc := ⟨.hbm, 1041, rfl⟩
abbrev main_c_208 : Ref sig .tc := ⟨.hbm, 1042, rfl⟩
abbrev main_v766 : Ref sig .tc := ⟨.hbm, 1043, rfl⟩
abbrev main_v767 : Ref sig .tc := ⟨.hbm, 1044, rfl⟩
abbrev main_c_209 : Ref sig .tc := ⟨.hbm, 1045, rfl⟩
abbrev main_v768 : Ref sig .tc := ⟨.hbm, 1046, rfl⟩
abbrev main_v769 : Ref sig .tc := ⟨.hbm, 1047, rfl⟩
abbrev main_v770 : Ref sig .tc := ⟨.hbm, 1048, rfl⟩
abbrev main_c_210 : Ref sig .tc := ⟨.hbm, 1049, rfl⟩
abbrev main_v771 : Ref sig .tc := ⟨.hbm, 1050, rfl⟩
abbrev main_v772 : Ref sig .tc := ⟨.hbm, 1051, rfl⟩
abbrev main_c_211 : Ref sig .tc := ⟨.hbm, 1052, rfl⟩
abbrev main_v773 : Ref sig .tc := ⟨.hbm, 1053, rfl⟩
abbrev main_v774 : Ref sig .tc := ⟨.hbm, 1054, rfl⟩
abbrev main_v775 : Ref sig .tc := ⟨.hbm, 1055, rfl⟩
abbrev main_v776 : Ref sig .tc := ⟨.hbm, 1056, rfl⟩
abbrev main_v777 : Ref sig .tc := ⟨.hbm, 1057, rfl⟩
abbrev main_v778 : Ref sig .tc := ⟨.hbm, 1058, rfl⟩
abbrev main_v779 : Ref sig .tc := ⟨.hbm, 1059, rfl⟩
abbrev main_v780 : Ref sig .tc := ⟨.hbm, 1060, rfl⟩
abbrev main_v781 : Ref sig .tc := ⟨.hbm, 1061, rfl⟩
abbrev main_c_212 : Ref sig .tc := ⟨.hbm, 1062, rfl⟩
abbrev main_v782 : Ref sig .tc := ⟨.hbm, 1063, rfl⟩
abbrev main_v783 : Ref sig .tc := ⟨.hbm, 1064, rfl⟩
abbrev main_c_213 : Ref sig .tc := ⟨.hbm, 1065, rfl⟩
abbrev main_v784 : Ref sig .tc := ⟨.hbm, 1066, rfl⟩
abbrev main_v785 : Ref sig .tc := ⟨.hbm, 1067, rfl⟩
abbrev main_v786 : Ref sig .tc := ⟨.hbm, 1068, rfl⟩
abbrev main_c_214 : Ref sig .tc := ⟨.hbm, 1069, rfl⟩
abbrev main_v787 : Ref sig .tc := ⟨.hbm, 1070, rfl⟩
abbrev main_v788 : Ref sig .tc := ⟨.hbm, 1071, rfl⟩
abbrev main_c_215 : Ref sig .tc := ⟨.hbm, 1072, rfl⟩
abbrev main_v789 : Ref sig .tc := ⟨.hbm, 1073, rfl⟩
abbrev main_v790 : Ref sig .tc := ⟨.hbm, 1074, rfl⟩
abbrev main_v791 : Ref sig .tc := ⟨.hbm, 1075, rfl⟩
abbrev main_c_216 : Ref sig .tc := ⟨.hbm, 1076, rfl⟩
abbrev main_v792 : Ref sig .tc := ⟨.hbm, 1077, rfl⟩
abbrev main_v793 : Ref sig .tc := ⟨.hbm, 1078, rfl⟩
abbrev main_c_217 : Ref sig .tc := ⟨.hbm, 1079, rfl⟩
abbrev main_v794 : Ref sig .tc := ⟨.hbm, 1080, rfl⟩
abbrev main_v795 : Ref sig .tc := ⟨.hbm, 1081, rfl⟩
abbrev main_v796 : Ref sig .tc := ⟨.hbm, 1082, rfl⟩
abbrev main_c_218 : Ref sig .tc := ⟨.hbm, 1083, rfl⟩
abbrev main_v797 : Ref sig .tc := ⟨.hbm, 1084, rfl⟩
abbrev main_v798 : Ref sig .tc := ⟨.hbm, 1085, rfl⟩
abbrev main_c_219 : Ref sig .tc := ⟨.hbm, 1086, rfl⟩
abbrev main_v799 : Ref sig .tc := ⟨.hbm, 1087, rfl⟩
abbrev main_v800 : Ref sig .tc := ⟨.hbm, 1088, rfl⟩
abbrev main_v801 : Ref sig .tc := ⟨.hbm, 1089, rfl⟩
abbrev main_v802 : Ref sig .tc := ⟨.hbm, 1090, rfl⟩
abbrev main_v803 : Ref sig .tc := ⟨.hbm, 1091, rfl⟩
abbrev main_v804 : Ref sig .tc := ⟨.hbm, 1092, rfl⟩
abbrev main_v805 : Ref sig .tc := ⟨.hbm, 1093, rfl⟩
abbrev main_v806 : Ref sig .tc := ⟨.hbm, 1094, rfl⟩
abbrev main_v807 : Ref sig .tc := ⟨.hbm, 1095, rfl⟩
abbrev main_c_220 : Ref sig .tc := ⟨.hbm, 1096, rfl⟩
abbrev main_v808 : Ref sig .tc := ⟨.hbm, 1097, rfl⟩
abbrev main_v809 : Ref sig .tc := ⟨.hbm, 1098, rfl⟩
abbrev main_c_221 : Ref sig .tc := ⟨.hbm, 1099, rfl⟩
abbrev main_v810 : Ref sig .tc := ⟨.hbm, 1100, rfl⟩
abbrev main_v811 : Ref sig .tc := ⟨.hbm, 1101, rfl⟩
abbrev main_v812 : Ref sig .tc := ⟨.hbm, 1102, rfl⟩
abbrev main_c_222 : Ref sig .tc := ⟨.hbm, 1103, rfl⟩
abbrev main_v813 : Ref sig .tc := ⟨.hbm, 1104, rfl⟩
abbrev main_v814 : Ref sig .tc := ⟨.hbm, 1105, rfl⟩
abbrev main_c_223 : Ref sig .tc := ⟨.hbm, 1106, rfl⟩
abbrev main_v815 : Ref sig .tc := ⟨.hbm, 1107, rfl⟩
abbrev main_v816 : Ref sig .tc := ⟨.hbm, 1108, rfl⟩
abbrev main_v817 : Ref sig .tc := ⟨.hbm, 1109, rfl⟩
abbrev main_c_224 : Ref sig .tc := ⟨.hbm, 1110, rfl⟩
abbrev main_v818 : Ref sig .tc := ⟨.hbm, 1111, rfl⟩
abbrev main_v819 : Ref sig .tc := ⟨.hbm, 1112, rfl⟩
abbrev main_c_225 : Ref sig .tc := ⟨.hbm, 1113, rfl⟩
abbrev main_v820 : Ref sig .tc := ⟨.hbm, 1114, rfl⟩
abbrev main_v821 : Ref sig .tc := ⟨.hbm, 1115, rfl⟩
abbrev main_v822 : Ref sig .tc := ⟨.hbm, 1116, rfl⟩
abbrev main_c_226 : Ref sig .tc := ⟨.hbm, 1117, rfl⟩
abbrev main_v823 : Ref sig .tc := ⟨.hbm, 1118, rfl⟩
abbrev main_v824 : Ref sig .tc := ⟨.hbm, 1119, rfl⟩
abbrev main_c_227 : Ref sig .tc := ⟨.hbm, 1120, rfl⟩
abbrev main_v825 : Ref sig .tc := ⟨.hbm, 1121, rfl⟩
abbrev main_v826 : Ref sig .tc := ⟨.hbm, 1122, rfl⟩
abbrev main_v827 : Ref sig .tc := ⟨.hbm, 1123, rfl⟩
abbrev main_v828 : Ref sig .tc := ⟨.hbm, 1124, rfl⟩
abbrev main_v829 : Ref sig .tc := ⟨.hbm, 1125, rfl⟩
abbrev main_v830 : Ref sig .tc := ⟨.hbm, 1126, rfl⟩
abbrev main_v831 : Ref sig .tc := ⟨.hbm, 1127, rfl⟩
abbrev main_v832 : Ref sig .tc := ⟨.hbm, 1128, rfl⟩
abbrev main_v833 : Ref sig .tc := ⟨.hbm, 1129, rfl⟩
abbrev main_c_228 : Ref sig .tc := ⟨.hbm, 1130, rfl⟩
abbrev main_v834 : Ref sig .tc := ⟨.hbm, 1131, rfl⟩
abbrev main_v835 : Ref sig .tc := ⟨.hbm, 1132, rfl⟩
abbrev main_c_229 : Ref sig .tc := ⟨.hbm, 1133, rfl⟩
abbrev main_v836 : Ref sig .tc := ⟨.hbm, 1134, rfl⟩
abbrev main_v837 : Ref sig .tc := ⟨.hbm, 1135, rfl⟩
abbrev main_v838 : Ref sig .tc := ⟨.hbm, 1136, rfl⟩
abbrev main_c_230 : Ref sig .tc := ⟨.hbm, 1137, rfl⟩
abbrev main_v839 : Ref sig .tc := ⟨.hbm, 1138, rfl⟩
abbrev main_v840 : Ref sig .tc := ⟨.hbm, 1139, rfl⟩
abbrev main_c_231 : Ref sig .tc := ⟨.hbm, 1140, rfl⟩
abbrev main_v841 : Ref sig .tc := ⟨.hbm, 1141, rfl⟩
abbrev main_v842 : Ref sig .tc := ⟨.hbm, 1142, rfl⟩
abbrev main_v843 : Ref sig .tc := ⟨.hbm, 1143, rfl⟩
abbrev main_c_232 : Ref sig .tc := ⟨.hbm, 1144, rfl⟩
abbrev main_v844 : Ref sig .tc := ⟨.hbm, 1145, rfl⟩
abbrev main_v845 : Ref sig .tc := ⟨.hbm, 1146, rfl⟩
abbrev main_c_233 : Ref sig .tc := ⟨.hbm, 1147, rfl⟩
abbrev main_v846 : Ref sig .tc := ⟨.hbm, 1148, rfl⟩
abbrev main_v847 : Ref sig .tc := ⟨.hbm, 1149, rfl⟩
abbrev main_v848 : Ref sig .tc := ⟨.hbm, 1150, rfl⟩
abbrev main_c_234 : Ref sig .tc := ⟨.hbm, 1151, rfl⟩
abbrev main_v849 : Ref sig .tc := ⟨.hbm, 1152, rfl⟩
abbrev main_v850 : Ref sig .tc := ⟨.hbm, 1153, rfl⟩
abbrev main_c_235 : Ref sig .tc := ⟨.hbm, 1154, rfl⟩
abbrev main_v851 : Ref sig .tc := ⟨.hbm, 1155, rfl⟩
abbrev main_v852 : Ref sig .tc := ⟨.hbm, 1156, rfl⟩
abbrev main_v853 : Ref sig .tc := ⟨.hbm, 1157, rfl⟩
abbrev main_v854 : Ref sig .tc := ⟨.hbm, 1158, rfl⟩
abbrev main_v855 : Ref sig .tc := ⟨.hbm, 1159, rfl⟩
abbrev main_v856 : Ref sig .tc := ⟨.hbm, 1160, rfl⟩
abbrev main_v857 : Ref sig .tc := ⟨.hbm, 1161, rfl⟩
abbrev main_v858 : Ref sig .tc := ⟨.hbm, 1162, rfl⟩
abbrev main_v859 : Ref sig .tc := ⟨.hbm, 1163, rfl⟩
abbrev main_c_236 : Ref sig .tc := ⟨.hbm, 1164, rfl⟩
abbrev main_v860 : Ref sig .tc := ⟨.hbm, 1165, rfl⟩
abbrev main_v861 : Ref sig .tc := ⟨.hbm, 1166, rfl⟩
abbrev main_c_237 : Ref sig .tc := ⟨.hbm, 1167, rfl⟩
abbrev main_v862 : Ref sig .tc := ⟨.hbm, 1168, rfl⟩
abbrev main_v863 : Ref sig .tc := ⟨.hbm, 1169, rfl⟩
abbrev main_v864 : Ref sig .tc := ⟨.hbm, 1170, rfl⟩
abbrev main_c_238 : Ref sig .tc := ⟨.hbm, 1171, rfl⟩
abbrev main_v865 : Ref sig .tc := ⟨.hbm, 1172, rfl⟩
abbrev main_v866 : Ref sig .tc := ⟨.hbm, 1173, rfl⟩
abbrev main_c_239 : Ref sig .tc := ⟨.hbm, 1174, rfl⟩
abbrev main_v867 : Ref sig .tc := ⟨.hbm, 1175, rfl⟩
abbrev main_v868 : Ref sig .tc := ⟨.hbm, 1176, rfl⟩
abbrev main_v869 : Ref sig .tc := ⟨.hbm, 1177, rfl⟩
abbrev main_c_240 : Ref sig .tc := ⟨.hbm, 1178, rfl⟩
abbrev main_v870 : Ref sig .tc := ⟨.hbm, 1179, rfl⟩
abbrev main_v871 : Ref sig .tc := ⟨.hbm, 1180, rfl⟩
abbrev main_c_241 : Ref sig .tc := ⟨.hbm, 1181, rfl⟩
abbrev main_v872 : Ref sig .tc := ⟨.hbm, 1182, rfl⟩
abbrev main_v873 : Ref sig .tc := ⟨.hbm, 1183, rfl⟩
abbrev main_v874 : Ref sig .tc := ⟨.hbm, 1184, rfl⟩
abbrev main_c_242 : Ref sig .tc := ⟨.hbm, 1185, rfl⟩
abbrev main_v875 : Ref sig .tc := ⟨.hbm, 1186, rfl⟩
abbrev main_v876 : Ref sig .tc := ⟨.hbm, 1187, rfl⟩
abbrev main_c_243 : Ref sig .tc := ⟨.hbm, 1188, rfl⟩
abbrev main_v877 : Ref sig .tc := ⟨.hbm, 1189, rfl⟩
abbrev main_v878 : Ref sig .tc := ⟨.hbm, 1190, rfl⟩
abbrev main_v879 : Ref sig .tc := ⟨.hbm, 1191, rfl⟩
abbrev main_v880 : Ref sig .tc := ⟨.hbm, 1192, rfl⟩
abbrev main_v881 : Ref sig .tc := ⟨.hbm, 1193, rfl⟩
abbrev main_v882 : Ref sig .tc := ⟨.hbm, 1194, rfl⟩
abbrev main_v883 : Ref sig .tc := ⟨.hbm, 1195, rfl⟩
abbrev main_v884 : Ref sig .tc := ⟨.hbm, 1196, rfl⟩
abbrev main_v885 : Ref sig .tc := ⟨.hbm, 1197, rfl⟩
abbrev main_v886_0 : Ref sig .tc := ⟨.hbm, 1198, rfl⟩
abbrev main_v886_1 : Ref sig .tc := ⟨.hbm, 1199, rfl⟩
abbrev main_v886_2 : Ref sig .tc := ⟨.hbm, 1200, rfl⟩
abbrev main_v887 : Ref sig .tc := ⟨.hbm, 1201, rfl⟩
abbrev main_v888 : Ref sig .tc := ⟨.hbm, 1202, rfl⟩
abbrev main_v889 : Ref sig .tc := ⟨.hbm, 1203, rfl⟩
abbrev main_v890 : Ref sig .tc := ⟨.hbm, 1204, rfl⟩
abbrev main_v891 : Ref sig .tc := ⟨.hbm, 1205, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg12_1 : Ref sig .tc := ⟨.vmem, 25, rfl⟩
abbrev cc0_stg13_0 : Ref sig .tc := ⟨.vmem, 26, rfl⟩
abbrev cc0_stg13_1 : Ref sig .tc := ⟨.vmem, 27, rfl⟩
abbrev cc0_stg14_0 : Ref sig .tc := ⟨.vmem, 28, rfl⟩
abbrev cc0_stg14_1 : Ref sig .tc := ⟨.vmem, 29, rfl⟩
abbrev cc0_stg15_0 : Ref sig .tc := ⟨.vmem, 30, rfl⟩
abbrev cc0_stg15_1 : Ref sig .tc := ⟨.vmem, 31, rfl⟩
abbrev cc0_stg16_0 : Ref sig .tc := ⟨.vmem, 32, rfl⟩
abbrev cc0_stg16_1 : Ref sig .tc := ⟨.vmem, 33, rfl⟩
abbrev cc0_stg17_0 : Ref sig .tc := ⟨.vmem, 34, rfl⟩
abbrev cc0_stg17_1 : Ref sig .tc := ⟨.vmem, 35, rfl⟩
abbrev cc0_stg18_0 : Ref sig .tc := ⟨.vmem, 36, rfl⟩
abbrev cc0_stg18_1 : Ref sig .tc := ⟨.vmem, 37, rfl⟩
abbrev cc0_stg19_0 : Ref sig .tc := ⟨.vmem, 38, rfl⟩
abbrev cc0_stg19_1 : Ref sig .tc := ⟨.vmem, 39, rfl⟩
abbrev cc0_stg20_0 : Ref sig .tc := ⟨.vmem, 40, rfl⟩
abbrev cc0_stg20_1 : Ref sig .tc := ⟨.vmem, 41, rfl⟩
abbrev cc0_stg21_0 : Ref sig .tc := ⟨.vmem, 42, rfl⟩
abbrev cc0_stg21_1 : Ref sig .tc := ⟨.vmem, 43, rfl⟩
abbrev cc0_stg22_0 : Ref sig .tc := ⟨.vmem, 44, rfl⟩
abbrev cc0_stg22_1 : Ref sig .tc := ⟨.vmem, 45, rfl⟩
abbrev cc0_stg23_0 : Ref sig .tc := ⟨.vmem, 46, rfl⟩
abbrev cc0_stg23_1 : Ref sig .tc := ⟨.vmem, 47, rfl⟩
abbrev cc0_stg24_0 : Ref sig .tc := ⟨.vmem, 48, rfl⟩
abbrev cc0_stg24_1 : Ref sig .tc := ⟨.vmem, 49, rfl⟩
abbrev cc0_stg25_0 : Ref sig .tc := ⟨.vmem, 50, rfl⟩
abbrev cc0_stg25_1 : Ref sig .tc := ⟨.vmem, 51, rfl⟩
abbrev cc0_stg26_0 : Ref sig .tc := ⟨.vmem, 52, rfl⟩
abbrev cc0_stg26_1 : Ref sig .tc := ⟨.vmem, 53, rfl⟩
abbrev cc0_stg27_0 : Ref sig .tc := ⟨.vmem, 54, rfl⟩
abbrev cc0_stg27_1 : Ref sig .tc := ⟨.vmem, 55, rfl⟩
abbrev cc0_stg28_0 : Ref sig .tc := ⟨.vmem, 56, rfl⟩
abbrev cc0_stg28_1 : Ref sig .tc := ⟨.vmem, 57, rfl⟩
abbrev cc0_stg29_0 : Ref sig .tc := ⟨.vmem, 58, rfl⟩
abbrev cc0_stg29_1 : Ref sig .tc := ⟨.vmem, 59, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem12_1 : DmaSem sig := 25
abbrev cc0_sem13_0 : DmaSem sig := 26
abbrev cc0_sem13_1 : DmaSem sig := 27
abbrev cc0_sem14_0 : DmaSem sig := 28
abbrev cc0_sem14_1 : DmaSem sig := 29
abbrev cc0_sem15_0 : DmaSem sig := 30
abbrev cc0_sem15_1 : DmaSem sig := 31
abbrev cc0_sem16_0 : DmaSem sig := 32
abbrev cc0_sem16_1 : DmaSem sig := 33
abbrev cc0_sem17_0 : DmaSem sig := 34
abbrev cc0_sem17_1 : DmaSem sig := 35
abbrev cc0_sem18_0 : DmaSem sig := 36
abbrev cc0_sem18_1 : DmaSem sig := 37
abbrev cc0_sem19_0 : DmaSem sig := 38
abbrev cc0_sem19_1 : DmaSem sig := 39
abbrev cc0_sem20_0 : DmaSem sig := 40
abbrev cc0_sem20_1 : DmaSem sig := 41
abbrev cc0_sem21_0 : DmaSem sig := 42
abbrev cc0_sem21_1 : DmaSem sig := 43
abbrev cc0_sem22_0 : DmaSem sig := 44
abbrev cc0_sem22_1 : DmaSem sig := 45
abbrev cc0_sem23_0 : DmaSem sig := 46
abbrev cc0_sem23_1 : DmaSem sig := 47
abbrev cc0_sem24_0 : DmaSem sig := 48
abbrev cc0_sem24_1 : DmaSem sig := 49
abbrev cc0_sem25_0 : DmaSem sig := 50
abbrev cc0_sem25_1 : DmaSem sig := 51
abbrev cc0_sem26_0 : DmaSem sig := 52
abbrev cc0_sem26_1 : DmaSem sig := 53
abbrev cc0_sem27_0 : DmaSem sig := 54
abbrev cc0_sem27_1 : DmaSem sig := 55
abbrev cc0_sem28_0 : DmaSem sig := 56
abbrev cc0_sem28_1 : DmaSem sig := 57
abbrev cc0_sem29_0 : DmaSem sig := 58
abbrev cc0_sem29_1 : DmaSem sig := 59

abbrev nD : Nat := 1
abbrev τ : Topo := Topo.v7x

variable {F : FTy → Type} [FloatOps F]

abbrev grid0 : Pipeline.Grid := ⟨1, ![196], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_17 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_18 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_19 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_20 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_21 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_22 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_23 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_24 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_25 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_26 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_27 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_28 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_29 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x32 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x32 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x32 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1024x32 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1024x32 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1024x32 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1024x32 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1024x32 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1024x8 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S1024x64 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S1024x64 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S1024x64 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S1024x64 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S1024x64 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S1024x64 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S1024x64 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S1024x64 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S1024x8 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]

abbrev stage0_18 : Fin 2 → Memref sig .tc .vmem S1024x128 .f32 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true]

abbrev stage0_19 : Fin 2 → Memref sig .tc .vmem S1024x128 .f32 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true]

abbrev stage0_20 : Fin 2 → Memref sig .tc .vmem S1024x128 .f32 := fun | 0 => Memref.whole cc0_stg20_0 | 1 => Memref.whole cc0_stg20_1 | ⟨_ + 2, h⟩ => absurd h (Nat.not_lt.2 (Nat.le_add_left _ _))
abbrev sem0_20 : Fin 2 → DmaSem sig := fun | 0 => cc0_sem20_0 | 1 => cc0_sem20_1 | ⟨_ + 2, h⟩ => absurd h (Nat.not_lt.2 (Nat.le_add_left _ _))
abbrev reads0_20 : Fin grid0.rank → Bool := ![true]

abbrev stage0_21 : Fin 2 → Memref sig .tc .vmem S1024x128 .f32 := fun | 0 => Memref.whole cc0_stg21_0 | 1 => Memref.whole cc0_stg21_1 | ⟨_ + 2, h⟩ => absurd h (Nat.not_lt.2 (Nat.le_add_left _ _))
abbrev sem0_21 : Fin 2 → DmaSem sig := fun | 0 => cc0_sem21_0 | 1 => cc0_sem21_1 | ⟨_ + 2, h⟩ => absurd h (Nat.not_lt.2 (Nat.le_add_left _ _))
abbrev reads0_21 : Fin grid0.rank → Bool := ![true]

abbrev stage0_22 : Fin 2 → Memref sig .tc .vmem S1024x128 .f32 := fun | 0 => Memref.whole cc0_stg22_0 | 1 => Memref.whole cc0_stg22_1 | ⟨_ + 2, h⟩ => absurd h (Nat.not_lt.2 (Nat.le_add_left _ _))
abbrev sem0_22 : Fin 2 → DmaSem sig := fun | 0 => cc0_sem22_0 | 1 => cc0_sem22_1 | ⟨_ + 2, h⟩ => absurd h (Nat.not_lt.2 (Nat.le_add_left _ _))
abbrev reads0_22 : Fin grid0.rank → Bool := ![true]

abbrev stage0_23 : Fin 2 → Memref sig .tc .vmem S1024x128 .f32 := fun | 0 => Memref.whole cc0_stg23_0 | 1 => Memref.whole cc0_stg23_1 | ⟨_ + 2, h⟩ => absurd h (Nat.not_lt.2 (Nat.le_add_left _ _))
abbrev sem0_23 : Fin 2 → DmaSem sig := fun | 0 => cc0_sem23_0 | 1 => cc0_sem23_1 | ⟨_ + 2, h⟩ => absurd h (Nat.not_lt.2 (Nat.le_add_left _ _))
abbrev reads0_23 : Fin grid0.rank → Bool := ![true]

abbrev stage0_24 : Fin 2 → Memref sig .tc .vmem S1024x128 .f32 := fun | 0 => Memref.whole cc0_stg24_0 | 1 => Memref.whole cc0_stg24_1 | ⟨_ + 2, h⟩ => absurd h (Nat.not_lt.2 (Nat.le_add_left _ _))
abbrev sem0_24 : Fin 2 → DmaSem sig := fun | 0 => cc0_sem24_0 | 1 => cc0_sem24_1 | ⟨_ + 2, h⟩ => absurd h (Nat.not_lt.2 (Nat.le_add_left _ _))
abbrev reads0_24 : Fin grid0.rank → Bool := ![true]

abbrev stage0_25 : Fin 2 → Memref sig .tc .vmem S1024x128 .f32 := fun | 0 => Memref.whole cc0_stg25_0 | 1 => Memref.whole cc0_stg25_1 | ⟨_ + 2, h⟩ => absurd h (Nat.not_lt.2 (Nat.le_add_left _ _))
abbrev sem0_25 : Fin 2 → DmaSem sig := fun | 0 => cc0_sem25_0 | 1 => cc0_sem25_1 | ⟨_ + 2, h⟩ => absurd h (Nat.not_lt.2 (Nat.le_add_left _ _))
abbrev reads0_25 : Fin grid0.rank → Bool := ![true]

abbrev stage0_26 : Fin 2 → Memref sig .tc .vmem S1024x8 .f32 := fun | 0 => Memref.whole cc0_stg26_0 | 1 => Memref.whole cc0_stg26_1 | ⟨_ + 2, h⟩ => absurd h (Nat.not_lt.2 (Nat.le_add_left _ _))
abbrev sem0_26 : Fin 2 → DmaSem sig := fun | 0 => cc0_sem26_0 | 1 => cc0_sem26_1 | ⟨_ + 2, h⟩ => absurd h (Nat.not_lt.2 (Nat.le_add_left _ _))
abbrev reads0_26 : Fin grid0.rank → Bool := ![true]

abbrev stage0_27 : Fin 2 → Memref sig .tc .vmem S1024x32 .f32 := fun | 0 => Memref.whole cc0_stg27_0 | 1 => Memref.whole cc0_stg27_1 | ⟨_ + 2, h⟩ => absurd h (Nat.not_lt.2 (Nat.le_add_left _ _))
abbrev sem0_27 : Fin 2 → DmaSem sig := fun | 0 => cc0_sem27_0 | 1 => cc0_sem27_1 | ⟨_ + 2, h⟩ => absurd h (Nat.not_lt.2 (Nat.le_add_left _ _))
abbrev reads0_27 : Fin grid0.rank → Bool := ![true]

abbrev stage0_28 : Fin 2 → Memref sig .tc .vmem S1024x64 .f32 := fun | 0 => Memref.whole cc0_stg28_0 | 1 => Memref.whole cc0_stg28_1 | ⟨_ + 2, h⟩ => absurd h (Nat.not_lt.2 (Nat.le_add_left _ _))
abbrev sem0_28 : Fin 2 → DmaSem sig := fun | 0 => cc0_sem28_0 | 1 => cc0_sem28_1 | ⟨_ + 2, h⟩ => absurd h (Nat.not_lt.2 (Nat.le_add_left _ _))
abbrev reads0_28 : Fin grid0.rank → Bool := ![true]

abbrev stage0_29 : Fin 2 → Memref sig .tc .vmem S1024x128 .f32 := fun | 0 => Memref.whole cc0_stg29_0 | 1 => Memref.whole cc0_stg29_1 | ⟨_ + 2, h⟩ => absurd h (Nat.not_lt.2 (Nat.le_add_left _ _))
abbrev sem0_29 : Fin 2 → DmaSem sig := fun | 0 => cc0_sem29_0 | 1 => cc0_sem29_1 | ⟨_ + 2, h⟩ => absurd h (Nat.not_lt.2 (Nat.le_add_left _ _))
abbrev reads0_29 : Fin grid0.rank → Bool := ![true]

class Facts₀ : Prop where
  shapeCasts_S2x100000x3_S200000x3 : S2x100000x3.ShapeCasts S200000x3
  bcast_S2_S2x100000_0 : S2.BroadcastsInDim S2x100000 (![0] : Fin 1 → Fin S2x100000.rank)
  shapeCasts_S2x100000_S200000 : S2x100000.ShapeCasts S200000
  bcast_S3_S1x3_1 : S3.BroadcastsInDim S1x3 (![1] : Fin 1 → Fin S1x3.rank)
  bcast_S1x3_S200000x3_0_1 : S1x3.BroadcastsInDim S200000x3 (![0, 1] : Fin 2 → Fin S200000x3.rank)
  bcast_S_S200000x3 : S_.BroadcastsInDim S200000x3 (![] : Fin 0 → Fin S200000x3.rank)
  slices_S200000x3_S200000x1_0_0 : S200000x3.Slices ![0, 0] S200000x1
  shapeCasts_S200000x1_S200000 : S200000x1.ShapeCasts S200000
  slices_S200000x3_S200000x1_0_1 : S200000x3.Slices ![0, 1] S200000x1
  slices_S200000x3_S200000x1_0_2 : S200000x3.Slices ![0, 2] S200000x1
  pads_S200000_S200704_07040 : S200000.Pads (![0] : Fin 1 → Nat) ![704] ![0] S200704
  h_S_ : 0 < S_.numel
  bcast_S200704_S200704x1_0 : S200704.BroadcastsInDim S200704x1 (![0] : Fin 1 → Fin S200704x1.rank)
  concatenates_S200704x1_S200704x1_S200704x1_S200704x1_S200704x1_S200704x1_S200704x1_S200704x1_S200704x8_d1 : Shape.Concatenates [S200704x1, S200704x1, S200704x1, S200704x1, S200704x1, S200704x1, S200704x1, S200704x1] S200704x8 1
  bcast_S_S200704 : S_.BroadcastsInDim S200704 (![] : Fin 0 → Fin S200704.rank)
  concatenates_S200704x1_S200704x1_S200704x1_S200704x1_S200704x4_d1 : Shape.Concatenates [S200704x1, S200704x1, S200704x1, S200704x1] S200704x4 1
  inb_S1024x8_S1024x8_0_0 : ∀ a, (![0, 0] : Fin 2 → Nat) a + S1024x8.size a ≤ S1024x8.size a
  h_S1024x8 : 0 < S1024x8.numel
  shapeCasts_S1024x8_S1024x8 : S1024x8.ShapeCasts S1024x8
  inb_S1024x32_S1024x32_0_0 : ∀ a, (![0, 0] : Fin 2 → Nat) a + S1024x32.size a ≤ S1024x32.size a
  h_S1024x32 : 0 < S1024x32.numel
  shapeCasts_S1024x32_S1024x32 : S1024x32.ShapeCasts S1024x32
  slices_S1024x8_o0_0_S1024x1 : S1024x8.Slices ![0, 0] S1024x1
  broadcasts_S1024x1_S1024x32 : S1024x1.Broadcasts S1024x32
  slices_S1024x8_o0_1_S1024x1 : S1024x8.Slices ![0, 1] S1024x1
  slices_S1024x8_o0_2_S1024x1 : S1024x8.Slices ![0, 2] S1024x1
  slices_S1024x8_o0_3_S1024x1 : S1024x8.Slices ![0, 3] S1024x1
  slices_S1024x8_o0_4_S1024x1 : S1024x8.Slices ![0, 4] S1024x1
  slices_S1024x8_o0_5_S1024x1 : S1024x8.Slices ![0, 5] S1024x1
  slices_S1024x8_o0_6_S1024x1 : S1024x8.Slices ![0, 6] S1024x1
  slices_S1024x8_o0_7_S1024x1 : S1024x8.Slices ![0, 7] S1024x1
  inb_S1024x64_S1024x64_0_0 : ∀ a, (![0, 0] : Fin 2 → Nat) a + S1024x64.size a ≤ S1024x64.size a
  h_S1024x64 : 0 < S1024x64.numel
  shapeCasts_S1024x64_S1024x64 : S1024x64.ShapeCasts S1024x64
  broadcasts_S1024x1_S1024x64 : S1024x1.Broadcasts S1024x64
  inb_S1024x128_S1024x128_0_0 : ∀ a, (![0, 0] : Fin 2 → Nat) a + S1024x128.size a ≤ S1024x128.size a
  h_S1024x128 : 0 < S1024x128.numel
  shapeCasts_S1024x128_S1024x128 : S1024x128.ShapeCasts S1024x128
  broadcasts_S1024x1_S1024x128 : S1024x1.Broadcasts S1024x128
  slices_S200704x32_S200000x32_0_0 : S200704x32.Slices ![0, 0] S200000x32
  slices_S200704x64_S200000x64_0_0 : S200704x64.Slices ![0, 0] S200000x64
  slices_S200704x128_S200000x128_0_0 : S200704x128.Slices ![0, 0] S200000x128
  concatenates_S200000x32_S200000x64_S200000x128_S200000x224_d1 : Shape.Concatenates [S200000x32, S200000x64, S200000x128] S200000x224 1
  shapeCasts_S200000x224_S2x100000x224 : S200000x224.ShapeCasts S2x100000x224
  gather_S2x64x64x64x32_S200704x4_S200704x32_1_0123_n_n_0123_1_111132_wf : GatherDims.WF S2x64x64x64x32 S200704x4 S200704x32 [1] [0, 1, 2, 3] [] [0, 1, 2, 3] [] 1 ![1, 1, 1, 1, 32]
  gather_S2x32x32x32x64_S200704x4_S200704x64_1_0123_n_n_0123_1_111164_wf : GatherDims.WF S2x32x32x32x64 S200704x4 S200704x64 [1] [0, 1, 2, 3] [] [0, 1, 2, 3] [] 1 ![1, 1, 1, 1, 64]
  gather_S2x16x16x16x128_S200704x4_S200704x128_1_0123_n_n_0123_1_1111128_wf : GatherDims.WF S2x16x16x16x128 S200704x4 S200704x128 [1] [0, 1, 2, 3] [] [0, 1, 2, 3] [] 1 ![1, 1, 1, 1, 128]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x32.size a ≤ S200704x32.size a
  hwx0_0 : ∀ i : grid0.Coords, EltTy.bits .f32 = 32 ∨ (Rect.block (s := S200704x32) S1024x32.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x32.size a ≤ S200704x32.size a
  hwx0_1 : ∀ i : grid0.Coords, EltTy.bits .f32 = 32 ∨ (Rect.block (s := S200704x32) S1024x32.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x32.size a ≤ S200704x32.size a
  hwx0_2 : ∀ i : grid0.Coords, EltTy.bits .f32 = 32 ∨ (Rect.block (s := S200704x32) S1024x32.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x32.size a ≤ S200704x32.size a
  hwx0_3 : ∀ i : grid0.Coords, EltTy.bits .f32 = 32 ∨ (Rect.block (s := S200704x32) S1024x32.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1024x32.size a ≤ S200704x32.size a
  hwx0_4 : ∀ i : grid0.Coords, EltTy.bits .f32 = 32 ∨ (Rect.block (s := S200704x32) S1024x32.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1024x32.size a ≤ S200704x32.size a
  hwx0_5 : ∀ i : grid0.Coords, EltTy.bits .f32 = 32 ∨ (Rect.block (s := S200704x32) S1024x32.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1024x32.size a ≤ S200704x32.size a
  hwx0_6 : ∀ i : grid0.Coords, EltTy.bits .f32 = 32 ∨ (Rect.block (s := S200704x32) S1024x32.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S1024x32.size a ≤ S200704x32.size a
  hwx0_7 : ∀ i : grid0.Coords, EltTy.bits .f32 = 32 ∨ (Rect.block (s := S200704x32) S1024x32.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S1024x8.size a ≤ S200704x8.size a
  hwx0_8 : ∀ i : grid0.Coords, EltTy.bits .f32 = 32 ∨ (Rect.block (s := S200704x8) S1024x8.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S1024x64.size a ≤ S200704x64.size a
  hwx0_9 : ∀ i : grid0.Coords, EltTy.bits .f32 = 32 ∨ (Rect.block (s := S200704x64) S1024x64.size (cc0_transform_9 i) (hinb0_9 i)).WholeWords (EltTy.packing .f32)
  hstage0_10 : ∀ j, (stage0_10 j).IsWhole
  nbuf0_10 : grid0.bufCount reads0_10 false = 2
  hreads0_10 : ∀ i i' : grid0.Coords, (∀ a, reads0_10 a = true → i a = i' a) → cc0_transform_10 i = cc0_transform_10 i'
  hinb0_10 : ∀ (i : grid0.Coords) a, (cc0_transform_10 i a + 1) * S1024x64.size a ≤ S200704x64.size a
  hwx0_10 : ∀ i : grid0.Coords, EltTy.bits .f32 = 32 ∨ (Rect.block (s := S200704x64) S1024x64.size (cc0_transform_10 i) (hinb0_10 i)).WholeWords (EltTy.packing .f32)
  hstage0_11 : ∀ j, (stage0_11 j).IsWhole
  nbuf0_11 : grid0.bufCount reads0_11 false = 2
  hreads0_11 : ∀ i i' : grid0.Coords, (∀ a, reads0_11 a = true → i a = i' a) → cc0_transform_11 i = cc0_transform_11 i'
  hinb0_11 : ∀ (i : grid0.Coords) a, (cc0_transform_11 i a + 1) * S1024x64.size a ≤ S200704x64.size a
  hwx0_11 : ∀ i : grid0.Coords, EltTy.bits .f32 = 32 ∨ (Rect.block (s := S200704x64) S1024x64.size (cc0_transform_11 i) (hinb0_11 i)).WholeWords (EltTy.packing .f32)
  hstage0_12 : ∀ j, (stage0_12 j).IsWhole
  nbuf0_12 : grid0.bufCount reads0_12 false = 2
  hreads0_12 : ∀ i i' : grid0.Coords, (∀ a, reads0_12 a = true → i a = i' a) → cc0_transform_12 i = cc0_transform_12 i'
  hinb0_12 : ∀ (i : grid0.Coords) a, (cc0_transform_12 i a + 1) * S1024x64.size a ≤ S200704x64.size a
  hwx0_12 : ∀ i : grid0.Coords, EltTy.bits .f32 = 32 ∨ (Rect.block (s := S200704x64) S1024x64.size (cc0_transform_12 i) (hinb0_12 i)).WholeWords (EltTy.packing .f32)
  hstage0_13 : ∀ j, (stage0_13 j).IsWhole
  nbuf0_13 : grid0.bufCount reads0_13 false = 2
  hreads0_13 : ∀ i i' : grid0.Coords, (∀ a, reads0_13 a = true → i a = i' a) → cc0_transform_13 i = cc0_transform_13 i'
  hinb0_13 : ∀ (i : grid0.Coords) a, (cc0_transform_13 i a + 1) * S1024x64.size a ≤ S200704x64.size a
  hwx0_13 : ∀ i : grid0.Coords, EltTy.bits .f32 = 32 ∨ (Rect.block (s := S200704x64) S1024x64.size (cc0_transform_13 i) (hinb0_13 i)).WholeWords (EltTy.packing .f32)
  hstage0_14 : ∀ j, (stage0_14 j).IsWhole
  nbuf0_14 : grid0.bufCount reads0_14 false = 2
  hreads0_14 : ∀ i i' : grid0.Coords, (∀ a, reads0_14 a = true → i a = i' a) → cc0_transform_14 i = cc0_transform_14 i'
  hinb0_14 : ∀ (i : grid0.Coords) a, (cc0_transform_14 i a + 1) * S1024x64.size a ≤ S200704x64.size a
  hwx0_14 : ∀ i : grid0.Coords, EltTy.bits .f32 = 32 ∨ (Rect.block (s := S200704x64) S1024x64.size (cc0_transform_14 i) (hinb0_14 i)).WholeWords (EltTy.packing .f32)
  hstage0_15 : ∀ j, (stage0_15 j).IsWhole
  nbuf0_15 : grid0.bufCount reads0_15 false = 2
  hreads0_15 : ∀ i i' : grid0.Coords, (∀ a, reads0_15 a = true → i a = i' a) → cc0_transform_15 i = cc0_transform_15 i'
  hinb0_15 : ∀ (i : grid0.Coords) a, (cc0_transform_15 i a + 1) * S1024x64.size a ≤ S200704x64.size a
  hwx0_15 : ∀ i : grid0.Coords, EltTy.bits .f32 = 32 ∨ (Rect.block (s := S200704x64) S1024x64.size (cc0_transform_15 i) (hinb0_15 i)).WholeWords (EltTy.packing .f32)
  hstage0_16 : ∀ j, (stage0_16 j).IsWhole
  nbuf0_16 : grid0.bufCount reads0_16 false = 2
  hreads0_16 : ∀ i i' : grid0.Coords, (∀ a, reads0_16 a = true → i a = i' a) → cc0_transform_16 i = cc0_transform_16 i'
  hinb0_16 : ∀ (i : grid0.Coords) a, (cc0_transform_16 i a + 1) * S1024x64.size a ≤ S200704x64.size a
  hwx0_16 : ∀ i : grid0.Coords, EltTy.bits .f32 = 32 ∨ (Rect.block (s := S200704x64) S1024x64.size (cc0_transform_16 i) (hinb0_16 i)).WholeWords (EltTy.packing .f32)
  hstage0_17 : ∀ j, (stage0_17 j).IsWhole
  nbuf0_17 : grid0.bufCount reads0_17 false = 2
  hreads0_17 : ∀ i i' : grid0.Coords, (∀ a, reads0_17 a = true → i a = i' a) → cc0_transform_17 i = cc0_transform_17 i'
  hinb0_17 : ∀ (i : grid0.Coords) a, (cc0_transform_17 i a + 1) * S1024x8.size a ≤ S200704x8.size a
  hwx0_17 : ∀ i : grid0.Coords, EltTy.bits .f32 = 32 ∨ (Rect.block (s := S200704x8) S1024x8.size (cc0_transform_17 i) (hinb0_17 i)).WholeWords (EltTy.packing .f32)
  hstage0_18 : ∀ j, (stage0_18 j).IsWhole
  nbuf0_18 : grid0.bufCount reads0_18 false = 2
  hreads0_18 : ∀ i i' : grid0.Coords, (∀ a, reads0_18 a = true → i a = i' a) → cc0_transform_18 i = cc0_transform_18 i'
  hinb0_18 : ∀ (i : grid0.Coords) a, (cc0_transform_18 i a + 1) * S1024x128.size a ≤ S200704x128.size a
  hwx0_18 : ∀ i : grid0.Coords, EltTy.bits .f32 = 32 ∨ (Rect.block (s := S200704x128) S1024x128.size (cc0_transform_18 i) (hinb0_18 i)).WholeWords (EltTy.packing .f32)
  hstage0_19 : ∀ j, (stage0_19 j).IsWhole
  nbuf0_19 : grid0.bufCount reads0_19 false = 2
  hreads0_19 : ∀ i i' : grid0.Coords, (∀ a, reads0_19 a = true → i a = i' a) → cc0_transform_19 i = cc0_transform_19 i'
  hinb0_19 : ∀ (i : grid0.Coords) a, (cc0_transform_19 i a + 1) * S1024x128.size a ≤ S200704x128.size a
  hwx0_19 : ∀ i : grid0.Coords, EltTy.bits .f32 = 32 ∨ (Rect.block (s := S200704x128) S1024x128.size (cc0_transform_19 i) (hinb0_19 i)).WholeWords (EltTy.packing .f32)
  hstage0_20 : ∀ j, (stage0_20 j).IsWhole
  nbuf0_20 : grid0.bufCount reads0_20 false = 2
  hreads0_20 : ∀ i i' : grid0.Coords, (∀ a, reads0_20 a = true → i a = i' a) → cc0_transform_20 i = cc0_transform_20 i'
  hinb0_20 : ∀ (i : grid0.Coords) a, (cc0_transform_20 i a + 1) * S1024x128.size a ≤ S200704x128.size a
  hwx0_20 : ∀ i : grid0.Coords, EltTy.bits .f32 = 32 ∨ (Rect.block (s := S200704x128) S1024x128.size (cc0_transform_20 i) (hinb0_20 i)).WholeWords (EltTy.packing .f32)
  hstage0_21 : ∀ j, (stage0_21 j).IsWhole
  nbuf0_21 : grid0.bufCount reads0_21 false = 2
  hreads0_21 : ∀ i i' : grid0.Coords, (∀ a, reads0_21 a = true → i a = i' a) → cc0_transform_21 i = cc0_transform_21 i'
  hinb0_21 : ∀ (i : grid0.Coords) a, (cc0_transform_21 i a + 1) * S1024x128.size a ≤ S200704x128.size a
  hwx0_21 : ∀ i : grid0.Coords, EltTy.bits .f32 = 32 ∨ (Rect.block (s := S200704x128) S1024x128.size (cc0_transform_21 i) (hinb0_21 i)).WholeWords (EltTy.packing .f32)
  hstage0_22 : ∀ j, (stage0_22 j).IsWhole
  nbuf0_22 : grid0.bufCount reads0_22 false = 2
  hreads0_22 : ∀ i i' : grid0.Coords, (∀ a, reads0_22 a = true → i a = i' a) → cc0_transform_22 i = cc0_transform_22 i'
  hinb0_22 : ∀ (i : grid0.Coords) a, (cc0_transform_22 i a + 1) * S1024x128.size a ≤ S200704x128.size a
  hwx0_22 : ∀ i : grid0.Coords, EltTy.bits .f32 = 32 ∨ (Rect.block (s := S200704x128) S1024x128.size (cc0_transform_22 i) (hinb0_22 i)).WholeWords (EltTy.packing .f32)
  hstage0_23 : ∀ j, (stage0_23 j).IsWhole
  nbuf0_23 : grid0.bufCount reads0_23 false = 2
  hreads0_23 : ∀ i i' : grid0.Coords, (∀ a, reads0_23 a = true → i a = i' a) → cc0_transform_23 i = cc0_transform_23 i'
  hinb0_23 : ∀ (i : grid0.Coords) a, (cc0_transform_23 i a + 1) * S1024x128.size a ≤ S200704x128.size a
  hwx0_23 : ∀ i : grid0.Coords, EltTy.bits .f32 = 32 ∨ (Rect.block (s := S200704x128) S1024x128.size (cc0_transform_23 i) (hinb0_23 i)).WholeWords (EltTy.packing .f32)
  hstage0_24 : ∀ j, (stage0_24 j).IsWhole
  nbuf0_24 : grid0.bufCount reads0_24 false = 2
  hreads0_24 : ∀ i i' : grid0.Coords, (∀ a, reads0_24 a = true → i a = i' a) → cc0_transform_24 i = cc0_transform_24 i'
  hinb0_24 : ∀ (i : grid0.Coords) a, (cc0_transform_24 i a + 1) * S1024x128.size a ≤ S200704x128.size a
  hwx0_24 : ∀ i : grid0.Coords, EltTy.bits .f32 = 32 ∨ (Rect.block (s := S200704x128) S1024x128.size (cc0_transform_24 i) (hinb0_24 i)).WholeWords (EltTy.packing .f32)
  hstage0_25 : ∀ j, (stage0_25 j).IsWhole
  nbuf0_25 : grid0.bufCount reads0_25 false = 2
  hreads0_25 : ∀ i i' : grid0.Coords, (∀ a, reads0_25 a = true → i a = i' a) → cc0_transform_25 i = cc0_transform_25 i'
  hinb0_25 : ∀ (i : grid0.Coords) a, (cc0_transform_25 i a + 1) * S1024x128.size a ≤ S200704x128.size a
  hwx0_25 : ∀ i : grid0.Coords, EltTy.bits .f32 = 32 ∨ (Rect.block (s := S200704x128) S1024x128.size (cc0_transform_25 i) (hinb0_25 i)).WholeWords (EltTy.packing .f32)
  hstage0_26 : ∀ j, (stage0_26 j).IsWhole
  nbuf0_26 : grid0.bufCount reads0_26 false = 2
  hreads0_26 : ∀ i i' : grid0.Coords, (∀ a, reads0_26 a = true → i a = i' a) → cc0_transform_26 i = cc0_transform_26 i'
  hinb0_26 : ∀ (i : grid0.Coords) a, (cc0_transform_26 i a + 1) * S1024x8.size a ≤ S200704x8.size a
  hwx0_26 : ∀ i : grid0.Coords, EltTy.bits .f32 = 32 ∨ (Rect.block (s := S200704x8) S1024x8.size (cc0_transform_26 i) (hinb0_26 i)).WholeWords (EltTy.packing .f32)
  hstage0_27 : ∀ j, (stage0_27 j).IsWhole
  nbuf0_27 : grid0.bufCount reads0_27 false = 2
  hreads0_27 : ∀ i i' : grid0.Coords, (∀ a, reads0_27 a = true → i a = i' a) → cc0_transform_27 i = cc0_transform_27 i'
  hinb0_27 : ∀ (i : grid0.Coords) a, (cc0_transform_27 i a + 1) * S1024x32.size a ≤ S200704x32.size a
  hwx0_27 : ∀ i : grid0.Coords, EltTy.bits .f32 = 32 ∨ (Rect.block (s := S200704x32) S1024x32.size (cc0_transform_27 i) (hinb0_27 i)).WholeWords (EltTy.packing .f32)
  hstage0_28 : ∀ j, (stage0_28 j).IsWhole
  nbuf0_28 : grid0.bufCount reads0_28 false = 2
  hreads0_28 : ∀ i i' : grid0.Coords, (∀ a, reads0_28 a = true → i a = i' a) → cc0_transform_28 i = cc0_transform_28 i'
  hinb0_28 : ∀ (i : grid0.Coords) a, (cc0_transform_28 i a + 1) * S1024x64.size a ≤ S200704x64.size a
  hwx0_28 : ∀ i : grid0.Coords, EltTy.bits .f32 = 32 ∨ (Rect.block (s := S200704x64) S1024x64.size (cc0_transform_28 i) (hinb0_28 i)).WholeWords (EltTy.packing .f32)
  hstage0_29 : ∀ j, (stage0_29 j).IsWhole
  nbuf0_29 : grid0.bufCount reads0_29 false = 2
  hreads0_29 : ∀ i i' : grid0.Coords, (∀ a, reads0_29 a = true → i a = i' a) → cc0_transform_29 i = cc0_transform_29 i'
  hinb0_29 : ∀ (i : grid0.Coords) a, (cc0_transform_29 i a + 1) * S1024x128.size a ≤ S200704x128.size a
  hwx0_29 : ∀ i : grid0.Coords, EltTy.bits .f32 = 32 ∨ (Rect.block (s := S200704x128) S1024x128.size (cc0_transform_29 i) (hinb0_29 i)).WholeWords (EltTy.packing .f32)

variable [Facts₀]

def gather_S2x64x64x64x32_S200704x4_S200704x32_1_0123_n_n_0123_1_111132 : GatherDims S2x64x64x64x32 S200704x4 S200704x32 where
  offsetDims := [1]
  collapsedSliceDims := [0, 1, 2, 3]
  operandBatchingDims := []
  startIndicesBatchingDims := []
  startIndexMap := [0, 1, 2, 3]
  indexVectorDim := 1
  sliceSizes := ![1, 1, 1, 1, 32]
  wf := gather_S2x64x64x64x32_S200704x4_S200704x32_1_0123_n_n_0123_1_111132_wf
def gather_S2x32x32x32x64_S200704x4_S200704x64_1_0123_n_n_0123_1_111164 : GatherDims S2x32x32x32x64 S200704x4 S200704x64 where
  offsetDims := [1]
  collapsedSliceDims := [0, 1, 2, 3]
  operandBatchingDims := []
  startIndicesBatchingDims := []
  startIndexMap := [0, 1, 2, 3]
  indexVectorDim := 1
  sliceSizes := ![1, 1, 1, 1, 64]
  wf := gather_S2x32x32x32x64_S200704x4_S200704x64_1_0123_n_n_0123_1_111164_wf
def gather_S2x16x16x16x128_S200704x4_S200704x128_1_0123_n_n_0123_1_1111128 : GatherDims S2x16x16x16x128 S200704x4 S200704x128 where
  offsetDims := [1]
  collapsedSliceDims := [0, 1, 2, 3]
  operandBatchingDims := []
  startIndicesBatchingDims := []
  startIndexMap := [0, 1, 2, 3]
  indexVectorDim := 1
  sliceSizes := ![1, 1, 1, 1, 128]
  wf := gather_S2x16x16x16x128_S200704x4_S200704x128_1_0123_n_n_0123_1_1111128_wf

abbrev win0_0 : Pipeline.Window sig grid0 :=
  Pipeline.Window.ofSpec (Memref.whole main_v115) S1024x32.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v141) S1024x32.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v167) S1024x32.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v193) S1024x32.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v219) S1024x32.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v245) S1024x32.size cc0_transform_5 reads0_5 false false 2 stage0_5 sem0_5
    hrank0 hreads0_5 hinb0_5 nbuf0_5 (Memref.isWhole_whole _) hwx0_5 hstage0_5

abbrev win0_6 : Pipeline.Window sig grid0 :=
  Pipeline.Window.ofSpec (Memref.whole main_v271) S1024x32.size cc0_transform_6 reads0_6 false false 2 stage0_6 sem0_6
    hrank0 hreads0_6 hinb0_6 nbuf0_6 (Memref.isWhole_whole _) hwx0_6 hstage0_6

abbrev win0_7 : Pipeline.Window sig grid0 :=
  Pipeline.Window.ofSpec (Memref.whole main_v297) S1024x32.size cc0_transform_7 reads0_7 false false 2 stage0_7 sem0_7
    hrank0 hreads0_7 hinb0_7 nbuf0_7 (Memref.isWhole_whole _) hwx0_7 hstage0_7

abbrev win0_8 : Pipeline.Window sig grid0 :=
  Pipeline.Window.ofSpec (Memref.whole main_v89) S1024x8.size cc0_transform_8 reads0_8 false false 2 stage0_8 sem0_8
    hrank0 hreads0_8 hinb0_8 nbuf0_8 (Memref.isWhole_whole _) hwx0_8 hstage0_8

abbrev win0_9 : Pipeline.Window sig grid0 :=
  Pipeline.Window.ofSpec (Memref.whole main_v409) S1024x64.size cc0_transform_9 reads0_9 false false 2 stage0_9 sem0_9
    hrank0 hreads0_9 hinb0_9 nbuf0_9 (Memref.isWhole_whole _) hwx0_9 hstage0_9

abbrev win0_10 : Pipeline.Window sig grid0 :=
  Pipeline.Window.ofSpec (Memref.whole main_v435) S1024x64.size cc0_transform_10 reads0_10 false false 2 stage0_10 sem0_10
    hrank0 hreads0_10 hinb0_10 nbuf0_10 (Memref.isWhole_whole _) hwx0_10 hstage0_10

abbrev win0_11 : Pipeline.Window sig grid0 :=
  Pipeline.Window.ofSpec (Memref.whole main_v461) S1024x64.size cc0_transform_11 reads0_11 false false 2 stage0_11 sem0_11
    hrank0 hreads0_11 hinb0_11 nbuf0_11 (Memref.isWhole_whole _) hwx0_11 hstage0_11

abbrev win0_12 : Pipeline.Window sig grid0 :=
  Pipeline.Window.ofSpec (Memref.whole main_v487) S1024x64.size cc0_transform_12 reads0_12 false false 2 stage0_12 sem0_12
    hrank0 hreads0_12 hinb0_12 nbuf0_12 (Memref.isWhole_whole _) hwx0_12 hstage0_12

abbrev win0_13 : Pipeline.Window sig grid0 :=
  Pipeline.Window.ofSpec (Memref.whole main_v513) S1024x64.size cc0_transform_13 reads0_13 false false 2 stage0_13 sem0_13
    hrank0 hreads0_13 hinb0_13 nbuf0_13 (Memref.isWhole_whole _) hwx0_13 hstage0_13

abbrev win0_14 : Pipeline.Window sig grid0 :=
  Pipeline.Window.ofSpec (Memref.whole main_v539) S1024x64.size cc0_transform_14 reads0_14 false false 2 stage0_14 sem0_14
    hrank0 hreads0_14 hinb0_14 nbuf0_14 (Memref.isWhole_whole _) hwx0_14 hstage0_14

abbrev win0_15 : Pipeline.Window sig grid0 :=
  Pipeline.Window.ofSpec (Memref.whole main_v565) S1024x64.size cc0_transform_15 reads0_15 false false 2 stage0_15 sem0_15
    hrank0 hreads0_15 hinb0_15 nbuf0_15 (Memref.isWhole_whole _) hwx0_15 hstage0_15

abbrev win0_16 : Pipeline.Window sig grid0 :=
  Pipeline.Window.ofSpec (Memref.whole main_v591) S1024x64.size cc0_transform_16 reads0_16 false false 2 stage0_16 sem0_16
    hrank0 hreads0_16 hinb0_16 nbuf0_16 (Memref.isWhole_whole _) hwx0_16 hstage0_16

abbrev win0_17 : Pipeline.Window sig grid0 :=
  Pipeline.Window.ofSpec (Memref.whole main_v383) S1024x8.size cc0_transform_17 reads0_17 false false 2 stage0_17 sem0_17
    hrank0 hreads0_17 hinb0_17 nbuf0_17 (Memref.isWhole_whole _) hwx0_17 hstage0_17

abbrev win0_18 : Pipeline.Window sig grid0 :=
  Pipeline.Window.ofSpec (Memref.whole main_v703) S1024x128.size cc0_transform_18 reads0_18 false false 2 stage0_18 sem0_18
    hrank0 hreads0_18 hinb0_18 nbuf0_18 (Memref.isWhole_whole _) hwx0_18 hstage0_18

abbrev win0_19 : Pipeline.Window sig grid0 :=
  Pipeline.Window.ofSpec (Memref.whole main_v729) S1024x128.size cc0_transform_19 reads0_19 false false 2 stage0_19 sem0_19
    hrank0 hreads0_19 hinb0_19 nbuf0_19 (Memref.isWhole_whole _) hwx0_19 hstage0_19

abbrev win0_20 : Pipeline.Window sig grid0 :=
  Pipeline.Window.ofSpec (Memref.whole main_v755) S1024x128.size cc0_transform_20 reads0_20 false false 2 stage0_20 sem0_20
    hrank0 hreads0_20 hinb0_20 nbuf0_20 (Memref.isWhole_whole _) hwx0_20 hstage0_20

abbrev win0_21 : Pipeline.Window sig grid0 :=
  Pipeline.Window.ofSpec (Memref.whole main_v781) S1024x128.size cc0_transform_21 reads0_21 false false 2 stage0_21 sem0_21
    hrank0 hreads0_21 hinb0_21 nbuf0_21 (Memref.isWhole_whole _) hwx0_21 hstage0_21

abbrev win0_22 : Pipeline.Window sig grid0 :=
  Pipeline.Window.ofSpec (Memref.whole main_v807) S1024x128.size cc0_transform_22 reads0_22 false false 2 stage0_22 sem0_22
    hrank0 hreads0_22 hinb0_22 nbuf0_22 (Memref.isWhole_whole _) hwx0_22 hstage0_22

abbrev win0_23 : Pipeline.Window sig grid0 :=
  Pipeline.Window.ofSpec (Memref.whole main_v833) S1024x128.size cc0_transform_23 reads0_23 false false 2 stage0_23 sem0_23
    hrank0 hreads0_23 hinb0_23 nbuf0_23 (Memref.isWhole_whole _) hwx0_23 hstage0_23

abbrev win0_24 : Pipeline.Window sig grid0 :=
  Pipeline.Window.ofSpec (Memref.whole main_v859) S1024x128.size cc0_transform_24 reads0_24 false false 2 stage0_24 sem0_24
    hrank0 hreads0_24 hinb0_24 nbuf0_24 (Memref.isWhole_whole _) hwx0_24 hstage0_24

abbrev win0_25 : Pipeline.Window sig grid0 :=
  Pipeline.Window.ofSpec (Memref.whole main_v885) S1024x128.size cc0_transform_25 reads0_25 false false 2 stage0_25 sem0_25
    hrank0 hreads0_25 hinb0_25 nbuf0_25 (Memref.isWhole_whole _) hwx0_25 hstage0_25

abbrev win0_26 : Pipeline.Window sig grid0 :=
  Pipeline.Window.ofSpec (Memref.whole main_v677) S1024x8.size cc0_transform_26 reads0_26 false false 2 stage0_26 sem0_26
    hrank0 hreads0_26 hinb0_26 nbuf0_26 (Memref.isWhole_whole _) hwx0_26 hstage0_26

abbrev win0_27 : Pipeline.Window sig grid0 :=
  Pipeline.Window.ofSpec (Memref.whole main_v886_0) S1024x32.size cc0_transform_27 reads0_27 true false 2 stage0_27 sem0_27
    hrank0 hreads0_27 hinb0_27 nbuf0_27 (Memref.isWhole_whole _) hwx0_27 hstage0_27

abbrev win0_28 : Pipeline.Window sig grid0 :=
  Pipeline.Window.ofSpec (Memref.whole main_v886_1) S1024x64.size cc0_transform_28 reads0_28 true false 2 stage0_28 sem0_28
    hrank0 hreads0_28 hinb0_28 nbuf0_28 (Memref.isWhole_whole _) hwx0_28 hstage0_28

abbrev win0_29 : Pipeline.Window sig grid0 :=
  Pipeline.Window.ofSpec (Memref.whole main_v886_2) S1024x128.size cc0_transform_29 reads0_29 true false 2 stage0_29 sem0_29
    hrank0 hreads0_29 hinb0_29 nbuf0_29 (Memref.isWhole_whole _) hwx0_29 hstage0_29

abbrev win0 : Fin 30 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | 13 => win0_13 | 14 => win0_14 | 15 => win0_15 | 16 => win0_16 | 17 => win0_17 | 18 => win0_18 | 19 => win0_19 | 20 => win0_20 | 21 => win0_21 | 22 => win0_22 | 23 => win0_23 | 24 => win0_24 | 25 => win0_25 | 26 => win0_26 | 27 => win0_27 | 28 => win0_28 | 29 => win0_29 | ⟨_ + 30, h⟩ => absurd h (Nat.not_lt.2 (Nat.le_add_left _ _))
abbrev spec0 : Fin 30 → Pipeline.WinSpec sig grid0.rank := fun w => (win0 w).toWinSpec

class Facts : Prop extends Facts₀ where

variable [Facts]
-- ==== ReferenceIdeal.lean ====
abbrev S2x128x128x128x16 : Shape := ⟨5, ![2, 128, 128, 128, 16]⟩
abbrev S2x64x64x64x32 : Shape := ⟨5, ![2, 64, 64, 64, 32]⟩
abbrev S2x32x32x32x64 : Shape := ⟨5, ![2, 32, 32, 32, 64]⟩
abbrev S2x16x16x16x128 : Shape := ⟨5, ![2, 16, 16, 16, 128]⟩
abbrev S2x8x8x8x256 : Shape := ⟨5, ![2, 8, 8, 8, 256]⟩
abbrev S2x100000x3 : Shape := ⟨3, ![2, 100000, 3]⟩
abbrev S3 : Shape := ⟨1, ![3]⟩
abbrev S1x1x3 : Shape := ⟨3, ![1, 1, 3]⟩
abbrev S_ : Shape := ⟨0, ![]⟩
abbrev S2x100000x1 : Shape := ⟨3, ![2, 100000, 1]⟩
abbrev S2x100000 : Shape := ⟨2, ![2, 100000]⟩
abbrev S2x100000x32 : Shape := ⟨3, ![2, 100000, 32]⟩
abbrev S2x100000x64 : Shape := ⟨3, ![2, 100000, 64]⟩
abbrev S2x100000x128 : Shape := ⟨3, ![2, 100000, 128]⟩
abbrev S2x100000x224 : Shape := ⟨3, ![2, 100000, 224]⟩

abbrev nBuf : Space → Nat
  | .hbm => 916
  | .vmem => 0
  | .smem => 0
  | _ => 0

abbrev hbmTy0_0 (i : Nat) : BufTy := match i % 128 with
  | 0 => ⟨S2x128x128x128x16, .f32⟩
  | 1 => ⟨S2x64x64x64x32, .f32⟩
  | 2 => ⟨S2x32x32x32x64, .f32⟩
  | 3 => ⟨S2x16x16x16x128, .f32⟩
  | 4 => ⟨S2x8x8x8x256, .f32⟩
  | 5 => ⟨S2x100000x3, .f32⟩
  | 6 => ⟨S3, .f32⟩
  | 7 => ⟨S3, .f32⟩
  | 8 => ⟨S3, .f32⟩
  | 9 => ⟨S1x1x3, .f32⟩
  | 10 => ⟨S2x100000x3, .f32⟩
  | 11 => ⟨S2x100000x3, .f32⟩
  | 12 => ⟨S_, .f32⟩
  | 13 => ⟨S_, .f32⟩
  | 14 => ⟨S_, .f32⟩
  | 15 => ⟨S2x100000x3, .f32⟩
  | 16 => ⟨S2x100000x3, .f32⟩
  | 17 => ⟨S_, .f32⟩
  | 18 => ⟨S2x100000x3, .f32⟩
  | 19 => ⟨S2x100000x3, .f32⟩
  | 20 => ⟨S2x100000x1, .f32⟩
  | 21 => ⟨S2x100000, .f32⟩
  | 22 => ⟨S2x100000, .f32⟩
  | 23 => ⟨S2x100000x1, .f32⟩
  | 24 => ⟨S2x100000, .f32⟩
  | 25 => ⟨S2x100000, .f32⟩
  | 26 => ⟨S2x100000x1, .f32⟩
  | 27 => ⟨S2x100000, .f32⟩
  | 28 => ⟨S2x100000, .f32⟩
  | 29 => ⟨S2x100000x1, .f32⟩
  | 30 => ⟨S2x100000, .f32⟩
  | 31 => ⟨S2x100000, .f32⟩
  | 32 => ⟨S2x100000x1, .f32⟩
  | 33 => ⟨S2x100000, .f32⟩
  | 34 => ⟨S2x100000, .f32⟩
  | 35 => ⟨S2x100000x1, .f32⟩
  | 36 => ⟨S2x100000, .f32⟩
  | 37 => ⟨S2x100000, .f32⟩
  | 38 => ⟨S2x100000, .i32⟩
  | 39 => ⟨S2x100000, .i32⟩
  | 40 => ⟨S2x100000, .i32⟩
  | 41 => ⟨S2x100000, .i32⟩
  | 42 => ⟨S2x100000, .i32⟩
  | 43 => ⟨S2x100000, .i32⟩
  | 44 => ⟨S2x100000x1, .f32⟩
  | 45 => ⟨S2x100000, .f32⟩
  | 46 => ⟨S2x100000, .f32⟩
  | 47 => ⟨S2x100000x1, .f32⟩
  | 48 => ⟨S2x100000x1, .f32⟩
  | 49 => ⟨S2x100000, .f32⟩
  | 50 => ⟨S2x100000, .f32⟩
  | 51 => ⟨S2x100000x1, .f32⟩
  | 52 => ⟨S2x100000x1, .f32⟩
  | 53 => ⟨S2x100000, .f32⟩
  | 54 => ⟨S2x100000, .f32⟩
  | 55 => ⟨S2x100000x1, .f32⟩
  | 56 => ⟨S2x100000x1, .f32⟩
  | 57 => ⟨S2x100000, .f32⟩
  | 58 => ⟨S2x100000, .f32⟩
  | 59 => ⟨S2x100000x1, .f32⟩
  | 60 => ⟨S2x100000x1, .f32⟩
  | 61 => ⟨S2x100000, .f32⟩
  | 62 => ⟨S2x100000, .f32⟩
  | 63 => ⟨S2x100000x1, .f32⟩
  | 64 => ⟨S2x100000x1, .f32⟩
  | 65 => ⟨S2x100000, .f32⟩
  | 66 => ⟨S2x100000, .f32⟩
  | 67 => ⟨S2x100000x1, .f32⟩
  | 68 => ⟨S_, .i32⟩
  | 69 => ⟨S2x100000, .i32⟩
  | 70 => ⟨S2x100000, .i1⟩
  | 71 => ⟨S_, .i32⟩
  | 72 => ⟨S2x100000, .i32⟩
  | 73 => ⟨S2x100000, .i32⟩
  | 74 => ⟨S2x100000, .i32⟩
  | 75 => ⟨S_, .i32⟩
  | 76 => ⟨S2x100000, .i32⟩
  | 77 => ⟨S2x100000, .i1⟩
  | 78 => ⟨S_, .i32⟩
  | 79 => ⟨S2x100000, .i32⟩
  | 80 => ⟨S2x100000, .i32⟩
  | 81 => ⟨S2x100000, .i32⟩
  | 82 => ⟨S_, .i32⟩
  | 83 => ⟨S2x100000, .i32⟩
  | 84 => ⟨S2x100000, .i1⟩
  | 85 => ⟨S_, .i32⟩
  | 86 => ⟨S2x100000, .i32⟩
  | 87 => ⟨S2x100000, .i32⟩
  | 88 => ⟨S2x100000, .i32⟩
  | 89 => ⟨S2x100000x1, .i32⟩
  | 90 => ⟨S2x100000x1, .i32⟩
  | 91 => ⟨S2x100000x1, .i32⟩
  | 92 => ⟨S2x100000x3, .i32⟩
  | 93 => ⟨S2x100000x32, .f32⟩
  | 94 => ⟨S_, .i32⟩
  | 95 => ⟨S2x100000, .i32⟩
  | 96 => ⟨S2x100000, .i1⟩
  | 97 => ⟨S_, .i32⟩
  | 98 => ⟨S2x100000, .i32⟩
  | 99 => ⟨S2x100000, .i32⟩
  | 100 => ⟨S2x100000, .i32⟩
  | 101 => ⟨S_, .i32⟩
  | 102 => ⟨S2x100000, .i32⟩
  | 103 => ⟨S2x100000, .i1⟩
  | 104 => ⟨S_, .i32⟩
  | 105 => ⟨S2x100000, .i32⟩
  | 106 => ⟨S2x100000, .i32⟩
  | 107 => ⟨S2x100000, .i32⟩
  | 108 => ⟨S_, .i32⟩
  | 109 => ⟨S2x100000, .i32⟩
  | 110 => ⟨S2x100000, .i1⟩
  | 111 => ⟨S_, .i32⟩
  | 112 => ⟨S2x100000, .i32⟩
  | 113 => ⟨S2x100000, .i32⟩
  | 114 => ⟨S2x100000, .i32⟩
  | 115 => ⟨S2x100000x1, .i32⟩
  | 116 => ⟨S2x100000x1, .i32⟩
  | 117 => ⟨S2x100000x1, .i32⟩
  | 118 => ⟨S2x100000x3, .i32⟩
  | 119 => ⟨S2x100000x32, .f32⟩
  | 120 => ⟨S_, .i32⟩
  | 121 => ⟨S2x100000, .i32⟩
  | 122 => ⟨S2x100000, .i1⟩
  | 123 => ⟨S_, .i32⟩
  | 124 => ⟨S2x100000, .i32⟩
  | 125 => ⟨S2x100000, .i32⟩
  | 126 => ⟨S2x100000, .i32⟩
  | 127 => ⟨S_, .i32⟩
  | _ => ⟨S2x128x128x128x16, .f32⟩

abbrev hbmTy0_1 (i : Nat) : BufTy := match i % 128 with
  | 0 => ⟨S2x100000, .i32⟩
  | 1 => ⟨S2x100000, .i1⟩
  | 2 => ⟨S_, .i32⟩
  | 3 => ⟨S2x100000, .i32⟩
  | 4 => ⟨S2x100000, .i32⟩
  | 5 => ⟨S2x100000, .i32⟩
  | 6 => ⟨S_, .i32⟩
  | 7 => ⟨S2x100000, .i32⟩
  | 8 => ⟨S2x100000, .i1⟩
  | 9 => ⟨S_, .i32⟩
  | 10 => ⟨S2x100000, .i32⟩
  | 11 => ⟨S2x100000, .i32⟩
  | 12 => ⟨S2x100000, .i32⟩
  | 13 => ⟨S2x100000x1, .i32⟩
  | 14 => ⟨S2x100000x1, .i32⟩
  | 15 => ⟨S2x100000x1, .i32⟩
  | 16 => ⟨S2x100000x3, .i32⟩
  | 17 => ⟨S2x100000x32, .f32⟩
  | 18 => ⟨S_, .i32⟩
  | 19 => ⟨S2x100000, .i32⟩
  | 20 => ⟨S2x100000, .i1⟩
  | 21 => ⟨S_, .i32⟩
  | 22 => ⟨S2x100000, .i32⟩
  | 23 => ⟨S2x100000, .i32⟩
  | 24 => ⟨S2x100000, .i32⟩
  | 25 => ⟨S_, .i32⟩
  | 26 => ⟨S2x100000, .i32⟩
  | 27 => ⟨S2x100000, .i1⟩
  | 28 => ⟨S_, .i32⟩
  | 29 => ⟨S2x100000, .i32⟩
  | 30 => ⟨S2x100000, .i32⟩
  | 31 => ⟨S2x100000, .i32⟩
  | 32 => ⟨S_, .i32⟩
  | 33 => ⟨S2x100000, .i32⟩
  | 34 => ⟨S2x100000, .i1⟩
  | 35 => ⟨S_, .i32⟩
  | 36 => ⟨S2x100000, .i32⟩
  | 37 => ⟨S2x100000, .i32⟩
  | 38 => ⟨S2x100000, .i32⟩
  | 39 => ⟨S2x100000x1, .i32⟩
  | 40 => ⟨S2x100000x1, .i32⟩
  | 41 => ⟨S2x100000x1, .i32⟩
  | 42 => ⟨S2x100000x3, .i32⟩
  | 43 => ⟨S2x100000x32, .f32⟩
  | 44 => ⟨S2x100000x32, .f32⟩
  | 45 => ⟨S2x100000x32, .f32⟩
  | 46 => ⟨S2x100000x32, .f32⟩
  | 47 => ⟨S2x100000x32, .f32⟩
  | 48 => ⟨S2x100000x32, .f32⟩
  | 49 => ⟨S2x100000x32, .f32⟩
  | 50 => ⟨S2x100000x32, .f32⟩
  | 51 => ⟨S2x100000x32, .f32⟩
  | 52 => ⟨S2x100000x32, .f32⟩
  | 53 => ⟨S2x100000x32, .f32⟩
  | 54 => ⟨S2x100000x32, .f32⟩
  | 55 => ⟨S2x100000x32, .f32⟩
  | 56 => ⟨S2x100000x32, .f32⟩
  | 57 => ⟨S2x100000x32, .f32⟩
  | 58 => ⟨S2x100000x32, .f32⟩
  | 59 => ⟨S_, .i32⟩
  | 60 => ⟨S2x100000, .i32⟩
  | 61 => ⟨S2x100000, .i1⟩
  | 62 => ⟨S_, .i32⟩
  | 63 => ⟨S2x100000, .i32⟩
  | 64 => ⟨S2x100000, .i32⟩
  | 65 => ⟨S2x100000, .i32⟩
  | 66 => ⟨S_, .i32⟩
  | 67 => ⟨S2x100000, .i32⟩
  | 68 => ⟨S2x100000, .i1⟩
  | 69 => ⟨S_, .i32⟩
  | 70 => ⟨S2x100000, .i32⟩
  | 71 => ⟨S2x100000, .i32⟩
  | 72 => ⟨S2x100000, .i32⟩
  | 73 => ⟨S_, .i32⟩
  | 74 => ⟨S2x100000, .i32⟩
  | 75 => ⟨S2x100000, .i1⟩
  | 76 => ⟨S_, .i32⟩
  | 77 => ⟨S2x100000, .i32⟩
  | 78 => ⟨S2x100000, .i32⟩
  | 79 => ⟨S2x100000, .i32⟩
  | 80 => ⟨S2x100000x1, .i32⟩
  | 81 => ⟨S2x100000x1, .i32⟩
  | 82 => ⟨S2x100000x1, .i32⟩
  | 83 => ⟨S2x100000x3, .i32⟩
  | 84 => ⟨S2x100000x32, .f32⟩
  | 85 => ⟨S_, .i32⟩
  | 86 => ⟨S2x100000, .i32⟩
  | 87 => ⟨S2x100000, .i1⟩
  | 88 => ⟨S_, .i32⟩
  | 89 => ⟨S2x100000, .i32⟩
  | 90 => ⟨S2x100000, .i32⟩
  | 91 => ⟨S2x100000, .i32⟩
  | 92 => ⟨S_, .i32⟩
  | 93 => ⟨S2x100000, .i32⟩
  | 94 => ⟨S2x100000, .i1⟩
  | 95 => ⟨S_, .i32⟩
  | 96 => ⟨S2x100000, .i32⟩
  | 97 => ⟨S2x100000, .i32⟩
  | 98 => ⟨S2x100000, .i32⟩
  | 99 => ⟨S_, .i32⟩
  | 100 => ⟨S2x100000, .i32⟩
  | 101 => ⟨S2x100000, .i1⟩
  | 102 => ⟨S_, .i32⟩
  | 103 => ⟨S2x100000, .i32⟩
  | 104 => ⟨S2x100000, .i32⟩
  | 105 => ⟨S2x100000, .i32⟩
  | 106 => ⟨S2x100000x1, .i32⟩
  | 107 => ⟨S2x100000x1, .i32⟩
  | 108 => ⟨S2x100000x1, .i32⟩
  | 109 => ⟨S2x100000x3, .i32⟩
  | 110 => ⟨S2x100000x32, .f32⟩
  | 111 => ⟨S_, .i32⟩
  | 112 => ⟨S2x100000, .i32⟩
  | 113 => ⟨S2x100000, .i1⟩
  | 114 => ⟨S_, .i32⟩
  | 115 => ⟨S2x100000, .i32⟩
  | 116 => ⟨S2x100000, .i32⟩
  | 117 => ⟨S2x100000, .i32⟩
  | 118 => ⟨S_, .i32⟩
  | 119 => ⟨S2x100000, .i32⟩
  | 120 => ⟨S2x100000, .i1⟩
  | 121 => ⟨S_, .i32⟩
  | 122 => ⟨S2x100000, .i32⟩
  | 123 => ⟨S2x100000, .i32⟩
  | 124 => ⟨S2x100000, .i32⟩
  | 125 => ⟨S_, .i32⟩
  | 126 => ⟨S2x100000, .i32⟩
  | 127 => ⟨S2x100000, .i1⟩
  | _ => ⟨S2x128x128x128x16, .f32⟩

abbrev hbmTy0_2 (i : Nat) : BufTy := match i % 128 with
  | 0 => ⟨S_, .i32⟩
  | 1 => ⟨S2x100000, .i32⟩
  | 2 => ⟨S2x100000, .i32⟩
  | 3 => ⟨S2x100000, .i32⟩
  | 4 => ⟨S2x100000x1, .i32⟩
  | 5 => ⟨S2x100000x1, .i32⟩
  | 6 => ⟨S2x100000x1, .i32⟩
  | 7 => ⟨S2x100000x3, .i32⟩
  | 8 => ⟨S2x100000x32, .f32⟩
  | 9 => ⟨S_, .i32⟩
  | 10 => ⟨S2x100000, .i32⟩
  | 11 => ⟨S2x100000, .i1⟩
  | 12 => ⟨S_, .i32⟩
  | 13 => ⟨S2x100000, .i32⟩
  | 14 => ⟨S2x100000, .i32⟩
  | 15 => ⟨S2x100000, .i32⟩
  | 16 => ⟨S_, .i32⟩
  | 17 => ⟨S2x100000, .i32⟩
  | 18 => ⟨S2x100000, .i1⟩
  | 19 => ⟨S_, .i32⟩
  | 20 => ⟨S2x100000, .i32⟩
  | 21 => ⟨S2x100000, .i32⟩
  | 22 => ⟨S2x100000, .i32⟩
  | 23 => ⟨S_, .i32⟩
  | 24 => ⟨S2x100000, .i32⟩
  | 25 => ⟨S2x100000, .i1⟩
  | 26 => ⟨S_, .i32⟩
  | 27 => ⟨S2x100000, .i32⟩
  | 28 => ⟨S2x100000, .i32⟩
  | 29 => ⟨S2x100000, .i32⟩
  | 30 => ⟨S2x100000x1, .i32⟩
  | 31 => ⟨S2x100000x1, .i32⟩
  | 32 => ⟨S2x100000x1, .i32⟩
  | 33 => ⟨S2x100000x3, .i32⟩
  | 34 => ⟨S2x100000x32, .f32⟩
  | 35 => ⟨S2x100000x32, .f32⟩
  | 36 => ⟨S2x100000x32, .f32⟩
  | 37 => ⟨S2x100000x32, .f32⟩
  | 38 => ⟨S2x100000x32, .f32⟩
  | 39 => ⟨S2x100000x32, .f32⟩
  | 40 => ⟨S2x100000x32, .f32⟩
  | 41 => ⟨S2x100000x32, .f32⟩
  | 42 => ⟨S2x100000x32, .f32⟩
  | 43 => ⟨S2x100000x32, .f32⟩
  | 44 => ⟨S2x100000x32, .f32⟩
  | 45 => ⟨S2x100000x32, .f32⟩
  | 46 => ⟨S2x100000x32, .f32⟩
  | 47 => ⟨S2x100000x32, .f32⟩
  | 48 => ⟨S2x100000x32, .f32⟩
  | 49 => ⟨S2x100000x32, .f32⟩
  | 50 => ⟨S2x100000x32, .f32⟩
  | 51 => ⟨S2x100000x32, .f32⟩
  | 52 => ⟨S2x100000x32, .f32⟩
  | 53 => ⟨S2x100000x32, .f32⟩
  | 54 => ⟨S2x100000x32, .f32⟩
  | 55 => ⟨S1x1x3, .f32⟩
  | 56 => ⟨S2x100000x3, .f32⟩
  | 57 => ⟨S2x100000x3, .f32⟩
  | 58 => ⟨S_, .f32⟩
  | 59 => ⟨S_, .f32⟩
  | 60 => ⟨S_, .f32⟩
  | 61 => ⟨S2x100000x3, .f32⟩
  | 62 => ⟨S2x100000x3, .f32⟩
  | 63 => ⟨S_, .f32⟩
  | 64 => ⟨S2x100000x3, .f32⟩
  | 65 => ⟨S2x100000x3, .f32⟩
  | 66 => ⟨S2x100000x1, .f32⟩
  | 67 => ⟨S2x100000, .f32⟩
  | 68 => ⟨S2x100000, .f32⟩
  | 69 => ⟨S2x100000x1, .f32⟩
  | 70 => ⟨S2x100000, .f32⟩
  | 71 => ⟨S2x100000, .f32⟩
  | 72 => ⟨S2x100000x1, .f32⟩
  | 73 => ⟨S2x100000, .f32⟩
  | 74 => ⟨S2x100000, .f32⟩
  | 75 => ⟨S2x100000x1, .f32⟩
  | 76 => ⟨S2x100000, .f32⟩
  | 77 => ⟨S2x100000, .f32⟩
  | 78 => ⟨S2x100000x1, .f32⟩
  | 79 => ⟨S2x100000, .f32⟩
  | 80 => ⟨S2x100000, .f32⟩
  | 81 => ⟨S2x100000x1, .f32⟩
  | 82 => ⟨S2x100000, .f32⟩
  | 83 => ⟨S2x100000, .f32⟩
  | 84 => ⟨S2x100000, .i32⟩
  | 85 => ⟨S2x100000, .i32⟩
  | 86 => ⟨S2x100000, .i32⟩
  | 87 => ⟨S2x100000, .i32⟩
  | 88 => ⟨S2x100000, .i32⟩
  | 89 => ⟨S2x100000, .i32⟩
  | 90 => ⟨S2x100000x1, .f32⟩
  | 91 => ⟨S2x100000, .f32⟩
  | 92 => ⟨S2x100000, .f32⟩
  | 93 => ⟨S2x100000x1, .f32⟩
  | 94 => ⟨S2x100000x1, .f32⟩
  | 95 => ⟨S2x100000, .f32⟩
  | 96 => ⟨S2x100000, .f32⟩
  | 97 => ⟨S2x100000x1, .f32⟩
  | 98 => ⟨S2x100000x1, .f32⟩
  | 99 => ⟨S2x100000, .f32⟩
  | 100 => ⟨S2x100000, .f32⟩
  | 101 => ⟨S2x100000x1, .f32⟩
  | 102 => ⟨S2x100000x1, .f32⟩
  | 103 => ⟨S2x100000, .f32⟩
  | 104 => ⟨S2x100000, .f32⟩
  | 105 => ⟨S2x100000x1, .f32⟩
  | 106 => ⟨S2x100000x1, .f32⟩
  | 107 => ⟨S2x100000, .f32⟩
  | 108 => ⟨S2x100000, .f32⟩
  | 109 => ⟨S2x100000x1, .f32⟩
  | 110 => ⟨S2x100000x1, .f32⟩
  | 111 => ⟨S2x100000, .f32⟩
  | 112 => ⟨S2x100000, .f32⟩
  | 113 => ⟨S2x100000x1, .f32⟩
  | 114 => ⟨S_, .i32⟩
  | 115 => ⟨S2x100000, .i32⟩
  | 116 => ⟨S2x100000, .i1⟩
  | 117 => ⟨S_, .i32⟩
  | 118 => ⟨S2x100000, .i32⟩
  | 119 => ⟨S2x100000, .i32⟩
  | 120 => ⟨S2x100000, .i32⟩
  | 121 => ⟨S_, .i32⟩
  | 122 => ⟨S2x100000, .i32⟩
  | 123 => ⟨S2x100000, .i1⟩
  | 124 => ⟨S_, .i32⟩
  | 125 => ⟨S2x100000, .i32⟩
  | 126 => ⟨S2x100000, .i32⟩
  | 127 => ⟨S2x100000, .i32⟩
  | _ => ⟨S2x128x128x128x16, .f32⟩

abbrev hbmTy0_3 (i : Nat) : BufTy := match i % 128 with
  | 0 => ⟨S_, .i32⟩
  | 1 => ⟨S2x100000, .i32⟩
  | 2 => ⟨S2x100000, .i1⟩
  | 3 => ⟨S_, .i32⟩
  | 4 => ⟨S2x100000, .i32⟩
  | 5 => ⟨S2x100000, .i32⟩
  | 6 => ⟨S2x100000, .i32⟩
  | 7 => ⟨S2x100000x1, .i32⟩
  | 8 => ⟨S2x100000x1, .i32⟩
  | 9 => ⟨S2x100000x1, .i32⟩
  | 10 => ⟨S2x100000x3, .i32⟩
  | 11 => ⟨S2x100000x64, .f32⟩
  | 12 => ⟨S_, .i32⟩
  | 13 => ⟨S2x100000, .i32⟩
  | 14 => ⟨S2x100000, .i1⟩
  | 15 => ⟨S_, .i32⟩
  | 16 => ⟨S2x100000, .i32⟩
  | 17 => ⟨S2x100000, .i32⟩
  | 18 => ⟨S2x100000, .i32⟩
  | 19 => ⟨S_, .i32⟩
  | 20 => ⟨S2x100000, .i32⟩
  | 21 => ⟨S2x100000, .i1⟩
  | 22 => ⟨S_, .i32⟩
  | 23 => ⟨S2x100000, .i32⟩
  | 24 => ⟨S2x100000, .i32⟩
  | 25 => ⟨S2x100000, .i32⟩
  | 26 => ⟨S_, .i32⟩
  | 27 => ⟨S2x100000, .i32⟩
  | 28 => ⟨S2x100000, .i1⟩
  | 29 => ⟨S_, .i32⟩
  | 30 => ⟨S2x100000, .i32⟩
  | 31 => ⟨S2x100000, .i32⟩
  | 32 => ⟨S2x100000, .i32⟩
  | 33 => ⟨S2x100000x1, .i32⟩
  | 34 => ⟨S2x100000x1, .i32⟩
  | 35 => ⟨S2x100000x1, .i32⟩
  | 36 => ⟨S2x100000x3, .i32⟩
  | 37 => ⟨S2x100000x64, .f32⟩
  | 38 => ⟨S_, .i32⟩
  | 39 => ⟨S2x100000, .i32⟩
  | 40 => ⟨S2x100000, .i1⟩
  | 41 => ⟨S_, .i32⟩
  | 42 => ⟨S2x100000, .i32⟩
  | 43 => ⟨S2x100000, .i32⟩
  | 44 => ⟨S2x100000, .i32⟩
  | 45 => ⟨S_, .i32⟩
  | 46 => ⟨S2x100000, .i32⟩
  | 47 => ⟨S2x100000, .i1⟩
  | 48 => ⟨S_, .i32⟩
  | 49 => ⟨S2x100000, .i32⟩
  | 50 => ⟨S2x100000, .i32⟩
  | 51 => ⟨S2x100000, .i32⟩
  | 52 => ⟨S_, .i32⟩
  | 53 => ⟨S2x100000, .i32⟩
  | 54 => ⟨S2x100000, .i1⟩
  | 55 => ⟨S_, .i32⟩
  | 56 => ⟨S2x100000, .i32⟩
  | 57 => ⟨S2x100000, .i32⟩
  | 58 => ⟨S2x100000, .i32⟩
  | 59 => ⟨S2x100000x1, .i32⟩
  | 60 => ⟨S2x100000x1, .i32⟩
  | 61 => ⟨S2x100000x1, .i32⟩
  | 62 => ⟨S2x100000x3, .i32⟩
  | 63 => ⟨S2x100000x64, .f32⟩
  | 64 => ⟨S_, .i32⟩
  | 65 => ⟨S2x100000, .i32⟩
  | 66 => ⟨S2x100000, .i1⟩
  | 67 => ⟨S_, .i32⟩
  | 68 => ⟨S2x100000, .i32⟩
  | 69 => ⟨S2x100000, .i32⟩
  | 70 => ⟨S2x100000, .i32⟩
  | 71 => ⟨S_, .i32⟩
  | 72 => ⟨S2x100000, .i32⟩
  | 73 => ⟨S2x100000, .i1⟩
  | 74 => ⟨S_, .i32⟩
  | 75 => ⟨S2x100000, .i32⟩
  | 76 => ⟨S2x100000, .i32⟩
  | 77 => ⟨S2x100000, .i32⟩
  | 78 => ⟨S_, .i32⟩
  | 79 => ⟨S2x100000, .i32⟩
  | 80 => ⟨S2x100000, .i1⟩
  | 81 => ⟨S_, .i32⟩
  | 82 => ⟨S2x100000, .i32⟩
  | 83 => ⟨S2x100000, .i32⟩
  | 84 => ⟨S2x100000, .i32⟩
  | 85 => ⟨S2x100000x1, .i32⟩
  | 86 => ⟨S2x100000x1, .i32⟩
  | 87 => ⟨S2x100000x1, .i32⟩
  | 88 => ⟨S2x100000x3, .i32⟩
  | 89 => ⟨S2x100000x64, .f32⟩
  | 90 => ⟨S2x100000x64, .f32⟩
  | 91 => ⟨S2x100000x64, .f32⟩
  | 92 => ⟨S2x100000x64, .f32⟩
  | 93 => ⟨S2x100000x64, .f32⟩
  | 94 => ⟨S2x100000x64, .f32⟩
  | 95 => ⟨S2x100000x64, .f32⟩
  | 96 => ⟨S2x100000x64, .f32⟩
  | 97 => ⟨S2x100000x64, .f32⟩
  | 98 => ⟨S2x100000x64, .f32⟩
  | 99 => ⟨S2x100000x64, .f32⟩
  | 100 => ⟨S2x100000x64, .f32⟩
  | 101 => ⟨S2x100000x64, .f32⟩
  | 102 => ⟨S2x100000x64, .f32⟩
  | 103 => ⟨S2x100000x64, .f32⟩
  | 104 => ⟨S2x100000x64, .f32⟩
  | 105 => ⟨S_, .i32⟩
  | 106 => ⟨S2x100000, .i32⟩
  | 107 => ⟨S2x100000, .i1⟩
  | 108 => ⟨S_, .i32⟩
  | 109 => ⟨S2x100000, .i32⟩
  | 110 => ⟨S2x100000, .i32⟩
  | 111 => ⟨S2x100000, .i32⟩
  | 112 => ⟨S_, .i32⟩
  | 113 => ⟨S2x100000, .i32⟩
  | 114 => ⟨S2x100000, .i1⟩
  | 115 => ⟨S_, .i32⟩
  | 116 => ⟨S2x100000, .i32⟩
  | 117 => ⟨S2x100000, .i32⟩
  | 118 => ⟨S2x100000, .i32⟩
  | 119 => ⟨S_, .i32⟩
  | 120 => ⟨S2x100000, .i32⟩
  | 121 => ⟨S2x100000, .i1⟩
  | 122 => ⟨S_, .i32⟩
  | 123 => ⟨S2x100000, .i32⟩
  | 124 => ⟨S2x100000, .i32⟩
  | 125 => ⟨S2x100000, .i32⟩
  | 126 => ⟨S2x100000x1, .i32⟩
  | 127 => ⟨S2x100000x1, .i32⟩
  | _ => ⟨S2x128x128x128x16, .f32⟩

abbrev hbmTy0_4 (i : Nat) : BufTy := match i % 128 with
  | 0 => ⟨S2x100000x1, .i32⟩
  | 1 => ⟨S2x100000x3, .i32⟩
  | 2 => ⟨S2x100000x64, .f32⟩
  | 3 => ⟨S_, .i32⟩
  | 4 => ⟨S2x100000, .i32⟩
  | 5 => ⟨S2x100000, .i1⟩
  | 6 => ⟨S_, .i32⟩
  | 7 => ⟨S2x100000, .i32⟩
  | 8 => ⟨S2x100000, .i32⟩
  | 9 => ⟨S2x100000, .i32⟩
  | 10 => ⟨S_, .i32⟩
  | 11 => ⟨S2x100000, .i32⟩
  | 12 => ⟨S2x100000, .i1⟩
  | 13 => ⟨S_, .i32⟩
  | 14 => ⟨S2x100000, .i32⟩
  | 15 => ⟨S2x100000, .i32⟩
  | 16 => ⟨S2x100000, .i32⟩
  | 17 => ⟨S_, .i32⟩
  | 18 => ⟨S2x100000, .i32⟩
  | 19 => ⟨S2x100000, .i1⟩
  | 20 => ⟨S_, .i32⟩
  | 21 => ⟨S2x100000, .i32⟩
  | 22 => ⟨S2x100000, .i32⟩
  | 23 => ⟨S2x100000, .i32⟩
  | 24 => ⟨S2x100000x1, .i32⟩
  | 25 => ⟨S2x100000x1, .i32⟩
  | 26 => ⟨S2x100000x1, .i32⟩
  | 27 => ⟨S2x100000x3, .i32⟩
  | 28 => ⟨S2x100000x64, .f32⟩
  | 29 => ⟨S_, .i32⟩
  | 30 => ⟨S2x100000, .i32⟩
  | 31 => ⟨S2x100000, .i1⟩
  | 32 => ⟨S_, .i32⟩
  | 33 => ⟨S2x100000, .i32⟩
  | 34 => ⟨S2x100000, .i32⟩
  | 35 => ⟨S2x100000, .i32⟩
  | 36 => ⟨S_, .i32⟩
  | 37 => ⟨S2x100000, .i32⟩
  | 38 => ⟨S2x100000, .i1⟩
  | 39 => ⟨S_, .i32⟩
  | 40 => ⟨S2x100000, .i32⟩
  | 41 => ⟨S2x100000, .i32⟩
  | 42 => ⟨S2x100000, .i32⟩
  | 43 => ⟨S_, .i32⟩
  | 44 => ⟨S2x100000, .i32⟩
  | 45 => ⟨S2x100000, .i1⟩
  | 46 => ⟨S_, .i32⟩
  | 47 => ⟨S2x100000, .i32⟩
  | 48 => ⟨S2x100000, .i32⟩
  | 49 => ⟨S2x100000, .i32⟩
  | 50 => ⟨S2x100000x1, .i32⟩
  | 51 => ⟨S2x100000x1, .i32⟩
  | 52 => ⟨S2x100000x1, .i32⟩
  | 53 => ⟨S2x100000x3, .i32⟩
  | 54 => ⟨S2x100000x64, .f32⟩
  | 55 => ⟨S_, .i32⟩
  | 56 => ⟨S2x100000, .i32⟩
  | 57 => ⟨S2x100000, .i1⟩
  | 58 => ⟨S_, .i32⟩
  | 59 => ⟨S2x100000, .i32⟩
  | 60 => ⟨S2x100000, .i32⟩
  | 61 => ⟨S2x100000, .i32⟩
  | 62 => ⟨S_, .i32⟩
  | 63 => ⟨S2x100000, .i32⟩
  | 64 => ⟨S2x100000, .i1⟩
  | 65 => ⟨S_, .i32⟩
  | 66 => ⟨S2x100000, .i32⟩
  | 67 => ⟨S2x100000, .i32⟩
  | 68 => ⟨S2x100000, .i32⟩
  | 69 => ⟨S_, .i32⟩
  | 70 => ⟨S2x100000, .i32⟩
  | 71 => ⟨S2x100000, .i1⟩
  | 72 => ⟨S_, .i32⟩
  | 73 => ⟨S2x100000, .i32⟩
  | 74 => ⟨S2x100000, .i32⟩
  | 75 => ⟨S2x100000, .i32⟩
  | 76 => ⟨S2x100000x1, .i32⟩
  | 77 => ⟨S2x100000x1, .i32⟩
  | 78 => ⟨S2x100000x1, .i32⟩
  | 79 => ⟨S2x100000x3, .i32⟩
  | 80 => ⟨S2x100000x64, .f32⟩
  | 81 => ⟨S2x100000x64, .f32⟩
  | 82 => ⟨S2x100000x64, .f32⟩
  | 83 => ⟨S2x100000x64, .f32⟩
  | 84 => ⟨S2x100000x64, .f32⟩
  | 85 => ⟨S2x100000x64, .f32⟩
  | 86 => ⟨S2x100000x64, .f32⟩
  | 87 => ⟨S2x100000x64, .f32⟩
  | 88 => ⟨S2x100000x64, .f32⟩
  | 89 => ⟨S2x100000x64, .f32⟩
  | 90 => ⟨S2x100000x64, .f32⟩
  | 91 => ⟨S2x100000x64, .f32⟩
  | 92 => ⟨S2x100000x64, .f32⟩
  | 93 => ⟨S2x100000x64, .f32⟩
  | 94 => ⟨S2x100000x64, .f32⟩
  | 95 => ⟨S2x100000x64, .f32⟩
  | 96 => ⟨S2x100000x64, .f32⟩
  | 97 => ⟨S2x100000x64, .f32⟩
  | 98 => ⟨S2x100000x64, .f32⟩
  | 99 => ⟨S2x100000x64, .f32⟩
  | 100 => ⟨S2x100000x64, .f32⟩
  | 101 => ⟨S1x1x3, .f32⟩
  | 102 => ⟨S2x100000x3, .f32⟩
  | 103 => ⟨S2x100000x3, .f32⟩
  | 104 => ⟨S_, .f32⟩
  | 105 => ⟨S_, .f32⟩
  | 106 => ⟨S_, .f32⟩
  | 107 => ⟨S2x100000x3, .f32⟩
  | 108 => ⟨S2x100000x3, .f32⟩
  | 109 => ⟨S_, .f32⟩
  | 110 => ⟨S2x100000x3, .f32⟩
  | 111 => ⟨S2x100000x3, .f32⟩
  | 112 => ⟨S2x100000x1, .f32⟩
  | 113 => ⟨S2x100000, .f32⟩
  | 114 => ⟨S2x100000, .f32⟩
  | 115 => ⟨S2x100000x1, .f32⟩
  | 116 => ⟨S2x100000, .f32⟩
  | 117 => ⟨S2x100000, .f32⟩
  | 118 => ⟨S2x100000x1, .f32⟩
  | 119 => ⟨S2x100000, .f32⟩
  | 120 => ⟨S2x100000, .f32⟩
  | 121 => ⟨S2x100000x1, .f32⟩
  | 122 => ⟨S2x100000, .f32⟩
  | 123 => ⟨S2x100000, .f32⟩
  | 124 => ⟨S2x100000x1, .f32⟩
  | 125 => ⟨S2x100000, .f32⟩
  | 126 => ⟨S2x100000, .f32⟩
  | 127 => ⟨S2x100000x1, .f32⟩
  | _ => ⟨S2x128x128x128x16, .f32⟩

abbrev hbmTy0_5 (i : Nat) : BufTy := match i % 128 with
  | 0 => ⟨S2x100000, .f32⟩
  | 1 => ⟨S2x100000, .f32⟩
  | 2 => ⟨S2x100000, .i32⟩
  | 3 => ⟨S2x100000, .i32⟩
  | 4 => ⟨S2x100000, .i32⟩
  | 5 => ⟨S2x100000, .i32⟩
  | 6 => ⟨S2x100000, .i32⟩
  | 7 => ⟨S2x100000, .i32⟩
  | 8 => ⟨S2x100000x1, .f32⟩
  | 9 => ⟨S2x100000, .f32⟩
  | 10 => ⟨S2x100000, .f32⟩
  | 11 => ⟨S2x100000x1, .f32⟩
  | 12 => ⟨S2x100000x1, .f32⟩
  | 13 => ⟨S2x100000, .f32⟩
  | 14 => ⟨S2x100000, .f32⟩
  | 15 => ⟨S2x100000x1, .f32⟩
  | 16 => ⟨S2x100000x1, .f32⟩
  | 17 => ⟨S2x100000, .f32⟩
  | 18 => ⟨S2x100000, .f32⟩
  | 19 => ⟨S2x100000x1, .f32⟩
  | 20 => ⟨S2x100000x1, .f32⟩
  | 21 => ⟨S2x100000, .f32⟩
  | 22 => ⟨S2x100000, .f32⟩
  | 23 => ⟨S2x100000x1, .f32⟩
  | 24 => ⟨S2x100000x1, .f32⟩
  | 25 => ⟨S2x100000, .f32⟩
  | 26 => ⟨S2x100000, .f32⟩
  | 27 => ⟨S2x100000x1, .f32⟩
  | 28 => ⟨S2x100000x1, .f32⟩
  | 29 => ⟨S2x100000, .f32⟩
  | 30 => ⟨S2x100000, .f32⟩
  | 31 => ⟨S2x100000x1, .f32⟩
  | 32 => ⟨S_, .i32⟩
  | 33 => ⟨S2x100000, .i32⟩
  | 34 => ⟨S2x100000, .i1⟩
  | 35 => ⟨S_, .i32⟩
  | 36 => ⟨S2x100000, .i32⟩
  | 37 => ⟨S2x100000, .i32⟩
  | 38 => ⟨S2x100000, .i32⟩
  | 39 => ⟨S_, .i32⟩
  | 40 => ⟨S2x100000, .i32⟩
  | 41 => ⟨S2x100000, .i1⟩
  | 42 => ⟨S_, .i32⟩
  | 43 => ⟨S2x100000, .i32⟩
  | 44 => ⟨S2x100000, .i32⟩
  | 45 => ⟨S2x100000, .i32⟩
  | 46 => ⟨S_, .i32⟩
  | 47 => ⟨S2x100000, .i32⟩
  | 48 => ⟨S2x100000, .i1⟩
  | 49 => ⟨S_, .i32⟩
  | 50 => ⟨S2x100000, .i32⟩
  | 51 => ⟨S2x100000, .i32⟩
  | 52 => ⟨S2x100000, .i32⟩
  | 53 => ⟨S2x100000x1, .i32⟩
  | 54 => ⟨S2x100000x1, .i32⟩
  | 55 => ⟨S2x100000x1, .i32⟩
  | 56 => ⟨S2x100000x3, .i32⟩
  | 57 => ⟨S2x100000x128, .f32⟩
  | 58 => ⟨S_, .i32⟩
  | 59 => ⟨S2x100000, .i32⟩
  | 60 => ⟨S2x100000, .i1⟩
  | 61 => ⟨S_, .i32⟩
  | 62 => ⟨S2x100000, .i32⟩
  | 63 => ⟨S2x100000, .i32⟩
  | 64 => ⟨S2x100000, .i32⟩
  | 65 => ⟨S_, .i32⟩
  | 66 => ⟨S2x100000, .i32⟩
  | 67 => ⟨S2x100000, .i1⟩
  | 68 => ⟨S_, .i32⟩
  | 69 => ⟨S2x100000, .i32⟩
  | 70 => ⟨S2x100000, .i32⟩
  | 71 => ⟨S2x100000, .i32⟩
  | 72 => ⟨S_, .i32⟩
  | 73 => ⟨S2x100000, .i32⟩
  | 74 => ⟨S2x100000, .i1⟩
  | 75 => ⟨S_, .i32⟩
  | 76 => ⟨S2x100000, .i32⟩
  | 77 => ⟨S2x100000, .i32⟩
  | 78 => ⟨S2x100000, .i32⟩
  | 79 => ⟨S2x100000x1, .i32⟩
  | 80 => ⟨S2x100000x1, .i32⟩
  | 81 => ⟨S2x100000x1, .i32⟩
  | 82 => ⟨S2x100000x3, .i32⟩
  | 83 => ⟨S2x100000x128, .f32⟩
  | 84 => ⟨S_, .i32⟩
  | 85 => ⟨S2x100000, .i32⟩
  | 86 => ⟨S2x100000, .i1⟩
  | 87 => ⟨S_, .i32⟩
  | 88 => ⟨S2x100000, .i32⟩
  | 89 => ⟨S2x100000, .i32⟩
  | 90 => ⟨S2x100000, .i32⟩
  | 91 => ⟨S_, .i32⟩
  | 92 => ⟨S2x100000, .i32⟩
  | 93 => ⟨S2x100000, .i1⟩
  | 94 => ⟨S_, .i32⟩
  | 95 => ⟨S2x100000, .i32⟩
  | 96 => ⟨S2x100000, .i32⟩
  | 97 => ⟨S2x100000, .i32⟩
  | 98 => ⟨S_, .i32⟩
  | 99 => ⟨S2x100000, .i32⟩
  | 100 => ⟨S2x100000, .i1⟩
  | 101 => ⟨S_, .i32⟩
  | 102 => ⟨S2x100000, .i32⟩
  | 103 => ⟨S2x100000, .i32⟩
  | 104 => ⟨S2x100000, .i32⟩
  | 105 => ⟨S2x100000x1, .i32⟩
  | 106 => ⟨S2x100000x1, .i32⟩
  | 107 => ⟨S2x100000x1, .i32⟩
  | 108 => ⟨S2x100000x3, .i32⟩
  | 109 => ⟨S2x100000x128, .f32⟩
  | 110 => ⟨S_, .i32⟩
  | 111 => ⟨S2x100000, .i32⟩
  | 112 => ⟨S2x100000, .i1⟩
  | 113 => ⟨S_, .i32⟩
  | 114 => ⟨S2x100000, .i32⟩
  | 115 => ⟨S2x100000, .i32⟩
  | 116 => ⟨S2x100000, .i32⟩
  | 117 => ⟨S_, .i32⟩
  | 118 => ⟨S2x100000, .i32⟩
  | 119 => ⟨S2x100000, .i1⟩
  | 120 => ⟨S_, .i32⟩
  | 121 => ⟨S2x100000, .i32⟩
  | 122 => ⟨S2x100000, .i32⟩
  | 123 => ⟨S2x100000, .i32⟩
  | 124 => ⟨S_, .i32⟩
  | 125 => ⟨S2x100000, .i32⟩
  | 126 => ⟨S2x100000, .i1⟩
  | 127 => ⟨S_, .i32⟩
  | _ => ⟨S2x128x128x128x16, .f32⟩

abbrev hbmTy0_6 (i : Nat) : BufTy := match i % 128 with
  | 0 => ⟨S2x100000, .i32⟩
  | 1 => ⟨S2x100000, .i32⟩
  | 2 => ⟨S2x100000, .i32⟩
  | 3 => ⟨S2x100000x1, .i32⟩
  | 4 => ⟨S2x100000x1, .i32⟩
  | 5 => ⟨S2x100000x1, .i32⟩
  | 6 => ⟨S2x100000x3, .i32⟩
  | 7 => ⟨S2x100000x128, .f32⟩
  | 8 => ⟨S2x100000x128, .f32⟩
  | 9 => ⟨S2x100000x128, .f32⟩
  | 10 => ⟨S2x100000x128, .f32⟩
  | 11 => ⟨S2x100000x128, .f32⟩
  | 12 => ⟨S2x100000x128, .f32⟩
  | 13 => ⟨S2x100000x128, .f32⟩
  | 14 => ⟨S2x100000x128, .f32⟩
  | 15 => ⟨S2x100000x128, .f32⟩
  | 16 => ⟨S2x100000x128, .f32⟩
  | 17 => ⟨S2x100000x128, .f32⟩
  | 18 => ⟨S2x100000x128, .f32⟩
  | 19 => ⟨S2x100000x128, .f32⟩
  | 20 => ⟨S2x100000x128, .f32⟩
  | 21 => ⟨S2x100000x128, .f32⟩
  | 22 => ⟨S2x100000x128, .f32⟩
  | 23 => ⟨S_, .i32⟩
  | 24 => ⟨S2x100000, .i32⟩
  | 25 => ⟨S2x100000, .i1⟩
  | 26 => ⟨S_, .i32⟩
  | 27 => ⟨S2x100000, .i32⟩
  | 28 => ⟨S2x100000, .i32⟩
  | 29 => ⟨S2x100000, .i32⟩
  | 30 => ⟨S_, .i32⟩
  | 31 => ⟨S2x100000, .i32⟩
  | 32 => ⟨S2x100000, .i1⟩
  | 33 => ⟨S_, .i32⟩
  | 34 => ⟨S2x100000, .i32⟩
  | 35 => ⟨S2x100000, .i32⟩
  | 36 => ⟨S2x100000, .i32⟩
  | 37 => ⟨S_, .i32⟩
  | 38 => ⟨S2x100000, .i32⟩
  | 39 => ⟨S2x100000, .i1⟩
  | 40 => ⟨S_, .i32⟩
  | 41 => ⟨S2x100000, .i32⟩
  | 42 => ⟨S2x100000, .i32⟩
  | 43 => ⟨S2x100000, .i32⟩
  | 44 => ⟨S2x100000x1, .i32⟩
  | 45 => ⟨S2x100000x1, .i32⟩
  | 46 => ⟨S2x100000x1, .i32⟩
  | 47 => ⟨S2x100000x3, .i32⟩
  | 48 => ⟨S2x100000x128, .f32⟩
  | 49 => ⟨S_, .i32⟩
  | 50 => ⟨S2x100000, .i32⟩
  | 51 => ⟨S2x100000, .i1⟩
  | 52 => ⟨S_, .i32⟩
  | 53 => ⟨S2x100000, .i32⟩
  | 54 => ⟨S2x100000, .i32⟩
  | 55 => ⟨S2x100000, .i32⟩
  | 56 => ⟨S_, .i32⟩
  | 57 => ⟨S2x100000, .i32⟩
  | 58 => ⟨S2x100000, .i1⟩
  | 59 => ⟨S_, .i32⟩
  | 60 => ⟨S2x100000, .i32⟩
  | 61 => ⟨S2x100000, .i32⟩
  | 62 => ⟨S2x100000, .i32⟩
  | 63 => ⟨S_, .i32⟩
  | 64 => ⟨S2x100000, .i32⟩
  | 65 => ⟨S2x100000, .i1⟩
  | 66 => ⟨S_, .i32⟩
  | 67 => ⟨S2x100000, .i32⟩
  | 68 => ⟨S2x100000, .i32⟩
  | 69 => ⟨S2x100000, .i32⟩
  | 70 => ⟨S2x100000x1, .i32⟩
  | 71 => ⟨S2x100000x1, .i32⟩
  | 72 => ⟨S2x100000x1, .i32⟩
  | 73 => ⟨S2x100000x3, .i32⟩
  | 74 => ⟨S2x100000x128, .f32⟩
  | 75 => ⟨S_, .i32⟩
  | 76 => ⟨S2x100000, .i32⟩
  | 77 => ⟨S2x100000, .i1⟩
  | 78 => ⟨S_, .i32⟩
  | 79 => ⟨S2x100000, .i32⟩
  | 80 => ⟨S2x100000, .i32⟩
  | 81 => ⟨S2x100000, .i32⟩
  | 82 => ⟨S_, .i32⟩
  | 83 => ⟨S2x100000, .i32⟩
  | 84 => ⟨S2x100000, .i1⟩
  | 85 => ⟨S_, .i32⟩
  | 86 => ⟨S2x100000, .i32⟩
  | 87 => ⟨S2x100000, .i32⟩
  | 88 => ⟨S2x100000, .i32⟩
  | 89 => ⟨S_, .i32⟩
  | 90 => ⟨S2x100000, .i32⟩
  | 91 => ⟨S2x100000, .i1⟩
  | 92 => ⟨S_, .i32⟩
  | 93 => ⟨S2x100000, .i32⟩
  | 94 => ⟨S2x100000, .i32⟩
  | 95 => ⟨S2x100000, .i32⟩
  | 96 => ⟨S2x100000x1, .i32⟩
  | 97 => ⟨S2x100000x1, .i32⟩
  | 98 => ⟨S2x100000x1, .i32⟩
  | 99 => ⟨S2x100000x3, .i32⟩
  | 100 => ⟨S2x100000x128, .f32⟩
  | 101 => ⟨S_, .i32⟩
  | 102 => ⟨S2x100000, .i32⟩
  | 103 => ⟨S2x100000, .i1⟩
  | 104 => ⟨S_, .i32⟩
  | 105 => ⟨S2x100000, .i32⟩
  | 106 => ⟨S2x100000, .i32⟩
  | 107 => ⟨S2x100000, .i32⟩
  | 108 => ⟨S_, .i32⟩
  | 109 => ⟨S2x100000, .i32⟩
  | 110 => ⟨S2x100000, .i1⟩
  | 111 => ⟨S_, .i32⟩
  | 112 => ⟨S2x100000, .i32⟩
  | 113 => ⟨S2x100000, .i32⟩
  | 114 => ⟨S2x100000, .i32⟩
  | 115 => ⟨S_, .i32⟩
  | 116 => ⟨S2x100000, .i32⟩
  | 117 => ⟨S2x100000, .i1⟩
  | 118 => ⟨S_, .i32⟩
  | 119 => ⟨S2x100000, .i32⟩
  | 120 => ⟨S2x100000, .i32⟩
  | 121 => ⟨S2x100000, .i32⟩
  | 122 => ⟨S2x100000x1, .i32⟩
  | 123 => ⟨S2x100000x1, .i32⟩
  | 124 => ⟨S2x100000x1, .i32⟩
  | 125 => ⟨S2x100000x3, .i32⟩
  | 126 => ⟨S2x100000x128, .f32⟩
  | 127 => ⟨S2x100000x128, .f32⟩
  | _ => ⟨S2x128x128x128x16, .f32⟩

abbrev hbmTy0_7 (i : Nat) : BufTy := match i % 128 with
  | 0 => ⟨S2x100000x128, .f32⟩
  | 1 => ⟨S2x100000x128, .f32⟩
  | 2 => ⟨S2x100000x128, .f32⟩
  | 3 => ⟨S2x100000x128, .f32⟩
  | 4 => ⟨S2x100000x128, .f32⟩
  | 5 => ⟨S2x100000x128, .f32⟩
  | 6 => ⟨S2x100000x128, .f32⟩
  | 7 => ⟨S2x100000x128, .f32⟩
  | 8 => ⟨S2x100000x128, .f32⟩
  | 9 => ⟨S2x100000x128, .f32⟩
  | 10 => ⟨S2x100000x128, .f32⟩
  | 11 => ⟨S2x100000x128, .f32⟩
  | 12 => ⟨S2x100000x128, .f32⟩
  | 13 => ⟨S2x100000x128, .f32⟩
  | 14 => ⟨S2x100000x128, .f32⟩
  | 15 => ⟨S2x100000x128, .f32⟩
  | 16 => ⟨S2x100000x128, .f32⟩
  | 17 => ⟨S2x100000x128, .f32⟩
  | 18 => ⟨S2x100000x128, .f32⟩
  | 19 => ⟨S2x100000x224, .f32⟩
  | _ => ⟨S2x128x128x128x16, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | 5 => hbmTy0_5 i
  | 6 => hbmTy0_6 i
  | 7 => hbmTy0_7 i
  | _ => ⟨S2x128x128x128x16, .f32⟩

abbrev bufTy : (tb : Table) → Fin (tcTables nBuf tb) → BufTy
  | .hbm, ⟨i, _⟩ => hbmTy i
  | _, _ => ⟨S2x128x128x128x16, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_cst_0 : Ref sig .tc := ⟨.hbm, 7, rfl⟩
abbrev main_cst_1 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_cst_2 : Ref sig .tc := ⟨.hbm, 12, rfl⟩
abbrev main_cst_3 : Ref sig .tc := ⟨.hbm, 13, rfl⟩
abbrev main_call0_v0 : Ref sig .tc := ⟨.hbm, 14, rfl⟩
abbrev main_call0_v1 : Ref sig .tc := ⟨.hbm, 15, rfl⟩
abbrev main_call0_v2 : Ref sig .tc := ⟨.hbm, 16, rfl⟩
abbrev main_call0_v3 : Ref sig .tc := ⟨.hbm, 17, rfl⟩
abbrev main_call0_v4 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_c : Ref sig .tc := ⟨.hbm, 68, rfl⟩
abbrev main_v52 : Ref sig .tc := ⟨.hbm, 69, rfl⟩
abbrev main_v53 : Ref sig .tc := ⟨.hbm, 70, rfl⟩
abbrev main_c_4 : Ref sig .tc := ⟨.hbm, 71, rfl⟩
abbrev main_v54 : Ref sig .tc := ⟨.hbm, 72, rfl⟩
abbrev main_v55 : Ref sig .tc := ⟨.hbm, 73, rfl⟩
abbrev main_v56 : Ref sig .tc := ⟨.hbm, 74, rfl⟩
abbrev main_c_5 : Ref sig .tc := ⟨.hbm, 75, rfl⟩
abbrev main_v57 : Ref sig .tc := ⟨.hbm, 76, rfl⟩
abbrev main_v58 : Ref sig .tc := ⟨.hbm, 77, rfl⟩
abbrev main_c_6 : Ref sig .tc := ⟨.hbm, 78, rfl⟩
abbrev main_v59 : Ref sig .tc := ⟨.hbm, 79, rfl⟩
abbrev main_v60 : Ref sig .tc := ⟨.hbm, 80, rfl⟩
abbrev main_v61 : Ref sig .tc := ⟨.hbm, 81, rfl⟩
abbrev main_c_7 : Ref sig .tc := ⟨.hbm, 82, rfl⟩
abbrev main_v62 : Ref sig .tc := ⟨.hbm, 83, rfl⟩
abbrev main_v63 : Ref sig .tc := ⟨.hbm, 84, rfl⟩
abbrev main_c_8 : Ref sig .tc := ⟨.hbm, 85, rfl⟩
abbrev main_v64 : Ref sig .tc := ⟨.hbm, 86, rfl⟩
abbrev main_v65 : Ref sig .tc := ⟨.hbm, 87, rfl⟩
abbrev main_v66 : Ref sig .tc := ⟨.hbm, 88, rfl⟩
abbrev main_v67 : Ref sig .tc := ⟨.hbm, 89, rfl⟩
abbrev main_v68 : Ref sig .tc := ⟨.hbm, 90, rfl⟩
abbrev main_v69 : Ref sig .tc := ⟨.hbm, 91, rfl⟩
abbrev main_v70 : Ref sig .tc := ⟨.hbm, 92, rfl⟩
abbrev main_v71 : Ref sig .tc := ⟨.hbm, 93, rfl⟩
abbrev main_c_9 : Ref sig .tc := ⟨.hbm, 94, rfl⟩
abbrev main_v72 : Ref sig .tc := ⟨.hbm, 95, rfl⟩
abbrev main_v73 : Ref sig .tc := ⟨.hbm, 96, rfl⟩
abbrev main_c_10 : Ref sig .tc := ⟨.hbm, 97, rfl⟩
abbrev main_v74 : Ref sig .tc := ⟨.hbm, 98, rfl⟩
abbrev main_v75 : Ref sig .tc := ⟨.hbm, 99, rfl⟩
abbrev main_v76 : Ref sig .tc := ⟨.hbm, 100, rfl⟩
abbrev main_c_11 : Ref sig .tc := ⟨.hbm, 101, rfl⟩
abbrev main_v77 : Ref sig .tc := ⟨.hbm, 102, rfl⟩
abbrev main_v78 : Ref sig .tc := ⟨.hbm, 103, rfl⟩
abbrev main_c_12 : Ref sig .tc := ⟨.hbm, 104, rfl⟩
abbrev main_v79 : Ref sig .tc := ⟨.hbm, 105, rfl⟩
abbrev main_v80 : Ref sig .tc := ⟨.hbm, 106, rfl⟩
abbrev main_v81 : Ref sig .tc := ⟨.hbm, 107, rfl⟩
abbrev main_c_13 : Ref sig .tc := ⟨.hbm, 108, rfl⟩
abbrev main_v82 : Ref sig .tc := ⟨.hbm, 109, rfl⟩
abbrev main_v83 : Ref sig .tc := ⟨.hbm, 110, rfl⟩
abbrev main_c_14 : Ref sig .tc := ⟨.hbm, 111, rfl⟩
abbrev main_v84 : Ref sig .tc := ⟨.hbm, 112, rfl⟩
abbrev main_v85 : Ref sig .tc := ⟨.hbm, 113, rfl⟩
abbrev main_v86 : Ref sig .tc := ⟨.hbm, 114, rfl⟩
abbrev main_v87 : Ref sig .tc := ⟨.hbm, 115, rfl⟩
abbrev main_v88 : Ref sig .tc := ⟨.hbm, 116, rfl⟩
abbrev main_v89 : Ref sig .tc := ⟨.hbm, 117, rfl⟩
abbrev main_v90 : Ref sig .tc := ⟨.hbm, 118, rfl⟩
abbrev main_v91 : Ref sig .tc := ⟨.hbm, 119, rfl⟩
abbrev main_c_15 : Ref sig .tc := ⟨.hbm, 120, rfl⟩
abbrev main_v92 : Ref sig .tc := ⟨.hbm, 121, rfl⟩
abbrev main_v93 : Ref sig .tc := ⟨.hbm, 122, rfl⟩
abbrev main_c_16 : Ref sig .tc := ⟨.hbm, 123, rfl⟩
abbrev main_v94 : Ref sig .tc := ⟨.hbm, 124, rfl⟩
abbrev main_v95 : Ref sig .tc := ⟨.hbm, 125, rfl⟩
abbrev main_v96 : Ref sig .tc := ⟨.hbm, 126, rfl⟩
abbrev main_c_17 : Ref sig .tc := ⟨.hbm, 127, rfl⟩
abbrev main_v97 : Ref sig .tc := ⟨.hbm, 128, rfl⟩
abbrev main_v98 : Ref sig .tc := ⟨.hbm, 129, rfl⟩
abbrev main_c_18 : Ref sig .tc := ⟨.hbm, 130, rfl⟩
abbrev main_v99 : Ref sig .tc := ⟨.hbm, 131, rfl⟩
abbrev main_v100 : Ref sig .tc := ⟨.hbm, 132, rfl⟩
abbrev main_v101 : Ref sig .tc := ⟨.hbm, 133, rfl⟩
abbrev main_c_19 : Ref sig .tc := ⟨.hbm, 134, rfl⟩
abbrev main_v102 : Ref sig .tc := ⟨.hbm, 135, rfl⟩
abbrev main_v103 : Ref sig .tc := ⟨.hbm, 136, rfl⟩
abbrev main_c_20 : Ref sig .tc := ⟨.hbm, 137, rfl⟩
abbrev main_v104 : Ref sig .tc := ⟨.hbm, 138, rfl⟩
abbrev main_v105 : Ref sig .tc := ⟨.hbm, 139, rfl⟩
abbrev main_v106 : Ref sig .tc := ⟨.hbm, 140, rfl⟩
abbrev main_v107 : Ref sig .tc := ⟨.hbm, 141, rfl⟩
abbrev main_v108 : Ref sig .tc := ⟨.hbm, 142, rfl⟩
abbrev main_v109 : Ref sig .tc := ⟨.hbm, 143, rfl⟩
abbrev main_v110 : Ref sig .tc := ⟨.hbm, 144, rfl⟩
abbrev main_v111 : Ref sig .tc := ⟨.hbm, 145, rfl⟩
abbrev main_c_21 : Ref sig .tc := ⟨.hbm, 146, rfl⟩
abbrev main_v112 : Ref sig .tc := ⟨.hbm, 147, rfl⟩
abbrev main_v113 : Ref sig .tc := ⟨.hbm, 148, rfl⟩
abbrev main_c_22 : Ref sig .tc := ⟨.hbm, 149, rfl⟩
abbrev main_v114 : Ref sig .tc := ⟨.hbm, 150, rfl⟩
abbrev main_v115 : Ref sig .tc := ⟨.hbm, 151, rfl⟩
abbrev main_v116 : Ref sig .tc := ⟨.hbm, 152, rfl⟩
abbrev main_c_23 : Ref sig .tc := ⟨.hbm, 153, rfl⟩
abbrev main_v117 : Ref sig .tc := ⟨.hbm, 154, rfl⟩
abbrev main_v118 : Ref sig .tc := ⟨.hbm, 155, rfl⟩
abbrev main_c_24 : Ref sig .tc := ⟨.hbm, 156, rfl⟩
abbrev main_v119 : Ref sig .tc := ⟨.hbm, 157, rfl⟩
abbrev main_v120 : Ref sig .tc := ⟨.hbm, 158, rfl⟩
abbrev main_v121 : Ref sig .tc := ⟨.hbm, 159, rfl⟩
abbrev main_c_25 : Ref sig .tc := ⟨.hbm, 160, rfl⟩
abbrev main_v122 : Ref sig .tc := ⟨.hbm, 161, rfl⟩
abbrev main_v123 : Ref sig .tc := ⟨.hbm, 162, rfl⟩
abbrev main_c_26 : Ref sig .tc := ⟨.hbm, 163, rfl⟩
abbrev main_v124 : Ref sig .tc := ⟨.hbm, 164, rfl⟩
abbrev main_v125 : Ref sig .tc := ⟨.hbm, 165, rfl⟩
abbrev main_v126 : Ref sig .tc := ⟨.hbm, 166, rfl⟩
abbrev main_v127 : Ref sig .tc := ⟨.hbm, 167, rfl⟩
abbrev main_v128 : Ref sig .tc := ⟨.hbm, 168, rfl⟩
abbrev main_v129 : Ref sig .tc := ⟨.hbm, 169, rfl⟩
abbrev main_v130 : Ref sig .tc := ⟨.hbm, 170, rfl⟩
abbrev main_v131 : Ref sig .tc := ⟨.hbm, 171, rfl⟩
abbrev main_v132 : Ref sig .tc := ⟨.hbm, 172, rfl⟩
abbrev main_v133 : Ref sig .tc := ⟨.hbm, 173, rfl⟩
abbrev main_v134 : Ref sig .tc := ⟨.hbm, 174, rfl⟩
abbrev main_v135 : Ref sig .tc := ⟨.hbm, 175, rfl⟩
abbrev main_v136 : Ref sig .tc := ⟨.hbm, 176, rfl⟩
abbrev main_v137 : Ref sig .tc := ⟨.hbm, 177, rfl⟩
abbrev main_v138 : Ref sig .tc := ⟨.hbm, 178, rfl⟩
abbrev main_v139 : Ref sig .tc := ⟨.hbm, 179, rfl⟩
abbrev main_v140 : Ref sig .tc := ⟨.hbm, 180, rfl⟩
abbrev main_v141 : Ref sig .tc := ⟨.hbm, 181, rfl⟩
abbrev main_v142 : Ref sig .tc := ⟨.hbm, 182, rfl⟩
abbrev main_v143 : Ref sig .tc := ⟨.hbm, 183, rfl⟩
abbrev main_v144 : Ref sig .tc := ⟨.hbm, 184, rfl⟩
abbrev main_v145 : Ref sig .tc := ⟨.hbm, 185, rfl⟩
abbrev main_v146 : Ref sig .tc := ⟨.hbm, 186, rfl⟩
abbrev main_c_27 : Ref sig .tc := ⟨.hbm, 187, rfl⟩
abbrev main_v147 : Ref sig .tc := ⟨.hbm, 188, rfl⟩
abbrev main_v148 : Ref sig .tc := ⟨.hbm, 189, rfl⟩
abbrev main_c_28 : Ref sig .tc := ⟨.hbm, 190, rfl⟩
abbrev main_v149 : Ref sig .tc := ⟨.hbm, 191, rfl⟩
abbrev main_v150 : Ref sig .tc := ⟨.hbm, 192, rfl⟩
abbrev main_v151 : Ref sig .tc := ⟨.hbm, 193, rfl⟩
abbrev main_c_29 : Ref sig .tc := ⟨.hbm, 194, rfl⟩
abbrev main_v152 : Ref sig .tc := ⟨.hbm, 195, rfl⟩
abbrev main_v153 : Ref sig .tc := ⟨.hbm, 196, rfl⟩
abbrev main_c_30 : Ref sig .tc := ⟨.hbm, 197, rfl⟩
abbrev main_v154 : Ref sig .tc := ⟨.hbm, 198, rfl⟩
abbrev main_v155 : Ref sig .tc := ⟨.hbm, 199, rfl⟩
abbrev main_v156 : Ref sig .tc := ⟨.hbm, 200, rfl⟩
abbrev main_c_31 : Ref sig .tc := ⟨.hbm, 201, rfl⟩
abbrev main_v157 : Ref sig .tc := ⟨.hbm, 202, rfl⟩
abbrev main_v158 : Ref sig .tc := ⟨.hbm, 203, rfl⟩
abbrev main_c_32 : Ref sig .tc := ⟨.hbm, 204, rfl⟩
abbrev main_v159 : Ref sig .tc := ⟨.hbm, 205, rfl⟩
abbrev main_v160 : Ref sig .tc := ⟨.hbm, 206, rfl⟩
abbrev main_v161 : Ref sig .tc := ⟨.hbm, 207, rfl⟩
abbrev main_v162 : Ref sig .tc := ⟨.hbm, 208, rfl⟩
abbrev main_v163 : Ref sig .tc := ⟨.hbm, 209, rfl⟩
abbrev main_v164 : Ref sig .tc := ⟨.hbm, 210, rfl⟩
abbrev main_v165 : Ref sig .tc := ⟨.hbm, 211, rfl⟩
abbrev main_v166 : Ref sig .tc := ⟨.hbm, 212, rfl⟩
abbrev main_c_33 : Ref sig .tc := ⟨.hbm, 213, rfl⟩
abbrev main_v167 : Ref sig .tc := ⟨.hbm, 214, rfl⟩
abbrev main_v168 : Ref sig .tc := ⟨.hbm, 215, rfl⟩
abbrev main_c_34 : Ref sig .tc := ⟨.hbm, 216, rfl⟩
abbrev main_v169 : Ref sig .tc := ⟨.hbm, 217, rfl⟩
abbrev main_v170 : Ref sig .tc := ⟨.hbm, 218, rfl⟩
abbrev main_v171 : Ref sig .tc := ⟨.hbm, 219, rfl⟩
abbrev main_c_35 : Ref sig .tc := ⟨.hbm, 220, rfl⟩
abbrev main_v172 : Ref sig .tc := ⟨.hbm, 221, rfl⟩
abbrev main_v173 : Ref sig .tc := ⟨.hbm, 222, rfl⟩
abbrev main_c_36 : Ref sig .tc := ⟨.hbm, 223, rfl⟩
abbrev main_v174 : Ref sig .tc := ⟨.hbm, 224, rfl⟩
abbrev main_v175 : Ref sig .tc := ⟨.hbm, 225, rfl⟩
abbrev main_v176 : Ref sig .tc := ⟨.hbm, 226, rfl⟩
abbrev main_c_37 : Ref sig .tc := ⟨.hbm, 227, rfl⟩
abbrev main_v177 : Ref sig .tc := ⟨.hbm, 228, rfl⟩
abbrev main_v178 : Ref sig .tc := ⟨.hbm, 229, rfl⟩
abbrev main_c_38 : Ref sig .tc := ⟨.hbm, 230, rfl⟩
abbrev main_v179 : Ref sig .tc := ⟨.hbm, 231, rfl⟩
abbrev main_v180 : Ref sig .tc := ⟨.hbm, 232, rfl⟩
abbrev main_v181 : Ref sig .tc := ⟨.hbm, 233, rfl⟩
abbrev main_v182 : Ref sig .tc := ⟨.hbm, 234, rfl⟩
abbrev main_v183 : Ref sig .tc := ⟨.hbm, 235, rfl⟩
abbrev main_v184 : Ref sig .tc := ⟨.hbm, 236, rfl⟩
abbrev main_v185 : Ref sig .tc := ⟨.hbm, 237, rfl⟩
abbrev main_v186 : Ref sig .tc := ⟨.hbm, 238, rfl⟩
abbrev main_c_39 : Ref sig .tc := ⟨.hbm, 239, rfl⟩
abbrev main_v187 : Ref sig .tc := ⟨.hbm, 240, rfl⟩
abbrev main_v188 : Ref sig .tc := ⟨.hbm, 241, rfl⟩
abbrev main_c_40 : Ref sig .tc := ⟨.hbm, 242, rfl⟩
abbrev main_v189 : Ref sig .tc := ⟨.hbm, 243, rfl⟩
abbrev main_v190 : Ref sig .tc := ⟨.hbm, 244, rfl⟩
abbrev main_v191 : Ref sig .tc := ⟨.hbm, 245, rfl⟩
abbrev main_c_41 : Ref sig .tc := ⟨.hbm, 246, rfl⟩
abbrev main_v192 : Ref sig .tc := ⟨.hbm, 247, rfl⟩
abbrev main_v193 : Ref sig .tc := ⟨.hbm, 248, rfl⟩
abbrev main_c_42 : Ref sig .tc := ⟨.hbm, 249, rfl⟩
abbrev main_v194 : Ref sig .tc := ⟨.hbm, 250, rfl⟩
abbrev main_v195 : Ref sig .tc := ⟨.hbm, 251, rfl⟩
abbrev main_v196 : Ref sig .tc := ⟨.hbm, 252, rfl⟩
abbrev main_c_43 : Ref sig .tc := ⟨.hbm, 253, rfl⟩
abbrev main_v197 : Ref sig .tc := ⟨.hbm, 254, rfl⟩
abbrev main_v198 : Ref sig .tc := ⟨.hbm, 255, rfl⟩
abbrev main_c_44 : Ref sig .tc := ⟨.hbm, 256, rfl⟩
abbrev main_v199 : Ref sig .tc := ⟨.hbm, 257, rfl⟩
abbrev main_v200 : Ref sig .tc := ⟨.hbm, 258, rfl⟩
abbrev main_v201 : Ref sig .tc := ⟨.hbm, 259, rfl⟩
abbrev main_v202 : Ref sig .tc := ⟨.hbm, 260, rfl⟩
abbrev main_v203 : Ref sig .tc := ⟨.hbm, 261, rfl⟩
abbrev main_v204 : Ref sig .tc := ⟨.hbm, 262, rfl⟩
abbrev main_v205 : Ref sig .tc := ⟨.hbm, 263, rfl⟩
abbrev main_v206 : Ref sig .tc := ⟨.hbm, 264, rfl⟩
abbrev main_c_45 : Ref sig .tc := ⟨.hbm, 265, rfl⟩
abbrev main_v207 : Ref sig .tc := ⟨.hbm, 266, rfl⟩
abbrev main_v208 : Ref sig .tc := ⟨.hbm, 267, rfl⟩
abbrev main_c_46 : Ref sig .tc := ⟨.hbm, 268, rfl⟩
abbrev main_v209 : Ref sig .tc := ⟨.hbm, 269, rfl⟩
abbrev main_v210 : Ref sig .tc := ⟨.hbm, 270, rfl⟩
abbrev main_v211 : Ref sig .tc := ⟨.hbm, 271, rfl⟩
abbrev main_c_47 : Ref sig .tc := ⟨.hbm, 272, rfl⟩
abbrev main_v212 : Ref sig .tc := ⟨.hbm, 273, rfl⟩
abbrev main_v213 : Ref sig .tc := ⟨.hbm, 274, rfl⟩
abbrev main_c_48 : Ref sig .tc := ⟨.hbm, 275, rfl⟩
abbrev main_v214 : Ref sig .tc := ⟨.hbm, 276, rfl⟩
abbrev main_v215 : Ref sig .tc := ⟨.hbm, 277, rfl⟩
abbrev main_v216 : Ref sig .tc := ⟨.hbm, 278, rfl⟩
abbrev main_c_49 : Ref sig .tc := ⟨.hbm, 279, rfl⟩
abbrev main_v217 : Ref sig .tc := ⟨.hbm, 280, rfl⟩
abbrev main_v218 : Ref sig .tc := ⟨.hbm, 281, rfl⟩
abbrev main_c_50 : Ref sig .tc := ⟨.hbm, 282, rfl⟩
abbrev main_v219 : Ref sig .tc := ⟨.hbm, 283, rfl⟩
abbrev main_v220 : Ref sig .tc := ⟨.hbm, 284, rfl⟩
abbrev main_v221 : Ref sig .tc := ⟨.hbm, 285, rfl⟩
abbrev main_v222 : Ref sig .tc := ⟨.hbm, 286, rfl⟩
abbrev main_v223 : Ref sig .tc := ⟨.hbm, 287, rfl⟩
abbrev main_v224 : Ref sig .tc := ⟨.hbm, 288, rfl⟩
abbrev main_v225 : Ref sig .tc := ⟨.hbm, 289, rfl⟩
abbrev main_v226 : Ref sig .tc := ⟨.hbm, 290, rfl⟩
abbrev main_v227 : Ref sig .tc := ⟨.hbm, 291, rfl⟩
abbrev main_v228 : Ref sig .tc := ⟨.hbm, 292, rfl⟩
abbrev main_v229 : Ref sig .tc := ⟨.hbm, 293, rfl⟩
abbrev main_v230 : Ref sig .tc := ⟨.hbm, 294, rfl⟩
abbrev main_v231 : Ref sig .tc := ⟨.hbm, 295, rfl⟩
abbrev main_v232 : Ref sig .tc := ⟨.hbm, 296, rfl⟩
abbrev main_v233 : Ref sig .tc := ⟨.hbm, 297, rfl⟩
abbrev main_v234 : Ref sig .tc := ⟨.hbm, 298, rfl⟩
abbrev main_v235 : Ref sig .tc := ⟨.hbm, 299, rfl⟩
abbrev main_v236 : Ref sig .tc := ⟨.hbm, 300, rfl⟩
abbrev main_v237 : Ref sig .tc := ⟨.hbm, 301, rfl⟩
abbrev main_v238 : Ref sig .tc := ⟨.hbm, 302, rfl⟩
abbrev main_v239 : Ref sig .tc := ⟨.hbm, 303, rfl⟩
abbrev main_v240 : Ref sig .tc := ⟨.hbm, 304, rfl⟩
abbrev main_v241 : Ref sig .tc := ⟨.hbm, 305, rfl⟩
abbrev main_v242 : Ref sig .tc := ⟨.hbm, 306, rfl⟩
abbrev main_v243 : Ref sig .tc := ⟨.hbm, 307, rfl⟩
abbrev main_v244 : Ref sig .tc := ⟨.hbm, 308, rfl⟩
abbrev main_v245 : Ref sig .tc := ⟨.hbm, 309, rfl⟩
abbrev main_v246 : Ref sig .tc := ⟨.hbm, 310, rfl⟩
abbrev main_v247 : Ref sig .tc := ⟨.hbm, 311, rfl⟩
abbrev main_v248 : Ref sig .tc := ⟨.hbm, 312, rfl⟩
abbrev main_v249 : Ref sig .tc := ⟨.hbm, 313, rfl⟩
abbrev main_cst_51 : Ref sig .tc := ⟨.hbm, 314, rfl⟩
abbrev main_cst_52 : Ref sig .tc := ⟨.hbm, 315, rfl⟩
abbrev main_call1_v0 : Ref sig .tc := ⟨.hbm, 316, rfl⟩
abbrev main_call1_v1 : Ref sig .tc := ⟨.hbm, 317, rfl⟩
abbrev main_call1_v2 : Ref sig .tc := ⟨.hbm, 318, rfl⟩
abbrev main_call1_v3 : Ref sig .tc := ⟨.hbm, 319, rfl⟩
abbrev main_call1_v4 : Ref sig .tc := ⟨.hbm, 320, rfl⟩
abbrev main_v250 : Ref sig .tc := ⟨.hbm, 321, rfl⟩
abbrev main_v251 : Ref sig .tc := ⟨.hbm, 322, rfl⟩
abbrev main_v252 : Ref sig .tc := ⟨.hbm, 323, rfl⟩
abbrev main_v253 : Ref sig .tc := ⟨.hbm, 324, rfl⟩
abbrev main_v254 : Ref sig .tc := ⟨.hbm, 325, rfl⟩
abbrev main_v255 : Ref sig .tc := ⟨.hbm, 326, rfl⟩
abbrev main_v256 : Ref sig .tc := ⟨.hbm, 327, rfl⟩
abbrev main_v257 : Ref sig .tc := ⟨.hbm, 328, rfl⟩
abbrev main_v258 : Ref sig .tc := ⟨.hbm, 329, rfl⟩
abbrev main_v259 : Ref sig .tc := ⟨.hbm, 330, rfl⟩
abbrev main_v260 : Ref sig .tc := ⟨.hbm, 331, rfl⟩
abbrev main_v261 : Ref sig .tc := ⟨.hbm, 332, rfl⟩
abbrev main_v262 : Ref sig .tc := ⟨.hbm, 333, rfl⟩
abbrev main_v263 : Ref sig .tc := ⟨.hbm, 334, rfl⟩
abbrev main_v264 : Ref sig .tc := ⟨.hbm, 335, rfl⟩
abbrev main_v265 : Ref sig .tc := ⟨.hbm, 336, rfl⟩
abbrev main_v266 : Ref sig .tc := ⟨.hbm, 337, rfl⟩
abbrev main_v267 : Ref sig .tc := ⟨.hbm, 338, rfl⟩
abbrev main_v268 : Ref sig .tc := ⟨.hbm, 339, rfl⟩
abbrev main_v269 : Ref sig .tc := ⟨.hbm, 340, rfl⟩
abbrev main_v270 : Ref sig .tc := ⟨.hbm, 341, rfl⟩
abbrev main_v271 : Ref sig .tc := ⟨.hbm, 342, rfl⟩
abbrev main_v272 : Ref sig .tc := ⟨.hbm, 343, rfl⟩
abbrev main_v273 : Ref sig .tc := ⟨.hbm, 344, rfl⟩
abbrev main_v274 : Ref sig .tc := ⟨.hbm, 345, rfl⟩
abbrev main_v275 : Ref sig .tc := ⟨.hbm, 346, rfl⟩
abbrev main_v276 : Ref sig .tc := ⟨.hbm, 347, rfl⟩
abbrev main_v277 : Ref sig .tc := ⟨.hbm, 348, rfl⟩
abbrev main_v278 : Ref sig .tc := ⟨.hbm, 349, rfl⟩
abbrev main_v279 : Ref sig .tc := ⟨.hbm, 350, rfl⟩
abbrev main_v280 : Ref sig .tc := ⟨.hbm, 351, rfl⟩
abbrev main_v281 : Ref sig .tc := ⟨.hbm, 352, rfl⟩
abbrev main_v282 : Ref sig .tc := ⟨.hbm, 353, rfl⟩
abbrev main_v283 : Ref sig .tc := ⟨.hbm, 354, rfl⟩
abbrev main_v284 : Ref sig .tc := ⟨.hbm, 355, rfl⟩
abbrev main_v285 : Ref sig .tc := ⟨.hbm, 356, rfl⟩
abbrev main_v286 : Ref sig .tc := ⟨.hbm, 357, rfl⟩
abbrev main_v287 : Ref sig .tc := ⟨.hbm, 358, rfl⟩
abbrev main_v288 : Ref sig .tc := ⟨.hbm, 359, rfl⟩
abbrev main_v289 : Ref sig .tc := ⟨.hbm, 360, rfl⟩
abbrev main_v290 : Ref sig .tc := ⟨.hbm, 361, rfl⟩
abbrev main_v291 : Ref sig .tc := ⟨.hbm, 362, rfl⟩
abbrev main_v292 : Ref sig .tc := ⟨.hbm, 363, rfl⟩
abbrev main_v293 : Ref sig .tc := ⟨.hbm, 364, rfl⟩
abbrev main_v294 : Ref sig .tc := ⟨.hbm, 365, rfl⟩
abbrev main_v295 : Ref sig .tc := ⟨.hbm, 366, rfl⟩
abbrev main_v296 : Ref sig .tc := ⟨.hbm, 367, rfl⟩
abbrev main_v297 : Ref sig .tc := ⟨.hbm, 368, rfl⟩
abbrev main_v298 : Ref sig .tc := ⟨.hbm, 369, rfl⟩
abbrev main_c_53 : Ref sig .tc := ⟨.hbm, 370, rfl⟩
abbrev main_v299 : Ref sig .tc := ⟨.hbm, 371, rfl⟩
abbrev main_v300 : Ref sig .tc := ⟨.hbm, 372, rfl⟩
abbrev main_c_54 : Ref sig .tc := ⟨.hbm, 373, rfl⟩
abbrev main_v301 : Ref sig .tc := ⟨.hbm, 374, rfl⟩
abbrev main_v302 : Ref sig .tc := ⟨.hbm, 375, rfl⟩
abbrev main_v303 : Ref sig .tc := ⟨.hbm, 376, rfl⟩
abbrev main_c_55 : Ref sig .tc := ⟨.hbm, 377, rfl⟩
abbrev main_v304 : Ref sig .tc := ⟨.hbm, 378, rfl⟩
abbrev main_v305 : Ref sig .tc := ⟨.hbm, 379, rfl⟩
abbrev main_c_56 : Ref sig .tc := ⟨.hbm, 380, rfl⟩
abbrev main_v306 : Ref sig .tc := ⟨.hbm, 381, rfl⟩
abbrev main_v307 : Ref sig .tc := ⟨.hbm, 382, rfl⟩
abbrev main_v308 : Ref sig .tc := ⟨.hbm, 383, rfl⟩
abbrev main_c_57 : Ref sig .tc := ⟨.hbm, 384, rfl⟩
abbrev main_v309 : Ref sig .tc := ⟨.hbm, 385, rfl⟩
abbrev main_v310 : Ref sig .tc := ⟨.hbm, 386, rfl⟩
abbrev main_c_58 : Ref sig .tc := ⟨.hbm, 387, rfl⟩
abbrev main_v311 : Ref sig .tc := ⟨.hbm, 388, rfl⟩
abbrev main_v312 : Ref sig .tc := ⟨.hbm, 389, rfl⟩
abbrev main_v313 : Ref sig .tc := ⟨.hbm, 390, rfl⟩
abbrev main_v314 : Ref sig .tc := ⟨.hbm, 391, rfl⟩
abbrev main_v315 : Ref sig .tc := ⟨.hbm, 392, rfl⟩
abbrev main_v316 : Ref sig .tc := ⟨.hbm, 393, rfl⟩
abbrev main_v317 : Ref sig .tc := ⟨.hbm, 394, rfl⟩
abbrev main_v318 : Ref sig .tc := ⟨.hbm, 395, rfl⟩
abbrev main_c_59 : Ref sig .tc := ⟨.hbm, 396, rfl⟩
abbrev main_v319 : Ref sig .tc := ⟨.hbm, 397, rfl⟩
abbrev main_v320 : Ref sig .tc := ⟨.hbm, 398, rfl⟩
abbrev main_c_60 : Ref sig .tc := ⟨.hbm, 399, rfl⟩
abbrev main_v321 : Ref sig .tc := ⟨.hbm, 400, rfl⟩
abbrev main_v322 : Ref sig .tc := ⟨.hbm, 401, rfl⟩
abbrev main_v323 : Ref sig .tc := ⟨.hbm, 402, rfl⟩
abbrev main_c_61 : Ref sig .tc := ⟨.hbm, 403, rfl⟩
abbrev main_v324 : Ref sig .tc := ⟨.hbm, 404, rfl⟩
abbrev main_v325 : Ref sig .tc := ⟨.hbm, 405, rfl⟩
abbrev main_c_62 : Ref sig .tc := ⟨.hbm, 406, rfl⟩
abbrev main_v326 : Ref sig .tc := ⟨.hbm, 407, rfl⟩
abbrev main_v327 : Ref sig .tc := ⟨.hbm, 408, rfl⟩
abbrev main_v328 : Ref sig .tc := ⟨.hbm, 409, rfl⟩
abbrev main_c_63 : Ref sig .tc := ⟨.hbm, 410, rfl⟩
abbrev main_v329 : Ref sig .tc := ⟨.hbm, 411, rfl⟩
abbrev main_v330 : Ref sig .tc := ⟨.hbm, 412, rfl⟩
abbrev main_c_64 : Ref sig .tc := ⟨.hbm, 413, rfl⟩
abbrev main_v331 : Ref sig .tc := ⟨.hbm, 414, rfl⟩
abbrev main_v332 : Ref sig .tc := ⟨.hbm, 415, rfl⟩
abbrev main_v333 : Ref sig .tc := ⟨.hbm, 416, rfl⟩
abbrev main_v334 : Ref sig .tc := ⟨.hbm, 417, rfl⟩
abbrev main_v335 : Ref sig .tc := ⟨.hbm, 418, rfl⟩
abbrev main_v336 : Ref sig .tc := ⟨.hbm, 419, rfl⟩
abbrev main_v337 : Ref sig .tc := ⟨.hbm, 420, rfl⟩
abbrev main_v338 : Ref sig .tc := ⟨.hbm, 421, rfl⟩
abbrev main_c_65 : Ref sig .tc := ⟨.hbm, 422, rfl⟩
abbrev main_v339 : Ref sig .tc := ⟨.hbm, 423, rfl⟩
abbrev main_v340 : Ref sig .tc := ⟨.hbm, 424, rfl⟩
abbrev main_c_66 : Ref sig .tc := ⟨.hbm, 425, rfl⟩
abbrev main_v341 : Ref sig .tc := ⟨.hbm, 426, rfl⟩
abbrev main_v342 : Ref sig .tc := ⟨.hbm, 427, rfl⟩
abbrev main_v343 : Ref sig .tc := ⟨.hbm, 428, rfl⟩
abbrev main_c_67 : Ref sig .tc := ⟨.hbm, 429, rfl⟩
abbrev main_v344 : Ref sig .tc := ⟨.hbm, 430, rfl⟩
abbrev main_v345 : Ref sig .tc := ⟨.hbm, 431, rfl⟩
abbrev main_c_68 : Ref sig .tc := ⟨.hbm, 432, rfl⟩
abbrev main_v346 : Ref sig .tc := ⟨.hbm, 433, rfl⟩
abbrev main_v347 : Ref sig .tc := ⟨.hbm, 434, rfl⟩
abbrev main_v348 : Ref sig .tc := ⟨.hbm, 435, rfl⟩
abbrev main_c_69 : Ref sig .tc := ⟨.hbm, 436, rfl⟩
abbrev main_v349 : Ref sig .tc := ⟨.hbm, 437, rfl⟩
abbrev main_v350 : Ref sig .tc := ⟨.hbm, 438, rfl⟩
abbrev main_c_70 : Ref sig .tc := ⟨.hbm, 439, rfl⟩
abbrev main_v351 : Ref sig .tc := ⟨.hbm, 440, rfl⟩
abbrev main_v352 : Ref sig .tc := ⟨.hbm, 441, rfl⟩
abbrev main_v353 : Ref sig .tc := ⟨.hbm, 442, rfl⟩
abbrev main_v354 : Ref sig .tc := ⟨.hbm, 443, rfl⟩
abbrev main_v355 : Ref sig .tc := ⟨.hbm, 444, rfl⟩
abbrev main_v356 : Ref sig .tc := ⟨.hbm, 445, rfl⟩
abbrev main_v357 : Ref sig .tc := ⟨.hbm, 446, rfl⟩
abbrev main_v358 : Ref sig .tc := ⟨.hbm, 447, rfl⟩
abbrev main_c_71 : Ref sig .tc := ⟨.hbm, 448, rfl⟩
abbrev main_v359 : Ref sig .tc := ⟨.hbm, 449, rfl⟩
abbrev main_v360 : Ref sig .tc := ⟨.hbm, 450, rfl⟩
abbrev main_c_72 : Ref sig .tc := ⟨.hbm, 451, rfl⟩
abbrev main_v361 : Ref sig .tc := ⟨.hbm, 452, rfl⟩
abbrev main_v362 : Ref sig .tc := ⟨.hbm, 453, rfl⟩
abbrev main_v363 : Ref sig .tc := ⟨.hbm, 454, rfl⟩
abbrev main_c_73 : Ref sig .tc := ⟨.hbm, 455, rfl⟩
abbrev main_v364 : Ref sig .tc := ⟨.hbm, 456, rfl⟩
abbrev main_v365 : Ref sig .tc := ⟨.hbm, 457, rfl⟩
abbrev main_c_74 : Ref sig .tc := ⟨.hbm, 458, rfl⟩
abbrev main_v366 : Ref sig .tc := ⟨.hbm, 459, rfl⟩
abbrev main_v367 : Ref sig .tc := ⟨.hbm, 460, rfl⟩
abbrev main_v368 : Ref sig .tc := ⟨.hbm, 461, rfl⟩
abbrev main_c_75 : Ref sig .tc := ⟨.hbm, 462, rfl⟩
abbrev main_v369 : Ref sig .tc := ⟨.hbm, 463, rfl⟩
abbrev main_v370 : Ref sig .tc := ⟨.hbm, 464, rfl⟩
abbrev main_c_76 : Ref sig .tc := ⟨.hbm, 465, rfl⟩
abbrev main_v371 : Ref sig .tc := ⟨.hbm, 466, rfl⟩
abbrev main_v372 : Ref sig .tc := ⟨.hbm, 467, rfl⟩
abbrev main_v373 : Ref sig .tc := ⟨.hbm, 468, rfl⟩
abbrev main_v374 : Ref sig .tc := ⟨.hbm, 469, rfl⟩
abbrev main_v375 : Ref sig .tc := ⟨.hbm, 470, rfl⟩
abbrev main_v376 : Ref sig .tc := ⟨.hbm, 471, rfl⟩
abbrev main_v377 : Ref sig .tc := ⟨.hbm, 472, rfl⟩
abbrev main_v378 : Ref sig .tc := ⟨.hbm, 473, rfl⟩
abbrev main_v379 : Ref sig .tc := ⟨.hbm, 474, rfl⟩
abbrev main_v380 : Ref sig .tc := ⟨.hbm, 475, rfl⟩
abbrev main_v381 : Ref sig .tc := ⟨.hbm, 476, rfl⟩
abbrev main_v382 : Ref sig .tc := ⟨.hbm, 477, rfl⟩
abbrev main_v383 : Ref sig .tc := ⟨.hbm, 478, rfl⟩
abbrev main_v384 : Ref sig .tc := ⟨.hbm, 479, rfl⟩
abbrev main_v385 : Ref sig .tc := ⟨.hbm, 480, rfl⟩
abbrev main_v386 : Ref sig .tc := ⟨.hbm, 481, rfl⟩
abbrev main_v387 : Ref sig .tc := ⟨.hbm, 482, rfl⟩
abbrev main_v388 : Ref sig .tc := ⟨.hbm, 483, rfl⟩
abbrev main_v389 : Ref sig .tc := ⟨.hbm, 484, rfl⟩
abbrev main_v390 : Ref sig .tc := ⟨.hbm, 485, rfl⟩
abbrev main_v391 : Ref sig .tc := ⟨.hbm, 486, rfl⟩
abbrev main_v392 : Ref sig .tc := ⟨.hbm, 487, rfl⟩
abbrev main_v393 : Ref sig .tc := ⟨.hbm, 488, rfl⟩
abbrev main_c_77 : Ref sig .tc := ⟨.hbm, 489, rfl⟩
abbrev main_v394 : Ref sig .tc := ⟨.hbm, 490, rfl⟩
abbrev main_v395 : Ref sig .tc := ⟨.hbm, 491, rfl⟩
abbrev main_c_78 : Ref sig .tc := ⟨.hbm, 492, rfl⟩
abbrev main_v396 : Ref sig .tc := ⟨.hbm, 493, rfl⟩
abbrev main_v397 : Ref sig .tc := ⟨.hbm, 494, rfl⟩
abbrev main_v398 : Ref sig .tc := ⟨.hbm, 495, rfl⟩
abbrev main_c_79 : Ref sig .tc := ⟨.hbm, 496, rfl⟩
abbrev main_v399 : Ref sig .tc := ⟨.hbm, 497, rfl⟩
abbrev main_v400 : Ref sig .tc := ⟨.hbm, 498, rfl⟩
abbrev main_c_80 : Ref sig .tc := ⟨.hbm, 499, rfl⟩
abbrev main_v401 : Ref sig .tc := ⟨.hbm, 500, rfl⟩
abbrev main_v402 : Ref sig .tc := ⟨.hbm, 501, rfl⟩
abbrev main_v403 : Ref sig .tc := ⟨.hbm, 502, rfl⟩
abbrev main_c_81 : Ref sig .tc := ⟨.hbm, 503, rfl⟩
abbrev main_v404 : Ref sig .tc := ⟨.hbm, 504, rfl⟩
abbrev main_v405 : Ref sig .tc := ⟨.hbm, 505, rfl⟩
abbrev main_c_82 : Ref sig .tc := ⟨.hbm, 506, rfl⟩
abbrev main_v406 : Ref sig .tc := ⟨.hbm, 507, rfl⟩
abbrev main_v407 : Ref sig .tc := ⟨.hbm, 508, rfl⟩
abbrev main_v408 : Ref sig .tc := ⟨.hbm, 509, rfl⟩
abbrev main_v409 : Ref sig .tc := ⟨.hbm, 510, rfl⟩
abbrev main_v410 : Ref sig .tc := ⟨.hbm, 511, rfl⟩
abbrev main_v411 : Ref sig .tc := ⟨.hbm, 512, rfl⟩
abbrev main_v412 : Ref sig .tc := ⟨.hbm, 513, rfl⟩
abbrev main_v413 : Ref sig .tc := ⟨.hbm, 514, rfl⟩
abbrev main_c_83 : Ref sig .tc := ⟨.hbm, 515, rfl⟩
abbrev main_v414 : Ref sig .tc := ⟨.hbm, 516, rfl⟩
abbrev main_v415 : Ref sig .tc := ⟨.hbm, 517, rfl⟩
abbrev main_c_84 : Ref sig .tc := ⟨.hbm, 518, rfl⟩
abbrev main_v416 : Ref sig .tc := ⟨.hbm, 519, rfl⟩
abbrev main_v417 : Ref sig .tc := ⟨.hbm, 520, rfl⟩
abbrev main_v418 : Ref sig .tc := ⟨.hbm, 521, rfl⟩
abbrev main_c_85 : Ref sig .tc := ⟨.hbm, 522, rfl⟩
abbrev main_v419 : Ref sig .tc := ⟨.hbm, 523, rfl⟩
abbrev main_v420 : Ref sig .tc := ⟨.hbm, 524, rfl⟩
abbrev main_c_86 : Ref sig .tc := ⟨.hbm, 525, rfl⟩
abbrev main_v421 : Ref sig .tc := ⟨.hbm, 526, rfl⟩
abbrev main_v422 : Ref sig .tc := ⟨.hbm, 527, rfl⟩
abbrev main_v423 : Ref sig .tc := ⟨.hbm, 528, rfl⟩
abbrev main_c_87 : Ref sig .tc := ⟨.hbm, 529, rfl⟩
abbrev main_v424 : Ref sig .tc := ⟨.hbm, 530, rfl⟩
abbrev main_v425 : Ref sig .tc := ⟨.hbm, 531, rfl⟩
abbrev main_c_88 : Ref sig .tc := ⟨.hbm, 532, rfl⟩
abbrev main_v426 : Ref sig .tc := ⟨.hbm, 533, rfl⟩
abbrev main_v427 : Ref sig .tc := ⟨.hbm, 534, rfl⟩
abbrev main_v428 : Ref sig .tc := ⟨.hbm, 535, rfl⟩
abbrev main_v429 : Ref sig .tc := ⟨.hbm, 536, rfl⟩
abbrev main_v430 : Ref sig .tc := ⟨.hbm, 537, rfl⟩
abbrev main_v431 : Ref sig .tc := ⟨.hbm, 538, rfl⟩
abbrev main_v432 : Ref sig .tc := ⟨.hbm, 539, rfl⟩
abbrev main_v433 : Ref sig .tc := ⟨.hbm, 540, rfl⟩
abbrev main_c_89 : Ref sig .tc := ⟨.hbm, 541, rfl⟩
abbrev main_v434 : Ref sig .tc := ⟨.hbm, 542, rfl⟩
abbrev main_v435 : Ref sig .tc := ⟨.hbm, 543, rfl⟩
abbrev main_c_90 : Ref sig .tc := ⟨.hbm, 544, rfl⟩
abbrev main_v436 : Ref sig .tc := ⟨.hbm, 545, rfl⟩
abbrev main_v437 : Ref sig .tc := ⟨.hbm, 546, rfl⟩
abbrev main_v438 : Ref sig .tc := ⟨.hbm, 547, rfl⟩
abbrev main_c_91 : Ref sig .tc := ⟨.hbm, 548, rfl⟩
abbrev main_v439 : Ref sig .tc := ⟨.hbm, 549, rfl⟩
abbrev main_v440 : Ref sig .tc := ⟨.hbm, 550, rfl⟩
abbrev main_c_92 : Ref sig .tc := ⟨.hbm, 551, rfl⟩
abbrev main_v441 : Ref sig .tc := ⟨.hbm, 552, rfl⟩
abbrev main_v442 : Ref sig .tc := ⟨.hbm, 553, rfl⟩
abbrev main_v443 : Ref sig .tc := ⟨.hbm, 554, rfl⟩
abbrev main_c_93 : Ref sig .tc := ⟨.hbm, 555, rfl⟩
abbrev main_v444 : Ref sig .tc := ⟨.hbm, 556, rfl⟩
abbrev main_v445 : Ref sig .tc := ⟨.hbm, 557, rfl⟩
abbrev main_c_94 : Ref sig .tc := ⟨.hbm, 558, rfl⟩
abbrev main_v446 : Ref sig .tc := ⟨.hbm, 559, rfl⟩
abbrev main_v447 : Ref sig .tc := ⟨.hbm, 560, rfl⟩
abbrev main_v448 : Ref sig .tc := ⟨.hbm, 561, rfl⟩
abbrev main_v449 : Ref sig .tc := ⟨.hbm, 562, rfl⟩
abbrev main_v450 : Ref sig .tc := ⟨.hbm, 563, rfl⟩
abbrev main_v451 : Ref sig .tc := ⟨.hbm, 564, rfl⟩
abbrev main_v452 : Ref sig .tc := ⟨.hbm, 565, rfl⟩
abbrev main_v453 : Ref sig .tc := ⟨.hbm, 566, rfl⟩
abbrev main_c_95 : Ref sig .tc := ⟨.hbm, 567, rfl⟩
abbrev main_v454 : Ref sig .tc := ⟨.hbm, 568, rfl⟩
abbrev main_v455 : Ref sig .tc := ⟨.hbm, 569, rfl⟩
abbrev main_c_96 : Ref sig .tc := ⟨.hbm, 570, rfl⟩
abbrev main_v456 : Ref sig .tc := ⟨.hbm, 571, rfl⟩
abbrev main_v457 : Ref sig .tc := ⟨.hbm, 572, rfl⟩
abbrev main_v458 : Ref sig .tc := ⟨.hbm, 573, rfl⟩
abbrev main_c_97 : Ref sig .tc := ⟨.hbm, 574, rfl⟩
abbrev main_v459 : Ref sig .tc := ⟨.hbm, 575, rfl⟩
abbrev main_v460 : Ref sig .tc := ⟨.hbm, 576, rfl⟩
abbrev main_c_98 : Ref sig .tc := ⟨.hbm, 577, rfl⟩
abbrev main_v461 : Ref sig .tc := ⟨.hbm, 578, rfl⟩
abbrev main_v462 : Ref sig .tc := ⟨.hbm, 579, rfl⟩
abbrev main_v463 : Ref sig .tc := ⟨.hbm, 580, rfl⟩
abbrev main_c_99 : Ref sig .tc := ⟨.hbm, 581, rfl⟩
abbrev main_v464 : Ref sig .tc := ⟨.hbm, 582, rfl⟩
abbrev main_v465 : Ref sig .tc := ⟨.hbm, 583, rfl⟩
abbrev main_c_100 : Ref sig .tc := ⟨.hbm, 584, rfl⟩
abbrev main_v466 : Ref sig .tc := ⟨.hbm, 585, rfl⟩
abbrev main_v467 : Ref sig .tc := ⟨.hbm, 586, rfl⟩
abbrev main_v468 : Ref sig .tc := ⟨.hbm, 587, rfl⟩
abbrev main_v469 : Ref sig .tc := ⟨.hbm, 588, rfl⟩
abbrev main_v470 : Ref sig .tc := ⟨.hbm, 589, rfl⟩
abbrev main_v471 : Ref sig .tc := ⟨.hbm, 590, rfl⟩
abbrev main_v472 : Ref sig .tc := ⟨.hbm, 591, rfl⟩
abbrev main_v473 : Ref sig .tc := ⟨.hbm, 592, rfl⟩
abbrev main_v474 : Ref sig .tc := ⟨.hbm, 593, rfl⟩
abbrev main_v475 : Ref sig .tc := ⟨.hbm, 594, rfl⟩
abbrev main_v476 : Ref sig .tc := ⟨.hbm, 595, rfl⟩
abbrev main_v477 : Ref sig .tc := ⟨.hbm, 596, rfl⟩
abbrev main_v478 : Ref sig .tc := ⟨.hbm, 597, rfl⟩
abbrev main_v479 : Ref sig .tc := ⟨.hbm, 598, rfl⟩
abbrev main_v480 : Ref sig .tc := ⟨.hbm, 599, rfl⟩
abbrev main_v481 : Ref sig .tc := ⟨.hbm, 600, rfl⟩
abbrev main_v482 : Ref sig .tc := ⟨.hbm, 601, rfl⟩
abbrev main_v483 : Ref sig .tc := ⟨.hbm, 602, rfl⟩
abbrev main_v484 : Ref sig .tc := ⟨.hbm, 603, rfl⟩
abbrev main_v485 : Ref sig .tc := ⟨.hbm, 604, rfl⟩
abbrev main_v486 : Ref sig .tc := ⟨.hbm, 605, rfl⟩
abbrev main_v487 : Ref sig .tc := ⟨.hbm, 606, rfl⟩
abbrev main_v488 : Ref sig .tc := ⟨.hbm, 607, rfl⟩
abbrev main_v489 : Ref sig .tc := ⟨.hbm, 608, rfl⟩
abbrev main_v490 : Ref sig .tc := ⟨.hbm, 609, rfl⟩
abbrev main_v491 : Ref sig .tc := ⟨.hbm, 610, rfl⟩
abbrev main_v492 : Ref sig .tc := ⟨.hbm, 611, rfl⟩
abbrev main_v493 : Ref sig .tc := ⟨.hbm, 612, rfl⟩
abbrev main_v494 : Ref sig .tc := ⟨.hbm, 613, rfl⟩
abbrev main_v495 : Ref sig .tc := ⟨.hbm, 614, rfl⟩
abbrev main_v496 : Ref sig .tc := ⟨.hbm, 615, rfl⟩
abbrev main_cst_101 : Ref sig .tc := ⟨.hbm, 616, rfl⟩
abbrev main_cst_102 : Ref sig .tc := ⟨.hbm, 617, rfl⟩
abbrev main_call2_v0 : Ref sig .tc := ⟨.hbm, 618, rfl⟩
abbrev main_call2_v1 : Ref sig .tc := ⟨.hbm, 619, rfl⟩
abbrev main_call2_v2 : Ref sig .tc := ⟨.hbm, 620, rfl⟩
abbrev main_call2_v3 : Ref sig .tc := ⟨.hbm, 621, rfl⟩
abbrev main_call2_v4 : Ref sig .tc := ⟨.hbm, 622, rfl⟩
abbrev main_v497 : Ref sig .tc := ⟨.hbm, 623, rfl⟩
abbrev main_v498 : Ref sig .tc := ⟨.hbm, 624, rfl⟩
abbrev main_v499 : Ref sig .tc := ⟨.hbm, 625, rfl⟩
abbrev main_v500 : Ref sig .tc := ⟨.hbm, 626, rfl⟩
abbrev main_v501 : Ref sig .tc := ⟨.hbm, 627, rfl⟩
abbrev main_v502 : Ref sig .tc := ⟨.hbm, 628, rfl⟩
abbrev main_v503 : Ref sig .tc := ⟨.hbm, 629, rfl⟩
abbrev main_v504 : Ref sig .tc := ⟨.hbm, 630, rfl⟩
abbrev main_v505 : Ref sig .tc := ⟨.hbm, 631, rfl⟩
abbrev main_v506 : Ref sig .tc := ⟨.hbm, 632, rfl⟩
abbrev main_v507 : Ref sig .tc := ⟨.hbm, 633, rfl⟩
abbrev main_v508 : Ref sig .tc := ⟨.hbm, 634, rfl⟩
abbrev main_v509 : Ref sig .tc := ⟨.hbm, 635, rfl⟩
abbrev main_v510 : Ref sig .tc := ⟨.hbm, 636, rfl⟩
abbrev main_v511 : Ref sig .tc := ⟨.hbm, 637, rfl⟩
abbrev main_v512 : Ref sig .tc := ⟨.hbm, 638, rfl⟩
abbrev main_v513 : Ref sig .tc := ⟨.hbm, 639, rfl⟩
abbrev main_v514 : Ref sig .tc := ⟨.hbm, 640, rfl⟩
abbrev main_v515 : Ref sig .tc := ⟨.hbm, 641, rfl⟩
abbrev main_v516 : Ref sig .tc := ⟨.hbm, 642, rfl⟩
abbrev main_v517 : Ref sig .tc := ⟨.hbm, 643, rfl⟩
abbrev main_v518 : Ref sig .tc := ⟨.hbm, 644, rfl⟩
abbrev main_v519 : Ref sig .tc := ⟨.hbm, 645, rfl⟩
abbrev main_v520 : Ref sig .tc := ⟨.hbm, 646, rfl⟩
abbrev main_v521 : Ref sig .tc := ⟨.hbm, 647, rfl⟩
abbrev main_v522 : Ref sig .tc := ⟨.hbm, 648, rfl⟩
abbrev main_v523 : Ref sig .tc := ⟨.hbm, 649, rfl⟩
abbrev main_v524 : Ref sig .tc := ⟨.hbm, 650, rfl⟩
abbrev main_v525 : Ref sig .tc := ⟨.hbm, 651, rfl⟩
abbrev main_v526 : Ref sig .tc := ⟨.hbm, 652, rfl⟩
abbrev main_v527 : Ref sig .tc := ⟨.hbm, 653, rfl⟩
abbrev main_v528 : Ref sig .tc := ⟨.hbm, 654, rfl⟩
abbrev main_v529 : Ref sig .tc := ⟨.hbm, 655, rfl⟩
abbrev main_v530 : Ref sig .tc := ⟨.hbm, 656, rfl⟩
abbrev main_v531 : Ref sig .tc := ⟨.hbm, 657, rfl⟩
abbrev main_v532 : Ref sig .tc := ⟨.hbm, 658, rfl⟩
abbrev main_v533 : Ref sig .tc := ⟨.hbm, 659, rfl⟩
abbrev main_v534 : Ref sig .tc := ⟨.hbm, 660, rfl⟩
abbrev main_v535 : Ref sig .tc := ⟨.hbm, 661, rfl⟩
abbrev main_v536 : Ref sig .tc := ⟨.hbm, 662, rfl⟩
abbrev main_v537 : Ref sig .tc := ⟨.hbm, 663, rfl⟩
abbrev main_v538 : Ref sig .tc := ⟨.hbm, 664, rfl⟩
abbrev main_v539 : Ref sig .tc := ⟨.hbm, 665, rfl⟩
abbrev main_v540 : Ref sig .tc := ⟨.hbm, 666, rfl⟩
abbrev main_v541 : Ref sig .tc := ⟨.hbm, 667, rfl⟩
abbrev main_v542 : Ref sig .tc := ⟨.hbm, 668, rfl⟩
abbrev main_v543 : Ref sig .tc := ⟨.hbm, 669, rfl⟩
abbrev main_v544 : Ref sig .tc := ⟨.hbm, 670, rfl⟩
abbrev main_v545 : Ref sig .tc := ⟨.hbm, 671, rfl⟩
abbrev main_c_103 : Ref sig .tc := ⟨.hbm, 672, rfl⟩
abbrev main_v546 : Ref sig .tc := ⟨.hbm, 673, rfl⟩
abbrev main_v547 : Ref sig .tc := ⟨.hbm, 674, rfl⟩
abbrev main_c_104 : Ref sig .tc := ⟨.hbm, 675, rfl⟩
abbrev main_v548 : Ref sig .tc := ⟨.hbm, 676, rfl⟩
abbrev main_v549 : Ref sig .tc := ⟨.hbm, 677, rfl⟩
abbrev main_v550 : Ref sig .tc := ⟨.hbm, 678, rfl⟩
abbrev main_c_105 : Ref sig .tc := ⟨.hbm, 679, rfl⟩
abbrev main_v551 : Ref sig .tc := ⟨.hbm, 680, rfl⟩
abbrev main_v552 : Ref sig .tc := ⟨.hbm, 681, rfl⟩
abbrev main_c_106 : Ref sig .tc := ⟨.hbm, 682, rfl⟩
abbrev main_v553 : Ref sig .tc := ⟨.hbm, 683, rfl⟩
abbrev main_v554 : Ref sig .tc := ⟨.hbm, 684, rfl⟩
abbrev main_v555 : Ref sig .tc := ⟨.hbm, 685, rfl⟩
abbrev main_c_107 : Ref sig .tc := ⟨.hbm, 686, rfl⟩
abbrev main_v556 : Ref sig .tc := ⟨.hbm, 687, rfl⟩
abbrev main_v557 : Ref sig .tc := ⟨.hbm, 688, rfl⟩
abbrev main_c_108 : Ref sig .tc := ⟨.hbm, 689, rfl⟩
abbrev main_v558 : Ref sig .tc := ⟨.hbm, 690, rfl⟩
abbrev main_v559 : Ref sig .tc := ⟨.hbm, 691, rfl⟩
abbrev main_v560 : Ref sig .tc := ⟨.hbm, 692, rfl⟩
abbrev main_v561 : Ref sig .tc := ⟨.hbm, 693, rfl⟩
abbrev main_v562 : Ref sig .tc := ⟨.hbm, 694, rfl⟩
abbrev main_v563 : Ref sig .tc := ⟨.hbm, 695, rfl⟩
abbrev main_v564 : Ref sig .tc := ⟨.hbm, 696, rfl⟩
abbrev main_v565 : Ref sig .tc := ⟨.hbm, 697, rfl⟩
abbrev main_c_109 : Ref sig .tc := ⟨.hbm, 698, rfl⟩
abbrev main_v566 : Ref sig .tc := ⟨.hbm, 699, rfl⟩
abbrev main_v567 : Ref sig .tc := ⟨.hbm, 700, rfl⟩
abbrev main_c_110 : Ref sig .tc := ⟨.hbm, 701, rfl⟩
abbrev main_v568 : Ref sig .tc := ⟨.hbm, 702, rfl⟩
abbrev main_v569 : Ref sig .tc := ⟨.hbm, 703, rfl⟩
abbrev main_v570 : Ref sig .tc := ⟨.hbm, 704, rfl⟩
abbrev main_c_111 : Ref sig .tc := ⟨.hbm, 705, rfl⟩
abbrev main_v571 : Ref sig .tc := ⟨.hbm, 706, rfl⟩
abbrev main_v572 : Ref sig .tc := ⟨.hbm, 707, rfl⟩
abbrev main_c_112 : Ref sig .tc := ⟨.hbm, 708, rfl⟩
abbrev main_v573 : Ref sig .tc := ⟨.hbm, 709, rfl⟩
abbrev main_v574 : Ref sig .tc := ⟨.hbm, 710, rfl⟩
abbrev main_v575 : Ref sig .tc := ⟨.hbm, 711, rfl⟩
abbrev main_c_113 : Ref sig .tc := ⟨.hbm, 712, rfl⟩
abbrev main_v576 : Ref sig .tc := ⟨.hbm, 713, rfl⟩
abbrev main_v577 : Ref sig .tc := ⟨.hbm, 714, rfl⟩
abbrev main_c_114 : Ref sig .tc := ⟨.hbm, 715, rfl⟩
abbrev main_v578 : Ref sig .tc := ⟨.hbm, 716, rfl⟩
abbrev main_v579 : Ref sig .tc := ⟨.hbm, 717, rfl⟩
abbrev main_v580 : Ref sig .tc := ⟨.hbm, 718, rfl⟩
abbrev main_v581 : Ref sig .tc := ⟨.hbm, 719, rfl⟩
abbrev main_v582 : Ref sig .tc := ⟨.hbm, 720, rfl⟩
abbrev main_v583 : Ref sig .tc := ⟨.hbm, 721, rfl⟩
abbrev main_v584 : Ref sig .tc := ⟨.hbm, 722, rfl⟩
abbrev main_v585 : Ref sig .tc := ⟨.hbm, 723, rfl⟩
abbrev main_c_115 : Ref sig .tc := ⟨.hbm, 724, rfl⟩
abbrev main_v586 : Ref sig .tc := ⟨.hbm, 725, rfl⟩
abbrev main_v587 : Ref sig .tc := ⟨.hbm, 726, rfl⟩
abbrev main_c_116 : Ref sig .tc := ⟨.hbm, 727, rfl⟩
abbrev main_v588 : Ref sig .tc := ⟨.hbm, 728, rfl⟩
abbrev main_v589 : Ref sig .tc := ⟨.hbm, 729, rfl⟩
abbrev main_v590 : Ref sig .tc := ⟨.hbm, 730, rfl⟩
abbrev main_c_117 : Ref sig .tc := ⟨.hbm, 731, rfl⟩
abbrev main_v591 : Ref sig .tc := ⟨.hbm, 732, rfl⟩
abbrev main_v592 : Ref sig .tc := ⟨.hbm, 733, rfl⟩
abbrev main_c_118 : Ref sig .tc := ⟨.hbm, 734, rfl⟩
abbrev main_v593 : Ref sig .tc := ⟨.hbm, 735, rfl⟩
abbrev main_v594 : Ref sig .tc := ⟨.hbm, 736, rfl⟩
abbrev main_v595 : Ref sig .tc := ⟨.hbm, 737, rfl⟩
abbrev main_c_119 : Ref sig .tc := ⟨.hbm, 738, rfl⟩
abbrev main_v596 : Ref sig .tc := ⟨.hbm, 739, rfl⟩
abbrev main_v597 : Ref sig .tc := ⟨.hbm, 740, rfl⟩
abbrev main_c_120 : Ref sig .tc := ⟨.hbm, 741, rfl⟩
abbrev main_v598 : Ref sig .tc := ⟨.hbm, 742, rfl⟩
abbrev main_v599 : Ref sig .tc := ⟨.hbm, 743, rfl⟩
abbrev main_v600 : Ref sig .tc := ⟨.hbm, 744, rfl⟩
abbrev main_v601 : Ref sig .tc := ⟨.hbm, 745, rfl⟩
abbrev main_v602 : Ref sig .tc := ⟨.hbm, 746, rfl⟩
abbrev main_v603 : Ref sig .tc := ⟨.hbm, 747, rfl⟩
abbrev main_v604 : Ref sig .tc := ⟨.hbm, 748, rfl⟩
abbrev main_v605 : Ref sig .tc := ⟨.hbm, 749, rfl⟩
abbrev main_c_121 : Ref sig .tc := ⟨.hbm, 750, rfl⟩
abbrev main_v606 : Ref sig .tc := ⟨.hbm, 751, rfl⟩
abbrev main_v607 : Ref sig .tc := ⟨.hbm, 752, rfl⟩
abbrev main_c_122 : Ref sig .tc := ⟨.hbm, 753, rfl⟩
abbrev main_v608 : Ref sig .tc := ⟨.hbm, 754, rfl⟩
abbrev main_v609 : Ref sig .tc := ⟨.hbm, 755, rfl⟩
abbrev main_v610 : Ref sig .tc := ⟨.hbm, 756, rfl⟩
abbrev main_c_123 : Ref sig .tc := ⟨.hbm, 757, rfl⟩
abbrev main_v611 : Ref sig .tc := ⟨.hbm, 758, rfl⟩
abbrev main_v612 : Ref sig .tc := ⟨.hbm, 759, rfl⟩
abbrev main_c_124 : Ref sig .tc := ⟨.hbm, 760, rfl⟩
abbrev main_v613 : Ref sig .tc := ⟨.hbm, 761, rfl⟩
abbrev main_v614 : Ref sig .tc := ⟨.hbm, 762, rfl⟩
abbrev main_v615 : Ref sig .tc := ⟨.hbm, 763, rfl⟩
abbrev main_c_125 : Ref sig .tc := ⟨.hbm, 764, rfl⟩
abbrev main_v616 : Ref sig .tc := ⟨.hbm, 765, rfl⟩
abbrev main_v617 : Ref sig .tc := ⟨.hbm, 766, rfl⟩
abbrev main_c_126 : Ref sig .tc := ⟨.hbm, 767, rfl⟩
abbrev main_v618 : Ref sig .tc := ⟨.hbm, 768, rfl⟩
abbrev main_v619 : Ref sig .tc := ⟨.hbm, 769, rfl⟩
abbrev main_v620 : Ref sig .tc := ⟨.hbm, 770, rfl⟩
abbrev main_v621 : Ref sig .tc := ⟨.hbm, 771, rfl⟩
abbrev main_v622 : Ref sig .tc := ⟨.hbm, 772, rfl⟩
abbrev main_v623 : Ref sig .tc := ⟨.hbm, 773, rfl⟩
abbrev main_v624 : Ref sig .tc := ⟨.hbm, 774, rfl⟩
abbrev main_v625 : Ref sig .tc := ⟨.hbm, 775, rfl⟩
abbrev main_v626 : Ref sig .tc := ⟨.hbm, 776, rfl⟩
abbrev main_v627 : Ref sig .tc := ⟨.hbm, 777, rfl⟩
abbrev main_v628 : Ref sig .tc := ⟨.hbm, 778, rfl⟩
abbrev main_v629 : Ref sig .tc := ⟨.hbm, 779, rfl⟩
abbrev main_v630 : Ref sig .tc := ⟨.hbm, 780, rfl⟩
abbrev main_v631 : Ref sig .tc := ⟨.hbm, 781, rfl⟩
abbrev main_v632 : Ref sig .tc := ⟨.hbm, 782, rfl⟩
abbrev main_v633 : Ref sig .tc := ⟨.hbm, 783, rfl⟩
abbrev main_v634 : Ref sig .tc := ⟨.hbm, 784, rfl⟩
abbrev main_v635 : Ref sig .tc := ⟨.hbm, 785, rfl⟩
abbrev main_v636 : Ref sig .tc := ⟨.hbm, 786, rfl⟩
abbrev main_v637 : Ref sig .tc := ⟨.hbm, 787, rfl⟩
abbrev main_v638 : Ref sig .tc := ⟨.hbm, 788, rfl⟩
abbrev main_v639 : Ref sig .tc := ⟨.hbm, 789, rfl⟩
abbrev main_v640 : Ref sig .tc := ⟨.hbm, 790, rfl⟩
abbrev main_c_127 : Ref sig .tc := ⟨.hbm, 791, rfl⟩
abbrev main_v641 : Ref sig .tc := ⟨.hbm, 792, rfl⟩
abbrev main_v642 : Ref sig .tc := ⟨.hbm, 793, rfl⟩
abbrev main_c_128 : Ref sig .tc := ⟨.hbm, 794, rfl⟩
abbrev main_v643 : Ref sig .tc := ⟨.hbm, 795, rfl⟩
abbrev main_v644 : Ref sig .tc := ⟨.hbm, 796, rfl⟩
abbrev main_v645 : Ref sig .tc := ⟨.hbm, 797, rfl⟩
abbrev main_c_129 : Ref sig .tc := ⟨.hbm, 798, rfl⟩
abbrev main_v646 : Ref sig .tc := ⟨.hbm, 799, rfl⟩
abbrev main_v647 : Ref sig .tc := ⟨.hbm, 800, rfl⟩
abbrev main_c_130 : Ref sig .tc := ⟨.hbm, 801, rfl⟩
abbrev main_v648 : Ref sig .tc := ⟨.hbm, 802, rfl⟩
abbrev main_v649 : Ref sig .tc := ⟨.hbm, 803, rfl⟩
abbrev main_v650 : Ref sig .tc := ⟨.hbm, 804, rfl⟩
abbrev main_c_131 : Ref sig .tc := ⟨.hbm, 805, rfl⟩
abbrev main_v651 : Ref sig .tc := ⟨.hbm, 806, rfl⟩
abbrev main_v652 : Ref sig .tc := ⟨.hbm, 807, rfl⟩
abbrev main_c_132 : Ref sig .tc := ⟨.hbm, 808, rfl⟩
abbrev main_v653 : Ref sig .tc := ⟨.hbm, 809, rfl⟩
abbrev main_v654 : Ref sig .tc := ⟨.hbm, 810, rfl⟩
abbrev main_v655 : Ref sig .tc := ⟨.hbm, 811, rfl⟩
abbrev main_v656 : Ref sig .tc := ⟨.hbm, 812, rfl⟩
abbrev main_v657 : Ref sig .tc := ⟨.hbm, 813, rfl⟩
abbrev main_v658 : Ref sig .tc := ⟨.hbm, 814, rfl⟩
abbrev main_v659 : Ref sig .tc := ⟨.hbm, 815, rfl⟩
abbrev main_v660 : Ref sig .tc := ⟨.hbm, 816, rfl⟩
abbrev main_c_133 : Ref sig .tc := ⟨.hbm, 817, rfl⟩
abbrev main_v661 : Ref sig .tc := ⟨.hbm, 818, rfl⟩
abbrev main_v662 : Ref sig .tc := ⟨.hbm, 819, rfl⟩
abbrev main_c_134 : Ref sig .tc := ⟨.hbm, 820, rfl⟩
abbrev main_v663 : Ref sig .tc := ⟨.hbm, 821, rfl⟩
abbrev main_v664 : Ref sig .tc := ⟨.hbm, 822, rfl⟩
abbrev main_v665 : Ref sig .tc := ⟨.hbm, 823, rfl⟩
abbrev main_c_135 : Ref sig .tc := ⟨.hbm, 824, rfl⟩
abbrev main_v666 : Ref sig .tc := ⟨.hbm, 825, rfl⟩
abbrev main_v667 : Ref sig .tc := ⟨.hbm, 826, rfl⟩
abbrev main_c_136 : Ref sig .tc := ⟨.hbm, 827, rfl⟩
abbrev main_v668 : Ref sig .tc := ⟨.hbm, 828, rfl⟩
abbrev main_v669 : Ref sig .tc := ⟨.hbm, 829, rfl⟩
abbrev main_v670 : Ref sig .tc := ⟨.hbm, 830, rfl⟩
abbrev main_c_137 : Ref sig .tc := ⟨.hbm, 831, rfl⟩
abbrev main_v671 : Ref sig .tc := ⟨.hbm, 832, rfl⟩
abbrev main_v672 : Ref sig .tc := ⟨.hbm, 833, rfl⟩
abbrev main_c_138 : Ref sig .tc := ⟨.hbm, 834, rfl⟩
abbrev main_v673 : Ref sig .tc := ⟨.hbm, 835, rfl⟩
abbrev main_v674 : Ref sig .tc := ⟨.hbm, 836, rfl⟩
abbrev main_v675 : Ref sig .tc := ⟨.hbm, 837, rfl⟩
abbrev main_v676 : Ref sig .tc := ⟨.hbm, 838, rfl⟩
abbrev main_v677 : Ref sig .tc := ⟨.hbm, 839, rfl⟩
abbrev main_v678 : Ref sig .tc := ⟨.hbm, 840, rfl⟩
abbrev main_v679 : Ref sig .tc := ⟨.hbm, 841, rfl⟩
abbrev main_v680 : Ref sig .tc := ⟨.hbm, 842, rfl⟩
abbrev main_c_139 : Ref sig .tc := ⟨.hbm, 843, rfl⟩
abbrev main_v681 : Ref sig .tc := ⟨.hbm, 844, rfl⟩
abbrev main_v682 : Ref sig .tc := ⟨.hbm, 845, rfl⟩
abbrev main_c_140 : Ref sig .tc := ⟨.hbm, 846, rfl⟩
abbrev main_v683 : Ref sig .tc := ⟨.hbm, 847, rfl⟩
abbrev main_v684 : Ref sig .tc := ⟨.hbm, 848, rfl⟩
abbrev main_v685 : Ref sig .tc := ⟨.hbm, 849, rfl⟩
abbrev main_c_141 : Ref sig .tc := ⟨.hbm, 850, rfl⟩
abbrev main_v686 : Ref sig .tc := ⟨.hbm, 851, rfl⟩
abbrev main_v687 : Ref sig .tc := ⟨.hbm, 852, rfl⟩
abbrev main_c_142 : Ref sig .tc := ⟨.hbm, 853, rfl⟩
abbrev main_v688 : Ref sig .tc := ⟨.hbm, 854, rfl⟩
abbrev main_v689 : Ref sig .tc := ⟨.hbm, 855, rfl⟩
abbrev main_v690 : Ref sig .tc := ⟨.hbm, 856, rfl⟩
abbrev main_c_143 : Ref sig .tc := ⟨.hbm, 857, rfl⟩
abbrev main_v691 : Ref sig .tc := ⟨.hbm, 858, rfl⟩
abbrev main_v692 : Ref sig .tc := ⟨.hbm, 859, rfl⟩
abbrev main_c_144 : Ref sig .tc := ⟨.hbm, 860, rfl⟩
abbrev main_v693 : Ref sig .tc := ⟨.hbm, 861, rfl⟩
abbrev main_v694 : Ref sig .tc := ⟨.hbm, 862, rfl⟩
abbrev main_v695 : Ref sig .tc := ⟨.hbm, 863, rfl⟩
abbrev main_v696 : Ref sig .tc := ⟨.hbm, 864, rfl⟩
abbrev main_v697 : Ref sig .tc := ⟨.hbm, 865, rfl⟩
abbrev main_v698 : Ref sig .tc := ⟨.hbm, 866, rfl⟩
abbrev main_v699 : Ref sig .tc := ⟨.hbm, 867, rfl⟩
abbrev main_v700 : Ref sig .tc := ⟨.hbm, 868, rfl⟩
abbrev main_c_145 : Ref sig .tc := ⟨.hbm, 869, rfl⟩
abbrev main_v701 : Ref sig .tc := ⟨.hbm, 870, rfl⟩
abbrev main_v702 : Ref sig .tc := ⟨.hbm, 871, rfl⟩
abbrev main_c_146 : Ref sig .tc := ⟨.hbm, 872, rfl⟩
abbrev main_v703 : Ref sig .tc := ⟨.hbm, 873, rfl⟩
abbrev main_v704 : Ref sig .tc := ⟨.hbm, 874, rfl⟩
abbrev main_v705 : Ref sig .tc := ⟨.hbm, 875, rfl⟩
abbrev main_c_147 : Ref sig .tc := ⟨.hbm, 876, rfl⟩
abbrev main_v706 : Ref sig .tc := ⟨.hbm, 877, rfl⟩
abbrev main_v707 : Ref sig .tc := ⟨.hbm, 878, rfl⟩
abbrev main_c_148 : Ref sig .tc := ⟨.hbm, 879, rfl⟩
abbrev main_v708 : Ref sig .tc := ⟨.hbm, 880, rfl⟩
abbrev main_v709 : Ref sig .tc := ⟨.hbm, 881, rfl⟩
abbrev main_v710 : Ref sig .tc := ⟨.hbm, 882, rfl⟩
abbrev main_c_149 : Ref sig .tc := ⟨.hbm, 883, rfl⟩
abbrev main_v711 : Ref sig .tc := ⟨.hbm, 884, rfl⟩
abbrev main_v712 : Ref sig .tc := ⟨.hbm, 885, rfl⟩
abbrev main_c_150 : Ref sig .tc := ⟨.hbm, 886, rfl⟩
abbrev main_v713 : Ref sig .tc := ⟨.hbm, 887, rfl⟩
abbrev main_v714 : Ref sig .tc := ⟨.hbm, 888, rfl⟩
abbrev main_v715 : Ref sig .tc := ⟨.hbm, 889, rfl⟩
abbrev main_v716 : Ref sig .tc := ⟨.hbm, 890, rfl⟩
abbrev main_v717 : Ref sig .tc := ⟨.hbm, 891, rfl⟩
abbrev main_v718 : Ref sig .tc := ⟨.hbm, 892, rfl⟩
abbrev main_v719 : Ref sig .tc := ⟨.hbm, 893, rfl⟩
abbrev main_v720 : Ref sig .tc := ⟨.hbm, 894, rfl⟩
abbrev main_v721 : Ref sig .tc := ⟨.hbm, 895, rfl⟩
abbrev main_v722 : Ref sig .tc := ⟨.hbm, 896, rfl⟩
abbrev main_v723 : Ref sig .tc := ⟨.hbm, 897, rfl⟩
abbrev main_v724 : Ref sig .tc := ⟨.hbm, 898, rfl⟩
abbrev main_v725 : Ref sig .tc := ⟨.hbm, 899, rfl⟩
abbrev main_v726 : Ref sig .tc := ⟨.hbm, 900, rfl⟩
abbrev main_v727 : Ref sig .tc := ⟨.hbm, 901, rfl⟩
abbrev main_v728 : Ref sig .tc := ⟨.hbm, 902, rfl⟩
abbrev main_v729 : Ref sig .tc := ⟨.hbm, 903, rfl⟩
abbrev main_v730 : Ref sig .tc := ⟨.hbm, 904, rfl⟩
abbrev main_v731 : Ref sig .tc := ⟨.hbm, 905, rfl⟩
abbrev main_v732 : Ref sig .tc := ⟨.hbm, 906, rfl⟩
abbrev main_v733 : Ref sig .tc := ⟨.hbm, 907, rfl⟩
abbrev main_v734 : Ref sig .tc := ⟨.hbm, 908, rfl⟩
abbrev main_v735 : Ref sig .tc := ⟨.hbm, 909, rfl⟩
abbrev main_v736 : Ref sig .tc := ⟨.hbm, 910, rfl⟩
abbrev main_v737 : Ref sig .tc := ⟨.hbm, 911, rfl⟩
abbrev main_v738 : Ref sig .tc := ⟨.hbm, 912, rfl⟩
abbrev main_v739 : Ref sig .tc := ⟨.hbm, 913, rfl⟩
abbrev main_v740 : Ref sig .tc := ⟨.hbm, 914, rfl⟩
abbrev main_v741 : Ref sig .tc := ⟨.hbm, 915, rfl⟩

abbrev nD : Nat := 1
abbrev τ : Topo := Topo.v7x

variable {F : FTy → Type} [FloatOps F]

class Facts₀ : Prop where
  bcast_S3_S1x1x3_2 : S3.BroadcastsInDim S1x1x3 (![2] : Fin 1 → Fin S1x1x3.rank)
  bcast_S1x1x3_S2x100000x3_0_1_2 : S1x1x3.BroadcastsInDim S2x100000x3 (![0, 1, 2] : Fin 3 → Fin S2x100000x3.rank)
  bcast_S_S2x100000x3 : S_.BroadcastsInDim S2x100000x3 (![] : Fin 0 → Fin S2x100000x3.rank)
  slices_S2x100000x3_S2x100000x1_0_0_0 : S2x100000x3.Slices ![0, 0, 0] S2x100000x1
  shapeCasts_S2x100000x1_S2x100000 : S2x100000x1.ShapeCasts S2x100000
  slices_S2x100000x3_S2x100000x1_0_0_1 : S2x100000x3.Slices ![0, 0, 1] S2x100000x1
  slices_S2x100000x3_S2x100000x1_0_0_2 : S2x100000x3.Slices ![0, 0, 2] S2x100000x1
  bcast_S2x100000_S2x100000x1_0_1 : S2x100000.BroadcastsInDim S2x100000x1 (![0, 1] : Fin 2 → Fin S2x100000x1.rank)
  bcast_S_S2x100000 : S_.BroadcastsInDim S2x100000 (![] : Fin 0 → Fin S2x100000.rank)
  concatenates_S2x100000x1_S2x100000x1_S2x100000x1_S2x100000x3_d2 : Shape.Concatenates [S2x100000x1, S2x100000x1, S2x100000x1] S2x100000x3 2
  bcast_S2x100000x1_S2x100000x32_0_1_2 : S2x100000x1.BroadcastsInDim S2x100000x32 (![0, 1, 2] : Fin 3 → Fin S2x100000x32.rank)
  bcast_S2x100000x1_S2x100000x64_0_1_2 : S2x100000x1.BroadcastsInDim S2x100000x64 (![0, 1, 2] : Fin 3 → Fin S2x100000x64.rank)
  bcast_S2x100000x1_S2x100000x128_0_1_2 : S2x100000x1.BroadcastsInDim S2x100000x128 (![0, 1, 2] : Fin 3 → Fin S2x100000x128.rank)
  concatenates_S2x100000x32_S2x100000x64_S2x100000x128_S2x100000x224_d2 : Shape.Concatenates [S2x100000x32, S2x100000x64, S2x100000x128] S2x100000x224 2
  gather_S2x64x64x64x32_S2x100000x3_S2x100000x32_2_123_0_0_123_2_111132_wf : GatherDims.WF S2x64x64x64x32 S2x100000x3 S2x100000x32 [2] [1, 2, 3] [0] [1, 2, 3] [0] 2 ![1, 1, 1, 1, 32]
  gather_S2x32x32x32x64_S2x100000x3_S2x100000x64_2_123_0_0_123_2_111164_wf : GatherDims.WF S2x32x32x32x64 S2x100000x3 S2x100000x64 [2] [1, 2, 3] [0] [1, 2, 3] [0] 2 ![1, 1, 1, 1, 64]
  gather_S2x16x16x16x128_S2x100000x3_S2x100000x128_2_123_0_0_123_2_1111128_wf : GatherDims.WF S2x16x16x16x128 S2x100000x3 S2x100000x128 [2] [1, 2, 3] [0] [1, 2, 3] [0] 2 ![1, 1, 1, 1, 128]

variable [Facts₀]

def gather_S2x64x64x64x32_S2x100000x3_S2x100000x32_2_123_0_0_123_2_111132 : GatherDims S2x64x64x64x32 S2x100000x3 S2x100000x32 where
  offsetDims := [2]
  collapsedSliceDims := [1, 2, 3]
  operandBatchingDims := [0]
  startIndicesBatchingDims := [0]
  startIndexMap := [1, 2, 3]
  indexVectorDim := 2
  sliceSizes := ![1, 1, 1, 1, 32]
  wf := gather_S2x64x64x64x32_S2x100000x3_S2x100000x32_2_123_0_0_123_2_111132_wf
def gather_S2x32x32x32x64_S2x100000x3_S2x100000x64_2_123_0_0_123_2_111164 : GatherDims S2x32x32x32x64 S2x100000x3 S2x100000x64 where
  offsetDims := [2]
  collapsedSliceDims := [1, 2, 3]
  operandBatchingDims := [0]
  startIndicesBatchingDims := [0]
  startIndexMap := [1, 2, 3]
  indexVectorDim := 2
  sliceSizes := ![1, 1, 1, 1, 64]
  wf := gather_S2x32x32x32x64_S2x100000x3_S2x100000x64_2_123_0_0_123_2_111164_wf
def gather_S2x16x16x16x128_S2x100000x3_S2x100000x128_2_123_0_0_123_2_1111128 : GatherDims S2x16x16x16x128 S2x100000x3 S2x100000x128 where
  offsetDims := [2]
  collapsedSliceDims := [1, 2, 3]
  operandBatchingDims := [0]
  startIndicesBatchingDims := [0]
  startIndexMap := [1, 2, 3]
  indexVectorDim := 2
  sliceSizes := ![1, 1, 1, 1, 128]
  wf := gather_S2x16x16x16x128_S2x100000x3_S2x100000x128_2_123_0_0_123_2_1111128_wf

class Facts : Prop extends Facts₀ where

variable [Facts]
-- ==== Proof.Spec.lean ====
/-
  The specification both programs are compared against: trilinear sampling of three feature pyramids at
  query points, written over the extended reals exactly as each program spells it.

  A query coordinate `x` is scaled, clamped into `[lo, hi]` (`uc`), and split into its floor `x₁`, its ceiling
  `x₂` and the two distances `x − x₁`, `x₂ − x`. The eight lattice corners around the point are read from the
  feature array at the floor / ceiling indices (converted to 32-bit integers, wrapped once if negative, and
  clamped into the axis: `cl`), and combined with the products of the three distances.

  `K` adds the eight corner terms one after the other, each corner times its product of three distances
  (the kernel's order); `R` interpolates along x, then y, then z (the reference's order). They are equal whenever
  every quantity is a real number: distributivity of multiplication over addition (Algebra.lean).
-/
import Idealize.ShloMosaic.PureOps.Ideal
import Idealize.ShloMosaic.Lib.ValueIdx

noncomputable section

namespace Cert.Spec

open Idealize.ShloMosaic Idealize.ShloMosaic.ValueIdx

/-- The lower clamp, the float32 nearest 0.01. -/
def lo : EReal := Ideal.ofBits .f32 0x3C23D70A#32

/-- A scaled coordinate clamped from below by `lo` and from above by `hi`. -/
def uc (s hi x : EReal) : EReal := min hi (max lo (x * s))

/-- Floor and ceiling of an extended real, as the host computes them. -/
def fl (v : EReal) : EReal := FloatOps.hostUnary (F := Ideal) (φ := .f32) .floor v
def ce (v : EReal) : EReal := FloatOps.hostUnary (F := Ideal) (φ := .f32) .ceil v

/-- The 32-bit signed integer of an extended real (toward zero, saturating). -/
def cvt (v : EReal) : BitVec 32 := FloatOps.fptosi (F := Ideal) (φ := .f32) 32 v

/-- A negative index wraps once around an axis of extent `D`. -/
def nrm (D : BitVec 32) (w : BitVec 32) : BitVec 32 :=
  Scalar.select (IntOp.cmpi .slt w 0#32) (IntOp.addi w D) w

/-- A start index read signed and clamped into an axis of extent `D`. -/
def cl (D : Nat) (hD : 0 < D) (w : BitVec 32) : Fin D := ⟨min w.toInt.toNat (D - 1), by omega⟩

/-- The lattice index along one axis: the converted coordinate, wrapped, clamped. -/
def lat (D : Nat) (hD : 0 < D) (v : EReal) : Fin D := cl D hD (nrm (BitVec.ofNat 32 D) (cvt v))

section Level

variable {D C : Nat} (hD : 0 < D) (s hi : EReal)
variable (feat : (⟨5, ![2, D, D, D, C]⟩ : Shape).Idx → EReal)

/-- The corner value at batch `b`, lattice coordinates of the three (already floored or ceiled) reals, channel `ch`. -/
def corner (b : Fin 2) (vx vy vz : EReal) (ch : Fin C) : EReal :=
  feat (ix5 b (lat D hD vx) (lat D hD vy) (lat D hD vz) ch)

/-- The kernel's value at a point with raw coordinates `x y z`: the eight corner terms added in turn to zero. -/
def K (b : Fin 2) (x y z : EReal) (ch : Fin C) : EReal :=
  let ux := uc s hi x; let uy := uc s hi y; let uz := uc s hi z
  let x1 := fl ux; let x2 := ce ux; let y1 := fl uy; let y2 := ce uy; let z1 := fl uz; let z2 := ce uz
  let wx := ux - x1; let wx2 := x2 - ux; let wy := uy - y1; let wy2 := y2 - uy; let wz := uz - z1; let wz2 := z2 - uz
  let q := corner hD feat b
  0 + q x2 y2 z2 ch * (wz * wx * wy) + q x1 y2 z2 ch * (wz * wx2 * wy) + q x2 y1 z2 ch * (wz * wx * wy2)
    + q x1 y1 z2 ch * (wz * wx2 * wy2) + q x2 y2 z1 ch * (wz2 * wx * wy) + q x1 y2 z1 ch * (wz2 * wx2 * wy)
    + q x2 y1 z1 ch * (wz2 * wx * wy2) + q x1 y1 z1 ch * (wz2 * wx2 * wy2)

/-- The reference's value at the same point: interpolate along x, then y, in each of the two z planes, then along z. -/
def R (b : Fin 2) (x y z : EReal) (ch : Fin C) : EReal :=
  let ux := uc s hi x; let uy := uc s hi y; let uz := uc s hi z
  let x1 := fl ux; let x2 := ce ux; let y1 := fl uy; let y2 := ce uy; let z1 := fl uz; let z2 := ce uz
  let wx := ux - x1; let wx2 := x2 - ux; let wy := uy - y1; let wy2 := y2 - uy; let wz := uz - z1; let wz2 := z2 - uz
  let q := corner hD feat b
  ((q x2 y2 z2 ch * wx + q x1 y2 z2 ch * wx2) * wy + (q x2 y1 z2 ch * wx + q x1 y1 z2 ch * wx2) * wy2) * wz
    + ((q x2 y2 z1 ch * wx + q x1 y2 z1 ch * wx2) * wy + (q x2 y1 z1 ch * wx + q x1 y1 z1 ch * wx2) * wy2) * wz2

/-- The eight weights of a point, in the kernel's order: each a product of one z-, one x- and one y-distance. -/
def wgt (x y z : EReal) (i : Fin 8) : EReal :=
  let ux := uc s hi x; let uy := uc s hi y; let uz := uc s hi z
  let wx := ux - fl ux; let wx2 := ce ux - ux; let wy := uy - fl uy; let wy2 := ce uy - uy; let wz := uz - fl uz; let wz2 := ce uz - uz
  match i with
  | 0 => wz * wx * wy | 1 => wz * wx2 * wy | 2 => wz * wx * wy2 | 3 => wz * wx2 * wy2
  | 4 => wz2 * wx * wy | 5 => wz2 * wx2 * wy | 6 => wz2 * wx * wy2 | 7 => wz2 * wx2 * wy2

/-- The eight corner values of a point, in the kernel's order (x ceiling before x floor, y ceiling before y floor,
    the upper z plane before the lower). -/
def crn (b : Fin 2) (x y z : EReal) (i : Fin 8) (ch : Fin C) : EReal :=
  let ux := uc s hi x; let uy := uc s hi y; let uz := uc s hi z
  let q := corner hD feat b
  match i with
  | 0 => q (ce ux) (ce uy) (ce uz) ch | 1 => q (fl ux) (ce uy) (ce uz) ch | 2 => q (ce ux) (fl uy) (ce uz) ch | 3 => q (fl ux) (fl uy) (ce uz) ch
  | 4 => q (ce ux) (ce uy) (fl uz) ch | 5 => q (fl ux) (ce uy) (fl uz) ch | 6 => q (ce ux) (fl uy) (fl uz) ch | 7 => q (fl ux) (fl uy) (fl uz) ch

/-- The kernel's value is the eight corner-times-weight terms added in turn to zero. -/
theorem K_eq (b : Fin 2) (x y z : EReal) (ch : Fin C) :
    K hD s hi feat b x y z ch
      = 0 + crn hD s hi feat b x y z 0 ch * wgt s hi x y z 0 + crn hD s hi feat b x y z 1 ch * wgt s hi x y z 1
          + crn hD s hi feat b x y z 2 ch * wgt s hi x y z 2 + crn hD s hi feat b x y z 3 ch * wgt s hi x y z 3
          + crn hD s hi feat b x y z 4 ch * wgt s hi x y z 4 + crn hD s hi feat b x y z 5 ch * wgt s hi x y z 5
          + crn hD s hi feat b x y z 6 ch * wgt s hi x y z 6 + crn hD s hi feat b x y z 7 ch * wgt s hi x y z 7 := rfl

end Level

/-! ## The three levels -/

def s1 : EReal := Ideal.ofBits .f32 0x42800000#32
def s2 : EReal := Ideal.ofBits .f32 0x42000000#32
def s3 : EReal := Ideal.ofBits .f32 0x41800000#32
def hi1 : EReal := Ideal.ofBits .f32 0x427BF5C3#32
def hi2 : EReal := Ideal.ofBits .f32 0x41F7EB85#32
def hi3 : EReal := Ideal.ofBits .f32 0x416FD70A#32

abbrev Feat1 := (⟨5, ![2, 64, 64, 64, 32]⟩ : Shape).Idx → EReal
abbrev Feat2 := (⟨5, ![2, 32, 32, 32, 64]⟩ : Shape).Idx → EReal
abbrev Feat3 := (⟨5, ![2, 16, 16, 16, 128]⟩ : Shape).Idx → EReal
abbrev Coords := (⟨3, ![2, 100000, 3]⟩ : Shape).Idx → EReal

/-- The kernel's value of level 1 / 2 / 3 at batch `b`, point `n`, channel `ch`. -/
def K1 (f : Feat1) (co : Coords) (b : Fin 2) (n : Fin 100000) (ch : Fin 32) : EReal :=
  K (by decide : 0 < 64) s1 hi1 f b (co (ix3 b n (0 : Fin 3))) (co (ix3 b n (1 : Fin 3))) (co (ix3 b n (2 : Fin 3))) ch
def K2 (f : Feat2) (co : Coords) (b : Fin 2) (n : Fin 100000) (ch : Fin 64) : EReal :=
  K (by decide : 0 < 32) s2 hi2 f b (co (ix3 b n (0 : Fin 3))) (co (ix3 b n (1 : Fin 3))) (co (ix3 b n (2 : Fin 3))) ch
def K3 (f : Feat3) (co : Coords) (b : Fin 2) (n : Fin 100000) (ch : Fin 128) : EReal :=
  K (by decide : 0 < 16) s3 hi3 f b (co (ix3 b n (0 : Fin 3))) (co (ix3 b n (1 : Fin 3))) (co (ix3 b n (2 : Fin 3))) ch

/-- The reference's value of level 1 / 2 / 3 at the same place. -/
def R1 (f : Feat1) (co : Coords) (b : Fin 2) (n : Fin 100000) (ch : Fin 32) : EReal :=
  R (by decide : 0 < 64) s1 hi1 f b (co (ix3 b n (0 : Fin 3))) (co (ix3 b n (1 : Fin 3))) (co (ix3 b n (2 : Fin 3))) ch
def R2 (f : Feat2) (co : Coords) (b : Fin 2) (n : Fin 100000) (ch : Fin 64) : EReal :=
  R (by decide : 0 < 32) s2 hi2 f b (co (ix3 b n (0 : Fin 3))) (co (ix3 b n (1 : Fin 3))) (co (ix3 b n (2 : Fin 3))) ch
def R3 (f : Feat3) (co : Coords) (b : Fin 2) (n : Fin 100000) (ch : Fin 128) : EReal :=
  R (by decide : 0 < 16) s3 hi3 f b (co (ix3 b n (0 : Fin 3))) (co (ix3 b n (1 : Fin 3))) (co (ix3 b n (2 : Fin 3))) ch

/-- Three per-level results laid side by side along the channel axis: channels 0–31, 32–95, 96–223. -/
def side (g1 : Fin 2 → Fin 100000 → Fin 32 → EReal) (g2 : Fin 2 → Fin 100000 → Fin 64 → EReal)
    (g3 : Fin 2 → Fin 100000 → Fin 128 → EReal) : (⟨3, ![2, 100000, 224]⟩ : Shape).Idx → EReal := fun j =>
  if h1 : (j 2).val < 32 then g1 (j 0) (j 1) ⟨(j 2).val, h1⟩
  else if h2 : (j 2).val < 96 then g2 (j 0) (j 1) ⟨(j 2).val - 32, by omega⟩
  else g3 (j 0) (j 1) ⟨(j 2).val - 96, by have := (j 2).isLt; simp only [Matrix.cons_val] at this; omega⟩

/-- What the kernel's program returns, and what the reference returns, as functions of the argument arrays. -/
def resultK (f1 : Feat1) (f2 : Feat2) (f3 : Feat3) (co : Coords) : (⟨3, ![2, 100000, 224]⟩ : Shape).Idx → EReal :=
  side (K1 f1 co) (K2 f2 co) (K3 f3 co)
def resultR (f1 : Feat1) (f2 : Feat2) (f3 : Feat3) (co : Coords) : (⟨3, ![2, 100000, 224]⟩ : Shape).Idx → EReal :=
  side (R1 f1 co) (R2 f2 co) (R3 f3 co)

end Cert.Spec

end
-- ==== Proof.Algebra.lean ====
/-
  The law between the two arrangements of trilinear sampling: the kernel's eight corner-times-weight terms added in
  turn to zero equal the reference's interpolation along x, then y, then z, at every point, every channel and each of
  the three levels, whenever the feature arrays hold real numbers.

  Nothing is asked of the query coordinates or of the scale: a scaled coordinate is clamped between two real bounds,
  so the clamped coordinate is a real number whatever the product was (the maximum with the real lower bound is above
  ⊥, the minimum with the real upper bound is below ⊤). Its floor and ceiling are then real, the six distances are
  differences of reals, and the eight corners are entries of the feature array. With all of them real both sides are
  coercions of real expressions, equal by distributivity.
-/
import proofs.«414534_j76854144795318_3_alg».proof.Proof.Spec
import Mathlib.Data.EReal.Operations
import Mathlib.Tactic.Ring

noncomputable section

namespace Cert.Spec

open Idealize.ShloMosaic Idealize.ShloMosaic.ValueIdx

/-! ## The clamp bounds are real numbers -/

theorem lo_real : ∃ r : ℝ, lo = (r : EReal) := by
  unfold lo; simp [Ideal.ofBits, Ideal.ieee, -EReal.coe_mul]

theorem hi1_real : ∃ r : ℝ, hi1 = (r : EReal) := by
  unfold hi1; simp [Ideal.ofBits, Ideal.ieee, -EReal.coe_mul]

theorem hi2_real : ∃ r : ℝ, hi2 = (r : EReal) := by
  unfold hi2; simp [Ideal.ofBits, Ideal.ieee, -EReal.coe_mul]

theorem hi3_real : ∃ r : ℝ, hi3 = (r : EReal) := by
  unfold hi3; simp [Ideal.ofBits, Ideal.ieee, -EReal.coe_mul]

/-- A clamped coordinate is a real number whatever the scaled coordinate is: it lies between the two real bounds
    or equals one of them. -/
theorem uc_real (s hi x : EReal) (hhi : ∃ r : ℝ, hi = (r : EReal)) : ∃ r : ℝ, uc s hi x = (r : EReal) := by
  obtain ⟨l, hl⟩ := lo_real
  obtain ⟨h, hh⟩ := hhi
  have hm : max lo (x * s) ≠ ⊥ := by
    intro e
    have : lo ≤ ⊥ := e ▸ le_max_left lo (x * s)
    rw [hl] at this
    exact absurd (le_bot_iff.mp this) (EReal.coe_ne_bot l)
  have hb : uc s hi x ≠ ⊥ := by
    unfold uc
    rcases min_choice hi (max lo (x * s)) with e | e <;> rw [e]
    · rw [hh]; exact EReal.coe_ne_bot h
    · exact hm
  have ht : uc s hi x ≠ ⊤ := by
    intro e
    have : (⊤ : EReal) ≤ hi := e ▸ (min_le_left hi (max lo (x * s)) : uc s hi x ≤ hi)
    rw [hh] at this
    exact absurd (top_le_iff.mp this) (EReal.coe_ne_top h)
  exact ⟨(uc s hi x).toReal, (EReal.coe_toReal ht hb).symm⟩

/-- Floor and ceiling of a real number are the real numbers of its integer floor and ceiling. -/
theorem fl_coe (r : ℝ) : fl (r : EReal) = (((⌊r⌋ : ℤ) : ℝ) : EReal) := rfl
theorem ce_coe (r : ℝ) : ce (r : EReal) = (((⌈r⌉ : ℤ) : ℝ) : EReal) := rfl

/-! ## The law: eight weighted corners added in turn equal the nested interpolation -/

/-- Over the reals: distributivity. -/
theorem law_real (a b c d e f g h ux x1 x2 uy y1 y2 uz z1 z2 : ℝ) :
    0 + a * ((uz - z1) * (ux - x1) * (uy - y1)) + b * ((uz - z1) * (x2 - ux) * (uy - y1))
        + c * ((uz - z1) * (ux - x1) * (y2 - uy)) + d * ((uz - z1) * (x2 - ux) * (y2 - uy))
        + e * ((z2 - uz) * (ux - x1) * (uy - y1)) + f * ((z2 - uz) * (x2 - ux) * (uy - y1))
        + g * ((z2 - uz) * (ux - x1) * (y2 - uy)) + h * ((z2 - uz) * (x2 - ux) * (y2 - uy))
      = ((a * (ux - x1) + b * (x2 - ux)) * (uy - y1) + (c * (ux - x1) + d * (x2 - ux)) * (y2 - uy)) * (uz - z1)
        + ((e * (ux - x1) + f * (x2 - ux)) * (uy - y1) + (g * (ux - x1) + h * (x2 - ux)) * (y2 - uy)) * (z2 - uz) := by
  ring

/-- The same law over the extended reals when every quantity is (the coercion of) a real number. -/
theorem law_coe (a b c d e f g h ux x1 x2 uy y1 y2 uz z1 z2 : ℝ) :
    (0 : EReal) + (a : EReal) * (((uz : EReal) - z1) * ((ux : EReal) - x1) * ((uy : EReal) - y1))
        + (b : EReal) * (((uz : EReal) - z1) * ((x2 : EReal) - ux) * ((uy : EReal) - y1))
        + (c : EReal) * (((uz : EReal) - z1) * ((ux : EReal) - x1) * ((y2 : EReal) - uy))
        + (d : EReal) * (((uz : EReal) - z1) * ((x2 : EReal) - ux) * ((y2 : EReal) - uy))
        + (e : EReal) * (((z2 : EReal) - uz) * ((ux : EReal) - x1) * ((uy : EReal) - y1))
        + (f : EReal) * (((z2 : EReal) - uz) * ((x2 : EReal) - ux) * ((uy : EReal) - y1))
        + (g : EReal) * (((z2 : EReal) - uz) * ((ux : EReal) - x1) * ((y2 : EReal) - uy))
        + (h : EReal) * (((z2 : EReal) - uz) * ((x2 : EReal) - ux) * ((y2 : EReal) - uy))
      = (((a : EReal) * ((ux : EReal) - x1) + (b : EReal) * ((x2 : EReal) - ux)) * ((uy : EReal) - y1)
          + ((c : EReal) * ((ux : EReal) - x1) + (d : EReal) * ((x2 : EReal) - ux)) * ((y2 : EReal) - uy)) * ((uz : EReal) - z1)
        + (((e : EReal) * ((ux : EReal) - x1) + (f : EReal) * ((x2 : EReal) - ux)) * ((uy : EReal) - y1)
          + ((g : EReal) * ((ux : EReal) - x1) + (h : EReal) * ((x2 : EReal) - ux)) * ((y2 : EReal) - uy)) * ((z2 : EReal) - uz) := by
  rw [← EReal.coe_zero]
  simp only [← EReal.coe_sub, ← EReal.coe_mul, ← EReal.coe_add]
  exact congrArg _ (law_real a b c d e f g h ux x1 x2 uy y1 y2 uz z1 z2)

section Level

variable {D C : Nat} (hD : 0 < D) (s hi : EReal)
variable (feat : (⟨5, ![2, D, D, D, C]⟩ : Shape).Idx → EReal)

/-- The kernel's eight-term sum and the reference's nested interpolation agree at every point, when the feature
    array and the upper clamp are real: every clamped coordinate, its floor and ceiling, and every corner are then
    real numbers, and the law is distributivity. -/
theorem K_eq_R (hf : ∀ i, ∃ r : ℝ, feat i = (r : EReal)) (hhi : ∃ r : ℝ, hi = (r : EReal))
    (b : Fin 2) (x y z : EReal) (ch : Fin C) :
    K hD s hi feat b x y z ch = R hD s hi feat b x y z ch := by
  obtain ⟨ux, hux⟩ := uc_real s hi x hhi
  obtain ⟨uy, huy⟩ := uc_real s hi y hhi
  obtain ⟨uz, huz⟩ := uc_real s hi z hhi
  unfold K R
  simp only [hux, huy, huz, fl_coe, ce_coe]
  obtain ⟨q1, h1⟩ : ∃ r : ℝ, corner hD feat b (((⌈ux⌉ : ℤ) : ℝ) : EReal) (((⌈uy⌉ : ℤ) : ℝ) : EReal) (((⌈uz⌉ : ℤ) : ℝ) : EReal) ch = (r : EReal) := hf _
  obtain ⟨q2, h2⟩ : ∃ r : ℝ, corner hD feat b (((⌊ux⌋ : ℤ) : ℝ) : EReal) (((⌈uy⌉ : ℤ) : ℝ) : EReal) (((⌈uz⌉ : ℤ) : ℝ) : EReal) ch = (r : EReal) := hf _
  obtain ⟨q3, h3⟩ : ∃ r : ℝ, corner hD feat b (((⌈ux⌉ : ℤ) : ℝ) : EReal) (((⌊uy⌋ : ℤ) : ℝ) : EReal) (((⌈uz⌉ : ℤ) : ℝ) : EReal) ch = (r : EReal) := hf _
  obtain ⟨q4, h4⟩ : ∃ r : ℝ, corner hD feat b (((⌊ux⌋ : ℤ) : ℝ) : EReal) (((⌊uy⌋ : ℤ) : ℝ) : EReal) (((⌈uz⌉ : ℤ) : ℝ) : EReal) ch = (r : EReal) := hf _
  obtain ⟨q5, h5⟩ : ∃ r : ℝ, corner hD feat b (((⌈ux⌉ : ℤ) : ℝ) : EReal) (((⌈uy⌉ : ℤ) : ℝ) : EReal) (((⌊uz⌋ : ℤ) : ℝ) : EReal) ch = (r : EReal) := hf _
  obtain ⟨q6, h6⟩ : ∃ r : ℝ, corner hD feat b (((⌊ux⌋ : ℤ) : ℝ) : EReal) (((⌈uy⌉ : ℤ) : ℝ) : EReal) (((⌊uz⌋ : ℤ) : ℝ) : EReal) ch = (r : EReal) := hf _
  obtain ⟨q7, h7⟩ : ∃ r : ℝ, corner hD feat b (((⌈ux⌉ : ℤ) : ℝ) : EReal) (((⌊uy⌋ : ℤ) : ℝ) : EReal) (((⌊uz⌋ : ℤ) : ℝ) : EReal) ch = (r : EReal) := hf _
  obtain ⟨q8, h8⟩ : ∃ r : ℝ, corner hD feat b (((⌊ux⌋ : ℤ) : ℝ) : EReal) (((⌊uy⌋ : ℤ) : ℝ) : EReal) (((⌊uz⌋ : ℤ) : ℝ) : EReal) ch = (r : EReal) := hf _
  rw [h1, h2, h3, h4, h5, h6, h7, h8]
  exact law_coe q1 q2 q3 q4 q5 q6 q7 q8 ux ⌊ux⌋ ⌈ux⌉ uy ⌊uy⌋ ⌈uy⌉ uz ⌊uz⌋ ⌈uz⌉

end Level

/-! ## The three levels side by side -/

theorem resultK_eq_resultR (f1 : Feat1) (f2 : Feat2) (f3 : Feat3) (co : Coords)
    (h1 : ∀ i, ∃ r : ℝ, f1 i = (r : EReal)) (h2 : ∀ i, ∃ r : ℝ, f2 i = (r : EReal))
    (h3 : ∀ i, ∃ r : ℝ, f3 i = (r : EReal)) : resultK f1 f2 f3 co = resultR f1 f2 f3 co := by
  have e1 : K1 f1 co = R1 f1 co := by
    funext b n ch; exact K_eq_R _ s1 hi1 f1 h1 hi1_real b _ _ _ ch
  have e2 : K2 f2 co = R2 f2 co := by
    funext b n ch; exact K_eq_R _ s2 hi2 f2 h2 hi2_real b _ _ _ ch
  have e3 : K3 f3 co = R3 f3 co := by
    funext b n ch; exact K_eq_R _ s3 hi3 f3 h3 hi3_real b _ _ _ ch
  unfold resultK resultR
  rw [e1, e2, e3]

end Cert.Spec

end
-- ==== Proof.Finite.lean ====
/-
  From the precondition to "the three feature arrays hold real numbers".

  The precondition is a chain of six tests joined by "and", one per argument array: every entry x of the array has
  |x| < +∞. Its value being 1 gives each test the value 1; a test is an "all" over the array, so every entry passes;
  and on the extended reals |x| = max x (−x) is ⊤ at both infinities, so an entry that passes is a real number.
-/
import proofs.«414534_j76854144795318_3_alg».proof.Pre_finite_inputs
import Idealize.ShloMosaic.Lib.ReduceAll
import Idealize.ShloMosaic.Lib.ValueIdx
import Idealize.ShloMosaic.PureOps.Ideal
import Mathlib.Data.EReal.Basic

noncomputable section

namespace Cert.Finite

open Idealize.ShloMosaic

/-- The word of +∞ denotes ⊤. -/
theorem inf_eq_top : Ideal.ofBits .f32 0x7F800000#32 = (⊤ : EReal) := by
  simp [Ideal.ofBits, Ideal.ieee]

/-- An extended real whose absolute value, max x (−x), is strictly below +∞ is a real number: at ⊥ and at ⊤ the
    absolute value is ⊤, which is not below ⊤. -/
theorem real_of_abs_lt_inf (x : EReal)
    (h : FloatOps.cmpf (F := Ideal) (φ := .f32) .olt (FloatOps.hostAbsf (F := Ideal) (φ := .f32) x)
      (Ideal.ofBits .f32 0x7F800000#32) = 1#1) :
    ∃ r : ℝ, x = (r : EReal) := by
  rw [inf_eq_top] at h
  induction x using EReal.rec with
  | bot =>
    change Ideal.cmp .olt (max (⊥ : EReal) (-⊥)) ⊤ = 1#1 at h
    exact absurd h (by simp [Ideal.cmp])
  | top =>
    change Ideal.cmp .olt (max (⊤ : EReal) (-⊤)) ⊤ = 1#1 at h
    exact absurd h (by simp [Ideal.cmp])
  | coe r => exact ⟨r, rfl⟩

/-- The shape of a scalar has one index. -/
instance subsingleton_scalar_idx : Subsingleton Cert.Pre_finite_inputs.S_.Idx :=
  ⟨fun a b => funext fun d => d.elim0⟩

open Cert.Pre_finite_inputs in
/-- The precondition is the conjunction, over the six argument arrays, of "every entry has absolute value below +∞".
    Read back at the three feature arrays the law needs: every entry of each is a real number. -/
theorem finite_of_pre [Cert.Pre_finite_inputs.Facts]
    (a0 : FVec Ideal S2x128x128x128x16 .f32) (a1 : FVec Ideal S2x64x64x64x32 .f32)
    (a2 : FVec Ideal S2x32x32x32x64 .f32) (a3 : FVec Ideal S2x16x16x16x128 .f32)
    (a4 : FVec Ideal S2x8x8x8x256 .f32) (a5 : FVec Ideal S2x100000x3 .f32)
    (h : Cert.Pre_finite_inputs.fn (F := Ideal) a0 a1 a2 a3 a4 a5 = fun _ => 1#1) :
    (∀ i, ∃ r : ℝ, a1 i = (r : EReal)) ∧ (∀ i, ∃ r : ℝ, a2 i = (r : EReal))
      ∧ (∀ i, ∃ r : ℝ, a3 i = (r : EReal)) := by
  have h0 := congrFun h ValueIdx.ix0
  dsimp only [Cert.Pre_finite_inputs.fn, Cert.Pre_finite_inputs.fn_part1, andi] at h0
  obtain ⟨h01234, _⟩ := IntOp.andi_eq_one.1 h0
  obtain ⟨h0123, _⟩ := IntOp.andi_eq_one.1 h01234
  obtain ⟨h012, e3⟩ := IntOp.andi_eq_one.1 h0123
  obtain ⟨h01, e2⟩ := IntOp.andi_eq_one.1 h012
  obtain ⟨_, e1⟩ := IntOp.andi_eq_one.1 h01
  exact ⟨fun i => real_of_abs_lt_inf (a1 i) (Host.reduce_andi_all _ _ _ _ _ e1 i),
    fun i => real_of_abs_lt_inf (a2 i) (Host.reduce_andi_all _ _ _ _ _ e2 i),
    fun i => real_of_abs_lt_inf (a3 i) (Host.reduce_andi_all _ _ _ _ _ e3 i)⟩

end Cert.Finite

end
-- ==== Proof.K.HostTable.lean ====
/- A table over the 97 stretches of host operations before the region, one pair of facts per stretch, each fact
   a conjunction with one component per operation of the stretch, in order: the operation allocates no buffer; the
   operation writes exactly one buffer, and that buffer is none of the six argument arrays. -/
import proofs.«414534_j76854144795318_3_alg».proof.Proof.Gen.Kernel.Launch

set_option maxRecDepth 16384

noncomputable section

namespace Cert.Kernel.Hand

open Cert.Kernel Cert.Kernel.Gen
open Idealize.ShloMosaic Idealize.ShloMosaic.TcCoe

variable {F : FTy → Type} [FloatOps F]

theorem hostOps0_fresh : (hostOps0 : List (HloOp τ sig (Elt F))).Forall fun op => op.fresh = ∅ :=
  ⟨rfl, rfl, rfl, rfl, rfl, rfl, rfl, rfl, rfl, rfl, rfl, rfl⟩
theorem hostOps0_writes : (hostOps0 : List (HloOp τ sig (Elt F))).Forall fun op =>
    ∃ y : Ref sig .tc, op.writes = {Proc.devRef (τ := τ) .tc y} ∧ y ∉ [main_arg0, main_arg1, main_arg2, main_arg3, main_arg4, main_arg5] :=
  ⟨⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩⟩
theorem hostOps0_1_fresh : (hostOps0_1 : List (HloOp τ sig (Elt F))).Forall fun op => op.fresh = ∅ :=
  ⟨rfl, rfl, rfl, rfl, rfl, rfl⟩
theorem hostOps0_1_writes : (hostOps0_1 : List (HloOp τ sig (Elt F))).Forall fun op =>
    ∃ y : Ref sig .tc, op.writes = {Proc.devRef (τ := τ) .tc y} ∧ y ∉ [main_arg0, main_arg1, main_arg2, main_arg3, main_arg4, main_arg5] :=
  ⟨⟨_, rfl, by decide⟩, ⟨_, rfl, by decide⟩, ⟨_, rfl, by decide⟩, ⟨_, rfl, by decide⟩, ⟨_, rfl, by decide⟩, ⟨_, rfl, by decide⟩⟩
theorem hostOps0_2_fresh : (hostOps0_2 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩
theorem hostOps0_2_writes : (hostOps0_2 : List (HloOp τ sig (Elt F))).Forall fun op =>
    ∃ y : Ref sig .tc, op.writes = {Proc.devRef (τ := τ) .tc y} ∧ y ∉ [main_arg0, main_arg1, main_arg2, main_arg3, main_arg4, main_arg5] :=
  ⟨⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩⟩
theorem hostOps0_3_fresh : (hostOps0_3 : List (HloOp τ sig (Elt F))).Forall fun op => op.fresh = ∅ :=
  ⟨rfl, rfl⟩
theorem hostOps0_3_writes : (hostOps0_3 : List (HloOp τ sig (Elt F))).Forall fun op =>
    ∃ y : Ref sig .tc, op.writes = {Proc.devRef (τ := τ) .tc y} ∧ y ∉ [main_arg0, main_arg1, main_arg2, main_arg3, main_arg4, main_arg5] :=
  ⟨⟨_, rfl, by decide⟩, ⟨_, rfl, by decide⟩⟩
theorem hostOps0_4_fresh : (hostOps0_4 : List (HloOp τ sig (Elt F))).Forall fun op => op.fresh = ∅ :=
  rfl
theorem hostOps0_4_writes : (hostOps0_4 : List (HloOp τ sig (Elt F))).Forall fun op =>
    ∃ y : Ref sig .tc, op.writes = {Proc.devRef (τ := τ) .tc y} ∧ y ∉ [main_arg0, main_arg1, main_arg2, main_arg3, main_arg4, main_arg5] :=
  ⟨_, rfl, by decide⟩
theorem hostOps0_5_fresh : (hostOps0_5 : List (HloOp τ sig (Elt F))).Forall fun op => op.fresh = ∅ :=
  ⟨rfl, rfl⟩
theorem hostOps0_5_writes : (hostOps0_5 : List (HloOp τ sig (Elt F))).Forall fun op =>
    ∃ y : Ref sig .tc, op.writes = {Proc.devRef (τ := τ) .tc y} ∧ y ∉ [main_arg0, main_arg1, main_arg2, main_arg3, main_arg4, main_arg5] :=
  ⟨⟨_, rfl, by decide⟩, ⟨_, rfl, by decide⟩⟩
theorem hostOps0_6_fresh : (hostOps0_6 : List (HloOp τ sig (Elt F))).Forall fun op => op.fresh = ∅ :=
  rfl
theorem hostOps0_6_writes : (hostOps0_6 : List (HloOp τ sig (Elt F))).Forall fun op =>
    ∃ y : Ref sig .tc, op.writes = {Proc.devRef (τ := τ) .tc y} ∧ y ∉ [main_arg0, main_arg1, main_arg2, main_arg3, main_arg4, main_arg5] :=
  ⟨_, rfl, by decide⟩
theorem hostOps0_7_fresh : (hostOps0_7 : List (HloOp τ sig (Elt F))).Forall fun op => op.fresh = ∅ :=
  ⟨rfl, rfl⟩
theorem hostOps0_7_writes : (hostOps0_7 : List (HloOp τ sig (Elt F))).Forall fun op =>
    ∃ y : Ref sig .tc, op.writes = {Proc.devRef (τ := τ) .tc y} ∧ y ∉ [main_arg0, main_arg1, main_arg2, main_arg3, main_arg4, main_arg5] :=
  ⟨⟨_, rfl, by decide⟩, ⟨_, rfl, by decide⟩⟩
theorem hostOps0_8_fresh : (hostOps0_8 : List (HloOp τ sig (Elt F))).Forall fun op => op.fresh = ∅ :=
  rfl
theorem hostOps0_8_writes : (hostOps0_8 : List (HloOp τ sig (Elt F))).Forall fun op =>
    ∃ y : Ref sig .tc, op.writes = {Proc.devRef (τ := τ) .tc y} ∧ y ∉ [main_arg0, main_arg1, main_arg2, main_arg3, main_arg4, main_arg5] :=
  ⟨_, rfl, by decide⟩
theorem hostOps0_9_fresh : (hostOps0_9 : List (HloOp τ sig (Elt F))).Forall fun op => op.fresh = ∅ :=
  ⟨rfl, rfl⟩
theorem hostOps0_9_writes : (hostOps0_9 : List (HloOp τ sig (Elt F))).Forall fun op =>
    ∃ y : Ref sig .tc, op.writes = {Proc.devRef (τ := τ) .tc y} ∧ y ∉ [main_arg0, main_arg1, main_arg2, main_arg3, main_arg4, main_arg5] :=
  ⟨⟨_, rfl, by decide⟩, ⟨_, rfl, by decide⟩⟩
theorem hostOps0_10_fresh : (hostOps0_10 : List (HloOp τ sig (Elt F))).Forall fun op => op.fresh = ∅ :=
  rfl
theorem hostOps0_10_writes : (hostOps0_10 : List (HloOp τ sig (Elt F))).Forall fun op =>
    ∃ y : Ref sig .tc, op.writes = {Proc.devRef (τ := τ) .tc y} ∧ y ∉ [main_arg0, main_arg1, main_arg2, main_arg3, main_arg4, main_arg5] :=
  ⟨_, rfl, by decide⟩
theorem hostOps0_11_fresh : (hostOps0_11 : List (HloOp τ sig (Elt F))).Forall fun op => op.fresh = ∅ :=
  ⟨rfl, rfl⟩
theorem hostOps0_11_writes : (hostOps0_11 : List (HloOp τ sig (Elt F))).Forall fun op =>
    ∃ y : Ref sig .tc, op.writes = {Proc.devRef (τ := τ) .tc y} ∧ y ∉ [main_arg0, main_arg1, main_arg2, main_arg3, main_arg4, main_arg5] :=
  ⟨⟨_, rfl, by decide⟩, ⟨_, rfl, by decide⟩⟩
theorem hostOps0_12_fresh : (hostOps0_12 : List (HloOp τ sig (Elt F))).Forall fun op => op.fresh = ∅ :=
  rfl
theorem hostOps0_12_writes : (hostOps0_12 : List (HloOp τ sig (Elt F))).Forall fun op =>
    ∃ y : Ref sig .tc, op.writes = {Proc.devRef (τ := τ) .tc y} ∧ y ∉ [main_arg0, main_arg1, main_arg2, main_arg3, main_arg4, main_arg5] :=
  ⟨_, rfl, by decide⟩
theorem hostOps0_13_fresh : (hostOps0_13 : List (HloOp τ sig (Elt F))).Forall fun op => op.fresh = ∅ :=
  ⟨rfl, rfl⟩
theorem hostOps0_13_writes : (hostOps0_13 : List (HloOp τ sig (Elt F))).Forall fun op =>
    ∃ y : Ref sig .tc, op.writes = {Proc.devRef (τ := τ) .tc y} ∧ y ∉ [main_arg0, main_arg1, main_arg2, main_arg3, main_arg4, main_arg5] :=
  ⟨⟨_, rfl, by decide⟩, ⟨_, rfl, by decide⟩⟩
theorem hostOps0_14_fresh : (hostOps0_14 : List (HloOp τ sig (Elt F))).Forall fun op => op.fresh = ∅ :=
  rfl
theorem hostOps0_14_writes : (hostOps0_14 : List (HloOp τ sig (Elt F))).Forall fun op =>
    ∃ y : Ref sig .tc, op.writes = {Proc.devRef (τ := τ) .tc y} ∧ y ∉ [main_arg0, main_arg1, main_arg2, main_arg3, main_arg4, main_arg5] :=
  ⟨_, rfl, by decide⟩
theorem hostOps0_15_fresh : (hostOps0_15 : List (HloOp τ sig (Elt F))).Forall fun op => op.fresh = ∅ :=
  ⟨rfl, rfl⟩
theorem hostOps0_15_writes : (hostOps0_15 : List (HloOp τ sig (Elt F))).Forall fun op =>
    ∃ y : Ref sig .tc, op.writes = {Proc.devRef (τ := τ) .tc y} ∧ y ∉ [main_arg0, main_arg1, main_arg2, main_arg3, main_arg4, main_arg5] :=
  ⟨⟨_, rfl, by decide⟩, ⟨_, rfl, by decide⟩⟩
theorem hostOps0_16_fresh : (hostOps0_16 : List (HloOp τ sig (Elt F))).Forall fun op => op.fresh = ∅ :=
  rfl
theorem hostOps0_16_writes : (hostOps0_16 : List (HloOp τ sig (Elt F))).Forall fun op =>
    ∃ y : Ref sig .tc, op.writes = {Proc.devRef (τ := τ) .tc y} ∧ y ∉ [main_arg0, main_arg1, main_arg2, main_arg3, main_arg4, main_arg5] :=
  ⟨_, rfl, by decide⟩
theorem hostOps0_17_fresh : (hostOps0_17 : List (HloOp τ sig (Elt F))).Forall fun op => op.fresh = ∅ :=
  ⟨rfl, rfl⟩
theorem hostOps0_17_writes : (hostOps0_17 : List (HloOp τ sig (Elt F))).Forall fun op =>
    ∃ y : Ref sig .tc, op.writes = {Proc.devRef (τ := τ) .tc y} ∧ y ∉ [main_arg0, main_arg1, main_arg2, main_arg3, main_arg4, main_arg5] :=
  ⟨⟨_, rfl, by decide⟩, ⟨_, rfl, by decide⟩⟩
theorem hostOps0_18_fresh : (hostOps0_18 : List (HloOp τ sig (Elt F))).Forall fun op => op.fresh = ∅ :=
  rfl
theorem hostOps0_18_writes : (hostOps0_18 : List (HloOp τ sig (Elt F))).Forall fun op =>
    ∃ y : Ref sig .tc, op.writes = {Proc.devRef (τ := τ) .tc y} ∧ y ∉ [main_arg0, main_arg1, main_arg2, main_arg3, main_arg4, main_arg5] :=
  ⟨_, rfl, by decide⟩
theorem hostOps0_19_fresh : (hostOps0_19 : List (HloOp τ sig (Elt F))).Forall fun op => op.fresh = ∅ :=
  ⟨rfl, rfl⟩
theorem hostOps0_19_writes : (hostOps0_19 : List (HloOp τ sig (Elt F))).Forall fun op =>
    ∃ y : Ref sig .tc, op.writes = {Proc.devRef (τ := τ) .tc y} ∧ y ∉ [main_arg0, main_arg1, main_arg2, main_arg3, main_arg4, main_arg5] :=
  ⟨⟨_, rfl, by decide⟩, ⟨_, rfl, by decide⟩⟩
theorem hostOps0_20_fresh : (hostOps0_20 : List (HloOp τ sig (Elt F))).Forall fun op => op.fresh = ∅ :=
  rfl
theorem hostOps0_20_writes : (hostOps0_20 : List (HloOp τ sig (Elt F))).Forall fun op =>
    ∃ y : Ref sig .tc, op.writes = {Proc.devRef (τ := τ) .tc y} ∧ y ∉ [main_arg0, main_arg1, main_arg2, main_arg3, main_arg4, main_arg5] :=
  ⟨_, rfl, by decide⟩
theorem hostOps0_21_fresh : (hostOps0_21 : List (HloOp τ sig (Elt F))).Forall fun op => op.fresh = ∅ :=
  ⟨rfl, rfl⟩
theorem hostOps0_21_writes : (hostOps0_21 : List (HloOp τ sig (Elt F))).Forall fun op =>
    ∃ y : Ref sig .tc, op.writes = {Proc.devRef (τ := τ) .tc y} ∧ y ∉ [main_arg0, main_arg1, main_arg2, main_arg3, main_arg4, main_arg5] :=
  ⟨⟨_, rfl, by decide⟩, ⟨_, rfl, by decide⟩⟩
theorem hostOps0_22_fresh : (hostOps0_22 : List (HloOp τ sig (Elt F))).Forall fun op => op.fresh = ∅ :=
  rfl
theorem hostOps0_22_writes : (hostOps0_22 : List (HloOp τ sig (Elt F))).Forall fun op =>
    ∃ y : Ref sig .tc, op.writes = {Proc.devRef (τ := τ) .tc y} ∧ y ∉ [main_arg0, main_arg1, main_arg2, main_arg3, main_arg4, main_arg5] :=
  ⟨_, rfl, by decide⟩
theorem hostOps0_23_fresh : (hostOps0_23 : List (HloOp τ sig (Elt F))).Forall fun op => op.fresh = ∅ :=
  ⟨rfl, rfl⟩
theorem hostOps0_23_writes : (hostOps0_23 : List (HloOp τ sig (Elt F))).Forall fun op =>
    ∃ y : Ref sig .tc, op.writes = {Proc.devRef (τ := τ) .tc y} ∧ y ∉ [main_arg0, main_arg1, main_arg2, main_arg3, main_arg4, main_arg5] :=
  ⟨⟨_, rfl, by decide⟩, ⟨_, rfl, by decide⟩⟩
theorem hostOps0_24_fresh : (hostOps0_24 : List (HloOp τ sig (Elt F))).Forall fun op => op.fresh = ∅ :=
  rfl
theorem hostOps0_24_writes : (hostOps0_24 : List (HloOp τ sig (Elt F))).Forall fun op =>
    ∃ y : Ref sig .tc, op.writes = {Proc.devRef (τ := τ) .tc y} ∧ y ∉ [main_arg0, main_arg1, main_arg2, main_arg3, main_arg4, main_arg5] :=
  ⟨_, rfl, by decide⟩
theorem hostOps0_25_fresh : (hostOps0_25 : List (HloOp τ sig (Elt F))).Forall fun op => op.fresh = ∅ :=
  ⟨rfl, rfl⟩
theorem hostOps0_25_writes : (hostOps0_25 : List (HloOp τ sig (Elt F))).Forall fun op =>
    ∃ y : Ref sig .tc, op.writes = {Proc.devRef (τ := τ) .tc y} ∧ y ∉ [main_arg0, main_arg1, main_arg2, main_arg3, main_arg4, main_arg5] :=
  ⟨⟨_, rfl, by decide⟩, ⟨_, rfl, by decide⟩⟩
theorem hostOps0_26_fresh : (hostOps0_26 : List (HloOp τ sig (Elt F))).Forall fun op => op.fresh = ∅ :=
  rfl
theorem hostOps0_26_writes : (hostOps0_26 : List (HloOp τ sig (Elt F))).Forall fun op =>
    ∃ y : Ref sig .tc, op.writes = {Proc.devRef (τ := τ) .tc y} ∧ y ∉ [main_arg0, main_arg1, main_arg2, main_arg3, main_arg4, main_arg5] :=
  ⟨_, rfl, by decide⟩
theorem hostOps0_27_fresh : (hostOps0_27 : List (HloOp τ sig (Elt F))).Forall fun op => op.fresh = ∅ :=
  ⟨rfl, rfl⟩
theorem hostOps0_27_writes : (hostOps0_27 : List (HloOp τ sig (Elt F))).Forall fun op =>
    ∃ y : Ref sig .tc, op.writes = {Proc.devRef (τ := τ) .tc y} ∧ y ∉ [main_arg0, main_arg1, main_arg2, main_arg3, main_arg4, main_arg5] :=
  ⟨⟨_, rfl, by decide⟩, ⟨_, rfl, by decide⟩⟩
theorem hostOps0_28_fresh : (hostOps0_28 : List (HloOp τ sig (Elt F))).Forall fun op => op.fresh = ∅ :=
  rfl
theorem hostOps0_28_writes : (hostOps0_28 : List (HloOp τ sig (Elt F))).Forall fun op =>
    ∃ y : Ref sig .tc, op.writes = {Proc.devRef (τ := τ) .tc y} ∧ y ∉ [main_arg0, main_arg1, main_arg2, main_arg3, main_arg4, main_arg5] :=
  ⟨_, rfl, by decide⟩
theorem hostOps0_29_fresh : (hostOps0_29 : List (HloOp τ sig (Elt F))).Forall fun op => op.fresh = ∅ :=
  ⟨rfl, rfl⟩
theorem hostOps0_29_writes : (hostOps0_29 : List (HloOp τ sig (Elt F))).Forall fun op =>
    ∃ y : Ref sig .tc, op.writes = {Proc.devRef (τ := τ) .tc y} ∧ y ∉ [main_arg0, main_arg1, main_arg2, main_arg3, main_arg4, main_arg5] :=
  ⟨⟨_, rfl, by decide⟩, ⟨_, rfl, by decide⟩⟩
theorem hostOps0_30_fresh : (hostOps0_30 : List (HloOp τ sig (Elt F))).Forall fun op => op.fresh = ∅ :=
  rfl
theorem hostOps0_30_writes : (hostOps0_30 : List (HloOp τ sig (Elt F))).Forall fun op =>
    ∃ y : Ref sig .tc, op.writes = {Proc.devRef (τ := τ) .tc y} ∧ y ∉ [main_arg0, main_arg1, main_arg2, main_arg3, main_arg4, main_arg5] :=
  ⟨_, rfl, by decide⟩
theorem hostOps0_31_fresh : (hostOps0_31 : List (HloOp τ sig (Elt F))).Forall fun op => op.fresh = ∅ :=
  ⟨rfl, rfl⟩
theorem hostOps0_31_writes : (hostOps0_31 : List (HloOp τ sig (Elt F))).Forall fun op =>
    ∃ y : Ref sig .tc, op.writes = {Proc.devRef (τ := τ) .tc y} ∧ y ∉ [main_arg0, main_arg1, main_arg2, main_arg3, main_arg4, main_arg5] :=
  ⟨⟨_, rfl, by decide⟩, ⟨_, rfl, by decide⟩⟩
theorem hostOps0_32_fresh : (hostOps0_32 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩
theorem hostOps0_32_writes : (hostOps0_32 : List (HloOp τ sig (Elt F))).Forall fun op =>
    ∃ y : Ref sig .tc, op.writes = {Proc.devRef (τ := τ) .tc y} ∧ y ∉ [main_arg0, main_arg1, main_arg2, main_arg3, main_arg4, main_arg5] :=
  ⟨⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩⟩
theorem hostOps0_33_fresh : (hostOps0_33 : List (HloOp τ sig (Elt F))).Forall fun op => op.fresh = ∅ :=
  ⟨rfl, rfl, rfl, rfl, rfl, rfl⟩
theorem hostOps0_33_writes : (hostOps0_33 : List (HloOp τ sig (Elt F))).Forall fun op =>
    ∃ y : Ref sig .tc, op.writes = {Proc.devRef (τ := τ) .tc y} ∧ y ∉ [main_arg0, main_arg1, main_arg2, main_arg3, main_arg4, main_arg5] :=
  ⟨⟨_, rfl, by decide⟩, ⟨_, rfl, by decide⟩, ⟨_, rfl, by decide⟩, ⟨_, rfl, by decide⟩, ⟨_, rfl, by decide⟩, ⟨_, rfl, by decide⟩⟩
theorem hostOps0_34_fresh : (hostOps0_34 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩
theorem hostOps0_34_writes : (hostOps0_34 : List (HloOp τ sig (Elt F))).Forall fun op =>
    ∃ y : Ref sig .tc, op.writes = {Proc.devRef (τ := τ) .tc y} ∧ y ∉ [main_arg0, main_arg1, main_arg2, main_arg3, main_arg4, main_arg5] :=
  ⟨⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩⟩
theorem hostOps0_35_fresh : (hostOps0_35 : List (HloOp τ sig (Elt F))).Forall fun op => op.fresh = ∅ :=
  ⟨rfl, rfl⟩
theorem hostOps0_35_writes : (hostOps0_35 : List (HloOp τ sig (Elt F))).Forall fun op =>
    ∃ y : Ref sig .tc, op.writes = {Proc.devRef (τ := τ) .tc y} ∧ y ∉ [main_arg0, main_arg1, main_arg2, main_arg3, main_arg4, main_arg5] :=
  ⟨⟨_, rfl, by decide⟩, ⟨_, rfl, by decide⟩⟩
theorem hostOps0_36_fresh : (hostOps0_36 : List (HloOp τ sig (Elt F))).Forall fun op => op.fresh = ∅ :=
  rfl
theorem hostOps0_36_writes : (hostOps0_36 : List (HloOp τ sig (Elt F))).Forall fun op =>
    ∃ y : Ref sig .tc, op.writes = {Proc.devRef (τ := τ) .tc y} ∧ y ∉ [main_arg0, main_arg1, main_arg2, main_arg3, main_arg4, main_arg5] :=
  ⟨_, rfl, by decide⟩
theorem hostOps0_37_fresh : (hostOps0_37 : List (HloOp τ sig (Elt F))).Forall fun op => op.fresh = ∅ :=
  ⟨rfl, rfl⟩
theorem hostOps0_37_writes : (hostOps0_37 : List (HloOp τ sig (Elt F))).Forall fun op =>
    ∃ y : Ref sig .tc, op.writes = {Proc.devRef (τ := τ) .tc y} ∧ y ∉ [main_arg0, main_arg1, main_arg2, main_arg3, main_arg4, main_arg5] :=
  ⟨⟨_, rfl, by decide⟩, ⟨_, rfl, by decide⟩⟩
theorem hostOps0_38_fresh : (hostOps0_38 : List (HloOp τ sig (Elt F))).Forall fun op => op.fresh = ∅ :=
  rfl
theorem hostOps0_38_writes : (hostOps0_38 : List (HloOp τ sig (Elt F))).Forall fun op =>
    ∃ y : Ref sig .tc, op.writes = {Proc.devRef (τ := τ) .tc y} ∧ y ∉ [main_arg0, main_arg1, main_arg2, main_arg3, main_arg4, main_arg5] :=
  ⟨_, rfl, by decide⟩
theorem hostOps0_39_fresh : (hostOps0_39 : List (HloOp τ sig (Elt F))).Forall fun op => op.fresh = ∅ :=
  ⟨rfl, rfl⟩
theorem hostOps0_39_writes : (hostOps0_39 : List (HloOp τ sig (Elt F))).Forall fun op =>
    ∃ y : Ref sig .tc, op.writes = {Proc.devRef (τ := τ) .tc y} ∧ y ∉ [main_arg0, main_arg1, main_arg2, main_arg3, main_arg4, main_arg5] :=
  ⟨⟨_, rfl, by decide⟩, ⟨_, rfl, by decide⟩⟩
theorem hostOps0_40_fresh : (hostOps0_40 : List (HloOp τ sig (Elt F))).Forall fun op => op.fresh = ∅ :=
  rfl
theorem hostOps0_40_writes : (hostOps0_40 : List (HloOp τ sig (Elt F))).Forall fun op =>
    ∃ y : Ref sig .tc, op.writes = {Proc.devRef (τ := τ) .tc y} ∧ y ∉ [main_arg0, main_arg1, main_arg2, main_arg3, main_arg4, main_arg5] :=
  ⟨_, rfl, by decide⟩
theorem hostOps0_41_fresh : (hostOps0_41 : List (HloOp τ sig (Elt F))).Forall fun op => op.fresh = ∅ :=
  ⟨rfl, rfl⟩
theorem hostOps0_41_writes : (hostOps0_41 : List (HloOp τ sig (Elt F))).Forall fun op =>
    ∃ y : Ref sig .tc, op.writes = {Proc.devRef (τ := τ) .tc y} ∧ y ∉ [main_arg0, main_arg1, main_arg2, main_arg3, main_arg4, main_arg5] :=
  ⟨⟨_, rfl, by decide⟩, ⟨_, rfl, by decide⟩⟩
theorem hostOps0_42_fresh : (hostOps0_42 : List (HloOp τ sig (Elt F))).Forall fun op => op.fresh = ∅ :=
  rfl
theorem hostOps0_42_writes : (hostOps0_42 : List (HloOp τ sig (Elt F))).Forall fun op =>
    ∃ y : Ref sig .tc, op.writes = {Proc.devRef (τ := τ) .tc y} ∧ y ∉ [main_arg0, main_arg1, main_arg2, main_arg3, main_arg4, main_arg5] :=
  ⟨_, rfl, by decide⟩
theorem hostOps0_43_fresh : (hostOps0_43 : List (HloOp τ sig (Elt F))).Forall fun op => op.fresh = ∅ :=
  ⟨rfl, rfl⟩
theorem hostOps0_43_writes : (hostOps0_43 : List (HloOp τ sig (Elt F))).Forall fun op =>
    ∃ y : Ref sig .tc, op.writes = {Proc.devRef (τ := τ) .tc y} ∧ y ∉ [main_arg0, main_arg1, main_arg2, main_arg3, main_arg4, main_arg5] :=
  ⟨⟨_, rfl, by decide⟩, ⟨_, rfl, by decide⟩⟩
theorem hostOps0_44_fresh : (hostOps0_44 : List (HloOp τ sig (Elt F))).Forall fun op => op.fresh = ∅ :=
  rfl
theorem hostOps0_44_writes : (hostOps0_44 : List (HloOp τ sig (Elt F))).Forall fun op =>
    ∃ y : Ref sig .tc, op.writes = {Proc.devRef (τ := τ) .tc y} ∧ y ∉ [main_arg0, main_arg1, main_arg2, main_arg3, main_arg4, main_arg5] :=
  ⟨_, rfl, by decide⟩
theorem hostOps0_45_fresh : (hostOps0_45 : List (HloOp τ sig (Elt F))).Forall fun op => op.fresh = ∅ :=
  ⟨rfl, rfl⟩
theorem hostOps0_45_writes : (hostOps0_45 : List (HloOp τ sig (Elt F))).Forall fun op =>
    ∃ y : Ref sig .tc, op.writes = {Proc.devRef (τ := τ) .tc y} ∧ y ∉ [main_arg0, main_arg1, main_arg2, main_arg3, main_arg4, main_arg5] :=
  ⟨⟨_, rfl, by decide⟩, ⟨_, rfl, by decide⟩⟩
theorem hostOps0_46_fresh : (hostOps0_46 : List (HloOp τ sig (Elt F))).Forall fun op => op.fresh = ∅ :=
  rfl
theorem hostOps0_46_writes : (hostOps0_46 : List (HloOp τ sig (Elt F))).Forall fun op =>
    ∃ y : Ref sig .tc, op.writes = {Proc.devRef (τ := τ) .tc y} ∧ y ∉ [main_arg0, main_arg1, main_arg2, main_arg3, main_arg4, main_arg5] :=
  ⟨_, rfl, by decide⟩
theorem hostOps0_47_fresh : (hostOps0_47 : List (HloOp τ sig (Elt F))).Forall fun op => op.fresh = ∅ :=
  ⟨rfl, rfl⟩
theorem hostOps0_47_writes : (hostOps0_47 : List (HloOp τ sig (Elt F))).Forall fun op =>
    ∃ y : Ref sig .tc, op.writes = {Proc.devRef (τ := τ) .tc y} ∧ y ∉ [main_arg0, main_arg1, main_arg2, main_arg3, main_arg4, main_arg5] :=
  ⟨⟨_, rfl, by decide⟩, ⟨_, rfl, by decide⟩⟩
theorem hostOps0_48_fresh : (hostOps0_48 : List (HloOp τ sig (Elt F))).Forall fun op => op.fresh = ∅ :=
  rfl
theorem hostOps0_48_writes : (hostOps0_48 : List (HloOp τ sig (Elt F))).Forall fun op =>
    ∃ y : Ref sig .tc, op.writes = {Proc.devRef (τ := τ) .tc y} ∧ y ∉ [main_arg0, main_arg1, main_arg2, main_arg3, main_arg4, main_arg5] :=
  ⟨_, rfl, by decide⟩
theorem hostOps0_49_fresh : (hostOps0_49 : List (HloOp τ sig (Elt F))).Forall fun op => op.fresh = ∅ :=
  ⟨rfl, rfl⟩
theorem hostOps0_49_writes : (hostOps0_49 : List (HloOp τ sig (Elt F))).Forall fun op =>
    ∃ y : Ref sig .tc, op.writes = {Proc.devRef (τ := τ) .tc y} ∧ y ∉ [main_arg0, main_arg1, main_arg2, main_arg3, main_arg4, main_arg5] :=
  ⟨⟨_, rfl, by decide⟩, ⟨_, rfl, by decide⟩⟩
theorem hostOps0_50_fresh : (hostOps0_50 : List (HloOp τ sig (Elt F))).Forall fun op => op.fresh = ∅ :=
  rfl
theorem hostOps0_50_writes : (hostOps0_50 : List (HloOp τ sig (Elt F))).Forall fun op =>
    ∃ y : Ref sig .tc, op.writes = {Proc.devRef (τ := τ) .tc y} ∧ y ∉ [main_arg0, main_arg1, main_arg2, main_arg3, main_arg4, main_arg5] :=
  ⟨_, rfl, by decide⟩
theorem hostOps0_51_fresh : (hostOps0_51 : List (HloOp τ sig (Elt F))).Forall fun op => op.fresh = ∅ :=
  ⟨rfl, rfl⟩
theorem hostOps0_51_writes : (hostOps0_51 : List (HloOp τ sig (Elt F))).Forall fun op =>
    ∃ y : Ref sig .tc, op.writes = {Proc.devRef (τ := τ) .tc y} ∧ y ∉ [main_arg0, main_arg1, main_arg2, main_arg3, main_arg4, main_arg5] :=
  ⟨⟨_, rfl, by decide⟩, ⟨_, rfl, by decide⟩⟩
theorem hostOps0_52_fresh : (hostOps0_52 : List (HloOp τ sig (Elt F))).Forall fun op => op.fresh = ∅ :=
  rfl
theorem hostOps0_52_writes : (hostOps0_52 : List (HloOp τ sig (Elt F))).Forall fun op =>
    ∃ y : Ref sig .tc, op.writes = {Proc.devRef (τ := τ) .tc y} ∧ y ∉ [main_arg0, main_arg1, main_arg2, main_arg3, main_arg4, main_arg5] :=
  ⟨_, rfl, by decide⟩
theorem hostOps0_53_fresh : (hostOps0_53 : List (HloOp τ sig (Elt F))).Forall fun op => op.fresh = ∅ :=
  ⟨rfl, rfl⟩
theorem hostOps0_53_writes : (hostOps0_53 : List (HloOp τ sig (Elt F))).Forall fun op =>
    ∃ y : Ref sig .tc, op.writes = {Proc.devRef (τ := τ) .tc y} ∧ y ∉ [main_arg0, main_arg1, main_arg2, main_arg3, main_arg4, main_arg5] :=
  ⟨⟨_, rfl, by decide⟩, ⟨_, rfl, by decide⟩⟩
theorem hostOps0_54_fresh : (hostOps0_54 : List (HloOp τ sig (Elt F))).Forall fun op => op.fresh = ∅ :=
  rfl
theorem hostOps0_54_writes : (hostOps0_54 : List (HloOp τ sig (Elt F))).Forall fun op =>
    ∃ y : Ref sig .tc, op.writes = {Proc.devRef (τ := τ) .tc y} ∧ y ∉ [main_arg0, main_arg1, main_arg2, main_arg3, main_arg4, main_arg5] :=
  ⟨_, rfl, by decide⟩
theorem hostOps0_55_fresh : (hostOps0_55 : List (HloOp τ sig (Elt F))).Forall fun op => op.fresh = ∅ :=
  ⟨rfl, rfl⟩
theorem hostOps0_55_writes : (hostOps0_55 : List (HloOp τ sig (Elt F))).Forall fun op =>
    ∃ y : Ref sig .tc, op.writes = {Proc.devRef (τ := τ) .tc y} ∧ y ∉ [main_arg0, main_arg1, main_arg2, main_arg3, main_arg4, main_arg5] :=
  ⟨⟨_, rfl, by decide⟩, ⟨_, rfl, by decide⟩⟩
theorem hostOps0_56_fresh : (hostOps0_56 : List (HloOp τ sig (Elt F))).Forall fun op => op.fresh = ∅ :=
  rfl
theorem hostOps0_56_writes : (hostOps0_56 : List (HloOp τ sig (Elt F))).Forall fun op =>
    ∃ y : Ref sig .tc, op.writes = {Proc.devRef (τ := τ) .tc y} ∧ y ∉ [main_arg0, main_arg1, main_arg2, main_arg3, main_arg4, main_arg5] :=
  ⟨_, rfl, by decide⟩
theorem hostOps0_57_fresh : (hostOps0_57 : List (HloOp τ sig (Elt F))).Forall fun op => op.fresh = ∅ :=
  ⟨rfl, rfl⟩
theorem hostOps0_57_writes : (hostOps0_57 : List (HloOp τ sig (Elt F))).Forall fun op =>
    ∃ y : Ref sig .tc, op.writes = {Proc.devRef (τ := τ) .tc y} ∧ y ∉ [main_arg0, main_arg1, main_arg2, main_arg3, main_arg4, main_arg5] :=
  ⟨⟨_, rfl, by decide⟩, ⟨_, rfl, by decide⟩⟩
theorem hostOps0_58_fresh : (hostOps0_58 : List (HloOp τ sig (Elt F))).Forall fun op => op.fresh = ∅ :=
  rfl
theorem hostOps0_58_writes : (hostOps0_58 : List (HloOp τ sig (Elt F))).Forall fun op =>
    ∃ y : Ref sig .tc, op.writes = {Proc.devRef (τ := τ) .tc y} ∧ y ∉ [main_arg0, main_arg1, main_arg2, main_arg3, main_arg4, main_arg5] :=
  ⟨_, rfl, by decide⟩
theorem hostOps0_59_fresh : (hostOps0_59 : List (HloOp τ sig (Elt F))).Forall fun op => op.fresh = ∅ :=
  ⟨rfl, rfl⟩
theorem hostOps0_59_writes : (hostOps0_59 : List (HloOp τ sig (Elt F))).Forall fun op =>
    ∃ y : Ref sig .tc, op.writes = {Proc.devRef (τ := τ) .tc y} ∧ y ∉ [main_arg0, main_arg1, main_arg2, main_arg3, main_arg4, main_arg5] :=
  ⟨⟨_, rfl, by decide⟩, ⟨_, rfl, by decide⟩⟩
theorem hostOps0_60_fresh : (hostOps0_60 : List (HloOp τ sig (Elt F))).Forall fun op => op.fresh = ∅ :=
  rfl
theorem hostOps0_60_writes : (hostOps0_60 : List (HloOp τ sig (Elt F))).Forall fun op =>
    ∃ y : Ref sig .tc, op.writes = {Proc.devRef (τ := τ) .tc y} ∧ y ∉ [main_arg0, main_arg1, main_arg2, main_arg3, main_arg4, main_arg5] :=
  ⟨_, rfl, by decide⟩
theorem hostOps0_61_fresh : (hostOps0_61 : List (HloOp τ sig (Elt F))).Forall fun op => op.fresh = ∅ :=
  ⟨rfl, rfl⟩
theorem hostOps0_61_writes : (hostOps0_61 : List (HloOp τ sig (Elt F))).Forall fun op =>
    ∃ y : Ref sig .tc, op.writes = {Proc.devRef (τ := τ) .tc y} ∧ y ∉ [main_arg0, main_arg1, main_arg2, main_arg3, main_arg4, main_arg5] :=
  ⟨⟨_, rfl, by decide⟩, ⟨_, rfl, by decide⟩⟩
theorem hostOps0_62_fresh : (hostOps0_62 : List (HloOp τ sig (Elt F))).Forall fun op => op.fresh = ∅ :=
  rfl
theorem hostOps0_62_writes : (hostOps0_62 : List (HloOp τ sig (Elt F))).Forall fun op =>
    ∃ y : Ref sig .tc, op.writes = {Proc.devRef (τ := τ) .tc y} ∧ y ∉ [main_arg0, main_arg1, main_arg2, main_arg3, main_arg4, main_arg5] :=
  ⟨_, rfl, by decide⟩
theorem hostOps0_63_fresh : (hostOps0_63 : List (HloOp τ sig (Elt F))).Forall fun op => op.fresh = ∅ :=
  ⟨rfl, rfl⟩
theorem hostOps0_63_writes : (hostOps0_63 : List (HloOp τ sig (Elt F))).Forall fun op =>
    ∃ y : Ref sig .tc, op.writes = {Proc.devRef (τ := τ) .tc y} ∧ y ∉ [main_arg0, main_arg1, main_arg2, main_arg3, main_arg4, main_arg5] :=
  ⟨⟨_, rfl, by decide⟩, ⟨_, rfl, by decide⟩⟩
theorem hostOps0_64_fresh : (hostOps0_64 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩
theorem hostOps0_64_writes : (hostOps0_64 : List (HloOp τ sig (Elt F))).Forall fun op =>
    ∃ y : Ref sig .tc, op.writes = {Proc.devRef (τ := τ) .tc y} ∧ y ∉ [main_arg0, main_arg1, main_arg2, main_arg3, main_arg4, main_arg5] :=
  ⟨⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩⟩
theorem hostOps0_65_fresh : (hostOps0_65 : List (HloOp τ sig (Elt F))).Forall fun op => op.fresh = ∅ :=
  ⟨rfl, rfl, rfl, rfl, rfl, rfl⟩
theorem hostOps0_65_writes : (hostOps0_65 : List (HloOp τ sig (Elt F))).Forall fun op =>
    ∃ y : Ref sig .tc, op.writes = {Proc.devRef (τ := τ) .tc y} ∧ y ∉ [main_arg0, main_arg1, main_arg2, main_arg3, main_arg4, main_arg5] :=
  ⟨⟨_, rfl, by decide⟩, ⟨_, rfl, by decide⟩, ⟨_, rfl, by decide⟩, ⟨_, rfl, by decide⟩, ⟨_, rfl, by decide⟩, ⟨_, rfl, by decide⟩⟩
theorem hostOps0_66_fresh : (hostOps0_66 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩
theorem hostOps0_66_writes : (hostOps0_66 : List (HloOp τ sig (Elt F))).Forall fun op =>
    ∃ y : Ref sig .tc, op.writes = {Proc.devRef (τ := τ) .tc y} ∧ y ∉ [main_arg0, main_arg1, main_arg2, main_arg3, main_arg4, main_arg5] :=
  ⟨⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩⟩
theorem hostOps0_67_fresh : (hostOps0_67 : List (HloOp τ sig (Elt F))).Forall fun op => op.fresh = ∅ :=
  ⟨rfl, rfl⟩
theorem hostOps0_67_writes : (hostOps0_67 : List (HloOp τ sig (Elt F))).Forall fun op =>
    ∃ y : Ref sig .tc, op.writes = {Proc.devRef (τ := τ) .tc y} ∧ y ∉ [main_arg0, main_arg1, main_arg2, main_arg3, main_arg4, main_arg5] :=
  ⟨⟨_, rfl, by decide⟩, ⟨_, rfl, by decide⟩⟩
theorem hostOps0_68_fresh : (hostOps0_68 : List (HloOp τ sig (Elt F))).Forall fun op => op.fresh = ∅ :=
  rfl
theorem hostOps0_68_writes : (hostOps0_68 : List (HloOp τ sig (Elt F))).Forall fun op =>
    ∃ y : Ref sig .tc, op.writes = {Proc.devRef (τ := τ) .tc y} ∧ y ∉ [main_arg0, main_arg1, main_arg2, main_arg3, main_arg4, main_arg5] :=
  ⟨_, rfl, by decide⟩
theorem hostOps0_69_fresh : (hostOps0_69 : List (HloOp τ sig (Elt F))).Forall fun op => op.fresh = ∅ :=
  ⟨rfl, rfl⟩
theorem hostOps0_69_writes : (hostOps0_69 : List (HloOp τ sig (Elt F))).Forall fun op =>
    ∃ y : Ref sig .tc, op.writes = {Proc.devRef (τ := τ) .tc y} ∧ y ∉ [main_arg0, main_arg1, main_arg2, main_arg3, main_arg4, main_arg5] :=
  ⟨⟨_, rfl, by decide⟩, ⟨_, rfl, by decide⟩⟩
theorem hostOps0_70_fresh : (hostOps0_70 : List (HloOp τ sig (Elt F))).Forall fun op => op.fresh = ∅ :=
  rfl
theorem hostOps0_70_writes : (hostOps0_70 : List (HloOp τ sig (Elt F))).Forall fun op =>
    ∃ y : Ref sig .tc, op.writes = {Proc.devRef (τ := τ) .tc y} ∧ y ∉ [main_arg0, main_arg1, main_arg2, main_arg3, main_arg4, main_arg5] :=
  ⟨_, rfl, by decide⟩
theorem hostOps0_71_fresh : (hostOps0_71 : List (HloOp τ sig (Elt F))).Forall fun op => op.fresh = ∅ :=
  ⟨rfl, rfl⟩
theorem hostOps0_71_writes : (hostOps0_71 : List (HloOp τ sig (Elt F))).Forall fun op =>
    ∃ y : Ref sig .tc, op.writes = {Proc.devRef (τ := τ) .tc y} ∧ y ∉ [main_arg0, main_arg1, main_arg2, main_arg3, main_arg4, main_arg5] :=
  ⟨⟨_, rfl, by decide⟩, ⟨_, rfl, by decide⟩⟩
theorem hostOps0_72_fresh : (hostOps0_72 : List (HloOp τ sig (Elt F))).Forall fun op => op.fresh = ∅ :=
  rfl
theorem hostOps0_72_writes : (hostOps0_72 : List (HloOp τ sig (Elt F))).Forall fun op =>
    ∃ y : Ref sig .tc, op.writes = {Proc.devRef (τ := τ) .tc y} ∧ y ∉ [main_arg0, main_arg1, main_arg2, main_arg3, main_arg4, main_arg5] :=
  ⟨_, rfl, by decide⟩
theorem hostOps0_73_fresh : (hostOps0_73 : List (HloOp τ sig (Elt F))).Forall fun op => op.fresh = ∅ :=
  ⟨rfl, rfl⟩
theorem hostOps0_73_writes : (hostOps0_73 : List (HloOp τ sig (Elt F))).Forall fun op =>
    ∃ y : Ref sig .tc, op.writes = {Proc.devRef (τ := τ) .tc y} ∧ y ∉ [main_arg0, main_arg1, main_arg2, main_arg3, main_arg4, main_arg5] :=
  ⟨⟨_, rfl, by decide⟩, ⟨_, rfl, by decide⟩⟩
theorem hostOps0_74_fresh : (hostOps0_74 : List (HloOp τ sig (Elt F))).Forall fun op => op.fresh = ∅ :=
  rfl
theorem hostOps0_74_writes : (hostOps0_74 : List (HloOp τ sig (Elt F))).Forall fun op =>
    ∃ y : Ref sig .tc, op.writes = {Proc.devRef (τ := τ) .tc y} ∧ y ∉ [main_arg0, main_arg1, main_arg2, main_arg3, main_arg4, main_arg5] :=
  ⟨_, rfl, by decide⟩
theorem hostOps0_75_fresh : (hostOps0_75 : List (HloOp τ sig (Elt F))).Forall fun op => op.fresh = ∅ :=
  ⟨rfl, rfl⟩
theorem hostOps0_75_writes : (hostOps0_75 : List (HloOp τ sig (Elt F))).Forall fun op =>
    ∃ y : Ref sig .tc, op.writes = {Proc.devRef (τ := τ) .tc y} ∧ y ∉ [main_arg0, main_arg1, main_arg2, main_arg3, main_arg4, main_arg5] :=
  ⟨⟨_, rfl, by decide⟩, ⟨_, rfl, by decide⟩⟩
theorem hostOps0_76_fresh : (hostOps0_76 : List (HloOp τ sig (Elt F))).Forall fun op => op.fresh = ∅ :=
  rfl
theorem hostOps0_76_writes : (hostOps0_76 : List (HloOp τ sig (Elt F))).Forall fun op =>
    ∃ y : Ref sig .tc, op.writes = {Proc.devRef (τ := τ) .tc y} ∧ y ∉ [main_arg0, main_arg1, main_arg2, main_arg3, main_arg4, main_arg5] :=
  ⟨_, rfl, by decide⟩
theorem hostOps0_77_fresh : (hostOps0_77 : List (HloOp τ sig (Elt F))).Forall fun op => op.fresh = ∅ :=
  ⟨rfl, rfl⟩
theorem hostOps0_77_writes : (hostOps0_77 : List (HloOp τ sig (Elt F))).Forall fun op =>
    ∃ y : Ref sig .tc, op.writes = {Proc.devRef (τ := τ) .tc y} ∧ y ∉ [main_arg0, main_arg1, main_arg2, main_arg3, main_arg4, main_arg5] :=
  ⟨⟨_, rfl, by decide⟩, ⟨_, rfl, by decide⟩⟩
theorem hostOps0_78_fresh : (hostOps0_78 : List (HloOp τ sig (Elt F))).Forall fun op => op.fresh = ∅ :=
  rfl
theorem hostOps0_78_writes : (hostOps0_78 : List (HloOp τ sig (Elt F))).Forall fun op =>
    ∃ y : Ref sig .tc, op.writes = {Proc.devRef (τ := τ) .tc y} ∧ y ∉ [main_arg0, main_arg1, main_arg2, main_arg3, main_arg4, main_arg5] :=
  ⟨_, rfl, by decide⟩
theorem hostOps0_79_fresh : (hostOps0_79 : List (HloOp τ sig (Elt F))).Forall fun op => op.fresh = ∅ :=
  ⟨rfl, rfl⟩
theorem hostOps0_79_writes : (hostOps0_79 : List (HloOp τ sig (Elt F))).Forall fun op =>
    ∃ y : Ref sig .tc, op.writes = {Proc.devRef (τ := τ) .tc y} ∧ y ∉ [main_arg0, main_arg1, main_arg2, main_arg3, main_arg4, main_arg5] :=
  ⟨⟨_, rfl, by decide⟩, ⟨_, rfl, by decide⟩⟩
theorem hostOps0_80_fresh : (hostOps0_80 : List (HloOp τ sig (Elt F))).Forall fun op => op.fresh = ∅ :=
  rfl
theorem hostOps0_80_writes : (hostOps0_80 : List (HloOp τ sig (Elt F))).Forall fun op =>
    ∃ y : Ref sig .tc, op.writes = {Proc.devRef (τ := τ) .tc y} ∧ y ∉ [main_arg0, main_arg1, main_arg2, main_arg3, main_arg4, main_arg5] :=
  ⟨_, rfl, by decide⟩
theorem hostOps0_81_fresh : (hostOps0_81 : List (HloOp τ sig (Elt F))).Forall fun op => op.fresh = ∅ :=
  ⟨rfl, rfl⟩
theorem hostOps0_81_writes : (hostOps0_81 : List (HloOp τ sig (Elt F))).Forall fun op =>
    ∃ y : Ref sig .tc, op.writes = {Proc.devRef (τ := τ) .tc y} ∧ y ∉ [main_arg0, main_arg1, main_arg2, main_arg3, main_arg4, main_arg5] :=
  ⟨⟨_, rfl, by decide⟩, ⟨_, rfl, by decide⟩⟩
theorem hostOps0_82_fresh : (hostOps0_82 : List (HloOp τ sig (Elt F))).Forall fun op => op.fresh = ∅ :=
  rfl
theorem hostOps0_82_writes : (hostOps0_82 : List (HloOp τ sig (Elt F))).Forall fun op =>
    ∃ y : Ref sig .tc, op.writes = {Proc.devRef (τ := τ) .tc y} ∧ y ∉ [main_arg0, main_arg1, main_arg2, main_arg3, main_arg4, main_arg5] :=
  ⟨_, rfl, by decide⟩
theorem hostOps0_83_fresh : (hostOps0_83 : List (HloOp τ sig (Elt F))).Forall fun op => op.fresh = ∅ :=
  ⟨rfl, rfl⟩
theorem hostOps0_83_writes : (hostOps0_83 : List (HloOp τ sig (Elt F))).Forall fun op =>
    ∃ y : Ref sig .tc, op.writes = {Proc.devRef (τ := τ) .tc y} ∧ y ∉ [main_arg0, main_arg1, main_arg2, main_arg3, main_arg4, main_arg5] :=
  ⟨⟨_, rfl, by decide⟩, ⟨_, rfl, by decide⟩⟩
theorem hostOps0_84_fresh : (hostOps0_84 : List (HloOp τ sig (Elt F))).Forall fun op => op.fresh = ∅ :=
  rfl
theorem hostOps0_84_writes : (hostOps0_84 : List (HloOp τ sig (Elt F))).Forall fun op =>
    ∃ y : Ref sig .tc, op.writes = {Proc.devRef (τ := τ) .tc y} ∧ y ∉ [main_arg0, main_arg1, main_arg2, main_arg3, main_arg4, main_arg5] :=
  ⟨_, rfl, by decide⟩
theorem hostOps0_85_fresh : (hostOps0_85 : List (HloOp τ sig (Elt F))).Forall fun op => op.fresh = ∅ :=
  ⟨rfl, rfl⟩
theorem hostOps0_85_writes : (hostOps0_85 : List (HloOp τ sig (Elt F))).Forall fun op =>
    ∃ y : Ref sig .tc, op.writes = {Proc.devRef (τ := τ) .tc y} ∧ y ∉ [main_arg0, main_arg1, main_arg2, main_arg3, main_arg4, main_arg5] :=
  ⟨⟨_, rfl, by decide⟩, ⟨_, rfl, by decide⟩⟩
theorem hostOps0_86_fresh : (hostOps0_86 : List (HloOp τ sig (Elt F))).Forall fun op => op.fresh = ∅ :=
  rfl
theorem hostOps0_86_writes : (hostOps0_86 : List (HloOp τ sig (Elt F))).Forall fun op =>
    ∃ y : Ref sig .tc, op.writes = {Proc.devRef (τ := τ) .tc y} ∧ y ∉ [main_arg0, main_arg1, main_arg2, main_arg3, main_arg4, main_arg5] :=
  ⟨_, rfl, by decide⟩
theorem hostOps0_87_fresh : (hostOps0_87 : List (HloOp τ sig (Elt F))).Forall fun op => op.fresh = ∅ :=
  ⟨rfl, rfl⟩
theorem hostOps0_87_writes : (hostOps0_87 : List (HloOp τ sig (Elt F))).Forall fun op =>
    ∃ y : Ref sig .tc, op.writes = {Proc.devRef (τ := τ) .tc y} ∧ y ∉ [main_arg0, main_arg1, main_arg2, main_arg3, main_arg4, main_arg5] :=
  ⟨⟨_, rfl, by decide⟩, ⟨_, rfl, by decide⟩⟩
theorem hostOps0_88_fresh : (hostOps0_88 : List (HloOp τ sig (Elt F))).Forall fun op => op.fresh = ∅ :=
  rfl
theorem hostOps0_88_writes : (hostOps0_88 : List (HloOp τ sig (Elt F))).Forall fun op =>
    ∃ y : Ref sig .tc, op.writes = {Proc.devRef (τ := τ) .tc y} ∧ y ∉ [main_arg0, main_arg1, main_arg2, main_arg3, main_arg4, main_arg5] :=
  ⟨_, rfl, by decide⟩
theorem hostOps0_89_fresh : (hostOps0_89 : List (HloOp τ sig (Elt F))).Forall fun op => op.fresh = ∅ :=
  ⟨rfl, rfl⟩
theorem hostOps0_89_writes : (hostOps0_89 : List (HloOp τ sig (Elt F))).Forall fun op =>
    ∃ y : Ref sig .tc, op.writes = {Proc.devRef (τ := τ) .tc y} ∧ y ∉ [main_arg0, main_arg1, main_arg2, main_arg3, main_arg4, main_arg5] :=
  ⟨⟨_, rfl, by decide⟩, ⟨_, rfl, by decide⟩⟩
theorem hostOps0_90_fresh : (hostOps0_90 : List (HloOp τ sig (Elt F))).Forall fun op => op.fresh = ∅ :=
  rfl
theorem hostOps0_90_writes : (hostOps0_90 : List (HloOp τ sig (Elt F))).Forall fun op =>
    ∃ y : Ref sig .tc, op.writes = {Proc.devRef (τ := τ) .tc y} ∧ y ∉ [main_arg0, main_arg1, main_arg2, main_arg3, main_arg4, main_arg5] :=
  ⟨_, rfl, by decide⟩
theorem hostOps0_91_fresh : (hostOps0_91 : List (HloOp τ sig (Elt F))).Forall fun op => op.fresh = ∅ :=
  ⟨rfl, rfl⟩
theorem hostOps0_91_writes : (hostOps0_91 : List (HloOp τ sig (Elt F))).Forall fun op =>
    ∃ y : Ref sig .tc, op.writes = {Proc.devRef (τ := τ) .tc y} ∧ y ∉ [main_arg0, main_arg1, main_arg2, main_arg3, main_arg4, main_arg5] :=
  ⟨⟨_, rfl, by decide⟩, ⟨_, rfl, by decide⟩⟩
theorem hostOps0_92_fresh : (hostOps0_92 : List (HloOp τ sig (Elt F))).Forall fun op => op.fresh = ∅ :=
  rfl
theorem hostOps0_92_writes : (hostOps0_92 : List (HloOp τ sig (Elt F))).Forall fun op =>
    ∃ y : Ref sig .tc, op.writes = {Proc.devRef (τ := τ) .tc y} ∧ y ∉ [main_arg0, main_arg1, main_arg2, main_arg3, main_arg4, main_arg5] :=
  ⟨_, rfl, by decide⟩
theorem hostOps0_93_fresh : (hostOps0_93 : List (HloOp τ sig (Elt F))).Forall fun op => op.fresh = ∅ :=
  ⟨rfl, rfl⟩
theorem hostOps0_93_writes : (hostOps0_93 : List (HloOp τ sig (Elt F))).Forall fun op =>
    ∃ y : Ref sig .tc, op.writes = {Proc.devRef (τ := τ) .tc y} ∧ y ∉ [main_arg0, main_arg1, main_arg2, main_arg3, main_arg4, main_arg5] :=
  ⟨⟨_, rfl, by decide⟩, ⟨_, rfl, by decide⟩⟩
theorem hostOps0_94_fresh : (hostOps0_94 : List (HloOp τ sig (Elt F))).Forall fun op => op.fresh = ∅ :=
  rfl
theorem hostOps0_94_writes : (hostOps0_94 : List (HloOp τ sig (Elt F))).Forall fun op =>
    ∃ y : Ref sig .tc, op.writes = {Proc.devRef (τ := τ) .tc y} ∧ y ∉ [main_arg0, main_arg1, main_arg2, main_arg3, main_arg4, main_arg5] :=
  ⟨_, rfl, by decide⟩
theorem hostOps0_95_fresh : (hostOps0_95 : List (HloOp τ sig (Elt F))).Forall fun op => op.fresh = ∅ :=
  ⟨rfl, rfl⟩
theorem hostOps0_95_writes : (hostOps0_95 : List (HloOp τ sig (Elt F))).Forall fun op =>
    ∃ y : Ref sig .tc, op.writes = {Proc.devRef (τ := τ) .tc y} ∧ y ∉ [main_arg0, main_arg1, main_arg2, main_arg3, main_arg4, main_arg5] :=
  ⟨⟨_, rfl, by decide⟩, ⟨_, rfl, by decide⟩⟩
theorem hostOps0_96_fresh : (hostOps0_96 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩
theorem hostOps0_96_writes : (hostOps0_96 : List (HloOp τ sig (Elt F))).Forall fun op =>
    ∃ y : Ref sig .tc, op.writes = {Proc.devRef (τ := τ) .tc y} ∧ y ∉ [main_arg0, main_arg1, main_arg2, main_arg3, main_arg4, main_arg5] :=
  ⟨⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩⟩

end Cert.Kernel.Hand

end
-- ==== Proof.K.Host.lean ====
/- The frame of the kernel program around its one region: @main is ninety-seven stretches of host operations, the
   region, and one more stretch. This module states what the arrays hold when the region is entered (the fold of the
   earlier stretches over the launch memory), that @main reduces to the region continued by the last stretch, that
   no host operation writes an argument array, each window's block at a grid point, and how the frame claim's post
   follows from a frame run's post. Everything is at any float model `F`. -/
import proofs.«414534_j76854144795318_3_alg».proof.Proof.K.HostTable
import proofs.«414534_j76854144795318_3_alg».proof.Proof.Gen.Kernel.Launch
import proofs.«414534_j76854144795318_3_alg».proof.Proof.Gen.Kernel.Skeleton
import proofs.«414534_j76854144795318_3_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

-- membership in a rectangle of the arrays' extents recurses once per coordinate of the long axes
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main around the region -/

/-- The stretches of host operations before the region, in program order. -/
abbrev stretches : List (List (HloOp τ sig (Elt F))) :=
  [hostOps0, hostOps0_1, hostOps0_2, hostOps0_3, hostOps0_4, hostOps0_5, hostOps0_6, hostOps0_7, hostOps0_8, hostOps0_9,
   hostOps0_10, hostOps0_11, hostOps0_12, hostOps0_13, hostOps0_14, hostOps0_15, hostOps0_16, hostOps0_17, hostOps0_18, hostOps0_19,
   hostOps0_20, hostOps0_21, hostOps0_22, hostOps0_23, hostOps0_24, hostOps0_25, hostOps0_26, hostOps0_27, hostOps0_28, hostOps0_29,
   hostOps0_30, hostOps0_31, hostOps0_32, hostOps0_33, hostOps0_34, hostOps0_35, hostOps0_36, hostOps0_37, hostOps0_38, hostOps0_39,
   hostOps0_40, hostOps0_41, hostOps0_42, hostOps0_43, hostOps0_44, hostOps0_45, hostOps0_46, hostOps0_47, hostOps0_48, hostOps0_49,
   hostOps0_50, hostOps0_51, hostOps0_52, hostOps0_53, hostOps0_54, hostOps0_55, hostOps0_56, hostOps0_57, hostOps0_58, hostOps0_59,
   hostOps0_60, hostOps0_61, hostOps0_62, hostOps0_63, hostOps0_64, hostOps0_65, hostOps0_66, hostOps0_67, hostOps0_68, hostOps0_69,
   hostOps0_70, hostOps0_71, hostOps0_72, hostOps0_73, hostOps0_74, hostOps0_75, hostOps0_76, hostOps0_77, hostOps0_78, hostOps0_79,
   hostOps0_80, hostOps0_81, hostOps0_82, hostOps0_83, hostOps0_84, hostOps0_85, hostOps0_86, hostOps0_87, hostOps0_88, hostOps0_89,
   hostOps0_90, hostOps0_91, hostOps0_92, hostOps0_93, hostOps0_94, hostOps0_95, hostOps0_96]

/-- Core `c`'s TensorCore buffer contents when the region is entered, as a valuation: the launch memory after every
    host operation before the region, in order. -/
abbrev V0 (c : Dev nD) : Valuation τ sig (Elt F) := StableHlo.after (List.flatten stretches) (fun b => m (c, b))
/-- The same read at a TensorCore reference. -/
abbrev V (c : Dev nD) (b : Ref sig .tc) : Buf (Elt F) ((c : Thread nD τ).loc b) := V0 m c (Proc.devRef .tc b)

/-- Every stretch before the region touches TensorCore references only. -/
theorem stretches_sub : (stretches : List (List (HloOp τ sig (Elt F)))).Forall fun ops => ops.Forall fun op => op.bufs ⊆ StableHlo.tcRefs τ sig :=
  ⟨hostOps0_sub, hostOps0_1_sub, hostOps0_2_sub, hostOps0_3_sub, hostOps0_4_sub, hostOps0_5_sub, hostOps0_6_sub, hostOps0_7_sub, hostOps0_8_sub, hostOps0_9_sub,
   hostOps0_10_sub, hostOps0_11_sub, hostOps0_12_sub, hostOps0_13_sub, hostOps0_14_sub, hostOps0_15_sub, hostOps0_16_sub, hostOps0_17_sub, hostOps0_18_sub, hostOps0_19_sub,
   hostOps0_20_sub, hostOps0_21_sub, hostOps0_22_sub, hostOps0_23_sub, hostOps0_24_sub, hostOps0_25_sub, hostOps0_26_sub, hostOps0_27_sub, hostOps0_28_sub, hostOps0_29_sub,
   hostOps0_30_sub, hostOps0_31_sub, hostOps0_32_sub, hostOps0_33_sub, hostOps0_34_sub, hostOps0_35_sub, hostOps0_36_sub, hostOps0_37_sub, hostOps0_38_sub, hostOps0_39_sub,
   hostOps0_40_sub, hostOps0_41_sub, hostOps0_42_sub, hostOps0_43_sub, hostOps0_44_sub, hostOps0_45_sub, hostOps0_46_sub, hostOps0_47_sub, hostOps0_48_sub, hostOps0_49_sub,
   hostOps0_50_sub, hostOps0_51_sub, hostOps0_52_sub, hostOps0_53_sub, hostOps0_54_sub, hostOps0_55_sub, hostOps0_56_sub, hostOps0_57_sub, hostOps0_58_sub, hostOps0_59_sub,
   hostOps0_60_sub, hostOps0_61_sub, hostOps0_62_sub, hostOps0_63_sub, hostOps0_64_sub, hostOps0_65_sub, hostOps0_66_sub, hostOps0_67_sub, hostOps0_68_sub, hostOps0_69_sub,
   hostOps0_70_sub, hostOps0_71_sub, hostOps0_72_sub, hostOps0_73_sub, hostOps0_74_sub, hostOps0_75_sub, hostOps0_76_sub, hostOps0_77_sub, hostOps0_78_sub, hostOps0_79_sub,
   hostOps0_80_sub, hostOps0_81_sub, hostOps0_82_sub, hostOps0_83_sub, hostOps0_84_sub, hostOps0_85_sub, hostOps0_86_sub, hostOps0_87_sub, hostOps0_88_sub, hostOps0_89_sub,
   hostOps0_90_sub, hostOps0_91_sub, hostOps0_92_sub, hostOps0_93_sub, hostOps0_94_sub, hostOps0_95_sub, hostOps0_96_sub⟩
/-- And allocates nothing. -/
theorem stretches_fresh : (stretches : List (List (HloOp τ sig (Elt F)))).Forall fun ops => ops.Forall fun op => op.fresh = ∅ :=
  ⟨hostOps0_fresh, hostOps0_1_fresh, hostOps0_2_fresh, hostOps0_3_fresh, hostOps0_4_fresh, hostOps0_5_fresh, hostOps0_6_fresh, hostOps0_7_fresh, hostOps0_8_fresh, hostOps0_9_fresh,
   hostOps0_10_fresh, hostOps0_11_fresh, hostOps0_12_fresh, hostOps0_13_fresh, hostOps0_14_fresh, hostOps0_15_fresh, hostOps0_16_fresh, hostOps0_17_fresh, hostOps0_18_fresh, hostOps0_19_fresh,
   hostOps0_20_fresh, hostOps0_21_fresh, hostOps0_22_fresh, hostOps0_23_fresh, hostOps0_24_fresh, hostOps0_25_fresh, hostOps0_26_fresh, hostOps0_27_fresh, hostOps0_28_fresh, hostOps0_29_fresh,
   hostOps0_30_fresh, hostOps0_31_fresh, hostOps0_32_fresh, hostOps0_33_fresh, hostOps0_34_fresh, hostOps0_35_fresh, hostOps0_36_fresh, hostOps0_37_fresh, hostOps0_38_fresh, hostOps0_39_fresh,
   hostOps0_40_fresh, hostOps0_41_fresh, hostOps0_42_fresh, hostOps0_43_fresh, hostOps0_44_fresh, hostOps0_45_fresh, hostOps0_46_fresh, hostOps0_47_fresh, hostOps0_48_fresh, hostOps0_49_fresh,
   hostOps0_50_fresh, hostOps0_51_fresh, hostOps0_52_fresh, hostOps0_53_fresh, hostOps0_54_fresh, hostOps0_55_fresh, hostOps0_56_fresh, hostOps0_57_fresh, hostOps0_58_fresh, hostOps0_59_fresh,
   hostOps0_60_fresh, hostOps0_61_fresh, hostOps0_62_fresh, hostOps0_63_fresh, hostOps0_64_fresh, hostOps0_65_fresh, hostOps0_66_fresh, hostOps0_67_fresh, hostOps0_68_fresh, hostOps0_69_fresh,
   hostOps0_70_fresh, hostOps0_71_fresh, hostOps0_72_fresh, hostOps0_73_fresh, hostOps0_74_fresh, hostOps0_75_fresh, hostOps0_76_fresh, hostOps0_77_fresh, hostOps0_78_fresh, hostOps0_79_fresh,
   hostOps0_80_fresh, hostOps0_81_fresh, hostOps0_82_fresh, hostOps0_83_fresh, hostOps0_84_fresh, hostOps0_85_fresh, hostOps0_86_fresh, hostOps0_87_fresh, hostOps0_88_fresh, hostOps0_89_fresh,
   hostOps0_90_fresh, hostOps0_91_fresh, hostOps0_92_fresh, hostOps0_93_fresh, hostOps0_94_fresh, hostOps0_95_fresh, hostOps0_96_fresh⟩

/-- @main around the region, at any variants `𝒱₀`: the host stretches before it, the region, the host stretch after it:
    it reduces to the region CONTINUED BY the later stretch, entered at the contents `V`. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main stretches [hostOps1] stretches_sub stretches_fresh main_chain

/-! ### The stretch after the region -/

/-- The argument arrays. -/
abbrev argRefs : List (Ref sig .tc) := [main_arg0, main_arg1, main_arg2, main_arg3, main_arg4, main_arg5]

/-- No operation of the stretch after the region allocates. -/
theorem hostOps1_fresh : (hostOps1 : List (HloOp τ sig (Elt F))).Forall fun op => op.fresh = ∅ :=
  ⟨rfl, rfl, rfl, rfl, rfl⟩
/-- Each writes exactly one buffer, which is no argument array and no window's array. -/
theorem hostOps1_writes : (hostOps1 : List (HloOp τ sig (Elt F))).Forall fun op =>
    ∃ y : Ref sig .tc, op.writes = {Proc.devRef (τ := τ) .tc y} ∧ y ∉ argRefs ∧ ∀ w, Pipeline.arrRef spec0 w ≠ y :=
  ⟨⟨_, rfl, by decide, by decide⟩, ⟨_, rfl, by decide, by decide⟩, ⟨_, rfl, by decide, by decide⟩, ⟨_, rfl, by decide, by decide⟩,
   ⟨_, rfl, by decide, by decide⟩⟩

/-- The lines after the region touch the pipeline's arrays and the bypassing buffers only (each operation's buffers are
    unscoped TensorCore references, and with nothing prefetched every such reference is one or the other). -/
theorem sfx_sub : ∀ ops ∈ ([hostOps1] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl
  · exact Pipeline.sub_ucRefs op ((List.forall_iff_forall_mem.mp hostOps1_sub) op hop)
/-- They allocate nothing. -/
theorem sfx_fresh : ∀ ops ∈ ([hostOps1] : List (List (HloOp τ sig (Elt F)))), ∀ op ∈ ops, op.fresh = ∅ := by
  intro ops hops op hop
  simp only [List.mem_cons, List.mem_nil_iff, or_false] at hops
  rcases hops with rfl
  · exact (List.forall_iff_forall_mem.mp hostOps1_fresh) op hop
/-- And write no array of the pipeline (each writes only its own result buffer, which is no array). -/
theorem sfx_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl
  · obtain ⟨y, hw, -, hy⟩ := (List.forall_iff_forall_mem.mp hostOps1_writes) op hop
    intro w h
    rw [hw, Finset.mem_singleton] at h
    exact hy w (Proc.devRef_injective _ h)

/-! ### No host operation writes an argument array -/

/-- An operation keeps the arguments: it writes none of their arrays. -/
def Keeps (op : HloOp τ sig (Elt F)) : Prop := ∀ r ∈ argRefs, Proc.devRef (τ := τ) .tc r ∉ op.writes

/-- An operation that writes one buffer, which is no argument's, keeps the arguments. -/
theorem keeps_of_writes {op : HloOp τ sig (Elt F)}
    (h : ∃ y : Ref sig .tc, op.writes = {Proc.devRef (τ := τ) .tc y} ∧ y ∉ argRefs) : Keeps op := by
  obtain ⟨y, hw, hy⟩ := h
  intro r hr hm
  rw [hw, Finset.mem_singleton] at hm
  exact hy (Proc.devRef_injective _ hm ▸ hr)

/-- Every operation of every stretch before the region writes exactly one buffer, which is no argument array (the table
    of the stretches, conjoined in order). -/
theorem stretches_writes : (stretches : List (List (HloOp τ sig (Elt F)))).Forall fun ops => ops.Forall fun op =>
    ∃ y : Ref sig .tc, op.writes = {Proc.devRef (τ := τ) .tc y} ∧ y ∉ argRefs :=
  ⟨hostOps0_writes, hostOps0_1_writes, hostOps0_2_writes, hostOps0_3_writes, hostOps0_4_writes, hostOps0_5_writes, hostOps0_6_writes, hostOps0_7_writes, hostOps0_8_writes, hostOps0_9_writes,
   hostOps0_10_writes, hostOps0_11_writes, hostOps0_12_writes, hostOps0_13_writes, hostOps0_14_writes, hostOps0_15_writes, hostOps0_16_writes, hostOps0_17_writes, hostOps0_18_writes, hostOps0_19_writes,
   hostOps0_20_writes, hostOps0_21_writes, hostOps0_22_writes, hostOps0_23_writes, hostOps0_24_writes, hostOps0_25_writes, hostOps0_26_writes, hostOps0_27_writes, hostOps0_28_writes, hostOps0_29_writes,
   hostOps0_30_writes, hostOps0_31_writes, hostOps0_32_writes, hostOps0_33_writes, hostOps0_34_writes, hostOps0_35_writes, hostOps0_36_writes, hostOps0_37_writes, hostOps0_38_writes, hostOps0_39_writes,
   hostOps0_40_writes, hostOps0_41_writes, hostOps0_42_writes, hostOps0_43_writes, hostOps0_44_writes, hostOps0_45_writes, hostOps0_46_writes, hostOps0_47_writes, hostOps0_48_writes, hostOps0_49_writes,
   hostOps0_50_writes, hostOps0_51_writes, hostOps0_52_writes, hostOps0_53_writes, hostOps0_54_writes, hostOps0_55_writes, hostOps0_56_writes, hostOps0_57_writes, hostOps0_58_writes, hostOps0_59_writes,
   hostOps0_60_writes, hostOps0_61_writes, hostOps0_62_writes, hostOps0_63_writes, hostOps0_64_writes, hostOps0_65_writes, hostOps0_66_writes, hostOps0_67_writes, hostOps0_68_writes, hostOps0_69_writes,
   hostOps0_70_writes, hostOps0_71_writes, hostOps0_72_writes, hostOps0_73_writes, hostOps0_74_writes, hostOps0_75_writes, hostOps0_76_writes, hostOps0_77_writes, hostOps0_78_writes, hostOps0_79_writes,
   hostOps0_80_writes, hostOps0_81_writes, hostOps0_82_writes, hostOps0_83_writes, hostOps0_84_writes, hostOps0_85_writes, hostOps0_86_writes, hostOps0_87_writes, hostOps0_88_writes, hostOps0_89_writes,
   hostOps0_90_writes, hostOps0_91_writes, hostOps0_92_writes, hostOps0_93_writes, hostOps0_94_writes, hostOps0_95_writes, hostOps0_96_writes⟩

/-- No host operation before the region writes an argument array. -/
theorem prefix_keeps : ∀ op ∈ List.flatten (stretches : List (List (HloOp τ sig (Elt F)))), Keeps op := fun op hop => by
  obtain ⟨ops, hops, hop⟩ := List.mem_flatten.mp hop
  exact keeps_of_writes (List.forall_iff_forall_mem.mp (List.forall_iff_forall_mem.mp stretches_writes ops hops) op hop)

/-- No host operation after the region writes an argument array. -/
theorem suffix_keeps : ∀ op ∈ List.flatten ([hostOps1] : List (List (HloOp τ sig (Elt F)))), Keeps op := fun op hop => by
  obtain ⟨ops, hops, hop⟩ := List.mem_flatten.mp hop
  simp only [List.mem_cons, List.mem_nil_iff, or_false] at hops
  rcases hops with rfl
  obtain ⟨y, hw, hy, -⟩ := List.forall_iff_forall_mem.mp hostOps1_writes op hop
  exact keeps_of_writes ⟨y, hw, hy⟩

/-- No host operation before the region writes an argument array: the region finds it as launched. -/
theorem V_of_arg (c : Dev nD) (r : Ref sig .tc) (hr : r ∈ argRefs) : V m c r = m ((c : Thread nD τ).loc r) :=
  StableHlo.after_of_forall_not_mem (b := Proc.devRef .tc r) _ _ fun op hop => prefix_keeps op hop r hr

/-- No host operation after the region writes an argument array, and it is no window's array (`harr`): it ends as
    launched. -/
theorem W_of_arg (dats : (p : Fin _) → (c : Dev nD) → Dat τ (Elt F) Unit ℕ (UR sig nD τ) ℕ (cfgs p) c) (c : Dev nD)
    (r : Ref sig .tc) (hr : r ∈ argRefs) (harr : ∀ w, Pipeline.arrRef spec0 w ≠ r) :
    Pipeline.afterTail₀ cfgs dats 0 (V0 m) [hostOps1] c r = m ((c : Thread nD τ).loc r) := by
  unfold Pipeline.afterTail₀
  rw [StableHlo.after_of_forall_not_mem (b := Proc.devRef .tc r) _ _ (fun op hop => suffix_keeps op hop r hr),
    Pipeline.withArrays_of_ne _ c (V0 m c) _ r harr]
  exact V_of_arg m c r hr

theorem V_main_arg0 (c : Dev nD) : V m c main_arg0 = m ((c : Thread nD τ).loc main_arg0) := V_of_arg m c main_arg0 (by decide)
theorem V_main_arg1 (c : Dev nD) : V m c main_arg1 = m ((c : Thread nD τ).loc main_arg1) := V_of_arg m c main_arg1 (by decide)
theorem V_main_arg2 (c : Dev nD) : V m c main_arg2 = m ((c : Thread nD τ).loc main_arg2) := V_of_arg m c main_arg2 (by decide)
theorem V_main_arg3 (c : Dev nD) : V m c main_arg3 = m ((c : Thread nD τ).loc main_arg3) := V_of_arg m c main_arg3 (by decide)
theorem V_main_arg4 (c : Dev nD) : V m c main_arg4 = m ((c : Thread nD τ).loc main_arg4) := V_of_arg m c main_arg4 (by decide)
theorem V_main_arg5 (c : Dev nD) : V m c main_arg5 = m ((c : Thread nD τ).loc main_arg5) := V_of_arg m c main_arg5 (by decide)

theorem W_main_arg0 (dats : (p : Fin _) → (c : Dev nD) → Dat τ (Elt F) Unit ℕ (UR sig nD τ) ℕ (cfgs p) c) (c : Dev nD) :
    Pipeline.afterTail₀ cfgs dats 0 (V0 m) [hostOps1] c main_arg0 = m ((c : Thread nD τ).loc main_arg0) :=
  W_of_arg m dats c main_arg0 (by decide) (by decide)
theorem W_main_arg1 (dats : (p : Fin _) → (c : Dev nD) → Dat τ (Elt F) Unit ℕ (UR sig nD τ) ℕ (cfgs p) c) (c : Dev nD) :
    Pipeline.afterTail₀ cfgs dats 0 (V0 m) [hostOps1] c main_arg1 = m ((c : Thread nD τ).loc main_arg1) :=
  W_of_arg m dats c main_arg1 (by decide) (by decide)
theorem W_main_arg2 (dats : (p : Fin _) → (c : Dev nD) → Dat τ (Elt F) Unit ℕ (UR sig nD τ) ℕ (cfgs p) c) (c : Dev nD) :
    Pipeline.afterTail₀ cfgs dats 0 (V0 m) [hostOps1] c main_arg2 = m ((c : Thread nD τ).loc main_arg2) :=
  W_of_arg m dats c main_arg2 (by decide) (by decide)
theorem W_main_arg3 (dats : (p : Fin _) → (c : Dev nD) → Dat τ (Elt F) Unit ℕ (UR sig nD τ) ℕ (cfgs p) c) (c : Dev nD) :
    Pipeline.afterTail₀ cfgs dats 0 (V0 m) [hostOps1] c main_arg3 = m ((c : Thread nD τ).loc main_arg3) :=
  W_of_arg m dats c main_arg3 (by decide) (by decide)
theorem W_main_arg4 (dats : (p : Fin _) → (c : Dev nD) → Dat τ (Elt F) Unit ℕ (UR sig nD τ) ℕ (cfgs p) c) (c : Dev nD) :
    Pipeline.afterTail₀ cfgs dats 0 (V0 m) [hostOps1] c main_arg4 = m ((c : Thread nD τ).loc main_arg4) :=
  W_of_arg m dats c main_arg4 (by decide) (by decide)
theorem W_main_arg5 (dats : (p : Fin _) → (c : Dev nD) → Dat τ (Elt F) Unit ℕ (UR sig nD τ) ℕ (cfgs p) c) (c : Dev nD) :
    Pipeline.afterTail₀ cfgs dats 0 (V0 m) [hostOps1] c main_arg5 = m ((c : Thread nD τ).loc main_arg5) :=
  W_of_arg m dats c main_arg5 (by decide) (by decide)

/-! ## The windows' blocks -/

/-- Window `w`'s block at point `t`, read off its array as the region finds it (`V`). -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-! Each INPUT window's current staging buffer holds its block at every point, fetched there or not, for ANY proof data
    whose array is `V`'s (`hA`) and whose body leaves the block in place (`hafter`): where the pipeline does not fetch, the
    block index has not moved and the buffer still holds the previous point's block, which is this point's; every window
    is uncut and never idle. One statement per input window, 0 to 26, each with the same proof. -/

theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
theorem before0_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
theorem before0_5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
theorem before0_6_of {c : Dev nD} (dat : Dat τ (Elt F) Unit ℕ (UR sig nD τ) ℕ cfg0 c) (hA : dat.A 6 = V m c (Pipeline.arrRef spec0 6))
    (hafter : ∀ t, dat.after 6 t = iblk m c 6 t) (t : Fin cfg0.N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)
theorem before0_7_of {c : Dev nD} (dat : Dat τ (Elt F) Unit ℕ (UR sig nD τ) ℕ cfg0 c) (hA : dat.A 7 = V m c (Pipeline.arrRef spec0 7))
    (hafter : ∀ t, dat.after 7 t = iblk m c 7 t) (t : Fin cfg0.N) (d) : dat.before 7 t d = iblk m c 7 t :=
  (dat.before_in_eq_fetched 7 rfl (fun _ => rfl) (fun _ _ _ => rfl) (fun t => by rw [hafter]; unfold Dat.blockOf iblk; rw [hA]; try rfl) t d).trans
    (by unfold Dat.fetched Dat.blockOf iblk; rw [hA]; try rfl)
theorem before0_8_of {c : Dev nD} (dat : Dat τ (Elt F) Unit ℕ (UR sig nD τ) ℕ cfg0 c) (hA : dat.A 8 = V m c (Pipeline.arrRef spec0 8))
    (hafter : ∀ t, dat.after 8 t = iblk m c 8 t) (t : Fin cfg0.N) (d) : dat.before 8 t d = iblk m c 8 t :=
  (dat.before_in_eq_fetched 8 rfl (fun _ => rfl) (fun _ _ _ => rfl) (fun t => by rw [hafter]; unfold Dat.blockOf iblk; rw [hA]; try rfl) t d).trans
    (by unfold Dat.fetched Dat.blockOf iblk; rw [hA]; try rfl)
theorem before0_9_of {c : Dev nD} (dat : Dat τ (Elt F) Unit ℕ (UR sig nD τ) ℕ cfg0 c) (hA : dat.A 9 = V m c (Pipeline.arrRef spec0 9))
    (hafter : ∀ t, dat.after 9 t = iblk m c 9 t) (t : Fin cfg0.N) (d) : dat.before 9 t d = iblk m c 9 t :=
  (dat.before_in_eq_fetched 9 rfl (fun _ => rfl) (fun _ _ _ => rfl) (fun t => by rw [hafter]; unfold Dat.blockOf iblk; rw [hA]; try rfl) t d).trans
    (by unfold Dat.fetched Dat.blockOf iblk; rw [hA]; try rfl)
theorem before0_10_of {c : Dev nD} (dat : Dat τ (Elt F) Unit ℕ (UR sig nD τ) ℕ cfg0 c) (hA : dat.A 10 = V m c (Pipeline.arrRef spec0 10))
    (hafter : ∀ t, dat.after 10 t = iblk m c 10 t) (t : Fin cfg0.N) (d) : dat.before 10 t d = iblk m c 10 t :=
  (dat.before_in_eq_fetched 10 rfl (fun _ => rfl) (fun _ _ _ => rfl) (fun t => by rw [hafter]; unfold Dat.blockOf iblk; rw [hA]; try rfl) t d).trans
    (by unfold Dat.fetched Dat.blockOf iblk; rw [hA]; try rfl)
theorem before0_11_of {c : Dev nD} (dat : Dat τ (Elt F) Unit ℕ (UR sig nD τ) ℕ cfg0 c) (hA : dat.A 11 = V m c (Pipeline.arrRef spec0 11))
    (hafter : ∀ t, dat.after 11 t = iblk m c 11 t) (t : Fin cfg0.N) (d) : dat.before 11 t d = iblk m c 11 t :=
  (dat.before_in_eq_fetched 11 rfl (fun _ => rfl) (fun _ _ _ => rfl) (fun t => by rw [hafter]; unfold Dat.blockOf iblk; rw [hA]; try rfl) t d).trans
    (by unfold Dat.fetched Dat.blockOf iblk; rw [hA]; try rfl)
theorem before0_12_of {c : Dev nD} (dat : Dat τ (Elt F) Unit ℕ (UR sig nD τ) ℕ cfg0 c) (hA : dat.A 12 = V m c (Pipeline.arrRef spec0 12))
    (hafter : ∀ t, dat.after 12 t = iblk m c 12 t) (t : Fin cfg0.N) (d) : dat.before 12 t d = iblk m c 12 t :=
  (dat.before_in_eq_fetched 12 rfl (fun _ => rfl) (fun _ _ _ => rfl) (fun t => by rw [hafter]; unfold Dat.blockOf iblk; rw [hA]; try rfl) t d).trans
    (by unfold Dat.fetched Dat.blockOf iblk; rw [hA]; try rfl)
theorem before0_13_of {c : Dev nD} (dat : Dat τ (Elt F) Unit ℕ (UR sig nD τ) ℕ cfg0 c) (hA : dat.A 13 = V m c (Pipeline.arrRef spec0 13))
    (hafter : ∀ t, dat.after 13 t = iblk m c 13 t) (t : Fin cfg0.N) (d) : dat.before 13 t d = iblk m c 13 t :=
  (dat.before_in_eq_fetched 13 rfl (fun _ => rfl) (fun _ _ _ => rfl) (fun t => by rw [hafter]; unfold Dat.blockOf iblk; rw [hA]; try rfl) t d).trans
    (by unfold Dat.fetched Dat.blockOf iblk; rw [hA]; try rfl)
theorem before0_14_of {c : Dev nD} (dat : Dat τ (Elt F) Unit ℕ (UR sig nD τ) ℕ cfg0 c) (hA : dat.A 14 = V m c (Pipeline.arrRef spec0 14))
    (hafter : ∀ t, dat.after 14 t = iblk m c 14 t) (t : Fin cfg0.N) (d) : dat.before 14 t d = iblk m c 14 t :=
  (dat.before_in_eq_fetched 14 rfl (fun _ => rfl) (fun _ _ _ => rfl) (fun t => by rw [hafter]; unfold Dat.blockOf iblk; rw [hA]; try rfl) t d).trans
    (by unfold Dat.fetched Dat.blockOf iblk; rw [hA]; try rfl)
theorem before0_15_of {c : Dev nD} (dat : Dat τ (Elt F) Unit ℕ (UR sig nD τ) ℕ cfg0 c) (hA : dat.A 15 = V m c (Pipeline.arrRef spec0 15))
    (hafter : ∀ t, dat.after 15 t = iblk m c 15 t) (t : Fin cfg0.N) (d) : dat.before 15 t d = iblk m c 15 t :=
  (dat.before_in_eq_fetched 15 rfl (fun _ => rfl) (fun _ _ _ => rfl) (fun t => by rw [hafter]; unfold Dat.blockOf iblk; rw [hA]; try rfl) t d).trans
    (by unfold Dat.fetched Dat.blockOf iblk; rw [hA]; try rfl)
theorem before0_16_of {c : Dev nD} (dat : Dat τ (Elt F) Unit ℕ (UR sig nD τ) ℕ cfg0 c) (hA : dat.A 16 = V m c (Pipeline.arrRef spec0 16))
    (hafter : ∀ t, dat.after 16 t = iblk m c 16 t) (t : Fin cfg0.N) (d) : dat.before 16 t d = iblk m c 16 t :=
  (dat.before_in_eq_fetched 16 rfl (fun _ => rfl) (fun _ _ _ => rfl) (fun t => by rw [hafter]; unfold Dat.blockOf iblk; rw [hA]; try rfl) t d).trans
    (by unfold Dat.fetched Dat.blockOf iblk; rw [hA]; try rfl)
theorem before0_17_of {c : Dev nD} (dat : Dat τ (Elt F) Unit ℕ (UR sig nD τ) ℕ cfg0 c) (hA : dat.A 17 = V m c (Pipeline.arrRef spec0 17))
    (hafter : ∀ t, dat.after 17 t = iblk m c 17 t) (t : Fin cfg0.N) (d) : dat.before 17 t d = iblk m c 17 t :=
  (dat.before_in_eq_fetched 17 rfl (fun _ => rfl) (fun _ _ _ => rfl) (fun t => by rw [hafter]; unfold Dat.blockOf iblk; rw [hA]; try rfl) t d).trans
    (by unfold Dat.fetched Dat.blockOf iblk; rw [hA]; try rfl)
theorem before0_18_of {c : Dev nD} (dat : Dat τ (Elt F) Unit ℕ (UR sig nD τ) ℕ cfg0 c) (hA : dat.A 18 = V m c (Pipeline.arrRef spec0 18))
    (hafter : ∀ t, dat.after 18 t = iblk m c 18 t) (t : Fin cfg0.N) (d) : dat.before 18 t d = iblk m c 18 t :=
  (dat.before_in_eq_fetched 18 rfl (fun _ => rfl) (fun _ _ _ => rfl) (fun t => by rw [hafter]; unfold Dat.blockOf iblk; rw [hA]; try rfl) t d).trans
    (by unfold Dat.fetched Dat.blockOf iblk; rw [hA]; try rfl)
theorem before0_19_of {c : Dev nD} (dat : Dat τ (Elt F) Unit ℕ (UR sig nD τ) ℕ cfg0 c) (hA : dat.A 19 = V m c (Pipeline.arrRef spec0 19))
    (hafter : ∀ t, dat.after 19 t = iblk m c 19 t) (t : Fin cfg0.N) (d) : dat.before 19 t d = iblk m c 19 t :=
  (dat.before_in_eq_fetched 19 rfl (fun _ => rfl) (fun _ _ _ => rfl) (fun t => by rw [hafter]; unfold Dat.blockOf iblk; rw [hA]; try rfl) t d).trans
    (by unfold Dat.fetched Dat.blockOf iblk; rw [hA]; try rfl)
theorem before0_20_of {c : Dev nD} (dat : Dat τ (Elt F) Unit ℕ (UR sig nD τ) ℕ cfg0 c) (hA : dat.A 20 = V m c (Pipeline.arrRef spec0 20))
    (hafter : ∀ t, dat.after 20 t = iblk m c 20 t) (t : Fin cfg0.N) (d) : dat.before 20 t d = iblk m c 20 t :=
  (dat.before_in_eq_fetched 20 rfl (fun _ => rfl) (fun _ _ _ => rfl) (fun t => by rw [hafter]; unfold Dat.blockOf iblk; rw [hA]; try rfl) t d).trans
    (by unfold Dat.fetched Dat.blockOf iblk; rw [hA]; try rfl)
theorem before0_21_of {c : Dev nD} (dat : Dat τ (Elt F) Unit ℕ (UR sig nD τ) ℕ cfg0 c) (hA : dat.A 21 = V m c (Pipeline.arrRef spec0 21))
    (hafter : ∀ t, dat.after 21 t = iblk m c 21 t) (t : Fin cfg0.N) (d) : dat.before 21 t d = iblk m c 21 t :=
  (dat.before_in_eq_fetched 21 rfl (fun _ => rfl) (fun _ _ _ => rfl) (fun t => by rw [hafter]; unfold Dat.blockOf iblk; rw [hA]; try rfl) t d).trans
    (by unfold Dat.fetched Dat.blockOf iblk; rw [hA]; try rfl)
theorem before0_22_of {c : Dev nD} (dat : Dat τ (Elt F) Unit ℕ (UR sig nD τ) ℕ cfg0 c) (hA : dat.A 22 = V m c (Pipeline.arrRef spec0 22))
    (hafter : ∀ t, dat.after 22 t = iblk m c 22 t) (t : Fin cfg0.N) (d) : dat.before 22 t d = iblk m c 22 t :=
  (dat.before_in_eq_fetched 22 rfl (fun _ => rfl) (fun _ _ _ => rfl) (fun t => by rw [hafter]; unfold Dat.blockOf iblk; rw [hA]; try rfl) t d).trans
    (by unfold Dat.fetched Dat.blockOf iblk; rw [hA]; try rfl)
theorem before0_23_of {c : Dev nD} (dat : Dat τ (Elt F) Unit ℕ (UR sig nD τ) ℕ cfg0 c) (hA : dat.A 23 = V m c (Pipeline.arrRef spec0 23))
    (hafter : ∀ t, dat.after 23 t = iblk m c 23 t) (t : Fin cfg0.N) (d) : dat.before 23 t d = iblk m c 23 t :=
  (dat.before_in_eq_fetched 23 rfl (fun _ => rfl) (fun _ _ _ => rfl) (fun t => by rw [hafter]; unfold Dat.blockOf iblk; rw [hA]; try rfl) t d).trans
    (by unfold Dat.fetched Dat.blockOf iblk; rw [hA]; try rfl)
theorem before0_24_of {c : Dev nD} (dat : Dat τ (Elt F) Unit ℕ (UR sig nD τ) ℕ cfg0 c) (hA : dat.A 24 = V m c (Pipeline.arrRef spec0 24))
    (hafter : ∀ t, dat.after 24 t = iblk m c 24 t) (t : Fin cfg0.N) (d) : dat.before 24 t d = iblk m c 24 t :=
  (dat.before_in_eq_fetched 24 rfl (fun _ => rfl) (fun _ _ _ => rfl) (fun t => by rw [hafter]; unfold Dat.blockOf iblk; rw [hA]; try rfl) t d).trans
    (by unfold Dat.fetched Dat.blockOf iblk; rw [hA]; try rfl)
theorem before0_25_of {c : Dev nD} (dat : Dat τ (Elt F) Unit ℕ (UR sig nD τ) ℕ cfg0 c) (hA : dat.A 25 = V m c (Pipeline.arrRef spec0 25))
    (hafter : ∀ t, dat.after 25 t = iblk m c 25 t) (t : Fin cfg0.N) (d) : dat.before 25 t d = iblk m c 25 t :=
  (dat.before_in_eq_fetched 25 rfl (fun _ => rfl) (fun _ _ _ => rfl) (fun t => by rw [hafter]; unfold Dat.blockOf iblk; rw [hA]; try rfl) t d).trans
    (by unfold Dat.fetched Dat.blockOf iblk; rw [hA]; try rfl)
theorem before0_26_of {c : Dev nD} (dat : Dat τ (Elt F) Unit ℕ (UR sig nD τ) ℕ cfg0 c) (hA : dat.A 26 = V m c (Pipeline.arrRef spec0 26))
    (hafter : ∀ t, dat.after 26 t = iblk m c 26 t) (t : Fin cfg0.N) (d) : dat.before 26 t d = iblk m c 26 t :=
  (dat.before_in_eq_fetched 26 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

/-- THE FRAME from a frame run: for any proof data whose arrays are the region-entry contents (`hA`), a run to the frame
    run's post read at the argument arrays — each an unscoped buffer that is no window's array, so by the post's second
    clause at what the last stretch leaves, which is what the launch memory held — is the frame claim's post. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (Pipeline.afterTail₀ cfgs dats 0 (V0 m) [hostOps1]))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c =>
    ⟨((h c).2 main_arg0 (Pipeline.mem_restRefs_of main_arg0 (by decide) (by decide))).trans (W_main_arg0 m dats c),
     ((h c).2 main_arg1 (Pipeline.mem_restRefs_of main_arg1 (by decide) (by decide))).trans (W_main_arg1 m dats c),
     ((h c).2 main_arg2 (Pipeline.mem_restRefs_of main_arg2 (by decide) (by decide))).trans (W_main_arg2 m dats c),
     ((h c).2 main_arg3 (Pipeline.mem_restRefs_of main_arg3 (by decide) (by decide))).trans (W_main_arg3 m dats c),
     ((h c).2 main_arg4 (Pipeline.mem_restRefs_of main_arg4 (by decide) (by decide))).trans (W_main_arg4 m dats c),
     ((h c).2 main_arg5 (Pipeline.mem_restRefs_of main_arg5 (by decide) (by decide))).trans (W_main_arg5 m dats c)⟩) h

end Cert.Kernel.Hand

end
-- ==== Proof.K.Body.lean ====
/-
  The body of the combine kernel, once, at any grid point.

  One call of the kernel body handles 1024 rows. Per level (feature widths 32, 64 and 128) it reads that level's
  weight block `c` (1024 × 8: eight weights per row) and its eight corner blocks `q₀ … q₇` (1024 × width), and writes
  into the level's result block the weighted sum  0 + q₀·c₀ + q₁·c₁ + … + q₇·c₇,  where `cⱼ` is column `j` of `c`
  repeated along the feature axis; the sum is taken left to right from zero. Every access is of a whole block.

  Stated here: the rectangles of those accesses, what each result block holds afterwards as a function of the level's
  weight and corner blocks (`out0_27`, `out0_28`, `out0_29`), that the one store per result covers its block, and the
  body's triple: from the 27 input blocks held at their contents and the three result blocks held at anything, the body
  runs and hands back the inputs unchanged and each result at its weighted sum.
-/
import proofs.«414534_j76854144795318_3_alg».proof.Proof.Gen.Kernel.Launch
import proofs.«414534_j76854144795318_3_alg».proof.Proof.Gen.Kernel.Skeleton
import proofs.«414534_j76854144795318_3_alg».proof.Proof.Gen.Kernel.Points
import Idealize.ShloMosaic.Lib.Pipeline.FrameBody
import Idealize.ShloMosaic.Lib.Ring
import Idealize.ShloMosaic.Lib.Tactic

-- membership in a rectangle of production extents: the structural look recurses once per coordinate of the long axes
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body's accesses

Every load and every store of the body goes through the WHOLE block of its window: the rectangle at offset
`(0, 0)` of the block's own extents. There are four block shapes: the weights' `1024 × 8`, and the three levels'
`1024 × 32`, `1024 × 64`, `1024 × 128`. -/

/-- The whole `1024 × 8` block (a level's eight weights per row). -/
abbrev rw8 : Rect S1024x8 := Rect.unit (s := S1024x8) ![0, 0] S1024x8.size inb_S1024x8_S1024x8_0_0
/-- The whole `1024 × 32` block (level 0's corners and result). -/
abbrev rw32 : Rect S1024x32 := Rect.unit (s := S1024x32) ![0, 0] S1024x32.size inb_S1024x32_S1024x32_0_0
/-- The whole `1024 × 64` block (level 1's corners and result). -/
abbrev rw64 : Rect S1024x64 := Rect.unit (s := S1024x64) ![0, 0] S1024x64.size inb_S1024x64_S1024x64_0_0
/-- The whole `1024 × 128` block (level 2's corners and result). -/
abbrev rw128 : Rect S1024x128 := Rect.unit (s := S1024x128) ![0, 0] S1024x128.size inb_S1024x128_S1024x128_0_0

/-! ## What the body leaves in each output window's buffer

Per level the body forms `0 + q₀·c₀ + q₁·c₁ + … + q₇·c₇`, the eight corner blocks `qⱼ` each scaled row by row by
column `j` of the weight block `c` (broadcast along the feature axis), summed left to right from zero, and stores the
sum over the whole output block. The sum is written as a composition of partial sums (`k0_payN`), cut after
six, four and three terms respectively. -/

/-- Level 0 (`1024 × 32`): the one store into the first result's block, over the weight block `c` and the corner
    blocks `q0 … q7`: terms 0–5 accumulated from zero, then terms 6 and 7. -/
def out0_27 (c : Vec F S1024x8 .f32) (q0 q1 q2 q3 q4 q5 q6 q7 : Vec F S1024x32 .f32) : Vec F S1024x32 .f32 :=
  View.canon [⟨rw32, k0_pay6 (k0_pay2 (View.ld c rw8))
    (k0_pay3 (View.ld c rw8) (View.ld q0 rw32) (View.ld q1 rw32) (View.ld q2 rw32) (View.ld q3 rw32) (View.ld q4 rw32) (View.ld q5 rw32))
    (k0_pay4 (View.ld q6 rw32)) (k0_pay5 (View.ld c rw8)) (View.ld q7 rw32)⟩]

/-- Level 1 (`1024 × 64`): the one store into the second result's block: terms 0–3 accumulated from zero, the
    product of term 4, then terms 5, 6 and 7. -/
def out0_28 (c : Vec F S1024x8 .f32) (q0 q1 q2 q3 q4 q5 q6 q7 : Vec F S1024x64 .f32) : Vec F S1024x64 .f32 :=
  View.canon [⟨rw64, k0_pay10 (k0_pay7 (View.ld c rw8))
    (k0_pay8 (View.ld c rw8) (View.ld q0 rw64) (View.ld q1 rw64) (View.ld q2 rw64) (View.ld q3 rw64))
    (k0_pay9 (View.ld c rw8) (View.ld q4 rw64)) (View.ld q5 rw64) (View.ld q6 rw64) (View.ld q7 rw64)⟩]

/-- Level 2 (`1024 × 128`): the one store into the third result's block: terms 0–2 accumulated from zero, then
    terms 3–7. -/
def out0_29 (c : Vec F S1024x8 .f32) (q0 q1 q2 q3 q4 q5 q6 q7 : Vec F S1024x128 .f32) : Vec F S1024x128 .f32 :=
  View.canon [⟨rw128, k0_pay1 (k0_pay11 (View.ld c rw8))
    (k0_pay12 (View.ld c rw8) (View.ld q0 rw128) (View.ld q1 rw128) (View.ld q2 rw128))
    (View.ld q3 rw128) (View.ld q4 rw128) (View.ld q5 rw128) (View.ld q6 rw128) (View.ld q7 rw128)⟩]

/-- The one store tiles the `1024 × 32` block (checked by evaluation), so it covers it. -/
theorem cover0_27 (p0 : Vec F S1024x32 .f32) (y : S1024x32.Idx) :
    ∃ pc ∈ ([⟨rw32, p0⟩] : List (View.Piece (Elt F) S1024x32 .f32)), y ∈ pc.1.set :=
  View.cover_of_tiled [⟨rw32, p0⟩] S1024x32.size (by rfl) y

/-- The one store tiles the `1024 × 64` block. -/
theorem cover0_28 (p0 : Vec F S1024x64 .f32) (y : S1024x64.Idx) :
    ∃ pc ∈ ([⟨rw64, p0⟩] : List (View.Piece (Elt F) S1024x64 .f32)), y ∈ pc.1.set :=
  View.cover_of_tiled [⟨rw64, p0⟩] S1024x64.size (by rfl) y

/-- The one store tiles the `1024 × 128` block. -/
theorem cover0_29 (p0 : Vec F S1024x128 .f32) (y : S1024x128.Idx) :
    ∃ pc ∈ ([⟨rw128, p0⟩] : List (View.Piece (Elt F) S1024x128 .f32)), y ∈ pc.1.set :=
  View.cover_of_tiled [⟨rw128, p0⟩] S1024x128.size (by rfl) y

/-! ## The body's triple -/

set_option maxHeartbeats 1000000 in
/-- The kernel body on whole staging memrefs, the 27 inputs' at read contents `xW` and the three outputs' at anything,
    runs to the continuation holding the inputs' as they were and each output's at `out0_W` of its level's weight and
    corner blocks: the body is a straight line of 27 whole-block loads of the inputs and three whole-block stores, one
    per result, each covering its block. Each result block is also loaded once before its store; that value is unused,
    so what the block held before does not enter the result. -/
theorem sound_kernel (c : Dev nD) (E : Set ℕ) (i : grid0.Coords) (arg1 : Memref sig .tc .vmem S1024x32 .f32) (harg1 : arg1.IsWhole) (arg2 : Memref sig .tc .vmem S1024x32 .f32) (harg2 : arg2.IsWhole) (arg3 : Memref sig .tc .vmem S1024x32 .f32) (harg3 : arg3.IsWhole) (arg4 : Memref sig .tc .vmem S1024x32 .f32) (harg4 : arg4.IsWhole) (arg5 : Memref sig .tc .vmem S1024x32 .f32) (harg5 : arg5.IsWhole) (arg6 : Memref sig .tc .vmem S1024x32 .f32) (harg6 : arg6.IsWhole) (arg7 : Memref sig .tc .vmem S1024x32 .f32) (harg7 : arg7.IsWhole) (arg8 : Memref sig .tc .vmem S1024x32 .f32) (harg8 : arg8.IsWhole) (arg9 : Memref sig .tc .vmem S1024x8 .f32) (harg9 : arg9.IsWhole) (arg10 : Memref sig .tc .vmem S1024x64 .f32) (harg10 : arg10.IsWhole) (arg11 : Memref sig .tc .vmem S1024x64 .f32) (harg11 : arg11.IsWhole) (arg12 : Memref sig .tc .vmem S1024x64 .f32) (harg12 : arg12.IsWhole) (arg13 : Memref sig .tc .vmem S1024x64 .f32) (harg13 : arg13.IsWhole) (arg14 : Memref sig .tc .vmem S1024x64 .f32) (harg14 : arg14.IsWhole) (arg15 : Memref sig .tc .vmem S1024x64 .f32) (harg15 : arg15.IsWhole) (arg16 : Memref sig .tc .vmem S1024x64 .f32) (harg16 : arg16.IsWhole) (arg17 : Memref sig .tc .vmem S1024x64 .f32) (harg17 : arg17.IsWhole) (arg18 : Memref sig .tc .vmem S1024x8 .f32) (harg18 : arg18.IsWhole) (arg19 : Memref sig .tc .vmem S1024x128 .f32) (harg19 : arg19.IsWhole) (arg20 : Memref sig .tc .vmem S1024x128 .f32) (harg20 : arg20.IsWhole) (arg21 : Memref sig .tc .vmem S1024x128 .f32) (harg21 : arg21.IsWhole) (arg22 : Memref sig .tc .vmem S1024x128 .f32) (harg22 : arg22.IsWhole) (arg23 : Memref sig .tc .vmem S1024x128 .f32) (harg23 : arg23.IsWhole) (arg24 : Memref sig .tc .vmem S1024x128 .f32) (harg24 : arg24.IsWhole) (arg25 : Memref sig .tc .vmem S1024x128 .f32) (harg25 : arg25.IsWhole) (arg26 : Memref sig .tc .vmem S1024x128 .f32) (harg26 : arg26.IsWhole) (arg27 : Memref sig .tc .vmem S1024x8 .f32) (harg27 : arg27.IsWhole) (arg28 : Memref sig .tc .vmem S1024x32 .f32) (harg28 : arg28.IsWhole) (arg29 : Memref sig .tc .vmem S1024x64 .f32) (harg29 : arg29.IsWhole) (arg30 : Memref sig .tc .vmem S1024x128 .f32) (harg30 : arg30.IsWhole)
    (x0 : Vec F S1024x32 .f32) (x1 : Vec F S1024x32 .f32) (x2 : Vec F S1024x32 .f32) (x3 : Vec F S1024x32 .f32) (x4 : Vec F S1024x32 .f32) (x5 : Vec F S1024x32 .f32) (x6 : Vec F S1024x32 .f32) (x7 : Vec F S1024x32 .f32) (x8 : Vec F S1024x8 .f32) (x9 : Vec F S1024x64 .f32) (x10 : Vec F S1024x64 .f32) (x11 : Vec F S1024x64 .f32) (x12 : Vec F S1024x64 .f32) (x13 : Vec F S1024x64 .f32) (x14 : Vec F S1024x64 .f32) (x15 : Vec F S1024x64 .f32) (x16 : Vec F S1024x64 .f32) (x17 : Vec F S1024x8 .f32) (x18 : Vec F S1024x128 .f32) (x19 : Vec F S1024x128 .f32) (x20 : Vec F S1024x128 .f32) (x21 : Vec F S1024x128 .f32) (x22 : Vec F S1024x128 .f32) (x23 : Vec F S1024x128 .f32) (x24 : Vec F S1024x128 .f32) (x25 : Vec F S1024x128 .f32) (x26 : Vec F S1024x8 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ owns (c : Thread nD τ) arg16 fullShare x15 ∗ owns (c : Thread nD τ) arg17 fullShare x16 ∗ owns (c : Thread nD τ) arg18 fullShare x17 ∗ owns (c : Thread nD τ) arg19 fullShare x18 ∗ owns (c : Thread nD τ) arg20 fullShare x19 ∗ owns (c : Thread nD τ) arg21 fullShare x20 ∗ owns (c : Thread nD τ) arg22 fullShare x21 ∗ owns (c : Thread nD τ) arg23 fullShare x22 ∗ owns (c : Thread nD τ) arg24 fullShare x23 ∗ owns (c : Thread nD τ) arg25 fullShare x24 ∗ owns (c : Thread nD τ) arg26 fullShare x25 ∗ owns (c : Thread nD τ) arg27 fullShare x26
        ∗ (∃ d, owns (c : Thread nD τ) arg28 fullShare d) ∗ (∃ d, owns (c : Thread nD τ) arg29 fullShare d) ∗ (∃ d, owns (c : Thread nD τ) arg30 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ owns (c : Thread nD τ) arg16 fullShare x15 ∗ owns (c : Thread nD τ) arg17 fullShare x16 ∗ owns (c : Thread nD τ) arg18 fullShare x17 ∗ owns (c : Thread nD τ) arg19 fullShare x18 ∗ owns (c : Thread nD τ) arg20 fullShare x19 ∗ owns (c : Thread nD τ) arg21 fullShare x20 ∗ owns (c : Thread nD τ) arg22 fullShare x21 ∗ owns (c : Thread nD τ) arg23 fullShare x22 ∗ owns (c : Thread nD τ) arg24 fullShare x23 ∗ owns (c : Thread nD τ) arg25 fullShare x24 ∗ owns (c : Thread nD τ) arg26 fullShare x25 ∗ owns (c : Thread nD τ) arg27 fullShare x26
            ∗ owns (c : Thread nD τ) arg28 fullShare (out0_27 x8 x0 x1 x2 x3 x4 x5 x6 x7)
            ∗ owns (c : Thread nD τ) arg29 fullShare (out0_28 x17 x9 x10 x11 x12 x13 x14 x15 x16)
            ∗ owns (c : Thread nD τ) arg30 fullShare (out0_29 x26 x18 x19 x20 x21 x22 x23 x24 x25)) -∗ K ⟨⟩))
      ⊢ wp frame (wpE (defs₀ (F := F)) Variants.none c none) E (cc0__combine_kernel i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30) K := by
  simp only [cc0__combine_kernel_eq_skeleton]; unfold cc0__combine_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%f17, %hf17, H17⟩, ⟨%f18, %hf18, H18⟩, ⟨%f19, %hf19, H19⟩, ⟨%f20, %hf20, H20⟩, ⟨%f21, %hf21, H21⟩, ⟨%f22, %hf22, H22⟩, ⟨%f23, %hf23, H23⟩, ⟨%f24, %hf24, H24⟩, ⟨%f25, %hf25, H25⟩, ⟨%f26, %hf26, H26⟩, ⟨%d27, %f27, -, H27⟩, ⟨%d28, %f28, -, H28⟩, ⟨%d29, %f29, -, H29⟩, Hk⟩
  subst hf0
  subst hf1
  subst hf2
  subst hf3
  subst hf4
  subst hf5
  subst hf6
  subst hf7
  subst hf8
  subst hf9
  subst hf10
  subst hf11
  subst hf12
  subst hf13
  subst hf14
  subst hf15
  subst hf16
  subst hf17
  subst hf18
  subst hf19
  subst hf20
  subst hf21
  subst hf22
  subst hf23
  subst hf24
  subst hf25
  subst hf26
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  isplitl [H11]
  · iexists f11; isplitr; · ipureintro; rfl
    iexact H11
  isplitl [H12]
  · iexists f12; isplitr; · ipureintro; rfl
    iexact H12
  isplitl [H13]
  · iexists f13; isplitr; · ipureintro; rfl
    iexact H13
  isplitl [H14]
  · iexists f14; isplitr; · ipureintro; rfl
    iexact H14
  isplitl [H15]
  · iexists f15; isplitr; · ipureintro; rfl
    iexact H15
  isplitl [H16]
  · iexists f16; isplitr; · ipureintro; rfl
    iexact H16
  isplitl [H17]
  · iexists f17; isplitr; · ipureintro; rfl
    iexact H17
  isplitl [H18]
  · iexists f18; isplitr; · ipureintro; rfl
    iexact H18
  isplitl [H19]
  · iexists f19; isplitr; · ipureintro; rfl
    iexact H19
  isplitl [H20]
  · iexists f20; isplitr; · ipureintro; rfl
    iexact H20
  isplitl [H21]
  · iexists f21; isplitr; · ipureintro; rfl
    iexact H21
  isplitl [H22]
  · iexists f22; isplitr; · ipureintro; rfl
    iexact H22
  isplitl [H23]
  · iexists f23; isplitr; · ipureintro; rfl
    iexact H23
  isplitl [H24]
  · iexists f24; isplitr; · ipureintro; rfl
    iexact H24
  isplitl [H25]
  · iexists f25; isplitr; · ipureintro; rfl
    iexact H25
  isplitl [H26]
  · iexists f26; isplitr; · ipureintro; rfl
    iexact H26
  isplitl [H27]
  · iexists _; isplitr
    swap; · iexact H27
    ipureintro
    exact View.read_writes_eq_canon _ _ _ (cover0_27 _)
  isplitl [H28]
  · iexists _; isplitr
    swap; · iexact H28
    ipureintro
    exact View.read_writes_eq_canon _ _ _ (cover0_28 _)
  iexists _; isplitr
  swap; · iexact H29
  ipureintro
  exact View.read_writes_eq_canon _ _ _ (cover0_29 _)

end Cert.Kernel.Hand

end
-- ==== Proof.K.Run.lean ====
/-
  The combine kernel's pipeline, run: the proof data, the body obligation at a generic point, the run and the frame.

  The one pipelined region walks 196 grid points; point `t` handles rows `1024·t … 1024·t + 1023` of every array. All
  30 windows move whole `1024 × k` blocks by the index map `t ↦ (t, 0)`: the 27 inputs (three levels of eight corner
  arrays and one weight array each) are fetched at every point, the three results written back at every point, nothing
  clipped, nothing idle. So what each buffer holds around the body is a closed function of the point: an input's is its
  array's block, a result's is the level's weighted sum of those blocks (`out0_27`, `out0_28`, `out0_29`).
-/
import proofs.«414534_j76854144795318_3_alg».proof.Proof.K.Host
import proofs.«414534_j76854144795318_3_alg».proof.Proof.K.Body
import Idealize.ShloMosaic.Lib.Pipeline.FrameSuffix

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The pipeline's proof data -/

/-- The proof data of the one pipeline on core `c`. The 30 windowed arrays are as the region finds them (`V`). After
    the body at point `t`: each of the 27 input windows' buffers still holds its block of rows `1024·t … 1024·t + 1023`;
    each of the three result windows' buffers holds its level's weighted sum of that level's eight corner blocks by
    the level's weight block (windows 0–7 by window 8 into window 27, windows 9–16 by 17 into 28, windows 18–25 by 26
    into 29). The invariant is the class's (the scoped rest and the generator register, untouched); nothing is owed;
    every share is full. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => iblk m c 13 t
    | ⟨14, _⟩ => iblk m c 14 t
    | ⟨15, _⟩ => iblk m c 15 t
    | ⟨16, _⟩ => iblk m c 16 t
    | ⟨17, _⟩ => iblk m c 17 t
    | ⟨18, _⟩ => iblk m c 18 t
    | ⟨19, _⟩ => iblk m c 19 t
    | ⟨20, _⟩ => iblk m c 20 t
    | ⟨21, _⟩ => iblk m c 21 t
    | ⟨22, _⟩ => iblk m c 22 t
    | ⟨23, _⟩ => iblk m c 23 t
    | ⟨24, _⟩ => iblk m c 24 t
    | ⟨25, _⟩ => iblk m c 25 t
    | ⟨26, _⟩ => iblk m c 26 t
    | ⟨27, _⟩ => out0_27 (iblk m c 8 t) (iblk m c 0 t) (iblk m c 1 t) (iblk m c 2 t) (iblk m c 3 t) (iblk m c 4 t) (iblk m c 5 t) (iblk m c 6 t) (iblk m c 7 t)
    | ⟨28, _⟩ => out0_28 (iblk m c 17 t) (iblk m c 9 t) (iblk m c 10 t) (iblk m c 11 t) (iblk m c 12 t) (iblk m c 13 t) (iblk m c 14 t) (iblk m c 15 t) (iblk m c 16 t)
    | ⟨29, _⟩ => out0_29 (iblk m c 26 t) (iblk m c 18 t) (iblk m c 19 t) (iblk m c 20 t) (iblk m c 21 t) (iblk m c 22 t) (iblk m c 23 t) (iblk m c 24 t) (iblk m c 25 t)
    | ⟨_ + 30, h⟩ => absurd h (Nat.not_lt.2 (Nat.le_add_left _ _))
  Φ _ := Pipeline.ΦA spec0 c
  q _ := fullShare
  owed _ := 0

/-- The proof data's arrays are the region-entry contents. -/
theorem A_eq (c : Dev nD) (w : Fin cfg0.W) : (dats m 0 c).A w = V m c (Pipeline.arrRef spec0 w) := by
  dsimp only [dats]

/-! What the body leaves, window by window. -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]
theorem after0_10 (c : Dev nD) (t : Fin cfg0.N) : (dats m 0 c).after 10 t = iblk m c 10 t := by dsimp only [dats]
theorem after0_11 (c : Dev nD) (t : Fin cfg0.N) : (dats m 0 c).after 11 t = iblk m c 11 t := by dsimp only [dats]
theorem after0_12 (c : Dev nD) (t : Fin cfg0.N) : (dats m 0 c).after 12 t = iblk m c 12 t := by dsimp only [dats]
theorem after0_13 (c : Dev nD) (t : Fin cfg0.N) : (dats m 0 c).after 13 t = iblk m c 13 t := by dsimp only [dats]
theorem after0_14 (c : Dev nD) (t : Fin cfg0.N) : (dats m 0 c).after 14 t = iblk m c 14 t := by dsimp only [dats]
theorem after0_15 (c : Dev nD) (t : Fin cfg0.N) : (dats m 0 c).after 15 t = iblk m c 15 t := by dsimp only [dats]
theorem after0_16 (c : Dev nD) (t : Fin cfg0.N) : (dats m 0 c).after 16 t = iblk m c 16 t := by dsimp only [dats]
theorem after0_17 (c : Dev nD) (t : Fin cfg0.N) : (dats m 0 c).after 17 t = iblk m c 17 t := by dsimp only [dats]
theorem after0_18 (c : Dev nD) (t : Fin cfg0.N) : (dats m 0 c).after 18 t = iblk m c 18 t := by dsimp only [dats]
theorem after0_19 (c : Dev nD) (t : Fin cfg0.N) : (dats m 0 c).after 19 t = iblk m c 19 t := by dsimp only [dats]
theorem after0_20 (c : Dev nD) (t : Fin cfg0.N) : (dats m 0 c).after 20 t = iblk m c 20 t := by dsimp only [dats]
theorem after0_21 (c : Dev nD) (t : Fin cfg0.N) : (dats m 0 c).after 21 t = iblk m c 21 t := by dsimp only [dats]
theorem after0_22 (c : Dev nD) (t : Fin cfg0.N) : (dats m 0 c).after 22 t = iblk m c 22 t := by dsimp only [dats]
theorem after0_23 (c : Dev nD) (t : Fin cfg0.N) : (dats m 0 c).after 23 t = iblk m c 23 t := by dsimp only [dats]
theorem after0_24 (c : Dev nD) (t : Fin cfg0.N) : (dats m 0 c).after 24 t = iblk m c 24 t := by dsimp only [dats]
theorem after0_25 (c : Dev nD) (t : Fin cfg0.N) : (dats m 0 c).after 25 t = iblk m c 25 t := by dsimp only [dats]
theorem after0_26 (c : Dev nD) (t : Fin cfg0.N) : (dats m 0 c).after 26 t = iblk m c 26 t := by dsimp only [dats]
theorem after0_27 (c : Dev nD) (t : Fin cfg0.N) : (dats m 0 c).after 27 t = out0_27 (iblk m c 8 t) (iblk m c 0 t) (iblk m c 1 t) (iblk m c 2 t) (iblk m c 3 t) (iblk m c 4 t) (iblk m c 5 t) (iblk m c 6 t) (iblk m c 7 t) := by dsimp only [dats]
theorem after0_28 (c : Dev nD) (t : Fin cfg0.N) : (dats m 0 c).after 28 t = out0_28 (iblk m c 17 t) (iblk m c 9 t) (iblk m c 10 t) (iblk m c 11 t) (iblk m c 12 t) (iblk m c 13 t) (iblk m c 14 t) (iblk m c 15 t) (iblk m c 16 t) := by dsimp only [dats]
theorem after0_29 (c : Dev nD) (t : Fin cfg0.N) : (dats m 0 c).after 29 t = out0_29 (iblk m c 26 t) (iblk m c 18 t) (iblk m c 19 t) (iblk m c 20 t) (iblk m c 21 t) (iblk m c 22 t) (iblk m c 23 t) (iblk m c 24 t) (iblk m c 25 t) := by dsimp only [dats]

/-! Each input's current staging buffer holds its block at every point: every input window is fetched at every point,
    uncut and never idle, and the body leaves the block in place. -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d
theorem before0_9 (c : Dev nD) (t : Fin cfg0.N) (d) : (dats m 0 c).before 9 t d = iblk m c 9 t :=
  before0_9_of m (dats m 0 c) (A_eq m c 9) (after0_9 m c) t d
theorem before0_10 (c : Dev nD) (t : Fin cfg0.N) (d) : (dats m 0 c).before 10 t d = iblk m c 10 t :=
  before0_10_of m (dats m 0 c) (A_eq m c 10) (after0_10 m c) t d
theorem before0_11 (c : Dev nD) (t : Fin cfg0.N) (d) : (dats m 0 c).before 11 t d = iblk m c 11 t :=
  before0_11_of m (dats m 0 c) (A_eq m c 11) (after0_11 m c) t d
theorem before0_12 (c : Dev nD) (t : Fin cfg0.N) (d) : (dats m 0 c).before 12 t d = iblk m c 12 t :=
  before0_12_of m (dats m 0 c) (A_eq m c 12) (after0_12 m c) t d
theorem before0_13 (c : Dev nD) (t : Fin cfg0.N) (d) : (dats m 0 c).before 13 t d = iblk m c 13 t :=
  before0_13_of m (dats m 0 c) (A_eq m c 13) (after0_13 m c) t d
theorem before0_14 (c : Dev nD) (t : Fin cfg0.N) (d) : (dats m 0 c).before 14 t d = iblk m c 14 t :=
  before0_14_of m (dats m 0 c) (A_eq m c 14) (after0_14 m c) t d
theorem before0_15 (c : Dev nD) (t : Fin cfg0.N) (d) : (dats m 0 c).before 15 t d = iblk m c 15 t :=
  before0_15_of m (dats m 0 c) (A_eq m c 15) (after0_15 m c) t d
theorem before0_16 (c : Dev nD) (t : Fin cfg0.N) (d) : (dats m 0 c).before 16 t d = iblk m c 16 t :=
  before0_16_of m (dats m 0 c) (A_eq m c 16) (after0_16 m c) t d
theorem before0_17 (c : Dev nD) (t : Fin cfg0.N) (d) : (dats m 0 c).before 17 t d = iblk m c 17 t :=
  before0_17_of m (dats m 0 c) (A_eq m c 17) (after0_17 m c) t d
theorem before0_18 (c : Dev nD) (t : Fin cfg0.N) (d) : (dats m 0 c).before 18 t d = iblk m c 18 t :=
  before0_18_of m (dats m 0 c) (A_eq m c 18) (after0_18 m c) t d
theorem before0_19 (c : Dev nD) (t : Fin cfg0.N) (d) : (dats m 0 c).before 19 t d = iblk m c 19 t :=
  before0_19_of m (dats m 0 c) (A_eq m c 19) (after0_19 m c) t d
theorem before0_20 (c : Dev nD) (t : Fin cfg0.N) (d) : (dats m 0 c).before 20 t d = iblk m c 20 t :=
  before0_20_of m (dats m 0 c) (A_eq m c 20) (after0_20 m c) t d
theorem before0_21 (c : Dev nD) (t : Fin cfg0.N) (d) : (dats m 0 c).before 21 t d = iblk m c 21 t :=
  before0_21_of m (dats m 0 c) (A_eq m c 21) (after0_21 m c) t d
theorem before0_22 (c : Dev nD) (t : Fin cfg0.N) (d) : (dats m 0 c).before 22 t d = iblk m c 22 t :=
  before0_22_of m (dats m 0 c) (A_eq m c 22) (after0_22 m c) t d
theorem before0_23 (c : Dev nD) (t : Fin cfg0.N) (d) : (dats m 0 c).before 23 t d = iblk m c 23 t :=
  before0_23_of m (dats m 0 c) (A_eq m c 23) (after0_23 m c) t d
theorem before0_24 (c : Dev nD) (t : Fin cfg0.N) (d) : (dats m 0 c).before 24 t d = iblk m c 24 t :=
  before0_24_of m (dats m 0 c) (A_eq m c 24) (after0_24 m c) t d
theorem before0_25 (c : Dev nD) (t : Fin cfg0.N) (d) : (dats m 0 c).before 25 t d = iblk m c 25 t :=
  before0_25_of m (dats m 0 c) (A_eq m c 25) (after0_25 m c) t d
theorem before0_26 (c : Dev nD) (t : Fin cfg0.N) (d) : (dats m 0 c).before 26 t d = iblk m c 26 t :=
  before0_26_of m (dats m 0 c) (A_eq m c 26) (after0_26 m c) t d

/-! ## The body obligation, at a generic point -/

/-- What the body is called with at point `t`: the invariant, the core's dues, and each window's current staging buffer
    held whole — an input's at what the pipeline left there, a result's at anything, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d))
    ∗ (∃ d, owns (c : Thread nD τ) (st0_10 t) fullShare ((dats m 0 c).before 10 t d))
    ∗ (∃ d, owns (c : Thread nD τ) (st0_11 t) fullShare ((dats m 0 c).before 11 t d))
    ∗ (∃ d, owns (c : Thread nD τ) (st0_12 t) fullShare ((dats m 0 c).before 12 t d))
    ∗ (∃ d, owns (c : Thread nD τ) (st0_13 t) fullShare ((dats m 0 c).before 13 t d))
    ∗ (∃ d, owns (c : Thread nD τ) (st0_14 t) fullShare ((dats m 0 c).before 14 t d))
    ∗ (∃ d, owns (c : Thread nD τ) (st0_15 t) fullShare ((dats m 0 c).before 15 t d))
    ∗ (∃ d, owns (c : Thread nD τ) (st0_16 t) fullShare ((dats m 0 c).before 16 t d))
    ∗ (∃ d, owns (c : Thread nD τ) (st0_17 t) fullShare ((dats m 0 c).before 17 t d))
    ∗ (∃ d, owns (c : Thread nD τ) (st0_18 t) fullShare ((dats m 0 c).before 18 t d))
    ∗ (∃ d, owns (c : Thread nD τ) (st0_19 t) fullShare ((dats m 0 c).before 19 t d))
    ∗ (∃ d, owns (c : Thread nD τ) (st0_20 t) fullShare ((dats m 0 c).before 20 t d))
    ∗ (∃ d, owns (c : Thread nD τ) (st0_21 t) fullShare ((dats m 0 c).before 21 t d))
    ∗ (∃ d, owns (c : Thread nD τ) (st0_22 t) fullShare ((dats m 0 c).before 22 t d))
    ∗ (∃ d, owns (c : Thread nD τ) (st0_23 t) fullShare ((dats m 0 c).before 23 t d))
    ∗ (∃ d, owns (c : Thread nD τ) (st0_24 t) fullShare ((dats m 0 c).before 24 t d))
    ∗ (∃ d, owns (c : Thread nD τ) (st0_25 t) fullShare ((dats m 0 c).before 25 t d))
    ∗ (∃ d, owns (c : Thread nD τ) (st0_26 t) fullShare ((dats m 0 c).before 26 t d))
    ∗ (∃ d, owns (c : Thread nD τ) (st0_27 t) fullShare ((dats m 0 c).before 27 t d))
    ∗ (∃ d, owns (c : Thread nD τ) (st0_28 t) fullShare ((dats m 0 c).before 28 t d))
    ∗ (∃ d, owns (c : Thread nD τ) (st0_29 t) fullShare ((dats m 0 c).before 29 t d)))

/-- and what it returns: the same, each buffer at what the body leaves in it. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ owns (c : Thread nD τ) (st0_9 t) fullShare ((dats m 0 c).after 9 t)
    ∗ owns (c : Thread nD τ) (st0_10 t) fullShare ((dats m 0 c).after 10 t)
    ∗ owns (c : Thread nD τ) (st0_11 t) fullShare ((dats m 0 c).after 11 t)
    ∗ owns (c : Thread nD τ) (st0_12 t) fullShare ((dats m 0 c).after 12 t)
    ∗ owns (c : Thread nD τ) (st0_13 t) fullShare ((dats m 0 c).after 13 t)
    ∗ owns (c : Thread nD τ) (st0_14 t) fullShare ((dats m 0 c).after 14 t)
    ∗ owns (c : Thread nD τ) (st0_15 t) fullShare ((dats m 0 c).after 15 t)
    ∗ owns (c : Thread nD τ) (st0_16 t) fullShare ((dats m 0 c).after 16 t)
    ∗ owns (c : Thread nD τ) (st0_17 t) fullShare ((dats m 0 c).after 17 t)
    ∗ owns (c : Thread nD τ) (st0_18 t) fullShare ((dats m 0 c).after 18 t)
    ∗ owns (c : Thread nD τ) (st0_19 t) fullShare ((dats m 0 c).after 19 t)
    ∗ owns (c : Thread nD τ) (st0_20 t) fullShare ((dats m 0 c).after 20 t)
    ∗ owns (c : Thread nD τ) (st0_21 t) fullShare ((dats m 0 c).after 21 t)
    ∗ owns (c : Thread nD τ) (st0_22 t) fullShare ((dats m 0 c).after 22 t)
    ∗ owns (c : Thread nD τ) (st0_23 t) fullShare ((dats m 0 c).after 23 t)
    ∗ owns (c : Thread nD τ) (st0_24 t) fullShare ((dats m 0 c).after 24 t)
    ∗ owns (c : Thread nD τ) (st0_25 t) fullShare ((dats m 0 c).after 25 t)
    ∗ owns (c : Thread nD τ) (st0_26 t) fullShare ((dats m 0 c).after 26 t)
    ∗ owns (c : Thread nD τ) (st0_27 t) fullShare ((dats m 0 c).after 27 t)
    ∗ owns (c : Thread nD τ) (st0_28 t) fullShare ((dats m 0 c).after 28 t)
    ∗ owns (c : Thread nD τ) (st0_29 t) fullShare ((dats m 0 c).after 29 t))

set_option maxHeartbeats 1000000 in
/-- The body at any point: the inputs' buffers hold their blocks (`before0_W`), so the body's triple applies at those
    blocks; the invariant and the core's dues pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9, before0_10, before0_11, before0_12, before0_13, before0_14, before0_15, before0_16, before0_17, before0_18, before0_19, before0_20, before0_21, before0_22, before0_23, before0_24, before0_25, before0_26]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7, after0_8, after0_9, after0_10, after0_11, after0_12, after0_13, after0_14, after0_15, after0_16, after0_17, after0_18, after0_19, after0_20, after0_21, after0_22, after0_23, after0_24, after0_25, after0_26, after0_27, after0_28, after0_29]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩, ⟨%d21, H21⟩, ⟨%d22, H22⟩, ⟨%d23, H23⟩, ⟨%d24, H24⟩, ⟨%d25, H25⟩, ⟨%d26, H26⟩, ⟨%d27, H27⟩, ⟨%d28, H28⟩, ⟨%d29, H29⟩⟩
  iapply (sound_kernel c Set.univ (grid0.coords t) _ _ _ _ _ _ _ _ _ _ _ _ _ _ _ _ _ _ _ _ _ _ _ _ _ _ _ _ _ _ _ _ _ _ _ _ _ _ _ _ _ _ _ _ _ _ _ _ _ _ _ _ _ _ _ _ _ _ _ _
    (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) (iblk m c 23 t) (iblk m c 24 t) (iblk m c 25 t) (iblk m c 26 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]; · iexact H21
  isplitl [H22]; · iexact H22
  isplitl [H23]; · iexact H23
  isplitl [H24]; · iexact H24
  isplitl [H25]; · iexact H25
  isplitl [H26]; · iexact H26
  isplitl [H27]; · iexists _; iexact H27
  isplitl [H28]; · iexists _; iexact H28
  isplitl [H29]; · iexists _; iexact H29
  iintro ⟨H0, H1, H2, H3, H4, H5, H6, H7, H8, H9, H10, H11, H12, H13, H14, H15, H16, H17, H18, H19, H20, H21, H22, H23, H24, H25, H26, H27, H28, H29⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]; · iexact H21
  isplitl [H22]; · iexact H22
  isplitl [H23]; · iexact H23
  isplitl [H24]; · iexact H24
  isplitl [H25]; · iexact H25
  isplitl [H26]; · iexact H26
  isplitl [H27]; · iexact H27
  isplitl [H28]; · iexact H28
  iexact H29

/-- The library's body obligation, at every point. -/
theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- For any values, from any memory with zero counters: every weakly fair execution of the program on the TensorCores
    terminates, and every final state has every windowed array at what the pipeline computes from the proof data and
    every other unscoped buffer as the host operations after the region leave it. -/
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

/-- THE FRAME: the program runs and its six argument arrays end as launched, at any float model. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  frame_of m ρ (dats m) (A_eq m) (run_main m ρ)

end Cert.Kernel.Hand

end
-- ==== Proof.KI.HostTable.lean ====
/- A table over the 97 stretches of host operations before the region, one pair of facts per stretch, each fact
   a conjunction with one component per operation of the stretch, in order: the operation allocates no buffer; the
   operation writes exactly one buffer, and that buffer is none of the six argument arrays. -/
import proofs.«414534_j76854144795318_3_alg».proof.Proof.Gen.KernelIdeal.Launch

set_option maxRecDepth 16384

noncomputable section

namespace Cert.KernelIdeal.Hand

open Cert.KernelIdeal Cert.KernelIdeal.Gen
open Idealize.ShloMosaic Idealize.ShloMosaic.TcCoe

variable {F : FTy → Type} [FloatOps F]

theorem hostOps0_fresh : (hostOps0 : List (HloOp τ sig (Elt F))).Forall fun op => op.fresh = ∅ :=
  ⟨rfl, rfl, rfl, rfl, rfl, rfl, rfl, rfl, rfl, rfl, rfl, rfl⟩
theorem hostOps0_writes : (hostOps0 : List (HloOp τ sig (Elt F))).Forall fun op =>
    ∃ y : Ref sig .tc, op.writes = {Proc.devRef (τ := τ) .tc y} ∧ y ∉ [main_arg0, main_arg1, main_arg2, main_arg3, main_arg4, main_arg5] :=
  ⟨⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩⟩
theorem hostOps0_1_fresh : (hostOps0_1 : List (HloOp τ sig (Elt F))).Forall fun op => op.fresh = ∅ :=
  ⟨rfl, rfl, rfl, rfl, rfl, rfl⟩
theorem hostOps0_1_writes : (hostOps0_1 : List (HloOp τ sig (Elt F))).Forall fun op =>
    ∃ y : Ref sig .tc, op.writes = {Proc.devRef (τ := τ) .tc y} ∧ y ∉ [main_arg0, main_arg1, main_arg2, main_arg3, main_arg4, main_arg5] :=
  ⟨⟨_, rfl, by decide⟩, ⟨_, rfl, by decide⟩, ⟨_, rfl, by decide⟩, ⟨_, rfl, by decide⟩, ⟨_, rfl, by decide⟩, ⟨_, rfl, by decide⟩⟩
theorem hostOps0_2_fresh : (hostOps0_2 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩
theorem hostOps0_2_writes : (hostOps0_2 : List (HloOp τ sig (Elt F))).Forall fun op =>
    ∃ y : Ref sig .tc, op.writes = {Proc.devRef (τ := τ) .tc y} ∧ y ∉ [main_arg0, main_arg1, main_arg2, main_arg3, main_arg4, main_arg5] :=
  ⟨⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩⟩
theorem hostOps0_3_fresh : (hostOps0_3 : List (HloOp τ sig (Elt F))).Forall fun op => op.fresh = ∅ :=
  ⟨rfl, rfl⟩
theorem hostOps0_3_writes : (hostOps0_3 : List (HloOp τ sig (Elt F))).Forall fun op =>
    ∃ y : Ref sig .tc, op.writes = {Proc.devRef (τ := τ) .tc y} ∧ y ∉ [main_arg0, main_arg1, main_arg2, main_arg3, main_arg4, main_arg5] :=
  ⟨⟨_, rfl, by decide⟩, ⟨_, rfl, by decide⟩⟩
theorem hostOps0_4_fresh : (hostOps0_4 : List (HloOp τ sig (Elt F))).Forall fun op => op.fresh = ∅ :=
  rfl
theorem hostOps0_4_writes : (hostOps0_4 : List (HloOp τ sig (Elt F))).Forall fun op =>
    ∃ y : Ref sig .tc, op.writes = {Proc.devRef (τ := τ) .tc y} ∧ y ∉ [main_arg0, main_arg1, main_arg2, main_arg3, main_arg4, main_arg5] :=
  ⟨_, rfl, by decide⟩
theorem hostOps0_5_fresh : (hostOps0_5 : List (HloOp τ sig (Elt F))).Forall fun op => op.fresh = ∅ :=
  ⟨rfl, rfl⟩
theorem hostOps0_5_writes : (hostOps0_5 : List (HloOp τ sig (Elt F))).Forall fun op =>
    ∃ y : Ref sig .tc, op.writes = {Proc.devRef (τ := τ) .tc y} ∧ y ∉ [main_arg0, main_arg1, main_arg2, main_arg3, main_arg4, main_arg5] :=
  ⟨⟨_, rfl, by decide⟩, ⟨_, rfl, by decide⟩⟩
theorem hostOps0_6_fresh : (hostOps0_6 : List (HloOp τ sig (Elt F))).Forall fun op => op.fresh = ∅ :=
  rfl
theorem hostOps0_6_writes : (hostOps0_6 : List (HloOp τ sig (Elt F))).Forall fun op =>
    ∃ y : Ref sig .tc, op.writes = {Proc.devRef (τ := τ) .tc y} ∧ y ∉ [main_arg0, main_arg1, main_arg2, main_arg3, main_arg4, main_arg5] :=
  ⟨_, rfl, by decide⟩
theorem hostOps0_7_fresh : (hostOps0_7 : List (HloOp τ sig (Elt F))).Forall fun op => op.fresh = ∅ :=
  ⟨rfl, rfl⟩
theorem hostOps0_7_writes : (hostOps0_7 : List (HloOp τ sig (Elt F))).Forall fun op =>
    ∃ y : Ref sig .tc, op.writes = {Proc.devRef (τ := τ) .tc y} ∧ y ∉ [main_arg0, main_arg1, main_arg2, main_arg3, main_arg4, main_arg5] :=
  ⟨⟨_, rfl, by decide⟩, ⟨_, rfl, by decide⟩⟩
theorem hostOps0_8_fresh : (hostOps0_8 : List (HloOp τ sig (Elt F))).Forall fun op => op.fresh = ∅ :=
  rfl
theorem hostOps0_8_writes : (hostOps0_8 : List (HloOp τ sig (Elt F))).Forall fun op =>
    ∃ y : Ref sig .tc, op.writes = {Proc.devRef (τ := τ) .tc y} ∧ y ∉ [main_arg0, main_arg1, main_arg2, main_arg3, main_arg4, main_arg5] :=
  ⟨_, rfl, by decide⟩
theorem hostOps0_9_fresh : (hostOps0_9 : List (HloOp τ sig (Elt F))).Forall fun op => op.fresh = ∅ :=
  ⟨rfl, rfl⟩
theorem hostOps0_9_writes : (hostOps0_9 : List (HloOp τ sig (Elt F))).Forall fun op =>
    ∃ y : Ref sig .tc, op.writes = {Proc.devRef (τ := τ) .tc y} ∧ y ∉ [main_arg0, main_arg1, main_arg2, main_arg3, main_arg4, main_arg5] :=
  ⟨⟨_, rfl, by decide⟩, ⟨_, rfl, by decide⟩⟩
theorem hostOps0_10_fresh : (hostOps0_10 : List (HloOp τ sig (Elt F))).Forall fun op => op.fresh = ∅ :=
  rfl
theorem hostOps0_10_writes : (hostOps0_10 : List (HloOp τ sig (Elt F))).Forall fun op =>
    ∃ y : Ref sig .tc, op.writes = {Proc.devRef (τ := τ) .tc y} ∧ y ∉ [main_arg0, main_arg1, main_arg2, main_arg3, main_arg4, main_arg5] :=
  ⟨_, rfl, by decide⟩
theorem hostOps0_11_fresh : (hostOps0_11 : List (HloOp τ sig (Elt F))).Forall fun op => op.fresh = ∅ :=
  ⟨rfl, rfl⟩
theorem hostOps0_11_writes : (hostOps0_11 : List (HloOp τ sig (Elt F))).Forall fun op =>
    ∃ y : Ref sig .tc, op.writes = {Proc.devRef (τ := τ) .tc y} ∧ y ∉ [main_arg0, main_arg1, main_arg2, main_arg3, main_arg4, main_arg5] :=
  ⟨⟨_, rfl, by decide⟩, ⟨_, rfl, by decide⟩⟩
theorem hostOps0_12_fresh : (hostOps0_12 : List (HloOp τ sig (Elt F))).Forall fun op => op.fresh = ∅ :=
  rfl
theorem hostOps0_12_writes : (hostOps0_12 : List (HloOp τ sig (Elt F))).Forall fun op =>
    ∃ y : Ref sig .tc, op.writes = {Proc.devRef (τ := τ) .tc y} ∧ y ∉ [main_arg0, main_arg1, main_arg2, main_arg3, main_arg4, main_arg5] :=
  ⟨_, rfl, by decide⟩
theorem hostOps0_13_fresh : (hostOps0_13 : List (HloOp τ sig (Elt F))).Forall fun op => op.fresh = ∅ :=
  ⟨rfl, rfl⟩
theorem hostOps0_13_writes : (hostOps0_13 : List (HloOp τ sig (Elt F))).Forall fun op =>
    ∃ y : Ref sig .tc, op.writes = {Proc.devRef (τ := τ) .tc y} ∧ y ∉ [main_arg0, main_arg1, main_arg2, main_arg3, main_arg4, main_arg5] :=
  ⟨⟨_, rfl, by decide⟩, ⟨_, rfl, by decide⟩⟩
theorem hostOps0_14_fresh : (hostOps0_14 : List (HloOp τ sig (Elt F))).Forall fun op => op.fresh = ∅ :=
  rfl
theorem hostOps0_14_writes : (hostOps0_14 : List (HloOp τ sig (Elt F))).Forall fun op =>
    ∃ y : Ref sig .tc, op.writes = {Proc.devRef (τ := τ) .tc y} ∧ y ∉ [main_arg0, main_arg1, main_arg2, main_arg3, main_arg4, main_arg5] :=
  ⟨_, rfl, by decide⟩
theorem hostOps0_15_fresh : (hostOps0_15 : List (HloOp τ sig (Elt F))).Forall fun op => op.fresh = ∅ :=
  ⟨rfl, rfl⟩
theorem hostOps0_15_writes : (hostOps0_15 : List (HloOp τ sig (Elt F))).Forall fun op =>
    ∃ y : Ref sig .tc, op.writes = {Proc.devRef (τ := τ) .tc y} ∧ y ∉ [main_arg0, main_arg1, main_arg2, main_arg3, main_arg4, main_arg5] :=
  ⟨⟨_, rfl, by decide⟩, ⟨_, rfl, by decide⟩⟩
theorem hostOps0_16_fresh : (hostOps0_16 : List (HloOp τ sig (Elt F))).Forall fun op => op.fresh = ∅ :=
  rfl
theorem hostOps0_16_writes : (hostOps0_16 : List (HloOp τ sig (Elt F))).Forall fun op =>
    ∃ y : Ref sig .tc, op.writes = {Proc.devRef (τ := τ) .tc y} ∧ y ∉ [main_arg0, main_arg1, main_arg2, main_arg3, main_arg4, main_arg5] :=
  ⟨_, rfl, by decide⟩
theorem hostOps0_17_fresh : (hostOps0_17 : List (HloOp τ sig (Elt F))).Forall fun op => op.fresh = ∅ :=
  ⟨rfl, rfl⟩
theorem hostOps0_17_writes : (hostOps0_17 : List (HloOp τ sig (Elt F))).Forall fun op =>
    ∃ y : Ref sig .tc, op.writes = {Proc.devRef (τ := τ) .tc y} ∧ y ∉ [main_arg0, main_arg1, main_arg2, main_arg3, main_arg4, main_arg5] :=
  ⟨⟨_, rfl, by decide⟩, ⟨_, rfl, by decide⟩⟩
theorem hostOps0_18_fresh : (hostOps0_18 : List (HloOp τ sig (Elt F))).Forall fun op => op.fresh = ∅ :=
  rfl
theorem hostOps0_18_writes : (hostOps0_18 : List (HloOp τ sig (Elt F))).Forall fun op =>
    ∃ y : Ref sig .tc, op.writes = {Proc.devRef (τ := τ) .tc y} ∧ y ∉ [main_arg0, main_arg1, main_arg2, main_arg3, main_arg4, main_arg5] :=
  ⟨_, rfl, by decide⟩
theorem hostOps0_19_fresh : (hostOps0_19 : List (HloOp τ sig (Elt F))).Forall fun op => op.fresh = ∅ :=
  ⟨rfl, rfl⟩
theorem hostOps0_19_writes : (hostOps0_19 : List (HloOp τ sig (Elt F))).Forall fun op =>
    ∃ y : Ref sig .tc, op.writes = {Proc.devRef (τ := τ) .tc y} ∧ y ∉ [main_arg0, main_arg1, main_arg2, main_arg3, main_arg4, main_arg5] :=
  ⟨⟨_, rfl, by decide⟩, ⟨_, rfl, by decide⟩⟩
theorem hostOps0_20_fresh : (hostOps0_20 : List (HloOp τ sig (Elt F))).Forall fun op => op.fresh = ∅ :=
  rfl
theorem hostOps0_20_writes : (hostOps0_20 : List (HloOp τ sig (Elt F))).Forall fun op =>
    ∃ y : Ref sig .tc, op.writes = {Proc.devRef (τ := τ) .tc y} ∧ y ∉ [main_arg0, main_arg1, main_arg2, main_arg3, main_arg4, main_arg5] :=
  ⟨_, rfl, by decide⟩
theorem hostOps0_21_fresh : (hostOps0_21 : List (HloOp τ sig (Elt F))).Forall fun op => op.fresh = ∅ :=
  ⟨rfl, rfl⟩
theorem hostOps0_21_writes : (hostOps0_21 : List (HloOp τ sig (Elt F))).Forall fun op =>
    ∃ y : Ref sig .tc, op.writes = {Proc.devRef (τ := τ) .tc y} ∧ y ∉ [main_arg0, main_arg1, main_arg2, main_arg3, main_arg4, main_arg5] :=
  ⟨⟨_, rfl, by decide⟩, ⟨_, rfl, by decide⟩⟩
theorem hostOps0_22_fresh : (hostOps0_22 : List (HloOp τ sig (Elt F))).Forall fun op => op.fresh = ∅ :=
  rfl
theorem hostOps0_22_writes : (hostOps0_22 : List (HloOp τ sig (Elt F))).Forall fun op =>
    ∃ y : Ref sig .tc, op.writes = {Proc.devRef (τ := τ) .tc y} ∧ y ∉ [main_arg0, main_arg1, main_arg2, main_arg3, main_arg4, main_arg5] :=
  ⟨_, rfl, by decide⟩
theorem hostOps0_23_fresh : (hostOps0_23 : List (HloOp τ sig (Elt F))).Forall fun op => op.fresh = ∅ :=
  ⟨rfl, rfl⟩
theorem hostOps0_23_writes : (hostOps0_23 : List (HloOp τ sig (Elt F))).Forall fun op =>
    ∃ y : Ref sig .tc, op.writes = {Proc.devRef (τ := τ) .tc y} ∧ y ∉ [main_arg0, main_arg1, main_arg2, main_arg3, main_arg4, main_arg5] :=
  ⟨⟨_, rfl, by decide⟩, ⟨_, rfl, by decide⟩⟩
theorem hostOps0_24_fresh : (hostOps0_24 : List (HloOp τ sig (Elt F))).Forall fun op => op.fresh = ∅ :=
  rfl
theorem hostOps0_24_writes : (hostOps0_24 : List (HloOp τ sig (Elt F))).Forall fun op =>
    ∃ y : Ref sig .tc, op.writes = {Proc.devRef (τ := τ) .tc y} ∧ y ∉ [main_arg0, main_arg1, main_arg2, main_arg3, main_arg4, main_arg5] :=
  ⟨_, rfl, by decide⟩
theorem hostOps0_25_fresh : (hostOps0_25 : List (HloOp τ sig (Elt F))).Forall fun op => op.fresh = ∅ :=
  ⟨rfl, rfl⟩
theorem hostOps0_25_writes : (hostOps0_25 : List (HloOp τ sig (Elt F))).Forall fun op =>
    ∃ y : Ref sig .tc, op.writes = {Proc.devRef (τ := τ) .tc y} ∧ y ∉ [main_arg0, main_arg1, main_arg2, main_arg3, main_arg4, main_arg5] :=
  ⟨⟨_, rfl, by decide⟩, ⟨_, rfl, by decide⟩⟩
theorem hostOps0_26_fresh : (hostOps0_26 : List (HloOp τ sig (Elt F))).Forall fun op => op.fresh = ∅ :=
  rfl
theorem hostOps0_26_writes : (hostOps0_26 : List (HloOp τ sig (Elt F))).Forall fun op =>
    ∃ y : Ref sig .tc, op.writes = {Proc.devRef (τ := τ) .tc y} ∧ y ∉ [main_arg0, main_arg1, main_arg2, main_arg3, main_arg4, main_arg5] :=
  ⟨_, rfl, by decide⟩
theorem hostOps0_27_fresh : (hostOps0_27 : List (HloOp τ sig (Elt F))).Forall fun op => op.fresh = ∅ :=
  ⟨rfl, rfl⟩
theorem hostOps0_27_writes : (hostOps0_27 : List (HloOp τ sig (Elt F))).Forall fun op =>
    ∃ y : Ref sig .tc, op.writes = {Proc.devRef (τ := τ) .tc y} ∧ y ∉ [main_arg0, main_arg1, main_arg2, main_arg3, main_arg4, main_arg5] :=
  ⟨⟨_, rfl, by decide⟩, ⟨_, rfl, by decide⟩⟩
theorem hostOps0_28_fresh : (hostOps0_28 : List (HloOp τ sig (Elt F))).Forall fun op => op.fresh = ∅ :=
  rfl
theorem hostOps0_28_writes : (hostOps0_28 : List (HloOp τ sig (Elt F))).Forall fun op =>
    ∃ y : Ref sig .tc, op.writes = {Proc.devRef (τ := τ) .tc y} ∧ y ∉ [main_arg0, main_arg1, main_arg2, main_arg3, main_arg4, main_arg5] :=
  ⟨_, rfl, by decide⟩
theorem hostOps0_29_fresh : (hostOps0_29 : List (HloOp τ sig (Elt F))).Forall fun op => op.fresh = ∅ :=
  ⟨rfl, rfl⟩
theorem hostOps0_29_writes : (hostOps0_29 : List (HloOp τ sig (Elt F))).Forall fun op =>
    ∃ y : Ref sig .tc, op.writes = {Proc.devRef (τ := τ) .tc y} ∧ y ∉ [main_arg0, main_arg1, main_arg2, main_arg3, main_arg4, main_arg5] :=
  ⟨⟨_, rfl, by decide⟩, ⟨_, rfl, by decide⟩⟩
theorem hostOps0_30_fresh : (hostOps0_30 : List (HloOp τ sig (Elt F))).Forall fun op => op.fresh = ∅ :=
  rfl
theorem hostOps0_30_writes : (hostOps0_30 : List (HloOp τ sig (Elt F))).Forall fun op =>
    ∃ y : Ref sig .tc, op.writes = {Proc.devRef (τ := τ) .tc y} ∧ y ∉ [main_arg0, main_arg1, main_arg2, main_arg3, main_arg4, main_arg5] :=
  ⟨_, rfl, by decide⟩
theorem hostOps0_31_fresh : (hostOps0_31 : List (HloOp τ sig (Elt F))).Forall fun op => op.fresh = ∅ :=
  ⟨rfl, rfl⟩
theorem hostOps0_31_writes : (hostOps0_31 : List (HloOp τ sig (Elt F))).Forall fun op =>
    ∃ y : Ref sig .tc, op.writes = {Proc.devRef (τ := τ) .tc y} ∧ y ∉ [main_arg0, main_arg1, main_arg2, main_arg3, main_arg4, main_arg5] :=
  ⟨⟨_, rfl, by decide⟩, ⟨_, rfl, by decide⟩⟩
theorem hostOps0_32_fresh : (hostOps0_32 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩
theorem hostOps0_32_writes : (hostOps0_32 : List (HloOp τ sig (Elt F))).Forall fun op =>
    ∃ y : Ref sig .tc, op.writes = {Proc.devRef (τ := τ) .tc y} ∧ y ∉ [main_arg0, main_arg1, main_arg2, main_arg3, main_arg4, main_arg5] :=
  ⟨⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩⟩
theorem hostOps0_33_fresh : (hostOps0_33 : List (HloOp τ sig (Elt F))).Forall fun op => op.fresh = ∅ :=
  ⟨rfl, rfl, rfl, rfl, rfl, rfl⟩
theorem hostOps0_33_writes : (hostOps0_33 : List (HloOp τ sig (Elt F))).Forall fun op =>
    ∃ y : Ref sig .tc, op.writes = {Proc.devRef (τ := τ) .tc y} ∧ y ∉ [main_arg0, main_arg1, main_arg2, main_arg3, main_arg4, main_arg5] :=
  ⟨⟨_, rfl, by decide⟩, ⟨_, rfl, by decide⟩, ⟨_, rfl, by decide⟩, ⟨_, rfl, by decide⟩, ⟨_, rfl, by decide⟩, ⟨_, rfl, by decide⟩⟩
theorem hostOps0_34_fresh : (hostOps0_34 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩
theorem hostOps0_34_writes : (hostOps0_34 : List (HloOp τ sig (Elt F))).Forall fun op =>
    ∃ y : Ref sig .tc, op.writes = {Proc.devRef (τ := τ) .tc y} ∧ y ∉ [main_arg0, main_arg1, main_arg2, main_arg3, main_arg4, main_arg5] :=
  ⟨⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩⟩
theorem hostOps0_35_fresh : (hostOps0_35 : List (HloOp τ sig (Elt F))).Forall fun op => op.fresh = ∅ :=
  ⟨rfl, rfl⟩
theorem hostOps0_35_writes : (hostOps0_35 : List (HloOp τ sig (Elt F))).Forall fun op =>
    ∃ y : Ref sig .tc, op.writes = {Proc.devRef (τ := τ) .tc y} ∧ y ∉ [main_arg0, main_arg1, main_arg2, main_arg3, main_arg4, main_arg5] :=
  ⟨⟨_, rfl, by decide⟩, ⟨_, rfl, by decide⟩⟩
theorem hostOps0_36_fresh : (hostOps0_36 : List (HloOp τ sig (Elt F))).Forall fun op => op.fresh = ∅ :=
  rfl
theorem hostOps0_36_writes : (hostOps0_36 : List (HloOp τ sig (Elt F))).Forall fun op =>
    ∃ y : Ref sig .tc, op.writes = {Proc.devRef (τ := τ) .tc y} ∧ y ∉ [main_arg0, main_arg1, main_arg2, main_arg3, main_arg4, main_arg5] :=
  ⟨_, rfl, by decide⟩
theorem hostOps0_37_fresh : (hostOps0_37 : List (HloOp τ sig (Elt F))).Forall fun op => op.fresh = ∅ :=
  ⟨rfl, rfl⟩
theorem hostOps0_37_writes : (hostOps0_37 : List (HloOp τ sig (Elt F))).Forall fun op =>
    ∃ y : Ref sig .tc, op.writes = {Proc.devRef (τ := τ) .tc y} ∧ y ∉ [main_arg0, main_arg1, main_arg2, main_arg3, main_arg4, main_arg5] :=
  ⟨⟨_, rfl, by decide⟩, ⟨_, rfl, by decide⟩⟩
theorem hostOps0_38_fresh : (hostOps0_38 : List (HloOp τ sig (Elt F))).Forall fun op => op.fresh = ∅ :=
  rfl
theorem hostOps0_38_writes : (hostOps0_38 : List (HloOp τ sig (Elt F))).Forall fun op =>
    ∃ y : Ref sig .tc, op.writes = {Proc.devRef (τ := τ) .tc y} ∧ y ∉ [main_arg0, main_arg1, main_arg2, main_arg3, main_arg4, main_arg5] :=
  ⟨_, rfl, by decide⟩
theorem hostOps0_39_fresh : (hostOps0_39 : List (HloOp τ sig (Elt F))).Forall fun op => op.fresh = ∅ :=
  ⟨rfl, rfl⟩
theorem hostOps0_39_writes : (hostOps0_39 : List (HloOp τ sig (Elt F))).Forall fun op =>
    ∃ y : Ref sig .tc, op.writes = {Proc.devRef (τ := τ) .tc y} ∧ y ∉ [main_arg0, main_arg1, main_arg2, main_arg3, main_arg4, main_arg5] :=
  ⟨⟨_, rfl, by decide⟩, ⟨_, rfl, by decide⟩⟩
theorem hostOps0_40_fresh : (hostOps0_40 : List (HloOp τ sig (Elt F))).Forall fun op => op.fresh = ∅ :=
  rfl
theorem hostOps0_40_writes : (hostOps0_40 : List (HloOp τ sig (Elt F))).Forall fun op =>
    ∃ y : Ref sig .tc, op.writes = {Proc.devRef (τ := τ) .tc y} ∧ y ∉ [main_arg0, main_arg1, main_arg2, main_arg3, main_arg4, main_arg5] :=
  ⟨_, rfl, by decide⟩
theorem hostOps0_41_fresh : (hostOps0_41 : List (HloOp τ sig (Elt F))).Forall fun op => op.fresh = ∅ :=
  ⟨rfl, rfl⟩
theorem hostOps0_41_writes : (hostOps0_41 : List (HloOp τ sig (Elt F))).Forall fun op =>
    ∃ y : Ref sig .tc, op.writes = {Proc.devRef (τ := τ) .tc y} ∧ y ∉ [main_arg0, main_arg1, main_arg2, main_arg3, main_arg4, main_arg5] :=
  ⟨⟨_, rfl, by decide⟩, ⟨_, rfl, by decide⟩⟩
theorem hostOps0_42_fresh : (hostOps0_42 : List (HloOp τ sig (Elt F))).Forall fun op => op.fresh = ∅ :=
  rfl
theorem hostOps0_42_writes : (hostOps0_42 : List (HloOp τ sig (Elt F))).Forall fun op =>
    ∃ y : Ref sig .tc, op.writes = {Proc.devRef (τ := τ) .tc y} ∧ y ∉ [main_arg0, main_arg1, main_arg2, main_arg3, main_arg4, main_arg5] :=
  ⟨_, rfl, by decide⟩
theorem hostOps0_43_fresh : (hostOps0_43 : List (HloOp τ sig (Elt F))).Forall fun op => op.fresh = ∅ :=
  ⟨rfl, rfl⟩
theorem hostOps0_43_writes : (hostOps0_43 : List (HloOp τ sig (Elt F))).Forall fun op =>
    ∃ y : Ref sig .tc, op.writes = {Proc.devRef (τ := τ) .tc y} ∧ y ∉ [main_arg0, main_arg1, main_arg2, main_arg3, main_arg4, main_arg5] :=
  ⟨⟨_, rfl, by decide⟩, ⟨_, rfl, by decide⟩⟩
theorem hostOps0_44_fresh : (hostOps0_44 : List (HloOp τ sig (Elt F))).Forall fun op => op.fresh = ∅ :=
  rfl
theorem hostOps0_44_writes : (hostOps0_44 : List (HloOp τ sig (Elt F))).Forall fun op =>
    ∃ y : Ref sig .tc, op.writes = {Proc.devRef (τ := τ) .tc y} ∧ y ∉ [main_arg0, main_arg1, main_arg2, main_arg3, main_arg4, main_arg5] :=
  ⟨_, rfl, by decide⟩
theorem hostOps0_45_fresh : (hostOps0_45 : List (HloOp τ sig (Elt F))).Forall fun op => op.fresh = ∅ :=
  ⟨rfl, rfl⟩
theorem hostOps0_45_writes : (hostOps0_45 : List (HloOp τ sig (Elt F))).Forall fun op =>
    ∃ y : Ref sig .tc, op.writes = {Proc.devRef (τ := τ) .tc y} ∧ y ∉ [main_arg0, main_arg1, main_arg2, main_arg3, main_arg4, main_arg5] :=
  ⟨⟨_, rfl, by decide⟩, ⟨_, rfl, by decide⟩⟩
theorem hostOps0_46_fresh : (hostOps0_46 : List (HloOp τ sig (Elt F))).Forall fun op => op.fresh = ∅ :=
  rfl
theorem hostOps0_46_writes : (hostOps0_46 : List (HloOp τ sig (Elt F))).Forall fun op =>
    ∃ y : Ref sig .tc, op.writes = {Proc.devRef (τ := τ) .tc y} ∧ y ∉ [main_arg0, main_arg1, main_arg2, main_arg3, main_arg4, main_arg5] :=
  ⟨_, rfl, by decide⟩
theorem hostOps0_47_fresh : (hostOps0_47 : List (HloOp τ sig (Elt F))).Forall fun op => op.fresh = ∅ :=
  ⟨rfl, rfl⟩
theorem hostOps0_47_writes : (hostOps0_47 : List (HloOp τ sig (Elt F))).Forall fun op =>
    ∃ y : Ref sig .tc, op.writes = {Proc.devRef (τ := τ) .tc y} ∧ y ∉ [main_arg0, main_arg1, main_arg2, main_arg3, main_arg4, main_arg5] :=
  ⟨⟨_, rfl, by decide⟩, ⟨_, rfl, by decide⟩⟩
theorem hostOps0_48_fresh : (hostOps0_48 : List (HloOp τ sig (Elt F))).Forall fun op => op.fresh = ∅ :=
  rfl
theorem hostOps0_48_writes : (hostOps0_48 : List (HloOp τ sig (Elt F))).Forall fun op =>
    ∃ y : Ref sig .tc, op.writes = {Proc.devRef (τ := τ) .tc y} ∧ y ∉ [main_arg0, main_arg1, main_arg2, main_arg3, main_arg4, main_arg5] :=
  ⟨_, rfl, by decide⟩
theorem hostOps0_49_fresh : (hostOps0_49 : List (HloOp τ sig (Elt F))).Forall fun op => op.fresh = ∅ :=
  ⟨rfl, rfl⟩
theorem hostOps0_49_writes : (hostOps0_49 : List (HloOp τ sig (Elt F))).Forall fun op =>
    ∃ y : Ref sig .tc, op.writes = {Proc.devRef (τ := τ) .tc y} ∧ y ∉ [main_arg0, main_arg1, main_arg2, main_arg3, main_arg4, main_arg5] :=
  ⟨⟨_, rfl, by decide⟩, ⟨_, rfl, by decide⟩⟩
theorem hostOps0_50_fresh : (hostOps0_50 : List (HloOp τ sig (Elt F))).Forall fun op => op.fresh = ∅ :=
  rfl
theorem hostOps0_50_writes : (hostOps0_50 : List (HloOp τ sig (Elt F))).Forall fun op =>
    ∃ y : Ref sig .tc, op.writes = {Proc.devRef (τ := τ) .tc y} ∧ y ∉ [main_arg0, main_arg1, main_arg2, main_arg3, main_arg4, main_arg5] :=
  ⟨_, rfl, by decide⟩
theorem hostOps0_51_fresh : (hostOps0_51 : List (HloOp τ sig (Elt F))).Forall fun op => op.fresh = ∅ :=
  ⟨rfl, rfl⟩
theorem hostOps0_51_writes : (hostOps0_51 : List (HloOp τ sig (Elt F))).Forall fun op =>
    ∃ y : Ref sig .tc, op.writes = {Proc.devRef (τ := τ) .tc y} ∧ y ∉ [main_arg0, main_arg1, main_arg2, main_arg3, main_arg4, main_arg5] :=
  ⟨⟨_, rfl, by decide⟩, ⟨_, rfl, by decide⟩⟩
theorem hostOps0_52_fresh : (hostOps0_52 : List (HloOp τ sig (Elt F))).Forall fun op => op.fresh = ∅ :=
  rfl
theorem hostOps0_52_writes : (hostOps0_52 : List (HloOp τ sig (Elt F))).Forall fun op =>
    ∃ y : Ref sig .tc, op.writes = {Proc.devRef (τ := τ) .tc y} ∧ y ∉ [main_arg0, main_arg1, main_arg2, main_arg3, main_arg4, main_arg5] :=
  ⟨_, rfl, by decide⟩
theorem hostOps0_53_fresh : (hostOps0_53 : List (HloOp τ sig (Elt F))).Forall fun op => op.fresh = ∅ :=
  ⟨rfl, rfl⟩
theorem hostOps0_53_writes : (hostOps0_53 : List (HloOp τ sig (Elt F))).Forall fun op =>
    ∃ y : Ref sig .tc, op.writes = {Proc.devRef (τ := τ) .tc y} ∧ y ∉ [main_arg0, main_arg1, main_arg2, main_arg3, main_arg4, main_arg5] :=
  ⟨⟨_, rfl, by decide⟩, ⟨_, rfl, by decide⟩⟩
theorem hostOps0_54_fresh : (hostOps0_54 : List (HloOp τ sig (Elt F))).Forall fun op => op.fresh = ∅ :=
  rfl
theorem hostOps0_54_writes : (hostOps0_54 : List (HloOp τ sig (Elt F))).Forall fun op =>
    ∃ y : Ref sig .tc, op.writes = {Proc.devRef (τ := τ) .tc y} ∧ y ∉ [main_arg0, main_arg1, main_arg2, main_arg3, main_arg4, main_arg5] :=
  ⟨_, rfl, by decide⟩
theorem hostOps0_55_fresh : (hostOps0_55 : List (HloOp τ sig (Elt F))).Forall fun op => op.fresh = ∅ :=
  ⟨rfl, rfl⟩
theorem hostOps0_55_writes : (hostOps0_55 : List (HloOp τ sig (Elt F))).Forall fun op =>
    ∃ y : Ref sig .tc, op.writes = {Proc.devRef (τ := τ) .tc y} ∧ y ∉ [main_arg0, main_arg1, main_arg2, main_arg3, main_arg4, main_arg5] :=
  ⟨⟨_, rfl, by decide⟩, ⟨_, rfl, by decide⟩⟩
theorem hostOps0_56_fresh : (hostOps0_56 : List (HloOp τ sig (Elt F))).Forall fun op => op.fresh = ∅ :=
  rfl
theorem hostOps0_56_writes : (hostOps0_56 : List (HloOp τ sig (Elt F))).Forall fun op =>
    ∃ y : Ref sig .tc, op.writes = {Proc.devRef (τ := τ) .tc y} ∧ y ∉ [main_arg0, main_arg1, main_arg2, main_arg3, main_arg4, main_arg5] :=
  ⟨_, rfl, by decide⟩
theorem hostOps0_57_fresh : (hostOps0_57 : List (HloOp τ sig (Elt F))).Forall fun op => op.fresh = ∅ :=
  ⟨rfl, rfl⟩
theorem hostOps0_57_writes : (hostOps0_57 : List (HloOp τ sig (Elt F))).Forall fun op =>
    ∃ y : Ref sig .tc, op.writes = {Proc.devRef (τ := τ) .tc y} ∧ y ∉ [main_arg0, main_arg1, main_arg2, main_arg3, main_arg4, main_arg5] :=
  ⟨⟨_, rfl, by decide⟩, ⟨_, rfl, by decide⟩⟩
theorem hostOps0_58_fresh : (hostOps0_58 : List (HloOp τ sig (Elt F))).Forall fun op => op.fresh = ∅ :=
  rfl
theorem hostOps0_58_writes : (hostOps0_58 : List (HloOp τ sig (Elt F))).Forall fun op =>
    ∃ y : Ref sig .tc, op.writes = {Proc.devRef (τ := τ) .tc y} ∧ y ∉ [main_arg0, main_arg1, main_arg2, main_arg3, main_arg4, main_arg5] :=
  ⟨_, rfl, by decide⟩
theorem hostOps0_59_fresh : (hostOps0_59 : List (HloOp τ sig (Elt F))).Forall fun op => op.fresh = ∅ :=
  ⟨rfl, rfl⟩
theorem hostOps0_59_writes : (hostOps0_59 : List (HloOp τ sig (Elt F))).Forall fun op =>
    ∃ y : Ref sig .tc, op.writes = {Proc.devRef (τ := τ) .tc y} ∧ y ∉ [main_arg0, main_arg1, main_arg2, main_arg3, main_arg4, main_arg5] :=
  ⟨⟨_, rfl, by decide⟩, ⟨_, rfl, by decide⟩⟩
theorem hostOps0_60_fresh : (hostOps0_60 : List (HloOp τ sig (Elt F))).Forall fun op => op.fresh = ∅ :=
  rfl
theorem hostOps0_60_writes : (hostOps0_60 : List (HloOp τ sig (Elt F))).Forall fun op =>
    ∃ y : Ref sig .tc, op.writes = {Proc.devRef (τ := τ) .tc y} ∧ y ∉ [main_arg0, main_arg1, main_arg2, main_arg3, main_arg4, main_arg5] :=
  ⟨_, rfl, by decide⟩
theorem hostOps0_61_fresh : (hostOps0_61 : List (HloOp τ sig (Elt F))).Forall fun op => op.fresh = ∅ :=
  ⟨rfl, rfl⟩
theorem hostOps0_61_writes : (hostOps0_61 : List (HloOp τ sig (Elt F))).Forall fun op =>
    ∃ y : Ref sig .tc, op.writes = {Proc.devRef (τ := τ) .tc y} ∧ y ∉ [main_arg0, main_arg1, main_arg2, main_arg3, main_arg4, main_arg5] :=
  ⟨⟨_, rfl, by decide⟩, ⟨_, rfl, by decide⟩⟩
theorem hostOps0_62_fresh : (hostOps0_62 : List (HloOp τ sig (Elt F))).Forall fun op => op.fresh = ∅ :=
  rfl
theorem hostOps0_62_writes : (hostOps0_62 : List (HloOp τ sig (Elt F))).Forall fun op =>
    ∃ y : Ref sig .tc, op.writes = {Proc.devRef (τ := τ) .tc y} ∧ y ∉ [main_arg0, main_arg1, main_arg2, main_arg3, main_arg4, main_arg5] :=
  ⟨_, rfl, by decide⟩
theorem hostOps0_63_fresh : (hostOps0_63 : List (HloOp τ sig (Elt F))).Forall fun op => op.fresh = ∅ :=
  ⟨rfl, rfl⟩
theorem hostOps0_63_writes : (hostOps0_63 : List (HloOp τ sig (Elt F))).Forall fun op =>
    ∃ y : Ref sig .tc, op.writes = {Proc.devRef (τ := τ) .tc y} ∧ y ∉ [main_arg0, main_arg1, main_arg2, main_arg3, main_arg4, main_arg5] :=
  ⟨⟨_, rfl, by decide⟩, ⟨_, rfl, by decide⟩⟩
theorem hostOps0_64_fresh : (hostOps0_64 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩
theorem hostOps0_64_writes : (hostOps0_64 : List (HloOp τ sig (Elt F))).Forall fun op =>
    ∃ y : Ref sig .tc, op.writes = {Proc.devRef (τ := τ) .tc y} ∧ y ∉ [main_arg0, main_arg1, main_arg2, main_arg3, main_arg4, main_arg5] :=
  ⟨⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩⟩
theorem hostOps0_65_fresh : (hostOps0_65 : List (HloOp τ sig (Elt F))).Forall fun op => op.fresh = ∅ :=
  ⟨rfl, rfl, rfl, rfl, rfl, rfl⟩
theorem hostOps0_65_writes : (hostOps0_65 : List (HloOp τ sig (Elt F))).Forall fun op =>
    ∃ y : Ref sig .tc, op.writes = {Proc.devRef (τ := τ) .tc y} ∧ y ∉ [main_arg0, main_arg1, main_arg2, main_arg3, main_arg4, main_arg5] :=
  ⟨⟨_, rfl, by decide⟩, ⟨_, rfl, by decide⟩, ⟨_, rfl, by decide⟩, ⟨_, rfl, by decide⟩, ⟨_, rfl, by decide⟩, ⟨_, rfl, by decide⟩⟩
theorem hostOps0_66_fresh : (hostOps0_66 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩
theorem hostOps0_66_writes : (hostOps0_66 : List (HloOp τ sig (Elt F))).Forall fun op =>
    ∃ y : Ref sig .tc, op.writes = {Proc.devRef (τ := τ) .tc y} ∧ y ∉ [main_arg0, main_arg1, main_arg2, main_arg3, main_arg4, main_arg5] :=
  ⟨⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩⟩
theorem hostOps0_67_fresh : (hostOps0_67 : List (HloOp τ sig (Elt F))).Forall fun op => op.fresh = ∅ :=
  ⟨rfl, rfl⟩
theorem hostOps0_67_writes : (hostOps0_67 : List (HloOp τ sig (Elt F))).Forall fun op =>
    ∃ y : Ref sig .tc, op.writes = {Proc.devRef (τ := τ) .tc y} ∧ y ∉ [main_arg0, main_arg1, main_arg2, main_arg3, main_arg4, main_arg5] :=
  ⟨⟨_, rfl, by decide⟩, ⟨_, rfl, by decide⟩⟩
theorem hostOps0_68_fresh : (hostOps0_68 : List (HloOp τ sig (Elt F))).Forall fun op => op.fresh = ∅ :=
  rfl
theorem hostOps0_68_writes : (hostOps0_68 : List (HloOp τ sig (Elt F))).Forall fun op =>
    ∃ y : Ref sig .tc, op.writes = {Proc.devRef (τ := τ) .tc y} ∧ y ∉ [main_arg0, main_arg1, main_arg2, main_arg3, main_arg4, main_arg5] :=
  ⟨_, rfl, by decide⟩
theorem hostOps0_69_fresh : (hostOps0_69 : List (HloOp τ sig (Elt F))).Forall fun op => op.fresh = ∅ :=
  ⟨rfl, rfl⟩
theorem hostOps0_69_writes : (hostOps0_69 : List (HloOp τ sig (Elt F))).Forall fun op =>
    ∃ y : Ref sig .tc, op.writes = {Proc.devRef (τ := τ) .tc y} ∧ y ∉ [main_arg0, main_arg1, main_arg2, main_arg3, main_arg4, main_arg5] :=
  ⟨⟨_, rfl, by decide⟩, ⟨_, rfl, by decide⟩⟩
theorem hostOps0_70_fresh : (hostOps0_70 : List (HloOp τ sig (Elt F))).Forall fun op => op.fresh = ∅ :=
  rfl
theorem hostOps0_70_writes : (hostOps0_70 : List (HloOp τ sig (Elt F))).Forall fun op =>
    ∃ y : Ref sig .tc, op.writes = {Proc.devRef (τ := τ) .tc y} ∧ y ∉ [main_arg0, main_arg1, main_arg2, main_arg3, main_arg4, main_arg5] :=
  ⟨_, rfl, by decide⟩
theorem hostOps0_71_fresh : (hostOps0_71 : List (HloOp τ sig (Elt F))).Forall fun op => op.fresh = ∅ :=
  ⟨rfl, rfl⟩
theorem hostOps0_71_writes : (hostOps0_71 : List (HloOp τ sig (Elt F))).Forall fun op =>
    ∃ y : Ref sig .tc, op.writes = {Proc.devRef (τ := τ) .tc y} ∧ y ∉ [main_arg0, main_arg1, main_arg2, main_arg3, main_arg4, main_arg5] :=
  ⟨⟨_, rfl, by decide⟩, ⟨_, rfl, by decide⟩⟩
theorem hostOps0_72_fresh : (hostOps0_72 : List (HloOp τ sig (Elt F))).Forall fun op => op.fresh = ∅ :=
  rfl
theorem hostOps0_72_writes : (hostOps0_72 : List (HloOp τ sig (Elt F))).Forall fun op =>
    ∃ y : Ref sig .tc, op.writes = {Proc.devRef (τ := τ) .tc y} ∧ y ∉ [main_arg0, main_arg1, main_arg2, main_arg3, main_arg4, main_arg5] :=
  ⟨_, rfl, by decide⟩
theorem hostOps0_73_fresh : (hostOps0_73 : List (HloOp τ sig (Elt F))).Forall fun op => op.fresh = ∅ :=
  ⟨rfl, rfl⟩
theorem hostOps0_73_writes : (hostOps0_73 : List (HloOp τ sig (Elt F))).Forall fun op =>
    ∃ y : Ref sig .tc, op.writes = {Proc.devRef (τ := τ) .tc y} ∧ y ∉ [main_arg0, main_arg1, main_arg2, main_arg3, main_arg4, main_arg5] :=
  ⟨⟨_, rfl, by decide⟩, ⟨_, rfl, by decide⟩⟩
theorem hostOps0_74_fresh : (hostOps0_74 : List (HloOp τ sig (Elt F))).Forall fun op => op.fresh = ∅ :=
  rfl
theorem hostOps0_74_writes : (hostOps0_74 : List (HloOp τ sig (Elt F))).Forall fun op =>
    ∃ y : Ref sig .tc, op.writes = {Proc.devRef (τ := τ) .tc y} ∧ y ∉ [main_arg0, main_arg1, main_arg2, main_arg3, main_arg4, main_arg5] :=
  ⟨_, rfl, by decide⟩
theorem hostOps0_75_fresh : (hostOps0_75 : List (HloOp τ sig (Elt F))).Forall fun op => op.fresh = ∅ :=
  ⟨rfl, rfl⟩
theorem hostOps0_75_writes : (hostOps0_75 : List (HloOp τ sig (Elt F))).Forall fun op =>
    ∃ y : Ref sig .tc, op.writes = {Proc.devRef (τ := τ) .tc y} ∧ y ∉ [main_arg0, main_arg1, main_arg2, main_arg3, main_arg4, main_arg5] :=
  ⟨⟨_, rfl, by decide⟩, ⟨_, rfl, by decide⟩⟩
theorem hostOps0_76_fresh : (hostOps0_76 : List (HloOp τ sig (Elt F))).Forall fun op => op.fresh = ∅ :=
  rfl
theorem hostOps0_76_writes : (hostOps0_76 : List (HloOp τ sig (Elt F))).Forall fun op =>
    ∃ y : Ref sig .tc, op.writes = {Proc.devRef (τ := τ) .tc y} ∧ y ∉ [main_arg0, main_arg1, main_arg2, main_arg3, main_arg4, main_arg5] :=
  ⟨_, rfl, by decide⟩
theorem hostOps0_77_fresh : (hostOps0_77 : List (HloOp τ sig (Elt F))).Forall fun op => op.fresh = ∅ :=
  ⟨rfl, rfl⟩
theorem hostOps0_77_writes : (hostOps0_77 : List (HloOp τ sig (Elt F))).Forall fun op =>
    ∃ y : Ref sig .tc, op.writes = {Proc.devRef (τ := τ) .tc y} ∧ y ∉ [main_arg0, main_arg1, main_arg2, main_arg3, main_arg4, main_arg5] :=
  ⟨⟨_, rfl, by decide⟩, ⟨_, rfl, by decide⟩⟩
theorem hostOps0_78_fresh : (hostOps0_78 : List (HloOp τ sig (Elt F))).Forall fun op => op.fresh = ∅ :=
  rfl
theorem hostOps0_78_writes : (hostOps0_78 : List (HloOp τ sig (Elt F))).Forall fun op =>
    ∃ y : Ref sig .tc, op.writes = {Proc.devRef (τ := τ) .tc y} ∧ y ∉ [main_arg0, main_arg1, main_arg2, main_arg3, main_arg4, main_arg5] :=
  ⟨_, rfl, by decide⟩
theorem hostOps0_79_fresh : (hostOps0_79 : List (HloOp τ sig (Elt F))).Forall fun op => op.fresh = ∅ :=
  ⟨rfl, rfl⟩
theorem hostOps0_79_writes : (hostOps0_79 : List (HloOp τ sig (Elt F))).Forall fun op =>
    ∃ y : Ref sig .tc, op.writes = {Proc.devRef (τ := τ) .tc y} ∧ y ∉ [main_arg0, main_arg1, main_arg2, main_arg3, main_arg4, main_arg5] :=
  ⟨⟨_, rfl, by decide⟩, ⟨_, rfl, by decide⟩⟩
theorem hostOps0_80_fresh : (hostOps0_80 : List (HloOp τ sig (Elt F))).Forall fun op => op.fresh = ∅ :=
  rfl
theorem hostOps0_80_writes : (hostOps0_80 : List (HloOp τ sig (Elt F))).Forall fun op =>
    ∃ y : Ref sig .tc, op.writes = {Proc.devRef (τ := τ) .tc y} ∧ y ∉ [main_arg0, main_arg1, main_arg2, main_arg3, main_arg4, main_arg5] :=
  ⟨_, rfl, by decide⟩
theorem hostOps0_81_fresh : (hostOps0_81 : List (HloOp τ sig (Elt F))).Forall fun op => op.fresh = ∅ :=
  ⟨rfl, rfl⟩
theorem hostOps0_81_writes : (hostOps0_81 : List (HloOp τ sig (Elt F))).Forall fun op =>
    ∃ y : Ref sig .tc, op.writes = {Proc.devRef (τ := τ) .tc y} ∧ y ∉ [main_arg0, main_arg1, main_arg2, main_arg3, main_arg4, main_arg5] :=
  ⟨⟨_, rfl, by decide⟩, ⟨_, rfl, by decide⟩⟩
theorem hostOps0_82_fresh : (hostOps0_82 : List (HloOp τ sig (Elt F))).Forall fun op => op.fresh = ∅ :=
  rfl
theorem hostOps0_82_writes : (hostOps0_82 : List (HloOp τ sig (Elt F))).Forall fun op =>
    ∃ y : Ref sig .tc, op.writes = {Proc.devRef (τ := τ) .tc y} ∧ y ∉ [main_arg0, main_arg1, main_arg2, main_arg3, main_arg4, main_arg5] :=
  ⟨_, rfl, by decide⟩
theorem hostOps0_83_fresh : (hostOps0_83 : List (HloOp τ sig (Elt F))).Forall fun op => op.fresh = ∅ :=
  ⟨rfl, rfl⟩
theorem hostOps0_83_writes : (hostOps0_83 : List (HloOp τ sig (Elt F))).Forall fun op =>
    ∃ y : Ref sig .tc, op.writes = {Proc.devRef (τ := τ) .tc y} ∧ y ∉ [main_arg0, main_arg1, main_arg2, main_arg3, main_arg4, main_arg5] :=
  ⟨⟨_, rfl, by decide⟩, ⟨_, rfl, by decide⟩⟩
theorem hostOps0_84_fresh : (hostOps0_84 : List (HloOp τ sig (Elt F))).Forall fun op => op.fresh = ∅ :=
  rfl
theorem hostOps0_84_writes : (hostOps0_84 : List (HloOp τ sig (Elt F))).Forall fun op =>
    ∃ y : Ref sig .tc, op.writes = {Proc.devRef (τ := τ) .tc y} ∧ y ∉ [main_arg0, main_arg1, main_arg2, main_arg3, main_arg4, main_arg5] :=
  ⟨_, rfl, by decide⟩
theorem hostOps0_85_fresh : (hostOps0_85 : List (HloOp τ sig (Elt F))).Forall fun op => op.fresh = ∅ :=
  ⟨rfl, rfl⟩
theorem hostOps0_85_writes : (hostOps0_85 : List (HloOp τ sig (Elt F))).Forall fun op =>
    ∃ y : Ref sig .tc, op.writes = {Proc.devRef (τ := τ) .tc y} ∧ y ∉ [main_arg0, main_arg1, main_arg2, main_arg3, main_arg4, main_arg5] :=
  ⟨⟨_, rfl, by decide⟩, ⟨_, rfl, by decide⟩⟩
theorem hostOps0_86_fresh : (hostOps0_86 : List (HloOp τ sig (Elt F))).Forall fun op => op.fresh = ∅ :=
  rfl
theorem hostOps0_86_writes : (hostOps0_86 : List (HloOp τ sig (Elt F))).Forall fun op =>
    ∃ y : Ref sig .tc, op.writes = {Proc.devRef (τ := τ) .tc y} ∧ y ∉ [main_arg0, main_arg1, main_arg2, main_arg3, main_arg4, main_arg5] :=
  ⟨_, rfl, by decide⟩
theorem hostOps0_87_fresh : (hostOps0_87 : List (HloOp τ sig (Elt F))).Forall fun op => op.fresh = ∅ :=
  ⟨rfl, rfl⟩
theorem hostOps0_87_writes : (hostOps0_87 : List (HloOp τ sig (Elt F))).Forall fun op =>
    ∃ y : Ref sig .tc, op.writes = {Proc.devRef (τ := τ) .tc y} ∧ y ∉ [main_arg0, main_arg1, main_arg2, main_arg3, main_arg4, main_arg5] :=
  ⟨⟨_, rfl, by decide⟩, ⟨_, rfl, by decide⟩⟩
theorem hostOps0_88_fresh : (hostOps0_88 : List (HloOp τ sig (Elt F))).Forall fun op => op.fresh = ∅ :=
  rfl
theorem hostOps0_88_writes : (hostOps0_88 : List (HloOp τ sig (Elt F))).Forall fun op =>
    ∃ y : Ref sig .tc, op.writes = {Proc.devRef (τ := τ) .tc y} ∧ y ∉ [main_arg0, main_arg1, main_arg2, main_arg3, main_arg4, main_arg5] :=
  ⟨_, rfl, by decide⟩
theorem hostOps0_89_fresh : (hostOps0_89 : List (HloOp τ sig (Elt F))).Forall fun op => op.fresh = ∅ :=
  ⟨rfl, rfl⟩
theorem hostOps0_89_writes : (hostOps0_89 : List (HloOp τ sig (Elt F))).Forall fun op =>
    ∃ y : Ref sig .tc, op.writes = {Proc.devRef (τ := τ) .tc y} ∧ y ∉ [main_arg0, main_arg1, main_arg2, main_arg3, main_arg4, main_arg5] :=
  ⟨⟨_, rfl, by decide⟩, ⟨_, rfl, by decide⟩⟩
theorem hostOps0_90_fresh : (hostOps0_90 : List (HloOp τ sig (Elt F))).Forall fun op => op.fresh = ∅ :=
  rfl
theorem hostOps0_90_writes : (hostOps0_90 : List (HloOp τ sig (Elt F))).Forall fun op =>
    ∃ y : Ref sig .tc, op.writes = {Proc.devRef (τ := τ) .tc y} ∧ y ∉ [main_arg0, main_arg1, main_arg2, main_arg3, main_arg4, main_arg5] :=
  ⟨_, rfl, by decide⟩
theorem hostOps0_91_fresh : (hostOps0_91 : List (HloOp τ sig (Elt F))).Forall fun op => op.fresh = ∅ :=
  ⟨rfl, rfl⟩
theorem hostOps0_91_writes : (hostOps0_91 : List (HloOp τ sig (Elt F))).Forall fun op =>
    ∃ y : Ref sig .tc, op.writes = {Proc.devRef (τ := τ) .tc y} ∧ y ∉ [main_arg0, main_arg1, main_arg2, main_arg3, main_arg4, main_arg5] :=
  ⟨⟨_, rfl, by decide⟩, ⟨_, rfl, by decide⟩⟩
theorem hostOps0_92_fresh : (hostOps0_92 : List (HloOp τ sig (Elt F))).Forall fun op => op.fresh = ∅ :=
  rfl
theorem hostOps0_92_writes : (hostOps0_92 : List (HloOp τ sig (Elt F))).Forall fun op =>
    ∃ y : Ref sig .tc, op.writes = {Proc.devRef (τ := τ) .tc y} ∧ y ∉ [main_arg0, main_arg1, main_arg2, main_arg3, main_arg4, main_arg5] :=
  ⟨_, rfl, by decide⟩
theorem hostOps0_93_fresh : (hostOps0_93 : List (HloOp τ sig (Elt F))).Forall fun op => op.fresh = ∅ :=
  ⟨rfl, rfl⟩
theorem hostOps0_93_writes : (hostOps0_93 : List (HloOp τ sig (Elt F))).Forall fun op =>
    ∃ y : Ref sig .tc, op.writes = {Proc.devRef (τ := τ) .tc y} ∧ y ∉ [main_arg0, main_arg1, main_arg2, main_arg3, main_arg4, main_arg5] :=
  ⟨⟨_, rfl, by decide⟩, ⟨_, rfl, by decide⟩⟩
theorem hostOps0_94_fresh : (hostOps0_94 : List (HloOp τ sig (Elt F))).Forall fun op => op.fresh = ∅ :=
  rfl
theorem hostOps0_94_writes : (hostOps0_94 : List (HloOp τ sig (Elt F))).Forall fun op =>
    ∃ y : Ref sig .tc, op.writes = {Proc.devRef (τ := τ) .tc y} ∧ y ∉ [main_arg0, main_arg1, main_arg2, main_arg3, main_arg4, main_arg5] :=
  ⟨_, rfl, by decide⟩
theorem hostOps0_95_fresh : (hostOps0_95 : List (HloOp τ sig (Elt F))).Forall fun op => op.fresh = ∅ :=
  ⟨rfl, rfl⟩
theorem hostOps0_95_writes : (hostOps0_95 : List (HloOp τ sig (Elt F))).Forall fun op =>
    ∃ y : Ref sig .tc, op.writes = {Proc.devRef (τ := τ) .tc y} ∧ y ∉ [main_arg0, main_arg1, main_arg2, main_arg3, main_arg4, main_arg5] :=
  ⟨⟨_, rfl, by decide⟩, ⟨_, rfl, by decide⟩⟩
theorem hostOps0_96_fresh : (hostOps0_96 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩
theorem hostOps0_96_writes : (hostOps0_96 : List (HloOp τ sig (Elt F))).Forall fun op =>
    ∃ y : Ref sig .tc, op.writes = {Proc.devRef (τ := τ) .tc y} ∧ y ∉ [main_arg0, main_arg1, main_arg2, main_arg3, main_arg4, main_arg5] :=
  ⟨⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩⟩

end Cert.KernelIdeal.Hand

end
-- ==== Proof.KI.Host.lean ====
/- The frame of the kernel program around its one region: @main is ninety-seven stretches of host operations, the
   region, and one more stretch. This module states what the arrays hold when the region is entered (the fold of the
   earlier stretches over the launch memory), that @main reduces to the region continued by the last stretch, that
   no host operation writes an argument array, each window's block at a grid point, and how the frame claim's post
   follows from a frame run's post. Everything is at any float model `F`. -/
import proofs.«414534_j76854144795318_3_alg».proof.Proof.KI.HostTable
import proofs.«414534_j76854144795318_3_alg».proof.Proof.Gen.KernelIdeal.Launch
import proofs.«414534_j76854144795318_3_alg».proof.Proof.Gen.KernelIdeal.Skeleton
import proofs.«414534_j76854144795318_3_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

-- membership in a rectangle of the arrays' extents recurses once per coordinate of the long axes
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main around the region -/

/-- The stretches of host operations before the region, in program order. -/
abbrev stretches : List (List (HloOp τ sig (Elt F))) :=
  [hostOps0, hostOps0_1, hostOps0_2, hostOps0_3, hostOps0_4, hostOps0_5, hostOps0_6, hostOps0_7, hostOps0_8, hostOps0_9,
   hostOps0_10, hostOps0_11, hostOps0_12, hostOps0_13, hostOps0_14, hostOps0_15, hostOps0_16, hostOps0_17, hostOps0_18, hostOps0_19,
   hostOps0_20, hostOps0_21, hostOps0_22, hostOps0_23, hostOps0_24, hostOps0_25, hostOps0_26, hostOps0_27, hostOps0_28, hostOps0_29,
   hostOps0_30, hostOps0_31, hostOps0_32, hostOps0_33, hostOps0_34, hostOps0_35, hostOps0_36, hostOps0_37, hostOps0_38, hostOps0_39,
   hostOps0_40, hostOps0_41, hostOps0_42, hostOps0_43, hostOps0_44, hostOps0_45, hostOps0_46, hostOps0_47, hostOps0_48, hostOps0_49,
   hostOps0_50, hostOps0_51, hostOps0_52, hostOps0_53, hostOps0_54, hostOps0_55, hostOps0_56, hostOps0_57, hostOps0_58, hostOps0_59,
   hostOps0_60, hostOps0_61, hostOps0_62, hostOps0_63, hostOps0_64, hostOps0_65, hostOps0_66, hostOps0_67, hostOps0_68, hostOps0_69,
   hostOps0_70, hostOps0_71, hostOps0_72, hostOps0_73, hostOps0_74, hostOps0_75, hostOps0_76, hostOps0_77, hostOps0_78, hostOps0_79,
   hostOps0_80, hostOps0_81, hostOps0_82, hostOps0_83, hostOps0_84, hostOps0_85, hostOps0_86, hostOps0_87, hostOps0_88, hostOps0_89,
   hostOps0_90, hostOps0_91, hostOps0_92, hostOps0_93, hostOps0_94, hostOps0_95, hostOps0_96]

/-- Core `c`'s TensorCore buffer contents when the region is entered, as a valuation: the launch memory after every
    host operation before the region, in order. -/
abbrev V0 (c : Dev nD) : Valuation τ sig (Elt F) := StableHlo.after (List.flatten stretches) (fun b => m (c, b))
/-- The same read at a TensorCore reference. -/
abbrev V (c : Dev nD) (b : Ref sig .tc) : Buf (Elt F) ((c : Thread nD τ).loc b) := V0 m c (Proc.devRef .tc b)

/-- Every stretch before the region touches TensorCore references only. -/
theorem stretches_sub : (stretches : List (List (HloOp τ sig (Elt F)))).Forall fun ops => ops.Forall fun op => op.bufs ⊆ StableHlo.tcRefs τ sig :=
  ⟨hostOps0_sub, hostOps0_1_sub, hostOps0_2_sub, hostOps0_3_sub, hostOps0_4_sub, hostOps0_5_sub, hostOps0_6_sub, hostOps0_7_sub, hostOps0_8_sub, hostOps0_9_sub,
   hostOps0_10_sub, hostOps0_11_sub, hostOps0_12_sub, hostOps0_13_sub, hostOps0_14_sub, hostOps0_15_sub, hostOps0_16_sub, hostOps0_17_sub, hostOps0_18_sub, hostOps0_19_sub,
   hostOps0_20_sub, hostOps0_21_sub, hostOps0_22_sub, hostOps0_23_sub, hostOps0_24_sub, hostOps0_25_sub, hostOps0_26_sub, hostOps0_27_sub, hostOps0_28_sub, hostOps0_29_sub,
   hostOps0_30_sub, hostOps0_31_sub, hostOps0_32_sub, hostOps0_33_sub, hostOps0_34_sub, hostOps0_35_sub, hostOps0_36_sub, hostOps0_37_sub, hostOps0_38_sub, hostOps0_39_sub,
   hostOps0_40_sub, hostOps0_41_sub, hostOps0_42_sub, hostOps0_43_sub, hostOps0_44_sub, hostOps0_45_sub, hostOps0_46_sub, hostOps0_47_sub, hostOps0_48_sub, hostOps0_49_sub,
   hostOps0_50_sub, hostOps0_51_sub, hostOps0_52_sub, hostOps0_53_sub, hostOps0_54_sub, hostOps0_55_sub, hostOps0_56_sub, hostOps0_57_sub, hostOps0_58_sub, hostOps0_59_sub,
   hostOps0_60_sub, hostOps0_61_sub, hostOps0_62_sub, hostOps0_63_sub, hostOps0_64_sub, hostOps0_65_sub, hostOps0_66_sub, hostOps0_67_sub, hostOps0_68_sub, hostOps0_69_sub,
   hostOps0_70_sub, hostOps0_71_sub, hostOps0_72_sub, hostOps0_73_sub, hostOps0_74_sub, hostOps0_75_sub, hostOps0_76_sub, hostOps0_77_sub, hostOps0_78_sub, hostOps0_79_sub,
   hostOps0_80_sub, hostOps0_81_sub, hostOps0_82_sub, hostOps0_83_sub, hostOps0_84_sub, hostOps0_85_sub, hostOps0_86_sub, hostOps0_87_sub, hostOps0_88_sub, hostOps0_89_sub,
   hostOps0_90_sub, hostOps0_91_sub, hostOps0_92_sub, hostOps0_93_sub, hostOps0_94_sub, hostOps0_95_sub, hostOps0_96_sub⟩
/-- And allocates nothing. -/
theorem stretches_fresh : (stretches : List (List (HloOp τ sig (Elt F)))).Forall fun ops => ops.Forall fun op => op.fresh = ∅ :=
  ⟨hostOps0_fresh, hostOps0_1_fresh, hostOps0_2_fresh, hostOps0_3_fresh, hostOps0_4_fresh, hostOps0_5_fresh, hostOps0_6_fresh, hostOps0_7_fresh, hostOps0_8_fresh, hostOps0_9_fresh,
   hostOps0_10_fresh, hostOps0_11_fresh, hostOps0_12_fresh, hostOps0_13_fresh, hostOps0_14_fresh, hostOps0_15_fresh, hostOps0_16_fresh, hostOps0_17_fresh, hostOps0_18_fresh, hostOps0_19_fresh,
   hostOps0_20_fresh, hostOps0_21_fresh, hostOps0_22_fresh, hostOps0_23_fresh, hostOps0_24_fresh, hostOps0_25_fresh, hostOps0_26_fresh, hostOps0_27_fresh, hostOps0_28_fresh, hostOps0_29_fresh,
   hostOps0_30_fresh, hostOps0_31_fresh, hostOps0_32_fresh, hostOps0_33_fresh, hostOps0_34_fresh, hostOps0_35_fresh, hostOps0_36_fresh, hostOps0_37_fresh, hostOps0_38_fresh, hostOps0_39_fresh,
   hostOps0_40_fresh, hostOps0_41_fresh, hostOps0_42_fresh, hostOps0_43_fresh, hostOps0_44_fresh, hostOps0_45_fresh, hostOps0_46_fresh, hostOps0_47_fresh, hostOps0_48_fresh, hostOps0_49_fresh,
   hostOps0_50_fresh, hostOps0_51_fresh, hostOps0_52_fresh, hostOps0_53_fresh, hostOps0_54_fresh, hostOps0_55_fresh, hostOps0_56_fresh, hostOps0_57_fresh, hostOps0_58_fresh, hostOps0_59_fresh,
   hostOps0_60_fresh, hostOps0_61_fresh, hostOps0_62_fresh, hostOps0_63_fresh, hostOps0_64_fresh, hostOps0_65_fresh, hostOps0_66_fresh, hostOps0_67_fresh, hostOps0_68_fresh, hostOps0_69_fresh,
   hostOps0_70_fresh, hostOps0_71_fresh, hostOps0_72_fresh, hostOps0_73_fresh, hostOps0_74_fresh, hostOps0_75_fresh, hostOps0_76_fresh, hostOps0_77_fresh, hostOps0_78_fresh, hostOps0_79_fresh,
   hostOps0_80_fresh, hostOps0_81_fresh, hostOps0_82_fresh, hostOps0_83_fresh, hostOps0_84_fresh, hostOps0_85_fresh, hostOps0_86_fresh, hostOps0_87_fresh, hostOps0_88_fresh, hostOps0_89_fresh,
   hostOps0_90_fresh, hostOps0_91_fresh, hostOps0_92_fresh, hostOps0_93_fresh, hostOps0_94_fresh, hostOps0_95_fresh, hostOps0_96_fresh⟩

/-- @main around the region, at any variants `𝒱₀`: the host stretches before it, the region, the host stretch after it:
    it reduces to the region CONTINUED BY the later stretch, entered at the contents `V`. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main stretches [hostOps1] stretches_sub stretches_fresh main_chain

/-! ### The stretch after the region -/

/-- The argument arrays. -/
abbrev argRefs : List (Ref sig .tc) := [main_arg0, main_arg1, main_arg2, main_arg3, main_arg4, main_arg5]

/-- No operation of the stretch after the region allocates. -/
theorem hostOps1_fresh : (hostOps1 : List (HloOp τ sig (Elt F))).Forall fun op => op.fresh = ∅ :=
  ⟨rfl, rfl, rfl, rfl, rfl⟩
/-- Each writes exactly one buffer, which is no argument array and no window's array. -/
theorem hostOps1_writes : (hostOps1 : List (HloOp τ sig (Elt F))).Forall fun op =>
    ∃ y : Ref sig .tc, op.writes = {Proc.devRef (τ := τ) .tc y} ∧ y ∉ argRefs ∧ ∀ w, Pipeline.arrRef spec0 w ≠ y :=
  ⟨⟨_, rfl, by decide, by decide⟩, ⟨_, rfl, by decide, by decide⟩, ⟨_, rfl, by decide, by decide⟩, ⟨_, rfl, by decide, by decide⟩,
   ⟨_, rfl, by decide, by decide⟩⟩

/-- The lines after the region touch the pipeline's arrays and the bypassing buffers only (each operation's buffers are
    unscoped TensorCore references, and with nothing prefetched every such reference is one or the other). -/
theorem sfx_sub : ∀ ops ∈ ([hostOps1] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl
  · exact Pipeline.sub_ucRefs op ((List.forall_iff_forall_mem.mp hostOps1_sub) op hop)
/-- They allocate nothing. -/
theorem sfx_fresh : ∀ ops ∈ ([hostOps1] : List (List (HloOp τ sig (Elt F)))), ∀ op ∈ ops, op.fresh = ∅ := by
  intro ops hops op hop
  simp only [List.mem_cons, List.mem_nil_iff, or_false] at hops
  rcases hops with rfl
  · exact (List.forall_iff_forall_mem.mp hostOps1_fresh) op hop
/-- And write no array of the pipeline (each writes only its own result buffer, which is no array). -/
theorem sfx_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl
  · obtain ⟨y, hw, -, hy⟩ := (List.forall_iff_forall_mem.mp hostOps1_writes) op hop
    intro w h
    rw [hw, Finset.mem_singleton] at h
    exact hy w (Proc.devRef_injective _ h)

/-! ### No host operation writes an argument array -/

/-- An operation keeps the arguments: it writes none of their arrays. -/
def Keeps (op : HloOp τ sig (Elt F)) : Prop := ∀ r ∈ argRefs, Proc.devRef (τ := τ) .tc r ∉ op.writes

/-- An operation that writes one buffer, which is no argument's, keeps the arguments. -/
theorem keeps_of_writes {op : HloOp τ sig (Elt F)}
    (h : ∃ y : Ref sig .tc, op.writes = {Proc.devRef (τ := τ) .tc y} ∧ y ∉ argRefs) : Keeps op := by
  obtain ⟨y, hw, hy⟩ := h
  intro r hr hm
  rw [hw, Finset.mem_singleton] at hm
  exact hy (Proc.devRef_injective _ hm ▸ hr)

/-- Every operation of every stretch before the region writes exactly one buffer, which is no argument array (the table
    of the stretches, conjoined in order). -/
theorem stretches_writes : (stretches : List (List (HloOp τ sig (Elt F)))).Forall fun ops => ops.Forall fun op =>
    ∃ y : Ref sig .tc, op.writes = {Proc.devRef (τ := τ) .tc y} ∧ y ∉ argRefs :=
  ⟨hostOps0_writes, hostOps0_1_writes, hostOps0_2_writes, hostOps0_3_writes, hostOps0_4_writes, hostOps0_5_writes, hostOps0_6_writes, hostOps0_7_writes, hostOps0_8_writes, hostOps0_9_writes,
   hostOps0_10_writes, hostOps0_11_writes, hostOps0_12_writes, hostOps0_13_writes, hostOps0_14_writes, hostOps0_15_writes, hostOps0_16_writes, hostOps0_17_writes, hostOps0_18_writes, hostOps0_19_writes,
   hostOps0_20_writes, hostOps0_21_writes, hostOps0_22_writes, hostOps0_23_writes, hostOps0_24_writes, hostOps0_25_writes, hostOps0_26_writes, hostOps0_27_writes, hostOps0_28_writes, hostOps0_29_writes,
   hostOps0_30_writes, hostOps0_31_writes, hostOps0_32_writes, hostOps0_33_writes, hostOps0_34_writes, hostOps0_35_writes, hostOps0_36_writes, hostOps0_37_writes, hostOps0_38_writes, hostOps0_39_writes,
   hostOps0_40_writes, hostOps0_41_writes, hostOps0_42_writes, hostOps0_43_writes, hostOps0_44_writes, hostOps0_45_writes, hostOps0_46_writes, hostOps0_47_writes, hostOps0_48_writes, hostOps0_49_writes,
   hostOps0_50_writes, hostOps0_51_writes, hostOps0_52_writes, hostOps0_53_writes, hostOps0_54_writes, hostOps0_55_writes, hostOps0_56_writes, hostOps0_57_writes, hostOps0_58_writes, hostOps0_59_writes,
   hostOps0_60_writes, hostOps0_61_writes, hostOps0_62_writes, hostOps0_63_writes, hostOps0_64_writes, hostOps0_65_writes, hostOps0_66_writes, hostOps0_67_writes, hostOps0_68_writes, hostOps0_69_writes,
   hostOps0_70_writes, hostOps0_71_writes, hostOps0_72_writes, hostOps0_73_writes, hostOps0_74_writes, hostOps0_75_writes, hostOps0_76_writes, hostOps0_77_writes, hostOps0_78_writes, hostOps0_79_writes,
   hostOps0_80_writes, hostOps0_81_writes, hostOps0_82_writes, hostOps0_83_writes, hostOps0_84_writes, hostOps0_85_writes, hostOps0_86_writes, hostOps0_87_writes, hostOps0_88_writes, hostOps0_89_writes,
   hostOps0_90_writes, hostOps0_91_writes, hostOps0_92_writes, hostOps0_93_writes, hostOps0_94_writes, hostOps0_95_writes, hostOps0_96_writes⟩

/-- No host operation before the region writes an argument array. -/
theorem prefix_keeps : ∀ op ∈ List.flatten (stretches : List (List (HloOp τ sig (Elt F)))), Keeps op := fun op hop => by
  obtain ⟨ops, hops, hop⟩ := List.mem_flatten.mp hop
  exact keeps_of_writes (List.forall_iff_forall_mem.mp (List.forall_iff_forall_mem.mp stretches_writes ops hops) op hop)

/-- No host operation after the region writes an argument array. -/
theorem suffix_keeps : ∀ op ∈ List.flatten ([hostOps1] : List (List (HloOp τ sig (Elt F)))), Keeps op := fun op hop => by
  obtain ⟨ops, hops, hop⟩ := List.mem_flatten.mp hop
  simp only [List.mem_cons, List.mem_nil_iff, or_false] at hops
  rcases hops with rfl
  obtain ⟨y, hw, hy, -⟩ := List.forall_iff_forall_mem.mp hostOps1_writes op hop
  exact keeps_of_writes ⟨y, hw, hy⟩

/-- No host operation before the region writes an argument array: the region finds it as launched. -/
theorem V_of_arg (c : Dev nD) (r : Ref sig .tc) (hr : r ∈ argRefs) : V m c r = m ((c : Thread nD τ).loc r) :=
  StableHlo.after_of_forall_not_mem (b := Proc.devRef .tc r) _ _ fun op hop => prefix_keeps op hop r hr

/-- No host operation after the region writes an argument array, and it is no window's array (`harr`): it ends as
    launched. -/
theorem W_of_arg (dats : (p : Fin _) → (c : Dev nD) → Dat τ (Elt F) Unit ℕ (UR sig nD τ) ℕ (cfgs p) c) (c : Dev nD)
    (r : Ref sig .tc) (hr : r ∈ argRefs) (harr : ∀ w, Pipeline.arrRef spec0 w ≠ r) :
    Pipeline.afterTail₀ cfgs dats 0 (V0 m) [hostOps1] c r = m ((c : Thread nD τ).loc r) := by
  unfold Pipeline.afterTail₀
  rw [StableHlo.after_of_forall_not_mem (b := Proc.devRef .tc r) _ _ (fun op hop => suffix_keeps op hop r hr),
    Pipeline.withArrays_of_ne _ c (V0 m c) _ r harr]
  exact V_of_arg m c r hr

theorem V_main_arg0 (c : Dev nD) : V m c main_arg0 = m ((c : Thread nD τ).loc main_arg0) := V_of_arg m c main_arg0 (by decide)
theorem V_main_arg1 (c : Dev nD) : V m c main_arg1 = m ((c : Thread nD τ).loc main_arg1) := V_of_arg m c main_arg1 (by decide)
theorem V_main_arg2 (c : Dev nD) : V m c main_arg2 = m ((c : Thread nD τ).loc main_arg2) := V_of_arg m c main_arg2 (by decide)
theorem V_main_arg3 (c : Dev nD) : V m c main_arg3 = m ((c : Thread nD τ).loc main_arg3) := V_of_arg m c main_arg3 (by decide)
theorem V_main_arg4 (c : Dev nD) : V m c main_arg4 = m ((c : Thread nD τ).loc main_arg4) := V_of_arg m c main_arg4 (by decide)
theorem V_main_arg5 (c : Dev nD) : V m c main_arg5 = m ((c : Thread nD τ).loc main_arg5) := V_of_arg m c main_arg5 (by decide)

theorem W_main_arg0 (dats : (p : Fin _) → (c : Dev nD) → Dat τ (Elt F) Unit ℕ (UR sig nD τ) ℕ (cfgs p) c) (c : Dev nD) :
    Pipeline.afterTail₀ cfgs dats 0 (V0 m) [hostOps1] c main_arg0 = m ((c : Thread nD τ).loc main_arg0) :=
  W_of_arg m dats c main_arg0 (by decide) (by decide)
theorem W_main_arg1 (dats : (p : Fin _) → (c : Dev nD) → Dat τ (Elt F) Unit ℕ (UR sig nD τ) ℕ (cfgs p) c) (c : Dev nD) :
    Pipeline.afterTail₀ cfgs dats 0 (V0 m) [hostOps1] c main_arg1 = m ((c : Thread nD τ).loc main_arg1) :=
  W_of_arg m dats c main_arg1 (by decide) (by decide)
theorem W_main_arg2 (dats : (p : Fin _) → (c : Dev nD) → Dat τ (Elt F) Unit ℕ (UR sig nD τ) ℕ (cfgs p) c) (c : Dev nD) :
    Pipeline.afterTail₀ cfgs dats 0 (V0 m) [hostOps1] c main_arg2 = m ((c : Thread nD τ).loc main_arg2) :=
  W_of_arg m dats c main_arg2 (by decide) (by decide)
theorem W_main_arg3 (dats : (p : Fin _) → (c : Dev nD) → Dat τ (Elt F) Unit ℕ (UR sig nD τ) ℕ (cfgs p) c) (c : Dev nD) :
    Pipeline.afterTail₀ cfgs dats 0 (V0 m) [hostOps1] c main_arg3 = m ((c : Thread nD τ).loc main_arg3) :=
  W_of_arg m dats c main_arg3 (by decide) (by decide)
theorem W_main_arg4 (dats : (p : Fin _) → (c : Dev nD) → Dat τ (Elt F) Unit ℕ (UR sig nD τ) ℕ (cfgs p) c) (c : Dev nD) :
    Pipeline.afterTail₀ cfgs dats 0 (V0 m) [hostOps1] c main_arg4 = m ((c : Thread nD τ).loc main_arg4) :=
  W_of_arg m dats c main_arg4 (by decide) (by decide)
theorem W_main_arg5 (dats : (p : Fin _) → (c : Dev nD) → Dat τ (Elt F) Unit ℕ (UR sig nD τ) ℕ (cfgs p) c) (c : Dev nD) :
    Pipeline.afterTail₀ cfgs dats 0 (V0 m) [hostOps1] c main_arg5 = m ((c : Thread nD τ).loc main_arg5) :=
  W_of_arg m dats c main_arg5 (by decide) (by decide)

/-! ## The windows' blocks -/

/-- Window `w`'s block at point `t`, read off its array as the region finds it (`V`). -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-! Each INPUT window's current staging buffer holds its block at every point, fetched there or not, for ANY proof data
    whose array is `V`'s (`hA`) and whose body leaves the block in place (`hafter`): where the pipeline does not fetch, the
    block index has not moved and the buffer still holds the previous point's block, which is this point's; every window
    is uncut and never idle. One statement per input window, 0 to 26, each with the same proof. -/

theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
theorem before0_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
theorem before0_5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
theorem before0_6_of {c : Dev nD} (dat : Dat τ (Elt F) Unit ℕ (UR sig nD τ) ℕ cfg0 c) (hA : dat.A 6 = V m c (Pipeline.arrRef spec0 6))
    (hafter : ∀ t, dat.after 6 t = iblk m c 6 t) (t : Fin cfg0.N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)
theorem before0_7_of {c : Dev nD} (dat : Dat τ (Elt F) Unit ℕ (UR sig nD τ) ℕ cfg0 c) (hA : dat.A 7 = V m c (Pipeline.arrRef spec0 7))
    (hafter : ∀ t, dat.after 7 t = iblk m c 7 t) (t : Fin cfg0.N) (d) : dat.before 7 t d = iblk m c 7 t :=
  (dat.before_in_eq_fetched 7 rfl (fun _ => rfl) (fun _ _ _ => rfl) (fun t => by rw [hafter]; unfold Dat.blockOf iblk; rw [hA]; try rfl) t d).trans
    (by unfold Dat.fetched Dat.blockOf iblk; rw [hA]; try rfl)
theorem before0_8_of {c : Dev nD} (dat : Dat τ (Elt F) Unit ℕ (UR sig nD τ) ℕ cfg0 c) (hA : dat.A 8 = V m c (Pipeline.arrRef spec0 8))
    (hafter : ∀ t, dat.after 8 t = iblk m c 8 t) (t : Fin cfg0.N) (d) : dat.before 8 t d = iblk m c 8 t :=
  (dat.before_in_eq_fetched 8 rfl (fun _ => rfl) (fun _ _ _ => rfl) (fun t => by rw [hafter]; unfold Dat.blockOf iblk; rw [hA]; try rfl) t d).trans
    (by unfold Dat.fetched Dat.blockOf iblk; rw [hA]; try rfl)
theorem before0_9_of {c : Dev nD} (dat : Dat τ (Elt F) Unit ℕ (UR sig nD τ) ℕ cfg0 c) (hA : dat.A 9 = V m c (Pipeline.arrRef spec0 9))
    (hafter : ∀ t, dat.after 9 t = iblk m c 9 t) (t : Fin cfg0.N) (d) : dat.before 9 t d = iblk m c 9 t :=
  (dat.before_in_eq_fetched 9 rfl (fun _ => rfl) (fun _ _ _ => rfl) (fun t => by rw [hafter]; unfold Dat.blockOf iblk; rw [hA]; try rfl) t d).trans
    (by unfold Dat.fetched Dat.blockOf iblk; rw [hA]; try rfl)
theorem before0_10_of {c : Dev nD} (dat : Dat τ (Elt F) Unit ℕ (UR sig nD τ) ℕ cfg0 c) (hA : dat.A 10 = V m c (Pipeline.arrRef spec0 10))
    (hafter : ∀ t, dat.after 10 t = iblk m c 10 t) (t : Fin cfg0.N) (d) : dat.before 10 t d = iblk m c 10 t :=
  (dat.before_in_eq_fetched 10 rfl (fun _ => rfl) (fun _ _ _ => rfl) (fun t => by rw [hafter]; unfold Dat.blockOf iblk; rw [hA]; try rfl) t d).trans
    (by unfold Dat.fetched Dat.blockOf iblk; rw [hA]; try rfl)
theorem before0_11_of {c : Dev nD} (dat : Dat τ (Elt F) Unit ℕ (UR sig nD τ) ℕ cfg0 c) (hA : dat.A 11 = V m c (Pipeline.arrRef spec0 11))
    (hafter : ∀ t, dat.after 11 t = iblk m c 11 t) (t : Fin cfg0.N) (d) : dat.before 11 t d = iblk m c 11 t :=
  (dat.before_in_eq_fetched 11 rfl (fun _ => rfl) (fun _ _ _ => rfl) (fun t => by rw [hafter]; unfold Dat.blockOf iblk; rw [hA]; try rfl) t d).trans
    (by unfold Dat.fetched Dat.blockOf iblk; rw [hA]; try rfl)
theorem before0_12_of {c : Dev nD} (dat : Dat τ (Elt F) Unit ℕ (UR sig nD τ) ℕ cfg0 c) (hA : dat.A 12 = V m c (Pipeline.arrRef spec0 12))
    (hafter : ∀ t, dat.after 12 t = iblk m c 12 t) (t : Fin cfg0.N) (d) : dat.before 12 t d = iblk m c 12 t :=
  (dat.before_in_eq_fetched 12 rfl (fun _ => rfl) (fun _ _ _ => rfl) (fun t => by rw [hafter]; unfold Dat.blockOf iblk; rw [hA]; try rfl) t d).trans
    (by unfold Dat.fetched Dat.blockOf iblk; rw [hA]; try rfl)
theorem before0_13_of {c : Dev nD} (dat : Dat τ (Elt F) Unit ℕ (UR sig nD τ) ℕ cfg0 c) (hA : dat.A 13 = V m c (Pipeline.arrRef spec0 13))
    (hafter : ∀ t, dat.after 13 t = iblk m c 13 t) (t : Fin cfg0.N) (d) : dat.before 13 t d = iblk m c 13 t :=
  (dat.before_in_eq_fetched 13 rfl (fun _ => rfl) (fun _ _ _ => rfl) (fun t => by rw [hafter]; unfold Dat.blockOf iblk; rw [hA]; try rfl) t d).trans
    (by unfold Dat.fetched Dat.blockOf iblk; rw [hA]; try rfl)
theorem before0_14_of {c : Dev nD} (dat : Dat τ (Elt F) Unit ℕ (UR sig nD τ) ℕ cfg0 c) (hA : dat.A 14 = V m c (Pipeline.arrRef spec0 14))
    (hafter : ∀ t, dat.after 14 t = iblk m c 14 t) (t : Fin cfg0.N) (d) : dat.before 14 t d = iblk m c 14 t :=
  (dat.before_in_eq_fetched 14 rfl (fun _ => rfl) (fun _ _ _ => rfl) (fun t => by rw [hafter]; unfold Dat.blockOf iblk; rw [hA]; try rfl) t d).trans
    (by unfold Dat.fetched Dat.blockOf iblk; rw [hA]; try rfl)
theorem before0_15_of {c : Dev nD} (dat : Dat τ (Elt F) Unit ℕ (UR sig nD τ) ℕ cfg0 c) (hA : dat.A 15 = V m c (Pipeline.arrRef spec0 15))
    (hafter : ∀ t, dat.after 15 t = iblk m c 15 t) (t : Fin cfg0.N) (d) : dat.before 15 t d = iblk m c 15 t :=
  (dat.before_in_eq_fetched 15 rfl (fun _ => rfl) (fun _ _ _ => rfl) (fun t => by rw [hafter]; unfold Dat.blockOf iblk; rw [hA]; try rfl) t d).trans
    (by unfold Dat.fetched Dat.blockOf iblk; rw [hA]; try rfl)
theorem before0_16_of {c : Dev nD} (dat : Dat τ (Elt F) Unit ℕ (UR sig nD τ) ℕ cfg0 c) (hA : dat.A 16 = V m c (Pipeline.arrRef spec0 16))
    (hafter : ∀ t, dat.after 16 t = iblk m c 16 t) (t : Fin cfg0.N) (d) : dat.before 16 t d = iblk m c 16 t :=
  (dat.before_in_eq_fetched 16 rfl (fun _ => rfl) (fun _ _ _ => rfl) (fun t => by rw [hafter]; unfold Dat.blockOf iblk; rw [hA]; try rfl) t d).trans
    (by unfold Dat.fetched Dat.blockOf iblk; rw [hA]; try rfl)
theorem before0_17_of {c : Dev nD} (dat : Dat τ (Elt F) Unit ℕ (UR sig nD τ) ℕ cfg0 c) (hA : dat.A 17 = V m c (Pipeline.arrRef spec0 17))
    (hafter : ∀ t, dat.after 17 t = iblk m c 17 t) (t : Fin cfg0.N) (d) : dat.before 17 t d = iblk m c 17 t :=
  (dat.before_in_eq_fetched 17 rfl (fun _ => rfl) (fun _ _ _ => rfl) (fun t => by rw [hafter]; unfold Dat.blockOf iblk; rw [hA]; try rfl) t d).trans
    (by unfold Dat.fetched Dat.blockOf iblk; rw [hA]; try rfl)
theorem before0_18_of {c : Dev nD} (dat : Dat τ (Elt F) Unit ℕ (UR sig nD τ) ℕ cfg0 c) (hA : dat.A 18 = V m c (Pipeline.arrRef spec0 18))
    (hafter : ∀ t, dat.after 18 t = iblk m c 18 t) (t : Fin cfg0.N) (d) : dat.before 18 t d = iblk m c 18 t :=
  (dat.before_in_eq_fetched 18 rfl (fun _ => rfl) (fun _ _ _ => rfl) (fun t => by rw [hafter]; unfold Dat.blockOf iblk; rw [hA]; try rfl) t d).trans
    (by unfold Dat.fetched Dat.blockOf iblk; rw [hA]; try rfl)
theorem before0_19_of {c : Dev nD} (dat : Dat τ (Elt F) Unit ℕ (UR sig nD τ) ℕ cfg0 c) (hA : dat.A 19 = V m c (Pipeline.arrRef spec0 19))
    (hafter : ∀ t, dat.after 19 t = iblk m c 19 t) (t : Fin cfg0.N) (d) : dat.before 19 t d = iblk m c 19 t :=
  (dat.before_in_eq_fetched 19 rfl (fun _ => rfl) (fun _ _ _ => rfl) (fun t => by rw [hafter]; unfold Dat.blockOf iblk; rw [hA]; try rfl) t d).trans
    (by unfold Dat.fetched Dat.blockOf iblk; rw [hA]; try rfl)
theorem before0_20_of {c : Dev nD} (dat : Dat τ (Elt F) Unit ℕ (UR sig nD τ) ℕ cfg0 c) (hA : dat.A 20 = V m c (Pipeline.arrRef spec0 20))
    (hafter : ∀ t, dat.after 20 t = iblk m c 20 t) (t : Fin cfg0.N) (d) : dat.before 20 t d = iblk m c 20 t :=
  (dat.before_in_eq_fetched 20 rfl (fun _ => rfl) (fun _ _ _ => rfl) (fun t => by rw [hafter]; unfold Dat.blockOf iblk; rw [hA]; try rfl) t d).trans
    (by unfold Dat.fetched Dat.blockOf iblk; rw [hA]; try rfl)
theorem before0_21_of {c : Dev nD} (dat : Dat τ (Elt F) Unit ℕ (UR sig nD τ) ℕ cfg0 c) (hA : dat.A 21 = V m c (Pipeline.arrRef spec0 21))
    (hafter : ∀ t, dat.after 21 t = iblk m c 21 t) (t : Fin cfg0.N) (d) : dat.before 21 t d = iblk m c 21 t :=
  (dat.before_in_eq_fetched 21 rfl (fun _ => rfl) (fun _ _ _ => rfl) (fun t => by rw [hafter]; unfold Dat.blockOf iblk; rw [hA]; try rfl) t d).trans
    (by unfold Dat.fetched Dat.blockOf iblk; rw [hA]; try rfl)
theorem before0_22_of {c : Dev nD} (dat : Dat τ (Elt F) Unit ℕ (UR sig nD τ) ℕ cfg0 c) (hA : dat.A 22 = V m c (Pipeline.arrRef spec0 22))
    (hafter : ∀ t, dat.after 22 t = iblk m c 22 t) (t : Fin cfg0.N) (d) : dat.before 22 t d = iblk m c 22 t :=
  (dat.before_in_eq_fetched 22 rfl (fun _ => rfl) (fun _ _ _ => rfl) (fun t => by rw [hafter]; unfold Dat.blockOf iblk; rw [hA]; try rfl) t d).trans
    (by unfold Dat.fetched Dat.blockOf iblk; rw [hA]; try rfl)
theorem before0_23_of {c : Dev nD} (dat : Dat τ (Elt F) Unit ℕ (UR sig nD τ) ℕ cfg0 c) (hA : dat.A 23 = V m c (Pipeline.arrRef spec0 23))
    (hafter : ∀ t, dat.after 23 t = iblk m c 23 t) (t : Fin cfg0.N) (d) : dat.before 23 t d = iblk m c 23 t :=
  (dat.before_in_eq_fetched 23 rfl (fun _ => rfl) (fun _ _ _ => rfl) (fun t => by rw [hafter]; unfold Dat.blockOf iblk; rw [hA]; try rfl) t d).trans
    (by unfold Dat.fetched Dat.blockOf iblk; rw [hA]; try rfl)
theorem before0_24_of {c : Dev nD} (dat : Dat τ (Elt F) Unit ℕ (UR sig nD τ) ℕ cfg0 c) (hA : dat.A 24 = V m c (Pipeline.arrRef spec0 24))
    (hafter : ∀ t, dat.after 24 t = iblk m c 24 t) (t : Fin cfg0.N) (d) : dat.before 24 t d = iblk m c 24 t :=
  (dat.before_in_eq_fetched 24 rfl (fun _ => rfl) (fun _ _ _ => rfl) (fun t => by rw [hafter]; unfold Dat.blockOf iblk; rw [hA]; try rfl) t d).trans
    (by unfold Dat.fetched Dat.blockOf iblk; rw [hA]; try rfl)
theorem before0_25_of {c : Dev nD} (dat : Dat τ (Elt F) Unit ℕ (UR sig nD τ) ℕ cfg0 c) (hA : dat.A 25 = V m c (Pipeline.arrRef spec0 25))
    (hafter : ∀ t, dat.after 25 t = iblk m c 25 t) (t : Fin cfg0.N) (d) : dat.before 25 t d = iblk m c 25 t :=
  (dat.before_in_eq_fetched 25 rfl (fun _ => rfl) (fun _ _ _ => rfl) (fun t => by rw [hafter]; unfold Dat.blockOf iblk; rw [hA]; try rfl) t d).trans
    (by unfold Dat.fetched Dat.blockOf iblk; rw [hA]; try rfl)
theorem before0_26_of {c : Dev nD} (dat : Dat τ (Elt F) Unit ℕ (UR sig nD τ) ℕ cfg0 c) (hA : dat.A 26 = V m c (Pipeline.arrRef spec0 26))
    (hafter : ∀ t, dat.after 26 t = iblk m c 26 t) (t : Fin cfg0.N) (d) : dat.before 26 t d = iblk m c 26 t :=
  (dat.before_in_eq_fetched 26 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

/-- THE FRAME from a frame run: for any proof data whose arrays are the region-entry contents (`hA`), a run to the frame
    run's post read at the argument arrays — each an unscoped buffer that is no window's array, so by the post's second
    clause at what the last stretch leaves, which is what the launch memory held — is the frame claim's post. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (Pipeline.afterTail₀ cfgs dats 0 (V0 m) [hostOps1]))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c =>
    ⟨((h c).2 main_arg0 (Pipeline.mem_restRefs_of main_arg0 (by decide) (by decide))).trans (W_main_arg0 m dats c),
     ((h c).2 main_arg1 (Pipeline.mem_restRefs_of main_arg1 (by decide) (by decide))).trans (W_main_arg1 m dats c),
     ((h c).2 main_arg2 (Pipeline.mem_restRefs_of main_arg2 (by decide) (by decide))).trans (W_main_arg2 m dats c),
     ((h c).2 main_arg3 (Pipeline.mem_restRefs_of main_arg3 (by decide) (by decide))).trans (W_main_arg3 m dats c),
     ((h c).2 main_arg4 (Pipeline.mem_restRefs_of main_arg4 (by decide) (by decide))).trans (W_main_arg4 m dats c),
     ((h c).2 main_arg5 (Pipeline.mem_restRefs_of main_arg5 (by decide) (by decide))).trans (W_main_arg5 m dats c)⟩) h

end Cert.KernelIdeal.Hand

end
-- ==== Proof.KI.Body.lean ====
/-
  The body of the combine kernel, once, at any grid point.

  One call of the kernel body handles 1024 rows. Per level (feature widths 32, 64 and 128) it reads that level's
  weight block `c` (1024 × 8: eight weights per row) and its eight corner blocks `q₀ … q₇` (1024 × width), and writes
  into the level's result block the weighted sum  0 + q₀·c₀ + q₁·c₁ + … + q₇·c₇,  where `cⱼ` is column `j` of `c`
  repeated along the feature axis; the sum is taken left to right from zero. Every access is of a whole block.

  Stated here: the rectangles of those accesses, what each result block holds afterwards as a function of the level's
  weight and corner blocks (`out0_27`, `out0_28`, `out0_29`), that the one store per result covers its block, and the
  body's triple: from the 27 input blocks held at their contents and the three result blocks held at anything, the body
  runs and hands back the inputs unchanged and each result at its weighted sum.
-/
import proofs.«414534_j76854144795318_3_alg».proof.Proof.Gen.KernelIdeal.Launch
import proofs.«414534_j76854144795318_3_alg».proof.Proof.Gen.KernelIdeal.Skeleton
import proofs.«414534_j76854144795318_3_alg».proof.Proof.Gen.KernelIdeal.Points
import Idealize.ShloMosaic.Lib.Pipeline.FrameBody
import Idealize.ShloMosaic.Lib.Ring
import Idealize.ShloMosaic.Lib.Tactic

-- membership in a rectangle of production extents: the structural look recurses once per coordinate of the long axes
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body's accesses

Every load and every store of the body goes through the WHOLE block of its window: the rectangle at offset
`(0, 0)` of the block's own extents. There are four block shapes: the weights' `1024 × 8`, and the three levels'
`1024 × 32`, `1024 × 64`, `1024 × 128`. -/

/-- The whole `1024 × 8` block (a level's eight weights per row). -/
abbrev rw8 : Rect S1024x8 := Rect.unit (s := S1024x8) ![0, 0] S1024x8.size inb_S1024x8_S1024x8_0_0
/-- The whole `1024 × 32` block (level 0's corners and result). -/
abbrev rw32 : Rect S1024x32 := Rect.unit (s := S1024x32) ![0, 0] S1024x32.size inb_S1024x32_S1024x32_0_0
/-- The whole `1024 × 64` block (level 1's corners and result). -/
abbrev rw64 : Rect S1024x64 := Rect.unit (s := S1024x64) ![0, 0] S1024x64.size inb_S1024x64_S1024x64_0_0
/-- The whole `1024 × 128` block (level 2's corners and result). -/
abbrev rw128 : Rect S1024x128 := Rect.unit (s := S1024x128) ![0, 0] S1024x128.size inb_S1024x128_S1024x128_0_0

/-! ## What the body leaves in each output window's buffer

Per level the body forms `0 + q₀·c₀ + q₁·c₁ + … + q₇·c₇`, the eight corner blocks `qⱼ` each scaled row by row by
column `j` of the weight block `c` (broadcast along the feature axis), summed left to right from zero, and stores the
sum over the whole output block. The sum is written as a composition of partial sums (`k0_payN`), cut after
six, four and three terms respectively. -/

/-- Level 0 (`1024 × 32`): the one store into the first result's block, over the weight block `c` and the corner
    blocks `q0 … q7`: terms 0–5 accumulated from zero, then terms 6 and 7. -/
def out0_27 (c : Vec F S1024x8 .f32) (q0 q1 q2 q3 q4 q5 q6 q7 : Vec F S1024x32 .f32) : Vec F S1024x32 .f32 :=
  View.canon [⟨rw32, k0_pay6 (k0_pay2 (View.ld c rw8))
    (k0_pay3 (View.ld c rw8) (View.ld q0 rw32) (View.ld q1 rw32) (View.ld q2 rw32) (View.ld q3 rw32) (View.ld q4 rw32) (View.ld q5 rw32))
    (k0_pay4 (View.ld q6 rw32)) (k0_pay5 (View.ld c rw8)) (View.ld q7 rw32)⟩]

/-- Level 1 (`1024 × 64`): the one store into the second result's block: terms 0–3 accumulated from zero, the
    product of term 4, then terms 5, 6 and 7. -/
def out0_28 (c : Vec F S1024x8 .f32) (q0 q1 q2 q3 q4 q5 q6 q7 : Vec F S1024x64 .f32) : Vec F S1024x64 .f32 :=
  View.canon [⟨rw64, k0_pay10 (k0_pay7 (View.ld c rw8))
    (k0_pay8 (View.ld c rw8) (View.ld q0 rw64) (View.ld q1 rw64) (View.ld q2 rw64) (View.ld q3 rw64))
    (k0_pay9 (View.ld c rw8) (View.ld q4 rw64)) (View.ld q5 rw64) (View.ld q6 rw64) (View.ld q7 rw64)⟩]

/-- Level 2 (`1024 × 128`): the one store into the third result's block: terms 0–2 accumulated from zero, then
    terms 3–7. -/
def out0_29 (c : Vec F S1024x8 .f32) (q0 q1 q2 q3 q4 q5 q6 q7 : Vec F S1024x128 .f32) : Vec F S1024x128 .f32 :=
  View.canon [⟨rw128, k0_pay1 (k0_pay11 (View.ld c rw8))
    (k0_pay12 (View.ld c rw8) (View.ld q0 rw128) (View.ld q1 rw128) (View.ld q2 rw128))
    (View.ld q3 rw128) (View.ld q4 rw128) (View.ld q5 rw128) (View.ld q6 rw128) (View.ld q7 rw128)⟩]

/-- The one store tiles the `1024 × 32` block (checked by evaluation), so it covers it. -/
theorem cover0_27 (p0 : Vec F S1024x32 .f32) (y : S1024x32.Idx) :
    ∃ pc ∈ ([⟨rw32, p0⟩] : List (View.Piece (Elt F) S1024x32 .f32)), y ∈ pc.1.set :=
  View.cover_of_tiled [⟨rw32, p0⟩] S1024x32.size (by rfl) y

/-- The one store tiles the `1024 × 64` block. -/
theorem cover0_28 (p0 : Vec F S1024x64 .f32) (y : S1024x64.Idx) :
    ∃ pc ∈ ([⟨rw64, p0⟩] : List (View.Piece (Elt F) S1024x64 .f32)), y ∈ pc.1.set :=
  View.cover_of_tiled [⟨rw64, p0⟩] S1024x64.size (by rfl) y

/-- The one store tiles the `1024 × 128` block. -/
theorem cover0_29 (p0 : Vec F S1024x128 .f32) (y : S1024x128.Idx) :
    ∃ pc ∈ ([⟨rw128, p0⟩] : List (View.Piece (Elt F) S1024x128 .f32)), y ∈ pc.1.set :=
  View.cover_of_tiled [⟨rw128, p0⟩] S1024x128.size (by rfl) y

/-! ## The body's triple -/

set_option maxHeartbeats 1000000 in
/-- The kernel body on whole staging memrefs, the 27 inputs' at read contents `xW` and the three outputs' at anything,
    runs to the continuation holding the inputs' as they were and each output's at `out0_W` of its level's weight and
    corner blocks: the body is a straight line of 27 whole-block loads of the inputs and three whole-block stores, one
    per result, each covering its block. Each result block is also loaded once before its store; that value is unused,
    so what the block held before does not enter the result. -/
theorem sound_kernel (c : Dev nD) (E : Set ℕ) (i : grid0.Coords) (arg1 : Memref sig .tc .vmem S1024x32 .f32) (harg1 : arg1.IsWhole) (arg2 : Memref sig .tc .vmem S1024x32 .f32) (harg2 : arg2.IsWhole) (arg3 : Memref sig .tc .vmem S1024x32 .f32) (harg3 : arg3.IsWhole) (arg4 : Memref sig .tc .vmem S1024x32 .f32) (harg4 : arg4.IsWhole) (arg5 : Memref sig .tc .vmem S1024x32 .f32) (harg5 : arg5.IsWhole) (arg6 : Memref sig .tc .vmem S1024x32 .f32) (harg6 : arg6.IsWhole) (arg7 : Memref sig .tc .vmem S1024x32 .f32) (harg7 : arg7.IsWhole) (arg8 : Memref sig .tc .vmem S1024x32 .f32) (harg8 : arg8.IsWhole) (arg9 : Memref sig .tc .vmem S1024x8 .f32) (harg9 : arg9.IsWhole) (arg10 : Memref sig .tc .vmem S1024x64 .f32) (harg10 : arg10.IsWhole) (arg11 : Memref sig .tc .vmem S1024x64 .f32) (harg11 : arg11.IsWhole) (arg12 : Memref sig .tc .vmem S1024x64 .f32) (harg12 : arg12.IsWhole) (arg13 : Memref sig .tc .vmem S1024x64 .f32) (harg13 : arg13.IsWhole) (arg14 : Memref sig .tc .vmem S1024x64 .f32) (harg14 : arg14.IsWhole) (arg15 : Memref sig .tc .vmem S1024x64 .f32) (harg15 : arg15.IsWhole) (arg16 : Memref sig .tc .vmem S1024x64 .f32) (harg16 : arg16.IsWhole) (arg17 : Memref sig .tc .vmem S1024x64 .f32) (harg17 : arg17.IsWhole) (arg18 : Memref sig .tc .vmem S1024x8 .f32) (harg18 : arg18.IsWhole) (arg19 : Memref sig .tc .vmem S1024x128 .f32) (harg19 : arg19.IsWhole) (arg20 : Memref sig .tc .vmem S1024x128 .f32) (harg20 : arg20.IsWhole) (arg21 : Memref sig .tc .vmem S1024x128 .f32) (harg21 : arg21.IsWhole) (arg22 : Memref sig .tc .vmem S1024x128 .f32) (harg22 : arg22.IsWhole) (arg23 : Memref sig .tc .vmem S1024x128 .f32) (harg23 : arg23.IsWhole) (arg24 : Memref sig .tc .vmem S1024x128 .f32) (harg24 : arg24.IsWhole) (arg25 : Memref sig .tc .vmem S1024x128 .f32) (harg25 : arg25.IsWhole) (arg26 : Memref sig .tc .vmem S1024x128 .f32) (harg26 : arg26.IsWhole) (arg27 : Memref sig .tc .vmem S1024x8 .f32) (harg27 : arg27.IsWhole) (arg28 : Memref sig .tc .vmem S1024x32 .f32) (harg28 : arg28.IsWhole) (arg29 : Memref sig .tc .vmem S1024x64 .f32) (harg29 : arg29.IsWhole) (arg30 : Memref sig .tc .vmem S1024x128 .f32) (harg30 : arg30.IsWhole)
    (x0 : Vec F S1024x32 .f32) (x1 : Vec F S1024x32 .f32) (x2 : Vec F S1024x32 .f32) (x3 : Vec F S1024x32 .f32) (x4 : Vec F S1024x32 .f32) (x5 : Vec F S1024x32 .f32) (x6 : Vec F S1024x32 .f32) (x7 : Vec F S1024x32 .f32) (x8 : Vec F S1024x8 .f32) (x9 : Vec F S1024x64 .f32) (x10 : Vec F S1024x64 .f32) (x11 : Vec F S1024x64 .f32) (x12 : Vec F S1024x64 .f32) (x13 : Vec F S1024x64 .f32) (x14 : Vec F S1024x64 .f32) (x15 : Vec F S1024x64 .f32) (x16 : Vec F S1024x64 .f32) (x17 : Vec F S1024x8 .f32) (x18 : Vec F S1024x128 .f32) (x19 : Vec F S1024x128 .f32) (x20 : Vec F S1024x128 .f32) (x21 : Vec F S1024x128 .f32) (x22 : Vec F S1024x128 .f32) (x23 : Vec F S1024x128 .f32) (x24 : Vec F S1024x128 .f32) (x25 : Vec F S1024x128 .f32) (x26 : Vec F S1024x8 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ owns (c : Thread nD τ) arg16 fullShare x15 ∗ owns (c : Thread nD τ) arg17 fullShare x16 ∗ owns (c : Thread nD τ) arg18 fullShare x17 ∗ owns (c : Thread nD τ) arg19 fullShare x18 ∗ owns (c : Thread nD τ) arg20 fullShare x19 ∗ owns (c : Thread nD τ) arg21 fullShare x20 ∗ owns (c : Thread nD τ) arg22 fullShare x21 ∗ owns (c : Thread nD τ) arg23 fullShare x22 ∗ owns (c : Thread nD τ) arg24 fullShare x23 ∗ owns (c : Thread nD τ) arg25 fullShare x24 ∗ owns (c : Thread nD τ) arg26 fullShare x25 ∗ owns (c : Thread nD τ) arg27 fullShare x26
        ∗ (∃ d, owns (c : Thread nD τ) arg28 fullShare d) ∗ (∃ d, owns (c : Thread nD τ) arg29 fullShare d) ∗ (∃ d, owns (c : Thread nD τ) arg30 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ owns (c : Thread nD τ) arg16 fullShare x15 ∗ owns (c : Thread nD τ) arg17 fullShare x16 ∗ owns (c : Thread nD τ) arg18 fullShare x17 ∗ owns (c : Thread nD τ) arg19 fullShare x18 ∗ owns (c : Thread nD τ) arg20 fullShare x19 ∗ owns (c : Thread nD τ) arg21 fullShare x20 ∗ owns (c : Thread nD τ) arg22 fullShare x21 ∗ owns (c : Thread nD τ) arg23 fullShare x22 ∗ owns (c : Thread nD τ) arg24 fullShare x23 ∗ owns (c : Thread nD τ) arg25 fullShare x24 ∗ owns (c : Thread nD τ) arg26 fullShare x25 ∗ owns (c : Thread nD τ) arg27 fullShare x26
            ∗ owns (c : Thread nD τ) arg28 fullShare (out0_27 x8 x0 x1 x2 x3 x4 x5 x6 x7)
            ∗ owns (c : Thread nD τ) arg29 fullShare (out0_28 x17 x9 x10 x11 x12 x13 x14 x15 x16)
            ∗ owns (c : Thread nD τ) arg30 fullShare (out0_29 x26 x18 x19 x20 x21 x22 x23 x24 x25)) -∗ K ⟨⟩))
      ⊢ wp frame (wpE (defs₀ (F := F)) Variants.none c none) E (cc0__combine_kernel i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30) K := by
  simp only [cc0__combine_kernel_eq_skeleton]; unfold cc0__combine_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%f17, %hf17, H17⟩, ⟨%f18, %hf18, H18⟩, ⟨%f19, %hf19, H19⟩, ⟨%f20, %hf20, H20⟩, ⟨%f21, %hf21, H21⟩, ⟨%f22, %hf22, H22⟩, ⟨%f23, %hf23, H23⟩, ⟨%f24, %hf24, H24⟩, ⟨%f25, %hf25, H25⟩, ⟨%f26, %hf26, H26⟩, ⟨%d27, %f27, -, H27⟩, ⟨%d28, %f28, -, H28⟩, ⟨%d29, %f29, -, H29⟩, Hk⟩
  subst hf0
  subst hf1
  subst hf2
  subst hf3
  subst hf4
  subst hf5
  subst hf6
  subst hf7
  subst hf8
  subst hf9
  subst hf10
  subst hf11
  subst hf12
  subst hf13
  subst hf14
  subst hf15
  subst hf16
  subst hf17
  subst hf18
  subst hf19
  subst hf20
  subst hf21
  subst hf22
  subst hf23
  subst hf24
  subst hf25
  subst hf26
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  isplitl [H11]
  · iexists f11; isplitr; · ipureintro; rfl
    iexact H11
  isplitl [H12]
  · iexists f12; isplitr; · ipureintro; rfl
    iexact H12
  isplitl [H13]
  · iexists f13; isplitr; · ipureintro; rfl
    iexact H13
  isplitl [H14]
  · iexists f14; isplitr; · ipureintro; rfl
    iexact H14
  isplitl [H15]
  · iexists f15; isplitr; · ipureintro; rfl
    iexact H15
  isplitl [H16]
  · iexists f16; isplitr; · ipureintro; rfl
    iexact H16
  isplitl [H17]
  · iexists f17; isplitr; · ipureintro; rfl
    iexact H17
  isplitl [H18]
  · iexists f18; isplitr; · ipureintro; rfl
    iexact H18
  isplitl [H19]
  · iexists f19; isplitr; · ipureintro; rfl
    iexact H19
  isplitl [H20]
  · iexists f20; isplitr; · ipureintro; rfl
    iexact H20
  isplitl [H21]
  · iexists f21; isplitr; · ipureintro; rfl
    iexact H21
  isplitl [H22]
  · iexists f22; isplitr; · ipureintro; rfl
    iexact H22
  isplitl [H23]
  · iexists f23; isplitr; · ipureintro; rfl
    iexact H23
  isplitl [H24]
  · iexists f24; isplitr; · ipureintro; rfl
    iexact H24
  isplitl [H25]
  · iexists f25; isplitr; · ipureintro; rfl
    iexact H25
  isplitl [H26]
  · iexists f26; isplitr; · ipureintro; rfl
    iexact H26
  isplitl [H27]
  · iexists _; isplitr
    swap; · iexact H27
    ipureintro
    exact View.read_writes_eq_canon _ _ _ (cover0_27 _)
  isplitl [H28]
  · iexists _; isplitr
    swap; · iexact H28
    ipureintro
    exact View.read_writes_eq_canon _ _ _ (cover0_28 _)
  iexists _; isplitr
  swap; · iexact H29
  ipureintro
  exact View.read_writes_eq_canon _ _ _ (cover0_29 _)

end Cert.KernelIdeal.Hand

end
-- ==== Proof.KI.Run.lean ====
/-
  The combine kernel's pipeline, run: the proof data, the body obligation at a generic point, the run and the frame.

  The one pipelined region walks 196 grid points; point `t` handles rows `1024·t … 1024·t + 1023` of every array. All
  30 windows move whole `1024 × k` blocks by the index map `t ↦ (t, 0)`: the 27 inputs (three levels of eight corner
  arrays and one weight array each) are fetched at every point, the three results written back at every point, nothing
  clipped, nothing idle. So what each buffer holds around the body is a closed function of the point: an input's is its
  array's block, a result's is the level's weighted sum of those blocks (`out0_27`, `out0_28`, `out0_29`).
-/
import proofs.«414534_j76854144795318_3_alg».proof.Proof.KI.Host
import proofs.«414534_j76854144795318_3_alg».proof.Proof.KI.Body
import Idealize.ShloMosaic.Lib.Pipeline.FrameSuffix

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The pipeline's proof data -/

/-- The proof data of the one pipeline on core `c`. The 30 windowed arrays are as the region finds them (`V`). After
    the body at point `t`: each of the 27 input windows' buffers still holds its block of rows `1024·t … 1024·t + 1023`;
    each of the three result windows' buffers holds its level's weighted sum of that level's eight corner blocks by
    the level's weight block (windows 0–7 by window 8 into window 27, windows 9–16 by 17 into 28, windows 18–25 by 26
    into 29). The invariant is the class's (the scoped rest and the generator register, untouched); nothing is owed;
    every share is full. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => iblk m c 13 t
    | ⟨14, _⟩ => iblk m c 14 t
    | ⟨15, _⟩ => iblk m c 15 t
    | ⟨16, _⟩ => iblk m c 16 t
    | ⟨17, _⟩ => iblk m c 17 t
    | ⟨18, _⟩ => iblk m c 18 t
    | ⟨19, _⟩ => iblk m c 19 t
    | ⟨20, _⟩ => iblk m c 20 t
    | ⟨21, _⟩ => iblk m c 21 t
    | ⟨22, _⟩ => iblk m c 22 t
    | ⟨23, _⟩ => iblk m c 23 t
    | ⟨24, _⟩ => iblk m c 24 t
    | ⟨25, _⟩ => iblk m c 25 t
    | ⟨26, _⟩ => iblk m c 26 t
    | ⟨27, _⟩ => out0_27 (iblk m c 8 t) (iblk m c 0 t) (iblk m c 1 t) (iblk m c 2 t) (iblk m c 3 t) (iblk m c 4 t) (iblk m c 5 t) (iblk m c 6 t) (iblk m c 7 t)
    | ⟨28, _⟩ => out0_28 (iblk m c 17 t) (iblk m c 9 t) (iblk m c 10 t) (iblk m c 11 t) (iblk m c 12 t) (iblk m c 13 t) (iblk m c 14 t) (iblk m c 15 t) (iblk m c 16 t)
    | ⟨29, _⟩ => out0_29 (iblk m c 26 t) (iblk m c 18 t) (iblk m c 19 t) (iblk m c 20 t) (iblk m c 21 t) (iblk m c 22 t) (iblk m c 23 t) (iblk m c 24 t) (iblk m c 25 t)
    | ⟨_ + 30, h⟩ => absurd h (Nat.not_lt.2 (Nat.le_add_left _ _))
  Φ _ := Pipeline.ΦA spec0 c
  q _ := fullShare
  owed _ := 0

/-- The proof data's arrays are the region-entry contents. -/
theorem A_eq (c : Dev nD) (w : Fin cfg0.W) : (dats m 0 c).A w = V m c (Pipeline.arrRef spec0 w) := by
  dsimp only [dats]

/-! What the body leaves, window by window. -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]
theorem after0_10 (c : Dev nD) (t : Fin cfg0.N) : (dats m 0 c).after 10 t = iblk m c 10 t := by dsimp only [dats]
theorem after0_11 (c : Dev nD) (t : Fin cfg0.N) : (dats m 0 c).after 11 t = iblk m c 11 t := by dsimp only [dats]
theorem after0_12 (c : Dev nD) (t : Fin cfg0.N) : (dats m 0 c).after 12 t = iblk m c 12 t := by dsimp only [dats]
theorem after0_13 (c : Dev nD) (t : Fin cfg0.N) : (dats m 0 c).after 13 t = iblk m c 13 t := by dsimp only [dats]
theorem after0_14 (c : Dev nD) (t : Fin cfg0.N) : (dats m 0 c).after 14 t = iblk m c 14 t := by dsimp only [dats]
theorem after0_15 (c : Dev nD) (t : Fin cfg0.N) : (dats m 0 c).after 15 t = iblk m c 15 t := by dsimp only [dats]
theorem after0_16 (c : Dev nD) (t : Fin cfg0.N) : (dats m 0 c).after 16 t = iblk m c 16 t := by dsimp only [dats]
theorem after0_17 (c : Dev nD) (t : Fin cfg0.N) : (dats m 0 c).after 17 t = iblk m c 17 t := by dsimp only [dats]
theorem after0_18 (c : Dev nD) (t : Fin cfg0.N) : (dats m 0 c).after 18 t = iblk m c 18 t := by dsimp only [dats]
theorem after0_19 (c : Dev nD) (t : Fin cfg0.N) : (dats m 0 c).after 19 t = iblk m c 19 t := by dsimp only [dats]
theorem after0_20 (c : Dev nD) (t : Fin cfg0.N) : (dats m 0 c).after 20 t = iblk m c 20 t := by dsimp only [dats]
theorem after0_21 (c : Dev nD) (t : Fin cfg0.N) : (dats m 0 c).after 21 t = iblk m c 21 t := by dsimp only [dats]
theorem after0_22 (c : Dev nD) (t : Fin cfg0.N) : (dats m 0 c).after 22 t = iblk m c 22 t := by dsimp only [dats]
theorem after0_23 (c : Dev nD) (t : Fin cfg0.N) : (dats m 0 c).after 23 t = iblk m c 23 t := by dsimp only [dats]
theorem after0_24 (c : Dev nD) (t : Fin cfg0.N) : (dats m 0 c).after 24 t = iblk m c 24 t := by dsimp only [dats]
theorem after0_25 (c : Dev nD) (t : Fin cfg0.N) : (dats m 0 c).after 25 t = iblk m c 25 t := by dsimp only [dats]
theorem after0_26 (c : Dev nD) (t : Fin cfg0.N) : (dats m 0 c).after 26 t = iblk m c 26 t := by dsimp only [dats]
theorem after0_27 (c : Dev nD) (t : Fin cfg0.N) : (dats m 0 c).after 27 t = out0_27 (iblk m c 8 t) (iblk m c 0 t) (iblk m c 1 t) (iblk m c 2 t) (iblk m c 3 t) (iblk m c 4 t) (iblk m c 5 t) (iblk m c 6 t) (iblk m c 7 t) := by dsimp only [dats]
theorem after0_28 (c : Dev nD) (t : Fin cfg0.N) : (dats m 0 c).after 28 t = out0_28 (iblk m c 17 t) (iblk m c 9 t) (iblk m c 10 t) (iblk m c 11 t) (iblk m c 12 t) (iblk m c 13 t) (iblk m c 14 t) (iblk m c 15 t) (iblk m c 16 t) := by dsimp only [dats]
theorem after0_29 (c : Dev nD) (t : Fin cfg0.N) : (dats m 0 c).after 29 t = out0_29 (iblk m c 26 t) (iblk m c 18 t) (iblk m c 19 t) (iblk m c 20 t) (iblk m c 21 t) (iblk m c 22 t) (iblk m c 23 t) (iblk m c 24 t) (iblk m c 25 t) := by dsimp only [dats]

/-! Each input's current staging buffer holds its block at every point: every input window is fetched at every point,
    uncut and never idle, and the body leaves the block in place. -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d
theorem before0_9 (c : Dev nD) (t : Fin cfg0.N) (d) : (dats m 0 c).before 9 t d = iblk m c 9 t :=
  before0_9_of m (dats m 0 c) (A_eq m c 9) (after0_9 m c) t d
theorem before0_10 (c : Dev nD) (t : Fin cfg0.N) (d) : (dats m 0 c).before 10 t d = iblk m c 10 t :=
  before0_10_of m (dats m 0 c) (A_eq m c 10) (after0_10 m c) t d
theorem before0_11 (c : Dev nD) (t : Fin cfg0.N) (d) : (dats m 0 c).before 11 t d = iblk m c 11 t :=
  before0_11_of m (dats m 0 c) (A_eq m c 11) (after0_11 m c) t d
theorem before0_12 (c : Dev nD) (t : Fin cfg0.N) (d) : (dats m 0 c).before 12 t d = iblk m c 12 t :=
  before0_12_of m (dats m 0 c) (A_eq m c 12) (after0_12 m c) t d
theorem before0_13 (c : Dev nD) (t : Fin cfg0.N) (d) : (dats m 0 c).before 13 t d = iblk m c 13 t :=
  before0_13_of m (dats m 0 c) (A_eq m c 13) (after0_13 m c) t d
theorem before0_14 (c : Dev nD) (t : Fin cfg0.N) (d) : (dats m 0 c).before 14 t d = iblk m c 14 t :=
  before0_14_of m (dats m 0 c) (A_eq m c 14) (after0_14 m c) t d
theorem before0_15 (c : Dev nD) (t : Fin cfg0.N) (d) : (dats m 0 c).before 15 t d = iblk m c 15 t :=
  before0_15_of m (dats m 0 c) (A_eq m c 15) (after0_15 m c) t d
theorem before0_16 (c : Dev nD) (t : Fin cfg0.N) (d) : (dats m 0 c).before 16 t d = iblk m c 16 t :=
  before0_16_of m (dats m 0 c) (A_eq m c 16) (after0_16 m c) t d
theorem before0_17 (c : Dev nD) (t : Fin cfg0.N) (d) : (dats m 0 c).before 17 t d = iblk m c 17 t :=
  before0_17_of m (dats m 0 c) (A_eq m c 17) (after0_17 m c) t d
theorem before0_18 (c : Dev nD) (t : Fin cfg0.N) (d) : (dats m 0 c).before 18 t d = iblk m c 18 t :=
  before0_18_of m (dats m 0 c) (A_eq m c 18) (after0_18 m c) t d
theorem before0_19 (c : Dev nD) (t : Fin cfg0.N) (d) : (dats m 0 c).before 19 t d = iblk m c 19 t :=
  before0_19_of m (dats m 0 c) (A_eq m c 19) (after0_19 m c) t d
theorem before0_20 (c : Dev nD) (t : Fin cfg0.N) (d) : (dats m 0 c).before 20 t d = iblk m c 20 t :=
  before0_20_of m (dats m 0 c) (A_eq m c 20) (after0_20 m c) t d
theorem before0_21 (c : Dev nD) (t : Fin cfg0.N) (d) : (dats m 0 c).before 21 t d = iblk m c 21 t :=
  before0_21_of m (dats m 0 c) (A_eq m c 21) (after0_21 m c) t d
theorem before0_22 (c : Dev nD) (t : Fin cfg0.N) (d) : (dats m 0 c).before 22 t d = iblk m c 22 t :=
  before0_22_of m (dats m 0 c) (A_eq m c 22) (after0_22 m c) t d
theorem before0_23 (c : Dev nD) (t : Fin cfg0.N) (d) : (dats m 0 c).before 23 t d = iblk m c 23 t :=
  before0_23_of m (dats m 0 c) (A_eq m c 23) (after0_23 m c) t d
theorem before0_24 (c : Dev nD) (t : Fin cfg0.N) (d) : (dats m 0 c).before 24 t d = iblk m c 24 t :=
  before0_24_of m (dats m 0 c) (A_eq m c 24) (after0_24 m c) t d
theorem before0_25 (c : Dev nD) (t : Fin cfg0.N) (d) : (dats m 0 c).before 25 t d = iblk m c 25 t :=
  before0_25_of m (dats m 0 c) (A_eq m c 25) (after0_25 m c) t d
theorem before0_26 (c : Dev nD) (t : Fin cfg0.N) (d) : (dats m 0 c).before 26 t d = iblk m c 26 t :=
  before0_26_of m (dats m 0 c) (A_eq m c 26) (after0_26 m c) t d

/-! ## The body obligation, at a generic point -/

/-- What the body is called with at point `t`: the invariant, the core's dues, and each window's current staging buffer
    held whole — an input's at what the pipeline left there, a result's at anything, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d))
    ∗ (∃ d, owns (c : Thread nD τ) (st0_10 t) fullShare ((dats m 0 c).before 10 t d))
    ∗ (∃ d, owns (c : Thread nD τ) (st0_11 t) fullShare ((dats m 0 c).before 11 t d))
    ∗ (∃ d, owns (c : Thread nD τ) (st0_12 t) fullShare ((dats m 0 c).before 12 t d))
    ∗ (∃ d, owns (c : Thread nD τ) (st0_13 t) fullShare ((dats m 0 c).before 13 t d))
    ∗ (∃ d, owns (c : Thread nD τ) (st0_14 t) fullShare ((dats m 0 c).before 14 t d))
    ∗ (∃ d, owns (c : Thread nD τ) (st0_15 t) fullShare ((dats m 0 c).before 15 t d))
    ∗ (∃ d, owns (c : Thread nD τ) (st0_16 t) fullShare ((dats m 0 c).before 16 t d))
    ∗ (∃ d, owns (c : Thread nD τ) (st0_17 t) fullShare ((dats m 0 c).before 17 t d))
    ∗ (∃ d, owns (c : Thread nD τ) (st0_18 t) fullShare ((dats m 0 c).before 18 t d))
    ∗ (∃ d, owns (c : Thread nD τ) (st0_19 t) fullShare ((dats m 0 c).before 19 t d))
    ∗ (∃ d, owns (c : Thread nD τ) (st0_20 t) fullShare ((dats m 0 c).before 20 t d))
    ∗ (∃ d, owns (c : Thread nD τ) (st0_21 t) fullShare ((dats m 0 c).before 21 t d))
    ∗ (∃ d, owns (c : Thread nD τ) (st0_22 t) fullShare ((dats m 0 c).before 22 t d))
    ∗ (∃ d, owns (c : Thread nD τ) (st0_23 t) fullShare ((dats m 0 c).before 23 t d))
    ∗ (∃ d, owns (c : Thread nD τ) (st0_24 t) fullShare ((dats m 0 c).before 24 t d))
    ∗ (∃ d, owns (c : Thread nD τ) (st0_25 t) fullShare ((dats m 0 c).before 25 t d))
    ∗ (∃ d, owns (c : Thread nD τ) (st0_26 t) fullShare ((dats m 0 c).before 26 t d))
    ∗ (∃ d, owns (c : Thread nD τ) (st0_27 t) fullShare ((dats m 0 c).before 27 t d))
    ∗ (∃ d, owns (c : Thread nD τ) (st0_28 t) fullShare ((dats m 0 c).before 28 t d))
    ∗ (∃ d, owns (c : Thread nD τ) (st0_29 t) fullShare ((dats m 0 c).before 29 t d)))

/-- and what it returns: the same, each buffer at what the body leaves in it. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ owns (c : Thread nD τ) (st0_9 t) fullShare ((dats m 0 c).after 9 t)
    ∗ owns (c : Thread nD τ) (st0_10 t) fullShare ((dats m 0 c).after 10 t)
    ∗ owns (c : Thread nD τ) (st0_11 t) fullShare ((dats m 0 c).after 11 t)
    ∗ owns (c : Thread nD τ) (st0_12 t) fullShare ((dats m 0 c).after 12 t)
    ∗ owns (c : Thread nD τ) (st0_13 t) fullShare ((dats m 0 c).after 13 t)
    ∗ owns (c : Thread nD τ) (st0_14 t) fullShare ((dats m 0 c).after 14 t)
    ∗ owns (c : Thread nD τ) (st0_15 t) fullShare ((dats m 0 c).after 15 t)
    ∗ owns (c : Thread nD τ) (st0_16 t) fullShare ((dats m 0 c).after 16 t)
    ∗ owns (c : Thread nD τ) (st0_17 t) fullShare ((dats m 0 c).after 17 t)
    ∗ owns (c : Thread nD τ) (st0_18 t) fullShare ((dats m 0 c).after 18 t)
    ∗ owns (c : Thread nD τ) (st0_19 t) fullShare ((dats m 0 c).after 19 t)
    ∗ owns (c : Thread nD τ) (st0_20 t) fullShare ((dats m 0 c).after 20 t)
    ∗ owns (c : Thread nD τ) (st0_21 t) fullShare ((dats m 0 c).after 21 t)
    ∗ owns (c : Thread nD τ) (st0_22 t) fullShare ((dats m 0 c).after 22 t)
    ∗ owns (c : Thread nD τ) (st0_23 t) fullShare ((dats m 0 c).after 23 t)
    ∗ owns (c : Thread nD τ) (st0_24 t) fullShare ((dats m 0 c).after 24 t)
    ∗ owns (c : Thread nD τ) (st0_25 t) fullShare ((dats m 0 c).after 25 t)
    ∗ owns (c : Thread nD τ) (st0_26 t) fullShare ((dats m 0 c).after 26 t)
    ∗ owns (c : Thread nD τ) (st0_27 t) fullShare ((dats m 0 c).after 27 t)
    ∗ owns (c : Thread nD τ) (st0_28 t) fullShare ((dats m 0 c).after 28 t)
    ∗ owns (c : Thread nD τ) (st0_29 t) fullShare ((dats m 0 c).after 29 t))

set_option maxHeartbeats 1000000 in
/-- The body at any point: the inputs' buffers hold their blocks (`before0_W`), so the body's triple applies at those
    blocks; the invariant and the core's dues pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9, before0_10, before0_11, before0_12, before0_13, before0_14, before0_15, before0_16, before0_17, before0_18, before0_19, before0_20, before0_21, before0_22, before0_23, before0_24, before0_25, before0_26]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7, after0_8, after0_9, after0_10, after0_11, after0_12, after0_13, after0_14, after0_15, after0_16, after0_17, after0_18, after0_19, after0_20, after0_21, after0_22, after0_23, after0_24, after0_25, after0_26, after0_27, after0_28, after0_29]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩, ⟨%d21, H21⟩, ⟨%d22, H22⟩, ⟨%d23, H23⟩, ⟨%d24, H24⟩, ⟨%d25, H25⟩, ⟨%d26, H26⟩, ⟨%d27, H27⟩, ⟨%d28, H28⟩, ⟨%d29, H29⟩⟩
  iapply (sound_kernel c Set.univ (grid0.coords t) _ _ _ _ _ _ _ _ _ _ _ _ _ _ _ _ _ _ _ _ _ _ _ _ _ _ _ _ _ _ _ _ _ _ _ _ _ _ _ _ _ _ _ _ _ _ _ _ _ _ _ _ _ _ _ _ _ _ _ _
    (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) (iblk m c 23 t) (iblk m c 24 t) (iblk m c 25 t) (iblk m c 26 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]; · iexact H21
  isplitl [H22]; · iexact H22
  isplitl [H23]; · iexact H23
  isplitl [H24]; · iexact H24
  isplitl [H25]; · iexact H25
  isplitl [H26]; · iexact H26
  isplitl [H27]; · iexists _; iexact H27
  isplitl [H28]; · iexists _; iexact H28
  isplitl [H29]; · iexists _; iexact H29
  iintro ⟨H0, H1, H2, H3, H4, H5, H6, H7, H8, H9, H10, H11, H12, H13, H14, H15, H16, H17, H18, H19, H20, H21, H22, H23, H24, H25, H26, H27, H28, H29⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]; · iexact H21
  isplitl [H22]; · iexact H22
  isplitl [H23]; · iexact H23
  isplitl [H24]; · iexact H24
  isplitl [H25]; · iexact H25
  isplitl [H26]; · iexact H26
  isplitl [H27]; · iexact H27
  isplitl [H28]; · iexact H28
  iexact H29

/-- The library's body obligation, at every point. -/
theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- For any values, from any memory with zero counters: every weakly fair execution of the program on the TensorCores
    terminates, and every final state has every windowed array at what the pipeline computes from the proof data and
    every other unscoped buffer as the host operations after the region leave it. -/
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

/-- THE FRAME: the program runs and its six argument arrays end as launched, at any float model. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  frame_of m ρ (dats m) (A_eq m) (run_main m ρ)

end Cert.KernelIdeal.Hand

end
-- ==== Proof.KI.BlocksBase.lean ====
/-
  The kernel body's sum at one entry of a block, and the closed form of a level's result array.

  Per level the body forms, at row `p` and channel `ch` of a block,

      0 + q₀(p, ch)·c(p, 0) + q₁(p, ch)·c(p, 1) + … + q₇(p, ch)·c(p, 7)

  over the level's eight corner blocks `qⱼ` and its weight block `c`: each corner entry times the row's weight for that
  corner, the products added left to right from zero. The three levels differ only in the channel count (32, 64, 128)
  and in where the sum is cut into partial sums.
-/
import proofs.«414534_j76854144795318_3_alg».proof.Proof.Gen.KernelIdeal.Skeleton
import Idealize.ShloMosaic.Lib.Pipeline.Value
import Idealize.ShloMosaic.Lib.ValueIdx
import Idealize.ShloMosaic.PureOps.Ideal.Laws

noncomputable section

namespace Cert.KernelIdeal.Hand

open Cert.KernelIdeal Cert.KernelIdeal.Gen
open Idealize.ShloMosaic Idealize.ShloMosaic.ValueIdx

/-! ## The body's sum at one entry of a block -/

/-- Column `k` of a `1024 × 8` block, repeated along an axis of extent `n`, read at row `p` and any position `ch`
    of that axis: the block's entry `(p, k)`. -/
theorem col_at {n : Nat} (cw : FVec Ideal S1024x8 .f32) (k : Nat) (hk : k < 8)
    (hs : S1024x8.Slices ![0, k] S1024x1) (hb : S1024x1.Broadcasts (⟨2, ![1024, n]⟩ : Shape))
    (p : Fin 1024) (ch : Fin n) :
    broadcastTo (⟨2, ![1024, n]⟩ : Shape) (extractStridedSlice S1024x1 ![0, k] cw hs) hb (ix2 p ch) = cw (ix2 p ⟨k, hk⟩) := by
  refine (broadcastTo_apply _ hb (ix2 p ch) (ix2 p (0 : Fin 1)) ?_).trans ?_
  · intro a
    match a with
    | ⟨0, _⟩ => rfl
    | ⟨1, _⟩ => rfl
  · refine extractStridedSlice_apply _ cw hs (ix2 p (0 : Fin 1)) (ix2 p ⟨k, hk⟩) ?_
    intro a
    match a with
    | ⟨0, _⟩ => show p.val = 0 + p.val; omega
    | ⟨1, _⟩ => show k = k + 0; omega

/-- Level 0 (32 channels) at row `p`, channel `ch` of a block: six terms accumulated from zero, then terms 6 and 7. -/
theorem pay27_at (cw : Vec Ideal S1024x8 .f32) (q0 q1 q2 q3 q4 q5 q6 q7 : Vec Ideal S1024x32 .f32) (p : Fin 1024) (ch : Fin 32) :
    k0_pay6 (k0_pay2 cw) (k0_pay3 cw q0 q1 q2 q3 q4 q5) (k0_pay4 q6) (k0_pay5 cw) q7 (ix2 p ch)
      = 0 + q0 (ix2 p ch) * cw (ix2 p 0) + q1 (ix2 p ch) * cw (ix2 p 1) + q2 (ix2 p ch) * cw (ix2 p 2) + q3 (ix2 p ch) * cw (ix2 p 3)
        + q4 (ix2 p ch) * cw (ix2 p 4) + q5 (ix2 p ch) * cw (ix2 p 5) + q6 (ix2 p ch) * cw (ix2 p 6) + q7 (ix2 p ch) * cw (ix2 p 7) := by
  unfold k0_pay6 k0_pay3 k0_pay4 k0_pay5 k0_pay2
  simp only [shapeCast_self, addf_apply, mulf_apply, broadcast_apply]
  rw [col_at cw 0 (by decide) _ _ p ch, col_at cw 1 (by decide) _ _ p ch, col_at cw 2 (by decide) _ _ p ch, col_at cw 3 (by decide) _ _ p ch,
    col_at cw 4 (by decide) _ _ p ch, col_at cw 5 (by decide) _ _ p ch, col_at cw 6 (by decide) _ _ p ch, col_at cw 7 (by decide) _ _ p ch]
  rw [show (FloatOps.ofBits .f32 0#32 : Ideal .f32) = 0 from Ideal.ofBits_zero_f32]
  rfl

/-- Level 1 (64 channels): four terms accumulated from zero, the product of term 4, then terms 5, 6 and 7. -/
theorem pay28_at (cw : Vec Ideal S1024x8 .f32) (q0 q1 q2 q3 q4 q5 q6 q7 : Vec Ideal S1024x64 .f32) (p : Fin 1024) (ch : Fin 64) :
    k0_pay10 (k0_pay7 cw) (k0_pay8 cw q0 q1 q2 q3) (k0_pay9 cw q4) q5 q6 q7 (ix2 p ch)
      = 0 + q0 (ix2 p ch) * cw (ix2 p 0) + q1 (ix2 p ch) * cw (ix2 p 1) + q2 (ix2 p ch) * cw (ix2 p 2) + q3 (ix2 p ch) * cw (ix2 p 3)
        + q4 (ix2 p ch) * cw (ix2 p 4) + q5 (ix2 p ch) * cw (ix2 p 5) + q6 (ix2 p ch) * cw (ix2 p 6) + q7 (ix2 p ch) * cw (ix2 p 7) := by
  unfold k0_pay10 k0_pay8 k0_pay9 k0_pay7
  simp only [shapeCast_self, addf_apply, mulf_apply, broadcast_apply]
  rw [col_at cw 0 (by decide) _ _ p ch, col_at cw 1 (by decide) _ _ p ch, col_at cw 2 (by decide) _ _ p ch, col_at cw 3 (by decide) _ _ p ch,
    col_at cw 4 (by decide) _ _ p ch, col_at cw 5 (by decide) _ _ p ch, col_at cw 6 (by decide) _ _ p ch, col_at cw 7 (by decide) _ _ p ch]
  rw [show (FloatOps.ofBits .f32 0#32 : Ideal .f32) = 0 from Ideal.ofBits_zero_f32]
  rfl

/-- Level 2 (128 channels): three terms accumulated from zero, then terms 3 to 7. -/
theorem pay29_at (cw : Vec Ideal S1024x8 .f32) (q0 q1 q2 q3 q4 q5 q6 q7 : Vec Ideal S1024x128 .f32) (p : Fin 1024) (ch : Fin 128) :
    k0_pay1 (k0_pay11 cw) (k0_pay12 cw q0 q1 q2) q3 q4 q5 q6 q7 (ix2 p ch)
      = 0 + q0 (ix2 p ch) * cw (ix2 p 0) + q1 (ix2 p ch) * cw (ix2 p 1) + q2 (ix2 p ch) * cw (ix2 p 2) + q3 (ix2 p ch) * cw (ix2 p 3)
        + q4 (ix2 p ch) * cw (ix2 p 4) + q5 (ix2 p ch) * cw (ix2 p 5) + q6 (ix2 p ch) * cw (ix2 p 6) + q7 (ix2 p ch) * cw (ix2 p 7) := by
  unfold k0_pay1 k0_pay12 k0_pay11
  simp only [shapeCast_self, addf_apply, mulf_apply, broadcast_apply]
  rw [col_at cw 0 (by decide) _ _ p ch, col_at cw 1 (by decide) _ _ p ch, col_at cw 2 (by decide) _ _ p ch, col_at cw 3 (by decide) _ _ p ch,
    col_at cw 4 (by decide) _ _ p ch, col_at cw 5 (by decide) _ _ p ch, col_at cw 6 (by decide) _ _ p ch, col_at cw 7 (by decide) _ _ p ch]
  rw [show (FloatOps.ofBits .f32 0#32 : Ideal .f32) = 0 from Ideal.ofBits_zero_f32]
  rfl

/-! ## The result arrays' closed form -/

/-- Row `r`, channel `ch` of a level's result: the eight corner arrays' entries at `(r, ch)`, each times the weight
    array's entry for row `r` and that corner, added up from zero in corner order. -/
abbrev wsum {n : Nat} (cw : S200704x8.Idx → EReal) (a0 a1 a2 a3 a4 a5 a6 a7 : (⟨2, ![200704, n]⟩ : Shape).Idx → EReal)
    (r : Fin 200704) (ch : Fin n) : EReal :=
  0 + a0 (ix2 r ch) * cw (ix2 r 0) + a1 (ix2 r ch) * cw (ix2 r 1) + a2 (ix2 r ch) * cw (ix2 r 2) + a3 (ix2 r ch) * cw (ix2 r 3)
    + a4 (ix2 r ch) * cw (ix2 r 4) + a5 (ix2 r ch) * cw (ix2 r 5) + a6 (ix2 r ch) * cw (ix2 r 6) + a7 (ix2 r ch) * cw (ix2 r 7)

/-- A level's whole result array: `wsum` at every row and channel. -/
abbrev wsumArr {n : Nat} (cw : S200704x8.Idx → EReal) (a0 a1 a2 a3 a4 a5 a6 a7 : (⟨2, ![200704, n]⟩ : Shape).Idx → EReal) :
    (⟨2, ![200704, n]⟩ : Shape).Idx → EReal :=
  fun i => wsum cw a0 a1 a2 a3 a4 a5 a6 a7 (i 0) (i 1)

/-- The whole-block rectangles start at the origin. -/
theorem hz : (![0, 0] : Fin 2 → Nat) = fun _ => 0 := funext fun a => by fin_cases a <;> rfl

end Cert.KernelIdeal.Hand

end
-- ==== Proof.KI.Blocks27.lean ====
/-
  Level 0 (32 channels): the first result array after the pipelined region.

  Windows 0–7 carry the level's eight corner arrays, window 8 its weight array, window 27 the result. At grid point `t`
  every one of them moves rows `1024·t … 1024·t + 1023`, all columns. So what point `t` writes back is block `t` of the
  level's closed form, and the 196 blocks tile the 200704 rows.
-/
import proofs.«414534_j76854144795318_3_alg».proof.Proof.KI.Run
import proofs.«414534_j76854144795318_3_alg».proof.Proof.KI.BlocksBase

set_option maxRecDepth 16384

noncomputable section

namespace Cert.KernelIdeal.Hand

open Cert.KernelIdeal Cert.KernelIdeal.Gen
open Idealize.ShloMosaic Idealize.ShloMosaic.TcCoe Idealize.ShloMosaic.ValueIdx Idealize.SL.Sem
open Idealize.ShloMosaic.Pipeline (Dat)

variable (m : (ℓ : Loc nD τ sig) → Buf (Elt Ideal) ℓ)

/-! ## Where a block sits in its array: the index maps, decided once over the 196 points -/

theorem idx0 : ∀ t : Fin cfg0.N, win0_0.index t (0 : Fin 2) = t.val ∧ win0_0.index t (1 : Fin 2) = 0 :=
  (by decide +kernel : ∀ t : Fin grid0.N, _)
theorem idx1 : ∀ t : Fin cfg0.N, win0_1.index t (0 : Fin 2) = t.val ∧ win0_1.index t (1 : Fin 2) = 0 :=
  (by decide +kernel : ∀ t : Fin grid0.N, _)
theorem idx2 : ∀ t : Fin cfg0.N, win0_2.index t (0 : Fin 2) = t.val ∧ win0_2.index t (1 : Fin 2) = 0 :=
  (by decide +kernel : ∀ t : Fin grid0.N, _)
theorem idx3 : ∀ t : Fin cfg0.N, win0_3.index t (0 : Fin 2) = t.val ∧ win0_3.index t (1 : Fin 2) = 0 :=
  (by decide +kernel : ∀ t : Fin grid0.N, _)
theorem idx4 : ∀ t : Fin cfg0.N, win0_4.index t (0 : Fin 2) = t.val ∧ win0_4.index t (1 : Fin 2) = 0 :=
  (by decide +kernel : ∀ t : Fin grid0.N, _)
theorem idx5 : ∀ t : Fin cfg0.N, win0_5.index t (0 : Fin 2) = t.val ∧ win0_5.index t (1 : Fin 2) = 0 :=
  (by decide +kernel : ∀ t : Fin grid0.N, _)
theorem idx6 : ∀ t : Fin cfg0.N, win0_6.index t (0 : Fin 2) = t.val ∧ win0_6.index t (1 : Fin 2) = 0 :=
  (by decide +kernel : ∀ t : Fin grid0.N, _)
theorem idx7 : ∀ t : Fin cfg0.N, win0_7.index t (0 : Fin 2) = t.val ∧ win0_7.index t (1 : Fin 2) = 0 :=
  (by decide +kernel : ∀ t : Fin grid0.N, _)
theorem idx8 : ∀ t : Fin cfg0.N, win0_8.index t (0 : Fin 2) = t.val ∧ win0_8.index t (1 : Fin 2) = 0 :=
  (by decide +kernel : ∀ t : Fin grid0.N, _)
theorem idx27 : ∀ t : Fin cfg0.N, win0_27.index t (0 : Fin 2) = t.val ∧ win0_27.index t (1 : Fin 2) = 0 :=
  (by decide +kernel : ∀ t : Fin grid0.N, _)

/-! Entry `(p, ch)` of a window's block at point `t` is entry `(1024·t + p, ch)` of its array. -/

theorem sits0 (t : Fin cfg0.N) (p : Fin 1024) (ch : Fin 32) (r : Fin 200704) (hr : r.val = 1024 * t.val + p.val) :
    ((cfg0.win 0).blk t).view.emb (ix2 p ch) = (ix2 r ch : S200704x32.Idx) :=
  funext fun a => Fin.ext (by
    obtain ⟨e0, e1⟩ := idx0 t
    match a with
    | ⟨0, _⟩ => show win0_0.index t (0 : Fin 2) * 1024 + 1 * p.val = r.val; omega
    | ⟨1, _⟩ => show win0_0.index t (1 : Fin 2) * 32 + 1 * ch.val = ch.val; omega)
theorem sits1 (t : Fin cfg0.N) (p : Fin 1024) (ch : Fin 32) (r : Fin 200704) (hr : r.val = 1024 * t.val + p.val) :
    ((cfg0.win 1).blk t).view.emb (ix2 p ch) = (ix2 r ch : S200704x32.Idx) :=
  funext fun a => Fin.ext (by
    obtain ⟨e0, e1⟩ := idx1 t
    match a with
    | ⟨0, _⟩ => show win0_1.index t (0 : Fin 2) * 1024 + 1 * p.val = r.val; omega
    | ⟨1, _⟩ => show win0_1.index t (1 : Fin 2) * 32 + 1 * ch.val = ch.val; omega)
theorem sits2 (t : Fin cfg0.N) (p : Fin 1024) (ch : Fin 32) (r : Fin 200704) (hr : r.val = 1024 * t.val + p.val) :
    ((cfg0.win 2).blk t).view.emb (ix2 p ch) = (ix2 r ch : S200704x32.Idx) :=
  funext fun a => Fin.ext (by
    obtain ⟨e0, e1⟩ := idx2 t
    match a with
    | ⟨0, _⟩ => show win0_2.index t (0 : Fin 2) * 1024 + 1 * p.val = r.val; omega
    | ⟨1, _⟩ => show win0_2.index t (1 : Fin 2) * 32 + 1 * ch.val = ch.val; omega)
theorem sits3 (t : Fin cfg0.N) (p : Fin 1024) (ch : Fin 32) (r : Fin 200704) (hr : r.val = 1024 * t.val + p.val) :
    ((cfg0.win 3).blk t).view.emb (ix2 p ch) = (ix2 r ch : S200704x32.Idx) :=
  funext fun a => Fin.ext (by
    obtain ⟨e0, e1⟩ := idx3 t
    match a with
    | ⟨0, _⟩ => show win0_3.index t (0 : Fin 2) * 1024 + 1 * p.val = r.val; omega
    | ⟨1, _⟩ => show win0_3.index t (1 : Fin 2) * 32 + 1 * ch.val = ch.val; omega)
theorem sits4 (t : Fin cfg0.N) (p : Fin 1024) (ch : Fin 32) (r : Fin 200704) (hr : r.val = 1024 * t.val + p.val) :
    ((cfg0.win 4).blk t).view.emb (ix2 p ch) = (ix2 r ch : S200704x32.Idx) :=
  funext fun a => Fin.ext (by
    obtain ⟨e0, e1⟩ := idx4 t
    match a with
    | ⟨0, _⟩ => show win0_4.index t (0 : Fin 2) * 1024 + 1 * p.val = r.val; omega
    | ⟨1, _⟩ => show win0_4.index t (1 : Fin 2) * 32 + 1 * ch.val = ch.val; omega)
theorem sits5 (t : Fin cfg0.N) (p : Fin 1024) (ch : Fin 32) (r : Fin 200704) (hr : r.val = 1024 * t.val + p.val) :
    ((cfg0.win 5).blk t).view.emb (ix2 p ch) = (ix2 r ch : S200704x32.Idx) :=
  funext fun a => Fin.ext (by
    obtain ⟨e0, e1⟩ := idx5 t
    match a with
    | ⟨0, _⟩ => show win0_5.index t (0 : Fin 2) * 1024 + 1 * p.val = r.val; omega
    | ⟨1, _⟩ => show win0_5.index t (1 : Fin 2) * 32 + 1 * ch.val = ch.val; omega)
theorem sits6 (t : Fin cfg0.N) (p : Fin 1024) (ch : Fin 32) (r : Fin 200704) (hr : r.val = 1024 * t.val + p.val) :
    ((cfg0.win 6).blk t).view.emb (ix2 p ch) = (ix2 r ch : S200704x32.Idx) :=
  funext fun a => Fin.ext (by
    obtain ⟨e0, e1⟩ := idx6 t
    match a with
    | ⟨0, _⟩ => show win0_6.index t (0 : Fin 2) * 1024 + 1 * p.val = r.val; omega
    | ⟨1, _⟩ => show win0_6.index t (1 : Fin 2) * 32 + 1 * ch.val = ch.val; omega)
theorem sits7 (t : Fin cfg0.N) (p : Fin 1024) (ch : Fin 32) (r : Fin 200704) (hr : r.val = 1024 * t.val + p.val) :
    ((cfg0.win 7).blk t).view.emb (ix2 p ch) = (ix2 r ch : S200704x32.Idx) :=
  funext fun a => Fin.ext (by
    obtain ⟨e0, e1⟩ := idx7 t
    match a with
    | ⟨0, _⟩ => show win0_7.index t (0 : Fin 2) * 1024 + 1 * p.val = r.val; omega
    | ⟨1, _⟩ => show win0_7.index t (1 : Fin 2) * 32 + 1 * ch.val = ch.val; omega)
theorem sits8 (t : Fin cfg0.N) (p : Fin 1024) (k : Fin 8) (r : Fin 200704) (hr : r.val = 1024 * t.val + p.val) :
    ((cfg0.win 8).blk t).view.emb (ix2 p k) = (ix2 r k : S200704x8.Idx) :=
  funext fun a => Fin.ext (by
    obtain ⟨e0, e1⟩ := idx8 t
    match a with
    | ⟨0, _⟩ => show win0_8.index t (0 : Fin 2) * 1024 + 1 * p.val = r.val; omega
    | ⟨1, _⟩ => show win0_8.index t (1 : Fin 2) * 8 + 1 * k.val = k.val; omega)
theorem sits27 (t : Fin cfg0.N) (p : Fin 1024) (ch : Fin 32) (r : Fin 200704) (hr : r.val = 1024 * t.val + p.val) :
    ((cfg0.win 27).blk t).view.emb (ix2 p ch) = (ix2 r ch : S200704x32.Idx) :=
  funext fun a => Fin.ext (by
    obtain ⟨e0, e1⟩ := idx27 t
    match a with
    | ⟨0, _⟩ => show win0_27.index t (0 : Fin 2) * 1024 + 1 * p.val = r.val; omega
    | ⟨1, _⟩ => show win0_27.index t (1 : Fin 2) * 32 + 1 * ch.val = ch.val; omega)

/-! So reading any contents `A` of an input window's array through its block at point `t` gives `A` in row
    `1024·t + p`; in particular for the array as the region finds it. -/

theorem rdA0 (A : S200704x32.Idx → EReal) (t : Fin cfg0.N) (p : Fin 1024) (ch : Fin 32) (r : Fin 200704) (hr : r.val = 1024 * t.val + p.val) :
    ((cfg0.win 0).blk t).view.read (Elt Ideal) A (ix2 p ch) = A (ix2 r ch) := by
  rw [View.read_apply]; exact congrArg A (sits0 t p ch r hr)
theorem rdA1 (A : S200704x32.Idx → EReal) (t : Fin cfg0.N) (p : Fin 1024) (ch : Fin 32) (r : Fin 200704) (hr : r.val = 1024 * t.val + p.val) :
    ((cfg0.win 1).blk t).view.read (Elt Ideal) A (ix2 p ch) = A (ix2 r ch) := by
  rw [View.read_apply]; exact congrArg A (sits1 t p ch r hr)
theorem rdA2 (A : S200704x32.Idx → EReal) (t : Fin cfg0.N) (p : Fin 1024) (ch : Fin 32) (r : Fin 200704) (hr : r.val = 1024 * t.val + p.val) :
    ((cfg0.win 2).blk t).view.read (Elt Ideal) A (ix2 p ch) = A (ix2 r ch) := by
  rw [View.read_apply]; exact congrArg A (sits2 t p ch r hr)
theorem rdA3 (A : S200704x32.Idx → EReal) (t : Fin cfg0.N) (p : Fin 1024) (ch : Fin 32) (r : Fin 200704) (hr : r.val = 1024 * t.val + p.val) :
    ((cfg0.win 3).blk t).view.read (Elt Ideal) A (ix2 p ch) = A (ix2 r ch) := by
  rw [View.read_apply]; exact congrArg A (sits3 t p ch r hr)
theorem rdA4 (A : S200704x32.Idx → EReal) (t : Fin cfg0.N) (p : Fin 1024) (ch : Fin 32) (r : Fin 200704) (hr : r.val = 1024 * t.val + p.val) :
    ((cfg0.win 4).blk t).view.read (Elt Ideal) A (ix2 p ch) = A (ix2 r ch) := by
  rw [View.read_apply]; exact congrArg A (sits4 t p ch r hr)
theorem rdA5 (A : S200704x32.Idx → EReal) (t : Fin cfg0.N) (p : Fin 1024) (ch : Fin 32) (r : Fin 200704) (hr : r.val = 1024 * t.val + p.val) :
    ((cfg0.win 5).blk t).view.read (Elt Ideal) A (ix2 p ch) = A (ix2 r ch) := by
  rw [View.read_apply]; exact congrArg A (sits5 t p ch r hr)
theorem rdA6 (A : S200704x32.Idx → EReal) (t : Fin cfg0.N) (p : Fin 1024) (ch : Fin 32) (r : Fin 200704) (hr : r.val = 1024 * t.val + p.val) :
    ((cfg0.win 6).blk t).view.read (Elt Ideal) A (ix2 p ch) = A (ix2 r ch) := by
  rw [View.read_apply]; exact congrArg A (sits6 t p ch r hr)
theorem rdA7 (A : S200704x32.Idx → EReal) (t : Fin cfg0.N) (p : Fin 1024) (ch : Fin 32) (r : Fin 200704) (hr : r.val = 1024 * t.val + p.val) :
    ((cfg0.win 7).blk t).view.read (Elt Ideal) A (ix2 p ch) = A (ix2 r ch) := by
  rw [View.read_apply]; exact congrArg A (sits7 t p ch r hr)
theorem rdA8 (A : S200704x8.Idx → EReal) (t : Fin cfg0.N) (p : Fin 1024) (k : Fin 8) (r : Fin 200704) (hr : r.val = 1024 * t.val + p.val) :
    ((cfg0.win 8).blk t).view.read (Elt Ideal) A (ix2 p k) = A (ix2 r k) := by
  rw [View.read_apply]; exact congrArg A (sits8 t p k r hr)

theorem rd0 (c : Dev nD) (t : Fin cfg0.N) (p : Fin 1024) (ch : Fin 32) (r : Fin 200704) (hr : r.val = 1024 * t.val + p.val) :
    iblk m c 0 t (ix2 p ch) = V m c main_v115 (ix2 r ch) := rdA0 (V m c main_v115) t p ch r hr
theorem rd1 (c : Dev nD) (t : Fin cfg0.N) (p : Fin 1024) (ch : Fin 32) (r : Fin 200704) (hr : r.val = 1024 * t.val + p.val) :
    iblk m c 1 t (ix2 p ch) = V m c main_v141 (ix2 r ch) := rdA1 (V m c main_v141) t p ch r hr
theorem rd2 (c : Dev nD) (t : Fin cfg0.N) (p : Fin 1024) (ch : Fin 32) (r : Fin 200704) (hr : r.val = 1024 * t.val + p.val) :
    iblk m c 2 t (ix2 p ch) = V m c main_v167 (ix2 r ch) := rdA2 (V m c main_v167) t p ch r hr
theorem rd3 (c : Dev nD) (t : Fin cfg0.N) (p : Fin 1024) (ch : Fin 32) (r : Fin 200704) (hr : r.val = 1024 * t.val + p.val) :
    iblk m c 3 t (ix2 p ch) = V m c main_v193 (ix2 r ch) := rdA3 (V m c main_v193) t p ch r hr
theorem rd4 (c : Dev nD) (t : Fin cfg0.N) (p : Fin 1024) (ch : Fin 32) (r : Fin 200704) (hr : r.val = 1024 * t.val + p.val) :
    iblk m c 4 t (ix2 p ch) = V m c main_v219 (ix2 r ch) := rdA4 (V m c main_v219) t p ch r hr
theorem rd5 (c : Dev nD) (t : Fin cfg0.N) (p : Fin 1024) (ch : Fin 32) (r : Fin 200704) (hr : r.val = 1024 * t.val + p.val) :
    iblk m c 5 t (ix2 p ch) = V m c main_v245 (ix2 r ch) := rdA5 (V m c main_v245) t p ch r hr
theorem rd6 (c : Dev nD) (t : Fin cfg0.N) (p : Fin 1024) (ch : Fin 32) (r : Fin 200704) (hr : r.val = 1024 * t.val + p.val) :
    iblk m c 6 t (ix2 p ch) = V m c main_v271 (ix2 r ch) := rdA6 (V m c main_v271) t p ch r hr
theorem rd7 (c : Dev nD) (t : Fin cfg0.N) (p : Fin 1024) (ch : Fin 32) (r : Fin 200704) (hr : r.val = 1024 * t.val + p.val) :
    iblk m c 7 t (ix2 p ch) = V m c main_v297 (ix2 r ch) := rdA7 (V m c main_v297) t p ch r hr
theorem rd8 (c : Dev nD) (t : Fin cfg0.N) (p : Fin 1024) (k : Fin 8) (r : Fin 200704) (hr : r.val = 1024 * t.val + p.val) :
    iblk m c 8 t (ix2 p k) = V m c main_v89 (ix2 r k) := rdA8 (V m c main_v89) t p k r hr

/-! ## What is written back, and the array after the run -/

/-- What point `t` writes back of the first result is block `t` of the level's closed form over the corner and weight
    arrays as the region finds them. -/
theorem flushed27_eq (c : Dev nD) (t : Fin cfg0.N) :
    (dats m 0 c).flushed 27 t = ((cfg0.win 27).blk t).view.read (Elt Ideal)
      (wsumArr (V m c main_v89) (V m c main_v115) (V m c main_v141) (V m c main_v167) (V m c main_v193)
        (V m c main_v219) (V m c main_v245) (V m c main_v271) (V m c main_v297)) := by
  show (cfg0.win 27).cut (grid0.coords t) ((dats m 0 c).after 27 t) = _
  rw [after0_27]
  unfold out0_27
  rw [View.canon_unit_zero hz]
  simp only [View.ld_unit_zero (S := S1024x32) hz, View.ld_unit_zero (S := S1024x8) hz]
  funext j
  obtain ⟨p, ch, rfl⟩ : ∃ (p : Fin 1024) (ch : Fin 32), j = ix2 p ch := ⟨j 0, j 1, eq_ix2 j⟩
  have hN : cfg0.N = 196 := N_0
  have ht : t.val < cfg0.N := t.isLt
  have hr : (⟨1024 * t.val + p.val, by omega⟩ : Fin 200704).val = 1024 * t.val + p.val := rfl
  rw [View.read_apply, sits27 t p ch _ hr]
  refine (pay27_at (iblk m c 8 t) (iblk m c 0 t) (iblk m c 1 t) (iblk m c 2 t) (iblk m c 3 t) (iblk m c 4 t) (iblk m c 5 t)
    (iblk m c 6 t) (iblk m c 7 t) p ch).trans ?_
  rw [rd0 m c t p ch _ hr, rd1 m c t p ch _ hr, rd2 m c t p ch _ hr, rd3 m c t p ch _ hr, rd4 m c t p ch _ hr,
    rd5 m c t p ch _ hr, rd6 m c t p ch _ hr, rd7 m c t p ch _ hr,
    rd8 m c t p 0 _ hr, rd8 m c t p 1 _ hr, rd8 m c t p 2 _ hr, rd8 m c t p 3 _ hr,
    rd8 m c t p 4 _ hr, rd8 m c t p 5 _ hr, rd8 m c t p 6 _ hr, rd8 m c t p 7 _ hr]
  rfl

/-- An index of the first result array is in point `t`'s block iff each coordinate is in the block's range. -/
theorem mem_blk27 (t : Fin cfg0.N) (i : S200704x32.Idx) :
    i ∈ ((cfg0.win 27).blk t).view.set ↔ ∀ a : Fin 2, win0_27.index t a * S1024x32.size a ≤ (i a).val ∧ (i a).val < win0_27.index t a * S1024x32.size a + S1024x32.size a := by
  show i ∈ ((View.whole main_v886_0).slice (win0_27.rect t)).set ↔ _
  rw [View.set_slice_whole, Rect.mem_set_unit]
  exact Iff.rfl

/-- Row `r` of the first result array lies in the block of point `r / 1024`. -/
theorem cover27 (i : S200704x32.Idx) : ∃ t : Fin cfg0.N, (cfg0.win 27).flush t = true ∧ i ∈ ((cfg0.win 27).blk t).view.set := by
  have hi0 : (i 0).val < 200704 := (i 0).isLt
  have hi1 : (i 1).val < 32 := (i 1).isLt
  have hN : cfg0.N = 196 := N_0
  refine ⟨⟨(i 0).val / 1024, by rw [hN]; omega⟩, flush0_27 _, ?_⟩
  rw [mem_blk27]
  obtain ⟨e0, e1⟩ := idx27 ⟨(i 0).val / 1024, by rw [hN]; omega⟩
  intro a
  match a with
  | ⟨0, _⟩ => show win0_27.index _ (0 : Fin 2) * 1024 ≤ (i 0).val ∧ (i 0).val < win0_27.index _ (0 : Fin 2) * 1024 + 1024; rw [e0]; show (i 0).val / 1024 * 1024 ≤ (i 0).val ∧ (i 0).val < (i 0).val / 1024 * 1024 + 1024; omega
  | ⟨1, _⟩ => show win0_27.index _ (1 : Fin 2) * 32 ≤ (i 1).val ∧ (i 1).val < win0_27.index _ (1 : Fin 2) * 32 + 32; rw [e1]; omega

/-- The first result array after the run: the level's closed form. -/
theorem final27 (c : Dev nD) : (dats m 0 c).arrAt 27 cfg0.N
    = wsumArr (V m c main_v89) (V m c main_v115) (V m c main_v141) (V m c main_v167) (V m c main_v193)
        (V m c main_v219) (V m c main_v245) (V m c main_v271) (V m c main_v297) :=
  (dats m 0 c).arrAt_eq_of_cover 27 _ (fun t _ => flushed27_eq m c t) cover27

/-- Row `r`, channel `ch` of the first result array after the run. -/
theorem out27_at (c : Dev nD) (r : Fin 200704) (ch : Fin 32) :
    (dats (F := Ideal) m 0 c).arrAt 27 cfg0.N (ix2 r ch)
      = wsum (V m c main_v89) (V m c main_v115) (V m c main_v141) (V m c main_v167) (V m c main_v193)
          (V m c main_v219) (V m c main_v245) (V m c main_v271) (V m c main_v297) r ch := by
  rw [final27]

end Cert.KernelIdeal.Hand

end
-- ==== Proof.KI.Blocks28.lean ====
/-
  Level 1 (64 channels): the second result array after the pipelined region.

  Windows 9–16 carry the level's eight corner arrays, window 17 its weight array, window 28 the result. At grid point
  `t` every one of them moves rows `1024·t … 1024·t + 1023`, all columns. So what point `t` writes back is block `t` of
  the level's closed form, and the 196 blocks tile the 200704 rows.
-/
import proofs.«414534_j76854144795318_3_alg».proof.Proof.KI.Run
import proofs.«414534_j76854144795318_3_alg».proof.Proof.KI.BlocksBase

set_option maxRecDepth 16384

noncomputable section

namespace Cert.KernelIdeal.Hand

open Cert.KernelIdeal Cert.KernelIdeal.Gen
open Idealize.ShloMosaic Idealize.ShloMosaic.TcCoe Idealize.ShloMosaic.ValueIdx Idealize.SL.Sem
open Idealize.ShloMosaic.Pipeline (Dat)

variable (m : (ℓ : Loc nD τ sig) → Buf (Elt Ideal) ℓ)

/-! ## Where a block sits in its array: the index maps, decided once over the 196 points -/

theorem idx9 : ∀ t : Fin cfg0.N, win0_9.index t (0 : Fin 2) = t.val ∧ win0_9.index t (1 : Fin 2) = 0 :=
  (by decide +kernel : ∀ t : Fin grid0.N, _)
theorem idx10 : ∀ t : Fin cfg0.N, win0_10.index t (0 : Fin 2) = t.val ∧ win0_10.index t (1 : Fin 2) = 0 :=
  (by decide +kernel : ∀ t : Fin grid0.N, _)
theorem idx11 : ∀ t : Fin cfg0.N, win0_11.index t (0 : Fin 2) = t.val ∧ win0_11.index t (1 : Fin 2) = 0 :=
  (by decide +kernel : ∀ t : Fin grid0.N, _)
theorem idx12 : ∀ t : Fin cfg0.N, win0_12.index t (0 : Fin 2) = t.val ∧ win0_12.index t (1 : Fin 2) = 0 :=
  (by decide +kernel : ∀ t : Fin grid0.N, _)
theorem idx13 : ∀ t : Fin cfg0.N, win0_13.index t (0 : Fin 2) = t.val ∧ win0_13.index t (1 : Fin 2) = 0 :=
  (by decide +kernel : ∀ t : Fin grid0.N, _)
theorem idx14 : ∀ t : Fin cfg0.N, win0_14.index t (0 : Fin 2) = t.val ∧ win0_14.index t (1 : Fin 2) = 0 :=
  (by decide +kernel : ∀ t : Fin grid0.N, _)
theorem idx15 : ∀ t : Fin cfg0.N, win0_15.index t (0 : Fin 2) = t.val ∧ win0_15.index t (1 : Fin 2) = 0 :=
  (by decide +kernel : ∀ t : Fin grid0.N, _)
theorem idx16 : ∀ t : Fin cfg0.N, win0_16.index t (0 : Fin 2) = t.val ∧ win0_16.index t (1 : Fin 2) = 0 :=
  (by decide +kernel : ∀ t : Fin grid0.N, _)
theorem idx17 : ∀ t : Fin cfg0.N, win0_17.index t (0 : Fin 2) = t.val ∧ win0_17.index t (1 : Fin 2) = 0 :=
  (by decide +kernel : ∀ t : Fin grid0.N, _)
theorem idx28 : ∀ t : Fin cfg0.N, win0_28.index t (0 : Fin 2) = t.val ∧ win0_28.index t (1 : Fin 2) = 0 :=
  (by decide +kernel : ∀ t : Fin grid0.N, _)

/-! Entry `(p, ch)` of a window's block at point `t` is entry `(1024·t + p, ch)` of its array. -/

theorem sits9 (t : Fin cfg0.N) (p : Fin 1024) (ch : Fin 64) (r : Fin 200704) (hr : r.val = 1024 * t.val + p.val) :
    ((cfg0.win 9).blk t).view.emb (ix2 p ch) = (ix2 r ch : S200704x64.Idx) :=
  funext fun a => Fin.ext (by
    obtain ⟨e0, e1⟩ := idx9 t
    match a with
    | ⟨0, _⟩ => show win0_9.index t (0 : Fin 2) * 1024 + 1 * p.val = r.val; omega
    | ⟨1, _⟩ => show win0_9.index t (1 : Fin 2) * 64 + 1 * ch.val = ch.val; omega)
theorem sits10 (t : Fin cfg0.N) (p : Fin 1024) (ch : Fin 64) (r : Fin 200704) (hr : r.val = 1024 * t.val + p.val) :
    ((cfg0.win 10).blk t).view.emb (ix2 p ch) = (ix2 r ch : S200704x64.Idx) :=
  funext fun a => Fin.ext (by
    obtain ⟨e0, e1⟩ := idx10 t
    match a with
    | ⟨0, _⟩ => show win0_10.index t (0 : Fin 2) * 1024 + 1 * p.val = r.val; omega
    | ⟨1, _⟩ => show win0_10.index t (1 : Fin 2) * 64 + 1 * ch.val = ch.val; omega)
theorem sits11 (t : Fin cfg0.N) (p : Fin 1024) (ch : Fin 64) (r : Fin 200704) (hr : r.val = 1024 * t.val + p.val) :
    ((cfg0.win 11).blk t).view.emb (ix2 p ch) = (ix2 r ch : S200704x64.Idx) :=
  funext fun a => Fin.ext (by
    obtain ⟨e0, e1⟩ := idx11 t
    match a with
    | ⟨0, _⟩ => show win0_11.index t (0 : Fin 2) * 1024 + 1 * p.val = r.val; omega
    | ⟨1, _⟩ => show win0_11.index t (1 : Fin 2) * 64 + 1 * ch.val = ch.val; omega)
theorem sits12 (t : Fin cfg0.N) (p : Fin 1024) (ch : Fin 64) (r : Fin 200704) (hr : r.val = 1024 * t.val + p.val) :
    ((cfg0.win 12).blk t).view.emb (ix2 p ch) = (ix2 r ch : S200704x64.Idx) :=
  funext fun a => Fin.ext (by
    obtain ⟨e0, e1⟩ := idx12 t
    match a with
    | ⟨0, _⟩ => show win0_12.index t (0 : Fin 2) * 1024 + 1 * p.val = r.val; omega
    | ⟨1, _⟩ => show win0_12.index t (1 : Fin 2) * 64 + 1 * ch.val = ch.val; omega)
theorem sits13 (t : Fin cfg0.N) (p : Fin 1024) (ch : Fin 64) (r : Fin 200704) (hr : r.val = 1024 * t.val + p.val) :
    ((cfg0.win 13).blk t).view.emb (ix2 p ch) = (ix2 r ch : S200704x64.Idx) :=
  funext fun a => Fin.ext (by
    obtain ⟨e0, e1⟩ := idx13 t
    match a with
    | ⟨0, _⟩ => show win0_13.index t (0 : Fin 2) * 1024 + 1 * p.val = r.val; omega
    | ⟨1, _⟩ => show win0_13.index t (1 : Fin 2) * 64 + 1 * ch.val = ch.val; omega)
theorem sits14 (t : Fin cfg0.N) (p : Fin 1024) (ch : Fin 64) (r : Fin 200704) (hr : r.val = 1024 * t.val + p.val) :
    ((cfg0.win 14).blk t).view.emb (ix2 p ch) = (ix2 r ch : S200704x64.Idx) :=
  funext fun a => Fin.ext (by
    obtain ⟨e0, e1⟩ := idx14 t
    match a with
    | ⟨0, _⟩ => show win0_14.index t (0 : Fin 2) * 1024 + 1 * p.val = r.val; omega
    | ⟨1, _⟩ => show win0_14.index t (1 : Fin 2) * 64 + 1 * ch.val = ch.val; omega)
theorem sits15 (t : Fin cfg0.N) (p : Fin 1024) (ch : Fin 64) (r : Fin 200704) (hr : r.val = 1024 * t.val + p.val) :
    ((cfg0.win 15).blk t).view.emb (ix2 p ch) = (ix2 r ch : S200704x64.Idx) :=
  funext fun a => Fin.ext (by
    obtain ⟨e0, e1⟩ := idx15 t
    match a with
    | ⟨0, _⟩ => show win0_15.index t (0 : Fin 2) * 1024 + 1 * p.val = r.val; omega
    | ⟨1, _⟩ => show win0_15.index t (1 : Fin 2) * 64 + 1 * ch.val = ch.val; omega)
theorem sits16 (t : Fin cfg0.N) (p : Fin 1024) (ch : Fin 64) (r : Fin 200704) (hr : r.val = 1024 * t.val + p.val) :
    ((cfg0.win 16).blk t).view.emb (ix2 p ch) = (ix2 r ch : S200704x64.Idx) :=
  funext fun a => Fin.ext (by
    obtain ⟨e0, e1⟩ := idx16 t
    match a with
    | ⟨0, _⟩ => show win0_16.index t (0 : Fin 2) * 1024 + 1 * p.val = r.val; omega
    | ⟨1, _⟩ => show win0_16.index t (1 : Fin 2) * 64 + 1 * ch.val = ch.val; omega)
theorem sits17 (t : Fin cfg0.N) (p : Fin 1024) (k : Fin 8) (r : Fin 200704) (hr : r.val = 1024 * t.val + p.val) :
    ((cfg0.win 17).blk t).view.emb (ix2 p k) = (ix2 r k : S200704x8.Idx) :=
  funext fun a => Fin.ext (by
    obtain ⟨e0, e1⟩ := idx17 t
    match a with
    | ⟨0, _⟩ => show win0_17.index t (0 : Fin 2) * 1024 + 1 * p.val = r.val; omega
    | ⟨1, _⟩ => show win0_17.index t (1 : Fin 2) * 8 + 1 * k.val = k.val; omega)
theorem sits28 (t : Fin cfg0.N) (p : Fin 1024) (ch : Fin 64) (r : Fin 200704) (hr : r.val = 1024 * t.val + p.val) :
    ((cfg0.win 28).blk t).view.emb (ix2 p ch) = (ix2 r ch : S200704x64.Idx) :=
  funext fun a => Fin.ext (by
    obtain ⟨e0, e1⟩ := idx28 t
    match a with
    | ⟨0, _⟩ => show win0_28.index t (0 : Fin 2) * 1024 + 1 * p.val = r.val; omega
    | ⟨1, _⟩ => show win0_28.index t (1 : Fin 2) * 64 + 1 * ch.val = ch.val; omega)

/-! So reading any contents `A` of an input window's array through its block at point `t` gives `A` in row
    `1024·t + p`; in particular for the array as the region finds it. -/

theorem rdA9 (A : S200704x64.Idx → EReal) (t : Fin cfg0.N) (p : Fin 1024) (ch : Fin 64) (r : Fin 200704) (hr : r.val = 1024 * t.val + p.val) :
    ((cfg0.win 9).blk t).view.read (Elt Ideal) A (ix2 p ch) = A (ix2 r ch) := by
  rw [View.read_apply]; exact congrArg A (sits9 t p ch r hr)
theorem rdA10 (A : S200704x64.Idx → EReal) (t : Fin cfg0.N) (p : Fin 1024) (ch : Fin 64) (r : Fin 200704) (hr : r.val = 1024 * t.val + p.val) :
    ((cfg0.win 10).blk t).view.read (Elt Ideal) A (ix2 p ch) = A (ix2 r ch) := by
  rw [View.read_apply]; exact congrArg A (sits10 t p ch r hr)
theorem rdA11 (A : S200704x64.Idx → EReal) (t : Fin cfg0.N) (p : Fin 1024) (ch : Fin 64) (r : Fin 200704) (hr : r.val = 1024 * t.val + p.val) :
    ((cfg0.win 11).blk t).view.read (Elt Ideal) A (ix2 p ch) = A (ix2 r ch) := by
  rw [View.read_apply]; exact congrArg A (sits11 t p ch r hr)
theorem rdA12 (A : S200704x64.Idx → EReal) (t : Fin cfg0.N) (p : Fin 1024) (ch : Fin 64) (r : Fin 200704) (hr : r.val = 1024 * t.val + p.val) :
    ((cfg0.win 12).blk t).view.read (Elt Ideal) A (ix2 p ch) = A (ix2 r ch) := by
  rw [View.read_apply]; exact congrArg A (sits12 t p ch r hr)
theorem rdA13 (A : S200704x64.Idx → EReal) (t : Fin cfg0.N) (p : Fin 1024) (ch : Fin 64) (r : Fin 200704) (hr : r.val = 1024 * t.val + p.val) :
    ((cfg0.win 13).blk t).view.read (Elt Ideal) A (ix2 p ch) = A (ix2 r ch) := by
  rw [View.read_apply]; exact congrArg A (sits13 t p ch r hr)
theorem rdA14 (A : S200704x64.Idx → EReal) (t : Fin cfg0.N) (p : Fin 1024) (ch : Fin 64) (r : Fin 200704) (hr : r.val = 1024 * t.val + p.val) :
    ((cfg0.win 14).blk t).view.read (Elt Ideal) A (ix2 p ch) = A (ix2 r ch) := by
  rw [View.read_apply]; exact congrArg A (sits14 t p ch r hr)
theorem rdA15 (A : S200704x64.Idx → EReal) (t : Fin cfg0.N) (p : Fin 1024) (ch : Fin 64) (r : Fin 200704) (hr : r.val = 1024 * t.val + p.val) :
    ((cfg0.win 15).blk t).view.read (Elt Ideal) A (ix2 p ch) = A (ix2 r ch) := by
  rw [View.read_apply]; exact congrArg A (sits15 t p ch r hr)
theorem rdA16 (A : S200704x64.Idx → EReal) (t : Fin cfg0.N) (p : Fin 1024) (ch : Fin 64) (r : Fin 200704) (hr : r.val = 1024 * t.val + p.val) :
    ((cfg0.win 16).blk t).view.read (Elt Ideal) A (ix2 p ch) = A (ix2 r ch) := by
  rw [View.read_apply]; exact congrArg A (sits16 t p ch r hr)
theorem rdA17 (A : S200704x8.Idx → EReal) (t : Fin cfg0.N) (p : Fin 1024) (k : Fin 8) (r : Fin 200704) (hr : r.val = 1024 * t.val + p.val) :
    ((cfg0.win 17).blk t).view.read (Elt Ideal) A (ix2 p k) = A (ix2 r k) := by
  rw [View.read_apply]; exact congrArg A (sits17 t p k r hr)

theorem rd9 (c : Dev nD) (t : Fin cfg0.N) (p : Fin 1024) (ch : Fin 64) (r : Fin 200704) (hr : r.val = 1024 * t.val + p.val) :
    iblk m c 9 t (ix2 p ch) = V m c main_v409 (ix2 r ch) := rdA9 (V m c main_v409) t p ch r hr
theorem rd10 (c : Dev nD) (t : Fin cfg0.N) (p : Fin 1024) (ch : Fin 64) (r : Fin 200704) (hr : r.val = 1024 * t.val + p.val) :
    iblk m c 10 t (ix2 p ch) = V m c main_v435 (ix2 r ch) := rdA10 (V m c main_v435) t p ch r hr
theorem rd11 (c : Dev nD) (t : Fin cfg0.N) (p : Fin 1024) (ch : Fin 64) (r : Fin 200704) (hr : r.val = 1024 * t.val + p.val) :
    iblk m c 11 t (ix2 p ch) = V m c main_v461 (ix2 r ch) := rdA11 (V m c main_v461) t p ch r hr
theorem rd12 (c : Dev nD) (t : Fin cfg0.N) (p : Fin 1024) (ch : Fin 64) (r : Fin 200704) (hr : r.val = 1024 * t.val + p.val) :
    iblk m c 12 t (ix2 p ch) = V m c main_v487 (ix2 r ch) := rdA12 (V m c main_v487) t p ch r hr
theorem rd13 (c : Dev nD) (t : Fin cfg0.N) (p : Fin 1024) (ch : Fin 64) (r : Fin 200704) (hr : r.val = 1024 * t.val + p.val) :
    iblk m c 13 t (ix2 p ch) = V m c main_v513 (ix2 r ch) := rdA13 (V m c main_v513) t p ch r hr
theorem rd14 (c : Dev nD) (t : Fin cfg0.N) (p : Fin 1024) (ch : Fin 64) (r : Fin 200704) (hr : r.val = 1024 * t.val + p.val) :
    iblk m c 14 t (ix2 p ch) = V m c main_v539 (ix2 r ch) := rdA14 (V m c main_v539) t p ch r hr
theorem rd15 (c : Dev nD) (t : Fin cfg0.N) (p : Fin 1024) (ch : Fin 64) (r : Fin 200704) (hr : r.val = 1024 * t.val + p.val) :
    iblk m c 15 t (ix2 p ch) = V m c main_v565 (ix2 r ch) := rdA15 (V m c main_v565) t p ch r hr
theorem rd16 (c : Dev nD) (t : Fin cfg0.N) (p : Fin 1024) (ch : Fin 64) (r : Fin 200704) (hr : r.val = 1024 * t.val + p.val) :
    iblk m c 16 t (ix2 p ch) = V m c main_v591 (ix2 r ch) := rdA16 (V m c main_v591) t p ch r hr
theorem rd17 (c : Dev nD) (t : Fin cfg0.N) (p : Fin 1024) (k : Fin 8) (r : Fin 200704) (hr : r.val = 1024 * t.val + p.val) :
    iblk m c 17 t (ix2 p k) = V m c main_v383 (ix2 r k) := rdA17 (V m c main_v383) t p k r hr

/-! ## What is written back, and the array after the run -/

/-- What point `t` writes back of the second result is block `t` of the level's closed form over the corner and weight
    arrays as the region finds them. -/
theorem flushed28_eq (c : Dev nD) (t : Fin cfg0.N) :
    (dats m 0 c).flushed 28 t = ((cfg0.win 28).blk t).view.read (Elt Ideal)
      (wsumArr (V m c main_v383) (V m c main_v409) (V m c main_v435) (V m c main_v461) (V m c main_v487)
        (V m c main_v513) (V m c main_v539) (V m c main_v565) (V m c main_v591)) := by
  show (cfg0.win 28).cut (grid0.coords t) ((dats m 0 c).after 28 t) = _
  rw [after0_28]
  unfold out0_28
  rw [View.canon_unit_zero hz]
  simp only [View.ld_unit_zero (S := S1024x64) hz, View.ld_unit_zero (S := S1024x8) hz]
  funext j
  obtain ⟨p, ch, rfl⟩ : ∃ (p : Fin 1024) (ch : Fin 64), j = ix2 p ch := ⟨j 0, j 1, eq_ix2 j⟩
  have hN : cfg0.N = 196 := N_0
  have ht : t.val < cfg0.N := t.isLt
  have hr : (⟨1024 * t.val + p.val, by omega⟩ : Fin 200704).val = 1024 * t.val + p.val := rfl
  rw [View.read_apply, sits28 t p ch _ hr]
  refine (pay28_at (iblk m c 17 t) (iblk m c 9 t) (iblk m c 10 t) (iblk m c 11 t) (iblk m c 12 t) (iblk m c 13 t) (iblk m c 14 t)
    (iblk m c 15 t) (iblk m c 16 t) p ch).trans ?_
  rw [rd9 m c t p ch _ hr, rd10 m c t p ch _ hr, rd11 m c t p ch _ hr, rd12 m c t p ch _ hr, rd13 m c t p ch _ hr,
    rd14 m c t p ch _ hr, rd15 m c t p ch _ hr, rd16 m c t p ch _ hr,
    rd17 m c t p 0 _ hr, rd17 m c t p 1 _ hr, rd17 m c t p 2 _ hr, rd17 m c t p 3 _ hr,
    rd17 m c t p 4 _ hr, rd17 m c t p 5 _ hr, rd17 m c t p 6 _ hr, rd17 m c t p 7 _ hr]
  rfl

/-- An index of the second result array is in point `t`'s block iff each coordinate is in the block's range. -/
theorem mem_blk28 (t : Fin cfg0.N) (i : S200704x64.Idx) :
    i ∈ ((cfg0.win 28).blk t).view.set ↔ ∀ a : Fin 2, win0_28.index t a * S1024x64.size a ≤ (i a).val ∧ (i a).val < win0_28.index t a * S1024x64.size a + S1024x64.size a := by
  show i ∈ ((View.whole main_v886_1).slice (win0_28.rect t)).set ↔ _
  rw [View.set_slice_whole, Rect.mem_set_unit]
  exact Iff.rfl

/-- Row `r` of the second result array lies in the block of point `r / 1024`. -/
theorem cover28 (i : S200704x64.Idx) : ∃ t : Fin cfg0.N, (cfg0.win 28).flush t = true ∧ i ∈ ((cfg0.win 28).blk t).view.set := by
  have hi0 : (i 0).val < 200704 := (i 0).isLt
  have hi1 : (i 1).val < 64 := (i 1).isLt
  have hN : cfg0.N = 196 := N_0
  refine ⟨⟨(i 0).val / 1024, by rw [hN]; omega⟩, flush0_28 _, ?_⟩
  rw [mem_blk28]
  obtain ⟨e0, e1⟩ := idx28 ⟨(i 0).val / 1024, by rw [hN]; omega⟩
  intro a
  match a with
  | ⟨0, _⟩ => show win0_28.index _ (0 : Fin 2) * 1024 ≤ (i 0).val ∧ (i 0).val < win0_28.index _ (0 : Fin 2) * 1024 + 1024; rw [e0]; show (i 0).val / 1024 * 1024 ≤ (i 0).val ∧ (i 0).val < (i 0).val / 1024 * 1024 + 1024; omega
  | ⟨1, _⟩ => show win0_28.index _ (1 : Fin 2) * 64 ≤ (i 1).val ∧ (i 1).val < win0_28.index _ (1 : Fin 2) * 64 + 64; rw [e1]; omega

/-- The second result array after the run: the level's closed form. -/
theorem final28 (c : Dev nD) : (dats m 0 c).arrAt 28 cfg0.N
    = wsumArr (V m c main_v383) (V m c main_v409) (V m c main_v435) (V m c main_v461) (V m c main_v487)
        (V m c main_v513) (V m c main_v539) (V m c main_v565) (V m c main_v591) :=
  (dats m 0 c).arrAt_eq_of_cover 28 _ (fun t _ => flushed28_eq m c t) cover28

/-- Row `r`, channel `ch` of the second result array after the run. -/
theorem out28_at (c : Dev nD) (r : Fin 200704) (ch : Fin 64) :
    (dats (F := Ideal) m 0 c).arrAt 28 cfg0.N (ix2 r ch)
      = wsum (V m c main_v383) (V m c main_v409) (V m c main_v435) (V m c main_v461) (V m c main_v487)
          (V m c main_v513) (V m c main_v539) (V m c main_v565) (V m c main_v591) r ch := by
  rw [final28]

end Cert.KernelIdeal.Hand

end
-- ==== Proof.KI.Blocks29.lean ====
/-
  Level 2 (128 channels): the third result array after the pipelined region.

  Windows 18–25 carry the level's eight corner arrays, window 26 its weight array, window 29 the result. At grid point
  `t` every one of them moves rows `1024·t … 1024·t + 1023`, all columns. So what point `t` writes back is block `t` of
  the level's closed form, and the 196 blocks tile the 200704 rows.
-/
import proofs.«414534_j76854144795318_3_alg».proof.Proof.KI.Run
import proofs.«414534_j76854144795318_3_alg».proof.Proof.KI.BlocksBase

set_option maxRecDepth 16384

noncomputable section

namespace Cert.KernelIdeal.Hand

open Cert.KernelIdeal Cert.KernelIdeal.Gen
open Idealize.ShloMosaic Idealize.ShloMosaic.TcCoe Idealize.ShloMosaic.ValueIdx Idealize.SL.Sem
open Idealize.ShloMosaic.Pipeline (Dat)

variable (m : (ℓ : Loc nD τ sig) → Buf (Elt Ideal) ℓ)

/-! ## Where a block sits in its array: the index maps, decided once over the 196 points -/

theorem idx18 : ∀ t : Fin cfg0.N, win0_18.index t (0 : Fin 2) = t.val ∧ win0_18.index t (1 : Fin 2) = 0 :=
  (by decide +kernel : ∀ t : Fin grid0.N, _)
theorem idx19 : ∀ t : Fin cfg0.N, win0_19.index t (0 : Fin 2) = t.val ∧ win0_19.index t (1 : Fin 2) = 0 :=
  (by decide +kernel : ∀ t : Fin grid0.N, _)
theorem idx20 : ∀ t : Fin cfg0.N, win0_20.index t (0 : Fin 2) = t.val ∧ win0_20.index t (1 : Fin 2) = 0 :=
  (by decide +kernel : ∀ t : Fin grid0.N, _)
theorem idx21 : ∀ t : Fin cfg0.N, win0_21.index t (0 : Fin 2) = t.val ∧ win0_21.index t (1 : Fin 2) = 0 :=
  (by decide +kernel : ∀ t : Fin grid0.N, _)
theorem idx22 : ∀ t : Fin cfg0.N, win0_22.index t (0 : Fin 2) = t.val ∧ win0_22.index t (1 : Fin 2) = 0 :=
  (by decide +kernel : ∀ t : Fin grid0.N, _)
theorem idx23 : ∀ t : Fin cfg0.N, win0_23.index t (0 : Fin 2) = t.val ∧ win0_23.index t (1 : Fin 2) = 0 :=
  (by decide +kernel : ∀ t : Fin grid0.N, _)
theorem idx24 : ∀ t : Fin cfg0.N, win0_24.index t (0 : Fin 2) = t.val ∧ win0_24.index t (1 : Fin 2) = 0 :=
  (by decide +kernel : ∀ t : Fin grid0.N, _)
theorem idx25 : ∀ t : Fin cfg0.N, win0_25.index t (0 : Fin 2) = t.val ∧ win0_25.index t (1 : Fin 2) = 0 :=
  (by decide +kernel : ∀ t : Fin grid0.N, _)
theorem idx26 : ∀ t : Fin cfg0.N, win0_26.index t (0 : Fin 2) = t.val ∧ win0_26.index t (1 : Fin 2) = 0 :=
  (by decide +kernel : ∀ t : Fin grid0.N, _)
theorem idx29 : ∀ t : Fin cfg0.N, win0_29.index t (0 : Fin 2) = t.val ∧ win0_29.index t (1 : Fin 2) = 0 :=
  (by decide +kernel : ∀ t : Fin grid0.N, _)

/-! Entry `(p, ch)` of a window's block at point `t` is entry `(1024·t + p, ch)` of its array. -/

theorem sits18 (t : Fin cfg0.N) (p : Fin 1024) (ch : Fin 128) (r : Fin 200704) (hr : r.val = 1024 * t.val + p.val) :
    ((cfg0.win 18).blk t).view.emb (ix2 p ch) = (ix2 r ch : S200704x128.Idx) :=
  funext fun a => Fin.ext (by
    obtain ⟨e0, e1⟩ := idx18 t
    match a with
    | ⟨0, _⟩ => show win0_18.index t (0 : Fin 2) * 1024 + 1 * p.val = r.val; omega
    | ⟨1, _⟩ => show win0_18.index t (1 : Fin 2) * 128 + 1 * ch.val = ch.val; omega)
theorem sits19 (t : Fin cfg0.N) (p : Fin 1024) (ch : Fin 128) (r : Fin 200704) (hr : r.val = 1024 * t.val + p.val) :
    ((cfg0.win 19).blk t).view.emb (ix2 p ch) = (ix2 r ch : S200704x128.Idx) :=
  funext fun a => Fin.ext (by
    obtain ⟨e0, e1⟩ := idx19 t
    match a with
    | ⟨0, _⟩ => show win0_19.index t (0 : Fin 2) * 1024 + 1 * p.val = r.val; omega
    | ⟨1, _⟩ => show win0_19.index t (1 : Fin 2) * 128 + 1 * ch.val = ch.val; omega)
theorem sits20 (t : Fin cfg0.N) (p : Fin 1024) (ch : Fin 128) (r : Fin 200704) (hr : r.val = 1024 * t.val + p.val) :
    ((cfg0.win 20).blk t).view.emb (ix2 p ch) = (ix2 r ch : S200704x128.Idx) :=
  funext fun a => Fin.ext (by
    obtain ⟨e0, e1⟩ := idx20 t
    match a with
    | ⟨0, _⟩ => show win0_20.index t (0 : Fin 2) * 1024 + 1 * p.val = r.val; omega
    | ⟨1, _⟩ => show win0_20.index t (1 : Fin 2) * 128 + 1 * ch.val = ch.val; omega)
theorem sits21 (t : Fin cfg0.N) (p : Fin 1024) (ch : Fin 128) (r : Fin 200704) (hr : r.val = 1024 * t.val + p.val) :
    ((cfg0.win 21).blk t).view.emb (ix2 p ch) = (ix2 r ch : S200704x128.Idx) :=
  funext fun a => Fin.ext (by
    obtain ⟨e0, e1⟩ := idx21 t
    match a with
    | ⟨0, _⟩ => show win0_21.index t (0 : Fin 2) * 1024 + 1 * p.val = r.val; omega
    | ⟨1, _⟩ => show win0_21.index t (1 : Fin 2) * 128 + 1 * ch.val = ch.val; omega)
theorem sits22 (t : Fin cfg0.N) (p : Fin 1024) (ch : Fin 128) (r : Fin 200704) (hr : r.val = 1024 * t.val + p.val) :
    ((cfg0.win 22).blk t).view.emb (ix2 p ch) = (ix2 r ch : S200704x128.Idx) :=
  funext fun a => Fin.ext (by
    obtain ⟨e0, e1⟩ := idx22 t
    match a with
    | ⟨0, _⟩ => show win0_22.index t (0 : Fin 2) * 1024 + 1 * p.val = r.val; omega
    | ⟨1, _⟩ => show win0_22.index t (1 : Fin 2) * 128 + 1 * ch.val = ch.val; omega)
theorem sits23 (t : Fin cfg0.N) (p : Fin 1024) (ch : Fin 128) (r : Fin 200704) (hr : r.val = 1024 * t.val + p.val) :
    ((cfg0.win 23).blk t).view.emb (ix2 p ch) = (ix2 r ch : S200704x128.Idx) :=
  funext fun a => Fin.ext (by
    obtain ⟨e0, e1⟩ := idx23 t
    match a with
    | ⟨0, _⟩ => show win0_23.index t (0 : Fin 2) * 1024 + 1 * p.val = r.val; omega
    | ⟨1, _⟩ => show win0_23.index t (1 : Fin 2) * 128 + 1 * ch.val = ch.val; omega)
theorem sits24 (t : Fin cfg0.N) (p : Fin 1024) (ch : Fin 128) (r : Fin 200704) (hr : r.val = 1024 * t.val + p.val) :
    ((cfg0.win 24).blk t).view.emb (ix2 p ch) = (ix2 r ch : S200704x128.Idx) :=
  funext fun a => Fin.ext (by
    obtain ⟨e0, e1⟩ := idx24 t
    match a with
    | ⟨0, _⟩ => show win0_24.index t (0 : Fin 2) * 1024 + 1 * p.val = r.val; omega
    | ⟨1, _⟩ => show win0_24.index t (1 : Fin 2) * 128 + 1 * ch.val = ch.val; omega)
theorem sits25 (t : Fin cfg0.N) (p : Fin 1024) (ch : Fin 128) (r : Fin 200704) (hr : r.val = 1024 * t.val + p.val) :
    ((cfg0.win 25).blk t).view.emb (ix2 p ch) = (ix2 r ch : S200704x128.Idx) :=
  funext fun a => Fin.ext (by
    obtain ⟨e0, e1⟩ := idx25 t
    match a with
    | ⟨0, _⟩ => show win0_25.index t (0 : Fin 2) * 1024 + 1 * p.val = r.val; omega
    | ⟨1, _⟩ => show win0_25.index t (1 : Fin 2) * 128 + 1 * ch.val = ch.val; omega)
theorem sits26 (t : Fin cfg0.N) (p : Fin 1024) (k : Fin 8) (r : Fin 200704) (hr : r.val = 1024 * t.val + p.val) :
    ((cfg0.win 26).blk t).view.emb (ix2 p k) = (ix2 r k : S200704x8.Idx) :=
  funext fun a => Fin.ext (by
    obtain ⟨e0, e1⟩ := idx26 t
    match a with
    | ⟨0, _⟩ => show win0_26.index t (0 : Fin 2) * 1024 + 1 * p.val = r.val; omega
    | ⟨1, _⟩ => show win0_26.index t (1 : Fin 2) * 8 + 1 * k.val = k.val; omega)
theorem sits29 (t : Fin cfg0.N) (p : Fin 1024) (ch : Fin 128) (r : Fin 200704) (hr : r.val = 1024 * t.val + p.val) :
    ((cfg0.win 29).blk t).view.emb (ix2 p ch) = (ix2 r ch : S200704x128.Idx) :=
  funext fun a => Fin.ext (by
    obtain ⟨e0, e1⟩ := idx29 t
    match a with
    | ⟨0, _⟩ => show win0_29.index t (0 : Fin 2) * 1024 + 1 * p.val = r.val; omega
    | ⟨1, _⟩ => show win0_29.index t (1 : Fin 2) * 128 + 1 * ch.val = ch.val; omega)

/-! So reading any contents `A` of an input window's array through its block at point `t` gives `A` in row
    `1024·t + p`; in particular for the array as the region finds it. -/

theorem rdA18 (A : S200704x128.Idx → EReal) (t : Fin cfg0.N) (p : Fin 1024) (ch : Fin 128) (r : Fin 200704) (hr : r.val = 1024 * t.val + p.val) :
    ((cfg0.win 18).blk t).view.read (Elt Ideal) A (ix2 p ch) = A (ix2 r ch) := by
  rw [View.read_apply]; exact congrArg A (sits18 t p ch r hr)
theorem rdA19 (A : S200704x128.Idx → EReal) (t : Fin cfg0.N) (p : Fin 1024) (ch : Fin 128) (r : Fin 200704) (hr : r.val = 1024 * t.val + p.val) :
    ((cfg0.win 19).blk t).view.read (Elt Ideal) A (ix2 p ch) = A (ix2 r ch) := by
  rw [View.read_apply]; exact congrArg A (sits19 t p ch r hr)
theorem rdA20 (A : S200704x128.Idx → EReal) (t : Fin cfg0.N) (p : Fin 1024) (ch : Fin 128) (r : Fin 200704) (hr : r.val = 1024 * t.val + p.val) :
    ((cfg0.win 20).blk t).view.read (Elt Ideal) A (ix2 p ch) = A (ix2 r ch) := by
  rw [View.read_apply]; exact congrArg A (sits20 t p ch r hr)
theorem rdA21 (A : S200704x128.Idx → EReal) (t : Fin cfg0.N) (p : Fin 1024) (ch : Fin 128) (r : Fin 200704) (hr : r.val = 1024 * t.val + p.val) :
    ((cfg0.win 21).blk t).view.read (Elt Ideal) A (ix2 p ch) = A (ix2 r ch) := by
  rw [View.read_apply]; exact congrArg A (sits21 t p ch r hr)
theorem rdA22 (A : S200704x128.Idx → EReal) (t : Fin cfg0.N) (p : Fin 1024) (ch : Fin 128) (r : Fin 200704) (hr : r.val = 1024 * t.val + p.val) :
    ((cfg0.win 22).blk t).view.read (Elt Ideal) A (ix2 p ch) = A (ix2 r ch) := by
  rw [View.read_apply]; exact congrArg A (sits22 t p ch r hr)
theorem rdA23 (A : S200704x128.Idx → EReal) (t : Fin cfg0.N) (p : Fin 1024) (ch : Fin 128) (r : Fin 200704) (hr : r.val = 1024 * t.val + p.val) :
    ((cfg0.win 23).blk t).view.read (Elt Ideal) A (ix2 p ch) = A (ix2 r ch) := by
  rw [View.read_apply]; exact congrArg A (sits23 t p ch r hr)
theorem rdA24 (A : S200704x128.Idx → EReal) (t : Fin cfg0.N) (p : Fin 1024) (ch : Fin 128) (r : Fin 200704) (hr : r.val = 1024 * t.val + p.val) :
    ((cfg0.win 24).blk t).view.read (Elt Ideal) A (ix2 p ch) = A (ix2 r ch) := by
  rw [View.read_apply]; exact congrArg A (sits24 t p ch r hr)
theorem rdA25 (A : S200704x128.Idx → EReal) (t : Fin cfg0.N) (p : Fin 1024) (ch : Fin 128) (r : Fin 200704) (hr : r.val = 1024 * t.val + p.val) :
    ((cfg0.win 25).blk t).view.read (Elt Ideal) A (ix2 p ch) = A (ix2 r ch) := by
  rw [View.read_apply]; exact congrArg A (sits25 t p ch r hr)
theorem rdA26 (A : S200704x8.Idx → EReal) (t : Fin cfg0.N) (p : Fin 1024) (k : Fin 8) (r : Fin 200704) (hr : r.val = 1024 * t.val + p.val) :
    ((cfg0.win 26).blk t).view.read (Elt Ideal) A (ix2 p k) = A (ix2 r k) := by
  rw [View.read_apply]; exact congrArg A (sits26 t p k r hr)

theorem rd18 (c : Dev nD) (t : Fin cfg0.N) (p : Fin 1024) (ch : Fin 128) (r : Fin 200704) (hr : r.val = 1024 * t.val + p.val) :
    iblk m c 18 t (ix2 p ch) = V m c main_v703 (ix2 r ch) := rdA18 (V m c main_v703) t p ch r hr
theorem rd19 (c : Dev nD) (t : Fin cfg0.N) (p : Fin 1024) (ch : Fin 128) (r : Fin 200704) (hr : r.val = 1024 * t.val + p.val) :
    iblk m c 19 t (ix2 p ch) = V m c main_v729 (ix2 r ch) := rdA19 (V m c main_v729) t p ch r hr
theorem rd20 (c : Dev nD) (t : Fin cfg0.N) (p : Fin 1024) (ch : Fin 128) (r : Fin 200704) (hr : r.val = 1024 * t.val + p.val) :
    iblk m c 20 t (ix2 p ch) = V m c main_v755 (ix2 r ch) := rdA20 (V m c main_v755) t p ch r hr
theorem rd21 (c : Dev nD) (t : Fin cfg0.N) (p : Fin 1024) (ch : Fin 128) (r : Fin 200704) (hr : r.val = 1024 * t.val + p.val) :
    iblk m c 21 t (ix2 p ch) = V m c main_v781 (ix2 r ch) := rdA21 (V m c main_v781) t p ch r hr
theorem rd22 (c : Dev nD) (t : Fin cfg0.N) (p : Fin 1024) (ch : Fin 128) (r : Fin 200704) (hr : r.val = 1024 * t.val + p.val) :
    iblk m c 22 t (ix2 p ch) = V m c main_v807 (ix2 r ch) := rdA22 (V m c main_v807) t p ch r hr
theorem rd23 (c : Dev nD) (t : Fin cfg0.N) (p : Fin 1024) (ch : Fin 128) (r : Fin 200704) (hr : r.val = 1024 * t.val + p.val) :
    iblk m c 23 t (ix2 p ch) = V m c main_v833 (ix2 r ch) := rdA23 (V m c main_v833) t p ch r hr
theorem rd24 (c : Dev nD) (t : Fin cfg0.N) (p : Fin 1024) (ch : Fin 128) (r : Fin 200704) (hr : r.val = 1024 * t.val + p.val) :
    iblk m c 24 t (ix2 p ch) = V m c main_v859 (ix2 r ch) := rdA24 (V m c main_v859) t p ch r hr
theorem rd25 (c : Dev nD) (t : Fin cfg0.N) (p : Fin 1024) (ch : Fin 128) (r : Fin 200704) (hr : r.val = 1024 * t.val + p.val) :
    iblk m c 25 t (ix2 p ch) = V m c main_v885 (ix2 r ch) := rdA25 (V m c main_v885) t p ch r hr
theorem rd26 (c : Dev nD) (t : Fin cfg0.N) (p : Fin 1024) (k : Fin 8) (r : Fin 200704) (hr : r.val = 1024 * t.val + p.val) :
    iblk m c 26 t (ix2 p k) = V m c main_v677 (ix2 r k) := rdA26 (V m c main_v677) t p k r hr

/-! ## What is written back, and the array after the run -/

/-- What point `t` writes back of the third result is block `t` of the level's closed form over the corner and weight
    arrays as the region finds them. -/
theorem flushed29_eq (c : Dev nD) (t : Fin cfg0.N) :
    (dats m 0 c).flushed 29 t = ((cfg0.win 29).blk t).view.read (Elt Ideal)
      (wsumArr (V m c main_v677) (V m c main_v703) (V m c main_v729) (V m c main_v755) (V m c main_v781)
        (V m c main_v807) (V m c main_v833) (V m c main_v859) (V m c main_v885)) := by
  show (cfg0.win 29).cut (grid0.coords t) ((dats m 0 c).after 29 t) = _
  rw [after0_29]
  unfold out0_29
  rw [View.canon_unit_zero hz]
  simp only [View.ld_unit_zero (S := S1024x128) hz, View.ld_unit_zero (S := S1024x8) hz]
  funext j
  obtain ⟨p, ch, rfl⟩ : ∃ (p : Fin 1024) (ch : Fin 128), j = ix2 p ch := ⟨j 0, j 1, eq_ix2 j⟩
  have hN : cfg0.N = 196 := N_0
  have ht : t.val < cfg0.N := t.isLt
  have hr : (⟨1024 * t.val + p.val, by omega⟩ : Fin 200704).val = 1024 * t.val + p.val := rfl
  rw [View.read_apply, sits29 t p ch _ hr]
  refine (pay29_at (iblk m c 26 t) (iblk m c 18 t) (iblk m c 19 t) (iblk m c 20 t) (iblk m c 21 t) (iblk m c 22 t) (iblk m c 23 t)
    (iblk m c 24 t) (iblk m c 25 t) p ch).trans ?_
  rw [rd18 m c t p ch _ hr, rd19 m c t p ch _ hr, rd20 m c t p ch _ hr, rd21 m c t p ch _ hr, rd22 m c t p ch _ hr,
    rd23 m c t p ch _ hr, rd24 m c t p ch _ hr, rd25 m c t p ch _ hr,
    rd26 m c t p 0 _ hr, rd26 m c t p 1 _ hr, rd26 m c t p 2 _ hr, rd26 m c t p 3 _ hr,
    rd26 m c t p 4 _ hr, rd26 m c t p 5 _ hr, rd26 m c t p 6 _ hr, rd26 m c t p 7 _ hr]
  rfl

/-- An index of the third result array is in point `t`'s block iff each coordinate is in the block's range. -/
theorem mem_blk29 (t : Fin cfg0.N) (i : S200704x128.Idx) :
    i ∈ ((cfg0.win 29).blk t).view.set ↔ ∀ a : Fin 2, win0_29.index t a * S1024x128.size a ≤ (i a).val ∧ (i a).val < win0_29.index t a * S1024x128.size a + S1024x128.size a := by
  show i ∈ ((View.whole main_v886_2).slice (win0_29.rect t)).set ↔ _
  rw [View.set_slice_whole, Rect.mem_set_unit]
  exact Iff.rfl

/-- Row `r` of the third result array lies in the block of point `r / 1024`. -/
theorem cover29 (i : S200704x128.Idx) : ∃ t : Fin cfg0.N, (cfg0.win 29).flush t = true ∧ i ∈ ((cfg0.win 29).blk t).view.set := by
  have hi0 : (i 0).val < 200704 := (i 0).isLt
  have hi1 : (i 1).val < 128 := (i 1).isLt
  have hN : cfg0.N = 196 := N_0
  refine ⟨⟨(i 0).val / 1024, by rw [hN]; omega⟩, flush0_29 _, ?_⟩
  rw [mem_blk29]
  obtain ⟨e0, e1⟩ := idx29 ⟨(i 0).val / 1024, by rw [hN]; omega⟩
  intro a
  match a with
  | ⟨0, _⟩ => show win0_29.index _ (0 : Fin 2) * 1024 ≤ (i 0).val ∧ (i 0).val < win0_29.index _ (0 : Fin 2) * 1024 + 1024; rw [e0]; show (i 0).val / 1024 * 1024 ≤ (i 0).val ∧ (i 0).val < (i 0).val / 1024 * 1024 + 1024; omega
  | ⟨1, _⟩ => show win0_29.index _ (1 : Fin 2) * 128 ≤ (i 1).val ∧ (i 1).val < win0_29.index _ (1 : Fin 2) * 128 + 128; rw [e1]; omega

/-- The third result array after the run: the level's closed form. -/
theorem final29 (c : Dev nD) : (dats m 0 c).arrAt 29 cfg0.N
    = wsumArr (V m c main_v677) (V m c main_v703) (V m c main_v729) (V m c main_v755) (V m c main_v781)
        (V m c main_v807) (V m c main_v833) (V m c main_v859) (V m c main_v885) :=
  (dats m 0 c).arrAt_eq_of_cover 29 _ (fun t _ => flushed29_eq m c t) cover29

/-- Row `r`, channel `ch` of the third result array after the run. -/
theorem out29_at (c : Dev nD) (r : Fin 200704) (ch : Fin 128) :
    (dats (F := Ideal) m 0 c).arrAt 29 cfg0.N (ix2 r ch)
      = wsum (V m c main_v677) (V m c main_v703) (V m c main_v729) (V m c main_v755) (V m c main_v781)
          (V m c main_v807) (V m c main_v833) (V m c main_v859) (V m c main_v885) r ch := by
  rw [final29]

end Cert.KernelIdeal.Hand

end
-- ==== Proof.KI.Blocks.lean ====
/-
  The three result arrays after the pipelined region, entry by entry, at the ideal float model: entry `(r, ch)` of a
  level's result array is  0 + Q₀(r, ch)·W(r, 0) + Q₁(r, ch)·W(r, 1) + … + Q₇(r, ch)·W(r, 7)  over the level's corner
  arrays `Qⱼ` and weight array `W` as the region finds them (`out27_at`, `out28_at`, `out29_at`; one module per level).
-/
import proofs.«414534_j76854144795318_3_alg».proof.Proof.KI.Blocks27
import proofs.«414534_j76854144795318_3_alg».proof.Proof.KI.Blocks28
import proofs.«414534_j76854144795318_3_alg».proof.Proof.KI.Blocks29
-- ==== Proof.GatherRead.lean ====
/-
  Reading a gather at an index.

  A gather reads its operand at the index whose coordinate on each axis is the clamped start (the start index's
  component for that axis, read signed and clamped into the axis so that the slice fits) plus the batching
  coordinate plus the offset coordinate. For the two shapes of gather below every slice has one element on the
  lattice axes and the whole channel axis, so the index read is: the clamped lattice coordinates, and the channel.
-/
import Idealize.ShloMosaic.PureOps.ShapeOps
import Idealize.ShloMosaic.Lib.ValueIdx
import proofs.«414534_j76854144795318_3_alg».proof.Proof.Spec

namespace Cert.GatherRead

open Idealize.ShloMosaic Idealize.ShloMosaic.ValueIdx

variable {α : Type}

/-! ## Four start-index components, no batching axis -/

/-- The dimension numbers of a gather of single lattice points: the operand's batch and three lattice axes collapsed and
    start-indexed by the four components of each start index, the channel axis read whole. -/
abbrev dims4 (D C L : Nat)
    (wf : GatherDims.WF ⟨5, ![2, D, D, D, C]⟩ ⟨2, ![L, 4]⟩ ⟨2, ![L, C]⟩ [1] [0, 1, 2, 3] [] [0, 1, 2, 3] [] 1 ![1, 1, 1, 1, C]) :
    GatherDims ⟨5, ![2, D, D, D, C]⟩ ⟨2, ![L, 4]⟩ ⟨2, ![L, C]⟩ where
  offsetDims := [1]
  collapsedSliceDims := [0, 1, 2, 3]
  operandBatchingDims := []
  startIndicesBatchingDims := []
  startIndexMap := [0, 1, 2, 3]
  indexVectorDim := 1
  sliceSizes := ![1, 1, 1, 1, C]
  wf := wf

/-- Result row `r` reads component `k` of its start index at `(r, k)`. -/
theorem dims4_siIdx {D C L : Nat}
    (wf : GatherDims.WF ⟨5, ![2, D, D, D, C]⟩ ⟨2, ![L, 4]⟩ ⟨2, ![L, C]⟩ [1] [0, 1, 2, 3] [] [0, 1, 2, 3] [] 1 ![1, 1, 1, 1, C])
    (r : Fin L) (ch : Fin C) (k : Fin 4) : (dims4 D C L wf).siIdx (ix2 r ch) k = ix2 r k := by
  funext b; refine Fin.ext ?_
  match b with
  | ⟨0, _⟩ => rfl
  | ⟨1, _⟩ => rfl

/-- On an operand axis `a` that is start-indexed (in position `k` of the start index map) and collapsed, the coordinate
    read is the start alone: component `k` of the start index, read signed and clamped to the axis's size less the
    slice's. There is no batching axis, and a collapsed axis has no offset coordinate. -/
theorem dims4_axis {D C L : Nat}
    (wf : GatherDims.WF ⟨5, ![2, D, D, D, C]⟩ ⟨2, ![L, 4]⟩ ⟨2, ![L, C]⟩ [1] [0, 1, 2, 3] [] [0, 1, 2, 3] [] 1 ![1, 1, 1, 1, C])
    (idx : IVec ⟨2, ![L, 4]⟩ 32) (r : Fin L) (ch : Fin C) (a : Fin 5) (k : Fin 4)
    (ha : a ∈ ([0, 1, 2, 3] : List (Fin 5))) (hk : List.idxOf a ([0, 1, 2, 3] : List (Fin 5)) = k.val) :
    ((dims4 D C L wf).operandIdx (ix2 r ch) idx a).val
      = min (idx (ix2 r k)).toInt.toNat
          ((⟨5, ![2, D, D, D, C]⟩ : Shape).size a - (![1, 1, 1, 1, C] : Fin 5 → Nat) a) := by
  show (dims4 D C L wf).start (ix2 r ch) idx a + (dims4 D C L wf).batchCoord (ix2 r ch) a
    + (dims4 D C L wf).offCoord (ix2 r ch) a = _
  rw [GatherDims.batchCoord_eq_zero _ _ _ List.not_mem_nil,
    GatherDims.offCoord_eq_zero _ _ _ (fun h => ((GatherDims.mem_sKept _ _).mp h).1 ha)]
  simp only [Nat.add_zero]
  unfold GatherDims.start
  rw [dif_pos ha]
  rw [show (⟨List.idxOf a (dims4 D C L wf).startIndexMap, List.idxOf_lt_length_iff.2 ha⟩ :
    Fin (dims4 D C L wf).startIndexMap.length) = k from Fin.ext hk]
  rw [dims4_siIdx]

/-- The operand index read at `(r, ch)`: the four clamped components of start index `r` (the batch component into `[0, 1]`, the
    three lattice components into `[0, D − 1]`), channel `ch`. -/
theorem dims4_operandIdx {D C L : Nat} (hD : 0 < D)
    (wf : GatherDims.WF ⟨5, ![2, D, D, D, C]⟩ ⟨2, ![L, 4]⟩ ⟨2, ![L, C]⟩ [1] [0, 1, 2, 3] [] [0, 1, 2, 3] [] 1 ![1, 1, 1, 1, C])
    (idx : IVec ⟨2, ![L, 4]⟩ 32) (r : Fin L) (ch : Fin C) :
    (dims4 D C L wf).operandIdx (ix2 r ch) idx
      = ix5 (Cert.Spec.cl 2 (by decide) (idx (ix2 r (0 : Fin 4)))) (Cert.Spec.cl D hD (idx (ix2 r (1 : Fin 4))))
            (Cert.Spec.cl D hD (idx (ix2 r (2 : Fin 4)))) (Cert.Spec.cl D hD (idx (ix2 r (3 : Fin 4)))) ch := by
  funext a
  refine Fin.ext ?_
  match a with
  | ⟨0, _⟩ => exact dims4_axis wf idx r ch 0 0 (by decide) rfl
  | ⟨1, _⟩ => exact dims4_axis wf idx r ch 1 1 (by decide) rfl
  | ⟨2, _⟩ => exact dims4_axis wf idx r ch 2 2 (by decide) rfl
  | ⟨3, _⟩ => exact dims4_axis wf idx r ch 3 3 (by decide) rfl
  | ⟨4, _⟩ =>
    -- the channel axis: not start-indexed (start 0), not batching, the one offset axis
    show (dims4 D C L wf).start (ix2 r ch) idx 4 + (dims4 D C L wf).batchCoord (ix2 r ch) 4
      + (dims4 D C L wf).offCoord (ix2 r ch) 4 = ch.val
    have hs : (dims4 D C L wf).start (ix2 r ch) idx 4 = 0 := by
      unfold GatherDims.start
      exact dif_neg (show (4 : Fin 5) ∉ ([0, 1, 2, 3] : List (Fin 5)) by decide)
    rw [hs, GatherDims.batchCoord_eq_zero _ _ _ List.not_mem_nil, Nat.add_zero, Nat.zero_add]
    rfl

/-- THE GATHER READ AT `(r, ch)`: the operand at the four components of start index `r`, each read signed and clamped into its
    axis, at channel `ch`. The seven hypotheses are the printed dimension numbers. -/
theorem gather4_apply {D C L : Nat} (hD : 0 < D)
    (d : GatherDims ⟨5, ![2, D, D, D, C]⟩ ⟨2, ![L, 4]⟩ ⟨2, ![L, C]⟩)
    (h1 : d.offsetDims = [1]) (h2 : d.collapsedSliceDims = [0, 1, 2, 3]) (h3 : d.operandBatchingDims = [])
    (h4 : d.startIndicesBatchingDims = []) (h5 : d.startIndexMap = [0, 1, 2, 3]) (h6 : d.indexVectorDim = 1)
    (h7 : d.sliceSizes = ![1, 1, 1, 1, C])
    (x : (⟨5, ![2, D, D, D, C]⟩ : Shape).Idx → α) (idx : IVec ⟨2, ![L, 4]⟩ 32) (r : Fin L) (ch : Fin C) :
    Host.gather d x idx (ix2 r ch)
      = x (ix5 (Cert.Spec.cl 2 (by decide) (idx (ix2 r (0 : Fin 4)))) (Cert.Spec.cl D hD (idx (ix2 r (1 : Fin 4))))
            (Cert.Spec.cl D hD (idx (ix2 r (2 : Fin 4)))) (Cert.Spec.cl D hD (idx (ix2 r (3 : Fin 4)))) ch) := by
  obtain ⟨od, cd, ob, sb, sm, iv, ss, wf⟩ := d
  dsimp only at h1 h2 h3 h4 h5 h6 h7
  subst h1 h2 h3 h4 h5 h6 h7
  exact congrArg x (dims4_operandIdx hD wf idx r ch)

/-! ## Three start-index components under a batching axis -/

/-- The dimension numbers of a gather of single lattice points under a batching axis: the operand's batch axis paired with
    the start indices' batch axis, its three lattice axes collapsed and start-indexed by the three components of each
    start index, the channel axis read whole. -/
abbrev dims3b (D C N : Nat)
    (wf : GatherDims.WF ⟨5, ![2, D, D, D, C]⟩ ⟨3, ![2, N, 3]⟩ ⟨3, ![2, N, C]⟩ [2] [1, 2, 3] [0] [1, 2, 3] [0] 2 ![1, 1, 1, 1, C]) :
    GatherDims ⟨5, ![2, D, D, D, C]⟩ ⟨3, ![2, N, 3]⟩ ⟨3, ![2, N, C]⟩ where
  offsetDims := [2]
  collapsedSliceDims := [1, 2, 3]
  operandBatchingDims := [0]
  startIndicesBatchingDims := [0]
  startIndexMap := [1, 2, 3]
  indexVectorDim := 2
  sliceSizes := ![1, 1, 1, 1, C]
  wf := wf

/-- Result position `(b, n)` reads component `k` of its start index at `(b, n, k)`. -/
theorem dims3b_siIdx {D C N : Nat}
    (wf : GatherDims.WF ⟨5, ![2, D, D, D, C]⟩ ⟨3, ![2, N, 3]⟩ ⟨3, ![2, N, C]⟩ [2] [1, 2, 3] [0] [1, 2, 3] [0] 2 ![1, 1, 1, 1, C])
    (b : Fin 2) (n : Fin N) (ch : Fin C) (k : Fin 3) : (dims3b D C N wf).siIdx (ix3 b n ch) k = ix3 b n k := by
  funext a; refine Fin.ext ?_
  match a with
  | ⟨0, _⟩ => rfl
  | ⟨1, _⟩ => rfl
  | ⟨2, _⟩ => rfl

/-- On an operand axis `a` that is start-indexed (in position `k` of the start index map) and collapsed, the coordinate
    read is the start alone: component `k` of the start index, read signed and clamped to the axis's size less the
    slice's. Such an axis is not the batching axis, and a collapsed axis has no offset coordinate. -/
theorem dims3b_axis {D C N : Nat}
    (wf : GatherDims.WF ⟨5, ![2, D, D, D, C]⟩ ⟨3, ![2, N, 3]⟩ ⟨3, ![2, N, C]⟩ [2] [1, 2, 3] [0] [1, 2, 3] [0] 2 ![1, 1, 1, 1, C])
    (idx : IVec ⟨3, ![2, N, 3]⟩ 32) (b : Fin 2) (n : Fin N) (ch : Fin C) (a : Fin 5) (k : Fin 3)
    (ha : a ∈ ([1, 2, 3] : List (Fin 5))) (hb : a ∉ ([0] : List (Fin 5)))
    (hk : List.idxOf a ([1, 2, 3] : List (Fin 5)) = k.val) :
    ((dims3b D C N wf).operandIdx (ix3 b n ch) idx a).val
      = min (idx (ix3 b n k)).toInt.toNat
          ((⟨5, ![2, D, D, D, C]⟩ : Shape).size a - (![1, 1, 1, 1, C] : Fin 5 → Nat) a) := by
  show (dims3b D C N wf).start (ix3 b n ch) idx a + (dims3b D C N wf).batchCoord (ix3 b n ch) a
    + (dims3b D C N wf).offCoord (ix3 b n ch) a = _
  rw [GatherDims.batchCoord_eq_zero _ _ _ hb,
    GatherDims.offCoord_eq_zero _ _ _ (fun h => ((GatherDims.mem_sKept _ _).mp h).1 ha)]
  simp only [Nat.add_zero]
  unfold GatherDims.start
  rw [dif_pos ha]
  rw [show (⟨List.idxOf a (dims3b D C N wf).startIndexMap, List.idxOf_lt_length_iff.2 ha⟩ :
    Fin (dims3b D C N wf).startIndexMap.length) = k from Fin.ext hk]
  rw [dims3b_siIdx]

/-- The operand index read at `(b, n, ch)`: batch `b`, the three clamped components of the start index, channel `ch`. -/
theorem dims3b_operandIdx {D C N : Nat} (hD : 0 < D)
    (wf : GatherDims.WF ⟨5, ![2, D, D, D, C]⟩ ⟨3, ![2, N, 3]⟩ ⟨3, ![2, N, C]⟩ [2] [1, 2, 3] [0] [1, 2, 3] [0] 2 ![1, 1, 1, 1, C])
    (idx : IVec ⟨3, ![2, N, 3]⟩ 32) (b : Fin 2) (n : Fin N) (ch : Fin C) :
    (dims3b D C N wf).operandIdx (ix3 b n ch) idx
      = ix5 b (Cert.Spec.cl D hD (idx (ix3 b n (0 : Fin 3)))) (Cert.Spec.cl D hD (idx (ix3 b n (1 : Fin 3))))
            (Cert.Spec.cl D hD (idx (ix3 b n (2 : Fin 3)))) ch := by
  funext a
  refine Fin.ext ?_
  match a with
  | ⟨0, _⟩ =>
    -- the batching axis: not start-indexed (start 0), no offset coordinate, the batch coordinate of the result index
    show (dims3b D C N wf).start (ix3 b n ch) idx 0 + (dims3b D C N wf).batchCoord (ix3 b n ch) 0
      + (dims3b D C N wf).offCoord (ix3 b n ch) 0 = b.val
    have hs : (dims3b D C N wf).start (ix3 b n ch) idx 0 = 0 := by
      unfold GatherDims.start
      exact dif_neg (show (0 : Fin 5) ∉ ([1, 2, 3] : List (Fin 5)) by decide)
    rw [hs, GatherDims.offCoord_eq_zero _ _ _
      (fun h => ((GatherDims.mem_sKept _ _).mp h).2 (show (0 : Fin 5) ∈ ([0] : List (Fin 5)) by decide)),
      Nat.add_zero, Nat.zero_add]
    rfl
  | ⟨1, _⟩ => exact dims3b_axis wf idx b n ch 1 0 (by decide) (by decide) rfl
  | ⟨2, _⟩ => exact dims3b_axis wf idx b n ch 2 1 (by decide) (by decide) rfl
  | ⟨3, _⟩ => exact dims3b_axis wf idx b n ch 3 2 (by decide) (by decide) rfl
  | ⟨4, _⟩ =>
    -- the channel axis: not start-indexed (start 0), not batching, the one offset axis
    show (dims3b D C N wf).start (ix3 b n ch) idx 4 + (dims3b D C N wf).batchCoord (ix3 b n ch) 4
      + (dims3b D C N wf).offCoord (ix3 b n ch) 4 = ch.val
    have hs : (dims3b D C N wf).start (ix3 b n ch) idx 4 = 0 := by
      unfold GatherDims.start
      exact dif_neg (show (4 : Fin 5) ∉ ([1, 2, 3] : List (Fin 5)) by decide)
    rw [hs, GatherDims.batchCoord_eq_zero _ _ _ (show (4 : Fin 5) ∉ ([0] : List (Fin 5)) by decide),
      Nat.add_zero, Nat.zero_add]
    rfl

/-- THE BATCHED GATHER READ AT `(b, n, ch)`: the operand at batch `b`, at the three components of start index `(b, n)` each
    read signed and clamped into its axis, at channel `ch`. The seven hypotheses are the printed dimension numbers. -/
theorem gather3b_apply {D C N : Nat} (hD : 0 < D)
    (d : GatherDims ⟨5, ![2, D, D, D, C]⟩ ⟨3, ![2, N, 3]⟩ ⟨3, ![2, N, C]⟩)
    (h1 : d.offsetDims = [2]) (h2 : d.collapsedSliceDims = [1, 2, 3]) (h3 : d.operandBatchingDims = [0])
    (h4 : d.startIndicesBatchingDims = [0]) (h5 : d.startIndexMap = [1, 2, 3]) (h6 : d.indexVectorDim = 2)
    (h7 : d.sliceSizes = ![1, 1, 1, 1, C])
    (x : (⟨5, ![2, D, D, D, C]⟩ : Shape).Idx → α) (idx : IVec ⟨3, ![2, N, 3]⟩ 32) (b : Fin 2) (n : Fin N) (ch : Fin C) :
    Host.gather d x idx (ix3 b n ch)
      = x (ix5 b (Cert.Spec.cl D hD (idx (ix3 b n (0 : Fin 3)))) (Cert.Spec.cl D hD (idx (ix3 b n (1 : Fin 3))))
            (Cert.Spec.cl D hD (idx (ix3 b n (2 : Fin 3)))) ch) := by
  obtain ⟨od, cd, ob, sb, sm, iv, ss, wf⟩ := d
  dsimp only at h1 h2 h3 h4 h5 h6 h7
  subst h1 h2 h3 h4 h5 h6 h7
  exact congrArg x (dims3b_operandIdx hD wf idx b n ch)

end Cert.GatherRead
-- ==== Proof.PeelLib.lean ====
/- Reading one buffer out of a long straight line of host operations that is cut into stretches.

   The line is the concatenation of stretches L₀, L₁, …; it runs from contents V₀. Suppose Wf k lists every reference
   that the stretches from the k-th on write. Then a reference outside Wf k holds, when the whole line has run, what it
   held just before stretch k; and a reference outside Wf (k+1) holds what stretch k alone, run from the contents
   before it, left there. For a program in single-assignment form (every buffer written once) this reads any buffer
   out of the one stretch that writes it, in terms of buffers of earlier stretches. -/
import Idealize.ShloMosaic.Lib.StableHlo.Run
import Idealize.ShloMosaic.Lib.Pipeline.Frame

namespace Cert.PeelLib

open Idealize.ShloMosaic Idealize.ShloMosaic.StableHlo

variable {τ : Topo} {sig : RefSig} {Val : EltTy → Type}

/-- Every operation of the line writes only references listed in W. -/
abbrev WritesIn (ops : List (HloOp τ sig Val)) (W : List (Ref sig .tc)) : Prop :=
  ops.Forall fun op => op.writes ⊆ (W.map (Proc.devRef (τ := τ) .tc)).toFinset

theorem writesIn_nil (W : List (Ref sig .tc)) : WritesIn ([] : List (HloOp τ sig Val)) W := trivial

theorem writesIn_cons {op : HloOp τ sig Val} {ops : List (HloOp τ sig Val)} {W : List (Ref sig .tc)} :
    WritesIn (op :: ops) W ↔ op.writes ⊆ (W.map (Proc.devRef (τ := τ) .tc)).toFinset ∧ WritesIn ops W :=
  List.forall_cons _ _ _

/-- A longer list of references still holds every reference written. -/
theorem WritesIn.mono {ops : List (HloOp τ sig Val)} {W W' : List (Ref sig .tc)} (h : WritesIn ops W) (hs : W ⊆ W') :
    WritesIn ops W' := by
  induction ops with
  | nil => exact writesIn_nil _
  | cons op ops ih =>
    obtain ⟨h1, h2⟩ := writesIn_cons.1 h
    exact writesIn_cons.2 ⟨fun d hd => List.mem_toFinset.2 (List.map_subset _ hs (List.mem_toFinset.1 (h1 hd))), ih h2⟩

/-- Two lines in a row write what either writes. -/
theorem WritesIn.append {a b : List (HloOp τ sig Val)} {W : List (Ref sig .tc)} (ha : WritesIn a W) (hb : WritesIn b W) :
    WritesIn (a ++ b) W := by
  induction a with
  | nil => exact hb
  | cons op ops ih =>
    obtain ⟨h1, h2⟩ := writesIn_cons.1 ha
    exact writesIn_cons.2 ⟨h1, ih h2⟩

/-- A line whose k-th operation writes exactly the k-th reference of W, and nothing else, writes inside W. -/
theorem writesIn_of_forall₂ {ops : List (HloOp τ sig Val)} {W : List (Ref sig .tc)}
    (h : List.Forall₂ (fun (op : HloOp τ sig Val) (y : Ref sig .tc) => op.writes = {Proc.devRef .tc y}) ops W) :
    WritesIn ops W := by
  induction h with
  | nil => exact writesIn_nil _
  | @cons op y ops W hy _ ih =>
    refine writesIn_cons.2 ⟨?_, ih.mono (List.subset_cons_self _ _)⟩
    rw [hy, Finset.singleton_subset_iff, List.mem_toFinset]
    exact List.mem_map.2 ⟨y, List.mem_cons_self, rfl⟩

/-! ## Cutting the fold at a stretch -/

/-- The line run whole is the stretches before the k-th run first, then the rest. -/
theorem after_flatten_split (L : List (List (HloOp τ sig Val))) (k : Nat) (V₀ : Valuation τ sig Val) :
    after L.flatten V₀ = after (L.drop k).flatten (after (L.take k).flatten V₀) := by
  conv_lhs => rw [← List.take_append_drop k L, List.flatten_append, after_append]

/-- The stretches up to and including the k-th are the stretches before it, then the k-th. -/
theorem after_take_succ (L : List (List (HloOp τ sig Val))) (k : Nat) (S : List (HloOp τ sig Val)) (hS : L[k]? = some S)
    (V₀ : Valuation τ sig Val) :
    after (L.take (k + 1)).flatten V₀ = after S (after (L.take k).flatten V₀) := by
  rw [List.take_succ, hS, Option.toList_some, List.flatten_append, after_append, List.flatten_cons, List.flatten_nil,
    List.append_nil]

/-- A table of reference lists, flattened from its k-th row on, is the k-th row followed by the rest. -/
theorem flatten_drop_eq {α : Type} (T : List (List α)) (k : Nat) :
    (T.drop k).flatten = T.getD k [] ++ (T.drop (k + 1)).flatten := by
  by_cases hk : k < T.length
  · rw [List.drop_eq_getElem_cons hk, List.flatten_cons, List.getD_eq_getElem?_getD, List.getElem?_eq_getElem hk,
      Option.getD_some]
  · have hk' : T.length ≤ k := Nat.le_of_not_lt hk
    rw [List.drop_eq_nil_of_le hk', List.drop_eq_nil_of_le (Nat.le_succ_of_le hk'), List.getD_eq_getElem?_getD,
      List.getElem?_eq_none hk', Option.getD_none]
    rfl

/-! ## What the rest of the line writes, from what each stretch writes -/

/-- If stretch k writes inside W k, and Wf k is W k followed by Wf (k+1), then the stretches from the k-th on write
    inside Wf k. -/
theorem writesIn_drop : ∀ (L : List (List (HloOp τ sig Val))) (W Wf : Nat → List (Ref sig .tc))
    (hS : ∀ k S, L[k]? = some S → WritesIn S (W k)) (hWf : ∀ k, Wf k = W k ++ Wf (k + 1)) (k : Nat),
    WritesIn (L.drop k).flatten (Wf k)
  | [], _, _, _, _, k => by rw [List.drop_nil]; exact writesIn_nil _
  | S :: L, W, Wf, hS, hWf, 0 => by
    have h1 := writesIn_drop L (fun k => W (k + 1)) (fun k => Wf (k + 1))
      (fun k S' h => hS (k + 1) S' (by rw [List.getElem?_cons_succ]; exact h)) (fun k => hWf (k + 1)) 0
    rw [List.drop_zero] at h1
    rw [List.drop_zero, List.flatten_cons, hWf 0]
    exact ((hS 0 S (List.getElem?_cons_zero ..)).mono (List.subset_append_left _ _)).append
      (h1.mono (List.subset_append_right _ _))
  | S :: L, W, Wf, hS, hWf, k + 1 => by
    rw [List.drop_succ_cons]
    exact writesIn_drop L (fun k => W (k + 1)) (fun k => Wf (k + 1))
      (fun k S' h => hS (k + 1) S' (by rw [List.getElem?_cons_succ]; exact h)) (fun k => hWf (k + 1)) k

/-- The same from a table T of reference lists, row k for stretch k: the stretches from the k-th on write inside the
    rows from the k-th on. -/
theorem writesIn_drop_of_table {L : List (List (HloOp τ sig Val))} {T : List (List (Ref sig .tc))}
    (h : List.Forall₂ WritesIn L T) (k : Nat) : WritesIn (L.drop k).flatten (T.drop k).flatten := by
  refine writesIn_drop L (fun k => T.getD k []) (fun k => (T.drop k).flatten) ?_ (flatten_drop_eq T) k
  clear k
  induction h with
  | nil => intro k S hS; rw [List.getElem?_nil] at hS; exact absurd hS (by simp)
  | @cons S₀ W₀ L T h₀ _ ih =>
    intro k S hS
    cases k with
    | zero =>
      rw [List.getElem?_cons_zero] at hS
      cases hS
      exact h₀
    | succ k =>
      rw [List.getElem?_cons_succ] at hS
      rw [List.getD_cons_succ]
      exact ih k S hS

/-! ## Reading a reference at the end of the line -/

section Read

variable (L : List (List (HloOp τ sig Val))) (V₀ : Valuation τ sig Val) (Wf : Nat → List (Ref sig .tc))
  (hW : ∀ k, WritesIn (L.drop k).flatten (Wf k))
include hW

/-- A reference no stretch from the k-th on writes holds at the end what it held before stretch k. -/
theorem after_eq_before (k : Nat) (r : Ref sig .tc) (hr : r ∉ Wf k) :
    after L.flatten V₀ (Proc.devRef .tc r) = after (L.take k).flatten V₀ (Proc.devRef .tc r) := by
  rw [after_flatten_split L k V₀]
  exact after_of_writes_sub _ _ (hW k) hr

/-- A reference no stretch after the k-th writes holds at the end what stretch k left there. -/
theorem after_eq_stretch (k : Nat) (S : List (HloOp τ sig Val)) (hS : L[k]? = some S) (r : Ref sig .tc)
    (hr : r ∉ Wf (k + 1)) :
    after L.flatten V₀ (Proc.devRef .tc r) = after S (after (L.take k).flatten V₀) (Proc.devRef .tc r) := by
  rw [after_eq_before L V₀ Wf hW (k + 1) r hr, after_take_succ L k S hS]

end Read

end Cert.PeelLib
-- ==== Proof.KI.Prefix1Defs.lean ====
/-
  Level 1 of the sampling, as functions of arrays: what each host operation group computes, read at one row.

  The program flattens the points of both batches into one axis of 200000 rows (row b·100000 + n is point n of batch b),
  pads it to 200704 rows, and computes per row: the scaled coordinates clamped into [lo, hi]; their floors and ceilings,
  as reals and as 32-bit integers; the six distances to them; the eight products of three distances; the batch number.
  The eight products are stacked as the columns of one matrix, and each of the eight corners is read from the feature
  array at four index vectors (batch, x, y, z), each wrapped once if negative and clamped into its axis.

  This module names those functions and reads each at a row: below row 200000 padding changes nothing, a column of a
  one-column matrix is the vector, a stack of columns read at (r, k) is column k at r, and the corner read at (r, ch) is the
  feature array at the wrapped and clamped indices of row r. It also cuts a window out of a long straight line of
  operations: an array written inside the window depends only on the window's operations and on what the arrays held
  before it.
-/
import proofs.«414534_j76854144795318_3_alg».proof.Proof.Gen.KernelIdeal
import proofs.«414534_j76854144795318_3_alg».proof.Proof.GatherRead
import proofs.«414534_j76854144795318_3_alg».proof.Proof.PeelLib
import proofs.«414534_j76854144795318_3_alg».proof.Proof.Spec
import Idealize.ShloMosaic.Lib.ValueIdx
import Idealize.ShloMosaic.Lib.Pipeline.Value
import Idealize.ShloMosaic.Lib.KernelVsHost
import Idealize.ShloMosaic.Lib.StableHlo.Predicate
import Idealize.ShloMosaic.Lib.StableHlo.Run
import Mathlib.Data.List.Forall2

noncomputable section

namespace Cert.KernelIdeal.Val1

/-! ## A window of a straight line of operations -/

section Window
open Idealize.ShloMosaic Idealize.ShloMosaic.StableHlo
variable {τ : Topo} {sig : RefSig} {Val : EltTy → Type}

/-- Operation k of the line writes exactly reference k of the list. -/
abbrev Writes1 (ops : List (HloOp τ sig Val)) (W : List (Ref sig .tc)) : Prop :=
  List.Forall₂ (fun (op : HloOp τ sig Val) (y : Ref sig .tc) => op.writes = {Proc.devRef .tc y}) ops W

/-- A reference that no operation from position hi on writes holds, after the whole line, what the operations at positions
    lo ≤ · < hi leave there when run from the contents after the first lo operations. -/
theorem after_window {S : List (HloOp τ sig Val)} {W : List (Ref sig .tc)} (hF : Writes1 S W) (lo hi : Nat) (hlh : lo ≤ hi)
    (y : Ref sig .tc) (hy : y ∉ W.drop hi) (F : Valuation τ sig Val) :
    after S F (Proc.devRef .tc y) = after ((S.take hi).drop lo) (after (S.take lo) F) (Proc.devRef .tc y) := by
  have h1 : after S F = after (S.drop hi) (after (S.take hi) F) := by
    conv_lhs => rw [← List.take_append_drop hi S, after_append]
  have h2 : after (S.take hi) F = after ((S.take hi).drop lo) (after (S.take lo) F) := by
    conv_lhs => rw [← List.take_append_drop lo (S.take hi), after_append, List.take_take, Nat.min_eq_left hlh]
  rw [h1, after_of_writes_sub (S.drop hi) _ (Cert.PeelLib.writesIn_of_forall₂ (List.forall₂_drop hi hF)) hy, h2]

/-- A reference none of the first lo operations writes still holds its first contents after them. -/
theorem after_head {S : List (HloOp τ sig Val)} {W : List (Ref sig .tc)} (hF : Writes1 S W) (lo : Nat)
    (x : Ref sig .tc) (hx : x ∉ W.take lo) (F : Valuation τ sig Val) :
    after (S.take lo) F (Proc.devRef .tc x) = F (Proc.devRef .tc x) :=
  after_of_writes_sub _ _ (Cert.PeelLib.writesIn_of_forall₂ (List.forall₂_take lo hF)) hx

end Window

open Cert.KernelIdeal Cert.KernelIdeal.Gen Idealize.ShloMosaic Idealize.ShloMosaic.ValueIdx

variable {α : Type}

/-! ## Columns, stacks of columns, and the padded point axis -/

/-- A vector as a one-column matrix. -/
def colm (x : S200704.Idx → α) : S200704x1.Idx → α := broadcastInDim S200704x1 ![0] bcast_S200704_S200704x1_0 x

/-- A vector laid out as a one-column matrix reads, at row r, the vector at r. -/
theorem colm_apply (x : S200704.Idx → α) (r : Fin 200704) (k : Fin 1) : colm x (ix2 r k) = x (ix1 r) := by
  refine broadcastInDim_apply _ _ x _ (ix1 r) ?_
  intro a
  have ha : a = 0 := Subsingleton.elim _ _
  subst ha
  exact (if_neg (by decide)).symm

/-- Columns side by side: at (r, k), the k-th column at row r. The list of pieces, the position of the piece and the
    widths before it are given by the caller, who has them as literals. -/
theorem catcol_apply {n : Nat} (xs : List ((s : Shape) × (s.Idx → α)))
    (h : Shape.Concatenates (xs.map (·.1)) ⟨2, ![200704, n]⟩ 1) (r : Fin 200704) (k : Fin n) (x : S200704.Idx → α)
    (hxk : xs[k.val]? = some ⟨S200704x1, colm x⟩)
    (hpre : (((xs.take k.val).map (·.1)).map fun s =>
      if h : s.rank = (⟨2, ![200704, n]⟩ : Shape).rank then s.size ((1 : Fin 2).cast h.symm) else 0).sum = k.val) :
    concatenate ⟨2, ![200704, n]⟩ 1 xs h (ix2 r k) = x (ix1 r) := by
  obtain ⟨hk, hxk'⟩ := List.getElem?_eq_some_iff.mp hxk
  refine (concatenate_apply_piece 1 xs h (ix2 r k) k.val hk S200704x1 _ hxk' rfl k.val hpre (ix2 r 0) ?_ ?_).trans (colm_apply x r 0)
  · intro b hb
    match b with
    | ⟨0, _⟩ => rfl
    | ⟨1, _⟩ => exact absurd rfl hb
  · rfl

/-- The point axis padded from 200000 to 200704 entries. -/
def padv (x : S200000.Idx → α) (v : S_.Idx → α) : S200704.Idx → α :=
  pad S200704 ![0] ![704] ![0] x v pads_S200000_S200704_07040 h_S_

/-- Below 200000 the padded vector is the vector. -/
theorem padv_apply (x : S200000.Idx → α) (v : S_.Idx → α) (r : Fin 200704) (r' : Fin 200000) (h : r.val = r'.val) :
    padv x v (ix1 r) = x (ix1 r') := by
  refine pad_apply_of_inside _ _ _ x v _ h_S_ (ix1 r) (ix1 r') ?_
  intro a
  have ha : a = 0 := Subsingleton.elim _ _
  subst ha
  show r.val = 0 + r'.val * (0 + 1)
  omega

/-! ## The wrap of a negative index and the corner read -/

/-- A 32-bit constant spread over the padded point axis. -/
def spread (v : BitVec 32) : IVec S200704 32 := broadcastInDim S200704 ![] bcast_S_S200704 (constantI S_ 32 v)

theorem spread_apply (v : BitVec 32) (j : S200704.Idx) : spread v j = v :=
  StableHlo.Predicate.bcast_scalar _ h_S_ _ j

/-- An index vector with its negative entries moved up by the extent D. -/
def wrapv (X : IVec S200704 32) (D : BitVec 32) : IVec S200704 32 :=
  select (cmpi .slt X (spread 0#32)) (addi X (spread D)) X

theorem wrapv_apply (X : IVec S200704 32) (D : BitVec 32) (j : S200704.Idx) : wrapv X D j = Cert.Spec.nrm D (X j) := by
  show Scalar.select (IntOp.cmpi .slt (X j) (spread 0#32 j)) (IntOp.addi (X j) (spread D j)) (X j) = _
  rw [spread_apply, spread_apply]
  rfl

/-- Four one-column matrices side by side. -/
def cat4 (x0 x1 x2 x3 : S200704x1.Idx → α) : S200704x4.Idx → α :=
  concatenate S200704x4 1 [⟨S200704x1, x0⟩, ⟨S200704x1, x1⟩, ⟨S200704x1, x2⟩, ⟨S200704x1, x3⟩]
    concatenates_S200704x1_S200704x1_S200704x1_S200704x1_S200704x4_d1

theorem cat4_fold (x0 x1 x2 x3 : S200704x1.Idx → α) (h) :
    concatenate S200704x4 1 [⟨S200704x1, x0⟩, ⟨S200704x1, x1⟩, ⟨S200704x1, x2⟩, ⟨S200704x1, x3⟩] h = cat4 x0 x1 x2 x3 := rfl

/-- The four index vectors of a corner, wrapped and stacked as the columns (batch, x, y, z). -/
def rows4 (B X Y Z : IVec S200704 32) : IVec S200704x4 32 :=
  cat4 (colm (wrapv B 2#32)) (colm (wrapv X 64#32)) (colm (wrapv Y 64#32)) (colm (wrapv Z 64#32))

/-- The level-1 feature array read at the rows of four index vectors. -/
def corner1 (feat : S2x64x64x64x32.Idx → α) (B X Y Z : IVec S200704 32) : S200704x32.Idx → α :=
  Host.gather gather_S2x64x64x64x32_S200704x4_S200704x32_1_0123_n_n_0123_1_111132 feat (rows4 B X Y Z)

/-- Row r, channel ch of a corner read: the feature array at the wrapped and clamped indices of row r. -/
theorem corner1_apply (feat : S2x64x64x64x32.Idx → α) (B X Y Z : IVec S200704 32) (r : Fin 200704) (ch : Fin 32) :
    corner1 feat B X Y Z (ix2 r ch)
      = feat (ix5 (Cert.Spec.cl 2 (by decide) (Cert.Spec.nrm 2#32 (B (ix1 r))))
          (Cert.Spec.cl 64 (by decide) (Cert.Spec.nrm 64#32 (X (ix1 r))))
          (Cert.Spec.cl 64 (by decide) (Cert.Spec.nrm 64#32 (Y (ix1 r))))
          (Cert.Spec.cl 64 (by decide) (Cert.Spec.nrm 64#32 (Z (ix1 r)))) ch) := by
  unfold corner1
  refine (Cert.GatherRead.gather4_apply (by decide) _ rfl rfl rfl rfl rfl rfl rfl feat (rows4 B X Y Z) r ch).trans ?_
  have e0 : rows4 B X Y Z (ix2 r (0 : Fin 4)) = Cert.Spec.nrm 2#32 (B (ix1 r)) := by
    unfold rows4 cat4
    exact (catcol_apply _ _ r (0 : Fin 4) (wrapv B 2#32) rfl rfl).trans (wrapv_apply B _ _)
  have e1 : rows4 B X Y Z (ix2 r (1 : Fin 4)) = Cert.Spec.nrm 64#32 (X (ix1 r)) := by
    unfold rows4 cat4
    exact (catcol_apply _ _ r (1 : Fin 4) (wrapv X 64#32) rfl rfl).trans (wrapv_apply X _ _)
  have e2 : rows4 B X Y Z (ix2 r (2 : Fin 4)) = Cert.Spec.nrm 64#32 (Y (ix1 r)) := by
    unfold rows4 cat4
    exact (catcol_apply _ _ r (2 : Fin 4) (wrapv Y 64#32) rfl rfl).trans (wrapv_apply Y _ _)
  have e3 : rows4 B X Y Z (ix2 r (3 : Fin 4)) = Cert.Spec.nrm 64#32 (Z (ix1 r)) := by
    unfold rows4 cat4
    exact (catcol_apply _ _ r (3 : Fin 4) (wrapv Z 64#32) rfl rfl).trans (wrapv_apply Z _ _)
  rw [e0, e1, e2, e3]

/-- Eight one-column matrices side by side. -/
def cat8 (x0 x1 x2 x3 x4 x5 x6 x7 : S200704x1.Idx → α) : S200704x8.Idx → α :=
  concatenate S200704x8 1 [⟨S200704x1, x0⟩, ⟨S200704x1, x1⟩, ⟨S200704x1, x2⟩, ⟨S200704x1, x3⟩,
    ⟨S200704x1, x4⟩, ⟨S200704x1, x5⟩, ⟨S200704x1, x6⟩, ⟨S200704x1, x7⟩]
    concatenates_S200704x1_S200704x1_S200704x1_S200704x1_S200704x1_S200704x1_S200704x1_S200704x1_S200704x8_d1

theorem cat8_fold (x0 x1 x2 x3 x4 x5 x6 x7 : S200704x1.Idx → α) (h) :
    concatenate S200704x8 1 [⟨S200704x1, x0⟩, ⟨S200704x1, x1⟩, ⟨S200704x1, x2⟩, ⟨S200704x1, x3⟩,
      ⟨S200704x1, x4⟩, ⟨S200704x1, x5⟩, ⟨S200704x1, x6⟩, ⟨S200704x1, x7⟩] h = cat8 x0 x1 x2 x3 x4 x5 x6 x7 := rfl

/-- Eight weight vectors stacked as the columns of one matrix. -/
def stack8 (w0 w1 w2 w3 w4 w5 w6 w7 : S200704.Idx → α) : S200704x8.Idx → α :=
  cat8 (colm w0) (colm w1) (colm w2) (colm w3) (colm w4) (colm w5) (colm w6) (colm w7)

/-- The stack read at row r, column k: weight vector k at r (one statement per column). -/
theorem stack8_at0 (w0 w1 w2 w3 w4 w5 w6 w7 : S200704.Idx → α) (r : Fin 200704) : stack8 w0 w1 w2 w3 w4 w5 w6 w7 (ix2 r (0 : Fin 8)) = w0 (ix1 r) := by
  unfold stack8 cat8; exact catcol_apply _ _ r (0 : Fin 8) w0 rfl rfl
theorem stack8_at1 (w0 w1 w2 w3 w4 w5 w6 w7 : S200704.Idx → α) (r : Fin 200704) : stack8 w0 w1 w2 w3 w4 w5 w6 w7 (ix2 r (1 : Fin 8)) = w1 (ix1 r) := by
  unfold stack8 cat8; exact catcol_apply _ _ r (1 : Fin 8) w1 rfl rfl
theorem stack8_at2 (w0 w1 w2 w3 w4 w5 w6 w7 : S200704.Idx → α) (r : Fin 200704) : stack8 w0 w1 w2 w3 w4 w5 w6 w7 (ix2 r (2 : Fin 8)) = w2 (ix1 r) := by
  unfold stack8 cat8; exact catcol_apply _ _ r (2 : Fin 8) w2 rfl rfl
theorem stack8_at3 (w0 w1 w2 w3 w4 w5 w6 w7 : S200704.Idx → α) (r : Fin 200704) : stack8 w0 w1 w2 w3 w4 w5 w6 w7 (ix2 r (3 : Fin 8)) = w3 (ix1 r) := by
  unfold stack8 cat8; exact catcol_apply _ _ r (3 : Fin 8) w3 rfl rfl
theorem stack8_at4 (w0 w1 w2 w3 w4 w5 w6 w7 : S200704.Idx → α) (r : Fin 200704) : stack8 w0 w1 w2 w3 w4 w5 w6 w7 (ix2 r (4 : Fin 8)) = w4 (ix1 r) := by
  unfold stack8 cat8; exact catcol_apply _ _ r (4 : Fin 8) w4 rfl rfl
theorem stack8_at5 (w0 w1 w2 w3 w4 w5 w6 w7 : S200704.Idx → α) (r : Fin 200704) : stack8 w0 w1 w2 w3 w4 w5 w6 w7 (ix2 r (5 : Fin 8)) = w5 (ix1 r) := by
  unfold stack8 cat8; exact catcol_apply _ _ r (5 : Fin 8) w5 rfl rfl
theorem stack8_at6 (w0 w1 w2 w3 w4 w5 w6 w7 : S200704.Idx → α) (r : Fin 200704) : stack8 w0 w1 w2 w3 w4 w5 w6 w7 (ix2 r (6 : Fin 8)) = w6 (ix1 r) := by
  unfold stack8 cat8; exact catcol_apply _ _ r (6 : Fin 8) w6 rfl rfl
theorem stack8_at7 (w0 w1 w2 w3 w4 w5 w6 w7 : S200704.Idx → α) (r : Fin 200704) : stack8 w0 w1 w2 w3 w4 w5 w6 w7 (ix2 r (7 : Fin 8)) = w7 (ix1 r) := by
  unfold stack8 cat8; exact catcol_apply _ _ r (7 : Fin 8) w7 rfl rfl

/-! ## The rows before padding: scaled coordinates, the clamp, floors and ceilings, distances, weights, batch numbers -/

/-- The coordinates as a matrix of 200000 rows of three, each entry times the scale of the level. -/
def scaled (sb : BitVec 32) (co : S2x100000x3.Idx → EReal) : S200000x3.Idx → EReal :=
  mulf (F := Ideal) (φ := .f32) (shapeCast S200000x3 co shapeCasts_S2x100000x3_S200000x3)
    (broadcastInDim S200000x3 ![0, 1] bcast_S1x3_S200000x3_0_1
      (broadcastInDim S1x3 ![1] bcast_S3_S1x3_1 (constant (F := Ideal) S3 .f32 sb)))

/-- Row b·100000 + n of the scaled matrix is point n of batch b, times the scale. -/
theorem scaled_apply (sb : BitVec 32) (co : S2x100000x3.Idx → EReal) (b : Fin 2) (n : Fin 100000) (r' : Fin 200000)
    (hr : r'.val = b.val * 100000 + n.val) (a : Fin 3) :
    scaled sb co (ix2 r' a) = co (ix3 b n a) * Ideal.ofBits .f32 sb := by
  show shapeCast S200000x3 co shapeCasts_S2x100000x3_S200000x3 (ix2 r' a)
      * broadcastInDim S200000x3 ![0, 1] bcast_S1x3_S200000x3_0_1
          (broadcastInDim S1x3 ![1] bcast_S3_S1x3_1 (constant (F := Ideal) S3 .f32 sb)) (ix2 r' a) = _
  have e1 : shapeCast S200000x3 co shapeCasts_S2x100000x3_S200000x3 (ix2 r' a) = co (ix3 b n a) := by
    refine shapeCast_apply co _ (ix2 r' a) (ix3 b n a) ?_
    rw [Shape.rowMajor_val_three, Shape.rowMajor_val_two]
    show (b.val * 100000 + n.val) * 3 + a.val = r'.val * 3 + a.val
    rw [hr]
  have e2 : broadcastInDim S200000x3 ![0, 1] bcast_S1x3_S200000x3_0_1
      (broadcastInDim S1x3 ![1] bcast_S3_S1x3_1 (constant (F := Ideal) S3 .f32 sb)) (ix2 r' a) = Ideal.ofBits .f32 sb := by
    refine (broadcastInDim_apply _ _ _ (ix2 r' a) (ix2 (0 : Fin 1) a) ?_).trans ?_
    · intro k
      match k with
      | ⟨0, _⟩ => exact (if_pos rfl).symm
      | ⟨1, _⟩ => exact (if_neg (show ¬ (3 : ℕ) = 1 by decide)).symm
    · rfl
  rw [e1, e2]

/-- A matrix clamped entrywise from below by one scalar and from above by another. -/
def clampv (lo hi : S_.Idx → EReal) (u : S200000x3.Idx → EReal) : S200000x3.Idx → EReal :=
  minimumf (F := Ideal) (φ := .f32) (broadcastInDim S200000x3 ![] bcast_S_S200000x3 hi)
    (maximumf (F := Ideal) (φ := .f32) (broadcastInDim S200000x3 ![] bcast_S_S200000x3 lo) u)

theorem clampv_apply (lo hi : S_.Idx → EReal) (u : S200000x3.Idx → EReal) (j : S200000x3.Idx) :
    clampv lo hi u j = min (hi (Shape.Idx.first h_S_)) (max (lo (Shape.Idx.first h_S_)) (u j)) := by
  show min (broadcastInDim S200000x3 ![] bcast_S_S200000x3 hi j) (max (broadcastInDim S200000x3 ![] bcast_S_S200000x3 lo j) (u j)) = _
  rw [StableHlo.Predicate.bcast_scalar _ h_S_ hi j, StableHlo.Predicate.bcast_scalar _ h_S_ lo j]

/-- Column a of a matrix of 200000 rows of three, as a vector. -/
def colv (a : Nat) (h : S200000x3.Slices ![0, a] S200000x1) (u : S200000x3.Idx → α) : S200000.Idx → α :=
  shapeCast S200000 (extractStridedSlice S200000x1 ![0, a] u h) shapeCasts_S200000x1_S200000

theorem colv_apply (a : Fin 3) (h : S200000x3.Slices ![0, a.val] S200000x1) (u : S200000x3.Idx → α) (r' : Fin 200000) :
    colv a.val h u (ix1 r') = u (ix2 r' a) := by
  unfold colv
  refine (shapeCast_apply _ shapeCasts_S200000x1_S200000 (ix1 r') (ix2 r' (0 : Fin 1)) ?_).trans ?_
  · rw [Shape.rowMajor_val_two, Shape.rowMajor_val_one]
    show r'.val * 1 + 0 = r'.val
    omega
  · refine extractStridedSlice_apply _ u h (ix2 r' (0 : Fin 1)) (ix2 r' a) ?_
    intro k
    match k with
    | ⟨0, _⟩ => show r'.val = 0 + r'.val; omega
    | ⟨1, _⟩ => show a.val = a.val + 0; omega

/-- The floor and the ceiling of a column, the two as 32-bit integers, the two distances to them. -/
def flv (a : Nat) (h : S200000x3.Slices ![0, a] S200000x1) (u : S200000x3.Idx → EReal) : S200000.Idx → EReal :=
  Host.floor (F := Ideal) (φ := .f32) (colv a h u)
def cev (a : Nat) (h : S200000x3.Slices ![0, a] S200000x1) (u : S200000x3.Idx → EReal) : S200000.Idx → EReal :=
  Host.ceil (F := Ideal) (φ := .f32) (colv a h u)
def ilo (a : Nat) (h : S200000x3.Slices ![0, a] S200000x1) (u : S200000x3.Idx → EReal) : IVec S200000 32 :=
  fptosi (F := Ideal) (φ := .f32) 32 (flv a h u)
def ihi (a : Nat) (h : S200000x3.Slices ![0, a] S200000x1) (u : S200000x3.Idx → EReal) : IVec S200000 32 :=
  fptosi (F := Ideal) (φ := .f32) 32 (cev a h u)
def dlo (a : Nat) (h : S200000x3.Slices ![0, a] S200000x1) (u : S200000x3.Idx → EReal) : S200000.Idx → EReal :=
  subf (F := Ideal) (φ := .f32) (colv a h u) (flv a h u)
def dhi (a : Nat) (h : S200000x3.Slices ![0, a] S200000x1) (u : S200000x3.Idx → EReal) : S200000.Idx → EReal :=
  subf (F := Ideal) (φ := .f32) (cev a h u) (colv a h u)

theorem ilo_apply (a : Fin 3) (h : S200000x3.Slices ![0, a.val] S200000x1) (u : S200000x3.Idx → EReal) (r' : Fin 200000) :
    ilo a.val h u (ix1 r') = Cert.Spec.cvt (Cert.Spec.fl (u (ix2 r' a))) := by
  show FloatOps.fptosi (F := Ideal) (φ := .f32) 32 (FloatOps.hostUnary (F := Ideal) (φ := .f32) .floor (colv a.val h u (ix1 r'))) = _
  rw [colv_apply]; rfl
theorem ihi_apply (a : Fin 3) (h : S200000x3.Slices ![0, a.val] S200000x1) (u : S200000x3.Idx → EReal) (r' : Fin 200000) :
    ihi a.val h u (ix1 r') = Cert.Spec.cvt (Cert.Spec.ce (u (ix2 r' a))) := by
  show FloatOps.fptosi (F := Ideal) (φ := .f32) 32 (FloatOps.hostUnary (F := Ideal) (φ := .f32) .ceil (colv a.val h u (ix1 r'))) = _
  rw [colv_apply]; rfl
theorem dlo_apply (a : Fin 3) (h : S200000x3.Slices ![0, a.val] S200000x1) (u : S200000x3.Idx → EReal) (r' : Fin 200000) :
    dlo a.val h u (ix1 r') = u (ix2 r' a) - Cert.Spec.fl (u (ix2 r' a)) := by
  show colv a.val h u (ix1 r') - FloatOps.hostUnary (F := Ideal) (φ := .f32) .floor (colv a.val h u (ix1 r')) = _
  rw [colv_apply]; rfl
theorem dhi_apply (a : Fin 3) (h : S200000x3.Slices ![0, a.val] S200000x1) (u : S200000x3.Idx → EReal) (r' : Fin 200000) :
    dhi a.val h u (ix1 r') = Cert.Spec.ce (u (ix2 r' a)) - u (ix2 r' a) := by
  show FloatOps.hostUnary (F := Ideal) (φ := .f32) .ceil (colv a.val h u (ix1 r')) - colv a.val h u (ix1 r') = _
  rw [colv_apply]; rfl

/-- A product of three distance vectors, the first two multiplied first. -/
def prod3 (p q t : S200000.Idx → EReal) : S200000.Idx → EReal :=
  mulf (F := Ideal) (φ := .f32) (mulf (F := Ideal) (φ := .f32) p q) t

theorem prod3_apply (p q t : S200000.Idx → EReal) (j : S200000.Idx) : prod3 p q t j = p j * q j * t j := rfl

/-- The batch number of every row: 0 on the first 100000 rows, 1 on the others. -/
def batchIds : IVec S200000 32 :=
  shapeCast S200000 (broadcastInDim S2x100000 ![0] bcast_S2_S2x100000_0 (iotaInDim S2 32 0)) shapeCasts_S2x100000_S200000

theorem batchIds_apply (b : Fin 2) (n : Fin 100000) (r' : Fin 200000) (hr : r'.val = b.val * 100000 + n.val) :
    batchIds (ix1 r') = BitVec.ofNat 32 b.val := by
  unfold batchIds
  refine (shapeCast_apply _ shapeCasts_S2x100000_S200000 (ix1 r') (ix2 b n) ?_).trans ?_
  · rw [Shape.rowMajor_val_two, Shape.rowMajor_val_one]
    show b.val * 100000 + n.val = r'.val
    omega
  · refine (broadcastInDim_apply _ _ _ (ix2 b n) (ix1 b) ?_).trans rfl
    intro k
    have hk : k = 0 := Subsingleton.elim _ _
    subst hk
    exact (if_neg (by decide)).symm

/-- A batch number is not negative, so the wrap leaves it, and it is below 2, so the clamp reads it back. -/
theorem batch_back (b : Fin 2) : Cert.Spec.cl 2 (by decide) (Cert.Spec.nrm 2#32 (BitVec.ofNat 32 b.val)) = b := by
  match b with
  | 0 => decide
  | 1 => decide

end Cert.KernelIdeal.Val1

end
-- ==== Proof.KI.PeelTable.lean ====
/- The references the host stretches of the program write. For stretch k, Wk lists the result reference of each of
   its operations, in program order; writesk says that the i-th operation of the stretch writes exactly the i-th
   reference of Wk and nothing else (every operation has one result). The program is in single-assignment form: the
   1192 references of the 97 lists are pairwise distinct. -/
import proofs.«414534_j76854144795318_3_alg».proof.Proof.Gen.KernelIdeal.Launch
import proofs.«414534_j76854144795318_3_alg».proof.Proof.PeelLib

set_option maxRecDepth 16384

noncomputable section

namespace Cert.KernelIdeal.Hand

open Cert.KernelIdeal Cert.KernelIdeal.Gen Cert.PeelLib
open Idealize.ShloMosaic Idealize.ShloMosaic.StableHlo

variable {F : FTy → Type} [FloatOps F]

/-- The references stretch 0 writes, in order. -/
noncomputable def W0 : List (Ref sig .tc) :=
  [main_cst, main_cst_0, main_cst_1, main_v0, main_v1, main_v2, main_v3, main_v4, main_v5, main_v6, main_cst_2, main_cst_3]
theorem writes0 : List.Forall₂ (fun (op : HloOp τ sig (Elt F)) (y : Ref sig .tc) => op.writes = {Proc.devRef .tc y}) hostOps0 W0 := by
  (repeat (refine List.Forall₂.cons rfl ?_)); exact List.Forall₂.nil
/-- The references stretch 1 writes, in order. -/
noncomputable def W1 : List (Ref sig .tc) :=
  [main_call0_v0, main_call0_v1, main_call0_v2, main_call0_v3, main_call0_v4, main_v7]
theorem writes1 : List.Forall₂ (fun (op : HloOp τ sig (Elt F)) (y : Ref sig .tc) => op.writes = {Proc.devRef .tc y}) hostOps0_1 W1 := by
  (repeat (refine List.Forall₂.cons rfl ?_)); exact List.Forall₂.nil
/-- The references stretch 2 writes, in order. -/
noncomputable def W2 : List (Ref sig .tc) :=
  [main_v8, main_v9, main_v10, main_v11, main_v12, main_v13, main_v14, main_v15, main_v16, main_v17, main_v18, main_v19, main_v20, main_v21, main_v22, main_v23, main_v24, main_v25, main_v26, main_v27, main_v28, main_v29, main_v30, main_v31, main_v32, main_v33, main_v34, main_v35, main_v36, main_v37, main_v38, main_v39, main_v40, main_v41, main_v42, main_v43, main_v44, main_v45, main_v46, main_v47, main_v48, main_v49, main_v50, main_v51, main_v52, main_v53, main_v54, main_v55, main_v56, main_v57, main_v58, main_v59, main_v60, main_v61, main_v62, main_v63, main_v64, main_v65, main_c]
theorem writes2 : List.Forall₂ (fun (op : HloOp τ sig (Elt F)) (y : Ref sig .tc) => op.writes = {Proc.devRef .tc y}) hostOps0_2 W2 := by
  (repeat (refine List.Forall₂.cons rfl ?_)); exact List.Forall₂.nil
/-- The references stretch 3 writes, in order. -/
noncomputable def W3 : List (Ref sig .tc) :=
  [main_call1_v0, main_v66]
theorem writes3 : List.Forall₂ (fun (op : HloOp τ sig (Elt F)) (y : Ref sig .tc) => op.writes = {Proc.devRef .tc y}) hostOps0_3 W3 := by
  (repeat (refine List.Forall₂.cons rfl ?_)); exact List.Forall₂.nil
/-- The references stretch 4 writes, in order. -/
noncomputable def W4 : List (Ref sig .tc) :=
  [main_c_4]
theorem writes4 : List.Forall₂ (fun (op : HloOp τ sig (Elt F)) (y : Ref sig .tc) => op.writes = {Proc.devRef .tc y}) hostOps0_4 W4 := by
  (repeat (refine List.Forall₂.cons rfl ?_)); exact List.Forall₂.nil
/-- The references stretch 5 writes, in order. -/
noncomputable def W5 : List (Ref sig .tc) :=
  [main_call2_v0, main_v67]
theorem writes5 : List.Forall₂ (fun (op : HloOp τ sig (Elt F)) (y : Ref sig .tc) => op.writes = {Proc.devRef .tc y}) hostOps0_5 W5 := by
  (repeat (refine List.Forall₂.cons rfl ?_)); exact List.Forall₂.nil
/-- The references stretch 6 writes, in order. -/
noncomputable def W6 : List (Ref sig .tc) :=
  [main_c_5]
theorem writes6 : List.Forall₂ (fun (op : HloOp τ sig (Elt F)) (y : Ref sig .tc) => op.writes = {Proc.devRef .tc y}) hostOps0_6 W6 := by
  (repeat (refine List.Forall₂.cons rfl ?_)); exact List.Forall₂.nil
/-- The references stretch 7 writes, in order. -/
noncomputable def W7 : List (Ref sig .tc) :=
  [main_call3_v0, main_v68]
theorem writes7 : List.Forall₂ (fun (op : HloOp τ sig (Elt F)) (y : Ref sig .tc) => op.writes = {Proc.devRef .tc y}) hostOps0_7 W7 := by
  (repeat (refine List.Forall₂.cons rfl ?_)); exact List.Forall₂.nil
/-- The references stretch 8 writes, in order. -/
noncomputable def W8 : List (Ref sig .tc) :=
  [main_c_6]
theorem writes8 : List.Forall₂ (fun (op : HloOp τ sig (Elt F)) (y : Ref sig .tc) => op.writes = {Proc.devRef .tc y}) hostOps0_8 W8 := by
  (repeat (refine List.Forall₂.cons rfl ?_)); exact List.Forall₂.nil
/-- The references stretch 9 writes, in order. -/
noncomputable def W9 : List (Ref sig .tc) :=
  [main_call4_v0, main_v69]
theorem writes9 : List.Forall₂ (fun (op : HloOp τ sig (Elt F)) (y : Ref sig .tc) => op.writes = {Proc.devRef .tc y}) hostOps0_9 W9 := by
  (repeat (refine List.Forall₂.cons rfl ?_)); exact List.Forall₂.nil
/-- The references stretch 10 writes, in order. -/
noncomputable def W10 : List (Ref sig .tc) :=
  [main_c_7]
theorem writes10 : List.Forall₂ (fun (op : HloOp τ sig (Elt F)) (y : Ref sig .tc) => op.writes = {Proc.devRef .tc y}) hostOps0_10 W10 := by
  (repeat (refine List.Forall₂.cons rfl ?_)); exact List.Forall₂.nil
/-- The references stretch 11 writes, in order. -/
noncomputable def W11 : List (Ref sig .tc) :=
  [main_call5_v0, main_v70]
theorem writes11 : List.Forall₂ (fun (op : HloOp τ sig (Elt F)) (y : Ref sig .tc) => op.writes = {Proc.devRef .tc y}) hostOps0_11 W11 := by
  (repeat (refine List.Forall₂.cons rfl ?_)); exact List.Forall₂.nil
/-- The references stretch 12 writes, in order. -/
noncomputable def W12 : List (Ref sig .tc) :=
  [main_c_8]
theorem writes12 : List.Forall₂ (fun (op : HloOp τ sig (Elt F)) (y : Ref sig .tc) => op.writes = {Proc.devRef .tc y}) hostOps0_12 W12 := by
  (repeat (refine List.Forall₂.cons rfl ?_)); exact List.Forall₂.nil
/-- The references stretch 13 writes, in order. -/
noncomputable def W13 : List (Ref sig .tc) :=
  [main_call6_v0, main_v71]
theorem writes13 : List.Forall₂ (fun (op : HloOp τ sig (Elt F)) (y : Ref sig .tc) => op.writes = {Proc.devRef .tc y}) hostOps0_13 W13 := by
  (repeat (refine List.Forall₂.cons rfl ?_)); exact List.Forall₂.nil
/-- The references stretch 14 writes, in order. -/
noncomputable def W14 : List (Ref sig .tc) :=
  [main_c_9]
theorem writes14 : List.Forall₂ (fun (op : HloOp τ sig (Elt F)) (y : Ref sig .tc) => op.writes = {Proc.devRef .tc y}) hostOps0_14 W14 := by
  (repeat (refine List.Forall₂.cons rfl ?_)); exact List.Forall₂.nil
/-- The references stretch 15 writes, in order. -/
noncomputable def W15 : List (Ref sig .tc) :=
  [main_call7_v0, main_v72]
theorem writes15 : List.Forall₂ (fun (op : HloOp τ sig (Elt F)) (y : Ref sig .tc) => op.writes = {Proc.devRef .tc y}) hostOps0_15 W15 := by
  (repeat (refine List.Forall₂.cons rfl ?_)); exact List.Forall₂.nil
/-- The references stretch 16 writes, in order. -/
noncomputable def W16 : List (Ref sig .tc) :=
  [main_cst_10]
theorem writes16 : List.Forall₂ (fun (op : HloOp τ sig (Elt F)) (y : Ref sig .tc) => op.writes = {Proc.devRef .tc y}) hostOps0_16 W16 := by
  (repeat (refine List.Forall₂.cons rfl ?_)); exact List.Forall₂.nil
/-- The references stretch 17 writes, in order. -/
noncomputable def W17 : List (Ref sig .tc) :=
  [main_call8_v0, main_v73]
theorem writes17 : List.Forall₂ (fun (op : HloOp τ sig (Elt F)) (y : Ref sig .tc) => op.writes = {Proc.devRef .tc y}) hostOps0_17 W17 := by
  (repeat (refine List.Forall₂.cons rfl ?_)); exact List.Forall₂.nil
/-- The references stretch 18 writes, in order. -/
noncomputable def W18 : List (Ref sig .tc) :=
  [main_cst_11]
theorem writes18 : List.Forall₂ (fun (op : HloOp τ sig (Elt F)) (y : Ref sig .tc) => op.writes = {Proc.devRef .tc y}) hostOps0_18 W18 := by
  (repeat (refine List.Forall₂.cons rfl ?_)); exact List.Forall₂.nil
/-- The references stretch 19 writes, in order. -/
noncomputable def W19 : List (Ref sig .tc) :=
  [main_call9_v0, main_v74]
theorem writes19 : List.Forall₂ (fun (op : HloOp τ sig (Elt F)) (y : Ref sig .tc) => op.writes = {Proc.devRef .tc y}) hostOps0_19 W19 := by
  (repeat (refine List.Forall₂.cons rfl ?_)); exact List.Forall₂.nil
/-- The references stretch 20 writes, in order. -/
noncomputable def W20 : List (Ref sig .tc) :=
  [main_cst_12]
theorem writes20 : List.Forall₂ (fun (op : HloOp τ sig (Elt F)) (y : Ref sig .tc) => op.writes = {Proc.devRef .tc y}) hostOps0_20 W20 := by
  (repeat (refine List.Forall₂.cons rfl ?_)); exact List.Forall₂.nil
/-- The references stretch 21 writes, in order. -/
noncomputable def W21 : List (Ref sig .tc) :=
  [main_call10_v0, main_v75]
theorem writes21 : List.Forall₂ (fun (op : HloOp τ sig (Elt F)) (y : Ref sig .tc) => op.writes = {Proc.devRef .tc y}) hostOps0_21 W21 := by
  (repeat (refine List.Forall₂.cons rfl ?_)); exact List.Forall₂.nil
/-- The references stretch 22 writes, in order. -/
noncomputable def W22 : List (Ref sig .tc) :=
  [main_cst_13]
theorem writes22 : List.Forall₂ (fun (op : HloOp τ sig (Elt F)) (y : Ref sig .tc) => op.writes = {Proc.devRef .tc y}) hostOps0_22 W22 := by
  (repeat (refine List.Forall₂.cons rfl ?_)); exact List.Forall₂.nil
/-- The references stretch 23 writes, in order. -/
noncomputable def W23 : List (Ref sig .tc) :=
  [main_call11_v0, main_v76]
theorem writes23 : List.Forall₂ (fun (op : HloOp τ sig (Elt F)) (y : Ref sig .tc) => op.writes = {Proc.devRef .tc y}) hostOps0_23 W23 := by
  (repeat (refine List.Forall₂.cons rfl ?_)); exact List.Forall₂.nil
/-- The references stretch 24 writes, in order. -/
noncomputable def W24 : List (Ref sig .tc) :=
  [main_cst_14]
theorem writes24 : List.Forall₂ (fun (op : HloOp τ sig (Elt F)) (y : Ref sig .tc) => op.writes = {Proc.devRef .tc y}) hostOps0_24 W24 := by
  (repeat (refine List.Forall₂.cons rfl ?_)); exact List.Forall₂.nil
/-- The references stretch 25 writes, in order. -/
noncomputable def W25 : List (Ref sig .tc) :=
  [main_call12_v0, main_v77]
theorem writes25 : List.Forall₂ (fun (op : HloOp τ sig (Elt F)) (y : Ref sig .tc) => op.writes = {Proc.devRef .tc y}) hostOps0_25 W25 := by
  (repeat (refine List.Forall₂.cons rfl ?_)); exact List.Forall₂.nil
/-- The references stretch 26 writes, in order. -/
noncomputable def W26 : List (Ref sig .tc) :=
  [main_cst_15]
theorem writes26 : List.Forall₂ (fun (op : HloOp τ sig (Elt F)) (y : Ref sig .tc) => op.writes = {Proc.devRef .tc y}) hostOps0_26 W26 := by
  (repeat (refine List.Forall₂.cons rfl ?_)); exact List.Forall₂.nil
/-- The references stretch 27 writes, in order. -/
noncomputable def W27 : List (Ref sig .tc) :=
  [main_call13_v0, main_v78]
theorem writes27 : List.Forall₂ (fun (op : HloOp τ sig (Elt F)) (y : Ref sig .tc) => op.writes = {Proc.devRef .tc y}) hostOps0_27 W27 := by
  (repeat (refine List.Forall₂.cons rfl ?_)); exact List.Forall₂.nil
/-- The references stretch 28 writes, in order. -/
noncomputable def W28 : List (Ref sig .tc) :=
  [main_cst_16]
theorem writes28 : List.Forall₂ (fun (op : HloOp τ sig (Elt F)) (y : Ref sig .tc) => op.writes = {Proc.devRef .tc y}) hostOps0_28 W28 := by
  (repeat (refine List.Forall₂.cons rfl ?_)); exact List.Forall₂.nil
/-- The references stretch 29 writes, in order. -/
noncomputable def W29 : List (Ref sig .tc) :=
  [main_call14_v0, main_v79]
theorem writes29 : List.Forall₂ (fun (op : HloOp τ sig (Elt F)) (y : Ref sig .tc) => op.writes = {Proc.devRef .tc y}) hostOps0_29 W29 := by
  (repeat (refine List.Forall₂.cons rfl ?_)); exact List.Forall₂.nil
/-- The references stretch 30 writes, in order. -/
noncomputable def W30 : List (Ref sig .tc) :=
  [main_cst_17]
theorem writes30 : List.Forall₂ (fun (op : HloOp τ sig (Elt F)) (y : Ref sig .tc) => op.writes = {Proc.devRef .tc y}) hostOps0_30 W30 := by
  (repeat (refine List.Forall₂.cons rfl ?_)); exact List.Forall₂.nil
/-- The references stretch 31 writes, in order. -/
noncomputable def W31 : List (Ref sig .tc) :=
  [main_call15_v0, main_v80]
theorem writes31 : List.Forall₂ (fun (op : HloOp τ sig (Elt F)) (y : Ref sig .tc) => op.writes = {Proc.devRef .tc y}) hostOps0_31 W31 := by
  (repeat (refine List.Forall₂.cons rfl ?_)); exact List.Forall₂.nil
/-- The references stretch 32 writes, in order. -/
noncomputable def W32 : List (Ref sig .tc) :=
  [main_v81, main_v82, main_v83, main_v84, main_v85, main_v86, main_v87, main_v88, main_v89, main_c_18, main_v90, main_v91, main_c_19, main_v92, main_v93, main_v94, main_c_20, main_v95, main_v96, main_c_21, main_v97, main_v98, main_v99, main_c_22, main_v100, main_v101, main_c_23, main_v102, main_v103, main_v104, main_c_24, main_v105, main_v106, main_c_25, main_v107, main_v108, main_v109, main_v110, main_v111, main_v112, main_v113, main_v114, main_v115, main_c_26, main_v116, main_v117, main_c_27, main_v118, main_v119, main_v120, main_c_28, main_v121, main_v122, main_c_29, main_v123, main_v124, main_v125, main_c_30, main_v126, main_v127, main_c_31, main_v128, main_v129, main_v130, main_c_32, main_v131, main_v132, main_c_33, main_v133, main_v134, main_v135, main_v136, main_v137, main_v138, main_v139, main_v140, main_v141, main_c_34, main_v142, main_v143, main_c_35, main_v144, main_v145, main_v146, main_c_36, main_v147, main_v148, main_c_37, main_v149, main_v150, main_v151, main_c_38, main_v152, main_v153, main_c_39, main_v154, main_v155, main_v156, main_c_40, main_v157, main_v158, main_c_41, main_v159, main_v160, main_v161, main_v162, main_v163, main_v164, main_v165, main_v166, main_v167, main_c_42, main_v168, main_v169, main_c_43, main_v170, main_v171, main_v172, main_c_44, main_v173, main_v174, main_c_45, main_v175, main_v176, main_v177, main_c_46, main_v178, main_v179, main_c_47, main_v180, main_v181, main_v182, main_c_48, main_v183, main_v184, main_c_49, main_v185, main_v186, main_v187, main_v188, main_v189, main_v190, main_v191, main_v192, main_v193, main_c_50, main_v194, main_v195, main_c_51, main_v196, main_v197, main_v198, main_c_52, main_v199, main_v200, main_c_53, main_v201, main_v202, main_v203, main_c_54, main_v204, main_v205, main_c_55, main_v206, main_v207, main_v208, main_c_56, main_v209, main_v210, main_c_57, main_v211, main_v212, main_v213, main_v214, main_v215, main_v216, main_v217, main_v218, main_v219, main_c_58, main_v220, main_v221, main_c_59, main_v222, main_v223, main_v224, main_c_60, main_v225, main_v226, main_c_61, main_v227, main_v228, main_v229, main_c_62, main_v230, main_v231, main_c_63, main_v232, main_v233, main_v234, main_c_64, main_v235, main_v236, main_c_65, main_v237, main_v238, main_v239, main_v240, main_v241, main_v242, main_v243, main_v244, main_v245, main_c_66, main_v246, main_v247, main_c_67, main_v248, main_v249, main_v250, main_c_68, main_v251, main_v252, main_c_69, main_v253, main_v254, main_v255, main_c_70, main_v256, main_v257, main_c_71, main_v258, main_v259, main_v260, main_c_72, main_v261, main_v262, main_c_73, main_v263, main_v264, main_v265, main_v266, main_v267, main_v268, main_v269, main_v270, main_v271, main_c_74, main_v272, main_v273, main_c_75, main_v274, main_v275, main_v276, main_c_76, main_v277, main_v278, main_c_77, main_v279, main_v280, main_v281, main_c_78, main_v282, main_v283, main_c_79, main_v284, main_v285, main_v286, main_c_80, main_v287, main_v288, main_c_81, main_v289, main_v290, main_v291, main_v292, main_v293, main_v294, main_v295, main_v296, main_v297, main_v298, main_v299, main_v300, main_cst_82, main_cst_83]
theorem writes32 : List.Forall₂ (fun (op : HloOp τ sig (Elt F)) (y : Ref sig .tc) => op.writes = {Proc.devRef .tc y}) hostOps0_32 W32 := by
  (repeat (refine List.Forall₂.cons rfl ?_)); exact List.Forall₂.nil
/-- The references stretch 33 writes, in order. -/
noncomputable def W33 : List (Ref sig .tc) :=
  [main_call16_v0, main_call16_v1, main_call16_v2, main_call16_v3, main_call16_v4, main_v301]
theorem writes33 : List.Forall₂ (fun (op : HloOp τ sig (Elt F)) (y : Ref sig .tc) => op.writes = {Proc.devRef .tc y}) hostOps0_33 W33 := by
  (repeat (refine List.Forall₂.cons rfl ?_)); exact List.Forall₂.nil
/-- The references stretch 34 writes, in order. -/
noncomputable def W34 : List (Ref sig .tc) :=
  [main_v302, main_v303, main_v304, main_v305, main_v306, main_v307, main_v308, main_v309, main_v310, main_v311, main_v312, main_v313, main_v314, main_v315, main_v316, main_v317, main_v318, main_v319, main_v320, main_v321, main_v322, main_v323, main_v324, main_v325, main_v326, main_v327, main_v328, main_v329, main_v330, main_v331, main_v332, main_v333, main_v334, main_v335, main_v336, main_v337, main_v338, main_v339, main_v340, main_v341, main_v342, main_v343, main_v344, main_v345, main_v346, main_v347, main_v348, main_v349, main_v350, main_v351, main_v352, main_v353, main_v354, main_v355, main_v356, main_v357, main_v358, main_v359, main_c_84]
theorem writes34 : List.Forall₂ (fun (op : HloOp τ sig (Elt F)) (y : Ref sig .tc) => op.writes = {Proc.devRef .tc y}) hostOps0_34 W34 := by
  (repeat (refine List.Forall₂.cons rfl ?_)); exact List.Forall₂.nil
/-- The references stretch 35 writes, in order. -/
noncomputable def W35 : List (Ref sig .tc) :=
  [main_call17_v0, main_v360]
theorem writes35 : List.Forall₂ (fun (op : HloOp τ sig (Elt F)) (y : Ref sig .tc) => op.writes = {Proc.devRef .tc y}) hostOps0_35 W35 := by
  (repeat (refine List.Forall₂.cons rfl ?_)); exact List.Forall₂.nil
/-- The references stretch 36 writes, in order. -/
noncomputable def W36 : List (Ref sig .tc) :=
  [main_c_85]
theorem writes36 : List.Forall₂ (fun (op : HloOp τ sig (Elt F)) (y : Ref sig .tc) => op.writes = {Proc.devRef .tc y}) hostOps0_36 W36 := by
  (repeat (refine List.Forall₂.cons rfl ?_)); exact List.Forall₂.nil
/-- The references stretch 37 writes, in order. -/
noncomputable def W37 : List (Ref sig .tc) :=
  [main_call18_v0, main_v361]
theorem writes37 : List.Forall₂ (fun (op : HloOp τ sig (Elt F)) (y : Ref sig .tc) => op.writes = {Proc.devRef .tc y}) hostOps0_37 W37 := by
  (repeat (refine List.Forall₂.cons rfl ?_)); exact List.Forall₂.nil
/-- The references stretch 38 writes, in order. -/
noncomputable def W38 : List (Ref sig .tc) :=
  [main_c_86]
theorem writes38 : List.Forall₂ (fun (op : HloOp τ sig (Elt F)) (y : Ref sig .tc) => op.writes = {Proc.devRef .tc y}) hostOps0_38 W38 := by
  (repeat (refine List.Forall₂.cons rfl ?_)); exact List.Forall₂.nil
/-- The references stretch 39 writes, in order. -/
noncomputable def W39 : List (Ref sig .tc) :=
  [main_call19_v0, main_v362]
theorem writes39 : List.Forall₂ (fun (op : HloOp τ sig (Elt F)) (y : Ref sig .tc) => op.writes = {Proc.devRef .tc y}) hostOps0_39 W39 := by
  (repeat (refine List.Forall₂.cons rfl ?_)); exact List.Forall₂.nil
/-- The references stretch 40 writes, in order. -/
noncomputable def W40 : List (Ref sig .tc) :=
  [main_c_87]
theorem writes40 : List.Forall₂ (fun (op : HloOp τ sig (Elt F)) (y : Ref sig .tc) => op.writes = {Proc.devRef .tc y}) hostOps0_40 W40 := by
  (repeat (refine List.Forall₂.cons rfl ?_)); exact List.Forall₂.nil
/-- The references stretch 41 writes, in order. -/
noncomputable def W41 : List (Ref sig .tc) :=
  [main_call20_v0, main_v363]
theorem writes41 : List.Forall₂ (fun (op : HloOp τ sig (Elt F)) (y : Ref sig .tc) => op.writes = {Proc.devRef .tc y}) hostOps0_41 W41 := by
  (repeat (refine List.Forall₂.cons rfl ?_)); exact List.Forall₂.nil
/-- The references stretch 42 writes, in order. -/
noncomputable def W42 : List (Ref sig .tc) :=
  [main_c_88]
theorem writes42 : List.Forall₂ (fun (op : HloOp τ sig (Elt F)) (y : Ref sig .tc) => op.writes = {Proc.devRef .tc y}) hostOps0_42 W42 := by
  (repeat (refine List.Forall₂.cons rfl ?_)); exact List.Forall₂.nil
/-- The references stretch 43 writes, in order. -/
noncomputable def W43 : List (Ref sig .tc) :=
  [main_call21_v0, main_v364]
theorem writes43 : List.Forall₂ (fun (op : HloOp τ sig (Elt F)) (y : Ref sig .tc) => op.writes = {Proc.devRef .tc y}) hostOps0_43 W43 := by
  (repeat (refine List.Forall₂.cons rfl ?_)); exact List.Forall₂.nil
/-- The references stretch 44 writes, in order. -/
noncomputable def W44 : List (Ref sig .tc) :=
  [main_c_89]
theorem writes44 : List.Forall₂ (fun (op : HloOp τ sig (Elt F)) (y : Ref sig .tc) => op.writes = {Proc.devRef .tc y}) hostOps0_44 W44 := by
  (repeat (refine List.Forall₂.cons rfl ?_)); exact List.Forall₂.nil
/-- The references stretch 45 writes, in order. -/
noncomputable def W45 : List (Ref sig .tc) :=
  [main_call22_v0, main_v365]
theorem writes45 : List.Forall₂ (fun (op : HloOp τ sig (Elt F)) (y : Ref sig .tc) => op.writes = {Proc.devRef .tc y}) hostOps0_45 W45 := by
  (repeat (refine List.Forall₂.cons rfl ?_)); exact List.Forall₂.nil
/-- The references stretch 46 writes, in order. -/
noncomputable def W46 : List (Ref sig .tc) :=
  [main_c_90]
theorem writes46 : List.Forall₂ (fun (op : HloOp τ sig (Elt F)) (y : Ref sig .tc) => op.writes = {Proc.devRef .tc y}) hostOps0_46 W46 := by
  (repeat (refine List.Forall₂.cons rfl ?_)); exact List.Forall₂.nil
/-- The references stretch 47 writes, in order. -/
noncomputable def W47 : List (Ref sig .tc) :=
  [main_call23_v0, main_v366]
theorem writes47 : List.Forall₂ (fun (op : HloOp τ sig (Elt F)) (y : Ref sig .tc) => op.writes = {Proc.devRef .tc y}) hostOps0_47 W47 := by
  (repeat (refine List.Forall₂.cons rfl ?_)); exact List.Forall₂.nil
/-- The references stretch 48 writes, in order. -/
noncomputable def W48 : List (Ref sig .tc) :=
  [main_cst_91]
theorem writes48 : List.Forall₂ (fun (op : HloOp τ sig (Elt F)) (y : Ref sig .tc) => op.writes = {Proc.devRef .tc y}) hostOps0_48 W48 := by
  (repeat (refine List.Forall₂.cons rfl ?_)); exact List.Forall₂.nil
/-- The references stretch 49 writes, in order. -/
noncomputable def W49 : List (Ref sig .tc) :=
  [main_call24_v0, main_v367]
theorem writes49 : List.Forall₂ (fun (op : HloOp τ sig (Elt F)) (y : Ref sig .tc) => op.writes = {Proc.devRef .tc y}) hostOps0_49 W49 := by
  (repeat (refine List.Forall₂.cons rfl ?_)); exact List.Forall₂.nil
/-- The references stretch 50 writes, in order. -/
noncomputable def W50 : List (Ref sig .tc) :=
  [main_cst_92]
theorem writes50 : List.Forall₂ (fun (op : HloOp τ sig (Elt F)) (y : Ref sig .tc) => op.writes = {Proc.devRef .tc y}) hostOps0_50 W50 := by
  (repeat (refine List.Forall₂.cons rfl ?_)); exact List.Forall₂.nil
/-- The references stretch 51 writes, in order. -/
noncomputable def W51 : List (Ref sig .tc) :=
  [main_call25_v0, main_v368]
theorem writes51 : List.Forall₂ (fun (op : HloOp τ sig (Elt F)) (y : Ref sig .tc) => op.writes = {Proc.devRef .tc y}) hostOps0_51 W51 := by
  (repeat (refine List.Forall₂.cons rfl ?_)); exact List.Forall₂.nil
/-- The references stretch 52 writes, in order. -/
noncomputable def W52 : List (Ref sig .tc) :=
  [main_cst_93]
theorem writes52 : List.Forall₂ (fun (op : HloOp τ sig (Elt F)) (y : Ref sig .tc) => op.writes = {Proc.devRef .tc y}) hostOps0_52 W52 := by
  (repeat (refine List.Forall₂.cons rfl ?_)); exact List.Forall₂.nil
/-- The references stretch 53 writes, in order. -/
noncomputable def W53 : List (Ref sig .tc) :=
  [main_call26_v0, main_v369]
theorem writes53 : List.Forall₂ (fun (op : HloOp τ sig (Elt F)) (y : Ref sig .tc) => op.writes = {Proc.devRef .tc y}) hostOps0_53 W53 := by
  (repeat (refine List.Forall₂.cons rfl ?_)); exact List.Forall₂.nil
/-- The references stretch 54 writes, in order. -/
noncomputable def W54 : List (Ref sig .tc) :=
  [main_cst_94]
theorem writes54 : List.Forall₂ (fun (op : HloOp τ sig (Elt F)) (y : Ref sig .tc) => op.writes = {Proc.devRef .tc y}) hostOps0_54 W54 := by
  (repeat (refine List.Forall₂.cons rfl ?_)); exact List.Forall₂.nil
/-- The references stretch 55 writes, in order. -/
noncomputable def W55 : List (Ref sig .tc) :=
  [main_call27_v0, main_v370]
theorem writes55 : List.Forall₂ (fun (op : HloOp τ sig (Elt F)) (y : Ref sig .tc) => op.writes = {Proc.devRef .tc y}) hostOps0_55 W55 := by
  (repeat (refine List.Forall₂.cons rfl ?_)); exact List.Forall₂.nil
/-- The references stretch 56 writes, in order. -/
noncomputable def W56 : List (Ref sig .tc) :=
  [main_cst_95]
theorem writes56 : List.Forall₂ (fun (op : HloOp τ sig (Elt F)) (y : Ref sig .tc) => op.writes = {Proc.devRef .tc y}) hostOps0_56 W56 := by
  (repeat (refine List.Forall₂.cons rfl ?_)); exact List.Forall₂.nil
/-- The references stretch 57 writes, in order. -/
noncomputable def W57 : List (Ref sig .tc) :=
  [main_call28_v0, main_v371]
theorem writes57 : List.Forall₂ (fun (op : HloOp τ sig (Elt F)) (y : Ref sig .tc) => op.writes = {Proc.devRef .tc y}) hostOps0_57 W57 := by
  (repeat (refine List.Forall₂.cons rfl ?_)); exact List.Forall₂.nil
/-- The references stretch 58 writes, in order. -/
noncomputable def W58 : List (Ref sig .tc) :=
  [main_cst_96]
theorem writes58 : List.Forall₂ (fun (op : HloOp τ sig (Elt F)) (y : Ref sig .tc) => op.writes = {Proc.devRef .tc y}) hostOps0_58 W58 := by
  (repeat (refine List.Forall₂.cons rfl ?_)); exact List.Forall₂.nil
/-- The references stretch 59 writes, in order. -/
noncomputable def W59 : List (Ref sig .tc) :=
  [main_call29_v0, main_v372]
theorem writes59 : List.Forall₂ (fun (op : HloOp τ sig (Elt F)) (y : Ref sig .tc) => op.writes = {Proc.devRef .tc y}) hostOps0_59 W59 := by
  (repeat (refine List.Forall₂.cons rfl ?_)); exact List.Forall₂.nil
/-- The references stretch 60 writes, in order. -/
noncomputable def W60 : List (Ref sig .tc) :=
  [main_cst_97]
theorem writes60 : List.Forall₂ (fun (op : HloOp τ sig (Elt F)) (y : Ref sig .tc) => op.writes = {Proc.devRef .tc y}) hostOps0_60 W60 := by
  (repeat (refine List.Forall₂.cons rfl ?_)); exact List.Forall₂.nil
/-- The references stretch 61 writes, in order. -/
noncomputable def W61 : List (Ref sig .tc) :=
  [main_call30_v0, main_v373]
theorem writes61 : List.Forall₂ (fun (op : HloOp τ sig (Elt F)) (y : Ref sig .tc) => op.writes = {Proc.devRef .tc y}) hostOps0_61 W61 := by
  (repeat (refine List.Forall₂.cons rfl ?_)); exact List.Forall₂.nil
/-- The references stretch 62 writes, in order. -/
noncomputable def W62 : List (Ref sig .tc) :=
  [main_cst_98]
theorem writes62 : List.Forall₂ (fun (op : HloOp τ sig (Elt F)) (y : Ref sig .tc) => op.writes = {Proc.devRef .tc y}) hostOps0_62 W62 := by
  (repeat (refine List.Forall₂.cons rfl ?_)); exact List.Forall₂.nil
/-- The references stretch 63 writes, in order. -/
noncomputable def W63 : List (Ref sig .tc) :=
  [main_call31_v0, main_v374]
theorem writes63 : List.Forall₂ (fun (op : HloOp τ sig (Elt F)) (y : Ref sig .tc) => op.writes = {Proc.devRef .tc y}) hostOps0_63 W63 := by
  (repeat (refine List.Forall₂.cons rfl ?_)); exact List.Forall₂.nil
/-- The references stretch 64 writes, in order. -/
noncomputable def W64 : List (Ref sig .tc) :=
  [main_v375, main_v376, main_v377, main_v378, main_v379, main_v380, main_v381, main_v382, main_v383, main_c_99, main_v384, main_v385, main_c_100, main_v386, main_v387, main_v388, main_c_101, main_v389, main_v390, main_c_102, main_v391, main_v392, main_v393, main_c_103, main_v394, main_v395, main_c_104, main_v396, main_v397, main_v398, main_c_105, main_v399, main_v400, main_c_106, main_v401, main_v402, main_v403, main_v404, main_v405, main_v406, main_v407, main_v408, main_v409, main_c_107, main_v410, main_v411, main_c_108, main_v412, main_v413, main_v414, main_c_109, main_v415, main_v416, main_c_110, main_v417, main_v418, main_v419, main_c_111, main_v420, main_v421, main_c_112, main_v422, main_v423, main_v424, main_c_113, main_v425, main_v426, main_c_114, main_v427, main_v428, main_v429, main_v430, main_v431, main_v432, main_v433, main_v434, main_v435, main_c_115, main_v436, main_v437, main_c_116, main_v438, main_v439, main_v440, main_c_117, main_v441, main_v442, main_c_118, main_v443, main_v444, main_v445, main_c_119, main_v446, main_v447, main_c_120, main_v448, main_v449, main_v450, main_c_121, main_v451, main_v452, main_c_122, main_v453, main_v454, main_v455, main_v456, main_v457, main_v458, main_v459, main_v460, main_v461, main_c_123, main_v462, main_v463, main_c_124, main_v464, main_v465, main_v466, main_c_125, main_v467, main_v468, main_c_126, main_v469, main_v470, main_v471, main_c_127, main_v472, main_v473, main_c_128, main_v474, main_v475, main_v476, main_c_129, main_v477, main_v478, main_c_130, main_v479, main_v480, main_v481, main_v482, main_v483, main_v484, main_v485, main_v486, main_v487, main_c_131, main_v488, main_v489, main_c_132, main_v490, main_v491, main_v492, main_c_133, main_v493, main_v494, main_c_134, main_v495, main_v496, main_v497, main_c_135, main_v498, main_v499, main_c_136, main_v500, main_v501, main_v502, main_c_137, main_v503, main_v504, main_c_138, main_v505, main_v506, main_v507, main_v508, main_v509, main_v510, main_v511, main_v512, main_v513, main_c_139, main_v514, main_v515, main_c_140, main_v516, main_v517, main_v518, main_c_141, main_v519, main_v520, main_c_142, main_v521, main_v522, main_v523, main_c_143, main_v524, main_v525, main_c_144, main_v526, main_v527, main_v528, main_c_145, main_v529, main_v530, main_c_146, main_v531, main_v532, main_v533, main_v534, main_v535, main_v536, main_v537, main_v538, main_v539, main_c_147, main_v540, main_v541, main_c_148, main_v542, main_v543, main_v544, main_c_149, main_v545, main_v546, main_c_150, main_v547, main_v548, main_v549, main_c_151, main_v550, main_v551, main_c_152, main_v552, main_v553, main_v554, main_c_153, main_v555, main_v556, main_c_154, main_v557, main_v558, main_v559, main_v560, main_v561, main_v562, main_v563, main_v564, main_v565, main_c_155, main_v566, main_v567, main_c_156, main_v568, main_v569, main_v570, main_c_157, main_v571, main_v572, main_c_158, main_v573, main_v574, main_v575, main_c_159, main_v576, main_v577, main_c_160, main_v578, main_v579, main_v580, main_c_161, main_v581, main_v582, main_c_162, main_v583, main_v584, main_v585, main_v586, main_v587, main_v588, main_v589, main_v590, main_v591, main_v592, main_v593, main_v594, main_cst_163, main_cst_164]
theorem writes64 : List.Forall₂ (fun (op : HloOp τ sig (Elt F)) (y : Ref sig .tc) => op.writes = {Proc.devRef .tc y}) hostOps0_64 W64 := by
  (repeat (refine List.Forall₂.cons rfl ?_)); exact List.Forall₂.nil
/-- The references stretch 65 writes, in order. -/
noncomputable def W65 : List (Ref sig .tc) :=
  [main_call32_v0, main_call32_v1, main_call32_v2, main_call32_v3, main_call32_v4, main_v595]
theorem writes65 : List.Forall₂ (fun (op : HloOp τ sig (Elt F)) (y : Ref sig .tc) => op.writes = {Proc.devRef .tc y}) hostOps0_65 W65 := by
  (repeat (refine List.Forall₂.cons rfl ?_)); exact List.Forall₂.nil
/-- The references stretch 66 writes, in order. -/
noncomputable def W66 : List (Ref sig .tc) :=
  [main_v596, main_v597, main_v598, main_v599, main_v600, main_v601, main_v602, main_v603, main_v604, main_v605, main_v606, main_v607, main_v608, main_v609, main_v610, main_v611, main_v612, main_v613, main_v614, main_v615, main_v616, main_v617, main_v618, main_v619, main_v620, main_v621, main_v622, main_v623, main_v624, main_v625, main_v626, main_v627, main_v628, main_v629, main_v630, main_v631, main_v632, main_v633, main_v634, main_v635, main_v636, main_v637, main_v638, main_v639, main_v640, main_v641, main_v642, main_v643, main_v644, main_v645, main_v646, main_v647, main_v648, main_v649, main_v650, main_v651, main_v652, main_v653, main_c_165]
theorem writes66 : List.Forall₂ (fun (op : HloOp τ sig (Elt F)) (y : Ref sig .tc) => op.writes = {Proc.devRef .tc y}) hostOps0_66 W66 := by
  (repeat (refine List.Forall₂.cons rfl ?_)); exact List.Forall₂.nil
/-- The references stretch 67 writes, in order. -/
noncomputable def W67 : List (Ref sig .tc) :=
  [main_call33_v0, main_v654]
theorem writes67 : List.Forall₂ (fun (op : HloOp τ sig (Elt F)) (y : Ref sig .tc) => op.writes = {Proc.devRef .tc y}) hostOps0_67 W67 := by
  (repeat (refine List.Forall₂.cons rfl ?_)); exact List.Forall₂.nil
/-- The references stretch 68 writes, in order. -/
noncomputable def W68 : List (Ref sig .tc) :=
  [main_c_166]
theorem writes68 : List.Forall₂ (fun (op : HloOp τ sig (Elt F)) (y : Ref sig .tc) => op.writes = {Proc.devRef .tc y}) hostOps0_68 W68 := by
  (repeat (refine List.Forall₂.cons rfl ?_)); exact List.Forall₂.nil
/-- The references stretch 69 writes, in order. -/
noncomputable def W69 : List (Ref sig .tc) :=
  [main_call34_v0, main_v655]
theorem writes69 : List.Forall₂ (fun (op : HloOp τ sig (Elt F)) (y : Ref sig .tc) => op.writes = {Proc.devRef .tc y}) hostOps0_69 W69 := by
  (repeat (refine List.Forall₂.cons rfl ?_)); exact List.Forall₂.nil
/-- The references stretch 70 writes, in order. -/
noncomputable def W70 : List (Ref sig .tc) :=
  [main_c_167]
theorem writes70 : List.Forall₂ (fun (op : HloOp τ sig (Elt F)) (y : Ref sig .tc) => op.writes = {Proc.devRef .tc y}) hostOps0_70 W70 := by
  (repeat (refine List.Forall₂.cons rfl ?_)); exact List.Forall₂.nil
/-- The references stretch 71 writes, in order. -/
noncomputable def W71 : List (Ref sig .tc) :=
  [main_call35_v0, main_v656]
theorem writes71 : List.Forall₂ (fun (op : HloOp τ sig (Elt F)) (y : Ref sig .tc) => op.writes = {Proc.devRef .tc y}) hostOps0_71 W71 := by
  (repeat (refine List.Forall₂.cons rfl ?_)); exact List.Forall₂.nil
/-- The references stretch 72 writes, in order. -/
noncomputable def W72 : List (Ref sig .tc) :=
  [main_c_168]
theorem writes72 : List.Forall₂ (fun (op : HloOp τ sig (Elt F)) (y : Ref sig .tc) => op.writes = {Proc.devRef .tc y}) hostOps0_72 W72 := by
  (repeat (refine List.Forall₂.cons rfl ?_)); exact List.Forall₂.nil
/-- The references stretch 73 writes, in order. -/
noncomputable def W73 : List (Ref sig .tc) :=
  [main_call36_v0, main_v657]
theorem writes73 : List.Forall₂ (fun (op : HloOp τ sig (Elt F)) (y : Ref sig .tc) => op.writes = {Proc.devRef .tc y}) hostOps0_73 W73 := by
  (repeat (refine List.Forall₂.cons rfl ?_)); exact List.Forall₂.nil
/-- The references stretch 74 writes, in order. -/
noncomputable def W74 : List (Ref sig .tc) :=
  [main_c_169]
theorem writes74 : List.Forall₂ (fun (op : HloOp τ sig (Elt F)) (y : Ref sig .tc) => op.writes = {Proc.devRef .tc y}) hostOps0_74 W74 := by
  (repeat (refine List.Forall₂.cons rfl ?_)); exact List.Forall₂.nil
/-- The references stretch 75 writes, in order. -/
noncomputable def W75 : List (Ref sig .tc) :=
  [main_call37_v0, main_v658]
theorem writes75 : List.Forall₂ (fun (op : HloOp τ sig (Elt F)) (y : Ref sig .tc) => op.writes = {Proc.devRef .tc y}) hostOps0_75 W75 := by
  (repeat (refine List.Forall₂.cons rfl ?_)); exact List.Forall₂.nil
/-- The references stretch 76 writes, in order. -/
noncomputable def W76 : List (Ref sig .tc) :=
  [main_c_170]
theorem writes76 : List.Forall₂ (fun (op : HloOp τ sig (Elt F)) (y : Ref sig .tc) => op.writes = {Proc.devRef .tc y}) hostOps0_76 W76 := by
  (repeat (refine List.Forall₂.cons rfl ?_)); exact List.Forall₂.nil
/-- The references stretch 77 writes, in order. -/
noncomputable def W77 : List (Ref sig .tc) :=
  [main_call38_v0, main_v659]
theorem writes77 : List.Forall₂ (fun (op : HloOp τ sig (Elt F)) (y : Ref sig .tc) => op.writes = {Proc.devRef .tc y}) hostOps0_77 W77 := by
  (repeat (refine List.Forall₂.cons rfl ?_)); exact List.Forall₂.nil
/-- The references stretch 78 writes, in order. -/
noncomputable def W78 : List (Ref sig .tc) :=
  [main_c_171]
theorem writes78 : List.Forall₂ (fun (op : HloOp τ sig (Elt F)) (y : Ref sig .tc) => op.writes = {Proc.devRef .tc y}) hostOps0_78 W78 := by
  (repeat (refine List.Forall₂.cons rfl ?_)); exact List.Forall₂.nil
/-- The references stretch 79 writes, in order. -/
noncomputable def W79 : List (Ref sig .tc) :=
  [main_call39_v0, main_v660]
theorem writes79 : List.Forall₂ (fun (op : HloOp τ sig (Elt F)) (y : Ref sig .tc) => op.writes = {Proc.devRef .tc y}) hostOps0_79 W79 := by
  (repeat (refine List.Forall₂.cons rfl ?_)); exact List.Forall₂.nil
/-- The references stretch 80 writes, in order. -/
noncomputable def W80 : List (Ref sig .tc) :=
  [main_cst_172]
theorem writes80 : List.Forall₂ (fun (op : HloOp τ sig (Elt F)) (y : Ref sig .tc) => op.writes = {Proc.devRef .tc y}) hostOps0_80 W80 := by
  (repeat (refine List.Forall₂.cons rfl ?_)); exact List.Forall₂.nil
/-- The references stretch 81 writes, in order. -/
noncomputable def W81 : List (Ref sig .tc) :=
  [main_call40_v0, main_v661]
theorem writes81 : List.Forall₂ (fun (op : HloOp τ sig (Elt F)) (y : Ref sig .tc) => op.writes = {Proc.devRef .tc y}) hostOps0_81 W81 := by
  (repeat (refine List.Forall₂.cons rfl ?_)); exact List.Forall₂.nil
/-- The references stretch 82 writes, in order. -/
noncomputable def W82 : List (Ref sig .tc) :=
  [main_cst_173]
theorem writes82 : List.Forall₂ (fun (op : HloOp τ sig (Elt F)) (y : Ref sig .tc) => op.writes = {Proc.devRef .tc y}) hostOps0_82 W82 := by
  (repeat (refine List.Forall₂.cons rfl ?_)); exact List.Forall₂.nil
/-- The references stretch 83 writes, in order. -/
noncomputable def W83 : List (Ref sig .tc) :=
  [main_call41_v0, main_v662]
theorem writes83 : List.Forall₂ (fun (op : HloOp τ sig (Elt F)) (y : Ref sig .tc) => op.writes = {Proc.devRef .tc y}) hostOps0_83 W83 := by
  (repeat (refine List.Forall₂.cons rfl ?_)); exact List.Forall₂.nil
/-- The references stretch 84 writes, in order. -/
noncomputable def W84 : List (Ref sig .tc) :=
  [main_cst_174]
theorem writes84 : List.Forall₂ (fun (op : HloOp τ sig (Elt F)) (y : Ref sig .tc) => op.writes = {Proc.devRef .tc y}) hostOps0_84 W84 := by
  (repeat (refine List.Forall₂.cons rfl ?_)); exact List.Forall₂.nil
/-- The references stretch 85 writes, in order. -/
noncomputable def W85 : List (Ref sig .tc) :=
  [main_call42_v0, main_v663]
theorem writes85 : List.Forall₂ (fun (op : HloOp τ sig (Elt F)) (y : Ref sig .tc) => op.writes = {Proc.devRef .tc y}) hostOps0_85 W85 := by
  (repeat (refine List.Forall₂.cons rfl ?_)); exact List.Forall₂.nil
/-- The references stretch 86 writes, in order. -/
noncomputable def W86 : List (Ref sig .tc) :=
  [main_cst_175]
theorem writes86 : List.Forall₂ (fun (op : HloOp τ sig (Elt F)) (y : Ref sig .tc) => op.writes = {Proc.devRef .tc y}) hostOps0_86 W86 := by
  (repeat (refine List.Forall₂.cons rfl ?_)); exact List.Forall₂.nil
/-- The references stretch 87 writes, in order. -/
noncomputable def W87 : List (Ref sig .tc) :=
  [main_call43_v0, main_v664]
theorem writes87 : List.Forall₂ (fun (op : HloOp τ sig (Elt F)) (y : Ref sig .tc) => op.writes = {Proc.devRef .tc y}) hostOps0_87 W87 := by
  (repeat (refine List.Forall₂.cons rfl ?_)); exact List.Forall₂.nil
/-- The references stretch 88 writes, in order. -/
noncomputable def W88 : List (Ref sig .tc) :=
  [main_cst_176]
theorem writes88 : List.Forall₂ (fun (op : HloOp τ sig (Elt F)) (y : Ref sig .tc) => op.writes = {Proc.devRef .tc y}) hostOps0_88 W88 := by
  (repeat (refine List.Forall₂.cons rfl ?_)); exact List.Forall₂.nil
/-- The references stretch 89 writes, in order. -/
noncomputable def W89 : List (Ref sig .tc) :=
  [main_call44_v0, main_v665]
theorem writes89 : List.Forall₂ (fun (op : HloOp τ sig (Elt F)) (y : Ref sig .tc) => op.writes = {Proc.devRef .tc y}) hostOps0_89 W89 := by
  (repeat (refine List.Forall₂.cons rfl ?_)); exact List.Forall₂.nil
/-- The references stretch 90 writes, in order. -/
noncomputable def W90 : List (Ref sig .tc) :=
  [main_cst_177]
theorem writes90 : List.Forall₂ (fun (op : HloOp τ sig (Elt F)) (y : Ref sig .tc) => op.writes = {Proc.devRef .tc y}) hostOps0_90 W90 := by
  (repeat (refine List.Forall₂.cons rfl ?_)); exact List.Forall₂.nil
/-- The references stretch 91 writes, in order. -/
noncomputable def W91 : List (Ref sig .tc) :=
  [main_call45_v0, main_v666]
theorem writes91 : List.Forall₂ (fun (op : HloOp τ sig (Elt F)) (y : Ref sig .tc) => op.writes = {Proc.devRef .tc y}) hostOps0_91 W91 := by
  (repeat (refine List.Forall₂.cons rfl ?_)); exact List.Forall₂.nil
/-- The references stretch 92 writes, in order. -/
noncomputable def W92 : List (Ref sig .tc) :=
  [main_cst_178]
theorem writes92 : List.Forall₂ (fun (op : HloOp τ sig (Elt F)) (y : Ref sig .tc) => op.writes = {Proc.devRef .tc y}) hostOps0_92 W92 := by
  (repeat (refine List.Forall₂.cons rfl ?_)); exact List.Forall₂.nil
/-- The references stretch 93 writes, in order. -/
noncomputable def W93 : List (Ref sig .tc) :=
  [main_call46_v0, main_v667]
theorem writes93 : List.Forall₂ (fun (op : HloOp τ sig (Elt F)) (y : Ref sig .tc) => op.writes = {Proc.devRef .tc y}) hostOps0_93 W93 := by
  (repeat (refine List.Forall₂.cons rfl ?_)); exact List.Forall₂.nil
/-- The references stretch 94 writes, in order. -/
noncomputable def W94 : List (Ref sig .tc) :=
  [main_cst_179]
theorem writes94 : List.Forall₂ (fun (op : HloOp τ sig (Elt F)) (y : Ref sig .tc) => op.writes = {Proc.devRef .tc y}) hostOps0_94 W94 := by
  (repeat (refine List.Forall₂.cons rfl ?_)); exact List.Forall₂.nil
/-- The references stretch 95 writes, in order. -/
noncomputable def W95 : List (Ref sig .tc) :=
  [main_call47_v0, main_v668]
theorem writes95 : List.Forall₂ (fun (op : HloOp τ sig (Elt F)) (y : Ref sig .tc) => op.writes = {Proc.devRef .tc y}) hostOps0_95 W95 := by
  (repeat (refine List.Forall₂.cons rfl ?_)); exact List.Forall₂.nil
/-- The references stretch 96 writes, in order. -/
noncomputable def W96 : List (Ref sig .tc) :=
  [main_v669, main_v670, main_v671, main_v672, main_v673, main_v674, main_v675, main_v676, main_v677, main_c_180, main_v678, main_v679, main_c_181, main_v680, main_v681, main_v682, main_c_182, main_v683, main_v684, main_c_183, main_v685, main_v686, main_v687, main_c_184, main_v688, main_v689, main_c_185, main_v690, main_v691, main_v692, main_c_186, main_v693, main_v694, main_c_187, main_v695, main_v696, main_v697, main_v698, main_v699, main_v700, main_v701, main_v702, main_v703, main_c_188, main_v704, main_v705, main_c_189, main_v706, main_v707, main_v708, main_c_190, main_v709, main_v710, main_c_191, main_v711, main_v712, main_v713, main_c_192, main_v714, main_v715, main_c_193, main_v716, main_v717, main_v718, main_c_194, main_v719, main_v720, main_c_195, main_v721, main_v722, main_v723, main_v724, main_v725, main_v726, main_v727, main_v728, main_v729, main_c_196, main_v730, main_v731, main_c_197, main_v732, main_v733, main_v734, main_c_198, main_v735, main_v736, main_c_199, main_v737, main_v738, main_v739, main_c_200, main_v740, main_v741, main_c_201, main_v742, main_v743, main_v744, main_c_202, main_v745, main_v746, main_c_203, main_v747, main_v748, main_v749, main_v750, main_v751, main_v752, main_v753, main_v754, main_v755, main_c_204, main_v756, main_v757, main_c_205, main_v758, main_v759, main_v760, main_c_206, main_v761, main_v762, main_c_207, main_v763, main_v764, main_v765, main_c_208, main_v766, main_v767, main_c_209, main_v768, main_v769, main_v770, main_c_210, main_v771, main_v772, main_c_211, main_v773, main_v774, main_v775, main_v776, main_v777, main_v778, main_v779, main_v780, main_v781, main_c_212, main_v782, main_v783, main_c_213, main_v784, main_v785, main_v786, main_c_214, main_v787, main_v788, main_c_215, main_v789, main_v790, main_v791, main_c_216, main_v792, main_v793, main_c_217, main_v794, main_v795, main_v796, main_c_218, main_v797, main_v798, main_c_219, main_v799, main_v800, main_v801, main_v802, main_v803, main_v804, main_v805, main_v806, main_v807, main_c_220, main_v808, main_v809, main_c_221, main_v810, main_v811, main_v812, main_c_222, main_v813, main_v814, main_c_223, main_v815, main_v816, main_v817, main_c_224, main_v818, main_v819, main_c_225, main_v820, main_v821, main_v822, main_c_226, main_v823, main_v824, main_c_227, main_v825, main_v826, main_v827, main_v828, main_v829, main_v830, main_v831, main_v832, main_v833, main_c_228, main_v834, main_v835, main_c_229, main_v836, main_v837, main_v838, main_c_230, main_v839, main_v840, main_c_231, main_v841, main_v842, main_v843, main_c_232, main_v844, main_v845, main_c_233, main_v846, main_v847, main_v848, main_c_234, main_v849, main_v850, main_c_235, main_v851, main_v852, main_v853, main_v854, main_v855, main_v856, main_v857, main_v858, main_v859, main_c_236, main_v860, main_v861, main_c_237, main_v862, main_v863, main_v864, main_c_238, main_v865, main_v866, main_c_239, main_v867, main_v868, main_v869, main_c_240, main_v870, main_v871, main_c_241, main_v872, main_v873, main_v874, main_c_242, main_v875, main_v876, main_c_243, main_v877, main_v878, main_v879, main_v880, main_v881, main_v882, main_v883, main_v884, main_v885]
theorem writes96 : List.Forall₂ (fun (op : HloOp τ sig (Elt F)) (y : Ref sig .tc) => op.writes = {Proc.devRef .tc y}) hostOps0_96 W96 := by
  (repeat (refine List.Forall₂.cons rfl ?_)); exact List.Forall₂.nil

/-- The stretches, in program order. -/
abbrev stretchTable : List (List (HloOp τ sig (Elt F))) :=
  [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, hostOps0_22, hostOps0_23, hostOps0_24, hostOps0_25, hostOps0_26, hostOps0_27, hostOps0_28, hostOps0_29, hostOps0_30, hostOps0_31, hostOps0_32, hostOps0_33, hostOps0_34, hostOps0_35, hostOps0_36, hostOps0_37, hostOps0_38, hostOps0_39, hostOps0_40, hostOps0_41, hostOps0_42, hostOps0_43, hostOps0_44, hostOps0_45, hostOps0_46, hostOps0_47, hostOps0_48, hostOps0_49, hostOps0_50, hostOps0_51, hostOps0_52, hostOps0_53, hostOps0_54, hostOps0_55, hostOps0_56, hostOps0_57, hostOps0_58, hostOps0_59, hostOps0_60, hostOps0_61, hostOps0_62, hostOps0_63, hostOps0_64, hostOps0_65, hostOps0_66, hostOps0_67, hostOps0_68, hostOps0_69, hostOps0_70, hostOps0_71, hostOps0_72, hostOps0_73, hostOps0_74, hostOps0_75, hostOps0_76, hostOps0_77, hostOps0_78, hostOps0_79, hostOps0_80, hostOps0_81, hostOps0_82, hostOps0_83, hostOps0_84, hostOps0_85, hostOps0_86, hostOps0_87, hostOps0_88, hostOps0_89, hostOps0_90, hostOps0_91, hostOps0_92, hostOps0_93, hostOps0_94, hostOps0_95, hostOps0_96]
/-- Row k: the references stretch k writes. -/
noncomputable def Wtable : List (List (Ref sig .tc)) :=
  [W0, W1, W2, W3, W4, W5, W6, W7, W8, W9, W10, W11, W12, W13, W14, W15, W16, W17, W18, W19, W20, W21, W22, W23, W24, W25, W26, W27, W28, W29, W30, W31, W32, W33, W34, W35, W36, W37, W38, W39, W40, W41, W42, W43, W44, W45, W46, W47, W48, W49, W50, W51, W52, W53, W54, W55, W56, W57, W58, W59, W60, W61, W62, W63, W64, W65, W66, W67, W68, W69, W70, W71, W72, W73, W74, W75, W76, W77, W78, W79, W80, W81, W82, W83, W84, W85, W86, W87, W88, W89, W90, W91, W92, W93, W94, W95, W96]
/-- Stretch by stretch, every operation writes inside its row. -/
theorem writesTable : List.Forall₂ WritesIn (stretchTable (F := F)) Wtable :=
  .cons (writesIn_of_forall₂ writes0) <| .cons (writesIn_of_forall₂ writes1) <| .cons (writesIn_of_forall₂ writes2) <| .cons (writesIn_of_forall₂ writes3) <| .cons (writesIn_of_forall₂ writes4) <| .cons (writesIn_of_forall₂ writes5) <| .cons (writesIn_of_forall₂ writes6) <| .cons (writesIn_of_forall₂ writes7) <| .cons (writesIn_of_forall₂ writes8) <| .cons (writesIn_of_forall₂ writes9) <| .cons (writesIn_of_forall₂ writes10) <| .cons (writesIn_of_forall₂ writes11) <| .cons (writesIn_of_forall₂ writes12) <| .cons (writesIn_of_forall₂ writes13) <| .cons (writesIn_of_forall₂ writes14) <| .cons (writesIn_of_forall₂ writes15) <| .cons (writesIn_of_forall₂ writes16) <| .cons (writesIn_of_forall₂ writes17) <| .cons (writesIn_of_forall₂ writes18) <| .cons (writesIn_of_forall₂ writes19) <| .cons (writesIn_of_forall₂ writes20) <| .cons (writesIn_of_forall₂ writes21) <| .cons (writesIn_of_forall₂ writes22) <| .cons (writesIn_of_forall₂ writes23) <| .cons (writesIn_of_forall₂ writes24) <| .cons (writesIn_of_forall₂ writes25) <| .cons (writesIn_of_forall₂ writes26) <| .cons (writesIn_of_forall₂ writes27) <| .cons (writesIn_of_forall₂ writes28) <| .cons (writesIn_of_forall₂ writes29) <| .cons (writesIn_of_forall₂ writes30) <| .cons (writesIn_of_forall₂ writes31) <| .cons (writesIn_of_forall₂ writes32) <| .cons (writesIn_of_forall₂ writes33) <| .cons (writesIn_of_forall₂ writes34) <| .cons (writesIn_of_forall₂ writes35) <| .cons (writesIn_of_forall₂ writes36) <| .cons (writesIn_of_forall₂ writes37) <| .cons (writesIn_of_forall₂ writes38) <| .cons (writesIn_of_forall₂ writes39) <| .cons (writesIn_of_forall₂ writes40) <| .cons (writesIn_of_forall₂ writes41) <| .cons (writesIn_of_forall₂ writes42) <| .cons (writesIn_of_forall₂ writes43) <| .cons (writesIn_of_forall₂ writes44) <| .cons (writesIn_of_forall₂ writes45) <| .cons (writesIn_of_forall₂ writes46) <| .cons (writesIn_of_forall₂ writes47) <| .cons (writesIn_of_forall₂ writes48) <| .cons (writesIn_of_forall₂ writes49) <| .cons (writesIn_of_forall₂ writes50) <| .cons (writesIn_of_forall₂ writes51) <| .cons (writesIn_of_forall₂ writes52) <| .cons (writesIn_of_forall₂ writes53) <| .cons (writesIn_of_forall₂ writes54) <| .cons (writesIn_of_forall₂ writes55) <| .cons (writesIn_of_forall₂ writes56) <| .cons (writesIn_of_forall₂ writes57) <| .cons (writesIn_of_forall₂ writes58) <| .cons (writesIn_of_forall₂ writes59) <| .cons (writesIn_of_forall₂ writes60) <| .cons (writesIn_of_forall₂ writes61) <| .cons (writesIn_of_forall₂ writes62) <| .cons (writesIn_of_forall₂ writes63) <| .cons (writesIn_of_forall₂ writes64) <| .cons (writesIn_of_forall₂ writes65) <| .cons (writesIn_of_forall₂ writes66) <| .cons (writesIn_of_forall₂ writes67) <| .cons (writesIn_of_forall₂ writes68) <| .cons (writesIn_of_forall₂ writes69) <| .cons (writesIn_of_forall₂ writes70) <| .cons (writesIn_of_forall₂ writes71) <| .cons (writesIn_of_forall₂ writes72) <| .cons (writesIn_of_forall₂ writes73) <| .cons (writesIn_of_forall₂ writes74) <| .cons (writesIn_of_forall₂ writes75) <| .cons (writesIn_of_forall₂ writes76) <| .cons (writesIn_of_forall₂ writes77) <| .cons (writesIn_of_forall₂ writes78) <| .cons (writesIn_of_forall₂ writes79) <| .cons (writesIn_of_forall₂ writes80) <| .cons (writesIn_of_forall₂ writes81) <| .cons (writesIn_of_forall₂ writes82) <| .cons (writesIn_of_forall₂ writes83) <| .cons (writesIn_of_forall₂ writes84) <| .cons (writesIn_of_forall₂ writes85) <| .cons (writesIn_of_forall₂ writes86) <| .cons (writesIn_of_forall₂ writes87) <| .cons (writesIn_of_forall₂ writes88) <| .cons (writesIn_of_forall₂ writes89) <| .cons (writesIn_of_forall₂ writes90) <| .cons (writesIn_of_forall₂ writes91) <| .cons (writesIn_of_forall₂ writes92) <| .cons (writesIn_of_forall₂ writes93) <| .cons (writesIn_of_forall₂ writes94) <| .cons (writesIn_of_forall₂ writes95) <| .cons (writesIn_of_forall₂ writes96) <| .nil

end Cert.KernelIdeal.Hand
-- ==== Proof.KI.Peel.lean ====
/- Reading one array out of the contents the arrays hold when the region is entered.

   Those contents are the launch memory after the ninety-seven stretches of host operations, in order. The program is in
   single-assignment form: every operation writes one array of its own, so an array is written by exactly one stretch.
   Hence an array that no stretch from the k-th on writes holds at region entry what it held before stretch k, and an
   array that no stretch after the k-th writes holds what stretch k alone, run from the contents before it, left there.
   The second reads an array out of the one stretch that computes it, as a term over the arrays that stretch reads;
   the first, read from right to left, turns each of those back into the array's contents at region entry. The lists of
   references each stretch writes are the table module's; the two facts are the general ones about a line of operations
   cut into stretches, at this program's stretches and launch memory. Everything is at any float model F. -/
import proofs.«414534_j76854144795318_3_alg».proof.Proof.KI.Host
import proofs.«414534_j76854144795318_3_alg».proof.Proof.KI.PeelTable
import Idealize.ShloMosaic.Lib.StableHlo.Run
import Idealize.ShloMosaic.Lib.Pipeline.Frame

set_option maxRecDepth 16384

noncomputable section

namespace Cert.KernelIdeal.Hand

open Cert.KernelIdeal Cert.KernelIdeal.Gen Cert.PeelLib
open Idealize.ShloMosaic Idealize.ShloMosaic.StableHlo

variable {F : FTy → Type} [FloatOps F]

variable (m : (ℓ : Loc nD τ sig) → Buf (Elt F) ℓ)

/-- The buffer contents before stretch k: the launch memory after the stretches 0, …, k-1. -/
def U (k : Nat) (c : Dev nD) : Valuation τ sig (Elt F) :=
  StableHlo.after ((stretches (F := F)).take k).flatten (fun b => m (c, b))

theorem U_def (k : Nat) (c : Dev nD) :
    U m k c = StableHlo.after ((stretches (F := F)).take k).flatten (fun b => m (c, b)) := rfl

/-- Before the first stretch the buffers hold the launch memory. -/
theorem U_zero (c : Dev nD) : U m 0 c = fun b => m (c, b) := rfl

/-- The references stretch k writes, in order ([] for k ≥ 97). -/
def W (k : Nat) : List (Ref sig .tc) := Wtable.getD k []

/-- The references the stretches k, k+1, …, 96 write. -/
def Wfrom (k : Nat) : List (Ref sig .tc) := (Wtable.drop k).flatten

theorem Wfrom_eq (k : Nat) : Wfrom k = W k ++ Wfrom (k + 1) := flatten_drop_eq Wtable k

/-- The stretches are the table's. -/
theorem stretches_eq : stretches (F := F) = stretchTable := rfl

/-- The stretches from the k-th on write inside Wfrom k. -/
theorem writesFrom (k : Nat) : WritesIn ((stretches (F := F)).drop k).flatten (Wfrom k) :=
  writesIn_drop_of_table writesTable k

/-- A reference that no stretch from the k-th on writes holds at region entry what it held before stretch k. -/
theorem V_eq_U (k : Nat) (c : Dev nD) (r : Ref sig .tc) (hr : r ∉ Wfrom k) :
    V m c r = U m k c (Proc.devRef .tc r) :=
  after_eq_before (stretches (F := F)) (fun b => m (c, b)) Wfrom writesFrom k r hr

/-- The same, read from right to left at any spelling of the buffer: what a reference written before stretch k holds
    before stretch k is what it holds at region entry. -/
theorem U_eq_V (k : Nat) (c : Dev nD) (r : Ref sig .tc) (hr : r ∉ Wfrom k) :
    U m k c (no_index (Proc.devRef .tc r)) = V m c r :=
  (V_eq_U m k c r hr).symm

/-- A reference that no stretch after the k-th writes holds at region entry what stretch k, run from the contents
    before it, left there. `L` is the k-th stretch: `hL` is `rfl` at a numeral k. -/
theorem V_eq_stretch (k : Nat) (L : List (HloOp τ sig (Elt F))) (hL : (stretches (F := F))[k]? = some L) (c : Dev nD)
    (r : Ref sig .tc) (hr : r ∉ Wfrom (k + 1)) :
    V m c r = StableHlo.after L (U m k c) (Proc.devRef .tc r) :=
  after_eq_stretch (stretches (F := F)) (fun b => m (c, b)) Wfrom writesFrom k L hL r hr

end Cert.KernelIdeal.Hand
-- ==== Proof.LibNary.lean ====
/-
  Operations over a literal family of references, read after the operation.

  An operation with several operands of differing types is stated over a family of references, and its function takes the family
  of the operands' contents. For a family written out as a literal list of three, four or eight references, the
  contents the operation leaves at its result are its function of the operands' contents, each read at its own reference.
  The function of the contents is kept folded (nary3Fn, nary4Fn, nary8Fn): each operand's contents then stand as an
  argument at that operand's own type, where a rewriting pass can go on reading them; unfolded, the function is the
  operation's own function applied to the family that holds the given contents in order.
-/
import Idealize.ShloMosaic.Lib.StableHlo.Run

noncomputable section

namespace Cert.LibNary

open Idealize.ShloMosaic Idealize.ShloMosaic.StableHlo

variable {τ : Topo} {sig : RefSig} {Val : EltTy → Type}

section Three
variable {x0 x1 x2 y : Ref sig .tc}

/-- A function of a family of three contents, applied to the three contents in order. -/
def nary3Fn (f : ((k : Fin 3) → ((![x0, x1, x2] : Fin 3 → Ref sig .tc) k).ty.Contents Val) → y.ty.Contents Val)
    (v0 : x0.ty.Contents Val) (v1 : x1.ty.Contents Val) (v2 : x2.ty.Contents Val) : y.ty.Contents Val :=
  f (Fin.cons v0 (Fin.cons v1 (Fin.cons v2 (fun i => i.elim0))))

/-- An operation over the literal family of three references leaves at its result its function of the three
    operands' contents, each read at its own reference. -/
theorem nary3_result'
    (f : ((k : Fin 3) → ((![x0, x1, x2] : Fin 3 → Ref sig .tc) k).ty.Contents Val) → y.ty.Contents Val) (hxs hy)
    (F : Valuation τ sig Val) :
    (nary (τ := τ) ![x0, x1, x2] y f hxs hy).result F (no_index (Proc.devRef .tc y))
      = nary3Fn f (F (Proc.devRef .tc x0)) (F (Proc.devRef .tc x1)) (F (Proc.devRef .tc x2)) := by
  rw [nary_result]; unfold nary3Fn; congr 1; funext k; fin_cases k <;> rfl

end Three

section Four
variable {x0 x1 x2 x3 y : Ref sig .tc}

/-- A function of a family of four contents, applied to the four contents in order. -/
def nary4Fn (f : ((k : Fin 4) → ((![x0, x1, x2, x3] : Fin 4 → Ref sig .tc) k).ty.Contents Val) → y.ty.Contents Val)
    (v0 : x0.ty.Contents Val) (v1 : x1.ty.Contents Val) (v2 : x2.ty.Contents Val) (v3 : x3.ty.Contents Val) :
    y.ty.Contents Val :=
  f (Fin.cons v0 (Fin.cons v1 (Fin.cons v2 (Fin.cons v3 (fun i => i.elim0)))))

/-- An operation over the literal family of four references leaves at its result its function of the four
    operands' contents, each read at its own reference. -/
theorem nary4_result'
    (f : ((k : Fin 4) → ((![x0, x1, x2, x3] : Fin 4 → Ref sig .tc) k).ty.Contents Val) → y.ty.Contents Val) (hxs hy)
    (F : Valuation τ sig Val) :
    (nary (τ := τ) ![x0, x1, x2, x3] y f hxs hy).result F (no_index (Proc.devRef .tc y))
      = nary4Fn f (F (Proc.devRef .tc x0)) (F (Proc.devRef .tc x1)) (F (Proc.devRef .tc x2)) (F (Proc.devRef .tc x3)) := by
  rw [nary_result]; unfold nary4Fn; congr 1; funext k; fin_cases k <;> rfl

end Four

section Eight
variable {x0 x1 x2 x3 x4 x5 x6 x7 y : Ref sig .tc}

/-- A function of a family of eight contents, applied to the eight contents in order. -/
def nary8Fn
    (f : ((k : Fin 8) → ((![x0, x1, x2, x3, x4, x5, x6, x7] : Fin 8 → Ref sig .tc) k).ty.Contents Val) → y.ty.Contents Val)
    (v0 : x0.ty.Contents Val) (v1 : x1.ty.Contents Val) (v2 : x2.ty.Contents Val) (v3 : x3.ty.Contents Val)
    (v4 : x4.ty.Contents Val) (v5 : x5.ty.Contents Val) (v6 : x6.ty.Contents Val) (v7 : x7.ty.Contents Val) :
    y.ty.Contents Val :=
  f (Fin.cons v0 (Fin.cons v1 (Fin.cons v2 (Fin.cons v3 (Fin.cons v4 (Fin.cons v5 (Fin.cons v6 (Fin.cons v7
    (fun i => i.elim0)))))))))

/-- An operation over the literal family of eight references leaves at its result its function of the eight
    operands' contents, each read at its own reference. -/
theorem nary8_result'
    (f : ((k : Fin 8) → ((![x0, x1, x2, x3, x4, x5, x6, x7] : Fin 8 → Ref sig .tc) k).ty.Contents Val) → y.ty.Contents Val)
    (hxs hy) (F : Valuation τ sig Val) :
    (nary (τ := τ) ![x0, x1, x2, x3, x4, x5, x6, x7] y f hxs hy).result F (no_index (Proc.devRef .tc y))
      = nary8Fn f (F (Proc.devRef .tc x0)) (F (Proc.devRef .tc x1)) (F (Proc.devRef .tc x2)) (F (Proc.devRef .tc x3))
          (F (Proc.devRef .tc x4)) (F (Proc.devRef .tc x5)) (F (Proc.devRef .tc x6)) (F (Proc.devRef .tc x7)) := by
  rw [nary_result]; unfold nary8Fn; congr 1; funext k; fin_cases k <;> rfl

end Eight

end Cert.LibNary

/-- The contents a straight line of operations leaves at a reference, by one rewriting pass that reads through the
    operations over literal families of three, four and eight references. -/
macro "after_results_nary" : tactic =>
  `(tactic| (simp (disch := decide) only [Idealize.ShloMosaic.StableHlo.after_cons, Idealize.ShloMosaic.StableHlo.after_nil,
      Idealize.ShloMosaic.StableHlo.nullary_result', Idealize.ShloMosaic.StableHlo.unary_result',
      Idealize.ShloMosaic.StableHlo.binary_result', Idealize.ShloMosaic.StableHlo.ternary_result',
      Idealize.ShloMosaic.StableHlo.quaternary_result', Idealize.ShloMosaic.StableHlo.reshape_result',
      Cert.LibNary.nary3_result', Cert.LibNary.nary4_result', Cert.LibNary.nary8_result',
      Idealize.ShloMosaic.StableHlo.unaryIndexed_result', Idealize.ShloMosaic.StableHlo.binaryIndexed_result',
      Idealize.ShloMosaic.StableHlo.nullary_result_ne', Idealize.ShloMosaic.StableHlo.unary_result_ne',
      Idealize.ShloMosaic.StableHlo.binary_result_ne', Idealize.ShloMosaic.StableHlo.ternary_result_ne',
      Idealize.ShloMosaic.StableHlo.quaternary_result_ne', Idealize.ShloMosaic.StableHlo.reshape_result_ne',
      Idealize.ShloMosaic.StableHlo.nary_result_ne', Idealize.ShloMosaic.StableHlo.unaryIndexed_result_ne',
      Idealize.ShloMosaic.StableHlo.binaryIndexed_result_ne']))

end
-- ==== Proof.KI.Prefix1Reads.lean ====
/- Level 1 of the sampling: what each array of the first level holds when the region is entered, as the level's pure
   functions applied to arrays computed earlier.

   Every equation reads one array out of the one stretch of host operations that computes it: the stretch's operations
   are composed into one term over the arrays the stretch reads, and each of those is, by single assignment, the array's
   contents at region entry. For the long stretch that holds the eight corner reads only the window of operations that
   computes the array is composed; the arrays the window reads were all written before the stretch. The composed term
   is the right-hand side's function unfolded, so once the arrays it reads are named the two sides agree by
   computation. -/
import proofs.«414534_j76854144795318_3_alg».proof.Proof.KI.Prefix1Defs
import proofs.«414534_j76854144795318_3_alg».proof.Proof.KI.Peel
import proofs.«414534_j76854144795318_3_alg».proof.Proof.LibNary

set_option maxRecDepth 16384

noncomputable section

namespace Cert.KernelIdeal.Val1

open Cert.KernelIdeal Cert.KernelIdeal.Gen Cert.KernelIdeal.Hand Idealize.ShloMosaic Idealize.ShloMosaic.ValueIdx

variable (m : (ℓ : Loc nD τ sig) → Buf (Elt Ideal) ℓ)

/-- After a stretch has been cut out: compose its operations into one term, turn every array the stretch reads back into
    the array's contents at region entry, and drop the identity transports and identity maps of the inlined functions. -/
local macro "compose" : tactic =>
  `(tactic| (after_results_nary
             try simp (disch := decide) only [U_eq_V, StableHlo.TRef.ofBuf, StableHlo.TRef.toBuf, cast_eq, id_eq]))

/-! ## Stretch 0: the scaled coordinates, the batch numbers, the two clamp bounds -/

set_option maxHeartbeats 400000 in
theorem E6 (c : Dev nD) : V m c main_v6 = scaled 0x42800000#32 (V m c main_arg5) := by
  rewrite [V_eq_stretch m 0 hostOps0 rfl c main_v6 (by decide)]
  compose
  generalize V m c main_arg5 = co
  rfl

set_option maxHeartbeats 400000 in
theorem E3 (c : Dev nD) : V m c main_v3 = batchIds := by
  rewrite [V_eq_stretch m 0 hostOps0 rfl c main_v3 (by decide)]
  after_results_nary
  rfl

set_option maxHeartbeats 400000 in
theorem Elo (c : Dev nD) : V m c main_cst_2 = constant (F := Ideal) S_ .f32 0x3C23D70A#32 := by
  rewrite [V_eq_stretch m 0 hostOps0 rfl c main_cst_2 (by decide)]
  after_results_nary

set_option maxHeartbeats 400000 in
theorem Ehi (c : Dev nD) : V m c main_cst_3 = constant (F := Ideal) S_ .f32 0x427BF5C3#32 := by
  rewrite [V_eq_stretch m 0 hostOps0 rfl c main_cst_3 (by decide)]
  after_results_nary

/-! ## Stretch 1: the clamp -/

set_option maxHeartbeats 400000 in
theorem E7 (c : Dev nD) : V m c main_v7 = clampv (V m c main_cst_2) (V m c main_cst_3) (V m c main_v6) := by
  rewrite [V_eq_stretch m 1 hostOps0_1 rfl c main_v7 (by decide)]
  compose
  generalize V m c main_cst_2 = lo
  generalize V m c main_cst_3 = hi
  generalize V m c main_v6 = u
  rfl

/-! ## Stretch 2: floors and ceilings as integers -/

set_option maxHeartbeats 400000 in
theorem E26 (c : Dev nD) : V m c main_v26 = ilo 0 slices_S200000x3_S200000x1_0_0 (V m c main_v7) := by
  rewrite [V_eq_stretch m 2 hostOps0_2 rfl c main_v26 (by decide)]
  compose
  generalize V m c main_v7 = u
  rfl

set_option maxHeartbeats 400000 in
theorem E27 (c : Dev nD) : V m c main_v27 = ihi 0 slices_S200000x3_S200000x1_0_0 (V m c main_v7) := by
  rewrite [V_eq_stretch m 2 hostOps0_2 rfl c main_v27 (by decide)]
  compose
  generalize V m c main_v7 = u
  rfl

set_option maxHeartbeats 400000 in
theorem E28 (c : Dev nD) : V m c main_v28 = ilo 1 slices_S200000x3_S200000x1_0_1 (V m c main_v7) := by
  rewrite [V_eq_stretch m 2 hostOps0_2 rfl c main_v28 (by decide)]
  compose
  generalize V m c main_v7 = u
  rfl

set_option maxHeartbeats 400000 in
theorem E29 (c : Dev nD) : V m c main_v29 = ihi 1 slices_S200000x3_S200000x1_0_1 (V m c main_v7) := by
  rewrite [V_eq_stretch m 2 hostOps0_2 rfl c main_v29 (by decide)]
  compose
  generalize V m c main_v7 = u
  rfl

set_option maxHeartbeats 400000 in
theorem E30 (c : Dev nD) : V m c main_v30 = ilo 2 slices_S200000x3_S200000x1_0_2 (V m c main_v7) := by
  rewrite [V_eq_stretch m 2 hostOps0_2 rfl c main_v30 (by decide)]
  compose
  generalize V m c main_v7 = u
  rfl

set_option maxHeartbeats 400000 in
theorem E31 (c : Dev nD) : V m c main_v31 = ihi 2 slices_S200000x3_S200000x1_0_2 (V m c main_v7) := by
  rewrite [V_eq_stretch m 2 hostOps0_2 rfl c main_v31 (by decide)]
  compose
  generalize V m c main_v7 = u
  rfl

/-! ## Stretch 2: the eight products of three distances. The first factor is a distance along axis 2 (to the floor in the
    first four, to the ceiling in the last four), the second along axis 0, the third along axis 1. -/

set_option maxHeartbeats 400000 in
theorem E51 (c : Dev nD) : V m c main_v51 = prod3 (dlo 2 slices_S200000x3_S200000x1_0_2 (V m c main_v7))
    (dlo 0 slices_S200000x3_S200000x1_0_0 (V m c main_v7)) (dlo 1 slices_S200000x3_S200000x1_0_1 (V m c main_v7)) := by
  rewrite [V_eq_stretch m 2 hostOps0_2 rfl c main_v51 (by decide)]
  compose
  generalize V m c main_v7 = u
  rfl

set_option maxHeartbeats 400000 in
theorem E53 (c : Dev nD) : V m c main_v53 = prod3 (dlo 2 slices_S200000x3_S200000x1_0_2 (V m c main_v7))
    (dhi 0 slices_S200000x3_S200000x1_0_0 (V m c main_v7)) (dlo 1 slices_S200000x3_S200000x1_0_1 (V m c main_v7)) := by
  rewrite [V_eq_stretch m 2 hostOps0_2 rfl c main_v53 (by decide)]
  compose
  generalize V m c main_v7 = u
  rfl

set_option maxHeartbeats 400000 in
theorem E55 (c : Dev nD) : V m c main_v55 = prod3 (dlo 2 slices_S200000x3_S200000x1_0_2 (V m c main_v7))
    (dlo 0 slices_S200000x3_S200000x1_0_0 (V m c main_v7)) (dhi 1 slices_S200000x3_S200000x1_0_1 (V m c main_v7)) := by
  rewrite [V_eq_stretch m 2 hostOps0_2 rfl c main_v55 (by decide)]
  compose
  generalize V m c main_v7 = u
  rfl

set_option maxHeartbeats 400000 in
theorem E57 (c : Dev nD) : V m c main_v57 = prod3 (dlo 2 slices_S200000x3_S200000x1_0_2 (V m c main_v7))
    (dhi 0 slices_S200000x3_S200000x1_0_0 (V m c main_v7)) (dhi 1 slices_S200000x3_S200000x1_0_1 (V m c main_v7)) := by
  rewrite [V_eq_stretch m 2 hostOps0_2 rfl c main_v57 (by decide)]
  compose
  generalize V m c main_v7 = u
  rfl

set_option maxHeartbeats 400000 in
theorem E59 (c : Dev nD) : V m c main_v59 = prod3 (dhi 2 slices_S200000x3_S200000x1_0_2 (V m c main_v7))
    (dlo 0 slices_S200000x3_S200000x1_0_0 (V m c main_v7)) (dlo 1 slices_S200000x3_S200000x1_0_1 (V m c main_v7)) := by
  rewrite [V_eq_stretch m 2 hostOps0_2 rfl c main_v59 (by decide)]
  compose
  generalize V m c main_v7 = u
  rfl

set_option maxHeartbeats 400000 in
theorem E61 (c : Dev nD) : V m c main_v61 = prod3 (dhi 2 slices_S200000x3_S200000x1_0_2 (V m c main_v7))
    (dhi 0 slices_S200000x3_S200000x1_0_0 (V m c main_v7)) (dlo 1 slices_S200000x3_S200000x1_0_1 (V m c main_v7)) := by
  rewrite [V_eq_stretch m 2 hostOps0_2 rfl c main_v61 (by decide)]
  compose
  generalize V m c main_v7 = u
  rfl

set_option maxHeartbeats 400000 in
theorem E63 (c : Dev nD) : V m c main_v63 = prod3 (dhi 2 slices_S200000x3_S200000x1_0_2 (V m c main_v7))
    (dlo 0 slices_S200000x3_S200000x1_0_0 (V m c main_v7)) (dhi 1 slices_S200000x3_S200000x1_0_1 (V m c main_v7)) := by
  rewrite [V_eq_stretch m 2 hostOps0_2 rfl c main_v63 (by decide)]
  compose
  generalize V m c main_v7 = u
  rfl

set_option maxHeartbeats 400000 in
theorem E65 (c : Dev nD) : V m c main_v65 = prod3 (dhi 2 slices_S200000x3_S200000x1_0_2 (V m c main_v7))
    (dhi 0 slices_S200000x3_S200000x1_0_0 (V m c main_v7)) (dhi 1 slices_S200000x3_S200000x1_0_1 (V m c main_v7)) := by
  rewrite [V_eq_stretch m 2 hostOps0_2 rfl c main_v65 (by decide)]
  compose
  generalize V m c main_v7 = u
  rfl

/-! ## The pads: the batch numbers, the six index vectors, the eight weight vectors, each with its padding scalar -/

set_option maxHeartbeats 400000 in
theorem E66 (c : Dev nD) : V m c main_v66 = padv (V m c main_v3) (V m c main_c) := by
  rewrite [V_eq_stretch m 3 hostOps0_3 rfl c main_v66 (by decide)]
  compose
  generalize V m c main_v3 = x
  generalize V m c main_c = v
  rfl

set_option maxHeartbeats 400000 in
theorem E67 (c : Dev nD) : V m c main_v67 = padv (V m c main_v26) (V m c main_c_4) := by
  rewrite [V_eq_stretch m 5 hostOps0_5 rfl c main_v67 (by decide)]
  compose
  generalize V m c main_v26 = x
  generalize V m c main_c_4 = v
  rfl

set_option maxHeartbeats 400000 in
theorem E68 (c : Dev nD) : V m c main_v68 = padv (V m c main_v27) (V m c main_c_5) := by
  rewrite [V_eq_stretch m 7 hostOps0_7 rfl c main_v68 (by decide)]
  compose
  generalize V m c main_v27 = x
  generalize V m c main_c_5 = v
  rfl

set_option maxHeartbeats 400000 in
theorem E69 (c : Dev nD) : V m c main_v69 = padv (V m c main_v28) (V m c main_c_6) := by
  rewrite [V_eq_stretch m 9 hostOps0_9 rfl c main_v69 (by decide)]
  compose
  generalize V m c main_v28 = x
  generalize V m c main_c_6 = v
  rfl

set_option maxHeartbeats 400000 in
theorem E70 (c : Dev nD) : V m c main_v70 = padv (V m c main_v29) (V m c main_c_7) := by
  rewrite [V_eq_stretch m 11 hostOps0_11 rfl c main_v70 (by decide)]
  compose
  generalize V m c main_v29 = x
  generalize V m c main_c_7 = v
  rfl

set_option maxHeartbeats 400000 in
theorem E71 (c : Dev nD) : V m c main_v71 = padv (V m c main_v30) (V m c main_c_8) := by
  rewrite [V_eq_stretch m 13 hostOps0_13 rfl c main_v71 (by decide)]
  compose
  generalize V m c main_v30 = x
  generalize V m c main_c_8 = v
  rfl

set_option maxHeartbeats 400000 in
theorem E72 (c : Dev nD) : V m c main_v72 = padv (V m c main_v31) (V m c main_c_9) := by
  rewrite [V_eq_stretch m 15 hostOps0_15 rfl c main_v72 (by decide)]
  compose
  generalize V m c main_v31 = x
  generalize V m c main_c_9 = v
  rfl

set_option maxHeartbeats 400000 in
theorem E73 (c : Dev nD) : V m c main_v73 = padv (V m c main_v51) (V m c main_cst_10) := by
  rewrite [V_eq_stretch m 17 hostOps0_17 rfl c main_v73 (by decide)]
  compose
  generalize V m c main_v51 = x
  generalize V m c main_cst_10 = v
  rfl

set_option maxHeartbeats 400000 in
theorem E74 (c : Dev nD) : V m c main_v74 = padv (V m c main_v53) (V m c main_cst_11) := by
  rewrite [V_eq_stretch m 19 hostOps0_19 rfl c main_v74 (by decide)]
  compose
  generalize V m c main_v53 = x
  generalize V m c main_cst_11 = v
  rfl

set_option maxHeartbeats 400000 in
theorem E75 (c : Dev nD) : V m c main_v75 = padv (V m c main_v55) (V m c main_cst_12) := by
  rewrite [V_eq_stretch m 21 hostOps0_21 rfl c main_v75 (by decide)]
  compose
  generalize V m c main_v55 = x
  generalize V m c main_cst_12 = v
  rfl

set_option maxHeartbeats 400000 in
theorem E76 (c : Dev nD) : V m c main_v76 = padv (V m c main_v57) (V m c main_cst_13) := by
  rewrite [V_eq_stretch m 23 hostOps0_23 rfl c main_v76 (by decide)]
  compose
  generalize V m c main_v57 = x
  generalize V m c main_cst_13 = v
  rfl

set_option maxHeartbeats 400000 in
theorem E77 (c : Dev nD) : V m c main_v77 = padv (V m c main_v59) (V m c main_cst_14) := by
  rewrite [V_eq_stretch m 25 hostOps0_25 rfl c main_v77 (by decide)]
  compose
  generalize V m c main_v59 = x
  generalize V m c main_cst_14 = v
  rfl

set_option maxHeartbeats 400000 in
theorem E78 (c : Dev nD) : V m c main_v78 = padv (V m c main_v61) (V m c main_cst_15) := by
  rewrite [V_eq_stretch m 27 hostOps0_27 rfl c main_v78 (by decide)]
  compose
  generalize V m c main_v61 = x
  generalize V m c main_cst_15 = v
  rfl

set_option maxHeartbeats 400000 in
theorem E79 (c : Dev nD) : V m c main_v79 = padv (V m c main_v63) (V m c main_cst_16) := by
  rewrite [V_eq_stretch m 29 hostOps0_29 rfl c main_v79 (by decide)]
  compose
  generalize V m c main_v63 = x
  generalize V m c main_cst_16 = v
  rfl

set_option maxHeartbeats 400000 in
theorem E80 (c : Dev nD) : V m c main_v80 = padv (V m c main_v65) (V m c main_cst_17) := by
  rewrite [V_eq_stretch m 31 hostOps0_31 rfl c main_v80 (by decide)]
  compose
  generalize V m c main_v65 = x
  generalize V m c main_cst_17 = v
  rfl

/-! ## Stretch 32: the stacked weights and the eight corner reads

Corner k is computed by the operations 9 + 34 k ≤ · < 43 + 34 k of the stretch: four times (two constants, two spreads,
a comparison, a sum, a choice), four columns, their side-by-side stack, the read. It reads the feature array, the padded
batch numbers, and one padded index vector per axis — floor or ceiling according to the corner. All five were written
before the stretch. -/

set_option maxHeartbeats 400000 in
theorem E89 (c : Dev nD) :
    V m c main_v89 = stack8 (V m c main_v73) (V m c main_v74) (V m c main_v75) (V m c main_v76) (V m c main_v77)
      (V m c main_v78) (V m c main_v79) (V m c main_v80) := by
  rewrite [V_eq_stretch m 32 hostOps0_32 rfl c main_v89 (by decide),
    after_window (writes32 (F := Ideal)) 0 9 (by decide) main_v89 (by decide)]
  simp only [hostOps0_32, List.take_succ_cons, List.drop_succ_cons, List.take_zero, List.drop_zero, StableHlo.after_nil]
  compose
  generalize V m c main_v73 = w0
  generalize V m c main_v74 = w1
  generalize V m c main_v75 = w2
  generalize V m c main_v76 = w3
  generalize V m c main_v77 = w4
  generalize V m c main_v78 = w5
  generalize V m c main_v79 = w6
  generalize V m c main_v80 = w7
  rfl

set_option maxHeartbeats 400000 in
theorem E115 (c : Dev nD) :
    V m c main_v115 = corner1 (V m c main_arg1) (V m c main_v66) (V m c main_v68) (V m c main_v70) (V m c main_v72) := by
  rewrite [V_eq_stretch m 32 hostOps0_32 rfl c main_v115 (by decide),
    after_window (writes32 (F := Ideal)) 9 43 (by decide) main_v115 (by decide)]
  have hA := after_head (writes32 (F := Ideal)) 9 main_arg1 (by decide) (U m 32 c)
  have hB := after_head (writes32 (F := Ideal)) 9 main_v66 (by decide) (U m 32 c)
  have hX := after_head (writes32 (F := Ideal)) 9 main_v68 (by decide) (U m 32 c)
  have hY := after_head (writes32 (F := Ideal)) 9 main_v70 (by decide) (U m 32 c)
  have hZ := after_head (writes32 (F := Ideal)) 9 main_v72 (by decide) (U m 32 c)
  generalize StableHlo.after (List.take 9 hostOps0_32) (U m 32 c) = F0 at hA hB hX hY hZ ⊢
  simp only [hostOps0_32, List.take_succ_cons, List.drop_succ_cons, List.take_zero, List.drop_zero]
  after_results_nary
  rewrite [hA, hB, hX, hY, hZ]
  simp (disch := decide) only [U_eq_V]
  generalize V m c main_arg1 = feat
  generalize V m c main_v66 = B
  generalize V m c main_v68 = X
  generalize V m c main_v70 = Y
  generalize V m c main_v72 = Z
  rfl

set_option maxHeartbeats 400000 in
theorem E141 (c : Dev nD) :
    V m c main_v141 = corner1 (V m c main_arg1) (V m c main_v66) (V m c main_v67) (V m c main_v70) (V m c main_v72) := by
  rewrite [V_eq_stretch m 32 hostOps0_32 rfl c main_v141 (by decide),
    after_window (writes32 (F := Ideal)) 43 77 (by decide) main_v141 (by decide)]
  have hA := after_head (writes32 (F := Ideal)) 43 main_arg1 (by decide) (U m 32 c)
  have hB := after_head (writes32 (F := Ideal)) 43 main_v66 (by decide) (U m 32 c)
  have hX := after_head (writes32 (F := Ideal)) 43 main_v67 (by decide) (U m 32 c)
  have hY := after_head (writes32 (F := Ideal)) 43 main_v70 (by decide) (U m 32 c)
  have hZ := after_head (writes32 (F := Ideal)) 43 main_v72 (by decide) (U m 32 c)
  generalize StableHlo.after (List.take 43 hostOps0_32) (U m 32 c) = F0 at hA hB hX hY hZ ⊢
  simp only [hostOps0_32, List.take_succ_cons, List.drop_succ_cons, List.take_zero, List.drop_zero]
  after_results_nary
  rewrite [hA, hB, hX, hY, hZ]
  simp (disch := decide) only [U_eq_V]
  generalize V m c main_arg1 = feat
  generalize V m c main_v66 = B
  generalize V m c main_v67 = X
  generalize V m c main_v70 = Y
  generalize V m c main_v72 = Z
  rfl

set_option maxHeartbeats 400000 in
theorem E167 (c : Dev nD) :
    V m c main_v167 = corner1 (V m c main_arg1) (V m c main_v66) (V m c main_v68) (V m c main_v69) (V m c main_v72) := by
  rewrite [V_eq_stretch m 32 hostOps0_32 rfl c main_v167 (by decide),
    after_window (writes32 (F := Ideal)) 77 111 (by decide) main_v167 (by decide)]
  have hA := after_head (writes32 (F := Ideal)) 77 main_arg1 (by decide) (U m 32 c)
  have hB := after_head (writes32 (F := Ideal)) 77 main_v66 (by decide) (U m 32 c)
  have hX := after_head (writes32 (F := Ideal)) 77 main_v68 (by decide) (U m 32 c)
  have hY := after_head (writes32 (F := Ideal)) 77 main_v69 (by decide) (U m 32 c)
  have hZ := after_head (writes32 (F := Ideal)) 77 main_v72 (by decide) (U m 32 c)
  generalize StableHlo.after (List.take 77 hostOps0_32) (U m 32 c) = F0 at hA hB hX hY hZ ⊢
  simp only [hostOps0_32, List.take_succ_cons, List.drop_succ_cons, List.take_zero, List.drop_zero]
  after_results_nary
  rewrite [hA, hB, hX, hY, hZ]
  simp (disch := decide) only [U_eq_V]
  generalize V m c main_arg1 = feat
  generalize V m c main_v66 = B
  generalize V m c main_v68 = X
  generalize V m c main_v69 = Y
  generalize V m c main_v72 = Z
  rfl

set_option maxHeartbeats 400000 in
theorem E193 (c : Dev nD) :
    V m c main_v193 = corner1 (V m c main_arg1) (V m c main_v66) (V m c main_v67) (V m c main_v69) (V m c main_v72) := by
  rewrite [V_eq_stretch m 32 hostOps0_32 rfl c main_v193 (by decide),
    after_window (writes32 (F := Ideal)) 111 145 (by decide) main_v193 (by decide)]
  have hA := after_head (writes32 (F := Ideal)) 111 main_arg1 (by decide) (U m 32 c)
  have hB := after_head (writes32 (F := Ideal)) 111 main_v66 (by decide) (U m 32 c)
  have hX := after_head (writes32 (F := Ideal)) 111 main_v67 (by decide) (U m 32 c)
  have hY := after_head (writes32 (F := Ideal)) 111 main_v69 (by decide) (U m 32 c)
  have hZ := after_head (writes32 (F := Ideal)) 111 main_v72 (by decide) (U m 32 c)
  generalize StableHlo.after (List.take 111 hostOps0_32) (U m 32 c) = F0 at hA hB hX hY hZ ⊢
  simp only [hostOps0_32, List.take_succ_cons, List.drop_succ_cons, List.take_zero, List.drop_zero]
  after_results_nary
  rewrite [hA, hB, hX, hY, hZ]
  simp (disch := decide) only [U_eq_V]
  generalize V m c main_arg1 = feat
  generalize V m c main_v66 = B
  generalize V m c main_v67 = X
  generalize V m c main_v69 = Y
  generalize V m c main_v72 = Z
  rfl

set_option maxHeartbeats 400000 in
theorem E219 (c : Dev nD) :
    V m c main_v219 = corner1 (V m c main_arg1) (V m c main_v66) (V m c main_v68) (V m c main_v70) (V m c main_v71) := by
  rewrite [V_eq_stretch m 32 hostOps0_32 rfl c main_v219 (by decide),
    after_window (writes32 (F := Ideal)) 145 179 (by decide) main_v219 (by decide)]
  have hA := after_head (writes32 (F := Ideal)) 145 main_arg1 (by decide) (U m 32 c)
  have hB := after_head (writes32 (F := Ideal)) 145 main_v66 (by decide) (U m 32 c)
  have hX := after_head (writes32 (F := Ideal)) 145 main_v68 (by decide) (U m 32 c)
  have hY := after_head (writes32 (F := Ideal)) 145 main_v70 (by decide) (U m 32 c)
  have hZ := after_head (writes32 (F := Ideal)) 145 main_v71 (by decide) (U m 32 c)
  generalize StableHlo.after (List.take 145 hostOps0_32) (U m 32 c) = F0 at hA hB hX hY hZ ⊢
  simp only [hostOps0_32, List.take_succ_cons, List.drop_succ_cons, List.take_zero, List.drop_zero]
  after_results_nary
  rewrite [hA, hB, hX, hY, hZ]
  simp (disch := decide) only [U_eq_V]
  generalize V m c main_arg1 = feat
  generalize V m c main_v66 = B
  generalize V m c main_v68 = X
  generalize V m c main_v70 = Y
  generalize V m c main_v71 = Z
  rfl

set_option maxHeartbeats 400000 in
theorem E245 (c : Dev nD) :
    V m c main_v245 = corner1 (V m c main_arg1) (V m c main_v66) (V m c main_v67) (V m c main_v70) (V m c main_v71) := by
  rewrite [V_eq_stretch m 32 hostOps0_32 rfl c main_v245 (by decide),
    after_window (writes32 (F := Ideal)) 179 213 (by decide) main_v245 (by decide)]
  have hA := after_head (writes32 (F := Ideal)) 179 main_arg1 (by decide) (U m 32 c)
  have hB := after_head (writes32 (F := Ideal)) 179 main_v66 (by decide) (U m 32 c)
  have hX := after_head (writes32 (F := Ideal)) 179 main_v67 (by decide) (U m 32 c)
  have hY := after_head (writes32 (F := Ideal)) 179 main_v70 (by decide) (U m 32 c)
  have hZ := after_head (writes32 (F := Ideal)) 179 main_v71 (by decide) (U m 32 c)
  generalize StableHlo.after (List.take 179 hostOps0_32) (U m 32 c) = F0 at hA hB hX hY hZ ⊢
  simp only [hostOps0_32, List.take_succ_cons, List.drop_succ_cons, List.take_zero, List.drop_zero]
  after_results_nary
  rewrite [hA, hB, hX, hY, hZ]
  simp (disch := decide) only [U_eq_V]
  generalize V m c main_arg1 = feat
  generalize V m c main_v66 = B
  generalize V m c main_v67 = X
  generalize V m c main_v70 = Y
  generalize V m c main_v71 = Z
  rfl

set_option maxHeartbeats 400000 in
theorem E271 (c : Dev nD) :
    V m c main_v271 = corner1 (V m c main_arg1) (V m c main_v66) (V m c main_v68) (V m c main_v69) (V m c main_v71) := by
  rewrite [V_eq_stretch m 32 hostOps0_32 rfl c main_v271 (by decide),
    after_window (writes32 (F := Ideal)) 213 247 (by decide) main_v271 (by decide)]
  have hA := after_head (writes32 (F := Ideal)) 213 main_arg1 (by decide) (U m 32 c)
  have hB := after_head (writes32 (F := Ideal)) 213 main_v66 (by decide) (U m 32 c)
  have hX := after_head (writes32 (F := Ideal)) 213 main_v68 (by decide) (U m 32 c)
  have hY := after_head (writes32 (F := Ideal)) 213 main_v69 (by decide) (U m 32 c)
  have hZ := after_head (writes32 (F := Ideal)) 213 main_v71 (by decide) (U m 32 c)
  generalize StableHlo.after (List.take 213 hostOps0_32) (U m 32 c) = F0 at hA hB hX hY hZ ⊢
  simp only [hostOps0_32, List.take_succ_cons, List.drop_succ_cons, List.take_zero, List.drop_zero]
  after_results_nary
  rewrite [hA, hB, hX, hY, hZ]
  simp (disch := decide) only [U_eq_V]
  generalize V m c main_arg1 = feat
  generalize V m c main_v66 = B
  generalize V m c main_v68 = X
  generalize V m c main_v69 = Y
  generalize V m c main_v71 = Z
  rfl

set_option maxHeartbeats 400000 in
theorem E297 (c : Dev nD) :
    V m c main_v297 = corner1 (V m c main_arg1) (V m c main_v66) (V m c main_v67) (V m c main_v69) (V m c main_v71) := by
  rewrite [V_eq_stretch m 32 hostOps0_32 rfl c main_v297 (by decide),
    after_window (writes32 (F := Ideal)) 247 281 (by decide) main_v297 (by decide)]
  have hA := after_head (writes32 (F := Ideal)) 247 main_arg1 (by decide) (U m 32 c)
  have hB := after_head (writes32 (F := Ideal)) 247 main_v66 (by decide) (U m 32 c)
  have hX := after_head (writes32 (F := Ideal)) 247 main_v67 (by decide) (U m 32 c)
  have hY := after_head (writes32 (F := Ideal)) 247 main_v69 (by decide) (U m 32 c)
  have hZ := after_head (writes32 (F := Ideal)) 247 main_v71 (by decide) (U m 32 c)
  generalize StableHlo.after (List.take 247 hostOps0_32) (U m 32 c) = F0 at hA hB hX hY hZ ⊢
  simp only [hostOps0_32, List.take_succ_cons, List.drop_succ_cons, List.take_zero, List.drop_zero]
  after_results_nary
  rewrite [hA, hB, hX, hY, hZ]
  simp (disch := decide) only [U_eq_V]
  generalize V m c main_arg1 = feat
  generalize V m c main_v66 = B
  generalize V m c main_v67 = X
  generalize V m c main_v69 = Y
  generalize V m c main_v71 = Z
  rfl

end Cert.KernelIdeal.Val1

end
-- ==== Proof.KI.Prefix1.lean ====
/-
  Level 1 of the sampling: what the weight matrix and the eight corner arrays hold, row by row, when the region is entered.

  Row r = b·100000 + n of the flattened point axis is point n of batch b. Its coordinates are scaled and clamped into [lo, hi];
  along each axis the floor and the ceiling of the clamped coordinate give the two lattice indices (converted to 32-bit
  integers) and the two distances. Below row 200000 the padding of the point axis changes nothing. So, at such a row:
  column i of the weight matrix is the i-th product of three distances, in the order and the association of the
  specification's `wgt`; and corner array k at channel ch is the feature array at batch b (the batch number is not negative
  and below 2, so wrapping and clamping give it back), at the three lattice indices of the specification's corner k — each
  wrapped once if negative and clamped into the axis —, channel ch: the specification's `crn`.

  Each array is read through the equation that states it as a function of earlier arrays (the module of per-array equations),
  and each function is read at a row by its lemma (the module of level-1 functions).
-/
import proofs.«414534_j76854144795318_3_alg».proof.Proof.KI.Prefix1Reads

set_option maxRecDepth 16384

noncomputable section

namespace Cert.KernelIdeal.Val1

open Cert.KernelIdeal Cert.KernelIdeal.Gen Cert.KernelIdeal.Hand Idealize.ShloMosaic Idealize.ShloMosaic.TcCoe Idealize.ShloMosaic.ValueIdx

/-! ## One row of the unpadded arrays -/

section Rows

variable (m : (ℓ : Loc nD τ sig) → Buf (Elt Ideal) ℓ)

/-- The coordinate argument and the level-1 feature argument, at their literal types. -/
abbrev coords (c : Dev nD) : S2x100000x3.Idx → EReal := m ((c : Thread nD τ).loc main_arg5)
abbrev feat1 (c : Dev nD) : S2x64x64x64x32.Idx → EReal := m ((c : Thread nD τ).loc main_arg1)

/-- The clamped scaled coordinate of point n of batch b along axis a. -/
abbrev ucl (c : Dev nD) (b : Fin 2) (n : Fin 100000) (a : Fin 3) : EReal :=
  Cert.Spec.uc Cert.Spec.s1 Cert.Spec.hi1 (coords m c (ix3 b n a))

variable (c : Dev nD) (b : Fin 2) (n : Fin 100000)

/-- Row b·100000 + n of the clamped matrix: the scaled coordinate, clamped from below by lo and from above by hi. -/
theorem u7_at (r' : Fin 200000) (hr : r'.val = b.val * 100000 + n.val) (a : Fin 3) :
    (V m c main_v7 : S200000x3.Idx → EReal) (ix2 r' a) = ucl m c b n a := by
  refine (congrFun (E7 m c) (ix2 r' a)).trans ((clampv_apply _ _ _ _).trans ?_)
  rewrite [congrFun (Ehi m c) _, congrFun (Elo m c) _, congrFun (E6 m c) (ix2 r' a), scaled_apply _ _ b n r' hr a,
    V_main_arg5 m c]
  rfl

/-- The floor index, the ceiling index and the two distances of the row along axis a (k is a as a natural number, the
    column the program slices). -/
theorem ilo_at (r' : Fin 200000) (hr : r'.val = b.val * 100000 + n.val) (k : Nat) (a : Fin 3) (hk : a.val = k)
    (h : S200000x3.Slices ![0, k] S200000x1) :
    ilo k h (V m c main_v7) (ix1 r') = Cert.Spec.cvt (Cert.Spec.fl (ucl m c b n a)) := by
  subst hk
  exact (ilo_apply a h _ r').trans (by rewrite [u7_at m c b n r' hr a]; rfl)
theorem ihi_at (r' : Fin 200000) (hr : r'.val = b.val * 100000 + n.val) (k : Nat) (a : Fin 3) (hk : a.val = k)
    (h : S200000x3.Slices ![0, k] S200000x1) :
    ihi k h (V m c main_v7) (ix1 r') = Cert.Spec.cvt (Cert.Spec.ce (ucl m c b n a)) := by
  subst hk
  exact (ihi_apply a h _ r').trans (by rewrite [u7_at m c b n r' hr a]; rfl)
theorem dlo_at (r' : Fin 200000) (hr : r'.val = b.val * 100000 + n.val) (k : Nat) (a : Fin 3) (hk : a.val = k)
    (h : S200000x3.Slices ![0, k] S200000x1) :
    dlo k h (V m c main_v7) (ix1 r') = ucl m c b n a - Cert.Spec.fl (ucl m c b n a) := by
  subst hk
  exact (dlo_apply a h _ r').trans (by rewrite [u7_at m c b n r' hr a]; rfl)
theorem dhi_at (r' : Fin 200000) (hr : r'.val = b.val * 100000 + n.val) (k : Nat) (a : Fin 3) (hk : a.val = k)
    (h : S200000x3.Slices ![0, k] S200000x1) :
    dhi k h (V m c main_v7) (ix1 r') = Cert.Spec.ce (ucl m c b n a) - ucl m c b n a := by
  subst hk
  exact (dhi_apply a h _ r').trans (by rewrite [u7_at m c b n r' hr a]; rfl)

end Rows

/-! ## The padded rows, the weight matrix and the eight corner reads -/

section Exports

/-- Point n of batch b as a row of the unpadded arrays. -/
abbrev row' (b : Fin 2) (n : Fin 100000) : Fin 200000 := ⟨b.val * 100000 + n.val, by have := b.isLt; have := n.isLt; omega⟩

variable (m : (ℓ : Loc nD τ sig) → Buf (Elt Ideal) ℓ) (c : Dev nD) (b : Fin 2) (n : Fin 100000)
  (r : Fin 200704) (hr : r.val = b.val * 100000 + n.val)
include hr

/-- The batch number of the row. -/
theorem v66_at : (V m c main_v66 : IVec S200704 32) (ix1 r) = BitVec.ofNat 32 b.val :=
  (congrFun (E66 m c) (ix1 r)).trans ((padv_apply _ _ r (row' b n) hr).trans
    ((congrFun (E3 m c) (ix1 (row' b n))).trans (batchIds_apply b n (row' b n) rfl)))

/-- The floor and the ceiling index of the row along x. -/
theorem v67_at : (V m c main_v67 : IVec S200704 32) (ix1 r) = Cert.Spec.cvt (Cert.Spec.fl (ucl m c b n 0)) :=
  (congrFun (E67 m c) (ix1 r)).trans ((padv_apply _ _ r (row' b n) hr).trans
    ((congrFun (E26 m c) (ix1 (row' b n))).trans (ilo_at m c b n (row' b n) rfl 0 0 rfl slices_S200000x3_S200000x1_0_0)))
theorem v68_at : (V m c main_v68 : IVec S200704 32) (ix1 r) = Cert.Spec.cvt (Cert.Spec.ce (ucl m c b n 0)) :=
  (congrFun (E68 m c) (ix1 r)).trans ((padv_apply _ _ r (row' b n) hr).trans
    ((congrFun (E27 m c) (ix1 (row' b n))).trans (ihi_at m c b n (row' b n) rfl 0 0 rfl slices_S200000x3_S200000x1_0_0)))
/-- The floor and the ceiling index of the row along y. -/
theorem v69_at : (V m c main_v69 : IVec S200704 32) (ix1 r) = Cert.Spec.cvt (Cert.Spec.fl (ucl m c b n 1)) :=
  (congrFun (E69 m c) (ix1 r)).trans ((padv_apply _ _ r (row' b n) hr).trans
    ((congrFun (E28 m c) (ix1 (row' b n))).trans (ilo_at m c b n (row' b n) rfl 1 1 rfl slices_S200000x3_S200000x1_0_1)))
theorem v70_at : (V m c main_v70 : IVec S200704 32) (ix1 r) = Cert.Spec.cvt (Cert.Spec.ce (ucl m c b n 1)) :=
  (congrFun (E70 m c) (ix1 r)).trans ((padv_apply _ _ r (row' b n) hr).trans
    ((congrFun (E29 m c) (ix1 (row' b n))).trans (ihi_at m c b n (row' b n) rfl 1 1 rfl slices_S200000x3_S200000x1_0_1)))
/-- The floor and the ceiling index of the row along z. -/
theorem v71_at : (V m c main_v71 : IVec S200704 32) (ix1 r) = Cert.Spec.cvt (Cert.Spec.fl (ucl m c b n 2)) :=
  (congrFun (E71 m c) (ix1 r)).trans ((padv_apply _ _ r (row' b n) hr).trans
    ((congrFun (E30 m c) (ix1 (row' b n))).trans (ilo_at m c b n (row' b n) rfl 2 2 rfl slices_S200000x3_S200000x1_0_2)))
theorem v72_at : (V m c main_v72 : IVec S200704 32) (ix1 r) = Cert.Spec.cvt (Cert.Spec.ce (ucl m c b n 2)) :=
  (congrFun (E72 m c) (ix1 r)).trans ((padv_apply _ _ r (row' b n) hr).trans
    ((congrFun (E31 m c) (ix1 (row' b n))).trans (ihi_at m c b n (row' b n) rfl 2 2 rfl slices_S200000x3_S200000x1_0_2)))

/-- Weight 0 of the row: (z − ⌊z⌋)(x − ⌊x⌋)(y − ⌊y⌋). -/
theorem v73_at : (V m c main_v73 : S200704.Idx → EReal) (ix1 r)
    = Cert.Spec.wgt Cert.Spec.s1 Cert.Spec.hi1 (coords m c (ix3 b n 0)) (coords m c (ix3 b n 1)) (coords m c (ix3 b n 2)) 0 := by
  refine (congrFun (E73 m c) (ix1 r)).trans ((padv_apply _ _ r (row' b n) hr).trans
    ((congrFun (E51 m c) (ix1 (row' b n))).trans ((prod3_apply _ _ _ _).trans ?_)))
  rewrite [dlo_at m c b n (row' b n) rfl 2 2 rfl slices_S200000x3_S200000x1_0_2,
    dlo_at m c b n (row' b n) rfl 0 0 rfl slices_S200000x3_S200000x1_0_0,
    dlo_at m c b n (row' b n) rfl 1 1 rfl slices_S200000x3_S200000x1_0_1]
  rfl
/-- Weight 1 of the row: (z − ⌊z⌋)(⌈x⌉ − x)(y − ⌊y⌋). -/
theorem v74_at : (V m c main_v74 : S200704.Idx → EReal) (ix1 r)
    = Cert.Spec.wgt Cert.Spec.s1 Cert.Spec.hi1 (coords m c (ix3 b n 0)) (coords m c (ix3 b n 1)) (coords m c (ix3 b n 2)) 1 := by
  refine (congrFun (E74 m c) (ix1 r)).trans ((padv_apply _ _ r (row' b n) hr).trans
    ((congrFun (E53 m c) (ix1 (row' b n))).trans ((prod3_apply _ _ _ _).trans ?_)))
  rewrite [dlo_at m c b n (row' b n) rfl 2 2 rfl slices_S200000x3_S200000x1_0_2,
    dhi_at m c b n (row' b n) rfl 0 0 rfl slices_S200000x3_S200000x1_0_0,
    dlo_at m c b n (row' b n) rfl 1 1 rfl slices_S200000x3_S200000x1_0_1]
  rfl
/-- Weight 2 of the row: (z − ⌊z⌋)(x − ⌊x⌋)(⌈y⌉ − y). -/
theorem v75_at : (V m c main_v75 : S200704.Idx → EReal) (ix1 r)
    = Cert.Spec.wgt Cert.Spec.s1 Cert.Spec.hi1 (coords m c (ix3 b n 0)) (coords m c (ix3 b n 1)) (coords m c (ix3 b n 2)) 2 := by
  refine (congrFun (E75 m c) (ix1 r)).trans ((padv_apply _ _ r (row' b n) hr).trans
    ((congrFun (E55 m c) (ix1 (row' b n))).trans ((prod3_apply _ _ _ _).trans ?_)))
  rewrite [dlo_at m c b n (row' b n) rfl 2 2 rfl slices_S200000x3_S200000x1_0_2,
    dlo_at m c b n (row' b n) rfl 0 0 rfl slices_S200000x3_S200000x1_0_0,
    dhi_at m c b n (row' b n) rfl 1 1 rfl slices_S200000x3_S200000x1_0_1]
  rfl
/-- Weight 3 of the row: (z − ⌊z⌋)(⌈x⌉ − x)(⌈y⌉ − y). -/
theorem v76_at : (V m c main_v76 : S200704.Idx → EReal) (ix1 r)
    = Cert.Spec.wgt Cert.Spec.s1 Cert.Spec.hi1 (coords m c (ix3 b n 0)) (coords m c (ix3 b n 1)) (coords m c (ix3 b n 2)) 3 := by
  refine (congrFun (E76 m c) (ix1 r)).trans ((padv_apply _ _ r (row' b n) hr).trans
    ((congrFun (E57 m c) (ix1 (row' b n))).trans ((prod3_apply _ _ _ _).trans ?_)))
  rewrite [dlo_at m c b n (row' b n) rfl 2 2 rfl slices_S200000x3_S200000x1_0_2,
    dhi_at m c b n (row' b n) rfl 0 0 rfl slices_S200000x3_S200000x1_0_0,
    dhi_at m c b n (row' b n) rfl 1 1 rfl slices_S200000x3_S200000x1_0_1]
  rfl
/-- Weight 4 of the row: (⌈z⌉ − z)(x − ⌊x⌋)(y − ⌊y⌋). -/
theorem v77_at : (V m c main_v77 : S200704.Idx → EReal) (ix1 r)
    = Cert.Spec.wgt Cert.Spec.s1 Cert.Spec.hi1 (coords m c (ix3 b n 0)) (coords m c (ix3 b n 1)) (coords m c (ix3 b n 2)) 4 := by
  refine (congrFun (E77 m c) (ix1 r)).trans ((padv_apply _ _ r (row' b n) hr).trans
    ((congrFun (E59 m c) (ix1 (row' b n))).trans ((prod3_apply _ _ _ _).trans ?_)))
  rewrite [dhi_at m c b n (row' b n) rfl 2 2 rfl slices_S200000x3_S200000x1_0_2,
    dlo_at m c b n (row' b n) rfl 0 0 rfl slices_S200000x3_S200000x1_0_0,
    dlo_at m c b n (row' b n) rfl 1 1 rfl slices_S200000x3_S200000x1_0_1]
  rfl
/-- Weight 5 of the row: (⌈z⌉ − z)(⌈x⌉ − x)(y − ⌊y⌋). -/
theorem v78_at : (V m c main_v78 : S200704.Idx → EReal) (ix1 r)
    = Cert.Spec.wgt Cert.Spec.s1 Cert.Spec.hi1 (coords m c (ix3 b n 0)) (coords m c (ix3 b n 1)) (coords m c (ix3 b n 2)) 5 := by
  refine (congrFun (E78 m c) (ix1 r)).trans ((padv_apply _ _ r (row' b n) hr).trans
    ((congrFun (E61 m c) (ix1 (row' b n))).trans ((prod3_apply _ _ _ _).trans ?_)))
  rewrite [dhi_at m c b n (row' b n) rfl 2 2 rfl slices_S200000x3_S200000x1_0_2,
    dhi_at m c b n (row' b n) rfl 0 0 rfl slices_S200000x3_S200000x1_0_0,
    dlo_at m c b n (row' b n) rfl 1 1 rfl slices_S200000x3_S200000x1_0_1]
  rfl
/-- Weight 6 of the row: (⌈z⌉ − z)(x − ⌊x⌋)(⌈y⌉ − y). -/
theorem v79_at : (V m c main_v79 : S200704.Idx → EReal) (ix1 r)
    = Cert.Spec.wgt Cert.Spec.s1 Cert.Spec.hi1 (coords m c (ix3 b n 0)) (coords m c (ix3 b n 1)) (coords m c (ix3 b n 2)) 6 := by
  refine (congrFun (E79 m c) (ix1 r)).trans ((padv_apply _ _ r (row' b n) hr).trans
    ((congrFun (E63 m c) (ix1 (row' b n))).trans ((prod3_apply _ _ _ _).trans ?_)))
  rewrite [dhi_at m c b n (row' b n) rfl 2 2 rfl slices_S200000x3_S200000x1_0_2,
    dlo_at m c b n (row' b n) rfl 0 0 rfl slices_S200000x3_S200000x1_0_0,
    dhi_at m c b n (row' b n) rfl 1 1 rfl slices_S200000x3_S200000x1_0_1]
  rfl
/-- Weight 7 of the row: (⌈z⌉ − z)(⌈x⌉ − x)(⌈y⌉ − y). -/
theorem v80_at : (V m c main_v80 : S200704.Idx → EReal) (ix1 r)
    = Cert.Spec.wgt Cert.Spec.s1 Cert.Spec.hi1 (coords m c (ix3 b n 0)) (coords m c (ix3 b n 1)) (coords m c (ix3 b n 2)) 7 := by
  refine (congrFun (E80 m c) (ix1 r)).trans ((padv_apply _ _ r (row' b n) hr).trans
    ((congrFun (E65 m c) (ix1 (row' b n))).trans ((prod3_apply _ _ _ _).trans ?_)))
  rewrite [dhi_at m c b n (row' b n) rfl 2 2 rfl slices_S200000x3_S200000x1_0_2,
    dhi_at m c b n (row' b n) rfl 0 0 rfl slices_S200000x3_S200000x1_0_0,
    dhi_at m c b n (row' b n) rfl 1 1 rfl slices_S200000x3_S200000x1_0_1]
  rfl

/-- **The weight matrix**: row b·100000 + n holds the eight weights of point n of batch b. -/
theorem cw_at (i : Fin 8) :
    (V (F := Ideal) m c main_v89 : S200704x8.Idx → EReal) (ix2 r i)
      = Cert.Spec.wgt Cert.Spec.s1 Cert.Spec.hi1 (coords m c (ix3 b n 0)) (coords m c (ix3 b n 1)) (coords m c (ix3 b n 2)) i := by
  refine (congrFun (E89 m c) (ix2 r i)).trans ?_
  match i with
  | 0 => exact (stack8_at0 _ _ _ _ _ _ _ _ r).trans (v73_at m c b n r hr)
  | 1 => exact (stack8_at1 _ _ _ _ _ _ _ _ r).trans (v74_at m c b n r hr)
  | 2 => exact (stack8_at2 _ _ _ _ _ _ _ _ r).trans (v75_at m c b n r hr)
  | 3 => exact (stack8_at3 _ _ _ _ _ _ _ _ r).trans (v76_at m c b n r hr)
  | 4 => exact (stack8_at4 _ _ _ _ _ _ _ _ r).trans (v77_at m c b n r hr)
  | 5 => exact (stack8_at5 _ _ _ _ _ _ _ _ r).trans (v78_at m c b n r hr)
  | 6 => exact (stack8_at6 _ _ _ _ _ _ _ _ r).trans (v79_at m c b n r hr)
  | 7 => exact (stack8_at7 _ _ _ _ _ _ _ _ r).trans (v80_at m c b n r hr)

/-- **Corner 0** (x ceiling, y ceiling, z ceiling): row b·100000 + n of the first corner array. -/
theorem q0_at (ch : Fin 32) :
    (V (F := Ideal) m c main_v115 : S200704x32.Idx → EReal) (ix2 r ch)
      = Cert.Spec.crn (by decide : 0 < 64) Cert.Spec.s1 Cert.Spec.hi1 (feat1 m c) b
          (coords m c (ix3 b n 0)) (coords m c (ix3 b n 1)) (coords m c (ix3 b n 2)) (0 : Fin 8) ch := by
  refine (congrFun (E115 m c) (ix2 r ch)).trans ((corner1_apply _ _ _ _ _ r ch).trans ?_)
  rewrite [v66_at m c b n r hr, v68_at m c b n r hr, v70_at m c b n r hr, v72_at m c b n r hr, batch_back, V_main_arg1 m c]
  rfl
/-- **Corner 1** (x floor, y ceiling, z ceiling). -/
theorem q1_at (ch : Fin 32) :
    (V (F := Ideal) m c main_v141 : S200704x32.Idx → EReal) (ix2 r ch)
      = Cert.Spec.crn (by decide : 0 < 64) Cert.Spec.s1 Cert.Spec.hi1 (feat1 m c) b
          (coords m c (ix3 b n 0)) (coords m c (ix3 b n 1)) (coords m c (ix3 b n 2)) (1 : Fin 8) ch := by
  refine (congrFun (E141 m c) (ix2 r ch)).trans ((corner1_apply _ _ _ _ _ r ch).trans ?_)
  rewrite [v66_at m c b n r hr, v67_at m c b n r hr, v70_at m c b n r hr, v72_at m c b n r hr, batch_back, V_main_arg1 m c]
  rfl
/-- **Corner 2** (x ceiling, y floor, z ceiling). -/
theorem q2_at (ch : Fin 32) :
    (V (F := Ideal) m c main_v167 : S200704x32.Idx → EReal) (ix2 r ch)
      = Cert.Spec.crn (by decide : 0 < 64) Cert.Spec.s1 Cert.Spec.hi1 (feat1 m c) b
          (coords m c (ix3 b n 0)) (coords m c (ix3 b n 1)) (coords m c (ix3 b n 2)) (2 : Fin 8) ch := by
  refine (congrFun (E167 m c) (ix2 r ch)).trans ((corner1_apply _ _ _ _ _ r ch).trans ?_)
  rewrite [v66_at m c b n r hr, v68_at m c b n r hr, v69_at m c b n r hr, v72_at m c b n r hr, batch_back, V_main_arg1 m c]
  rfl
/-- **Corner 3** (x floor, y floor, z ceiling). -/
theorem q3_at (ch : Fin 32) :
    (V (F := Ideal) m c main_v193 : S200704x32.Idx → EReal) (ix2 r ch)
      = Cert.Spec.crn (by decide : 0 < 64) Cert.Spec.s1 Cert.Spec.hi1 (feat1 m c) b
          (coords m c (ix3 b n 0)) (coords m c (ix3 b n 1)) (coords m c (ix3 b n 2)) (3 : Fin 8) ch := by
  refine (congrFun (E193 m c) (ix2 r ch)).trans ((corner1_apply _ _ _ _ _ r ch).trans ?_)
  rewrite [v66_at m c b n r hr, v67_at m c b n r hr, v69_at m c b n r hr, v72_at m c b n r hr, batch_back, V_main_arg1 m c]
  rfl
/-- **Corner 4** (x ceiling, y ceiling, z floor). -/
theorem q4_at (ch : Fin 32) :
    (V (F := Ideal) m c main_v219 : S200704x32.Idx → EReal) (ix2 r ch)
      = Cert.Spec.crn (by decide : 0 < 64) Cert.Spec.s1 Cert.Spec.hi1 (feat1 m c) b
          (coords m c (ix3 b n 0)) (coords m c (ix3 b n 1)) (coords m c (ix3 b n 2)) (4 : Fin 8) ch := by
  refine (congrFun (E219 m c) (ix2 r ch)).trans ((corner1_apply _ _ _ _ _ r ch).trans ?_)
  rewrite [v66_at m c b n r hr, v68_at m c b n r hr, v70_at m c b n r hr, v71_at m c b n r hr, batch_back, V_main_arg1 m c]
  rfl
/-- **Corner 5** (x floor, y ceiling, z floor). -/
theorem q5_at (ch : Fin 32) :
    (V (F := Ideal) m c main_v245 : S200704x32.Idx → EReal) (ix2 r ch)
      = Cert.Spec.crn (by decide : 0 < 64) Cert.Spec.s1 Cert.Spec.hi1 (feat1 m c) b
          (coords m c (ix3 b n 0)) (coords m c (ix3 b n 1)) (coords m c (ix3 b n 2)) (5 : Fin 8) ch := by
  refine (congrFun (E245 m c) (ix2 r ch)).trans ((corner1_apply _ _ _ _ _ r ch).trans ?_)
  rewrite [v66_at m c b n r hr, v67_at m c b n r hr, v70_at m c b n r hr, v71_at m c b n r hr, batch_back, V_main_arg1 m c]
  rfl
/-- **Corner 6** (x ceiling, y floor, z floor). -/
theorem q6_at (ch : Fin 32) :
    (V (F := Ideal) m c main_v271 : S200704x32.Idx → EReal) (ix2 r ch)
      = Cert.Spec.crn (by decide : 0 < 64) Cert.Spec.s1 Cert.Spec.hi1 (feat1 m c) b
          (coords m c (ix3 b n 0)) (coords m c (ix3 b n 1)) (coords m c (ix3 b n 2)) (6 : Fin 8) ch := by
  refine (congrFun (E271 m c) (ix2 r ch)).trans ((corner1_apply _ _ _ _ _ r ch).trans ?_)
  rewrite [v66_at m c b n r hr, v68_at m c b n r hr, v69_at m c b n r hr, v71_at m c b n r hr, batch_back, V_main_arg1 m c]
  rfl
/-- **Corner 7** (x floor, y floor, z floor). -/
theorem q7_at (ch : Fin 32) :
    (V (F := Ideal) m c main_v297 : S200704x32.Idx → EReal) (ix2 r ch)
      = Cert.Spec.crn (by decide : 0 < 64) Cert.Spec.s1 Cert.Spec.hi1 (feat1 m c) b
          (coords m c (ix3 b n 0)) (coords m c (ix3 b n 1)) (coords m c (ix3 b n 2)) (7 : Fin 8) ch := by
  refine (congrFun (E297 m c) (ix2 r ch)).trans ((corner1_apply _ _ _ _ _ r ch).trans ?_)
  rewrite [v66_at m c b n r hr, v67_at m c b n r hr, v69_at m c b n r hr, v71_at m c b n r hr, batch_back, V_main_arg1 m c]
  rfl

end Exports

end Cert.KernelIdeal.Val1

end
-- ==== Proof.KI.Prefix2Ops.lean ====
/-
  Level 2 of the sampling, as functions of whole arrays, each read at an index.

  The kernel's program prepares level 2 in plain array operations over the flattened point axis r = b * 100000 + n:
  the coordinates [2, 100000, 3] laid out as [200000, 3], scaled and clamped; each column's floor, ceiling, the two
  distances, the floors and ceilings as 32-bit integers; eight products of three distances; every vector padded from
  200000 to 200704 entries; the eight padded weight vectors stacked as the columns of one array; and eight gathers of
  the level's feature array at rows (batch, x, y, z) of start components, each wrapped once if negative.

  This module names each of those array functions and says what it holds at one index of a row r < 200000, in the
  vocabulary of the specification: a column of the clamped coordinates at r is `Spec.uc` of the point's coordinate,
  a weight vector at r is `Spec.wgt`, a gather at (r, ch) is the feature array at the clamped wrapped lattice indices.
  It ends with the two facts used to read one buffer out of a long line of host operations.
-/
import proofs.«414534_j76854144795318_3_alg».proof.Proof.Gen.KernelIdeal
import proofs.«414534_j76854144795318_3_alg».proof.Proof.Spec
import proofs.«414534_j76854144795318_3_alg».proof.Proof.GatherRead
import Idealize.ShloMosaic.Lib.Pipeline.Value
import Idealize.ShloMosaic.Lib.KernelVsHost
import Idealize.ShloMosaic.Lib.ValueIdx
import Idealize.ShloMosaic.Lib.StableHlo.Run

set_option maxRecDepth 16384

noncomputable section
namespace Cert.KernelIdeal.Val2
open Cert.KernelIdeal Cert.KernelIdeal.Gen Idealize.ShloMosaic Idealize.ShloMosaic.ValueIdx

/-! ## Layout: columns, the flattened point axis, the batch numbers -/

/-- Column `a` of a [200000, 3] array, as a vector of 200000 entries. -/
def col (a : Nat) (h : S200000x3.Slices ![0, a] S200000x1) (u : FVec Ideal S200000x3 .f32) : FVec Ideal S200000 .f32 :=
  fun i => shapeCast S200000 (extractStridedSlice S200000x1 ![0, a] u h) shapeCasts_S200000x1_S200000 i

theorem col_apply (a : Fin 3) (h : S200000x3.Slices ![0, a.val] S200000x1) (u : FVec Ideal S200000x3 .f32) (r : Fin 200000) :
    col a.val h u (ix1 r) = u (ix2 r a) := by
  unfold col
  refine (shapeCast_apply _ _ (ix1 r) (ix2 r (0 : Fin 1)) ?_).trans ?_
  · rw [Shape.rowMajor_val_two, Shape.rowMajor_val_one]; show r.val * 1 + 0 = r.val; omega
  · refine extractStridedSlice_apply _ _ _ _ _ fun b => ?_
    match b with
    | ⟨0, _⟩ => show r.val = 0 + r.val; omega
    | ⟨1, _⟩ => show a.val = a.val + 0; omega

/-- The coordinates [2, 100000, 3] laid out as [200000, 3]. -/
def flat (x : FVec Ideal S2x100000x3 .f32) : FVec Ideal S200000x3 .f32 :=
  fun i => shapeCast S200000x3 x shapeCasts_S2x100000x3_S200000x3 i

theorem flat_apply (x : FVec Ideal S2x100000x3 .f32) (b : Fin 2) (n : Fin 100000) (r : Fin 200000)
    (hr : r.val = b.val * 100000 + n.val) (a : Fin 3) : flat x (ix2 r a) = x (ix3 b n a) := by
  unfold flat
  refine shapeCast_apply _ _ (ix2 r a) (ix3 b n a) ?_
  rw [Shape.rowMajor_val_two, Shape.rowMajor_val_three]
  show (b.val * 100000 + n.val) * 3 + a.val = r.val * 3 + a.val
  omega

/-- The batch number of each flattened point: the position along the batch axis, repeated along the points, flattened. -/
def bid : IVec S200000 32 :=
  fun i => shapeCast S200000 (broadcastInDim S2x100000 ![0] bcast_S2_S2x100000_0 (iotaInDim S2 32 0)) shapeCasts_S2x100000_S200000 i

theorem bid_apply (b : Fin 2) (n : Fin 100000) (r : Fin 200000) (hr : r.val = b.val * 100000 + n.val) :
    bid (ix1 r) = BitVec.ofNat 32 b.val := by
  unfold bid
  refine (shapeCast_apply _ _ (ix1 r) (ix2 b n) ?_).trans ?_
  · rw [Shape.rowMajor_val_two, Shape.rowMajor_val_one]; show b.val * 100000 + n.val = r.val; omega
  · refine (broadcastInDim_apply _ _ _ (ix2 b n) (ix1 b) fun a => ?_).trans ?_
    · match a with
      | ⟨0, _⟩ => rfl
    · rfl

/-! ## Padding, columns, repeated scalars, four columns side by side -/

variable {α : Type}

/-- A vector of 200000 entries padded with 704 more at the end. -/
def padv (x : S200000.Idx → α) (v : S_.Idx → α) : S200704.Idx → α :=
  pad S200704 ![0] ![704] ![0] x v pads_S200000_S200704_07040 h_S_

theorem padv_apply (x : S200000.Idx → α) (v : S_.Idx → α) (r : Fin 200704) (r' : Fin 200000) (h : r.val = r'.val) :
    padv x v (ix1 r) = x (ix1 r') := by
  unfold padv
  refine pad_apply_of_inside _ _ _ _ _ _ _ (ix1 r) (ix1 r') fun a => ?_
  match a with
  | ⟨0, _⟩ => show r.val = 0 + r'.val * (0 + 1); omega

/-- A vector as a one-column array. -/
def colm (x : S200704.Idx → α) : S200704x1.Idx → α := broadcastInDim S200704x1 ![0] bcast_S200704_S200704x1_0 x

theorem colm_apply (x : S200704.Idx → α) (r : Fin 200704) : colm x (ix2 r (0 : Fin 1)) = x (ix1 r) := by
  unfold colm
  refine broadcastInDim_apply _ _ _ (ix2 r (0 : Fin 1)) (ix1 r) fun a => ?_
  match a with
  | ⟨0, _⟩ => rfl

/-- A scalar repeated along 200704 entries. -/
def rep (v : S_.Idx → α) : S200704.Idx → α := broadcastInDim S200704 ![] bcast_S_S200704 v

theorem rep_apply (v : S_.Idx → α) (j : S200704.Idx) : rep v j = v ix0 := by
  unfold rep
  exact broadcastInDim_apply _ _ _ j ix0 fun a => a.elim0

/-- Four columns side by side. -/
def cat4 (u0 u1 u2 u3 : S200704x1.Idx → α) : S200704x4.Idx → α :=
  concatenate S200704x4 1 [⟨S200704x1, u0⟩, ⟨S200704x1, u1⟩, ⟨S200704x1, u2⟩, ⟨S200704x1, u3⟩] concatenates_S200704x1_S200704x1_S200704x1_S200704x1_S200704x4_d1

theorem cat_off {N : Nat} (r : Fin 200704) (k : Fin N) :
    ∀ b : Fin S200704x1.rank, b.cast (rfl : S200704x1.rank = (⟨2, ![200704, N]⟩ : Shape).rank) ≠ (1 : Fin 2) →
      ((ix2 r (0 : Fin 1) : S200704x1.Idx) b).val = ((ix2 r k : (⟨2, ![200704, N]⟩ : Shape).Idx) (b.cast rfl)).val := fun b hb => by
  match b with
  | ⟨0, _⟩ => rfl
  | ⟨1, _⟩ => exact absurd rfl hb

theorem cat4_apply0 (u0 u1 u2 u3 : S200704x1.Idx → α) (r : Fin 200704) :
    cat4 u0 u1 u2 u3 (ix2 r (0 : Fin 4)) = u0 (ix2 r (0 : Fin 1)) :=
  concatenate_apply_piece 1 [⟨S200704x1, u0⟩, ⟨S200704x1, u1⟩, ⟨S200704x1, u2⟩, ⟨S200704x1, u3⟩] _ (ix2 r (0 : Fin 4)) 0
    (show 0 < 4 by decide) S200704x1 u0 rfl rfl 0 rfl (ix2 r (0 : Fin 1)) (cat_off r _) rfl
theorem cat4_apply1 (u0 u1 u2 u3 : S200704x1.Idx → α) (r : Fin 200704) :
    cat4 u0 u1 u2 u3 (ix2 r (1 : Fin 4)) = u1 (ix2 r (0 : Fin 1)) :=
  concatenate_apply_piece 1 [⟨S200704x1, u0⟩, ⟨S200704x1, u1⟩, ⟨S200704x1, u2⟩, ⟨S200704x1, u3⟩] _ (ix2 r (1 : Fin 4)) 1
    (show 1 < 4 by decide) S200704x1 u1 rfl rfl 1 rfl (ix2 r (0 : Fin 1)) (cat_off r _) rfl
theorem cat4_apply2 (u0 u1 u2 u3 : S200704x1.Idx → α) (r : Fin 200704) :
    cat4 u0 u1 u2 u3 (ix2 r (2 : Fin 4)) = u2 (ix2 r (0 : Fin 1)) :=
  concatenate_apply_piece 1 [⟨S200704x1, u0⟩, ⟨S200704x1, u1⟩, ⟨S200704x1, u2⟩, ⟨S200704x1, u3⟩] _ (ix2 r (2 : Fin 4)) 2
    (show 2 < 4 by decide) S200704x1 u2 rfl rfl 2 rfl (ix2 r (0 : Fin 1)) (cat_off r _) rfl
theorem cat4_apply3 (u0 u1 u2 u3 : S200704x1.Idx → α) (r : Fin 200704) :
    cat4 u0 u1 u2 u3 (ix2 r (3 : Fin 4)) = u3 (ix2 r (0 : Fin 1)) :=
  concatenate_apply_piece 1 [⟨S200704x1, u0⟩, ⟨S200704x1, u1⟩, ⟨S200704x1, u2⟩, ⟨S200704x1, u3⟩] _ (ix2 r (3 : Fin 4)) 3
    (show 3 < 4 by decide) S200704x1 u3 rfl rfl 3 rfl (ix2 r (0 : Fin 1)) (cat_off r _) rfl

/-! ## The weight stack -/

/-- Eight columns side by side. -/
def cat8 (u0 u1 u2 u3 u4 u5 u6 u7 : S200704x1.Idx → α) : S200704x8.Idx → α :=
  concatenate S200704x8 1 [⟨S200704x1, u0⟩, ⟨S200704x1, u1⟩, ⟨S200704x1, u2⟩, ⟨S200704x1, u3⟩, ⟨S200704x1, u4⟩, ⟨S200704x1, u5⟩, ⟨S200704x1, u6⟩, ⟨S200704x1, u7⟩]
    concatenates_S200704x1_S200704x1_S200704x1_S200704x1_S200704x1_S200704x1_S200704x1_S200704x1_S200704x8_d1

theorem cat8_apply0 (u0 u1 u2 u3 u4 u5 u6 u7 : S200704x1.Idx → α) (r : Fin 200704) :
    cat8 u0 u1 u2 u3 u4 u5 u6 u7 (ix2 r (0 : Fin 8)) = u0 (ix2 r (0 : Fin 1)) :=
  concatenate_apply_piece 1 [⟨S200704x1, u0⟩, ⟨S200704x1, u1⟩, ⟨S200704x1, u2⟩, ⟨S200704x1, u3⟩, ⟨S200704x1, u4⟩, ⟨S200704x1, u5⟩, ⟨S200704x1, u6⟩, ⟨S200704x1, u7⟩] _
    (ix2 r (0 : Fin 8)) 0 (show 0 < 8 by decide) S200704x1 u0 rfl rfl 0 rfl (ix2 r (0 : Fin 1)) (cat_off r _) rfl
theorem cat8_apply1 (u0 u1 u2 u3 u4 u5 u6 u7 : S200704x1.Idx → α) (r : Fin 200704) :
    cat8 u0 u1 u2 u3 u4 u5 u6 u7 (ix2 r (1 : Fin 8)) = u1 (ix2 r (0 : Fin 1)) :=
  concatenate_apply_piece 1 [⟨S200704x1, u0⟩, ⟨S200704x1, u1⟩, ⟨S200704x1, u2⟩, ⟨S200704x1, u3⟩, ⟨S200704x1, u4⟩, ⟨S200704x1, u5⟩, ⟨S200704x1, u6⟩, ⟨S200704x1, u7⟩] _
    (ix2 r (1 : Fin 8)) 1 (show 1 < 8 by decide) S200704x1 u1 rfl rfl 1 rfl (ix2 r (0 : Fin 1)) (cat_off r _) rfl
theorem cat8_apply2 (u0 u1 u2 u3 u4 u5 u6 u7 : S200704x1.Idx → α) (r : Fin 200704) :
    cat8 u0 u1 u2 u3 u4 u5 u6 u7 (ix2 r (2 : Fin 8)) = u2 (ix2 r (0 : Fin 1)) :=
  concatenate_apply_piece 1 [⟨S200704x1, u0⟩, ⟨S200704x1, u1⟩, ⟨S200704x1, u2⟩, ⟨S200704x1, u3⟩, ⟨S200704x1, u4⟩, ⟨S200704x1, u5⟩, ⟨S200704x1, u6⟩, ⟨S200704x1, u7⟩] _
    (ix2 r (2 : Fin 8)) 2 (show 2 < 8 by decide) S200704x1 u2 rfl rfl 2 rfl (ix2 r (0 : Fin 1)) (cat_off r _) rfl
theorem cat8_apply3 (u0 u1 u2 u3 u4 u5 u6 u7 : S200704x1.Idx → α) (r : Fin 200704) :
    cat8 u0 u1 u2 u3 u4 u5 u6 u7 (ix2 r (3 : Fin 8)) = u3 (ix2 r (0 : Fin 1)) :=
  concatenate_apply_piece 1 [⟨S200704x1, u0⟩, ⟨S200704x1, u1⟩, ⟨S200704x1, u2⟩, ⟨S200704x1, u3⟩, ⟨S200704x1, u4⟩, ⟨S200704x1, u5⟩, ⟨S200704x1, u6⟩, ⟨S200704x1, u7⟩] _
    (ix2 r (3 : Fin 8)) 3 (show 3 < 8 by decide) S200704x1 u3 rfl rfl 3 rfl (ix2 r (0 : Fin 1)) (cat_off r _) rfl
theorem cat8_apply4 (u0 u1 u2 u3 u4 u5 u6 u7 : S200704x1.Idx → α) (r : Fin 200704) :
    cat8 u0 u1 u2 u3 u4 u5 u6 u7 (ix2 r (4 : Fin 8)) = u4 (ix2 r (0 : Fin 1)) :=
  concatenate_apply_piece 1 [⟨S200704x1, u0⟩, ⟨S200704x1, u1⟩, ⟨S200704x1, u2⟩, ⟨S200704x1, u3⟩, ⟨S200704x1, u4⟩, ⟨S200704x1, u5⟩, ⟨S200704x1, u6⟩, ⟨S200704x1, u7⟩] _
    (ix2 r (4 : Fin 8)) 4 (show 4 < 8 by decide) S200704x1 u4 rfl rfl 4 rfl (ix2 r (0 : Fin 1)) (cat_off r _) rfl
theorem cat8_apply5 (u0 u1 u2 u3 u4 u5 u6 u7 : S200704x1.Idx → α) (r : Fin 200704) :
    cat8 u0 u1 u2 u3 u4 u5 u6 u7 (ix2 r (5 : Fin 8)) = u5 (ix2 r (0 : Fin 1)) :=
  concatenate_apply_piece 1 [⟨S200704x1, u0⟩, ⟨S200704x1, u1⟩, ⟨S200704x1, u2⟩, ⟨S200704x1, u3⟩, ⟨S200704x1, u4⟩, ⟨S200704x1, u5⟩, ⟨S200704x1, u6⟩, ⟨S200704x1, u7⟩] _
    (ix2 r (5 : Fin 8)) 5 (show 5 < 8 by decide) S200704x1 u5 rfl rfl 5 rfl (ix2 r (0 : Fin 1)) (cat_off r _) rfl
theorem cat8_apply6 (u0 u1 u2 u3 u4 u5 u6 u7 : S200704x1.Idx → α) (r : Fin 200704) :
    cat8 u0 u1 u2 u3 u4 u5 u6 u7 (ix2 r (6 : Fin 8)) = u6 (ix2 r (0 : Fin 1)) :=
  concatenate_apply_piece 1 [⟨S200704x1, u0⟩, ⟨S200704x1, u1⟩, ⟨S200704x1, u2⟩, ⟨S200704x1, u3⟩, ⟨S200704x1, u4⟩, ⟨S200704x1, u5⟩, ⟨S200704x1, u6⟩, ⟨S200704x1, u7⟩] _
    (ix2 r (6 : Fin 8)) 6 (show 6 < 8 by decide) S200704x1 u6 rfl rfl 6 rfl (ix2 r (0 : Fin 1)) (cat_off r _) rfl
theorem cat8_apply7 (u0 u1 u2 u3 u4 u5 u6 u7 : S200704x1.Idx → α) (r : Fin 200704) :
    cat8 u0 u1 u2 u3 u4 u5 u6 u7 (ix2 r (7 : Fin 8)) = u7 (ix2 r (0 : Fin 1)) :=
  concatenate_apply_piece 1 [⟨S200704x1, u0⟩, ⟨S200704x1, u1⟩, ⟨S200704x1, u2⟩, ⟨S200704x1, u3⟩, ⟨S200704x1, u4⟩, ⟨S200704x1, u5⟩, ⟨S200704x1, u6⟩, ⟨S200704x1, u7⟩] _
    (ix2 r (7 : Fin 8)) 7 (show 7 < 8 by decide) S200704x1 u7 rfl rfl 7 rfl (ix2 r (0 : Fin 1)) (cat_off r _) rfl

/-- A four- or eight-piece concatenation of columns, spelled as the printed operation, is `cat4` / `cat8` of the columns. -/
theorem cat4_fold (u0 u1 u2 u3 : S200704x1.Idx → α) (h) :
    concatenate S200704x4 1 [⟨S200704x1, u0⟩, ⟨S200704x1, u1⟩, ⟨S200704x1, u2⟩, ⟨S200704x1, u3⟩] h = cat4 u0 u1 u2 u3 := rfl
theorem cat8_fold (u0 u1 u2 u3 u4 u5 u6 u7 : S200704x1.Idx → α) (h) :
    concatenate S200704x8 1 [⟨S200704x1, u0⟩, ⟨S200704x1, u1⟩, ⟨S200704x1, u2⟩, ⟨S200704x1, u3⟩, ⟨S200704x1, u4⟩, ⟨S200704x1, u5⟩, ⟨S200704x1, u6⟩, ⟨S200704x1, u7⟩] h
      = cat8 u0 u1 u2 u3 u4 u5 u6 u7 := rfl

/-- The weight stack: eight weight vectors, each as a column, side by side. -/
def cwv (w0 w1 w2 w3 w4 w5 w6 w7 : S200704.Idx → α) : S200704x8.Idx → α :=
  cat8 (colm w0) (colm w1) (colm w2) (colm w3) (colm w4) (colm w5) (colm w6) (colm w7)

theorem cwv_apply (w : Fin 8 → S200704.Idx → α) (r : Fin 200704) (i : Fin 8) :
    cwv (w 0) (w 1) (w 2) (w 3) (w 4) (w 5) (w 6) (w 7) (ix2 r i) = w i (ix1 r) := by
  unfold cwv
  match i with
  | 0 => exact (cat8_apply0 _ _ _ _ _ _ _ _ r).trans (colm_apply _ r)
  | 1 => exact (cat8_apply1 _ _ _ _ _ _ _ _ r).trans (colm_apply _ r)
  | 2 => exact (cat8_apply2 _ _ _ _ _ _ _ _ r).trans (colm_apply _ r)
  | 3 => exact (cat8_apply3 _ _ _ _ _ _ _ _ r).trans (colm_apply _ r)
  | 4 => exact (cat8_apply4 _ _ _ _ _ _ _ _ r).trans (colm_apply _ r)
  | 5 => exact (cat8_apply5 _ _ _ _ _ _ _ _ r).trans (colm_apply _ r)
  | 6 => exact (cat8_apply6 _ _ _ _ _ _ _ _ r).trans (colm_apply _ r)
  | 7 => exact (cat8_apply7 _ _ _ _ _ _ _ _ r).trans (colm_apply _ r)

/-! ## The start components of a gather -/

/-- A start component made ready for the gather: wrapped once around an axis of extent `D` if negative, as a column. -/
def wrapc (D : BitVec 32) (w : IVec S200704 32) : IVec S200704x1 32 :=
  colm (select (cmpi .slt w (rep (constantI S_ 32 0#32))) (addi w (rep (constantI S_ 32 D))) w)

theorem wrapc_apply (D : BitVec 32) (w : IVec S200704 32) (r : Fin 200704) :
    wrapc D w (ix2 r (0 : Fin 1)) = Cert.Spec.nrm D (w (ix1 r)) := by
  unfold wrapc
  rw [colm_apply]
  rfl

/-- One corner's gather: the level's feature array read at the rows of four start components (batch, x, y, z), each
    wrapped once if negative. -/
def gq (feat : FVec Ideal S2x32x32x32x64 .f32) (B X Y Z : IVec S200704 32) : FVec Ideal S200704x64 .f32 :=
  Host.gather gather_S2x32x32x32x64_S200704x4_S200704x64_1_0123_n_n_0123_1_111164 feat
    (cat4 (wrapc 2#32 B) (wrapc 32#32 X) (wrapc 32#32 Y) (wrapc 32#32 Z))

theorem gq_apply (feat : FVec Ideal S2x32x32x32x64 .f32) (B X Y Z : IVec S200704 32) (r : Fin 200704) (ch : Fin 64) :
    gq feat B X Y Z (ix2 r ch)
      = feat (ix5 (Cert.Spec.cl 2 (by decide) (Cert.Spec.nrm 2#32 (B (ix1 r))))
          (Cert.Spec.cl 32 (by decide) (Cert.Spec.nrm 32#32 (X (ix1 r))))
          (Cert.Spec.cl 32 (by decide) (Cert.Spec.nrm 32#32 (Y (ix1 r))))
          (Cert.Spec.cl 32 (by decide) (Cert.Spec.nrm 32#32 (Z (ix1 r)))) ch) := by
  unfold gq
  rw [Cert.GatherRead.gather4_apply (by decide) _ rfl rfl rfl rfl rfl rfl rfl, cat4_apply0, cat4_apply1, cat4_apply2, cat4_apply3,
    wrapc_apply, wrapc_apply, wrapc_apply, wrapc_apply]

/-! ## Distances, weights, lattice indices of a clamped coordinate array -/

abbrev c0 (u : FVec Ideal S200000x3 .f32) : FVec Ideal S200000 .f32 := col 0 slices_S200000x3_S200000x1_0_0 u
abbrev c1 (u : FVec Ideal S200000x3 .f32) : FVec Ideal S200000 .f32 := col 1 slices_S200000x3_S200000x1_0_1 u
abbrev c2 (u : FVec Ideal S200000x3 .f32) : FVec Ideal S200000 .f32 := col 2 slices_S200000x3_S200000x1_0_2 u

/-- The distance of each entry above its floor, and below its ceiling. -/
def dlo (x : FVec Ideal S200000 .f32) : FVec Ideal S200000 .f32 := subf x (Host.floor x)
def dhi (x : FVec Ideal S200000 .f32) : FVec Ideal S200000 .f32 := subf (Host.ceil x) x
/-- The floor and the ceiling of each entry as 32-bit integers. -/
def ilo (x : FVec Ideal S200000 .f32) : IVec S200000 32 := fptosi 32 (Host.floor x)
def ihi (x : FVec Ideal S200000 .f32) : IVec S200000 32 := fptosi 32 (Host.ceil x)

theorem dlo_apply (x : FVec Ideal S200000 .f32) (j : S200000.Idx) : dlo x j = x j - Cert.Spec.fl (x j) := rfl
theorem dhi_apply (x : FVec Ideal S200000 .f32) (j : S200000.Idx) : dhi x j = Cert.Spec.ce (x j) - x j := rfl
theorem ilo_apply (x : FVec Ideal S200000 .f32) (j : S200000.Idx) : ilo x j = Cert.Spec.cvt (Cert.Spec.fl (x j)) := rfl
theorem ihi_apply (x : FVec Ideal S200000 .f32) (j : S200000.Idx) : ihi x j = Cert.Spec.cvt (Cert.Spec.ce (x j)) := rfl

/-- The eight weight arrays of a clamped coordinate array: each a z-distance times an x-distance, times a y-distance. -/
def wgtv (u : FVec Ideal S200000x3 .f32) (i : Fin 8) : FVec Ideal S200000 .f32 :=
  match i with
  | 0 => mulf (mulf (dlo (c2 u)) (dlo (c0 u))) (dlo (c1 u))
  | 1 => mulf (mulf (dlo (c2 u)) (dhi (c0 u))) (dlo (c1 u))
  | 2 => mulf (mulf (dlo (c2 u)) (dlo (c0 u))) (dhi (c1 u))
  | 3 => mulf (mulf (dlo (c2 u)) (dhi (c0 u))) (dhi (c1 u))
  | 4 => mulf (mulf (dhi (c2 u)) (dlo (c0 u))) (dlo (c1 u))
  | 5 => mulf (mulf (dhi (c2 u)) (dhi (c0 u))) (dlo (c1 u))
  | 6 => mulf (mulf (dhi (c2 u)) (dlo (c0 u))) (dhi (c1 u))
  | 7 => mulf (mulf (dhi (c2 u)) (dhi (c0 u))) (dhi (c1 u))

theorem wgtv_apply (u : FVec Ideal S200000x3 .f32) (r : Fin 200000) (s hi x y z : EReal)
    (hx : u (ix2 r (0 : Fin 3)) = Cert.Spec.uc s hi x) (hy : u (ix2 r (1 : Fin 3)) = Cert.Spec.uc s hi y)
    (hz : u (ix2 r (2 : Fin 3)) = Cert.Spec.uc s hi z) (i : Fin 8) :
    wgtv u i (ix1 r) = Cert.Spec.wgt s hi x y z i := by
  have e0 : c0 u (ix1 r) = Cert.Spec.uc s hi x := (col_apply 0 _ u r).trans hx
  have e1 : c1 u (ix1 r) = Cert.Spec.uc s hi y := (col_apply 1 _ u r).trans hy
  have e2 : c2 u (ix1 r) = Cert.Spec.uc s hi z := (col_apply 2 _ u r).trans hz
  match i with
  | 0 => simp only [wgtv, Cert.Spec.wgt, mulf_apply, dlo_apply, dhi_apply, e0, e1, e2]
  | 1 => simp only [wgtv, Cert.Spec.wgt, mulf_apply, dlo_apply, dhi_apply, e0, e1, e2]
  | 2 => simp only [wgtv, Cert.Spec.wgt, mulf_apply, dlo_apply, dhi_apply, e0, e1, e2]
  | 3 => simp only [wgtv, Cert.Spec.wgt, mulf_apply, dlo_apply, dhi_apply, e0, e1, e2]
  | 4 => simp only [wgtv, Cert.Spec.wgt, mulf_apply, dlo_apply, dhi_apply, e0, e1, e2]
  | 5 => simp only [wgtv, Cert.Spec.wgt, mulf_apply, dlo_apply, dhi_apply, e0, e1, e2]
  | 6 => simp only [wgtv, Cert.Spec.wgt, mulf_apply, dlo_apply, dhi_apply, e0, e1, e2]
  | 7 => simp only [wgtv, Cert.Spec.wgt, mulf_apply, dlo_apply, dhi_apply, e0, e1, e2]

/-! ## Scaling and clamping the coordinates -/

/-- Every row of a [200000, 3] array multiplied entry by entry by a vector of three scales. -/
def scalev (k : FVec Ideal S3 .f32) (x : FVec Ideal S200000x3 .f32) : FVec Ideal S200000x3 .f32 :=
  mulf x (broadcastInDim S200000x3 ![0, 1] bcast_S1x3_S200000x3_0_1 (broadcastInDim S1x3 ![1] bcast_S3_S1x3_1 k))

theorem scalev_apply (k : FVec Ideal S3 .f32) (x : FVec Ideal S200000x3 .f32) (r : Fin 200000) (a : Fin 3) :
    scalev k x (ix2 r a) = x (ix2 r a) * k (ix1 a) := by
  unfold scalev
  rw [mulf_apply]
  congr 1
  refine (broadcastInDim_apply _ _ _ (ix2 r a) (ix2 (0 : Fin 1) a) fun b => ?_).trans ?_
  · match b with
    | ⟨0, _⟩ => rfl
    | ⟨1, _⟩ => rfl
  · refine broadcastInDim_apply _ _ _ (ix2 (0 : Fin 1) a) (ix1 a) fun b => ?_
    match b with
    | ⟨0, _⟩ => rfl

/-- Every entry clamped from below by one scalar and from above by another. -/
def clipv (lo hi : FVec Ideal S_ .f32) (x : FVec Ideal S200000x3 .f32) : FVec Ideal S200000x3 .f32 :=
  minimumf (broadcastInDim S200000x3 ![] bcast_S_S200000x3 hi) (maximumf (broadcastInDim S200000x3 ![] bcast_S_S200000x3 lo) x)

theorem clipv_apply (lo hi : FVec Ideal S_ .f32) (x : FVec Ideal S200000x3 .f32) (j : S200000x3.Idx) :
    clipv lo hi x j = min (hi ix0) (max (lo ix0) (x j)) := by
  unfold clipv
  rw [minimumf_apply, maximumf_apply, broadcastInDim_apply _ _ hi j ix0 fun a => a.elim0,
    broadcastInDim_apply _ _ lo j ix0 fun a => a.elim0]

/-! ## Reading a buffer out of a line of host operations -/

open Idealize.ShloMosaic.StableHlo

/-- Reads a buffer out of a straight line of host operations: each operation's result at its own reference, any other
    reference passed through, a concatenation of columns folded to `cat4` / `cat8` so that its operands are read in turn. -/
macro "host_read" : tactic =>
  `(tactic| (simp (disch := decide) only [after_cons, after_nil,
      nullary_result', unary_result', binary_result', ternary_result', reshape_result', nary_result',
      nullary_result_ne', unary_result_ne', binary_result_ne', ternary_result_ne', reshape_result_ne', nary_result_ne',
      Matrix.cons_val, cat4_fold, cat8_fold]))

/-- The line cut in three: a buffer the last part does not write holds, at the end, what the middle part left there. -/
theorem read_mid (S : List (HloOp τ sig (Elt Ideal))) (a n : Nat) (V₀ : Valuation τ sig (Elt Ideal)) (b : DevRef τ sig)
    (hpost : ∀ op ∈ (S.drop a).drop n, b ∉ op.writes) :
    StableHlo.after S V₀ b = StableHlo.after ((S.drop a).take n) (StableHlo.after (S.take a) V₀) b := by
  conv_lhs => rw [← List.take_append_drop a S, after_append, ← List.take_append_drop n (S.drop a), after_append]
  exact after_of_forall_not_mem _ _ hpost

/-- A buffer the first part of the line does not write holds after it what it held before. -/
theorem keep (S : List (HloOp τ sig (Elt Ideal))) (a : Nat) (V₀ : Valuation τ sig (Elt Ideal)) (r : Ref sig .tc)
    (h : ∀ op ∈ S.take a, Proc.devRef (τ := τ) .tc r ∉ op.writes) :
    StableHlo.after (S.take a) V₀ (Proc.devRef .tc r) = V₀ (Proc.devRef .tc r) :=
  after_of_forall_not_mem _ _ h

end Cert.KernelIdeal.Val2

end
-- ==== Proof.KI.Prefix2Read.lean ====
/-
  Level 2 of the sampling, read out of the program's lines of host operations: everything before the last line.

  Each theorem takes one line (a stretch of the program's host operations) run from arbitrary contents `V₀` and says what
  one buffer holds afterwards, as one of the array functions of level 2 applied to what the line's inputs held in `V₀`:
  the fifteen paddings; the six lattice index vectors and the eight weight vectors out of the line of slices, floors,
  ceilings, distances and products; the clamp; the scaling and the two clamp constants at the end of the line before;
  the scale, the flattened coordinates and the batch numbers at the head of the program.
-/
import proofs.«414534_j76854144795318_3_alg».proof.Proof.Gen.KernelIdeal.Launch
import proofs.«414534_j76854144795318_3_alg».proof.Proof.KI.Prefix2Ops

set_option maxRecDepth 16384

noncomputable section
namespace Cert.KernelIdeal.Val2
open Cert.KernelIdeal Cert.KernelIdeal.Gen Idealize.ShloMosaic Idealize.ShloMosaic.ValueIdx Idealize.ShloMosaic.StableHlo

/-- Two long lines of level 2, at the extended reals: the one whose end scales the coordinates, and the line of slices. -/
abbrev S32 : List (HloOp τ sig (Elt Ideal)) := hostOps0_32
abbrev S34 : List (HloOp τ sig (Elt Ideal)) := hostOps0_34

/-! ## The fifteen paddings -/

/-- Reads the one buffer a padding call writes: the operand padded, the padding value passed through the call. -/
macro "pad_read" : tactic => `(tactic| (host_read; simp only [TRef.ofBuf, TRef.toBuf, cast_eq]; rfl))

theorem st35 (V₀ : Valuation τ sig (Elt Ideal)) : StableHlo.after (hostOps0_35 (F := Ideal)) V₀ (Proc.devRef .tc main_v360)
    = padv (V₀ (Proc.devRef .tc main_v3)) (V₀ (Proc.devRef .tc main_c_84)) := by pad_read
theorem st37 (V₀ : Valuation τ sig (Elt Ideal)) : StableHlo.after (hostOps0_37 (F := Ideal)) V₀ (Proc.devRef .tc main_v361)
    = padv (V₀ (Proc.devRef .tc main_v320)) (V₀ (Proc.devRef .tc main_c_85)) := by pad_read
theorem st39 (V₀ : Valuation τ sig (Elt Ideal)) : StableHlo.after (hostOps0_39 (F := Ideal)) V₀ (Proc.devRef .tc main_v362)
    = padv (V₀ (Proc.devRef .tc main_v321)) (V₀ (Proc.devRef .tc main_c_86)) := by pad_read
theorem st41 (V₀ : Valuation τ sig (Elt Ideal)) : StableHlo.after (hostOps0_41 (F := Ideal)) V₀ (Proc.devRef .tc main_v363)
    = padv (V₀ (Proc.devRef .tc main_v322)) (V₀ (Proc.devRef .tc main_c_87)) := by pad_read
theorem st43 (V₀ : Valuation τ sig (Elt Ideal)) : StableHlo.after (hostOps0_43 (F := Ideal)) V₀ (Proc.devRef .tc main_v364)
    = padv (V₀ (Proc.devRef .tc main_v323)) (V₀ (Proc.devRef .tc main_c_88)) := by pad_read
theorem st45 (V₀ : Valuation τ sig (Elt Ideal)) : StableHlo.after (hostOps0_45 (F := Ideal)) V₀ (Proc.devRef .tc main_v365)
    = padv (V₀ (Proc.devRef .tc main_v324)) (V₀ (Proc.devRef .tc main_c_89)) := by pad_read
theorem st47 (V₀ : Valuation τ sig (Elt Ideal)) : StableHlo.after (hostOps0_47 (F := Ideal)) V₀ (Proc.devRef .tc main_v366)
    = padv (V₀ (Proc.devRef .tc main_v325)) (V₀ (Proc.devRef .tc main_c_90)) := by pad_read
theorem st49 (V₀ : Valuation τ sig (Elt Ideal)) : StableHlo.after (hostOps0_49 (F := Ideal)) V₀ (Proc.devRef .tc main_v367)
    = padv (V₀ (Proc.devRef .tc main_v345)) (V₀ (Proc.devRef .tc main_cst_91)) := by pad_read
theorem st51 (V₀ : Valuation τ sig (Elt Ideal)) : StableHlo.after (hostOps0_51 (F := Ideal)) V₀ (Proc.devRef .tc main_v368)
    = padv (V₀ (Proc.devRef .tc main_v347)) (V₀ (Proc.devRef .tc main_cst_92)) := by pad_read
theorem st53 (V₀ : Valuation τ sig (Elt Ideal)) : StableHlo.after (hostOps0_53 (F := Ideal)) V₀ (Proc.devRef .tc main_v369)
    = padv (V₀ (Proc.devRef .tc main_v349)) (V₀ (Proc.devRef .tc main_cst_93)) := by pad_read
theorem st55 (V₀ : Valuation τ sig (Elt Ideal)) : StableHlo.after (hostOps0_55 (F := Ideal)) V₀ (Proc.devRef .tc main_v370)
    = padv (V₀ (Proc.devRef .tc main_v351)) (V₀ (Proc.devRef .tc main_cst_94)) := by pad_read
theorem st57 (V₀ : Valuation τ sig (Elt Ideal)) : StableHlo.after (hostOps0_57 (F := Ideal)) V₀ (Proc.devRef .tc main_v371)
    = padv (V₀ (Proc.devRef .tc main_v353)) (V₀ (Proc.devRef .tc main_cst_95)) := by pad_read
theorem st59 (V₀ : Valuation τ sig (Elt Ideal)) : StableHlo.after (hostOps0_59 (F := Ideal)) V₀ (Proc.devRef .tc main_v372)
    = padv (V₀ (Proc.devRef .tc main_v355)) (V₀ (Proc.devRef .tc main_cst_96)) := by pad_read
theorem st61 (V₀ : Valuation τ sig (Elt Ideal)) : StableHlo.after (hostOps0_61 (F := Ideal)) V₀ (Proc.devRef .tc main_v373)
    = padv (V₀ (Proc.devRef .tc main_v357)) (V₀ (Proc.devRef .tc main_cst_97)) := by pad_read
theorem st63 (V₀ : Valuation τ sig (Elt Ideal)) : StableHlo.after (hostOps0_63 (F := Ideal)) V₀ (Proc.devRef .tc main_v374)
    = padv (V₀ (Proc.devRef .tc main_v359)) (V₀ (Proc.devRef .tc main_cst_98)) := by pad_read

/-! ## The line of slices, floors, ceilings, distances and products -/

theorem st34_xf (V₀ : Valuation τ sig (Elt Ideal)) : StableHlo.after S34 V₀ (Proc.devRef .tc main_v320)
    = ilo (c0 (V₀ (Proc.devRef .tc main_v301))) := by host_read; rfl
theorem st34_xc (V₀ : Valuation τ sig (Elt Ideal)) : StableHlo.after S34 V₀ (Proc.devRef .tc main_v321)
    = ihi (c0 (V₀ (Proc.devRef .tc main_v301))) := by host_read; rfl
theorem st34_yf (V₀ : Valuation τ sig (Elt Ideal)) : StableHlo.after S34 V₀ (Proc.devRef .tc main_v322)
    = ilo (c1 (V₀ (Proc.devRef .tc main_v301))) := by host_read; rfl
theorem st34_yc (V₀ : Valuation τ sig (Elt Ideal)) : StableHlo.after S34 V₀ (Proc.devRef .tc main_v323)
    = ihi (c1 (V₀ (Proc.devRef .tc main_v301))) := by host_read; rfl
theorem st34_zf (V₀ : Valuation τ sig (Elt Ideal)) : StableHlo.after S34 V₀ (Proc.devRef .tc main_v324)
    = ilo (c2 (V₀ (Proc.devRef .tc main_v301))) := by host_read; rfl
theorem st34_zc (V₀ : Valuation τ sig (Elt Ideal)) : StableHlo.after S34 V₀ (Proc.devRef .tc main_v325)
    = ihi (c2 (V₀ (Proc.devRef .tc main_v301))) := by host_read; rfl
theorem st34_w0 (V₀ : Valuation τ sig (Elt Ideal)) : StableHlo.after S34 V₀ (Proc.devRef .tc main_v345)
    = wgtv (V₀ (Proc.devRef .tc main_v301)) 0 := by host_read; rfl
theorem st34_w1 (V₀ : Valuation τ sig (Elt Ideal)) : StableHlo.after S34 V₀ (Proc.devRef .tc main_v347)
    = wgtv (V₀ (Proc.devRef .tc main_v301)) 1 := by host_read; rfl
theorem st34_w2 (V₀ : Valuation τ sig (Elt Ideal)) : StableHlo.after S34 V₀ (Proc.devRef .tc main_v349)
    = wgtv (V₀ (Proc.devRef .tc main_v301)) 2 := by host_read; rfl
theorem st34_w3 (V₀ : Valuation τ sig (Elt Ideal)) : StableHlo.after S34 V₀ (Proc.devRef .tc main_v351)
    = wgtv (V₀ (Proc.devRef .tc main_v301)) 3 := by host_read; rfl
theorem st34_w4 (V₀ : Valuation τ sig (Elt Ideal)) : StableHlo.after S34 V₀ (Proc.devRef .tc main_v353)
    = wgtv (V₀ (Proc.devRef .tc main_v301)) 4 := by host_read; rfl
theorem st34_w5 (V₀ : Valuation τ sig (Elt Ideal)) : StableHlo.after S34 V₀ (Proc.devRef .tc main_v355)
    = wgtv (V₀ (Proc.devRef .tc main_v301)) 5 := by host_read; rfl
theorem st34_w6 (V₀ : Valuation τ sig (Elt Ideal)) : StableHlo.after S34 V₀ (Proc.devRef .tc main_v357)
    = wgtv (V₀ (Proc.devRef .tc main_v301)) 6 := by host_read; rfl
theorem st34_w7 (V₀ : Valuation τ sig (Elt Ideal)) : StableHlo.after S34 V₀ (Proc.devRef .tc main_v359)
    = wgtv (V₀ (Proc.devRef .tc main_v301)) 7 := by host_read; rfl

/-! ## The clamp, the scaling with its two clamp constants, and the head of the program -/

theorem st33 (V₀ : Valuation τ sig (Elt Ideal)) : StableHlo.after (hostOps0_33 (F := Ideal)) V₀ (Proc.devRef .tc main_v301)
    = clipv (V₀ (Proc.devRef .tc main_cst_82)) (V₀ (Proc.devRef .tc main_cst_83)) (V₀ (Proc.devRef .tc main_v300)) := by
  host_read; simp only [TRef.ofBuf, TRef.toBuf, cast_eq]; rfl

theorem st32_scaled (V₀ : Valuation τ sig (Elt Ideal)) : StableHlo.after S32 V₀ (Proc.devRef .tc main_v300)
    = scalev (V₀ (Proc.devRef .tc main_cst_0)) (V₀ (Proc.devRef .tc main_v0)) := by
  have key : ∀ W : Valuation τ sig (Elt Ideal), StableHlo.after ((S32.drop 281).take 3) W (Proc.devRef .tc main_v300)
      = scalev (W (Proc.devRef .tc main_cst_0)) (W (Proc.devRef .tc main_v0)) := by
    intro W
    simp only [List.drop_succ_cons, List.drop_zero, List.take_succ_cons, List.take_zero]
    host_read
    rfl
  rw [read_mid S32 281 3 V₀ _ (by decide), key, keep S32 281 V₀ main_cst_0 (by decide), keep S32 281 V₀ main_v0 (by decide)]

theorem st32_lo (V₀ : Valuation τ sig (Elt Ideal)) : StableHlo.after S32 V₀ (Proc.devRef .tc main_cst_82)
    = constant (F := Ideal) S_ .f32 0x3C23D70A#32 := by
  have key : ∀ W : Valuation τ sig (Elt Ideal), StableHlo.after ((S32.drop 284).take 1) W (Proc.devRef .tc main_cst_82)
      = constant (F := Ideal) S_ .f32 0x3C23D70A#32 := by
    intro W
    simp only [List.drop_succ_cons, List.drop_zero, List.take_succ_cons, List.take_zero]
    host_read
  rw [read_mid S32 284 1 V₀ _ (by decide), key]

theorem st32_hi (V₀ : Valuation τ sig (Elt Ideal)) : StableHlo.after S32 V₀ (Proc.devRef .tc main_cst_83)
    = constant (F := Ideal) S_ .f32 0x41F7EB85#32 := by
  have key : ∀ W : Valuation τ sig (Elt Ideal), StableHlo.after ((S32.drop 285).take 1) W (Proc.devRef .tc main_cst_83)
      = constant (F := Ideal) S_ .f32 0x41F7EB85#32 := by
    intro W
    simp only [List.drop_succ_cons, List.drop_zero, List.take_succ_cons, List.take_zero]
    host_read
  rw [read_mid S32 285 1 V₀ _ (by decide), key]

theorem st0_scale (V₀ : Valuation τ sig (Elt Ideal)) : StableHlo.after (hostOps0 (F := Ideal)) V₀ (Proc.devRef .tc main_cst_0)
    = constant (F := Ideal) S3 .f32 0x42000000#32 := by host_read
theorem st0_flat (V₀ : Valuation τ sig (Elt Ideal)) : StableHlo.after (hostOps0 (F := Ideal)) V₀ (Proc.devRef .tc main_v0)
    = flat (V₀ (Proc.devRef .tc main_arg5)) := by host_read; rfl
theorem st0_bid (V₀ : Valuation τ sig (Elt Ideal)) : StableHlo.after (hostOps0 (F := Ideal)) V₀ (Proc.devRef .tc main_v3)
    = bid := by host_read; rfl

end Cert.KernelIdeal.Val2

end
-- ==== Proof.KI.Prefix2Gather.lean ====
/-
  Level 2 of the sampling, read out of the program's lines of host operations: the last line, which stacks the weights
  and gathers the eight corners.

  Each theorem takes that line run from arbitrary contents `V₀` and says what one buffer holds afterwards: the weight
  stack as `cwv` of the eight padded weight vectors, and each gather as `gq` of the feature array and the four padded
  start components it reads. The line is cut in three around the operations of the buffer read: the part after them
  does not write that buffer, the part before them does not write their inputs (decided over the written references).
-/
import proofs.«414534_j76854144795318_3_alg».proof.Proof.Gen.KernelIdeal.Launch
import proofs.«414534_j76854144795318_3_alg».proof.Proof.KI.Prefix2Ops

set_option maxRecDepth 16384

noncomputable section
namespace Cert.KernelIdeal.Val2
open Cert.KernelIdeal Cert.KernelIdeal.Gen Idealize.ShloMosaic Idealize.ShloMosaic.ValueIdx Idealize.ShloMosaic.StableHlo

/-- The last line of level 2, at the extended reals. -/
abbrev S64 : List (HloOp τ sig (Elt Ideal)) := hostOps0_64

/-! ## The line holding the weight stack and the eight gathers -/

/-- The weight stack: the eight padded weight vectors as columns, side by side. -/
theorem st64_cw (V₀ : Valuation τ sig (Elt Ideal)) :
    StableHlo.after S64 V₀ (Proc.devRef .tc main_v383)
      = cwv (V₀ (Proc.devRef .tc main_v367)) (V₀ (Proc.devRef .tc main_v368)) (V₀ (Proc.devRef .tc main_v369)) (V₀ (Proc.devRef .tc main_v370))
          (V₀ (Proc.devRef .tc main_v371)) (V₀ (Proc.devRef .tc main_v372)) (V₀ (Proc.devRef .tc main_v373)) (V₀ (Proc.devRef .tc main_v374)) := by
  have key : ∀ W : Valuation τ sig (Elt Ideal), StableHlo.after ((S64.drop 0).take 9) W (Proc.devRef .tc main_v383)
      = cwv (W (Proc.devRef .tc main_v367)) (W (Proc.devRef .tc main_v368)) (W (Proc.devRef .tc main_v369)) (W (Proc.devRef .tc main_v370))
          (W (Proc.devRef .tc main_v371)) (W (Proc.devRef .tc main_v372)) (W (Proc.devRef .tc main_v373)) (W (Proc.devRef .tc main_v374)) := by
    intro W
    simp only [List.drop_succ_cons, List.drop_zero, List.take_succ_cons, List.take_zero]
    host_read
    rfl
  rw [read_mid S64 0 9 V₀ _ (by decide), key]
  rfl

/-- The gather at (x ceiling, y ceiling, z ceiling). -/
theorem st64_q0 (V₀ : Valuation τ sig (Elt Ideal)) :
    StableHlo.after S64 V₀ (Proc.devRef .tc main_v409)
      = gq (V₀ (Proc.devRef .tc main_arg2)) (V₀ (Proc.devRef .tc main_v360)) (V₀ (Proc.devRef .tc main_v362)) (V₀ (Proc.devRef .tc main_v364)) (V₀ (Proc.devRef .tc main_v366)) := by
  have key : ∀ W : Valuation τ sig (Elt Ideal), StableHlo.after ((S64.drop 9).take 34) W (Proc.devRef .tc main_v409)
      = gq (W (Proc.devRef .tc main_arg2)) (W (Proc.devRef .tc main_v360)) (W (Proc.devRef .tc main_v362)) (W (Proc.devRef .tc main_v364)) (W (Proc.devRef .tc main_v366)) := by
    intro W
    simp only [List.drop_succ_cons, List.drop_zero, List.take_succ_cons, List.take_zero]
    host_read
    rfl
  rw [read_mid S64 9 34 V₀ _ (by decide), key, keep S64 9 V₀ main_arg2 (by decide), keep S64 9 V₀ main_v360 (by decide),
    keep S64 9 V₀ main_v362 (by decide), keep S64 9 V₀ main_v364 (by decide), keep S64 9 V₀ main_v366 (by decide)]

/-- The gather at (x floor, y ceiling, z ceiling). -/
theorem st64_q1 (V₀ : Valuation τ sig (Elt Ideal)) :
    StableHlo.after S64 V₀ (Proc.devRef .tc main_v435)
      = gq (V₀ (Proc.devRef .tc main_arg2)) (V₀ (Proc.devRef .tc main_v360)) (V₀ (Proc.devRef .tc main_v361)) (V₀ (Proc.devRef .tc main_v364)) (V₀ (Proc.devRef .tc main_v366)) := by
  have key : ∀ W : Valuation τ sig (Elt Ideal), StableHlo.after ((S64.drop 43).take 34) W (Proc.devRef .tc main_v435)
      = gq (W (Proc.devRef .tc main_arg2)) (W (Proc.devRef .tc main_v360)) (W (Proc.devRef .tc main_v361)) (W (Proc.devRef .tc main_v364)) (W (Proc.devRef .tc main_v366)) := by
    intro W
    simp only [List.drop_succ_cons, List.drop_zero, List.take_succ_cons, List.take_zero]
    host_read
    rfl
  rw [read_mid S64 43 34 V₀ _ (by decide), key, keep S64 43 V₀ main_arg2 (by decide), keep S64 43 V₀ main_v360 (by decide),
    keep S64 43 V₀ main_v361 (by decide), keep S64 43 V₀ main_v364 (by decide), keep S64 43 V₀ main_v366 (by decide)]

/-- The gather at (x ceiling, y floor, z ceiling). -/
theorem st64_q2 (V₀ : Valuation τ sig (Elt Ideal)) :
    StableHlo.after S64 V₀ (Proc.devRef .tc main_v461)
      = gq (V₀ (Proc.devRef .tc main_arg2)) (V₀ (Proc.devRef .tc main_v360)) (V₀ (Proc.devRef .tc main_v362)) (V₀ (Proc.devRef .tc main_v363)) (V₀ (Proc.devRef .tc main_v366)) := by
  have key : ∀ W : Valuation τ sig (Elt Ideal), StableHlo.after ((S64.drop 77).take 34) W (Proc.devRef .tc main_v461)
      = gq (W (Proc.devRef .tc main_arg2)) (W (Proc.devRef .tc main_v360)) (W (Proc.devRef .tc main_v362)) (W (Proc.devRef .tc main_v363)) (W (Proc.devRef .tc main_v366)) := by
    intro W
    simp only [List.drop_succ_cons, List.drop_zero, List.take_succ_cons, List.take_zero]
    host_read
    rfl
  rw [read_mid S64 77 34 V₀ _ (by decide), key, keep S64 77 V₀ main_arg2 (by decide), keep S64 77 V₀ main_v360 (by decide),
    keep S64 77 V₀ main_v362 (by decide), keep S64 77 V₀ main_v363 (by decide), keep S64 77 V₀ main_v366 (by decide)]

/-- The gather at (x floor, y floor, z ceiling). -/
theorem st64_q3 (V₀ : Valuation τ sig (Elt Ideal)) :
    StableHlo.after S64 V₀ (Proc.devRef .tc main_v487)
      = gq (V₀ (Proc.devRef .tc main_arg2)) (V₀ (Proc.devRef .tc main_v360)) (V₀ (Proc.devRef .tc main_v361)) (V₀ (Proc.devRef .tc main_v363)) (V₀ (Proc.devRef .tc main_v366)) := by
  have key : ∀ W : Valuation τ sig (Elt Ideal), StableHlo.after ((S64.drop 111).take 34) W (Proc.devRef .tc main_v487)
      = gq (W (Proc.devRef .tc main_arg2)) (W (Proc.devRef .tc main_v360)) (W (Proc.devRef .tc main_v361)) (W (Proc.devRef .tc main_v363)) (W (Proc.devRef .tc main_v366)) := by
    intro W
    simp only [List.drop_succ_cons, List.drop_zero, List.take_succ_cons, List.take_zero]
    host_read
    rfl
  rw [read_mid S64 111 34 V₀ _ (by decide), key, keep S64 111 V₀ main_arg2 (by decide), keep S64 111 V₀ main_v360 (by decide),
    keep S64 111 V₀ main_v361 (by decide), keep S64 111 V₀ main_v363 (by decide), keep S64 111 V₀ main_v366 (by decide)]

/-- The gather at (x ceiling, y ceiling, z floor). -/
theorem st64_q4 (V₀ : Valuation τ sig (Elt Ideal)) :
    StableHlo.after S64 V₀ (Proc.devRef .tc main_v513)
      = gq (V₀ (Proc.devRef .tc main_arg2)) (V₀ (Proc.devRef .tc main_v360)) (V₀ (Proc.devRef .tc main_v362)) (V₀ (Proc.devRef .tc main_v364)) (V₀ (Proc.devRef .tc main_v365)) := by
  have key : ∀ W : Valuation τ sig (Elt Ideal), StableHlo.after ((S64.drop 145).take 34) W (Proc.devRef .tc main_v513)
      = gq (W (Proc.devRef .tc main_arg2)) (W (Proc.devRef .tc main_v360)) (W (Proc.devRef .tc main_v362)) (W (Proc.devRef .tc main_v364)) (W (Proc.devRef .tc main_v365)) := by
    intro W
    simp only [List.drop_succ_cons, List.drop_zero, List.take_succ_cons, List.take_zero]
    host_read
    rfl
  rw [read_mid S64 145 34 V₀ _ (by decide), key, keep S64 145 V₀ main_arg2 (by decide), keep S64 145 V₀ main_v360 (by decide),
    keep S64 145 V₀ main_v362 (by decide), keep S64 145 V₀ main_v364 (by decide), keep S64 145 V₀ main_v365 (by decide)]

/-- The gather at (x floor, y ceiling, z floor). -/
theorem st64_q5 (V₀ : Valuation τ sig (Elt Ideal)) :
    StableHlo.after S64 V₀ (Proc.devRef .tc main_v539)
      = gq (V₀ (Proc.devRef .tc main_arg2)) (V₀ (Proc.devRef .tc main_v360)) (V₀ (Proc.devRef .tc main_v361)) (V₀ (Proc.devRef .tc main_v364)) (V₀ (Proc.devRef .tc main_v365)) := by
  have key : ∀ W : Valuation τ sig (Elt Ideal), StableHlo.after ((S64.drop 179).take 34) W (Proc.devRef .tc main_v539)
      = gq (W (Proc.devRef .tc main_arg2)) (W (Proc.devRef .tc main_v360)) (W (Proc.devRef .tc main_v361)) (W (Proc.devRef .tc main_v364)) (W (Proc.devRef .tc main_v365)) := by
    intro W
    simp only [List.drop_succ_cons, List.drop_zero, List.take_succ_cons, List.take_zero]
    host_read
    rfl
  rw [read_mid S64 179 34 V₀ _ (by decide), key, keep S64 179 V₀ main_arg2 (by decide), keep S64 179 V₀ main_v360 (by decide),
    keep S64 179 V₀ main_v361 (by decide), keep S64 179 V₀ main_v364 (by decide), keep S64 179 V₀ main_v365 (by decide)]

/-- The gather at (x ceiling, y floor, z floor). -/
theorem st64_q6 (V₀ : Valuation τ sig (Elt Ideal)) :
    StableHlo.after S64 V₀ (Proc.devRef .tc main_v565)
      = gq (V₀ (Proc.devRef .tc main_arg2)) (V₀ (Proc.devRef .tc main_v360)) (V₀ (Proc.devRef .tc main_v362)) (V₀ (Proc.devRef .tc main_v363)) (V₀ (Proc.devRef .tc main_v365)) := by
  have key : ∀ W : Valuation τ sig (Elt Ideal), StableHlo.after ((S64.drop 213).take 34) W (Proc.devRef .tc main_v565)
      = gq (W (Proc.devRef .tc main_arg2)) (W (Proc.devRef .tc main_v360)) (W (Proc.devRef .tc main_v362)) (W (Proc.devRef .tc main_v363)) (W (Proc.devRef .tc main_v365)) := by
    intro W
    simp only [List.drop_succ_cons, List.drop_zero, List.take_succ_cons, List.take_zero]
    host_read
    rfl
  rw [read_mid S64 213 34 V₀ _ (by decide), key, keep S64 213 V₀ main_arg2 (by decide), keep S64 213 V₀ main_v360 (by decide),
    keep S64 213 V₀ main_v362 (by decide), keep S64 213 V₀ main_v363 (by decide), keep S64 213 V₀ main_v365 (by decide)]

/-- The gather at (x floor, y floor, z floor). -/
theorem st64_q7 (V₀ : Valuation τ sig (Elt Ideal)) :
    StableHlo.after S64 V₀ (Proc.devRef .tc main_v591)
      = gq (V₀ (Proc.devRef .tc main_arg2)) (V₀ (Proc.devRef .tc main_v360)) (V₀ (Proc.devRef .tc main_v361)) (V₀ (Proc.devRef .tc main_v363)) (V₀ (Proc.devRef .tc main_v365)) := by
  have key : ∀ W : Valuation τ sig (Elt Ideal), StableHlo.after ((S64.drop 247).take 34) W (Proc.devRef .tc main_v591)
      = gq (W (Proc.devRef .tc main_arg2)) (W (Proc.devRef .tc main_v360)) (W (Proc.devRef .tc main_v361)) (W (Proc.devRef .tc main_v363)) (W (Proc.devRef .tc main_v365)) := by
    intro W
    simp only [List.drop_succ_cons, List.drop_zero, List.take_succ_cons, List.take_zero]
    host_read
    rfl
  rw [read_mid S64 247 34 V₀ _ (by decide), key, keep S64 247 V₀ main_arg2 (by decide), keep S64 247 V₀ main_v360 (by decide),
    keep S64 247 V₀ main_v361 (by decide), keep S64 247 V₀ main_v363 (by decide), keep S64 247 V₀ main_v365 (by decide)]

end Cert.KernelIdeal.Val2

end
-- ==== Proof.KI.Prefix2.lean ====
/-
  Level 2 of the sampling at the entry of the kernel's region: what the weight stack and the eight gathered arrays hold
  at a row r = b * 100000 + n < 200000, in the specification's words.

  Every buffer of level 2 is read out of the one line of host operations that writes it, as an array function of
  buffers written earlier (the program is in single-assignment form); the chain of these equations, read at one index,
  runs from the gathered arrays and the weight stack back to the argument arrays: padding reads its operand below row
  200000; a column of the clamped scaled coordinates at r is `Spec.uc` of the point's coordinate; the batch number
  of row r is b, which wrapping leaves alone and clamping reads back; and so weight column i at r is `Spec.wgt … i`
  and gather k at (r, ch) is `Spec.crn … k ch`.
-/
import proofs.«414534_j76854144795318_3_alg».proof.Proof.KI.Peel
import proofs.«414534_j76854144795318_3_alg».proof.Proof.KI.Prefix2Read
import proofs.«414534_j76854144795318_3_alg».proof.Proof.KI.Prefix2Gather
import Idealize.ShloMosaic.Lib.StableHlo.Predicate

set_option maxRecDepth 16384

noncomputable section

namespace Cert.KernelIdeal.Val2
open Cert.KernelIdeal Cert.KernelIdeal.Gen Cert.KernelIdeal.Hand Idealize.ShloMosaic Idealize.ShloMosaic.ValueIdx Idealize.ShloMosaic.TcCoe

variable (m : (ℓ : Loc nD τ sig) → Buf (Elt Ideal) ℓ) (c : Dev nD)

/-! ## The weight stack of a clamped coordinate array, at a row -/

/-- The stack of the eight padded weight vectors of a clamped coordinate array `u`, read at a row below 200000 and column
    `i`: the point's weight `i`. -/
theorem cw_row (u : FVec Ideal S200000x3 .f32) (p0 p1 p2 p3 p4 p5 p6 p7 : FVec Ideal S_ .f32) (r : Fin 200704) (r' : Fin 200000)
    (h : r.val = r'.val) (s hi x y z : EReal)
    (hx : u (ix2 r' (0 : Fin 3)) = Cert.Spec.uc s hi x) (hy : u (ix2 r' (1 : Fin 3)) = Cert.Spec.uc s hi y)
    (hz : u (ix2 r' (2 : Fin 3)) = Cert.Spec.uc s hi z) (i : Fin 8) :
    cwv (padv (wgtv u 0) p0) (padv (wgtv u 1) p1) (padv (wgtv u 2) p2) (padv (wgtv u 3) p3)
        (padv (wgtv u 4) p4) (padv (wgtv u 5) p5) (padv (wgtv u 6) p6) (padv (wgtv u 7) p7) (ix2 r i)
      = Cert.Spec.wgt s hi x y z i := by
  refine (cwv_apply ![padv (wgtv u 0) p0, padv (wgtv u 1) p1, padv (wgtv u 2) p2, padv (wgtv u 3) p3,
    padv (wgtv u 4) p4, padv (wgtv u 5) p5, padv (wgtv u 6) p6, padv (wgtv u 7) p7] r i).trans ?_
  match i with
  | 0 => exact (padv_apply _ _ r r' h).trans (wgtv_apply u r' s hi x y z hx hy hz 0)
  | 1 => exact (padv_apply _ _ r r' h).trans (wgtv_apply u r' s hi x y z hx hy hz 1)
  | 2 => exact (padv_apply _ _ r r' h).trans (wgtv_apply u r' s hi x y z hx hy hz 2)
  | 3 => exact (padv_apply _ _ r r' h).trans (wgtv_apply u r' s hi x y z hx hy hz 3)
  | 4 => exact (padv_apply _ _ r r' h).trans (wgtv_apply u r' s hi x y z hx hy hz 4)
  | 5 => exact (padv_apply _ _ r r' h).trans (wgtv_apply u r' s hi x y z hx hy hz 5)
  | 6 => exact (padv_apply _ _ r r' h).trans (wgtv_apply u r' s hi x y z hx hy hz 6)
  | 7 => exact (padv_apply _ _ r r' h).trans (wgtv_apply u r' s hi x y z hx hy hz 7)

set_option quotPrecheck false in
local notation "Vf[" S "]" b => (V (F := Ideal) m c b : FVec Ideal S FTy.f32)
set_option quotPrecheck false in
local notation "Vi[" S "]" b => (V (F := Ideal) m c b : IVec S 32)

/-! ## Each buffer of level 2 out of the line that writes it -/

theorem e_cw : (Vf[S200704x8] main_v383)
    = cwv (Vf[S200704] main_v367) (Vf[S200704] main_v368) (Vf[S200704] main_v369) (Vf[S200704] main_v370)
        (Vf[S200704] main_v371) (Vf[S200704] main_v372) (Vf[S200704] main_v373) (Vf[S200704] main_v374) := by
  rewrite [V_eq_stretch m 64 hostOps0_64 rfl c main_v383 (by decide)]
  refine (st64_cw (U m 64 c)).trans ?_
  rewrite [← V_eq_U m 64 c main_v367 (by decide), ← V_eq_U m 64 c main_v368 (by decide), ← V_eq_U m 64 c main_v369 (by decide),
    ← V_eq_U m 64 c main_v370 (by decide), ← V_eq_U m 64 c main_v371 (by decide), ← V_eq_U m 64 c main_v372 (by decide),
    ← V_eq_U m 64 c main_v373 (by decide), ← V_eq_U m 64 c main_v374 (by decide)]
  rfl

theorem e_q0 : (Vf[S200704x64] main_v409)
    = gq (Vf[S2x32x32x32x64] main_arg2) (Vi[S200704] main_v360) (Vi[S200704] main_v362) (Vi[S200704] main_v364) (Vi[S200704] main_v366) := by
  rewrite [V_eq_stretch m 64 hostOps0_64 rfl c main_v409 (by decide)]
  refine (st64_q0 (U m 64 c)).trans ?_
  rewrite [← V_eq_U m 64 c main_arg2 (by decide), ← V_eq_U m 64 c main_v360 (by decide), ← V_eq_U m 64 c main_v362 (by decide),
    ← V_eq_U m 64 c main_v364 (by decide), ← V_eq_U m 64 c main_v366 (by decide)]
  rfl

theorem e_q1 : (Vf[S200704x64] main_v435)
    = gq (Vf[S2x32x32x32x64] main_arg2) (Vi[S200704] main_v360) (Vi[S200704] main_v361) (Vi[S200704] main_v364) (Vi[S200704] main_v366) := by
  rewrite [V_eq_stretch m 64 hostOps0_64 rfl c main_v435 (by decide)]
  refine (st64_q1 (U m 64 c)).trans ?_
  rewrite [← V_eq_U m 64 c main_arg2 (by decide), ← V_eq_U m 64 c main_v360 (by decide), ← V_eq_U m 64 c main_v361 (by decide),
    ← V_eq_U m 64 c main_v364 (by decide), ← V_eq_U m 64 c main_v366 (by decide)]
  rfl

theorem e_q2 : (Vf[S200704x64] main_v461)
    = gq (Vf[S2x32x32x32x64] main_arg2) (Vi[S200704] main_v360) (Vi[S200704] main_v362) (Vi[S200704] main_v363) (Vi[S200704] main_v366) := by
  rewrite [V_eq_stretch m 64 hostOps0_64 rfl c main_v461 (by decide)]
  refine (st64_q2 (U m 64 c)).trans ?_
  rewrite [← V_eq_U m 64 c main_arg2 (by decide), ← V_eq_U m 64 c main_v360 (by decide), ← V_eq_U m 64 c main_v362 (by decide),
    ← V_eq_U m 64 c main_v363 (by decide), ← V_eq_U m 64 c main_v366 (by decide)]
  rfl

theorem e_q3 : (Vf[S200704x64] main_v487)
    = gq (Vf[S2x32x32x32x64] main_arg2) (Vi[S200704] main_v360) (Vi[S200704] main_v361) (Vi[S200704] main_v363) (Vi[S200704] main_v366) := by
  rewrite [V_eq_stretch m 64 hostOps0_64 rfl c main_v487 (by decide)]
  refine (st64_q3 (U m 64 c)).trans ?_
  rewrite [← V_eq_U m 64 c main_arg2 (by decide), ← V_eq_U m 64 c main_v360 (by decide), ← V_eq_U m 64 c main_v361 (by decide),
    ← V_eq_U m 64 c main_v363 (by decide), ← V_eq_U m 64 c main_v366 (by decide)]
  rfl

theorem e_q4 : (Vf[S200704x64] main_v513)
    = gq (Vf[S2x32x32x32x64] main_arg2) (Vi[S200704] main_v360) (Vi[S200704] main_v362) (Vi[S200704] main_v364) (Vi[S200704] main_v365) := by
  rewrite [V_eq_stretch m 64 hostOps0_64 rfl c main_v513 (by decide)]
  refine (st64_q4 (U m 64 c)).trans ?_
  rewrite [← V_eq_U m 64 c main_arg2 (by decide), ← V_eq_U m 64 c main_v360 (by decide), ← V_eq_U m 64 c main_v362 (by decide),
    ← V_eq_U m 64 c main_v364 (by decide), ← V_eq_U m 64 c main_v365 (by decide)]
  rfl

theorem e_q5 : (Vf[S200704x64] main_v539)
    = gq (Vf[S2x32x32x32x64] main_arg2) (Vi[S200704] main_v360) (Vi[S200704] main_v361) (Vi[S200704] main_v364) (Vi[S200704] main_v365) := by
  rewrite [V_eq_stretch m 64 hostOps0_64 rfl c main_v539 (by decide)]
  refine (st64_q5 (U m 64 c)).trans ?_
  rewrite [← V_eq_U m 64 c main_arg2 (by decide), ← V_eq_U m 64 c main_v360 (by decide), ← V_eq_U m 64 c main_v361 (by decide),
    ← V_eq_U m 64 c main_v364 (by decide), ← V_eq_U m 64 c main_v365 (by decide)]
  rfl

theorem e_q6 : (Vf[S200704x64] main_v565)
    = gq (Vf[S2x32x32x32x64] main_arg2) (Vi[S200704] main_v360) (Vi[S200704] main_v362) (Vi[S200704] main_v363) (Vi[S200704] main_v365) := by
  rewrite [V_eq_stretch m 64 hostOps0_64 rfl c main_v565 (by decide)]
  refine (st64_q6 (U m 64 c)).trans ?_
  rewrite [← V_eq_U m 64 c main_arg2 (by decide), ← V_eq_U m 64 c main_v360 (by decide), ← V_eq_U m 64 c main_v362 (by decide),
    ← V_eq_U m 64 c main_v363 (by decide), ← V_eq_U m 64 c main_v365 (by decide)]
  rfl

theorem e_q7 : (Vf[S200704x64] main_v591)
    = gq (Vf[S2x32x32x32x64] main_arg2) (Vi[S200704] main_v360) (Vi[S200704] main_v361) (Vi[S200704] main_v363) (Vi[S200704] main_v365) := by
  rewrite [V_eq_stretch m 64 hostOps0_64 rfl c main_v591 (by decide)]
  refine (st64_q7 (U m 64 c)).trans ?_
  rewrite [← V_eq_U m 64 c main_arg2 (by decide), ← V_eq_U m 64 c main_v360 (by decide), ← V_eq_U m 64 c main_v361 (by decide),
    ← V_eq_U m 64 c main_v363 (by decide), ← V_eq_U m 64 c main_v365 (by decide)]
  rfl

/-! ### The paddings -/

theorem e_pB : (Vi[S200704] main_v360) = padv (Vi[S200000] main_v3) (Vi[S_] main_c_84) := by
  rewrite [V_eq_stretch m 35 hostOps0_35 rfl c main_v360 (by decide)]
  refine (st35 (U m 35 c)).trans ?_
  rewrite [← V_eq_U m 35 c main_v3 (by decide), ← V_eq_U m 35 c main_c_84 (by decide)]
  rfl
theorem e_pXf : (Vi[S200704] main_v361) = padv (Vi[S200000] main_v320) (Vi[S_] main_c_85) := by
  rewrite [V_eq_stretch m 37 hostOps0_37 rfl c main_v361 (by decide)]
  refine (st37 (U m 37 c)).trans ?_
  rewrite [← V_eq_U m 37 c main_v320 (by decide), ← V_eq_U m 37 c main_c_85 (by decide)]
  rfl
theorem e_pXc : (Vi[S200704] main_v362) = padv (Vi[S200000] main_v321) (Vi[S_] main_c_86) := by
  rewrite [V_eq_stretch m 39 hostOps0_39 rfl c main_v362 (by decide)]
  refine (st39 (U m 39 c)).trans ?_
  rewrite [← V_eq_U m 39 c main_v321 (by decide), ← V_eq_U m 39 c main_c_86 (by decide)]
  rfl
theorem e_pYf : (Vi[S200704] main_v363) = padv (Vi[S200000] main_v322) (Vi[S_] main_c_87) := by
  rewrite [V_eq_stretch m 41 hostOps0_41 rfl c main_v363 (by decide)]
  refine (st41 (U m 41 c)).trans ?_
  rewrite [← V_eq_U m 41 c main_v322 (by decide), ← V_eq_U m 41 c main_c_87 (by decide)]
  rfl
theorem e_pYc : (Vi[S200704] main_v364) = padv (Vi[S200000] main_v323) (Vi[S_] main_c_88) := by
  rewrite [V_eq_stretch m 43 hostOps0_43 rfl c main_v364 (by decide)]
  refine (st43 (U m 43 c)).trans ?_
  rewrite [← V_eq_U m 43 c main_v323 (by decide), ← V_eq_U m 43 c main_c_88 (by decide)]
  rfl
theorem e_pZf : (Vi[S200704] main_v365) = padv (Vi[S200000] main_v324) (Vi[S_] main_c_89) := by
  rewrite [V_eq_stretch m 45 hostOps0_45 rfl c main_v365 (by decide)]
  refine (st45 (U m 45 c)).trans ?_
  rewrite [← V_eq_U m 45 c main_v324 (by decide), ← V_eq_U m 45 c main_c_89 (by decide)]
  rfl
theorem e_pZc : (Vi[S200704] main_v366) = padv (Vi[S200000] main_v325) (Vi[S_] main_c_90) := by
  rewrite [V_eq_stretch m 47 hostOps0_47 rfl c main_v366 (by decide)]
  refine (st47 (U m 47 c)).trans ?_
  rewrite [← V_eq_U m 47 c main_v325 (by decide), ← V_eq_U m 47 c main_c_90 (by decide)]
  rfl
theorem e_pW0 : (Vf[S200704] main_v367) = padv (Vf[S200000] main_v345) (Vf[S_] main_cst_91) := by
  rewrite [V_eq_stretch m 49 hostOps0_49 rfl c main_v367 (by decide)]
  refine (st49 (U m 49 c)).trans ?_
  rewrite [← V_eq_U m 49 c main_v345 (by decide), ← V_eq_U m 49 c main_cst_91 (by decide)]
  rfl
theorem e_pW1 : (Vf[S200704] main_v368) = padv (Vf[S200000] main_v347) (Vf[S_] main_cst_92) := by
  rewrite [V_eq_stretch m 51 hostOps0_51 rfl c main_v368 (by decide)]
  refine (st51 (U m 51 c)).trans ?_
  rewrite [← V_eq_U m 51 c main_v347 (by decide), ← V_eq_U m 51 c main_cst_92 (by decide)]
  rfl
theorem e_pW2 : (Vf[S200704] main_v369) = padv (Vf[S200000] main_v349) (Vf[S_] main_cst_93) := by
  rewrite [V_eq_stretch m 53 hostOps0_53 rfl c main_v369 (by decide)]
  refine (st53 (U m 53 c)).trans ?_
  rewrite [← V_eq_U m 53 c main_v349 (by decide), ← V_eq_U m 53 c main_cst_93 (by decide)]
  rfl
theorem e_pW3 : (Vf[S200704] main_v370) = padv (Vf[S200000] main_v351) (Vf[S_] main_cst_94) := by
  rewrite [V_eq_stretch m 55 hostOps0_55 rfl c main_v370 (by decide)]
  refine (st55 (U m 55 c)).trans ?_
  rewrite [← V_eq_U m 55 c main_v351 (by decide), ← V_eq_U m 55 c main_cst_94 (by decide)]
  rfl
theorem e_pW4 : (Vf[S200704] main_v371) = padv (Vf[S200000] main_v353) (Vf[S_] main_cst_95) := by
  rewrite [V_eq_stretch m 57 hostOps0_57 rfl c main_v371 (by decide)]
  refine (st57 (U m 57 c)).trans ?_
  rewrite [← V_eq_U m 57 c main_v353 (by decide), ← V_eq_U m 57 c main_cst_95 (by decide)]
  rfl
theorem e_pW5 : (Vf[S200704] main_v372) = padv (Vf[S200000] main_v355) (Vf[S_] main_cst_96) := by
  rewrite [V_eq_stretch m 59 hostOps0_59 rfl c main_v372 (by decide)]
  refine (st59 (U m 59 c)).trans ?_
  rewrite [← V_eq_U m 59 c main_v355 (by decide), ← V_eq_U m 59 c main_cst_96 (by decide)]
  rfl
theorem e_pW6 : (Vf[S200704] main_v373) = padv (Vf[S200000] main_v357) (Vf[S_] main_cst_97) := by
  rewrite [V_eq_stretch m 61 hostOps0_61 rfl c main_v373 (by decide)]
  refine (st61 (U m 61 c)).trans ?_
  rewrite [← V_eq_U m 61 c main_v357 (by decide), ← V_eq_U m 61 c main_cst_97 (by decide)]
  rfl
theorem e_pW7 : (Vf[S200704] main_v374) = padv (Vf[S200000] main_v359) (Vf[S_] main_cst_98) := by
  rewrite [V_eq_stretch m 63 hostOps0_63 rfl c main_v374 (by decide)]
  refine (st63 (U m 63 c)).trans ?_
  rewrite [← V_eq_U m 63 c main_v359 (by decide), ← V_eq_U m 63 c main_cst_98 (by decide)]
  rfl

/-! ### The lattice index vectors and the weight vectors, the clamp, the scaling, the head of the program -/

theorem e_xf : (Vi[S200000] main_v320) = ilo (c0 (Vf[S200000x3] main_v301)) := by
  rewrite [V_eq_stretch m 34 hostOps0_34 rfl c main_v320 (by decide)]
  refine (st34_xf (U m 34 c)).trans ?_
  rewrite [← V_eq_U m 34 c main_v301 (by decide)]
  rfl
theorem e_xc : (Vi[S200000] main_v321) = ihi (c0 (Vf[S200000x3] main_v301)) := by
  rewrite [V_eq_stretch m 34 hostOps0_34 rfl c main_v321 (by decide)]
  refine (st34_xc (U m 34 c)).trans ?_
  rewrite [← V_eq_U m 34 c main_v301 (by decide)]
  rfl
theorem e_yf : (Vi[S200000] main_v322) = ilo (c1 (Vf[S200000x3] main_v301)) := by
  rewrite [V_eq_stretch m 34 hostOps0_34 rfl c main_v322 (by decide)]
  refine (st34_yf (U m 34 c)).trans ?_
  rewrite [← V_eq_U m 34 c main_v301 (by decide)]
  rfl
theorem e_yc : (Vi[S200000] main_v323) = ihi (c1 (Vf[S200000x3] main_v301)) := by
  rewrite [V_eq_stretch m 34 hostOps0_34 rfl c main_v323 (by decide)]
  refine (st34_yc (U m 34 c)).trans ?_
  rewrite [← V_eq_U m 34 c main_v301 (by decide)]
  rfl
theorem e_zf : (Vi[S200000] main_v324) = ilo (c2 (Vf[S200000x3] main_v301)) := by
  rewrite [V_eq_stretch m 34 hostOps0_34 rfl c main_v324 (by decide)]
  refine (st34_zf (U m 34 c)).trans ?_
  rewrite [← V_eq_U m 34 c main_v301 (by decide)]
  rfl
theorem e_zc : (Vi[S200000] main_v325) = ihi (c2 (Vf[S200000x3] main_v301)) := by
  rewrite [V_eq_stretch m 34 hostOps0_34 rfl c main_v325 (by decide)]
  refine (st34_zc (U m 34 c)).trans ?_
  rewrite [← V_eq_U m 34 c main_v301 (by decide)]
  rfl
theorem e_w0 : (Vf[S200000] main_v345) = wgtv (Vf[S200000x3] main_v301) 0 := by
  rewrite [V_eq_stretch m 34 hostOps0_34 rfl c main_v345 (by decide)]
  refine (st34_w0 (U m 34 c)).trans ?_
  rewrite [← V_eq_U m 34 c main_v301 (by decide)]
  rfl
theorem e_w1 : (Vf[S200000] main_v347) = wgtv (Vf[S200000x3] main_v301) 1 := by
  rewrite [V_eq_stretch m 34 hostOps0_34 rfl c main_v347 (by decide)]
  refine (st34_w1 (U m 34 c)).trans ?_
  rewrite [← V_eq_U m 34 c main_v301 (by decide)]
  rfl
theorem e_w2 : (Vf[S200000] main_v349) = wgtv (Vf[S200000x3] main_v301) 2 := by
  rewrite [V_eq_stretch m 34 hostOps0_34 rfl c main_v349 (by decide)]
  refine (st34_w2 (U m 34 c)).trans ?_
  rewrite [← V_eq_U m 34 c main_v301 (by decide)]
  rfl
theorem e_w3 : (Vf[S200000] main_v351) = wgtv (Vf[S200000x3] main_v301) 3 := by
  rewrite [V_eq_stretch m 34 hostOps0_34 rfl c main_v351 (by decide)]
  refine (st34_w3 (U m 34 c)).trans ?_
  rewrite [← V_eq_U m 34 c main_v301 (by decide)]
  rfl
theorem e_w4 : (Vf[S200000] main_v353) = wgtv (Vf[S200000x3] main_v301) 4 := by
  rewrite [V_eq_stretch m 34 hostOps0_34 rfl c main_v353 (by decide)]
  refine (st34_w4 (U m 34 c)).trans ?_
  rewrite [← V_eq_U m 34 c main_v301 (by decide)]
  rfl
theorem e_w5 : (Vf[S200000] main_v355) = wgtv (Vf[S200000x3] main_v301) 5 := by
  rewrite [V_eq_stretch m 34 hostOps0_34 rfl c main_v355 (by decide)]
  refine (st34_w5 (U m 34 c)).trans ?_
  rewrite [← V_eq_U m 34 c main_v301 (by decide)]
  rfl
theorem e_w6 : (Vf[S200000] main_v357) = wgtv (Vf[S200000x3] main_v301) 6 := by
  rewrite [V_eq_stretch m 34 hostOps0_34 rfl c main_v357 (by decide)]
  refine (st34_w6 (U m 34 c)).trans ?_
  rewrite [← V_eq_U m 34 c main_v301 (by decide)]
  rfl
theorem e_w7 : (Vf[S200000] main_v359) = wgtv (Vf[S200000x3] main_v301) 7 := by
  rewrite [V_eq_stretch m 34 hostOps0_34 rfl c main_v359 (by decide)]
  refine (st34_w7 (U m 34 c)).trans ?_
  rewrite [← V_eq_U m 34 c main_v301 (by decide)]
  rfl

theorem e_clip : (Vf[S200000x3] main_v301)
    = clipv (Vf[S_] main_cst_82) (Vf[S_] main_cst_83) (Vf[S200000x3] main_v300) := by
  rewrite [V_eq_stretch m 33 hostOps0_33 rfl c main_v301 (by decide)]
  refine (st33 (U m 33 c)).trans ?_
  rewrite [← V_eq_U m 33 c main_cst_82 (by decide), ← V_eq_U m 33 c main_cst_83 (by decide), ← V_eq_U m 33 c main_v300 (by decide)]
  rfl
theorem e_scaled : (Vf[S200000x3] main_v300) = scalev (Vf[S3] main_cst_0) (Vf[S200000x3] main_v0) := by
  rewrite [V_eq_stretch m 32 hostOps0_32 rfl c main_v300 (by decide)]
  refine (st32_scaled (U m 32 c)).trans ?_
  rewrite [← V_eq_U m 32 c main_cst_0 (by decide), ← V_eq_U m 32 c main_v0 (by decide)]
  rfl
theorem e_lo : (Vf[S_] main_cst_82) = constant (F := Ideal) S_ .f32 0x3C23D70A#32 := by
  rewrite [V_eq_stretch m 32 hostOps0_32 rfl c main_cst_82 (by decide)]
  exact st32_lo (U m 32 c)
theorem e_hi : (Vf[S_] main_cst_83) = constant (F := Ideal) S_ .f32 0x41F7EB85#32 := by
  rewrite [V_eq_stretch m 32 hostOps0_32 rfl c main_cst_83 (by decide)]
  exact st32_hi (U m 32 c)
theorem e_scale : (Vf[S3] main_cst_0) = constant (F := Ideal) S3 .f32 0x42000000#32 := by
  rewrite [V_eq_stretch m 0 hostOps0 rfl c main_cst_0 (by decide)]
  exact st0_scale (U m 0 c)
theorem e_flat : (Vf[S200000x3] main_v0) = flat (Vf[S2x100000x3] main_arg5) := by
  rewrite [V_eq_stretch m 0 hostOps0 rfl c main_v0 (by decide)]
  refine (st0_flat (U m 0 c)).trans ?_
  rewrite [← V_eq_U m 0 c main_arg5 (by decide)]
  rfl
theorem e_bid : (Vi[S200000] main_v3) = bid := by
  rewrite [V_eq_stretch m 0 hostOps0 rfl c main_v3 (by decide)]
  exact st0_bid (U m 0 c)

/-! ## The chain read at one row -/

/-- The point's raw coordinate `a`, in the argument array. -/
abbrev co (b : Fin 2) (n : Fin 100000) (a : Fin 3) : EReal :=
  (m ((c : Thread nD τ).loc main_arg5) : S2x100000x3.Idx → EReal) (ix3 b n a)

theorem c0_apply (u : FVec Ideal S200000x3 .f32) (r : Fin 200000) : c0 u (ix1 r) = u (ix2 r (0 : Fin 3)) := col_apply 0 _ u r
theorem c1_apply (u : FVec Ideal S200000x3 .f32) (r : Fin 200000) : c1 u (ix1 r) = u (ix2 r (1 : Fin 3)) := col_apply 1 _ u r
theorem c2_apply (u : FVec Ideal S200000x3 .f32) (r : Fin 200000) : c2 u (ix1 r) = u (ix2 r (2 : Fin 3)) := col_apply 2 _ u r

/-- The clamped scaled coordinates at row `r`, column `a`: `Spec.uc` of the point's coordinate. -/
theorem u_at (b : Fin 2) (n : Fin 100000) (r : Fin 200000) (hr : r.val = b.val * 100000 + n.val) (a : Fin 3) :
    (Vf[S200000x3] main_v301) (ix2 r a) = Cert.Spec.uc Cert.Spec.s2 Cert.Spec.hi2 (co m c b n a) := by
  rewrite [e_clip m c, clipv_apply, e_lo m c, e_hi m c, e_scaled m c, scalev_apply, e_scale m c, e_flat m c,
    flat_apply _ b n r hr a, V_main_arg5 m c]
  rfl

/-- The batch number of a row, wrapped and clamped into the batch axis, is the row's batch. -/
theorem batch_back : ∀ b : Fin 2, Cert.Spec.cl 2 (by decide) (Cert.Spec.nrm 2#32 (BitVec.ofNat 32 b.val)) = b := by decide

theorem B_at (b : Fin 2) (n : Fin 100000) (r : Fin 200704) (hr : r.val = b.val * 100000 + n.val) :
    (Vi[S200704] main_v360) (ix1 r) = BitVec.ofNat 32 b.val := by
  have hlt : r.val < 200000 := by have := b.isLt; have := n.isLt; omega
  rewrite [e_pB m c, padv_apply _ _ r ⟨r.val, hlt⟩ rfl, e_bid m c]
  exact bid_apply b n ⟨r.val, hlt⟩ hr

section Row

variable (b : Fin 2) (n : Fin 100000) (r : Fin 200704) (hr : r.val = b.val * 100000 + n.val)
include hr

theorem row_lt : r.val < 200000 := by have := b.isLt; have := n.isLt; omega

/-- The six padded lattice index vectors at row `r`: the floor / ceiling of the clamped scaled coordinate, as an integer. -/
theorem Xf_at : (Vi[S200704] main_v361) (ix1 r)
    = Cert.Spec.cvt (Cert.Spec.fl (Cert.Spec.uc Cert.Spec.s2 Cert.Spec.hi2 (co m c b n 0))) := by
  rewrite [e_pXf m c, padv_apply _ _ r ⟨r.val, row_lt b n r hr⟩ rfl, e_xf m c, ilo_apply, c0_apply,
    u_at m c b n ⟨r.val, row_lt b n r hr⟩ hr 0]
  rfl
theorem Xc_at : (Vi[S200704] main_v362) (ix1 r)
    = Cert.Spec.cvt (Cert.Spec.ce (Cert.Spec.uc Cert.Spec.s2 Cert.Spec.hi2 (co m c b n 0))) := by
  rewrite [e_pXc m c, padv_apply _ _ r ⟨r.val, row_lt b n r hr⟩ rfl, e_xc m c, ihi_apply, c0_apply,
    u_at m c b n ⟨r.val, row_lt b n r hr⟩ hr 0]
  rfl
theorem Yf_at : (Vi[S200704] main_v363) (ix1 r)
    = Cert.Spec.cvt (Cert.Spec.fl (Cert.Spec.uc Cert.Spec.s2 Cert.Spec.hi2 (co m c b n 1))) := by
  rewrite [e_pYf m c, padv_apply _ _ r ⟨r.val, row_lt b n r hr⟩ rfl, e_yf m c, ilo_apply, c1_apply,
    u_at m c b n ⟨r.val, row_lt b n r hr⟩ hr 1]
  rfl
theorem Yc_at : (Vi[S200704] main_v364) (ix1 r)
    = Cert.Spec.cvt (Cert.Spec.ce (Cert.Spec.uc Cert.Spec.s2 Cert.Spec.hi2 (co m c b n 1))) := by
  rewrite [e_pYc m c, padv_apply _ _ r ⟨r.val, row_lt b n r hr⟩ rfl, e_yc m c, ihi_apply, c1_apply,
    u_at m c b n ⟨r.val, row_lt b n r hr⟩ hr 1]
  rfl
theorem Zf_at : (Vi[S200704] main_v365) (ix1 r)
    = Cert.Spec.cvt (Cert.Spec.fl (Cert.Spec.uc Cert.Spec.s2 Cert.Spec.hi2 (co m c b n 2))) := by
  rewrite [e_pZf m c, padv_apply _ _ r ⟨r.val, row_lt b n r hr⟩ rfl, e_zf m c, ilo_apply, c2_apply,
    u_at m c b n ⟨r.val, row_lt b n r hr⟩ hr 2]
  rfl
theorem Zc_at : (Vi[S200704] main_v366) (ix1 r)
    = Cert.Spec.cvt (Cert.Spec.ce (Cert.Spec.uc Cert.Spec.s2 Cert.Spec.hi2 (co m c b n 2))) := by
  rewrite [e_pZc m c, padv_apply _ _ r ⟨r.val, row_lt b n r hr⟩ rfl, e_zc m c, ihi_apply, c2_apply,
    u_at m c b n ⟨r.val, row_lt b n r hr⟩ hr 2]
  rfl

/-- WEIGHT COLUMN `i` OF THE STACK AT ROW `r`. -/
theorem cw_at (i : Fin 8) :
    (V (F := Ideal) m c main_v383 : S200704x8.Idx → EReal) (ix2 r i)
      = Cert.Spec.wgt Cert.Spec.s2 Cert.Spec.hi2 (co m c b n 0) (co m c b n 1) (co m c b n 2) i := by
  rewrite [e_cw m c, e_pW0 m c, e_pW1 m c, e_pW2 m c, e_pW3 m c, e_pW4 m c, e_pW5 m c, e_pW6 m c, e_pW7 m c,
    e_w0 m c, e_w1 m c, e_w2 m c, e_w3 m c, e_w4 m c, e_w5 m c, e_w6 m c, e_w7 m c]
  exact cw_row _ _ _ _ _ _ _ _ _ r ⟨r.val, row_lt b n r hr⟩ rfl _ _ _ _ _ (u_at m c b n ⟨r.val, row_lt b n r hr⟩ hr 0)
    (u_at m c b n ⟨r.val, row_lt b n r hr⟩ hr 1) (u_at m c b n ⟨r.val, row_lt b n r hr⟩ hr 2) i

/-- THE EIGHT GATHERED ARRAYS AT ROW `r`, CHANNEL `ch`: the corner values of the point, in the kernel's order. -/
theorem q0_at (ch : Fin 64) :
    (V (F := Ideal) m c main_v409 : S200704x64.Idx → EReal) (ix2 r ch)
      = Cert.Spec.crn (by decide : 0 < 32) Cert.Spec.s2 Cert.Spec.hi2 (m ((c : Thread nD τ).loc main_arg2) : S2x32x32x32x64.Idx → EReal)
          b (co m c b n 0) (co m c b n 1) (co m c b n 2) (0 : Fin 8) ch := by
  rewrite [e_q0 m c, gq_apply, B_at m c b n r hr, Xc_at m c b n r hr, Yc_at m c b n r hr, Zc_at m c b n r hr, batch_back b,
    V_main_arg2 m c]
  rfl
theorem q1_at (ch : Fin 64) :
    (V (F := Ideal) m c main_v435 : S200704x64.Idx → EReal) (ix2 r ch)
      = Cert.Spec.crn (by decide : 0 < 32) Cert.Spec.s2 Cert.Spec.hi2 (m ((c : Thread nD τ).loc main_arg2) : S2x32x32x32x64.Idx → EReal)
          b (co m c b n 0) (co m c b n 1) (co m c b n 2) (1 : Fin 8) ch := by
  rewrite [e_q1 m c, gq_apply, B_at m c b n r hr, Xf_at m c b n r hr, Yc_at m c b n r hr, Zc_at m c b n r hr, batch_back b,
    V_main_arg2 m c]
  rfl
theorem q2_at (ch : Fin 64) :
    (V (F := Ideal) m c main_v461 : S200704x64.Idx → EReal) (ix2 r ch)
      = Cert.Spec.crn (by decide : 0 < 32) Cert.Spec.s2 Cert.Spec.hi2 (m ((c : Thread nD τ).loc main_arg2) : S2x32x32x32x64.Idx → EReal)
          b (co m c b n 0) (co m c b n 1) (co m c b n 2) (2 : Fin 8) ch := by
  rewrite [e_q2 m c, gq_apply, B_at m c b n r hr, Xc_at m c b n r hr, Yf_at m c b n r hr, Zc_at m c b n r hr, batch_back b,
    V_main_arg2 m c]
  rfl
theorem q3_at (ch : Fin 64) :
    (V (F := Ideal) m c main_v487 : S200704x64.Idx → EReal) (ix2 r ch)
      = Cert.Spec.crn (by decide : 0 < 32) Cert.Spec.s2 Cert.Spec.hi2 (m ((c : Thread nD τ).loc main_arg2) : S2x32x32x32x64.Idx → EReal)
          b (co m c b n 0) (co m c b n 1) (co m c b n 2) (3 : Fin 8) ch := by
  rewrite [e_q3 m c, gq_apply, B_at m c b n r hr, Xf_at m c b n r hr, Yf_at m c b n r hr, Zc_at m c b n r hr, batch_back b,
    V_main_arg2 m c]
  rfl
theorem q4_at (ch : Fin 64) :
    (V (F := Ideal) m c main_v513 : S200704x64.Idx → EReal) (ix2 r ch)
      = Cert.Spec.crn (by decide : 0 < 32) Cert.Spec.s2 Cert.Spec.hi2 (m ((c : Thread nD τ).loc main_arg2) : S2x32x32x32x64.Idx → EReal)
          b (co m c b n 0) (co m c b n 1) (co m c b n 2) (4 : Fin 8) ch := by
  rewrite [e_q4 m c, gq_apply, B_at m c b n r hr, Xc_at m c b n r hr, Yc_at m c b n r hr, Zf_at m c b n r hr, batch_back b,
    V_main_arg2 m c]
  rfl
theorem q5_at (ch : Fin 64) :
    (V (F := Ideal) m c main_v539 : S200704x64.Idx → EReal) (ix2 r ch)
      = Cert.Spec.crn (by decide : 0 < 32) Cert.Spec.s2 Cert.Spec.hi2 (m ((c : Thread nD τ).loc main_arg2) : S2x32x32x32x64.Idx → EReal)
          b (co m c b n 0) (co m c b n 1) (co m c b n 2) (5 : Fin 8) ch := by
  rewrite [e_q5 m c, gq_apply, B_at m c b n r hr, Xf_at m c b n r hr, Yc_at m c b n r hr, Zf_at m c b n r hr, batch_back b,
    V_main_arg2 m c]
  rfl
theorem q6_at (ch : Fin 64) :
    (V (F := Ideal) m c main_v565 : S200704x64.Idx → EReal) (ix2 r ch)
      = Cert.Spec.crn (by decide : 0 < 32) Cert.Spec.s2 Cert.Spec.hi2 (m ((c : Thread nD τ).loc main_arg2) : S2x32x32x32x64.Idx → EReal)
          b (co m c b n 0) (co m c b n 1) (co m c b n 2) (6 : Fin 8) ch := by
  rewrite [e_q6 m c, gq_apply, B_at m c b n r hr, Xc_at m c b n r hr, Yf_at m c b n r hr, Zf_at m c b n r hr, batch_back b,
    V_main_arg2 m c]
  rfl
theorem q7_at (ch : Fin 64) :
    (V (F := Ideal) m c main_v591 : S200704x64.Idx → EReal) (ix2 r ch)
      = Cert.Spec.crn (by decide : 0 < 32) Cert.Spec.s2 Cert.Spec.hi2 (m ((c : Thread nD τ).loc main_arg2) : S2x32x32x32x64.Idx → EReal)
          b (co m c b n 0) (co m c b n 1) (co m c b n 2) (7 : Fin 8) ch := by
  rewrite [e_q7 m c, gq_apply, B_at m c b n r hr, Xf_at m c b n r hr, Yf_at m c b n r hr, Zf_at m c b n r hr, batch_back b,
    V_main_arg2 m c]
  rfl

end Row

end Cert.KernelIdeal.Val2

end
-- ==== Proof.KI.Layout3.lean ====
/-
  Level 3 of the sampling program, as pure array functions read at a row.

  Each group of host operations that the program applies to whole arrays is named here as a function of its operand
  arrays, and read at one row: wrapping a negative lattice index around its axis, stacking four index columns and
  gathering the feature array at them, stacking the eight weight columns, padding the point axis from 200000 to 200704
  rows, cutting a coordinate column out of the clamped coordinates, the six lattice indices and the eight weight
  products of a point.
-/
import proofs.«414534_j76854144795318_3_alg».proof.Proof.Gen.KernelIdeal
import proofs.«414534_j76854144795318_3_alg».proof.Proof.GatherRead
import proofs.«414534_j76854144795318_3_alg».proof.Proof.Spec
import Idealize.ShloMosaic.Lib.Pipeline.Value
import Idealize.ShloMosaic.Lib.KernelVsHost
import Idealize.ShloMosaic.Lib.ValueIdx

noncomputable section

namespace Cert.KernelIdeal.Val3

open Cert.KernelIdeal Cert.KernelIdeal.Gen Idealize.ShloMosaic Idealize.ShloMosaic.ValueIdx

/-! ## Wrapped index columns and the gather -/

/-- A negative index wrapped once around an axis of extent `D`, entry by entry, as the program spells it:
    compare with a spread zero, add a spread `D`, select. -/
def wrapv (D : BitVec 32) (X : IVec S200704 32) : IVec S200704 32 :=
  select (cmpi .slt X (broadcastInDim S200704 ![] bcast_S_S200704 (constantI S_ 32 0#32)))
    (addi X (broadcastInDim S200704 ![] bcast_S_S200704 (constantI S_ 32 D))) X

theorem wrapv_apply (D : BitVec 32) (X : IVec S200704 32) (j : S200704.Idx) :
    wrapv D X j = Cert.Spec.nrm D (X j) := rfl

/-- A vector as a one-column matrix reads the vector's entry of the row. -/
theorem col_apply {α : Type} (h1 : S200704.BroadcastsInDim S200704x1 ![0]) (v : S200704.Idx → α) (r : Fin 200704) (z : Fin 1) :
    broadcastInDim S200704x1 ![0] h1 v (ix2 r z) = v (ix1 r) := by
  refine broadcastInDim_apply _ h1 v _ _ fun a => ?_
  match a with
  | ⟨0, _⟩ => rfl

/-- Four one-column matrices laid side by side read, in column `k`, the `k`-th of them. -/
theorem cat4_apply {α : Type} (c0 c1 c2 c3 : S200704x1.Idx → α)
    (hc : Shape.Concatenates (([⟨S200704x1, c0⟩, ⟨S200704x1, c1⟩, ⟨S200704x1, c2⟩, ⟨S200704x1, c3⟩] :
      List ((s : Shape) × (s.Idx → α))).map (·.1)) S200704x4 1)
    (r : Fin 200704) (k : Fin 4) :
    concatenate S200704x4 1 [⟨S200704x1, c0⟩, ⟨S200704x1, c1⟩, ⟨S200704x1, c2⟩, ⟨S200704x1, c3⟩] hc (ix2 r k)
      = (![c0, c1, c2, c3] k) (ix2 r (0 : Fin 1)) := by
  have hi : ∀ b : Fin S200704x1.rank, b.cast (rfl : S200704x1.rank = S200704x4.rank) ≠ (1 : Fin S200704x4.rank) →
      ((ix2 r (0 : Fin 1) : S200704x1.Idx) b).val = ((ix2 r k : S200704x4.Idx) (b.cast rfl)).val := fun b =>
    match b with
    | ⟨0, _⟩ => fun _ => rfl
    | ⟨1, _⟩ => fun h => absurd rfl h
  match k with
  | 0 => exact concatenate_apply_piece 1 _ hc _ 0 (by simp) S200704x1 c0 rfl rfl 0 rfl (ix2 r 0) hi rfl
  | 1 => exact concatenate_apply_piece 1 _ hc _ 1 (by simp) S200704x1 c1 rfl rfl 1 rfl (ix2 r 0) hi rfl
  | 2 => exact concatenate_apply_piece 1 _ hc _ 2 (by simp) S200704x1 c2 rfl rfl 2 rfl (ix2 r 0) hi rfl
  | 3 => exact concatenate_apply_piece 1 _ hc _ 3 (by simp) S200704x1 c3 rfl rfl 3 rfl (ix2 r 0) hi rfl

/-- Eight one-column matrices laid side by side read, in column `k`, the `k`-th of them. -/
theorem cat8_apply {α : Type} (c0 c1 c2 c3 c4 c5 c6 c7 : S200704x1.Idx → α)
    (hc : Shape.Concatenates (([⟨S200704x1, c0⟩, ⟨S200704x1, c1⟩, ⟨S200704x1, c2⟩, ⟨S200704x1, c3⟩, ⟨S200704x1, c4⟩,
      ⟨S200704x1, c5⟩, ⟨S200704x1, c6⟩, ⟨S200704x1, c7⟩] : List ((s : Shape) × (s.Idx → α))).map (·.1)) S200704x8 1)
    (r : Fin 200704) (k : Fin 8) :
    concatenate S200704x8 1 [⟨S200704x1, c0⟩, ⟨S200704x1, c1⟩, ⟨S200704x1, c2⟩, ⟨S200704x1, c3⟩, ⟨S200704x1, c4⟩,
        ⟨S200704x1, c5⟩, ⟨S200704x1, c6⟩, ⟨S200704x1, c7⟩] hc (ix2 r k)
      = (![c0, c1, c2, c3, c4, c5, c6, c7] k) (ix2 r (0 : Fin 1)) := by
  have hi : ∀ b : Fin S200704x1.rank, b.cast (rfl : S200704x1.rank = S200704x8.rank) ≠ (1 : Fin S200704x8.rank) →
      ((ix2 r (0 : Fin 1) : S200704x1.Idx) b).val = ((ix2 r k : S200704x8.Idx) (b.cast rfl)).val := fun b =>
    match b with
    | ⟨0, _⟩ => fun _ => rfl
    | ⟨1, _⟩ => fun h => absurd rfl h
  match k with
  | 0 => exact concatenate_apply_piece 1 _ hc _ 0 (by simp) S200704x1 c0 rfl rfl 0 rfl (ix2 r 0) hi rfl
  | 1 => exact concatenate_apply_piece 1 _ hc _ 1 (by simp) S200704x1 c1 rfl rfl 1 rfl (ix2 r 0) hi rfl
  | 2 => exact concatenate_apply_piece 1 _ hc _ 2 (by simp) S200704x1 c2 rfl rfl 2 rfl (ix2 r 0) hi rfl
  | 3 => exact concatenate_apply_piece 1 _ hc _ 3 (by simp) S200704x1 c3 rfl rfl 3 rfl (ix2 r 0) hi rfl
  | 4 => exact concatenate_apply_piece 1 _ hc _ 4 (by simp) S200704x1 c4 rfl rfl 4 rfl (ix2 r 0) hi rfl
  | 5 => exact concatenate_apply_piece 1 _ hc _ 5 (by simp) S200704x1 c5 rfl rfl 5 rfl (ix2 r 0) hi rfl
  | 6 => exact concatenate_apply_piece 1 _ hc _ 6 (by simp) S200704x1 c6 rfl rfl 6 rfl (ix2 r 0) hi rfl
  | 7 => exact concatenate_apply_piece 1 _ hc _ 7 (by simp) S200704x1 c7 rfl rfl 7 rfl (ix2 r 0) hi rfl

/-- The index rows of one gather: the batch index wrapped around 2 and three lattice indices wrapped around 16, each as
    a column, side by side. -/
def idx4 (B X Y Z : IVec S200704 32) : IVec S200704x4 32 :=
  concatenate S200704x4 1
    [⟨S200704x1, broadcastInDim S200704x1 ![0] bcast_S200704_S200704x1_0 (wrapv 2#32 B)⟩,
     ⟨S200704x1, broadcastInDim S200704x1 ![0] bcast_S200704_S200704x1_0 (wrapv 16#32 X)⟩,
     ⟨S200704x1, broadcastInDim S200704x1 ![0] bcast_S200704_S200704x1_0 (wrapv 16#32 Y)⟩,
     ⟨S200704x1, broadcastInDim S200704x1 ![0] bcast_S200704_S200704x1_0 (wrapv 16#32 Z)⟩]
    concatenates_S200704x1_S200704x1_S200704x1_S200704x1_S200704x4_d1

/-- One corner's gather: the feature array read at the index rows. -/
def gq (feat : FVec Ideal S2x16x16x16x128 .f32) (B X Y Z : IVec S200704 32) : FVec Ideal S200704x128 .f32 :=
  Host.gather gather_S2x16x16x16x128_S200704x4_S200704x128_1_0123_n_n_0123_1_1111128 feat (idx4 B X Y Z)

theorem idx4_apply (B X Y Z : IVec S200704 32) (r : Fin 200704) :
    idx4 B X Y Z (ix2 r (0 : Fin 4)) = Cert.Spec.nrm 2#32 (B (ix1 r))
    ∧ idx4 B X Y Z (ix2 r (1 : Fin 4)) = Cert.Spec.nrm 16#32 (X (ix1 r))
    ∧ idx4 B X Y Z (ix2 r (2 : Fin 4)) = Cert.Spec.nrm 16#32 (Y (ix1 r))
    ∧ idx4 B X Y Z (ix2 r (3 : Fin 4)) = Cert.Spec.nrm 16#32 (Z (ix1 r)) :=
  ⟨(cat4_apply _ _ _ _ _ r 0).trans (col_apply bcast_S200704_S200704x1_0 (wrapv 2#32 B) r 0),
   (cat4_apply _ _ _ _ _ r 1).trans (col_apply bcast_S200704_S200704x1_0 (wrapv 16#32 X) r 0),
   (cat4_apply _ _ _ _ _ r 2).trans (col_apply bcast_S200704_S200704x1_0 (wrapv 16#32 Y) r 0),
   (cat4_apply _ _ _ _ _ r 3).trans (col_apply bcast_S200704_S200704x1_0 (wrapv 16#32 Z) r 0)⟩

/-- The gather at row `r`, channel `ch`: the feature array at the wrapped and clamped batch and lattice indices of the row. -/
theorem gq_apply (feat : FVec Ideal S2x16x16x16x128 .f32) (B X Y Z : IVec S200704 32) (r : Fin 200704) (ch : Fin 128) :
    gq feat B X Y Z (ix2 r ch)
      = feat (ix5 (Cert.Spec.cl 2 (by decide) (Cert.Spec.nrm 2#32 (B (ix1 r))))
          (Cert.Spec.cl 16 (by decide) (Cert.Spec.nrm 16#32 (X (ix1 r))))
          (Cert.Spec.cl 16 (by decide) (Cert.Spec.nrm 16#32 (Y (ix1 r))))
          (Cert.Spec.cl 16 (by decide) (Cert.Spec.nrm 16#32 (Z (ix1 r)))) ch) := by
  obtain ⟨e0, e1, e2, e3⟩ := idx4_apply B X Y Z r
  unfold gq
  rw [Cert.GatherRead.gather4_apply (by decide) _ rfl rfl rfl rfl rfl rfl rfl feat (idx4 B X Y Z) r ch, e0, e1, e2, e3]

/-! ## The eight weight columns -/

/-- Eight vectors stacked as the columns of one matrix. -/
def cw8 (w0 w1 w2 w3 w4 w5 w6 w7 : FVec Ideal S200704 .f32) : FVec Ideal S200704x8 .f32 :=
  concatenate S200704x8 1
    [⟨S200704x1, broadcastInDim S200704x1 ![0] bcast_S200704_S200704x1_0 w0⟩,
     ⟨S200704x1, broadcastInDim S200704x1 ![0] bcast_S200704_S200704x1_0 w1⟩,
     ⟨S200704x1, broadcastInDim S200704x1 ![0] bcast_S200704_S200704x1_0 w2⟩,
     ⟨S200704x1, broadcastInDim S200704x1 ![0] bcast_S200704_S200704x1_0 w3⟩,
     ⟨S200704x1, broadcastInDim S200704x1 ![0] bcast_S200704_S200704x1_0 w4⟩,
     ⟨S200704x1, broadcastInDim S200704x1 ![0] bcast_S200704_S200704x1_0 w5⟩,
     ⟨S200704x1, broadcastInDim S200704x1 ![0] bcast_S200704_S200704x1_0 w6⟩,
     ⟨S200704x1, broadcastInDim S200704x1 ![0] bcast_S200704_S200704x1_0 w7⟩]
    concatenates_S200704x1_S200704x1_S200704x1_S200704x1_S200704x1_S200704x1_S200704x1_S200704x1_S200704x8_d1

/-- Column `k` of the stack at row `r` is the `k`-th vector at `r`. -/
theorem cw8_apply (w0 w1 w2 w3 w4 w5 w6 w7 : FVec Ideal S200704 .f32) (r : Fin 200704) (k : Fin 8) :
    cw8 w0 w1 w2 w3 w4 w5 w6 w7 (ix2 r k) = (![w0, w1, w2, w3, w4, w5, w6, w7] k) (ix1 r) := by
  unfold cw8
  match k with
  | 0 => exact (cat8_apply _ _ _ _ _ _ _ _ _ r 0).trans (col_apply bcast_S200704_S200704x1_0 w0 r 0)
  | 1 => exact (cat8_apply _ _ _ _ _ _ _ _ _ r 1).trans (col_apply bcast_S200704_S200704x1_0 w1 r 0)
  | 2 => exact (cat8_apply _ _ _ _ _ _ _ _ _ r 2).trans (col_apply bcast_S200704_S200704x1_0 w2 r 0)
  | 3 => exact (cat8_apply _ _ _ _ _ _ _ _ _ r 3).trans (col_apply bcast_S200704_S200704x1_0 w3 r 0)
  | 4 => exact (cat8_apply _ _ _ _ _ _ _ _ _ r 4).trans (col_apply bcast_S200704_S200704x1_0 w4 r 0)
  | 5 => exact (cat8_apply _ _ _ _ _ _ _ _ _ r 5).trans (col_apply bcast_S200704_S200704x1_0 w5 r 0)
  | 6 => exact (cat8_apply _ _ _ _ _ _ _ _ _ r 6).trans (col_apply bcast_S200704_S200704x1_0 w6 r 0)
  | 7 => exact (cat8_apply _ _ _ _ _ _ _ _ _ r 7).trans (col_apply bcast_S200704_S200704x1_0 w7 r 0)

/-! ## Padding the point axis -/

/-- A vector over the 200000 points padded behind to 200704 rows. -/
def padv {α : Type} (x : S200000.Idx → α) (v : S_.Idx → α) : S200704.Idx → α :=
  pad S200704 ![0] ![704] ![0] x v pads_S200000_S200704_07040 h_S_

/-- A row below 200000 reads the unpadded vector. -/
theorem padv_apply {α : Type} (x : S200000.Idx → α) (v : S_.Idx → α) (r : Fin 200704) (h : r.val < 200000) :
    padv x v (ix1 r) = x (ix1 ⟨r.val, h⟩) := by
  refine pad_apply_of_inside ![0] ![704] ![0] x v pads_S200000_S200704_07040 h_S_ (ix1 r) (ix1 ⟨r.val, h⟩) fun a => ?_
  match a with
  | ⟨0, _⟩ => show r.val = 0 + r.val * (0 + 1); omega

/-! ## A point's coordinates, lattice indices and weights -/

/-- Column 0, 1, 2 of the clamped coordinates as a vector over the points. -/
def cut0 (U : FVec Ideal S200000x3 .f32) : FVec Ideal S200000 .f32 :=
  shapeCast S200000 (extractStridedSlice S200000x1 ![0, 0] U slices_S200000x3_S200000x1_0_0) shapeCasts_S200000x1_S200000
def cut1 (U : FVec Ideal S200000x3 .f32) : FVec Ideal S200000 .f32 :=
  shapeCast S200000 (extractStridedSlice S200000x1 ![0, 1] U slices_S200000x3_S200000x1_0_1) shapeCasts_S200000x1_S200000
def cut2 (U : FVec Ideal S200000x3 .f32) : FVec Ideal S200000 .f32 :=
  shapeCast S200000 (extractStridedSlice S200000x1 ![0, 2] U slices_S200000x3_S200000x1_0_2) shapeCasts_S200000x1_S200000

theorem cut_apply (off : Fin S200000x3.rank → Nat) (hs : S200000x3.Slices off S200000x1) (hc : S200000x1.ShapeCasts S200000)
    (U : FVec Ideal S200000x3 .f32) (p : Fin 200000) (a : Fin 3) (h0 : off 0 = 0) (h1 : off 1 = a.val) :
    shapeCast S200000 (extractStridedSlice S200000x1 off U hs) hc (ix1 p) = U (ix2 p a) := by
  refine (shapeCast_apply _ hc (ix1 p) (ix2 p (0 : Fin 1)) ?_).trans
    (extractStridedSlice_apply off U hs (ix2 p (0 : Fin 1)) (ix2 p a) fun b => ?_)
  · rw [Shape.rowMajor_val_two, Shape.rowMajor_val_one]
    show p.val * 1 + 0 = p.val
    omega
  · match b with
    | ⟨0, _⟩ => show p.val = off 0 + p.val; omega
    | ⟨1, _⟩ => show a.val = off 1 + 0; omega

theorem cut0_apply (U : FVec Ideal S200000x3 .f32) (p : Fin 200000) : cut0 U (ix1 p) = U (ix2 p (0 : Fin 3)) :=
  cut_apply _ _ _ U p 0 rfl rfl
theorem cut1_apply (U : FVec Ideal S200000x3 .f32) (p : Fin 200000) : cut1 U (ix1 p) = U (ix2 p (1 : Fin 3)) :=
  cut_apply _ _ _ U p 1 rfl rfl
theorem cut2_apply (U : FVec Ideal S200000x3 .f32) (p : Fin 200000) : cut2 U (ix1 p) = U (ix2 p (2 : Fin 3)) :=
  cut_apply _ _ _ U p 2 rfl rfl

/-- The distance of a coordinate from its floor, and of its ceiling from it; the floor and the ceiling as integers. -/
def wlo (x : FVec Ideal S200000 .f32) : FVec Ideal S200000 .f32 := subf x (Host.floor x)
def whi (x : FVec Ideal S200000 .f32) : FVec Ideal S200000 .f32 := subf (Host.ceil x) x
def ilo (x : FVec Ideal S200000 .f32) : IVec S200000 32 := fptosi 32 (Host.floor x)
def ihi (x : FVec Ideal S200000 .f32) : IVec S200000 32 := fptosi 32 (Host.ceil x)

theorem wlo_apply (x : FVec Ideal S200000 .f32) (j : S200000.Idx) : wlo x j = x j - Cert.Spec.fl (x j) := rfl
theorem whi_apply (x : FVec Ideal S200000 .f32) (j : S200000.Idx) : whi x j = Cert.Spec.ce (x j) - x j := rfl
theorem ilo_apply (x : FVec Ideal S200000 .f32) (j : S200000.Idx) : ilo x j = Cert.Spec.cvt (Cert.Spec.fl (x j)) := rfl
theorem ihi_apply (x : FVec Ideal S200000 .f32) (j : S200000.Idx) : ihi x j = Cert.Spec.cvt (Cert.Spec.ce (x j)) := rfl

/-- A product of one z-, one x- and one y-distance, in the program's association. -/
def w3 (wz wx wy : FVec Ideal S200000 .f32) : FVec Ideal S200000 .f32 := mulf (mulf wz wx) wy
theorem w3_apply (wz wx wy : FVec Ideal S200000 .f32) (j : S200000.Idx) : w3 wz wx wy j = wz j * wx j * wy j := rfl

/-! ## Scaling and clamping the coordinates -/

/-- The coordinates as a 200000 × 3 matrix: the two batches one after the other. -/
def flat (A : FVec Ideal S2x100000x3 .f32) : FVec Ideal S200000x3 .f32 :=
  shapeCast S200000x3 A shapeCasts_S2x100000x3_S200000x3

theorem flat_apply (A : FVec Ideal S2x100000x3 .f32) (b : Fin 2) (n : Fin 100000) (p : Fin 200000)
    (hp : p.val = b.val * 100000 + n.val) (a : Fin 3) : flat A (ix2 p a) = A (ix3 b n a) := by
  refine shapeCast_apply A shapeCasts_S2x100000x3_S200000x3 (ix2 p a) (ix3 b n a) ?_
  rw [Shape.rowMajor_val_three, Shape.rowMajor_val_two]
  show (b.val * 100000 + n.val) * 3 + a.val = p.val * 3 + a.val
  rw [hp]

/-- Every coordinate times the level's scale, then clamped from below and from above. -/
def scaled (X : FVec Ideal S200000x3 .f32) (s : FVec Ideal S3 .f32) : FVec Ideal S200000x3 .f32 :=
  mulf X (broadcastInDim S200000x3 ![0, 1] bcast_S1x3_S200000x3_0_1 (broadcastInDim S1x3 ![1] bcast_S3_S1x3_1 s))
def clamped (X : FVec Ideal S200000x3 .f32) (lo hi : FVec Ideal S_ .f32) : FVec Ideal S200000x3 .f32 :=
  minimumf (broadcastInDim S200000x3 ![] bcast_S_S200000x3 hi) (maximumf (broadcastInDim S200000x3 ![] bcast_S_S200000x3 lo) X)

theorem clamped_scaled_apply (X : FVec Ideal S200000x3 .f32) (j : S200000x3.Idx) :
    clamped (scaled X (constant S3 .f32 0x41800000#32)) (constant S_ .f32 0x3C23D70A#32) (constant S_ .f32 0x416FD70A#32) j
      = Cert.Spec.uc Cert.Spec.s3 Cert.Spec.hi3 (X j) := rfl

/-! ## The batch index of a point -/

/-- The batch number of every point: 0 on the first 100000 rows, 1 on the rest. -/
def batchv : IVec S200000 32 :=
  shapeCast S200000 (broadcastInDim S2x100000 ![0] bcast_S2_S2x100000_0 (iotaInDim S2 32 0)) shapeCasts_S2x100000_S200000

theorem batchv_apply (b : Fin 2) (n : Fin 100000) (p : Fin 200000) (hp : p.val = b.val * 100000 + n.val) :
    batchv (ix1 p) = BitVec.ofNat 32 b.val := by
  refine (shapeCast_apply _ shapeCasts_S2x100000_S200000 (ix1 p) (ix2 b n) ?_).trans ?_
  · rw [Shape.rowMajor_val_two, Shape.rowMajor_val_one]
    show b.val * 100000 + n.val = p.val
    rw [hp]
  · refine (broadcastInDim_apply _ bcast_S2_S2x100000_0 _ (ix2 b n) (ix1 b) fun a => ?_).trans rfl
    match a with
    | ⟨0, _⟩ => rfl

/-- A batch number below 2 is left alone by the wrap and read back by the clamp. -/
theorem batch_back (b : Fin 2) : Cert.Spec.cl 2 (by decide) (Cert.Spec.nrm 2#32 (BitVec.ofNat 32 b.val)) = b := by
  match b with
  | 0 => decide
  | 1 => decide

end Cert.KernelIdeal.Val3

end
-- ==== Proof.LibWindow.lean ====
/-
  Reading one reference out of a long straight line of host operations, through a short window of it.

  Every operation of the line writes one reference, named by a list of references in step with the line. A reference
  that no operation from position i + n on writes holds, after the whole line, what the n operations from position i on
  leave there when run from the contents the first i operations leave; and a reference none of the first i operations
  writes still holds, after them, what it held before. So a buffer is read out of the few operations that compute it,
  and the buffers those read from earlier are read from the contents before the line.
-/
import Idealize.ShloMosaic.Lib.StableHlo.Run
import Mathlib.Data.List.Forall2
import proofs.«414534_j76854144795318_3_alg».proof.Proof.PeelLib
import proofs.«414534_j76854144795318_3_alg».proof.Proof.LibNary

namespace Cert.LibWindow

open Idealize.ShloMosaic Idealize.ShloMosaic.StableHlo Cert.PeelLib

variable {τ : Topo} {sig : RefSig} {Val : EltTy → Type}

/-- Only the `n` operations from the `i`-th on matter to a reference that nothing from operation `i + n` on writes: they
    run from the contents the first `i` operations leave. -/
theorem after_window (ops : List (HloOp τ sig Val)) (W : List (Ref sig .tc))
    (hw : List.Forall₂ (fun (op : HloOp τ sig Val) (y : Ref sig .tc) => op.writes = {Proc.devRef .tc y}) ops W)
    (i n : Nat) (V : Valuation τ sig Val) (r : Ref sig .tc) (hr : r ∉ W.drop (i + n)) :
    after ops V (Proc.devRef .tc r) = after ((ops.drop i).take n) (after (ops.take i) V) (Proc.devRef .tc r) := by
  have h1 : ops = ops.take i ++ ((ops.drop i).take n ++ (ops.drop i).drop n) := by
    rw [List.take_append_drop, List.take_append_drop]
  conv_lhs => rw [h1, after_append, after_append]
  refine after_of_writes_sub _ _ (writesIn_of_forall₂ ?_) hr
  rw [List.drop_drop]
  exact List.forall₂_drop _ hw

/-- A reference none of the first `i` operations writes still holds what it held. -/
theorem after_take_skip (ops : List (HloOp τ sig Val)) (W : List (Ref sig .tc))
    (hw : List.Forall₂ (fun (op : HloOp τ sig Val) (y : Ref sig .tc) => op.writes = {Proc.devRef .tc y}) ops W)
    (i : Nat) (V : Valuation τ sig Val) (x : Ref sig .tc) (hx : x ∉ W.take i) :
    after (ops.take i) V (Proc.devRef .tc x) = V (Proc.devRef .tc x) :=
  after_of_writes_sub _ _ (writesIn_of_forall₂ (List.forall₂_take _ hw)) hx

end Cert.LibWindow

/-- Run a short window `(ops.drop i).take n` of a literal line of operations at a reference: the window is laid out as a
    literal list, then every operation's result is read at its own reference and the other operations are passed by. -/
macro "run_window" : tactic =>
  `(tactic| (simp (disch := decide) only [List.drop_succ_cons, List.drop_zero, List.take_succ_cons, List.take_zero,
      Idealize.ShloMosaic.StableHlo.after_cons, Idealize.ShloMosaic.StableHlo.after_nil,
      Idealize.ShloMosaic.StableHlo.nullary_result', Idealize.ShloMosaic.StableHlo.unary_result',
      Idealize.ShloMosaic.StableHlo.binary_result', Idealize.ShloMosaic.StableHlo.ternary_result',
      Idealize.ShloMosaic.StableHlo.reshape_result',
      Cert.LibNary.nary3_result', Cert.LibNary.nary4_result', Cert.LibNary.nary8_result',
      Idealize.ShloMosaic.StableHlo.nullary_result_ne', Idealize.ShloMosaic.StableHlo.unary_result_ne',
      Idealize.ShloMosaic.StableHlo.binary_result_ne', Idealize.ShloMosaic.StableHlo.ternary_result_ne',
      Idealize.ShloMosaic.StableHlo.reshape_result_ne', Idealize.ShloMosaic.StableHlo.nary_result_ne']))
-- ==== Proof.KI.Prefix3G.lean ====
/-
  Level 3, the gather side: the weight stack and the eight corner gathers as functions of the arrays they read.

  The last stretch of host operations before the region (281 operations) stacks the level's eight padded weight
  vectors as the columns of one matrix, and then, eight times over, wraps four index vectors (the batch index around
  2, three lattice indices around 16), lays them side by side as index rows and gathers the level's feature array at
  them. Each of the nine results is computed by a short run of consecutive operations (9 for the stack, 34 for each
  gather) out of arrays that earlier stretches wrote. So each result, as held at region entry, is the stack `cw8`,
  respectively the gather `gq`, of what those arrays hold at region entry. The eight gathers differ in which of the
  floor / ceiling index vectors they read on each lattice axis: ceiling or floor of x, of y, of z, in the order of the
  specification's eight corners.
-/
import proofs.«414534_j76854144795318_3_alg».proof.Proof.KI.Host
import proofs.«414534_j76854144795318_3_alg».proof.Proof.KI.PeelTable
import proofs.«414534_j76854144795318_3_alg».proof.Proof.KI.Peel
import proofs.«414534_j76854144795318_3_alg».proof.Proof.KI.Layout3
import proofs.«414534_j76854144795318_3_alg».proof.Proof.LibNary
import proofs.«414534_j76854144795318_3_alg».proof.Proof.LibWindow

set_option maxRecDepth 16384

noncomputable section

namespace Cert.KernelIdeal.Val3

open Cert.KernelIdeal Cert.KernelIdeal.Gen Cert.KernelIdeal.Hand Idealize.ShloMosaic Idealize.ShloMosaic.ValueIdx Cert.LibWindow

variable (m : (ℓ : Loc nD τ sig) → Buf (Elt Ideal) ℓ)

/-! Each proof has the same three steps. `key`: the short run of operations, started from ANY contents `P`, leaves at its
    result the stack (the gather) of what `P` holds at the arrays it reads; the run is laid out and every operation read at
    its own result. Then the array at region entry is what the last stretch leaves, of which only that run matters (no later
    operation writes the result); and the arrays the run reads are written by no operation before it in the stretch and by no
    later stretch, so what they hold before the run is what they hold at region entry. -/

set_option maxHeartbeats 400000 in
/-- The weight stack: the eight padded weight vectors as the columns of one matrix. -/
theorem cw_eq (c : Dev nD) :
    (V (F := Ideal) m c main_v677 : FVec Ideal S200704x8 .f32)
      = cw8 (V (F := Ideal) m c main_v661) (V (F := Ideal) m c main_v662) (V (F := Ideal) m c main_v663)
          (V (F := Ideal) m c main_v664) (V (F := Ideal) m c main_v665) (V (F := Ideal) m c main_v666)
          (V (F := Ideal) m c main_v667) (V (F := Ideal) m c main_v668) := by
  have key : ∀ P : Valuation τ sig (Elt Ideal),
      StableHlo.after ((hostOps0_96.drop 0).take 9) P (Proc.devRef .tc main_v677)
        = cw8 (P (Proc.devRef .tc main_v661)) (P (Proc.devRef .tc main_v662)) (P (Proc.devRef .tc main_v663))
            (P (Proc.devRef .tc main_v664)) (P (Proc.devRef .tc main_v665)) (P (Proc.devRef .tc main_v666))
            (P (Proc.devRef .tc main_v667)) (P (Proc.devRef .tc main_v668)) := by
    intro P
    run_window
    rfl
  rewrite [V_eq_stretch m 96 hostOps0_96 rfl c main_v677 (by decide),
    after_window hostOps0_96 W96 writes96 0 9 _ main_v677 (by decide), key]
  simp (disch := decide) only [after_take_skip hostOps0_96 W96 writes96 0 (U m 96 c)]
  simp (disch := decide) only [U_eq_V]

set_option maxHeartbeats 400000 in
/-- Corner 0: x ceiling, y ceiling, z ceiling. -/
theorem q0_eq (c : Dev nD) :
    (V (F := Ideal) m c main_v703 : FVec Ideal S200704x128 .f32)
      = gq (V (F := Ideal) m c main_arg3) (V (F := Ideal) m c main_v654) (V (F := Ideal) m c main_v656)
          (V (F := Ideal) m c main_v658) (V (F := Ideal) m c main_v660) := by
  have key : ∀ P : Valuation τ sig (Elt Ideal),
      StableHlo.after ((hostOps0_96.drop 9).take 34) P (Proc.devRef .tc main_v703)
        = gq (P (Proc.devRef .tc main_arg3)) (P (Proc.devRef .tc main_v654)) (P (Proc.devRef .tc main_v656))
            (P (Proc.devRef .tc main_v658)) (P (Proc.devRef .tc main_v660)) := by
    intro P
    run_window
    rfl
  rewrite [V_eq_stretch m 96 hostOps0_96 rfl c main_v703 (by decide),
    after_window hostOps0_96 W96 writes96 9 34 _ main_v703 (by decide), key]
  simp (disch := decide) only [after_take_skip hostOps0_96 W96 writes96 9 (U m 96 c)]
  simp (disch := decide) only [U_eq_V]

set_option maxHeartbeats 400000 in
/-- Corner 1: x floor, y ceiling, z ceiling. -/
theorem q1_eq (c : Dev nD) :
    (V (F := Ideal) m c main_v729 : FVec Ideal S200704x128 .f32)
      = gq (V (F := Ideal) m c main_arg3) (V (F := Ideal) m c main_v654) (V (F := Ideal) m c main_v655)
          (V (F := Ideal) m c main_v658) (V (F := Ideal) m c main_v660) := by
  have key : ∀ P : Valuation τ sig (Elt Ideal),
      StableHlo.after ((hostOps0_96.drop 43).take 34) P (Proc.devRef .tc main_v729)
        = gq (P (Proc.devRef .tc main_arg3)) (P (Proc.devRef .tc main_v654)) (P (Proc.devRef .tc main_v655))
            (P (Proc.devRef .tc main_v658)) (P (Proc.devRef .tc main_v660)) := by
    intro P
    run_window
    rfl
  rewrite [V_eq_stretch m 96 hostOps0_96 rfl c main_v729 (by decide),
    after_window hostOps0_96 W96 writes96 43 34 _ main_v729 (by decide), key]
  simp (disch := decide) only [after_take_skip hostOps0_96 W96 writes96 43 (U m 96 c)]
  simp (disch := decide) only [U_eq_V]

set_option maxHeartbeats 400000 in
/-- Corner 2: x ceiling, y floor, z ceiling. -/
theorem q2_eq (c : Dev nD) :
    (V (F := Ideal) m c main_v755 : FVec Ideal S200704x128 .f32)
      = gq (V (F := Ideal) m c main_arg3) (V (F := Ideal) m c main_v654) (V (F := Ideal) m c main_v656)
          (V (F := Ideal) m c main_v657) (V (F := Ideal) m c main_v660) := by
  have key : ∀ P : Valuation τ sig (Elt Ideal),
      StableHlo.after ((hostOps0_96.drop 77).take 34) P (Proc.devRef .tc main_v755)
        = gq (P (Proc.devRef .tc main_arg3)) (P (Proc.devRef .tc main_v654)) (P (Proc.devRef .tc main_v656))
            (P (Proc.devRef .tc main_v657)) (P (Proc.devRef .tc main_v660)) := by
    intro P
    run_window
    rfl
  rewrite [V_eq_stretch m 96 hostOps0_96 rfl c main_v755 (by decide),
    after_window hostOps0_96 W96 writes96 77 34 _ main_v755 (by decide), key]
  simp (disch := decide) only [after_take_skip hostOps0_96 W96 writes96 77 (U m 96 c)]
  simp (disch := decide) only [U_eq_V]

set_option maxHeartbeats 400000 in
/-- Corner 3: x floor, y floor, z ceiling. -/
theorem q3_eq (c : Dev nD) :
    (V (F := Ideal) m c main_v781 : FVec Ideal S200704x128 .f32)
      = gq (V (F := Ideal) m c main_arg3) (V (F := Ideal) m c main_v654) (V (F := Ideal) m c main_v655)
          (V (F := Ideal) m c main_v657) (V (F := Ideal) m c main_v660) := by
  have key : ∀ P : Valuation τ sig (Elt Ideal),
      StableHlo.after ((hostOps0_96.drop 111).take 34) P (Proc.devRef .tc main_v781)
        = gq (P (Proc.devRef .tc main_arg3)) (P (Proc.devRef .tc main_v654)) (P (Proc.devRef .tc main_v655))
            (P (Proc.devRef .tc main_v657)) (P (Proc.devRef .tc main_v660)) := by
    intro P
    run_window
    rfl
  rewrite [V_eq_stretch m 96 hostOps0_96 rfl c main_v781 (by decide),
    after_window hostOps0_96 W96 writes96 111 34 _ main_v781 (by decide), key]
  simp (disch := decide) only [after_take_skip hostOps0_96 W96 writes96 111 (U m 96 c)]
  simp (disch := decide) only [U_eq_V]

set_option maxHeartbeats 400000 in
/-- Corner 4: x ceiling, y ceiling, z floor. -/
theorem q4_eq (c : Dev nD) :
    (V (F := Ideal) m c main_v807 : FVec Ideal S200704x128 .f32)
      = gq (V (F := Ideal) m c main_arg3) (V (F := Ideal) m c main_v654) (V (F := Ideal) m c main_v656)
          (V (F := Ideal) m c main_v658) (V (F := Ideal) m c main_v659) := by
  have key : ∀ P : Valuation τ sig (Elt Ideal),
      StableHlo.after ((hostOps0_96.drop 145).take 34) P (Proc.devRef .tc main_v807)
        = gq (P (Proc.devRef .tc main_arg3)) (P (Proc.devRef .tc main_v654)) (P (Proc.devRef .tc main_v656))
            (P (Proc.devRef .tc main_v658)) (P (Proc.devRef .tc main_v659)) := by
    intro P
    run_window
    rfl
  rewrite [V_eq_stretch m 96 hostOps0_96 rfl c main_v807 (by decide),
    after_window hostOps0_96 W96 writes96 145 34 _ main_v807 (by decide), key]
  simp (disch := decide) only [after_take_skip hostOps0_96 W96 writes96 145 (U m 96 c)]
  simp (disch := decide) only [U_eq_V]

set_option maxHeartbeats 400000 in
/-- Corner 5: x floor, y ceiling, z floor. -/
theorem q5_eq (c : Dev nD) :
    (V (F := Ideal) m c main_v833 : FVec Ideal S200704x128 .f32)
      = gq (V (F := Ideal) m c main_arg3) (V (F := Ideal) m c main_v654) (V (F := Ideal) m c main_v655)
          (V (F := Ideal) m c main_v658) (V (F := Ideal) m c main_v659) := by
  have key : ∀ P : Valuation τ sig (Elt Ideal),
      StableHlo.after ((hostOps0_96.drop 179).take 34) P (Proc.devRef .tc main_v833)
        = gq (P (Proc.devRef .tc main_arg3)) (P (Proc.devRef .tc main_v654)) (P (Proc.devRef .tc main_v655))
            (P (Proc.devRef .tc main_v658)) (P (Proc.devRef .tc main_v659)) := by
    intro P
    run_window
    rfl
  rewrite [V_eq_stretch m 96 hostOps0_96 rfl c main_v833 (by decide),
    after_window hostOps0_96 W96 writes96 179 34 _ main_v833 (by decide), key]
  simp (disch := decide) only [after_take_skip hostOps0_96 W96 writes96 179 (U m 96 c)]
  simp (disch := decide) only [U_eq_V]

set_option maxHeartbeats 400000 in
/-- Corner 6: x ceiling, y floor, z floor. -/
theorem q6_eq (c : Dev nD) :
    (V (F := Ideal) m c main_v859 : FVec Ideal S200704x128 .f32)
      = gq (V (F := Ideal) m c main_arg3) (V (F := Ideal) m c main_v654) (V (F := Ideal) m c main_v656)
          (V (F := Ideal) m c main_v657) (V (F := Ideal) m c main_v659) := by
  have key : ∀ P : Valuation τ sig (Elt Ideal),
      StableHlo.after ((hostOps0_96.drop 213).take 34) P (Proc.devRef .tc main_v859)
        = gq (P (Proc.devRef .tc main_arg3)) (P (Proc.devRef .tc main_v654)) (P (Proc.devRef .tc main_v656))
            (P (Proc.devRef .tc main_v657)) (P (Proc.devRef .tc main_v659)) := by
    intro P
    run_window
    rfl
  rewrite [V_eq_stretch m 96 hostOps0_96 rfl c main_v859 (by decide),
    after_window hostOps0_96 W96 writes96 213 34 _ main_v859 (by decide), key]
  simp (disch := decide) only [after_take_skip hostOps0_96 W96 writes96 213 (U m 96 c)]
  simp (disch := decide) only [U_eq_V]

set_option maxHeartbeats 400000 in
/-- Corner 7: x floor, y floor, z floor. -/
theorem q7_eq (c : Dev nD) :
    (V (F := Ideal) m c main_v885 : FVec Ideal S200704x128 .f32)
      = gq (V (F := Ideal) m c main_arg3) (V (F := Ideal) m c main_v654) (V (F := Ideal) m c main_v655)
          (V (F := Ideal) m c main_v657) (V (F := Ideal) m c main_v659) := by
  have key : ∀ P : Valuation τ sig (Elt Ideal),
      StableHlo.after ((hostOps0_96.drop 247).take 34) P (Proc.devRef .tc main_v885)
        = gq (P (Proc.devRef .tc main_arg3)) (P (Proc.devRef .tc main_v654)) (P (Proc.devRef .tc main_v655))
            (P (Proc.devRef .tc main_v657)) (P (Proc.devRef .tc main_v659)) := by
    intro P
    run_window
    rfl
  rewrite [V_eq_stretch m 96 hostOps0_96 rfl c main_v885 (by decide),
    after_window hostOps0_96 W96 writes96 247 34 _ main_v885 (by decide), key]
  simp (disch := decide) only [after_take_skip hostOps0_96 W96 writes96 247 (U m 96 c)]
  simp (disch := decide) only [U_eq_V]

end Cert.KernelIdeal.Val3

end
-- ==== Proof.KI.Prefix3CBuf.lean ====
/-
  Level 3 of the kernel's host prefix, the coordinate side: the arrays over the 200000 points.

  The program flattens the query coordinates to a 200000 × 3 matrix, multiplies them by the level's scale 16, clamps
  them into [0.01, 14.99], cuts out the three coordinate columns, takes floor and ceiling of each, converts those to
  32-bit integers (the six lattice indices) and forms the distances of each coordinate from its floor and of its ceiling
  from it; the eight weights are the products of one z-, one x- and one y-distance.

  Every array is read out of the one stretch of host operations that computes it, as a named function of the arrays
  that stretch reads (what those held before the stretch is what they hold at region entry: they are written earlier);
  the clamped coordinate of a point is then read back to the launched coordinate.
-/
import proofs.«414534_j76854144795318_3_alg».proof.Proof.KI.Peel
import proofs.«414534_j76854144795318_3_alg».proof.Proof.KI.PeelTable
import proofs.«414534_j76854144795318_3_alg».proof.Proof.KI.Host
import proofs.«414534_j76854144795318_3_alg».proof.Proof.KI.Layout3
import proofs.«414534_j76854144795318_3_alg».proof.Proof.LibNary
import proofs.«414534_j76854144795318_3_alg».proof.Proof.LibWindow
import proofs.«414534_j76854144795318_3_alg».proof.Proof.Spec

set_option maxRecDepth 16384

noncomputable section

namespace Cert.KernelIdeal.Val3

open Cert.KernelIdeal Cert.KernelIdeal.Gen Cert.KernelIdeal.Hand Idealize.ShloMosaic Idealize.ShloMosaic.TcCoe Idealize.ShloMosaic.ValueIdx Cert.LibWindow

variable (m : (ℓ : Loc nD τ sig) → Buf (Elt Ideal) ℓ)

/-! ## Stretch 0: the flattened coordinates, the batch numbers, the scale -/

set_option maxHeartbeats 400000 in
/-- The coordinates as a 200000 × 3 matrix. -/
theorem cbuf_v0 (c : Dev nD) :
    (V (F := Ideal) m c main_v0 : FVec Ideal S200000x3 .f32) = flat (V (F := Ideal) m c main_arg5) := by
  unfold flat
  rewrite [V_eq_stretch m 0 hostOps0 rfl c main_v0 (by decide)]
  after_results_nary
  try simp (disch := decide) only [U_eq_V, StableHlo.TRef.ofBuf, StableHlo.TRef.toBuf, cast_eq, id_eq]
  first | done | rfl

set_option maxHeartbeats 400000 in
/-- The batch number of every point. -/
theorem cbuf_v3 (c : Dev nD) : (V (F := Ideal) m c main_v3 : IVec S200000 32) = batchv := by
  unfold batchv
  rewrite [V_eq_stretch m 0 hostOps0 rfl c main_v3 (by decide)]
  after_results_nary
  try simp (disch := decide) only [U_eq_V, StableHlo.TRef.ofBuf, StableHlo.TRef.toBuf, cast_eq, id_eq]
  first | done | rfl

set_option maxHeartbeats 400000 in
/-- The level's scale, 16 on each axis. -/
theorem cbuf_cst_1 (c : Dev nD) :
    (V (F := Ideal) m c main_cst_1 : FVec Ideal S3 .f32) = (constant S3 .f32 0x41800000#32 : FVec Ideal S3 .f32) := by
  rewrite [V_eq_stretch m 0 hostOps0 rfl c main_cst_1 (by decide)]
  after_results_nary
  try simp (disch := decide) only [U_eq_V, StableHlo.TRef.ofBuf, StableHlo.TRef.toBuf, cast_eq, id_eq]
  first | done | rfl

/-! ## Stretch 64, its last five operations: the scaled coordinates and the two clamps -/

set_option maxHeartbeats 400000 in
/-- The coordinates times the scale. -/
theorem cbuf_v594 (c : Dev nD) :
    (V (F := Ideal) m c main_v594 : FVec Ideal S200000x3 .f32)
      = scaled (V (F := Ideal) m c main_v0) (V (F := Ideal) m c main_cst_1) := by
  unfold scaled
  rewrite [V_eq_stretch m 64 hostOps0_64 rfl c main_v594 (by decide)]
  rewrite [after_window hostOps0_64 W64 writes64 281 5 _ main_v594 (by decide)]
  generalize hP : StableHlo.after (List.take 281 hostOps0_64) (U m 64 c) = P
  run_window
  subst hP
  simp (disch := decide) only [after_take_skip hostOps0_64 W64 writes64 281 (U m 64 c)]
  try simp (disch := decide) only [U_eq_V, StableHlo.TRef.ofBuf, StableHlo.TRef.toBuf, cast_eq, id_eq]
  first | done | rfl

set_option maxHeartbeats 400000 in
/-- The lower clamp, 0.01. -/
theorem cbuf_cst_163 (c : Dev nD) :
    (V (F := Ideal) m c main_cst_163 : FVec Ideal S_ .f32) = (constant S_ .f32 0x3C23D70A#32 : FVec Ideal S_ .f32) := by
  rewrite [V_eq_stretch m 64 hostOps0_64 rfl c main_cst_163 (by decide)]
  rewrite [after_window hostOps0_64 W64 writes64 281 5 _ main_cst_163 (by decide)]
  generalize hP : StableHlo.after (List.take 281 hostOps0_64) (U m 64 c) = P
  run_window
  try simp (disch := decide) only [U_eq_V, StableHlo.TRef.ofBuf, StableHlo.TRef.toBuf, cast_eq, id_eq]
  first | done | rfl

set_option maxHeartbeats 400000 in
/-- The upper clamp, 14.99. -/
theorem cbuf_cst_164 (c : Dev nD) :
    (V (F := Ideal) m c main_cst_164 : FVec Ideal S_ .f32) = (constant S_ .f32 0x416FD70A#32 : FVec Ideal S_ .f32) := by
  rewrite [V_eq_stretch m 64 hostOps0_64 rfl c main_cst_164 (by decide)]
  rewrite [after_window hostOps0_64 W64 writes64 281 5 _ main_cst_164 (by decide)]
  generalize hP : StableHlo.after (List.take 281 hostOps0_64) (U m 64 c) = P
  run_window
  try simp (disch := decide) only [U_eq_V, StableHlo.TRef.ofBuf, StableHlo.TRef.toBuf, cast_eq, id_eq]
  first | done | rfl

/-! ## Stretch 65: the clamped coordinates -/

set_option maxHeartbeats 400000 in
theorem cbuf_v595 (c : Dev nD) :
    (V (F := Ideal) m c main_v595 : FVec Ideal S200000x3 .f32)
      = clamped (V (F := Ideal) m c main_v594) (V (F := Ideal) m c main_cst_163) (V (F := Ideal) m c main_cst_164) := by
  unfold clamped
  rewrite [V_eq_stretch m 65 hostOps0_65 rfl c main_v595 (by decide)]
  after_results_nary
  try simp (disch := decide) only [U_eq_V, StableHlo.TRef.ofBuf, StableHlo.TRef.toBuf, cast_eq, id_eq]
  first | done | rfl

/-! ## Stretch 66: the six lattice indices and the eight weights, over the points

With `x`, `y`, `z` the three columns of the clamped coordinates: the floor and the ceiling of each as 32-bit integers,
and the eight products of one z-, one x- and one y-distance (the distance of a coordinate from its floor, or of its
ceiling from it). -/

set_option maxHeartbeats 400000 in
theorem cbuf_v614 (c : Dev nD) :
    (V (F := Ideal) m c main_v614 : IVec S200000 32) = ilo (cut0 (V (F := Ideal) m c main_v595)) := by
  unfold ilo cut0
  rewrite [V_eq_stretch m 66 hostOps0_66 rfl c main_v614 (by decide)]
  after_results_nary
  try simp (disch := decide) only [U_eq_V, StableHlo.TRef.ofBuf, StableHlo.TRef.toBuf, cast_eq, id_eq]
  first | done | rfl

set_option maxHeartbeats 400000 in
theorem cbuf_v615 (c : Dev nD) :
    (V (F := Ideal) m c main_v615 : IVec S200000 32) = ihi (cut0 (V (F := Ideal) m c main_v595)) := by
  unfold ihi cut0
  rewrite [V_eq_stretch m 66 hostOps0_66 rfl c main_v615 (by decide)]
  after_results_nary
  try simp (disch := decide) only [U_eq_V, StableHlo.TRef.ofBuf, StableHlo.TRef.toBuf, cast_eq, id_eq]
  first | done | rfl

set_option maxHeartbeats 400000 in
theorem cbuf_v616 (c : Dev nD) :
    (V (F := Ideal) m c main_v616 : IVec S200000 32) = ilo (cut1 (V (F := Ideal) m c main_v595)) := by
  unfold ilo cut1
  rewrite [V_eq_stretch m 66 hostOps0_66 rfl c main_v616 (by decide)]
  after_results_nary
  try simp (disch := decide) only [U_eq_V, StableHlo.TRef.ofBuf, StableHlo.TRef.toBuf, cast_eq, id_eq]
  first | done | rfl

set_option maxHeartbeats 400000 in
theorem cbuf_v617 (c : Dev nD) :
    (V (F := Ideal) m c main_v617 : IVec S200000 32) = ihi (cut1 (V (F := Ideal) m c main_v595)) := by
  unfold ihi cut1
  rewrite [V_eq_stretch m 66 hostOps0_66 rfl c main_v617 (by decide)]
  after_results_nary
  try simp (disch := decide) only [U_eq_V, StableHlo.TRef.ofBuf, StableHlo.TRef.toBuf, cast_eq, id_eq]
  first | done | rfl

set_option maxHeartbeats 400000 in
theorem cbuf_v618 (c : Dev nD) :
    (V (F := Ideal) m c main_v618 : IVec S200000 32) = ilo (cut2 (V (F := Ideal) m c main_v595)) := by
  unfold ilo cut2
  rewrite [V_eq_stretch m 66 hostOps0_66 rfl c main_v618 (by decide)]
  after_results_nary
  try simp (disch := decide) only [U_eq_V, StableHlo.TRef.ofBuf, StableHlo.TRef.toBuf, cast_eq, id_eq]
  first | done | rfl

set_option maxHeartbeats 400000 in
theorem cbuf_v619 (c : Dev nD) :
    (V (F := Ideal) m c main_v619 : IVec S200000 32) = ihi (cut2 (V (F := Ideal) m c main_v595)) := by
  unfold ihi cut2
  rewrite [V_eq_stretch m 66 hostOps0_66 rfl c main_v619 (by decide)]
  after_results_nary
  try simp (disch := decide) only [U_eq_V, StableHlo.TRef.ofBuf, StableHlo.TRef.toBuf, cast_eq, id_eq]
  first | done | rfl

set_option maxHeartbeats 400000 in
theorem cbuf_v639 (c : Dev nD) :
    (V (F := Ideal) m c main_v639 : FVec Ideal S200000 .f32)
      = w3 (wlo (cut2 (V (F := Ideal) m c main_v595))) (wlo (cut0 (V (F := Ideal) m c main_v595))) (wlo (cut1 (V (F := Ideal) m c main_v595))) := by
  unfold w3 wlo cut0 cut1 cut2
  rewrite [V_eq_stretch m 66 hostOps0_66 rfl c main_v639 (by decide)]
  after_results_nary
  try simp (disch := decide) only [U_eq_V, StableHlo.TRef.ofBuf, StableHlo.TRef.toBuf, cast_eq, id_eq]
  first | done | rfl

set_option maxHeartbeats 400000 in
theorem cbuf_v641 (c : Dev nD) :
    (V (F := Ideal) m c main_v641 : FVec Ideal S200000 .f32)
      = w3 (wlo (cut2 (V (F := Ideal) m c main_v595))) (whi (cut0 (V (F := Ideal) m c main_v595))) (wlo (cut1 (V (F := Ideal) m c main_v595))) := by
  unfold w3 wlo whi cut0 cut1 cut2
  rewrite [V_eq_stretch m 66 hostOps0_66 rfl c main_v641 (by decide)]
  after_results_nary
  try simp (disch := decide) only [U_eq_V, StableHlo.TRef.ofBuf, StableHlo.TRef.toBuf, cast_eq, id_eq]
  first | done | rfl

set_option maxHeartbeats 400000 in
theorem cbuf_v643 (c : Dev nD) :
    (V (F := Ideal) m c main_v643 : FVec Ideal S200000 .f32)
      = w3 (wlo (cut2 (V (F := Ideal) m c main_v595))) (wlo (cut0 (V (F := Ideal) m c main_v595))) (whi (cut1 (V (F := Ideal) m c main_v595))) := by
  unfold w3 wlo whi cut0 cut1 cut2
  rewrite [V_eq_stretch m 66 hostOps0_66 rfl c main_v643 (by decide)]
  after_results_nary
  try simp (disch := decide) only [U_eq_V, StableHlo.TRef.ofBuf, StableHlo.TRef.toBuf, cast_eq, id_eq]
  first | done | rfl

set_option maxHeartbeats 400000 in
theorem cbuf_v645 (c : Dev nD) :
    (V (F := Ideal) m c main_v645 : FVec Ideal S200000 .f32)
      = w3 (wlo (cut2 (V (F := Ideal) m c main_v595))) (whi (cut0 (V (F := Ideal) m c main_v595))) (whi (cut1 (V (F := Ideal) m c main_v595))) := by
  unfold w3 wlo whi cut0 cut1 cut2
  rewrite [V_eq_stretch m 66 hostOps0_66 rfl c main_v645 (by decide)]
  after_results_nary
  try simp (disch := decide) only [U_eq_V, StableHlo.TRef.ofBuf, StableHlo.TRef.toBuf, cast_eq, id_eq]
  first | done | rfl

set_option maxHeartbeats 400000 in
theorem cbuf_v647 (c : Dev nD) :
    (V (F := Ideal) m c main_v647 : FVec Ideal S200000 .f32)
      = w3 (whi (cut2 (V (F := Ideal) m c main_v595))) (wlo (cut0 (V (F := Ideal) m c main_v595))) (wlo (cut1 (V (F := Ideal) m c main_v595))) := by
  unfold w3 wlo whi cut0 cut1 cut2
  rewrite [V_eq_stretch m 66 hostOps0_66 rfl c main_v647 (by decide)]
  after_results_nary
  try simp (disch := decide) only [U_eq_V, StableHlo.TRef.ofBuf, StableHlo.TRef.toBuf, cast_eq, id_eq]
  first | done | rfl

set_option maxHeartbeats 400000 in
theorem cbuf_v649 (c : Dev nD) :
    (V (F := Ideal) m c main_v649 : FVec Ideal S200000 .f32)
      = w3 (whi (cut2 (V (F := Ideal) m c main_v595))) (whi (cut0 (V (F := Ideal) m c main_v595))) (wlo (cut1 (V (F := Ideal) m c main_v595))) := by
  unfold w3 wlo whi cut0 cut1 cut2
  rewrite [V_eq_stretch m 66 hostOps0_66 rfl c main_v649 (by decide)]
  after_results_nary
  try simp (disch := decide) only [U_eq_V, StableHlo.TRef.ofBuf, StableHlo.TRef.toBuf, cast_eq, id_eq]
  first | done | rfl

set_option maxHeartbeats 400000 in
theorem cbuf_v651 (c : Dev nD) :
    (V (F := Ideal) m c main_v651 : FVec Ideal S200000 .f32)
      = w3 (whi (cut2 (V (F := Ideal) m c main_v595))) (wlo (cut0 (V (F := Ideal) m c main_v595))) (whi (cut1 (V (F := Ideal) m c main_v595))) := by
  unfold w3 wlo whi cut0 cut1 cut2
  rewrite [V_eq_stretch m 66 hostOps0_66 rfl c main_v651 (by decide)]
  after_results_nary
  try simp (disch := decide) only [U_eq_V, StableHlo.TRef.ofBuf, StableHlo.TRef.toBuf, cast_eq, id_eq]
  first | done | rfl

set_option maxHeartbeats 400000 in
theorem cbuf_v653 (c : Dev nD) :
    (V (F := Ideal) m c main_v653 : FVec Ideal S200000 .f32)
      = w3 (whi (cut2 (V (F := Ideal) m c main_v595))) (whi (cut0 (V (F := Ideal) m c main_v595))) (whi (cut1 (V (F := Ideal) m c main_v595))) := by
  unfold w3 whi cut0 cut1 cut2
  rewrite [V_eq_stretch m 66 hostOps0_66 rfl c main_v653 (by decide)]
  after_results_nary
  try simp (disch := decide) only [U_eq_V, StableHlo.TRef.ofBuf, StableHlo.TRef.toBuf, cast_eq, id_eq]
  first | done | rfl

/-! ## A point's clamped coordinates, read back to the launched coordinates -/

/-- A clamped, scaled coordinate of a point: the launched coordinate times 16, clamped into [0.01, 14.99]. -/
theorem uc_at (c : Dev nD) (b : Fin 2) (n : Fin 100000) (p : Fin 200000) (hp : p.val = b.val * 100000 + n.val) (a : Fin 3) :
    (V (F := Ideal) m c main_v595 : FVec Ideal S200000x3 .f32) (ix2 p a)
      = Cert.Spec.uc Cert.Spec.s3 Cert.Spec.hi3
          ((m ((c : Thread nD τ).loc main_arg5) : S2x100000x3.Idx → EReal) (ix3 b n a)) := by
  rewrite [cbuf_v595 m c, cbuf_v594 m c, cbuf_cst_163 m c, cbuf_cst_164 m c, cbuf_cst_1 m c]
  refine (clamped_scaled_apply _ _).trans ?_
  rewrite [cbuf_v0 m c, flat_apply _ b n p hp a, V_main_arg5 m c]
  rfl

theorem x_at (c : Dev nD) (b : Fin 2) (n : Fin 100000) (p : Fin 200000) (hp : p.val = b.val * 100000 + n.val) :
    cut0 (V (F := Ideal) m c main_v595) (ix1 p)
      = Cert.Spec.uc Cert.Spec.s3 Cert.Spec.hi3
          ((m ((c : Thread nD τ).loc main_arg5) : S2x100000x3.Idx → EReal) (ix3 b n (0 : Fin 3))) :=
  (cut0_apply (V (F := Ideal) m c main_v595) p).trans (uc_at m c b n p hp 0)
theorem y_at (c : Dev nD) (b : Fin 2) (n : Fin 100000) (p : Fin 200000) (hp : p.val = b.val * 100000 + n.val) :
    cut1 (V (F := Ideal) m c main_v595) (ix1 p)
      = Cert.Spec.uc Cert.Spec.s3 Cert.Spec.hi3
          ((m ((c : Thread nD τ).loc main_arg5) : S2x100000x3.Idx → EReal) (ix3 b n (1 : Fin 3))) :=
  (cut1_apply (V (F := Ideal) m c main_v595) p).trans (uc_at m c b n p hp 1)
theorem z_at (c : Dev nD) (b : Fin 2) (n : Fin 100000) (p : Fin 200000) (hp : p.val = b.val * 100000 + n.val) :
    cut2 (V (F := Ideal) m c main_v595) (ix1 p)
      = Cert.Spec.uc Cert.Spec.s3 Cert.Spec.hi3
          ((m ((c : Thread nD τ).loc main_arg5) : S2x100000x3.Idx → EReal) (ix3 b n (2 : Fin 3))) :=
  (cut2_apply (V (F := Ideal) m c main_v595) p).trans (uc_at m c b n p hp 2)

end Cert.KernelIdeal.Val3

end
-- ==== Proof.KI.Prefix3P.lean ====
/-
  Level 3 of the sampling program: the fifteen paddings of the point axis, read at a row.

  Before the region is entered, each of the fifteen per-point vectors of level 3 (the batch index, the six lattice
  indices and the eight weight products) is padded behind from 200000 to 200704 rows with a constant. Each padding is
  a stretch of two host operations: a copy of the constant, then the padding itself. A row below 200000 of the padded
  vector is the same row of the vector before padding: the pad value is read only at the 704 rows behind.
-/
import proofs.«414534_j76854144795318_3_alg».proof.Proof.KI.Peel
import proofs.«414534_j76854144795318_3_alg».proof.Proof.KI.Host
import proofs.«414534_j76854144795318_3_alg».proof.Proof.LibNary
import proofs.«414534_j76854144795318_3_alg».proof.Proof.KI.Layout3
import Idealize.ShloMosaic.Lib.StableHlo.Run
import Idealize.ShloMosaic.Lib.ValueIdx

noncomputable section

namespace Cert.KernelIdeal.Val3

open Cert.KernelIdeal Cert.KernelIdeal.Gen Cert.KernelIdeal.Hand Idealize.ShloMosaic Idealize.ShloMosaic.ValueIdx
open Idealize.ShloMosaic.StableHlo

variable (m : (ℓ : Loc nD τ sig) → Buf (Elt Ideal) ℓ)

/-! ## Each padded vector is the padding of its source vector by its constant -/

theorem eq_v654 (c : Dev nD) :
    (V (F := Ideal) m c main_v654 : IVec S200704 32) = padv (V (F := Ideal) m c main_v3) (V (F := Ideal) m c main_c_165) := by
  rewrite [V_eq_stretch m 67 hostOps0_67 rfl c main_v654 (by decide), V_eq_U m 67 c main_v3 (by decide),
    V_eq_U m 67 c main_c_165 (by decide)]
  generalize U m 67 c = W
  after_results_simp <;> rfl

theorem eq_v655 (c : Dev nD) :
    (V (F := Ideal) m c main_v655 : IVec S200704 32) = padv (V (F := Ideal) m c main_v614) (V (F := Ideal) m c main_c_166) := by
  rewrite [V_eq_stretch m 69 hostOps0_69 rfl c main_v655 (by decide), V_eq_U m 69 c main_v614 (by decide),
    V_eq_U m 69 c main_c_166 (by decide)]
  generalize U m 69 c = W
  after_results_simp <;> rfl

theorem eq_v656 (c : Dev nD) :
    (V (F := Ideal) m c main_v656 : IVec S200704 32) = padv (V (F := Ideal) m c main_v615) (V (F := Ideal) m c main_c_167) := by
  rewrite [V_eq_stretch m 71 hostOps0_71 rfl c main_v656 (by decide), V_eq_U m 71 c main_v615 (by decide),
    V_eq_U m 71 c main_c_167 (by decide)]
  generalize U m 71 c = W
  after_results_simp <;> rfl

theorem eq_v657 (c : Dev nD) :
    (V (F := Ideal) m c main_v657 : IVec S200704 32) = padv (V (F := Ideal) m c main_v616) (V (F := Ideal) m c main_c_168) := by
  rewrite [V_eq_stretch m 73 hostOps0_73 rfl c main_v657 (by decide), V_eq_U m 73 c main_v616 (by decide),
    V_eq_U m 73 c main_c_168 (by decide)]
  generalize U m 73 c = W
  after_results_simp <;> rfl

theorem eq_v658 (c : Dev nD) :
    (V (F := Ideal) m c main_v658 : IVec S200704 32) = padv (V (F := Ideal) m c main_v617) (V (F := Ideal) m c main_c_169) := by
  rewrite [V_eq_stretch m 75 hostOps0_75 rfl c main_v658 (by decide), V_eq_U m 75 c main_v617 (by decide),
    V_eq_U m 75 c main_c_169 (by decide)]
  generalize U m 75 c = W
  after_results_simp <;> rfl

theorem eq_v659 (c : Dev nD) :
    (V (F := Ideal) m c main_v659 : IVec S200704 32) = padv (V (F := Ideal) m c main_v618) (V (F := Ideal) m c main_c_170) := by
  rewrite [V_eq_stretch m 77 hostOps0_77 rfl c main_v659 (by decide), V_eq_U m 77 c main_v618 (by decide),
    V_eq_U m 77 c main_c_170 (by decide)]
  generalize U m 77 c = W
  after_results_simp <;> rfl

theorem eq_v660 (c : Dev nD) :
    (V (F := Ideal) m c main_v660 : IVec S200704 32) = padv (V (F := Ideal) m c main_v619) (V (F := Ideal) m c main_c_171) := by
  rewrite [V_eq_stretch m 79 hostOps0_79 rfl c main_v660 (by decide), V_eq_U m 79 c main_v619 (by decide),
    V_eq_U m 79 c main_c_171 (by decide)]
  generalize U m 79 c = W
  after_results_simp <;> rfl

theorem eq_v661 (c : Dev nD) :
    (V (F := Ideal) m c main_v661 : FVec Ideal S200704 .f32) = padv (V (F := Ideal) m c main_v639) (V (F := Ideal) m c main_cst_172) := by
  rewrite [V_eq_stretch m 81 hostOps0_81 rfl c main_v661 (by decide), V_eq_U m 81 c main_v639 (by decide),
    V_eq_U m 81 c main_cst_172 (by decide)]
  generalize U m 81 c = W
  after_results_simp <;> rfl

theorem eq_v662 (c : Dev nD) :
    (V (F := Ideal) m c main_v662 : FVec Ideal S200704 .f32) = padv (V (F := Ideal) m c main_v641) (V (F := Ideal) m c main_cst_173) := by
  rewrite [V_eq_stretch m 83 hostOps0_83 rfl c main_v662 (by decide), V_eq_U m 83 c main_v641 (by decide),
    V_eq_U m 83 c main_cst_173 (by decide)]
  generalize U m 83 c = W
  after_results_simp <;> rfl

theorem eq_v663 (c : Dev nD) :
    (V (F := Ideal) m c main_v663 : FVec Ideal S200704 .f32) = padv (V (F := Ideal) m c main_v643) (V (F := Ideal) m c main_cst_174) := by
  rewrite [V_eq_stretch m 85 hostOps0_85 rfl c main_v663 (by decide), V_eq_U m 85 c main_v643 (by decide),
    V_eq_U m 85 c main_cst_174 (by decide)]
  generalize U m 85 c = W
  after_results_simp <;> rfl

theorem eq_v664 (c : Dev nD) :
    (V (F := Ideal) m c main_v664 : FVec Ideal S200704 .f32) = padv (V (F := Ideal) m c main_v645) (V (F := Ideal) m c main_cst_175) := by
  rewrite [V_eq_stretch m 87 hostOps0_87 rfl c main_v664 (by decide), V_eq_U m 87 c main_v645 (by decide),
    V_eq_U m 87 c main_cst_175 (by decide)]
  generalize U m 87 c = W
  after_results_simp <;> rfl

theorem eq_v665 (c : Dev nD) :
    (V (F := Ideal) m c main_v665 : FVec Ideal S200704 .f32) = padv (V (F := Ideal) m c main_v647) (V (F := Ideal) m c main_cst_176) := by
  rewrite [V_eq_stretch m 89 hostOps0_89 rfl c main_v665 (by decide), V_eq_U m 89 c main_v647 (by decide),
    V_eq_U m 89 c main_cst_176 (by decide)]
  generalize U m 89 c = W
  after_results_simp <;> rfl

theorem eq_v666 (c : Dev nD) :
    (V (F := Ideal) m c main_v666 : FVec Ideal S200704 .f32) = padv (V (F := Ideal) m c main_v649) (V (F := Ideal) m c main_cst_177) := by
  rewrite [V_eq_stretch m 91 hostOps0_91 rfl c main_v666 (by decide), V_eq_U m 91 c main_v649 (by decide),
    V_eq_U m 91 c main_cst_177 (by decide)]
  generalize U m 91 c = W
  after_results_simp <;> rfl

theorem eq_v667 (c : Dev nD) :
    (V (F := Ideal) m c main_v667 : FVec Ideal S200704 .f32) = padv (V (F := Ideal) m c main_v651) (V (F := Ideal) m c main_cst_178) := by
  rewrite [V_eq_stretch m 93 hostOps0_93 rfl c main_v667 (by decide), V_eq_U m 93 c main_v651 (by decide),
    V_eq_U m 93 c main_cst_178 (by decide)]
  generalize U m 93 c = W
  after_results_simp <;> rfl

theorem eq_v668 (c : Dev nD) :
    (V (F := Ideal) m c main_v668 : FVec Ideal S200704 .f32) = padv (V (F := Ideal) m c main_v653) (V (F := Ideal) m c main_cst_179) := by
  rewrite [V_eq_stretch m 95 hostOps0_95 rfl c main_v668 (by decide), V_eq_U m 95 c main_v653 (by decide),
    V_eq_U m 95 c main_cst_179 (by decide)]
  generalize U m 95 c = W
  after_results_simp <;> rfl

/-! ## A row below 200000 of a padded vector is the row of the vector before padding -/

theorem pad654_at (c : Dev nD) (r : Fin 200704) (h : r.val < 200000) :
    (V (F := Ideal) m c main_v654 : IVec S200704 32) (ix1 r) = (V (F := Ideal) m c main_v3 : IVec S200000 32) (ix1 ⟨r.val, h⟩) :=
  (congrFun (eq_v654 m c) (ix1 r)).trans (padv_apply _ _ r h)
theorem pad655_at (c : Dev nD) (r : Fin 200704) (h : r.val < 200000) :
    (V (F := Ideal) m c main_v655 : IVec S200704 32) (ix1 r) = (V (F := Ideal) m c main_v614 : IVec S200000 32) (ix1 ⟨r.val, h⟩) :=
  (congrFun (eq_v655 m c) (ix1 r)).trans (padv_apply _ _ r h)
theorem pad656_at (c : Dev nD) (r : Fin 200704) (h : r.val < 200000) :
    (V (F := Ideal) m c main_v656 : IVec S200704 32) (ix1 r) = (V (F := Ideal) m c main_v615 : IVec S200000 32) (ix1 ⟨r.val, h⟩) :=
  (congrFun (eq_v656 m c) (ix1 r)).trans (padv_apply _ _ r h)
theorem pad657_at (c : Dev nD) (r : Fin 200704) (h : r.val < 200000) :
    (V (F := Ideal) m c main_v657 : IVec S200704 32) (ix1 r) = (V (F := Ideal) m c main_v616 : IVec S200000 32) (ix1 ⟨r.val, h⟩) :=
  (congrFun (eq_v657 m c) (ix1 r)).trans (padv_apply _ _ r h)
theorem pad658_at (c : Dev nD) (r : Fin 200704) (h : r.val < 200000) :
    (V (F := Ideal) m c main_v658 : IVec S200704 32) (ix1 r) = (V (F := Ideal) m c main_v617 : IVec S200000 32) (ix1 ⟨r.val, h⟩) :=
  (congrFun (eq_v658 m c) (ix1 r)).trans (padv_apply _ _ r h)
theorem pad659_at (c : Dev nD) (r : Fin 200704) (h : r.val < 200000) :
    (V (F := Ideal) m c main_v659 : IVec S200704 32) (ix1 r) = (V (F := Ideal) m c main_v618 : IVec S200000 32) (ix1 ⟨r.val, h⟩) :=
  (congrFun (eq_v659 m c) (ix1 r)).trans (padv_apply _ _ r h)
theorem pad660_at (c : Dev nD) (r : Fin 200704) (h : r.val < 200000) :
    (V (F := Ideal) m c main_v660 : IVec S200704 32) (ix1 r) = (V (F := Ideal) m c main_v619 : IVec S200000 32) (ix1 ⟨r.val, h⟩) :=
  (congrFun (eq_v660 m c) (ix1 r)).trans (padv_apply _ _ r h)
theorem pad661_at (c : Dev nD) (r : Fin 200704) (h : r.val < 200000) :
    (V (F := Ideal) m c main_v661 : FVec Ideal S200704 .f32) (ix1 r) = (V (F := Ideal) m c main_v639 : FVec Ideal S200000 .f32) (ix1 ⟨r.val, h⟩) :=
  (congrFun (eq_v661 m c) (ix1 r)).trans (padv_apply _ _ r h)
theorem pad662_at (c : Dev nD) (r : Fin 200704) (h : r.val < 200000) :
    (V (F := Ideal) m c main_v662 : FVec Ideal S200704 .f32) (ix1 r) = (V (F := Ideal) m c main_v641 : FVec Ideal S200000 .f32) (ix1 ⟨r.val, h⟩) :=
  (congrFun (eq_v662 m c) (ix1 r)).trans (padv_apply _ _ r h)
theorem pad663_at (c : Dev nD) (r : Fin 200704) (h : r.val < 200000) :
    (V (F := Ideal) m c main_v663 : FVec Ideal S200704 .f32) (ix1 r) = (V (F := Ideal) m c main_v643 : FVec Ideal S200000 .f32) (ix1 ⟨r.val, h⟩) :=
  (congrFun (eq_v663 m c) (ix1 r)).trans (padv_apply _ _ r h)
theorem pad664_at (c : Dev nD) (r : Fin 200704) (h : r.val < 200000) :
    (V (F := Ideal) m c main_v664 : FVec Ideal S200704 .f32) (ix1 r) = (V (F := Ideal) m c main_v645 : FVec Ideal S200000 .f32) (ix1 ⟨r.val, h⟩) :=
  (congrFun (eq_v664 m c) (ix1 r)).trans (padv_apply _ _ r h)
theorem pad665_at (c : Dev nD) (r : Fin 200704) (h : r.val < 200000) :
    (V (F := Ideal) m c main_v665 : FVec Ideal S200704 .f32) (ix1 r) = (V (F := Ideal) m c main_v647 : FVec Ideal S200000 .f32) (ix1 ⟨r.val, h⟩) :=
  (congrFun (eq_v665 m c) (ix1 r)).trans (padv_apply _ _ r h)
theorem pad666_at (c : Dev nD) (r : Fin 200704) (h : r.val < 200000) :
    (V (F := Ideal) m c main_v666 : FVec Ideal S200704 .f32) (ix1 r) = (V (F := Ideal) m c main_v649 : FVec Ideal S200000 .f32) (ix1 ⟨r.val, h⟩) :=
  (congrFun (eq_v666 m c) (ix1 r)).trans (padv_apply _ _ r h)
theorem pad667_at (c : Dev nD) (r : Fin 200704) (h : r.val < 200000) :
    (V (F := Ideal) m c main_v667 : FVec Ideal S200704 .f32) (ix1 r) = (V (F := Ideal) m c main_v651 : FVec Ideal S200000 .f32) (ix1 ⟨r.val, h⟩) :=
  (congrFun (eq_v667 m c) (ix1 r)).trans (padv_apply _ _ r h)
theorem pad668_at (c : Dev nD) (r : Fin 200704) (h : r.val < 200000) :
    (V (F := Ideal) m c main_v668 : FVec Ideal S200704 .f32) (ix1 r) = (V (F := Ideal) m c main_v653 : FVec Ideal S200000 .f32) (ix1 ⟨r.val, h⟩) :=
  (congrFun (eq_v668 m c) (ix1 r)).trans (padv_apply _ _ r h)

end Cert.KernelIdeal.Val3

end
-- ==== Proof.KI.Prefix3C.lean ====
/-
  Level 3 of the kernel's host prefix, the coordinate side, at a row: what the padded arrays of batch numbers, lattice
  indices and interpolation weights hold when the region is entered.

  The batch numbers, the six index vectors and the eight weight vectors over the 200000 points are padded to 200704
  rows. Row r = b·100000 + n lies below 200000, so it reads the quantity of point n of batch b: its batch number b;
  floor and ceiling of each clamped coordinate as 32-bit integers; and the eight products of one z-, one x- and one
  y-distance, in the kernel's order — as the specification spells them over the launched coordinates.
-/
import proofs.«414534_j76854144795318_3_alg».proof.Proof.KI.Prefix3CBuf
import proofs.«414534_j76854144795318_3_alg».proof.Proof.KI.Prefix3P

set_option maxRecDepth 16384

noncomputable section

namespace Cert.KernelIdeal.Val3

open Cert.KernelIdeal Cert.KernelIdeal.Gen Cert.KernelIdeal.Hand Idealize.ShloMosaic Idealize.ShloMosaic.TcCoe Idealize.ShloMosaic.ValueIdx

variable (m : (ℓ : Loc nD τ sig) → Buf (Elt Ideal) ℓ)

/-! ## At a row

Row `r = b·100000 + n` of the padded arrays is point `n` of batch `b`: point `p = r` of the 200000. -/

/-- A row of a point lies below 200000. -/
theorem row_lt (b : Fin 2) (n : Fin 100000) (r : Fin 200704) (hr : r.val = b.val * 100000 + n.val) : r.val < 200000 := by
  have hb := b.isLt; have hn := n.isLt; omega

/-- The batch number of the row's point. -/
theorem bat_at (c : Dev nD) (b : Fin 2) (n : Fin 100000) (r : Fin 200704) (hr : r.val = b.val * 100000 + n.val) :
    (V (F := Ideal) m c main_v654 : IVec S200704 32) (ix1 r) = BitVec.ofNat 32 b.val := by
  refine (pad654_at m c r (row_lt b n r hr)).trans ?_
  rewrite [cbuf_v3 m c]
  exact batchv_apply b n ⟨r.val, row_lt b n r hr⟩ hr

/-- The lattice indices of the row's point: floor and ceiling of each clamped coordinate, as 32-bit integers. -/
theorem xlo_at (c : Dev nD) (b : Fin 2) (n : Fin 100000) (r : Fin 200704) (hr : r.val = b.val * 100000 + n.val) :
    (V (F := Ideal) m c main_v655 : IVec S200704 32) (ix1 r)
      = Cert.Spec.cvt (Cert.Spec.fl (Cert.Spec.uc Cert.Spec.s3 Cert.Spec.hi3
          ((m ((c : Thread nD τ).loc main_arg5) : S2x100000x3.Idx → EReal) (ix3 b n (0 : Fin 3))))) := by
  refine (pad655_at m c r (row_lt b n r hr)).trans ?_
  rewrite [cbuf_v614 m c]
  refine (ilo_apply _ _).trans ?_
  rewrite [x_at m c b n ⟨r.val, row_lt b n r hr⟩ hr]
  rfl
theorem xhi_at (c : Dev nD) (b : Fin 2) (n : Fin 100000) (r : Fin 200704) (hr : r.val = b.val * 100000 + n.val) :
    (V (F := Ideal) m c main_v656 : IVec S200704 32) (ix1 r)
      = Cert.Spec.cvt (Cert.Spec.ce (Cert.Spec.uc Cert.Spec.s3 Cert.Spec.hi3
          ((m ((c : Thread nD τ).loc main_arg5) : S2x100000x3.Idx → EReal) (ix3 b n (0 : Fin 3))))) := by
  refine (pad656_at m c r (row_lt b n r hr)).trans ?_
  rewrite [cbuf_v615 m c]
  refine (ihi_apply _ _).trans ?_
  rewrite [x_at m c b n ⟨r.val, row_lt b n r hr⟩ hr]
  rfl
theorem ylo_at (c : Dev nD) (b : Fin 2) (n : Fin 100000) (r : Fin 200704) (hr : r.val = b.val * 100000 + n.val) :
    (V (F := Ideal) m c main_v657 : IVec S200704 32) (ix1 r)
      = Cert.Spec.cvt (Cert.Spec.fl (Cert.Spec.uc Cert.Spec.s3 Cert.Spec.hi3
          ((m ((c : Thread nD τ).loc main_arg5) : S2x100000x3.Idx → EReal) (ix3 b n (1 : Fin 3))))) := by
  refine (pad657_at m c r (row_lt b n r hr)).trans ?_
  rewrite [cbuf_v616 m c]
  refine (ilo_apply _ _).trans ?_
  rewrite [y_at m c b n ⟨r.val, row_lt b n r hr⟩ hr]
  rfl
theorem yhi_at (c : Dev nD) (b : Fin 2) (n : Fin 100000) (r : Fin 200704) (hr : r.val = b.val * 100000 + n.val) :
    (V (F := Ideal) m c main_v658 : IVec S200704 32) (ix1 r)
      = Cert.Spec.cvt (Cert.Spec.ce (Cert.Spec.uc Cert.Spec.s3 Cert.Spec.hi3
          ((m ((c : Thread nD τ).loc main_arg5) : S2x100000x3.Idx → EReal) (ix3 b n (1 : Fin 3))))) := by
  refine (pad658_at m c r (row_lt b n r hr)).trans ?_
  rewrite [cbuf_v617 m c]
  refine (ihi_apply _ _).trans ?_
  rewrite [y_at m c b n ⟨r.val, row_lt b n r hr⟩ hr]
  rfl
theorem zlo_at (c : Dev nD) (b : Fin 2) (n : Fin 100000) (r : Fin 200704) (hr : r.val = b.val * 100000 + n.val) :
    (V (F := Ideal) m c main_v659 : IVec S200704 32) (ix1 r)
      = Cert.Spec.cvt (Cert.Spec.fl (Cert.Spec.uc Cert.Spec.s3 Cert.Spec.hi3
          ((m ((c : Thread nD τ).loc main_arg5) : S2x100000x3.Idx → EReal) (ix3 b n (2 : Fin 3))))) := by
  refine (pad659_at m c r (row_lt b n r hr)).trans ?_
  rewrite [cbuf_v618 m c]
  refine (ilo_apply _ _).trans ?_
  rewrite [z_at m c b n ⟨r.val, row_lt b n r hr⟩ hr]
  rfl
theorem zhi_at (c : Dev nD) (b : Fin 2) (n : Fin 100000) (r : Fin 200704) (hr : r.val = b.val * 100000 + n.val) :
    (V (F := Ideal) m c main_v660 : IVec S200704 32) (ix1 r)
      = Cert.Spec.cvt (Cert.Spec.ce (Cert.Spec.uc Cert.Spec.s3 Cert.Spec.hi3
          ((m ((c : Thread nD τ).loc main_arg5) : S2x100000x3.Idx → EReal) (ix3 b n (2 : Fin 3))))) := by
  refine (pad660_at m c r (row_lt b n r hr)).trans ?_
  rewrite [cbuf_v619 m c]
  refine (ihi_apply _ _).trans ?_
  rewrite [z_at m c b n ⟨r.val, row_lt b n r hr⟩ hr]
  rfl

/-- The eight weights of the row's point, in the kernel's order. -/
theorem w0_at (c : Dev nD) (b : Fin 2) (n : Fin 100000) (r : Fin 200704) (hr : r.val = b.val * 100000 + n.val) :
    (V (F := Ideal) m c main_v661 : FVec Ideal S200704 .f32) (ix1 r)
      = Cert.Spec.wgt Cert.Spec.s3 Cert.Spec.hi3
          ((m ((c : Thread nD τ).loc main_arg5) : S2x100000x3.Idx → EReal) (ix3 b n (0 : Fin 3)))
          ((m ((c : Thread nD τ).loc main_arg5) : S2x100000x3.Idx → EReal) (ix3 b n (1 : Fin 3)))
          ((m ((c : Thread nD τ).loc main_arg5) : S2x100000x3.Idx → EReal) (ix3 b n (2 : Fin 3))) (0 : Fin 8) := by
  refine (pad661_at m c r (row_lt b n r hr)).trans ?_
  rewrite [cbuf_v639 m c]
  refine (w3_apply _ _ _ _).trans ?_
  rewrite [wlo_apply, wlo_apply, wlo_apply, x_at m c b n ⟨r.val, row_lt b n r hr⟩ hr,
    y_at m c b n ⟨r.val, row_lt b n r hr⟩ hr, z_at m c b n ⟨r.val, row_lt b n r hr⟩ hr]
  rfl
theorem w1_at (c : Dev nD) (b : Fin 2) (n : Fin 100000) (r : Fin 200704) (hr : r.val = b.val * 100000 + n.val) :
    (V (F := Ideal) m c main_v662 : FVec Ideal S200704 .f32) (ix1 r)
      = Cert.Spec.wgt Cert.Spec.s3 Cert.Spec.hi3
          ((m ((c : Thread nD τ).loc main_arg5) : S2x100000x3.Idx → EReal) (ix3 b n (0 : Fin 3)))
          ((m ((c : Thread nD τ).loc main_arg5) : S2x100000x3.Idx → EReal) (ix3 b n (1 : Fin 3)))
          ((m ((c : Thread nD τ).loc main_arg5) : S2x100000x3.Idx → EReal) (ix3 b n (2 : Fin 3))) (1 : Fin 8) := by
  refine (pad662_at m c r (row_lt b n r hr)).trans ?_
  rewrite [cbuf_v641 m c]
  refine (w3_apply _ _ _ _).trans ?_
  rewrite [wlo_apply, whi_apply, wlo_apply, x_at m c b n ⟨r.val, row_lt b n r hr⟩ hr,
    y_at m c b n ⟨r.val, row_lt b n r hr⟩ hr, z_at m c b n ⟨r.val, row_lt b n r hr⟩ hr]
  rfl
theorem w2_at (c : Dev nD) (b : Fin 2) (n : Fin 100000) (r : Fin 200704) (hr : r.val = b.val * 100000 + n.val) :
    (V (F := Ideal) m c main_v663 : FVec Ideal S200704 .f32) (ix1 r)
      = Cert.Spec.wgt Cert.Spec.s3 Cert.Spec.hi3
          ((m ((c : Thread nD τ).loc main_arg5) : S2x100000x3.Idx → EReal) (ix3 b n (0 : Fin 3)))
          ((m ((c : Thread nD τ).loc main_arg5) : S2x100000x3.Idx → EReal) (ix3 b n (1 : Fin 3)))
          ((m ((c : Thread nD τ).loc main_arg5) : S2x100000x3.Idx → EReal) (ix3 b n (2 : Fin 3))) (2 : Fin 8) := by
  refine (pad663_at m c r (row_lt b n r hr)).trans ?_
  rewrite [cbuf_v643 m c]
  refine (w3_apply _ _ _ _).trans ?_
  rewrite [wlo_apply, wlo_apply, whi_apply, x_at m c b n ⟨r.val, row_lt b n r hr⟩ hr,
    y_at m c b n ⟨r.val, row_lt b n r hr⟩ hr, z_at m c b n ⟨r.val, row_lt b n r hr⟩ hr]
  rfl
theorem w3_at (c : Dev nD) (b : Fin 2) (n : Fin 100000) (r : Fin 200704) (hr : r.val = b.val * 100000 + n.val) :
    (V (F := Ideal) m c main_v664 : FVec Ideal S200704 .f32) (ix1 r)
      = Cert.Spec.wgt Cert.Spec.s3 Cert.Spec.hi3
          ((m ((c : Thread nD τ).loc main_arg5) : S2x100000x3.Idx → EReal) (ix3 b n (0 : Fin 3)))
          ((m ((c : Thread nD τ).loc main_arg5) : S2x100000x3.Idx → EReal) (ix3 b n (1 : Fin 3)))
          ((m ((c : Thread nD τ).loc main_arg5) : S2x100000x3.Idx → EReal) (ix3 b n (2 : Fin 3))) (3 : Fin 8) := by
  refine (pad664_at m c r (row_lt b n r hr)).trans ?_
  rewrite [cbuf_v645 m c]
  refine (w3_apply _ _ _ _).trans ?_
  rewrite [wlo_apply, whi_apply, whi_apply, x_at m c b n ⟨r.val, row_lt b n r hr⟩ hr,
    y_at m c b n ⟨r.val, row_lt b n r hr⟩ hr, z_at m c b n ⟨r.val, row_lt b n r hr⟩ hr]
  rfl
theorem w4_at (c : Dev nD) (b : Fin 2) (n : Fin 100000) (r : Fin 200704) (hr : r.val = b.val * 100000 + n.val) :
    (V (F := Ideal) m c main_v665 : FVec Ideal S200704 .f32) (ix1 r)
      = Cert.Spec.wgt Cert.Spec.s3 Cert.Spec.hi3
          ((m ((c : Thread nD τ).loc main_arg5) : S2x100000x3.Idx → EReal) (ix3 b n (0 : Fin 3)))
          ((m ((c : Thread nD τ).loc main_arg5) : S2x100000x3.Idx → EReal) (ix3 b n (1 : Fin 3)))
          ((m ((c : Thread nD τ).loc main_arg5) : S2x100000x3.Idx → EReal) (ix3 b n (2 : Fin 3))) (4 : Fin 8) := by
  refine (pad665_at m c r (row_lt b n r hr)).trans ?_
  rewrite [cbuf_v647 m c]
  refine (w3_apply _ _ _ _).trans ?_
  rewrite [whi_apply, wlo_apply, wlo_apply, x_at m c b n ⟨r.val, row_lt b n r hr⟩ hr,
    y_at m c b n ⟨r.val, row_lt b n r hr⟩ hr, z_at m c b n ⟨r.val, row_lt b n r hr⟩ hr]
  rfl
theorem w5_at (c : Dev nD) (b : Fin 2) (n : Fin 100000) (r : Fin 200704) (hr : r.val = b.val * 100000 + n.val) :
    (V (F := Ideal) m c main_v666 : FVec Ideal S200704 .f32) (ix1 r)
      = Cert.Spec.wgt Cert.Spec.s3 Cert.Spec.hi3
          ((m ((c : Thread nD τ).loc main_arg5) : S2x100000x3.Idx → EReal) (ix3 b n (0 : Fin 3)))
          ((m ((c : Thread nD τ).loc main_arg5) : S2x100000x3.Idx → EReal) (ix3 b n (1 : Fin 3)))
          ((m ((c : Thread nD τ).loc main_arg5) : S2x100000x3.Idx → EReal) (ix3 b n (2 : Fin 3))) (5 : Fin 8) := by
  refine (pad666_at m c r (row_lt b n r hr)).trans ?_
  rewrite [cbuf_v649 m c]
  refine (w3_apply _ _ _ _).trans ?_
  rewrite [whi_apply, whi_apply, wlo_apply, x_at m c b n ⟨r.val, row_lt b n r hr⟩ hr,
    y_at m c b n ⟨r.val, row_lt b n r hr⟩ hr, z_at m c b n ⟨r.val, row_lt b n r hr⟩ hr]
  rfl
theorem w6_at (c : Dev nD) (b : Fin 2) (n : Fin 100000) (r : Fin 200704) (hr : r.val = b.val * 100000 + n.val) :
    (V (F := Ideal) m c main_v667 : FVec Ideal S200704 .f32) (ix1 r)
      = Cert.Spec.wgt Cert.Spec.s3 Cert.Spec.hi3
          ((m ((c : Thread nD τ).loc main_arg5) : S2x100000x3.Idx → EReal) (ix3 b n (0 : Fin 3)))
          ((m ((c : Thread nD τ).loc main_arg5) : S2x100000x3.Idx → EReal) (ix3 b n (1 : Fin 3)))
          ((m ((c : Thread nD τ).loc main_arg5) : S2x100000x3.Idx → EReal) (ix3 b n (2 : Fin 3))) (6 : Fin 8) := by
  refine (pad667_at m c r (row_lt b n r hr)).trans ?_
  rewrite [cbuf_v651 m c]
  refine (w3_apply _ _ _ _).trans ?_
  rewrite [whi_apply, wlo_apply, whi_apply, x_at m c b n ⟨r.val, row_lt b n r hr⟩ hr,
    y_at m c b n ⟨r.val, row_lt b n r hr⟩ hr, z_at m c b n ⟨r.val, row_lt b n r hr⟩ hr]
  rfl
theorem w7_at (c : Dev nD) (b : Fin 2) (n : Fin 100000) (r : Fin 200704) (hr : r.val = b.val * 100000 + n.val) :
    (V (F := Ideal) m c main_v668 : FVec Ideal S200704 .f32) (ix1 r)
      = Cert.Spec.wgt Cert.Spec.s3 Cert.Spec.hi3
          ((m ((c : Thread nD τ).loc main_arg5) : S2x100000x3.Idx → EReal) (ix3 b n (0 : Fin 3)))
          ((m ((c : Thread nD τ).loc main_arg5) : S2x100000x3.Idx → EReal) (ix3 b n (1 : Fin 3)))
          ((m ((c : Thread nD τ).loc main_arg5) : S2x100000x3.Idx → EReal) (ix3 b n (2 : Fin 3))) (7 : Fin 8) := by
  refine (pad668_at m c r (row_lt b n r hr)).trans ?_
  rewrite [cbuf_v653 m c]
  refine (w3_apply _ _ _ _).trans ?_
  rewrite [whi_apply, whi_apply, whi_apply, x_at m c b n ⟨r.val, row_lt b n r hr⟩ hr,
    y_at m c b n ⟨r.val, row_lt b n r hr⟩ hr, z_at m c b n ⟨r.val, row_lt b n r hr⟩ hr]
  rfl

end Cert.KernelIdeal.Val3

end
-- ==== Proof.KI.Prefix3.lean ====
/-
  Level 3 of the sampling program: what the region's windows hold at a row.

  Row r = b * 100000 + n of the padded point axis belongs to batch b, point n. Window 26 holds the eight weights of the
  point — each a product of one z-, one x- and one y-distance of the scaled, clamped coordinates from their floors or
  ceilings — and windows 18 to 25 hold the eight lattice corners around the point read from the level's feature array:
  the feature array at batch b and at the floors or ceilings of the three coordinates, converted to integers, wrapped
  once if negative and clamped into the axis.
-/
import proofs.«414534_j76854144795318_3_alg».proof.Proof.KI.Host
import proofs.«414534_j76854144795318_3_alg».proof.Proof.KI.Layout3
import proofs.«414534_j76854144795318_3_alg».proof.Proof.KI.Prefix3G
import proofs.«414534_j76854144795318_3_alg».proof.Proof.KI.Prefix3C
import proofs.«414534_j76854144795318_3_alg».proof.Proof.Spec

set_option maxRecDepth 16384

noncomputable section

namespace Cert.KernelIdeal.Val3

open Cert.KernelIdeal Cert.KernelIdeal.Gen Cert.KernelIdeal.Hand Idealize.ShloMosaic Idealize.ShloMosaic.TcCoe Idealize.ShloMosaic.ValueIdx

/-! ## The weight stack and the gather, read at a literal column -/

section Pure
variable (w0 w1 w2 w3 w4 w5 w6 w7 : FVec Ideal S200704 .f32) (r : Fin 200704)

theorem cw8_at0 : cw8 w0 w1 w2 w3 w4 w5 w6 w7 (ix2 r (0 : Fin 8)) = w0 (ix1 r) := cw8_apply w0 w1 w2 w3 w4 w5 w6 w7 r 0
theorem cw8_at1 : cw8 w0 w1 w2 w3 w4 w5 w6 w7 (ix2 r (1 : Fin 8)) = w1 (ix1 r) := cw8_apply w0 w1 w2 w3 w4 w5 w6 w7 r 1
theorem cw8_at2 : cw8 w0 w1 w2 w3 w4 w5 w6 w7 (ix2 r (2 : Fin 8)) = w2 (ix1 r) := cw8_apply w0 w1 w2 w3 w4 w5 w6 w7 r 2
theorem cw8_at3 : cw8 w0 w1 w2 w3 w4 w5 w6 w7 (ix2 r (3 : Fin 8)) = w3 (ix1 r) := cw8_apply w0 w1 w2 w3 w4 w5 w6 w7 r 3
theorem cw8_at4 : cw8 w0 w1 w2 w3 w4 w5 w6 w7 (ix2 r (4 : Fin 8)) = w4 (ix1 r) := cw8_apply w0 w1 w2 w3 w4 w5 w6 w7 r 4
theorem cw8_at5 : cw8 w0 w1 w2 w3 w4 w5 w6 w7 (ix2 r (5 : Fin 8)) = w5 (ix1 r) := cw8_apply w0 w1 w2 w3 w4 w5 w6 w7 r 5
theorem cw8_at6 : cw8 w0 w1 w2 w3 w4 w5 w6 w7 (ix2 r (6 : Fin 8)) = w6 (ix1 r) := cw8_apply w0 w1 w2 w3 w4 w5 w6 w7 r 6
theorem cw8_at7 : cw8 w0 w1 w2 w3 w4 w5 w6 w7 (ix2 r (7 : Fin 8)) = w7 (ix1 r) := cw8_apply w0 w1 w2 w3 w4 w5 w6 w7 r 7

end Pure

/-- One corner's gather at a row whose batch index is `b` and whose three lattice indices are the converted values
    `vx`, `vy`, `vz`: the corner of the specification. -/
theorem gq_corner (feat : FVec Ideal S2x16x16x16x128 .f32) (B X Y Z : IVec S200704 32) (r : Fin 200704) (ch : Fin 128)
    (b : Fin 2) (vx vy vz : EReal) (hB : B (ix1 r) = BitVec.ofNat 32 b.val) (hX : X (ix1 r) = Cert.Spec.cvt vx)
    (hY : Y (ix1 r) = Cert.Spec.cvt vy) (hZ : Z (ix1 r) = Cert.Spec.cvt vz) :
    gq feat B X Y Z (ix2 r ch) = Cert.Spec.corner (by decide : 0 < 16) feat b vx vy vz ch := by
  rw [gq_apply, hB, hX, hY, hZ, batch_back b]
  rfl

variable (m : (ℓ : Loc nD τ sig) → Buf (Elt Ideal) ℓ)

/-- The coordinates and the level's feature array as launched, at their literal types. -/
abbrev coo (c : Dev nD) : S2x100000x3.Idx → EReal := m ((c : Thread nD τ).loc main_arg5)
abbrev fea (c : Dev nD) : S2x16x16x16x128.Idx → EReal := m ((c : Thread nD τ).loc main_arg3)

theorem fea_eq (c : Dev nD) : (V (F := Ideal) m c main_arg3 : S2x16x16x16x128.Idx → EReal) = fea m c := V_main_arg3 m c

section Rows
variable (c : Dev nD) (b : Fin 2) (n : Fin 100000) (r : Fin 200704) (hr : r.val = b.val * 100000 + n.val)
include hr

/-! ## Window 26: the eight weights of the point -/

theorem cw_at (i : Fin 8) :
    (V (F := Ideal) m c main_v677 : S200704x8.Idx → EReal) (ix2 r i)
      = Cert.Spec.wgt Cert.Spec.s3 Cert.Spec.hi3 (coo m c (ix3 b n 0)) (coo m c (ix3 b n 1)) (coo m c (ix3 b n 2)) i := by
  match i with
  | 0 => exact ((congrFun (cw_eq m c) (ix2 r (0 : Fin 8))).trans (cw8_at0 _ _ _ _ _ _ _ _ r)).trans (w0_at m c b n r hr)
  | 1 => exact ((congrFun (cw_eq m c) (ix2 r (1 : Fin 8))).trans (cw8_at1 _ _ _ _ _ _ _ _ r)).trans (w1_at m c b n r hr)
  | 2 => exact ((congrFun (cw_eq m c) (ix2 r (2 : Fin 8))).trans (cw8_at2 _ _ _ _ _ _ _ _ r)).trans (w2_at m c b n r hr)
  | 3 => exact ((congrFun (cw_eq m c) (ix2 r (3 : Fin 8))).trans (cw8_at3 _ _ _ _ _ _ _ _ r)).trans (w3_at m c b n r hr)
  | 4 => exact ((congrFun (cw_eq m c) (ix2 r (4 : Fin 8))).trans (cw8_at4 _ _ _ _ _ _ _ _ r)).trans (w4_at m c b n r hr)
  | 5 => exact ((congrFun (cw_eq m c) (ix2 r (5 : Fin 8))).trans (cw8_at5 _ _ _ _ _ _ _ _ r)).trans (w5_at m c b n r hr)
  | 6 => exact ((congrFun (cw_eq m c) (ix2 r (6 : Fin 8))).trans (cw8_at6 _ _ _ _ _ _ _ _ r)).trans (w6_at m c b n r hr)
  | 7 => exact ((congrFun (cw_eq m c) (ix2 r (7 : Fin 8))).trans (cw8_at7 _ _ _ _ _ _ _ _ r)).trans (w7_at m c b n r hr)

/-! ## Windows 18 to 25: the eight corners -/

theorem q0_at (ch : Fin 128) :
    (V (F := Ideal) m c main_v703 : S200704x128.Idx → EReal) (ix2 r ch)
      = Cert.Spec.crn (by decide : 0 < 16) Cert.Spec.s3 Cert.Spec.hi3 (fea m c) b
          (coo m c (ix3 b n 0)) (coo m c (ix3 b n 1)) (coo m c (ix3 b n 2)) (0 : Fin 8) ch := by
  refine (congrFun (q0_eq m c) (ix2 r ch)).trans ?_
  rewrite [fea_eq m c]
  exact gq_corner (fea m c) _ _ _ _ r ch b _ _ _ (bat_at m c b n r hr) (xhi_at m c b n r hr) (yhi_at m c b n r hr) (zhi_at m c b n r hr)

theorem q1_at (ch : Fin 128) :
    (V (F := Ideal) m c main_v729 : S200704x128.Idx → EReal) (ix2 r ch)
      = Cert.Spec.crn (by decide : 0 < 16) Cert.Spec.s3 Cert.Spec.hi3 (fea m c) b
          (coo m c (ix3 b n 0)) (coo m c (ix3 b n 1)) (coo m c (ix3 b n 2)) (1 : Fin 8) ch := by
  refine (congrFun (q1_eq m c) (ix2 r ch)).trans ?_
  rewrite [fea_eq m c]
  exact gq_corner (fea m c) _ _ _ _ r ch b _ _ _ (bat_at m c b n r hr) (xlo_at m c b n r hr) (yhi_at m c b n r hr) (zhi_at m c b n r hr)

theorem q2_at (ch : Fin 128) :
    (V (F := Ideal) m c main_v755 : S200704x128.Idx → EReal) (ix2 r ch)
      = Cert.Spec.crn (by decide : 0 < 16) Cert.Spec.s3 Cert.Spec.hi3 (fea m c) b
          (coo m c (ix3 b n 0)) (coo m c (ix3 b n 1)) (coo m c (ix3 b n 2)) (2 : Fin 8) ch := by
  refine (congrFun (q2_eq m c) (ix2 r ch)).trans ?_
  rewrite [fea_eq m c]
  exact gq_corner (fea m c) _ _ _ _ r ch b _ _ _ (bat_at m c b n r hr) (xhi_at m c b n r hr) (ylo_at m c b n r hr) (zhi_at m c b n r hr)

theorem q3_at (ch : Fin 128) :
    (V (F := Ideal) m c main_v781 : S200704x128.Idx → EReal) (ix2 r ch)
      = Cert.Spec.crn (by decide : 0 < 16) Cert.Spec.s3 Cert.Spec.hi3 (fea m c) b
          (coo m c (ix3 b n 0)) (coo m c (ix3 b n 1)) (coo m c (ix3 b n 2)) (3 : Fin 8) ch := by
  refine (congrFun (q3_eq m c) (ix2 r ch)).trans ?_
  rewrite [fea_eq m c]
  exact gq_corner (fea m c) _ _ _ _ r ch b _ _ _ (bat_at m c b n r hr) (xlo_at m c b n r hr) (ylo_at m c b n r hr) (zhi_at m c b n r hr)

theorem q4_at (ch : Fin 128) :
    (V (F := Ideal) m c main_v807 : S200704x128.Idx → EReal) (ix2 r ch)
      = Cert.Spec.crn (by decide : 0 < 16) Cert.Spec.s3 Cert.Spec.hi3 (fea m c) b
          (coo m c (ix3 b n 0)) (coo m c (ix3 b n 1)) (coo m c (ix3 b n 2)) (4 : Fin 8) ch := by
  refine (congrFun (q4_eq m c) (ix2 r ch)).trans ?_
  rewrite [fea_eq m c]
  exact gq_corner (fea m c) _ _ _ _ r ch b _ _ _ (bat_at m c b n r hr) (xhi_at m c b n r hr) (yhi_at m c b n r hr) (zlo_at m c b n r hr)

theorem q5_at (ch : Fin 128) :
    (V (F := Ideal) m c main_v833 : S200704x128.Idx → EReal) (ix2 r ch)
      = Cert.Spec.crn (by decide : 0 < 16) Cert.Spec.s3 Cert.Spec.hi3 (fea m c) b
          (coo m c (ix3 b n 0)) (coo m c (ix3 b n 1)) (coo m c (ix3 b n 2)) (5 : Fin 8) ch := by
  refine (congrFun (q5_eq m c) (ix2 r ch)).trans ?_
  rewrite [fea_eq m c]
  exact gq_corner (fea m c) _ _ _ _ r ch b _ _ _ (bat_at m c b n r hr) (xlo_at m c b n r hr) (yhi_at m c b n r hr) (zlo_at m c b n r hr)

theorem q6_at (ch : Fin 128) :
    (V (F := Ideal) m c main_v859 : S200704x128.Idx → EReal) (ix2 r ch)
      = Cert.Spec.crn (by decide : 0 < 16) Cert.Spec.s3 Cert.Spec.hi3 (fea m c) b
          (coo m c (ix3 b n 0)) (coo m c (ix3 b n 1)) (coo m c (ix3 b n 2)) (6 : Fin 8) ch := by
  refine (congrFun (q6_eq m c) (ix2 r ch)).trans ?_
  rewrite [fea_eq m c]
  exact gq_corner (fea m c) _ _ _ _ r ch b _ _ _ (bat_at m c b n r hr) (xhi_at m c b n r hr) (ylo_at m c b n r hr) (zlo_at m c b n r hr)

theorem q7_at (ch : Fin 128) :
    (V (F := Ideal) m c main_v885 : S200704x128.Idx → EReal) (ix2 r ch)
      = Cert.Spec.crn (by decide : 0 < 16) Cert.Spec.s3 Cert.Spec.hi3 (fea m c) b
          (coo m c (ix3 b n 0)) (coo m c (ix3 b n 1)) (coo m c (ix3 b n 2)) (7 : Fin 8) ch := by
  refine (congrFun (q7_eq m c) (ix2 r ch)).trans ?_
  rewrite [fea_eq m c]
  exact gq_corner (fea m c) _ _ _ _ r ch b _ _ _ (bat_at m c b n r hr) (xlo_at m c b n r hr) (ylo_at m c b n r hr) (zlo_at m c b n r hr)

end Rows

end Cert.KernelIdeal.Val3

end
-- ==== Proof.KI.Tail.lean ====
/-
  The last stretch of the kernel program, read at an index.

  After its one pipelined region the program cuts each of the three output arrays (200704 padded rows; 32, 64 and 128
  channels) down to its first 200000 rows, lays the three side by side along the channel axis (224 channels) and splits
  the row axis back into batch and point: row `r = b · 100000 + n` is point `n` of batch `b`. So the result at
  `(b, n, j)` is the level-1 output at `(r, j)` for `j < 32`, the level-2 output at `(r, j − 32)` for `32 ≤ j < 96`, and
  the level-3 output at `(r, j − 96)` otherwise. Nothing here depends on what the outputs hold, nor on any buffer
  other than those three: the statements are over any proof data of the region and any contents at its entry.
-/
import proofs.«414534_j76854144795318_3_alg».proof.Proof.Gen.KernelIdeal.Launch
import proofs.«414534_j76854144795318_3_alg».proof.Proof.Spec
import Idealize.ShloMosaic.Lib.Pipeline.FrameSuffix
import Idealize.ShloMosaic.Lib.Pipeline.Value
import Idealize.ShloMosaic.Lib.ValueIdx
import Idealize.ShloMosaic.Lib.StableHlo.Run

set_option maxRecDepth 16384

noncomputable section

namespace Cert.KernelIdeal.Val

open Cert.KernelIdeal Cert.KernelIdeal.Gen
open Idealize.ShloMosaic Idealize.ShloMosaic.TcCoe Idealize.ShloMosaic.Tactic Idealize.ShloMosaic.ValueIdx
open Idealize.SL Idealize.SL.RA Idealize.SL.Sem
open Idealize.ShloMosaic.Rounds
open Idealize.ShloMosaic.Pipeline (Dat Cfg)

/-- The flattened row of point `n` of batch `b`: `b · 100000 + n`, as a row of the padded arrays … -/
def row (b : Fin 2) (n : Fin 100000) : Fin 200704 := ⟨b.val * 100000 + n.val, by omega⟩
/-- … and as a row of the unpadded ones. -/
def rowS (b : Fin 2) (n : Fin 100000) : Fin 200000 := ⟨b.val * 100000 + n.val, by omega⟩

/-! ## The layout operations at an index -/

/-- Three arrays cut to their first 200000 rows, laid side by side along the channel axis and split back into batch
    and point, read at batch `b`, point `n`, channel `j`: the array whose channel span holds `j`, at row
    `b · 100000 + n` and at `j` less the widths before it. The reshape keeps the row-major position,
    `(b · 100000 + n) · 224 + j`; the concatenation picks the piece by the spans 0–31, 32–95, 96–223; the slices
    start at row 0 and channel 0. -/
theorem tail_read {α : Type} (A1 : S200704x32.Idx → α) (A2 : S200704x64.Idx → α) (A3 : S200704x128.Idx → α)
    (b : Fin 2) (n : Fin 100000) (j : Fin 224) :
    shapeCast S2x100000x224
        (concatenate S200000x224 1
          [⟨S200000x32, extractStridedSlice S200000x32 ![0, 0] A1 slices_S200704x32_S200000x32_0_0⟩,
           ⟨S200000x64, extractStridedSlice S200000x64 ![0, 0] A2 slices_S200704x64_S200000x64_0_0⟩,
           ⟨S200000x128, extractStridedSlice S200000x128 ![0, 0] A3 slices_S200704x128_S200000x128_0_0⟩]
          concatenates_S200000x32_S200000x64_S200000x128_S200000x224_d1)
        shapeCasts_S200000x224_S2x100000x224 (ix3 b n j)
      = if h1 : j.val < 32 then A1 (ix2 (row b n) ⟨j.val, h1⟩)
        else if h2 : j.val < 96 then A2 (ix2 (row b n) ⟨j.val - 32, by omega⟩)
        else A3 (ix2 (row b n) ⟨j.val - 96, by omega⟩) := by
  refine (shapeCast_apply _ shapeCasts_S200000x224_S2x100000x224 (ix3 b n j) (ix2 (rowS b n) j) ?_).trans ?_
  · rw [Shape.rowMajor_val_three, Shape.rowMajor_val_two]
    rfl
  by_cases h1 : j.val < 32
  · rw [dif_pos h1]
    refine (concatenate_apply_piece _ _ _ (ix2 (rowS b n) j) 0 (by show 0 < 3; omega) S200000x32 _ rfl rfl 0 rfl
      (ix2 (rowS b n) ⟨j.val, h1⟩) (fun a ha => match a, ha with | ⟨0, _⟩, _ => rfl | ⟨1, _⟩, ha => absurd rfl ha) ?_).trans ?_
    · show 0 + j.val = j.val
      omega
    exact extractStridedSlice_apply _ A1 _ _ _ fun a => match a with
      | ⟨0, _⟩ => by show b.val * 100000 + n.val = 0 + (b.val * 100000 + n.val); omega
      | ⟨1, _⟩ => by show j.val = 0 + j.val; omega
  · rw [dif_neg h1]
    by_cases h2 : j.val < 96
    · rw [dif_pos h2]
      refine (concatenate_apply_piece _ _ _ (ix2 (rowS b n) j) 1 (by show 1 < 3; omega) S200000x64 _ rfl rfl 32 rfl
        (ix2 (rowS b n) ⟨j.val - 32, by omega⟩) (fun a ha => match a, ha with | ⟨0, _⟩, _ => rfl | ⟨1, _⟩, ha => absurd rfl ha) ?_).trans ?_
      · show 32 + (j.val - 32) = j.val
        omega
      exact extractStridedSlice_apply _ A2 _ _ _ fun a => match a with
        | ⟨0, _⟩ => by show b.val * 100000 + n.val = 0 + (b.val * 100000 + n.val); omega
        | ⟨1, _⟩ => by show j.val - 32 = 0 + (j.val - 32); omega
    · rw [dif_neg h2]
      refine (concatenate_apply_piece _ _ _ (ix2 (rowS b n) j) 2 (by show 2 < 3; omega) S200000x128 _ rfl rfl 96 rfl
        (ix2 (rowS b n) ⟨j.val - 96, by omega⟩) (fun a ha => match a, ha with | ⟨0, _⟩, _ => rfl | ⟨1, _⟩, ha => absurd rfl ha) ?_).trans ?_
      · show 96 + (j.val - 96) = j.val
        omega
      exact extractStridedSlice_apply _ A3 _ _ _ fun a => match a with
        | ⟨0, _⟩ => by show b.val * 100000 + n.val = 0 + (b.val * 100000 + n.val); omega
        | ⟨1, _⟩ => by show j.val - 96 = 0 + (j.val - 96); omega

/-! ## The last stretch over the region's exit contents -/

/-- The five operations after the region, composed: the result buffer holds the reshape of the side-by-side
    concatenation of the three output arrays' first 200000 rows, over any contents `W` at the region's exit. Each
    operation's result is read at its own buffer and passes the other operations' buffers unchanged. -/
theorem after_tail (W : Valuation τ sig (Elt Ideal)) :
    (StableHlo.after hostOps1 W (Proc.devRef .tc main_v891) : S2x100000x224.Idx → EReal)
      = shapeCast S2x100000x224
        (concatenate S200000x224 1
          [⟨S200000x32, extractStridedSlice S200000x32 ![0, 0] (W (Proc.devRef .tc main_v886_0) : S200704x32.Idx → EReal) slices_S200704x32_S200000x32_0_0⟩,
           ⟨S200000x64, extractStridedSlice S200000x64 ![0, 0] (W (Proc.devRef .tc main_v886_1) : S200704x64.Idx → EReal) slices_S200704x64_S200000x64_0_0⟩,
           ⟨S200000x128, extractStridedSlice S200000x128 ![0, 0] (W (Proc.devRef .tc main_v886_2) : S200704x128.Idx → EReal) slices_S200704x128_S200000x128_0_0⟩]
          concatenates_S200000x32_S200000x64_S200000x128_S200000x224_d1)
        shapeCasts_S200000x224_S2x100000x224 := by
  after_results
  dsimp only [Matrix.cons_val]
  repeat (first
    | rw [StableHlo.unary_result]
    | (rw [StableHlo.unary_result_ne]; rotate_left; decide))
  rfl

variable (dats : (p : Fin 1) → (c : Dev nD) → Dat τ (Elt Ideal) Unit ℕ (UR sig nD τ) ℕ (cfgs p) c)
variable (V₀ : Dev nD → Valuation τ sig (Elt Ideal))

/-- At the region's exit the level-1 output buffer holds what the pipeline computes from the proof data, … -/
theorem exit27 (c : Dev nD) :
    Pipeline.withArrays (cfgs 0).spec c (V₀ c) (fun w => (dats 0 c).arrAt w (cfgs 0).N) (Proc.devRef .tc main_v886_0)
      = (dats 0 c).arrAt 27 cfg0.N :=
  Pipeline.withArrays_arr spec0 launch0.win.arr_inj c _ _ 27
/-- … so does the level-2 output buffer, … -/
theorem exit28 (c : Dev nD) :
    Pipeline.withArrays (cfgs 0).spec c (V₀ c) (fun w => (dats 0 c).arrAt w (cfgs 0).N) (Proc.devRef .tc main_v886_1)
      = (dats 0 c).arrAt 28 cfg0.N :=
  Pipeline.withArrays_arr spec0 launch0.win.arr_inj c _ _ 28
/-- … and the level-3 output buffer. -/
theorem exit29 (c : Dev nD) :
    Pipeline.withArrays (cfgs 0).spec c (V₀ c) (fun w => (dats 0 c).arrAt w (cfgs 0).N) (Proc.devRef .tc main_v886_2)
      = (dats 0 c).arrAt 29 cfg0.N :=
  Pipeline.withArrays_arr spec0 launch0.win.arr_inj c _ _ 29

/-- The result buffer after the last stretch is that stretch run over the region's exit contents. -/
theorem afterTail_eq (c : Dev nD) :
    Pipeline.afterTail₀ cfgs dats 0 V₀ [hostOps1] c main_v891
      = StableHlo.after hostOps1 (Pipeline.withArrays (cfgs 0).spec c (V₀ c) fun w => (dats 0 c).arrAt w (cfgs 0).N)
          (Proc.devRef .tc main_v891) := rfl

/-- The program's result at batch `b`, point `n`, channel `j`: the output array whose channel span holds `j`, at row
    `b · 100000 + n`. -/
theorem tail_at (c : Dev nD) (b : Fin 2) (n : Fin 100000) (j : Fin 224) :
    (Pipeline.afterTail₀ cfgs dats 0 V₀ [hostOps1] c main_v891 : S2x100000x224.Idx → EReal) (ix3 b n j)
      = if h1 : j.val < 32 then ((dats 0 c).arrAt 27 cfg0.N : S200704x32.Idx → EReal) (ix2 (row b n) ⟨j.val, h1⟩)
        else if h2 : j.val < 96 then ((dats 0 c).arrAt 28 cfg0.N : S200704x64.Idx → EReal) (ix2 (row b n) ⟨j.val - 32, by omega⟩)
        else ((dats 0 c).arrAt 29 cfg0.N : S200704x128.Idx → EReal) (ix2 (row b n) ⟨j.val - 96, by omega⟩) := by
  rw [afterTail_eq, after_tail, exit27, exit28, exit29]
  exact tail_read _ _ _ b n j

/-- The same as one equation of arrays: the three output arrays, row `b · 100000 + n` read as (batch, point), laid
    side by side along the channel axis. -/
theorem tail_eq_side (c : Dev nD) :
    (Pipeline.afterTail₀ cfgs dats 0 V₀ [hostOps1] c main_v891 : S2x100000x224.Idx → EReal)
      = Cert.Spec.side (fun b n ch => ((dats 0 c).arrAt 27 cfg0.N : S200704x32.Idx → EReal) (ix2 (row b n) ch))
          (fun b n ch => ((dats 0 c).arrAt 28 cfg0.N : S200704x64.Idx → EReal) (ix2 (row b n) ch))
          (fun b n ch => ((dats 0 c).arrAt 29 cfg0.N : S200704x128.Idx → EReal) (ix2 (row b n) ch)) := by
  funext i
  obtain ⟨b, n, j, rfl⟩ : ∃ b n j, i = ix3 b n j := ⟨_, _, _, eq_ix3 i⟩
  exact tail_at dats V₀ c b n j

end Cert.KernelIdeal.Val

end
-- ==== Proof.KI.Value.lean ====
/-
  The kernel program's run with its value, at the ideal float model.

  The program computes, per level, the eight corner arrays and the weight array over the flattened point axis
  (row `r = b · 100000 + n` is point `n` of batch `b`), combines them in one pipelined region into the level's output
  array — at each row and channel the eight corner entries times the row's eight weights, added in turn to zero — and
  then lays the three outputs side by side along the channel axis, split back into batch and point.

  Here the pieces are put together. A level's output at row `b · 100000 + n` is the specification's value `K` at batch
  `b`, point `n`: the output is the weighted sum of the corner arrays, the weight array holds the point's eight weights,
  each corner array holds the point's corner read, and `K` is by definition that sum (`level_eq`). The result buffer
  after the last stretch is the three outputs side by side, which is the specification's `resultK` (`result_eq`). The
  run's post gives the result buffer and the six arguments at what the last stretch leaves in them (`kernel_run`).
  No finiteness of the inputs is needed: every step is an equation of extended reals read off the program.
-/
import proofs.«414534_j76854144795318_3_alg».proof.Proof.KI.Run
import proofs.«414534_j76854144795318_3_alg».proof.Proof.KI.Blocks
import proofs.«414534_j76854144795318_3_alg».proof.Proof.KI.Prefix1
import proofs.«414534_j76854144795318_3_alg».proof.Proof.KI.Prefix2
import proofs.«414534_j76854144795318_3_alg».proof.Proof.KI.Prefix3
import proofs.«414534_j76854144795318_3_alg».proof.Proof.KI.Tail
import proofs.«414534_j76854144795318_3_alg».proof.Proof.Spec

set_option maxRecDepth 16384

noncomputable section

namespace Cert.KernelIdeal.Val

open Cert.KernelIdeal Cert.KernelIdeal.Gen Cert.KernelIdeal.Hand
open Idealize.ShloMosaic Idealize.ShloMosaic.TcCoe Idealize.ShloMosaic.Tactic Idealize.ShloMosaic.ValueIdx
open Idealize.SL Idealize.SL.RA Idealize.SL.Sem
open Idealize.ShloMosaic.Rounds
open Idealize.ShloMosaic.Pipeline (Dat Cfg)

/-! ## One level, as a statement about arrays -/

section Level

variable {D C : Nat} (hD : 0 < D) (s hi : EReal) (feat : (⟨5, ![2, D, D, D, C]⟩ : Shape).Idx → EReal) (co : Cert.Spec.Coords)

/-- One level: if the output array is the eight corner arrays times the eight weight columns added in turn to zero
    (`hout`), the weight array holds each point's eight weights (`hcw`) and the corner arrays its eight corner reads
    (`hq0` … `hq7`), then the output at row `b · 100000 + n` is the specification's value at batch `b`, point `n`:
    the specification's value is that same sum (`Cert.Spec.K_eq`). -/
theorem level_eq (A Q0 Q1 Q2 Q3 Q4 Q5 Q6 Q7 : (⟨2, ![200704, C]⟩ : Shape).Idx → EReal)
    (CW : (⟨2, ![200704, 8]⟩ : Shape).Idx → EReal)
    (hout : ∀ (r : Fin 200704) (ch : Fin C), A (ix2 r ch)
      = 0 + Q0 (ix2 r ch) * CW (ix2 r 0) + Q1 (ix2 r ch) * CW (ix2 r 1) + Q2 (ix2 r ch) * CW (ix2 r 2)
          + Q3 (ix2 r ch) * CW (ix2 r 3) + Q4 (ix2 r ch) * CW (ix2 r 4) + Q5 (ix2 r ch) * CW (ix2 r 5)
          + Q6 (ix2 r ch) * CW (ix2 r 6) + Q7 (ix2 r ch) * CW (ix2 r 7))
    (hcw : ∀ (b : Fin 2) (n : Fin 100000) (i : Fin 8), CW (ix2 (row b n) i)
      = Cert.Spec.wgt s hi (co (ix3 b n 0)) (co (ix3 b n 1)) (co (ix3 b n 2)) i)
    (hq0 : ∀ (b : Fin 2) (n : Fin 100000) (ch : Fin C), Q0 (ix2 (row b n) ch)
      = Cert.Spec.crn hD s hi feat b (co (ix3 b n 0)) (co (ix3 b n 1)) (co (ix3 b n 2)) 0 ch)
    (hq1 : ∀ (b : Fin 2) (n : Fin 100000) (ch : Fin C), Q1 (ix2 (row b n) ch)
      = Cert.Spec.crn hD s hi feat b (co (ix3 b n 0)) (co (ix3 b n 1)) (co (ix3 b n 2)) 1 ch)
    (hq2 : ∀ (b : Fin 2) (n : Fin 100000) (ch : Fin C), Q2 (ix2 (row b n) ch)
      = Cert.Spec.crn hD s hi feat b (co (ix3 b n 0)) (co (ix3 b n 1)) (co (ix3 b n 2)) 2 ch)
    (hq3 : ∀ (b : Fin 2) (n : Fin 100000) (ch : Fin C), Q3 (ix2 (row b n) ch)
      = Cert.Spec.crn hD s hi feat b (co (ix3 b n 0)) (co (ix3 b n 1)) (co (ix3 b n 2)) 3 ch)
    (hq4 : ∀ (b : Fin 2) (n : Fin 100000) (ch : Fin C), Q4 (ix2 (row b n) ch)
      = Cert.Spec.crn hD s hi feat b (co (ix3 b n 0)) (co (ix3 b n 1)) (co (ix3 b n 2)) 4 ch)
    (hq5 : ∀ (b : Fin 2) (n : Fin 100000) (ch : Fin C), Q5 (ix2 (row b n) ch)
      = Cert.Spec.crn hD s hi feat b (co (ix3 b n 0)) (co (ix3 b n 1)) (co (ix3 b n 2)) 5 ch)
    (hq6 : ∀ (b : Fin 2) (n : Fin 100000) (ch : Fin C), Q6 (ix2 (row b n) ch)
      = Cert.Spec.crn hD s hi feat b (co (ix3 b n 0)) (co (ix3 b n 1)) (co (ix3 b n 2)) 6 ch)
    (hq7 : ∀ (b : Fin 2) (n : Fin 100000) (ch : Fin C), Q7 (ix2 (row b n) ch)
      = Cert.Spec.crn hD s hi feat b (co (ix3 b n 0)) (co (ix3 b n 1)) (co (ix3 b n 2)) 7 ch)
    (b : Fin 2) (n : Fin 100000) (ch : Fin C) :
    A (ix2 (row b n) ch)
      = Cert.Spec.K hD s hi feat b (co (ix3 b n 0)) (co (ix3 b n 1)) (co (ix3 b n 2)) ch := by
  rw [Cert.Spec.K_eq, hout, hcw, hcw, hcw, hcw, hcw, hcw, hcw, hcw, hq0, hq1, hq2, hq3, hq4, hq5, hq6, hq7]

end Level

/-! ## The three levels of the program -/

variable (m : (ℓ : Loc nD τ sig) → Buf (Elt Ideal) ℓ) (ρ : Dev nD → PrngReg)

/-- Level 1: the first output array, read by (batch, point), is the specification's level-1 value of the launch
    memory's level-1 features and coordinates. -/
theorem level1 (c : Dev nD) :
    (fun (b : Fin 2) (n : Fin 100000) (ch : Fin 32) =>
        ((dats (F := Ideal) m 0 c).arrAt 27 cfg0.N : S200704x32.Idx → EReal) (ix2 (row b n) ch))
      = Cert.Spec.K1 (m ((c : Thread nD τ).loc main_arg1)) (m ((c : Thread nD τ).loc main_arg5)) := by
  funext b n ch
  exact level_eq (D := 64) (C := 32) (by decide : 0 < 64) Cert.Spec.s1 Cert.Spec.hi1
    (m ((c : Thread nD τ).loc main_arg1) : S2x64x64x64x32.Idx → EReal)
    (m ((c : Thread nD τ).loc main_arg5) : S2x100000x3.Idx → EReal)
    ((dats (F := Ideal) m 0 c).arrAt 27 cfg0.N : S200704x32.Idx → EReal)
    (V m c main_v115 : S200704x32.Idx → EReal) (V m c main_v141 : S200704x32.Idx → EReal)
    (V m c main_v167 : S200704x32.Idx → EReal) (V m c main_v193 : S200704x32.Idx → EReal)
    (V m c main_v219 : S200704x32.Idx → EReal) (V m c main_v245 : S200704x32.Idx → EReal)
    (V m c main_v271 : S200704x32.Idx → EReal) (V m c main_v297 : S200704x32.Idx → EReal)
    (V m c main_v89 : S200704x8.Idx → EReal)
    (out27_at m c)
    (fun b n i => Val1.cw_at m c b n (row b n) rfl i)
    (fun b n ch => Val1.q0_at m c b n (row b n) rfl ch) (fun b n ch => Val1.q1_at m c b n (row b n) rfl ch)
    (fun b n ch => Val1.q2_at m c b n (row b n) rfl ch) (fun b n ch => Val1.q3_at m c b n (row b n) rfl ch)
    (fun b n ch => Val1.q4_at m c b n (row b n) rfl ch) (fun b n ch => Val1.q5_at m c b n (row b n) rfl ch)
    (fun b n ch => Val1.q6_at m c b n (row b n) rfl ch) (fun b n ch => Val1.q7_at m c b n (row b n) rfl ch)
    b n ch

/-- Level 2, likewise, from the second output array. -/
theorem level2 (c : Dev nD) :
    (fun (b : Fin 2) (n : Fin 100000) (ch : Fin 64) =>
        ((dats (F := Ideal) m 0 c).arrAt 28 cfg0.N : S200704x64.Idx → EReal) (ix2 (row b n) ch))
      = Cert.Spec.K2 (m ((c : Thread nD τ).loc main_arg2)) (m ((c : Thread nD τ).loc main_arg5)) := by
  funext b n ch
  exact level_eq (D := 32) (C := 64) (by decide : 0 < 32) Cert.Spec.s2 Cert.Spec.hi2
    (m ((c : Thread nD τ).loc main_arg2) : S2x32x32x32x64.Idx → EReal)
    (m ((c : Thread nD τ).loc main_arg5) : S2x100000x3.Idx → EReal)
    ((dats (F := Ideal) m 0 c).arrAt 28 cfg0.N : S200704x64.Idx → EReal)
    (V m c main_v409 : S200704x64.Idx → EReal) (V m c main_v435 : S200704x64.Idx → EReal)
    (V m c main_v461 : S200704x64.Idx → EReal) (V m c main_v487 : S200704x64.Idx → EReal)
    (V m c main_v513 : S200704x64.Idx → EReal) (V m c main_v539 : S200704x64.Idx → EReal)
    (V m c main_v565 : S200704x64.Idx → EReal) (V m c main_v591 : S200704x64.Idx → EReal)
    (V m c main_v383 : S200704x8.Idx → EReal)
    (out28_at m c)
    (fun b n i => Val2.cw_at m c b n (row b n) rfl i)
    (fun b n ch => Val2.q0_at m c b n (row b n) rfl ch) (fun b n ch => Val2.q1_at m c b n (row b n) rfl ch)
    (fun b n ch => Val2.q2_at m c b n (row b n) rfl ch) (fun b n ch => Val2.q3_at m c b n (row b n) rfl ch)
    (fun b n ch => Val2.q4_at m c b n (row b n) rfl ch) (fun b n ch => Val2.q5_at m c b n (row b n) rfl ch)
    (fun b n ch => Val2.q6_at m c b n (row b n) rfl ch) (fun b n ch => Val2.q7_at m c b n (row b n) rfl ch)
    b n ch

/-- Level 3, likewise, from the third output array. -/
theorem level3 (c : Dev nD) :
    (fun (b : Fin 2) (n : Fin 100000) (ch : Fin 128) =>
        ((dats (F := Ideal) m 0 c).arrAt 29 cfg0.N : S200704x128.Idx → EReal) (ix2 (row b n) ch))
      = Cert.Spec.K3 (m ((c : Thread nD τ).loc main_arg3)) (m ((c : Thread nD τ).loc main_arg5)) := by
  funext b n ch
  exact level_eq (D := 16) (C := 128) (by decide : 0 < 16) Cert.Spec.s3 Cert.Spec.hi3
    (m ((c : Thread nD τ).loc main_arg3) : S2x16x16x16x128.Idx → EReal)
    (m ((c : Thread nD τ).loc main_arg5) : S2x100000x3.Idx → EReal)
    ((dats (F := Ideal) m 0 c).arrAt 29 cfg0.N : S200704x128.Idx → EReal)
    (V m c main_v703 : S200704x128.Idx → EReal) (V m c main_v729 : S200704x128.Idx → EReal)
    (V m c main_v755 : S200704x128.Idx → EReal) (V m c main_v781 : S200704x128.Idx → EReal)
    (V m c main_v807 : S200704x128.Idx → EReal) (V m c main_v833 : S200704x128.Idx → EReal)
    (V m c main_v859 : S200704x128.Idx → EReal) (V m c main_v885 : S200704x128.Idx → EReal)
    (V m c main_v677 : S200704x8.Idx → EReal)
    (out29_at m c)
    (fun b n i => Val3.cw_at m c b n (row b n) rfl i)
    (fun b n ch => Val3.q0_at m c b n (row b n) rfl ch) (fun b n ch => Val3.q1_at m c b n (row b n) rfl ch)
    (fun b n ch => Val3.q2_at m c b n (row b n) rfl ch) (fun b n ch => Val3.q3_at m c b n (row b n) rfl ch)
    (fun b n ch => Val3.q4_at m c b n (row b n) rfl ch) (fun b n ch => Val3.q5_at m c b n (row b n) rfl ch)
    (fun b n ch => Val3.q6_at m c b n (row b n) rfl ch) (fun b n ch => Val3.q7_at m c b n (row b n) rfl ch)
    b n ch

/-! ## The program's result and its run -/

/-- What the result buffer holds after the last stretch: the three levels' values laid side by side along the channel
    axis — the specification's result of the launch memory's arguments. -/
theorem result_eq (c : Dev nD) :
    Pipeline.afterTail₀ cfgs (dats (F := Ideal) m) 0 (V0 m) [hostOps1] c main_v891
      = Cert.Spec.resultK (m ((c : Thread nD τ).loc main_arg1)) (m ((c : Thread nD τ).loc main_arg2))
          (m ((c : Thread nD τ).loc main_arg3)) (m ((c : Thread nD τ).loc main_arg5)) := by
  refine (tail_eq_side (dats m) (V0 m) c).trans ?_
  unfold Cert.Spec.resultK
  rw [level1 m c, level2 m c, level3 m c]

/-- THE KERNEL'S RUN WITH ITS VALUE: from any memory with zero counters the program runs on every core, its result
    buffer ends at the specification's result of the launch memory's arguments, and its six argument arrays end as
    launched. The result buffer is an unscoped buffer that is no array of the region, so it ends at what the last
    stretch leaves in it (`result_eq`); so do the arguments, which no host operation writes. -/
theorem kernel_run :
    θ_run (defs (F := Ideal)) (onTc (τ := τ) (main (F := Ideal))) ⟨m, fun _ => 0, ρ⟩ (fun r => ∀ c : Dev nD,
      r.2.mem ((c.tc : Thread nD τ).loc main_v891)
        = Cert.Spec.resultK (m ((c.tc : Thread nD τ).loc main_arg1)) (m ((c.tc : Thread nD τ).loc main_arg2))
            (m ((c.tc : Thread nD τ).loc main_arg3)) (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c =>
    ⟨((h c).2 main_v891 (Pipeline.mem_restRefs_of main_v891 (by decide) (by decide))).trans (result_eq m c),
     ((h c).2 main_arg0 (Pipeline.mem_restRefs_of main_arg0 (by decide) (by decide))).trans (W_main_arg0 m (dats m) c),
     ((h c).2 main_arg1 (Pipeline.mem_restRefs_of main_arg1 (by decide) (by decide))).trans (W_main_arg1 m (dats m) c),
     ((h c).2 main_arg2 (Pipeline.mem_restRefs_of main_arg2 (by decide) (by decide))).trans (W_main_arg2 m (dats m) c),
     ((h c).2 main_arg3 (Pipeline.mem_restRefs_of main_arg3 (by decide) (by decide))).trans (W_main_arg3 m (dats m) c),
     ((h c).2 main_arg4 (Pipeline.mem_restRefs_of main_arg4 (by decide) (by decide))).trans (W_main_arg4 m (dats m) c),
     ((h c).2 main_arg5 (Pipeline.mem_restRefs_of main_arg5 (by decide) (by decide))).trans (W_main_arg5 m (dats m) c)⟩)
    (run_main m ρ)

end Cert.KernelIdeal.Val

end
-- ==== Proof.Ref.OpsTable.lean ====
/-
  The reference program's 910 host operations, in order, cut where the printed program cuts its statements: fifteen
  windows (a call of the clamp function stands as its six operations). For each window K:
    chunkK            the window's operations, in order;
    main_partK_eq     the window's program is those operations run in a row;
    chunkK_sub        every operation touches TensorCore references only;
    chunkK_fresh      every operation determines everything it writes;
    WRK               the references the window writes, in order (each operation writes exactly one);
    chunkK_writes     every operation of the window writes inside WRK.
-/
import proofs.«414534_j76854144795318_3_alg».proof.Proof.Gen.ReferenceIdeal
import proofs.«414534_j76854144795318_3_alg».proof.Proof.PeelLib
import Idealize.ShloMosaic.Lib.StableHlo.Run

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

/-- The reference's operations 1 … 65 of 910, in order. -/
abbrev chunk0 : List (HloOp τ sig (Elt F)) :=
  [ nullary main_cst (constant S3 .f32 0x42800000#32),
    nullary main_cst_0 (constant S3 .f32 0x42000000#32),
    nullary main_cst_1 (constant S3 .f32 0x41800000#32),
    unary main_cst main_v0 (broadcastInDim S1x1x3 ![2] bcast_S3_S1x1x3_2 : (⟨S3, .f32⟩ : BufTy).Contents (Elt F) → (⟨S1x1x3, .f32⟩ : BufTy).Contents (Elt F)),
    unary main_v0 main_v1 (broadcastInDim S2x100000x3 ![0, 1, 2] bcast_S1x1x3_S2x100000x3_0_1_2 : (⟨S1x1x3, .f32⟩ : BufTy).Contents (Elt F) → (⟨S2x100000x3, .f32⟩ : BufTy).Contents (Elt F)),
    binary main_arg5 main_v1 main_v2 (mulf : (⟨S2x100000x3, .f32⟩ : BufTy).Contents (Elt F) → (⟨S2x100000x3, .f32⟩ : BufTy).Contents (Elt F) → (⟨S2x100000x3, .f32⟩ : BufTy).Contents (Elt F)),
    nullary main_cst_2 (constant S_ .f32 0x3C23D70A#32),
    nullary main_cst_3 (constant S_ .f32 0x427BF5C3#32),
    TRef.unary (TRef.of (T := ⟨S_, .f32⟩) main_cst_2) (TRef.of (T := ⟨S_, .f32⟩) main_call0_v0) id,
    TRef.unary (TRef.of (T := ⟨S_, .f32⟩) main_call0_v0) (TRef.of (T := ⟨S2x100000x3, .f32⟩) main_call0_v1) (broadcastInDim S2x100000x3 ![] bcast_S_S2x100000x3),
    TRef.binary (TRef.of (T := ⟨S2x100000x3, .f32⟩) main_call0_v1) (TRef.of (T := ⟨S2x100000x3, .f32⟩) main_v2) (TRef.of (T := ⟨S2x100000x3, .f32⟩) main_call0_v2) maximumf,
    TRef.unary (TRef.of (T := ⟨S_, .f32⟩) main_cst_3) (TRef.of (T := ⟨S_, .f32⟩) main_call0_v3) id,
    TRef.unary (TRef.of (T := ⟨S_, .f32⟩) main_call0_v3) (TRef.of (T := ⟨S2x100000x3, .f32⟩) main_call0_v4) (broadcastInDim S2x100000x3 ![] bcast_S_S2x100000x3),
    TRef.binary (TRef.of (T := ⟨S2x100000x3, .f32⟩) main_call0_v4) (TRef.of (T := ⟨S2x100000x3, .f32⟩) main_call0_v2) (TRef.of (T := ⟨S2x100000x3, .f32⟩) main_v3) minimumf,
    unary main_v3 main_v4 ((extractStridedSlice S2x100000x1 ![0, 0, 0] · slices_S2x100000x3_S2x100000x1_0_0_0) : (⟨S2x100000x3, .f32⟩ : BufTy).Contents (Elt F) → (⟨S2x100000x1, .f32⟩ : BufTy).Contents (Elt F)),
    reshape main_v4 main_v5 rfl shapeCasts_S2x100000x1_S2x100000,
    unary main_v5 main_v6 (Host.floor : (⟨S2x100000, .f32⟩ : BufTy).Contents (Elt F) → (⟨S2x100000, .f32⟩ : BufTy).Contents (Elt F)),
    unary main_v3 main_v7 ((extractStridedSlice S2x100000x1 ![0, 0, 0] · slices_S2x100000x3_S2x100000x1_0_0_0) : (⟨S2x100000x3, .f32⟩ : BufTy).Contents (Elt F) → (⟨S2x100000x1, .f32⟩ : BufTy).Contents (Elt F)),
    reshape main_v7 main_v8 rfl shapeCasts_S2x100000x1_S2x100000,
    unary main_v8 main_v9 (Host.ceil : (⟨S2x100000, .f32⟩ : BufTy).Contents (Elt F) → (⟨S2x100000, .f32⟩ : BufTy).Contents (Elt F)),
    unary main_v3 main_v10 ((extractStridedSlice S2x100000x1 ![0, 0, 1] · slices_S2x100000x3_S2x100000x1_0_0_1) : (⟨S2x100000x3, .f32⟩ : BufTy).Contents (Elt F) → (⟨S2x100000x1, .f32⟩ : BufTy).Contents (Elt F)),
    reshape main_v10 main_v11 rfl shapeCasts_S2x100000x1_S2x100000,
    unary main_v11 main_v12 (Host.floor : (⟨S2x100000, .f32⟩ : BufTy).Contents (Elt F) → (⟨S2x100000, .f32⟩ : BufTy).Contents (Elt F)),
    unary main_v3 main_v13 ((extractStridedSlice S2x100000x1 ![0, 0, 1] · slices_S2x100000x3_S2x100000x1_0_0_1) : (⟨S2x100000x3, .f32⟩ : BufTy).Contents (Elt F) → (⟨S2x100000x1, .f32⟩ : BufTy).Contents (Elt F)),
    reshape main_v13 main_v14 rfl shapeCasts_S2x100000x1_S2x100000,
    unary main_v14 main_v15 (Host.ceil : (⟨S2x100000, .f32⟩ : BufTy).Contents (Elt F) → (⟨S2x100000, .f32⟩ : BufTy).Contents (Elt F)),
    unary main_v3 main_v16 ((extractStridedSlice S2x100000x1 ![0, 0, 2] · slices_S2x100000x3_S2x100000x1_0_0_2) : (⟨S2x100000x3, .f32⟩ : BufTy).Contents (Elt F) → (⟨S2x100000x1, .f32⟩ : BufTy).Contents (Elt F)),
    reshape main_v16 main_v17 rfl shapeCasts_S2x100000x1_S2x100000,
    unary main_v17 main_v18 (Host.floor : (⟨S2x100000, .f32⟩ : BufTy).Contents (Elt F) → (⟨S2x100000, .f32⟩ : BufTy).Contents (Elt F)),
    unary main_v3 main_v19 ((extractStridedSlice S2x100000x1 ![0, 0, 2] · slices_S2x100000x3_S2x100000x1_0_0_2) : (⟨S2x100000x3, .f32⟩ : BufTy).Contents (Elt F) → (⟨S2x100000x1, .f32⟩ : BufTy).Contents (Elt F)),
    reshape main_v19 main_v20 rfl shapeCasts_S2x100000x1_S2x100000,
    unary main_v20 main_v21 (Host.ceil : (⟨S2x100000, .f32⟩ : BufTy).Contents (Elt F) → (⟨S2x100000, .f32⟩ : BufTy).Contents (Elt F)),
    unary main_v6 main_v22 (fptosi 32 : (⟨S2x100000, .f32⟩ : BufTy).Contents (Elt F) → (⟨S2x100000, .i32⟩ : BufTy).Contents (Elt F)),
    unary main_v9 main_v23 (fptosi 32 : (⟨S2x100000, .f32⟩ : BufTy).Contents (Elt F) → (⟨S2x100000, .i32⟩ : BufTy).Contents (Elt F)),
    unary main_v12 main_v24 (fptosi 32 : (⟨S2x100000, .f32⟩ : BufTy).Contents (Elt F) → (⟨S2x100000, .i32⟩ : BufTy).Contents (Elt F)),
    unary main_v15 main_v25 (fptosi 32 : (⟨S2x100000, .f32⟩ : BufTy).Contents (Elt F) → (⟨S2x100000, .i32⟩ : BufTy).Contents (Elt F)),
    unary main_v18 main_v26 (fptosi 32 : (⟨S2x100000, .f32⟩ : BufTy).Contents (Elt F) → (⟨S2x100000, .i32⟩ : BufTy).Contents (Elt F)),
    unary main_v21 main_v27 (fptosi 32 : (⟨S2x100000, .f32⟩ : BufTy).Contents (Elt F) → (⟨S2x100000, .i32⟩ : BufTy).Contents (Elt F)),
    unary main_v3 main_v28 ((extractStridedSlice S2x100000x1 ![0, 0, 0] · slices_S2x100000x3_S2x100000x1_0_0_0) : (⟨S2x100000x3, .f32⟩ : BufTy).Contents (Elt F) → (⟨S2x100000x1, .f32⟩ : BufTy).Contents (Elt F)),
    reshape main_v28 main_v29 rfl shapeCasts_S2x100000x1_S2x100000,
    binary main_v29 main_v6 main_v30 (subf : (⟨S2x100000, .f32⟩ : BufTy).Contents (Elt F) → (⟨S2x100000, .f32⟩ : BufTy).Contents (Elt F) → (⟨S2x100000, .f32⟩ : BufTy).Contents (Elt F)),
    unary main_v30 main_v31 (broadcastInDim S2x100000x1 ![0, 1] bcast_S2x100000_S2x100000x1_0_1 : (⟨S2x100000, .f32⟩ : BufTy).Contents (Elt F) → (⟨S2x100000x1, .f32⟩ : BufTy).Contents (Elt F)),
    unary main_v3 main_v32 ((extractStridedSlice S2x100000x1 ![0, 0, 0] · slices_S2x100000x3_S2x100000x1_0_0_0) : (⟨S2x100000x3, .f32⟩ : BufTy).Contents (Elt F) → (⟨S2x100000x1, .f32⟩ : BufTy).Contents (Elt F)),
    reshape main_v32 main_v33 rfl shapeCasts_S2x100000x1_S2x100000,
    binary main_v9 main_v33 main_v34 (subf : (⟨S2x100000, .f32⟩ : BufTy).Contents (Elt F) → (⟨S2x100000, .f32⟩ : BufTy).Contents (Elt F) → (⟨S2x100000, .f32⟩ : BufTy).Contents (Elt F)),
    unary main_v34 main_v35 (broadcastInDim S2x100000x1 ![0, 1] bcast_S2x100000_S2x100000x1_0_1 : (⟨S2x100000, .f32⟩ : BufTy).Contents (Elt F) → (⟨S2x100000x1, .f32⟩ : BufTy).Contents (Elt F)),
    unary main_v3 main_v36 ((extractStridedSlice S2x100000x1 ![0, 0, 1] · slices_S2x100000x3_S2x100000x1_0_0_1) : (⟨S2x100000x3, .f32⟩ : BufTy).Contents (Elt F) → (⟨S2x100000x1, .f32⟩ : BufTy).Contents (Elt F)),
    reshape main_v36 main_v37 rfl shapeCasts_S2x100000x1_S2x100000,
    binary main_v37 main_v12 main_v38 (subf : (⟨S2x100000, .f32⟩ : BufTy).Contents (Elt F) → (⟨S2x100000, .f32⟩ : BufTy).Contents (Elt F) → (⟨S2x100000, .f32⟩ : BufTy).Contents (Elt F)),
    unary main_v38 main_v39 (broadcastInDim S2x100000x1 ![0, 1] bcast_S2x100000_S2x100000x1_0_1 : (⟨S2x100000, .f32⟩ : BufTy).Contents (Elt F) → (⟨S2x100000x1, .f32⟩ : BufTy).Contents (Elt F)),
    unary main_v3 main_v40 ((extractStridedSlice S2x100000x1 ![0, 0, 1] · slices_S2x100000x3_S2x100000x1_0_0_1) : (⟨S2x100000x3, .f32⟩ : BufTy).Contents (Elt F) → (⟨S2x100000x1, .f32⟩ : BufTy).Contents (Elt F)),
    reshape main_v40 main_v41 rfl shapeCasts_S2x100000x1_S2x100000,
    binary main_v15 main_v41 main_v42 (subf : (⟨S2x100000, .f32⟩ : BufTy).Contents (Elt F) → (⟨S2x100000, .f32⟩ : BufTy).Contents (Elt F) → (⟨S2x100000, .f32⟩ : BufTy).Contents (Elt F)),
    unary main_v42 main_v43 (broadcastInDim S2x100000x1 ![0, 1] bcast_S2x100000_S2x100000x1_0_1 : (⟨S2x100000, .f32⟩ : BufTy).Contents (Elt F) → (⟨S2x100000x1, .f32⟩ : BufTy).Contents (Elt F)),
    unary main_v3 main_v44 ((extractStridedSlice S2x100000x1 ![0, 0, 2] · slices_S2x100000x3_S2x100000x1_0_0_2) : (⟨S2x100000x3, .f32⟩ : BufTy).Contents (Elt F) → (⟨S2x100000x1, .f32⟩ : BufTy).Contents (Elt F)),
    reshape main_v44 main_v45 rfl shapeCasts_S2x100000x1_S2x100000,
    binary main_v45 main_v18 main_v46 (subf : (⟨S2x100000, .f32⟩ : BufTy).Contents (Elt F) → (⟨S2x100000, .f32⟩ : BufTy).Contents (Elt F) → (⟨S2x100000, .f32⟩ : BufTy).Contents (Elt F)),
    unary main_v46 main_v47 (broadcastInDim S2x100000x1 ![0, 1] bcast_S2x100000_S2x100000x1_0_1 : (⟨S2x100000, .f32⟩ : BufTy).Contents (Elt F) → (⟨S2x100000x1, .f32⟩ : BufTy).Contents (Elt F)),
    unary main_v3 main_v48 ((extractStridedSlice S2x100000x1 ![0, 0, 2] · slices_S2x100000x3_S2x100000x1_0_0_2) : (⟨S2x100000x3, .f32⟩ : BufTy).Contents (Elt F) → (⟨S2x100000x1, .f32⟩ : BufTy).Contents (Elt F)),
    reshape main_v48 main_v49 rfl shapeCasts_S2x100000x1_S2x100000,
    binary main_v21 main_v49 main_v50 (subf : (⟨S2x100000, .f32⟩ : BufTy).Contents (Elt F) → (⟨S2x100000, .f32⟩ : BufTy).Contents (Elt F) → (⟨S2x100000, .f32⟩ : BufTy).Contents (Elt F)),
    unary main_v50 main_v51 (broadcastInDim S2x100000x1 ![0, 1] bcast_S2x100000_S2x100000x1_0_1 : (⟨S2x100000, .f32⟩ : BufTy).Contents (Elt F) → (⟨S2x100000x1, .f32⟩ : BufTy).Contents (Elt F)),
    nullary main_c (constantI S_ 32 0#32),
    unary main_c main_v52 (broadcastInDim S2x100000 ![] bcast_S_S2x100000 : (⟨S_, .i32⟩ : BufTy).Contents (Elt F) → (⟨S2x100000, .i32⟩ : BufTy).Contents (Elt F)),
    binary main_v22 main_v52 main_v53 (cmpi .slt : (⟨S2x100000, .i32⟩ : BufTy).Contents (Elt F) → (⟨S2x100000, .i32⟩ : BufTy).Contents (Elt F) → (⟨S2x100000, .i1⟩ : BufTy).Contents (Elt F)) ]

set_option maxRecDepth 8192 in
set_option maxHeartbeats 4000000 in
theorem main_part0_eq (c : Dev nD) : main_part0 (F := F) c = seq chunk0 := rfl

set_option maxRecDepth 8192 in
theorem chunk0_sub : (chunk0 : List (HloOp τ sig (Elt F))).Forall fun op => op.bufs ⊆ tcRefs τ sig :=
  ⟨nullary_bufs_sub .., nullary_bufs_sub .., nullary_bufs_sub .., unary_bufs_sub .., unary_bufs_sub .., binary_bufs_sub .., nullary_bufs_sub .., nullary_bufs_sub .., unary_bufs_sub .., unary_bufs_sub .., binary_bufs_sub .., unary_bufs_sub .., unary_bufs_sub .., binary_bufs_sub .., unary_bufs_sub .., reshape_bufs_sub .., unary_bufs_sub .., unary_bufs_sub .., reshape_bufs_sub .., unary_bufs_sub .., unary_bufs_sub .., reshape_bufs_sub .., unary_bufs_sub .., unary_bufs_sub .., reshape_bufs_sub .., unary_bufs_sub .., unary_bufs_sub .., reshape_bufs_sub .., unary_bufs_sub .., unary_bufs_sub .., reshape_bufs_sub .., unary_bufs_sub .., unary_bufs_sub .., unary_bufs_sub .., unary_bufs_sub .., unary_bufs_sub .., unary_bufs_sub .., unary_bufs_sub .., unary_bufs_sub .., reshape_bufs_sub .., binary_bufs_sub .., unary_bufs_sub .., unary_bufs_sub .., reshape_bufs_sub .., binary_bufs_sub .., unary_bufs_sub .., unary_bufs_sub .., reshape_bufs_sub .., binary_bufs_sub .., unary_bufs_sub .., unary_bufs_sub .., reshape_bufs_sub .., binary_bufs_sub .., unary_bufs_sub .., unary_bufs_sub .., reshape_bufs_sub .., binary_bufs_sub .., unary_bufs_sub .., unary_bufs_sub .., reshape_bufs_sub .., binary_bufs_sub .., unary_bufs_sub .., nullary_bufs_sub .., unary_bufs_sub .., binary_bufs_sub ..⟩

set_option maxRecDepth 8192 in
theorem chunk0_fresh : (chunk0 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

/-- The references window 0 writes, in order. -/
abbrev WR0 : List (Ref sig .tc) :=
  [main_cst, main_cst_0, main_cst_1, main_v0, main_v1, main_v2, main_cst_2, main_cst_3, main_call0_v0, main_call0_v1, main_call0_v2, main_call0_v3, main_call0_v4, main_v3, main_v4, main_v5, main_v6, main_v7, main_v8, main_v9, main_v10, main_v11, main_v12, main_v13, main_v14, main_v15, main_v16, main_v17, main_v18, main_v19, main_v20, main_v21, main_v22, main_v23, main_v24, main_v25, main_v26, main_v27, main_v28, main_v29, main_v30, main_v31, main_v32, main_v33, main_v34, main_v35, main_v36, main_v37, main_v38, main_v39, main_v40, main_v41, main_v42, main_v43, main_v44, main_v45, main_v46, main_v47, main_v48, main_v49, main_v50, main_v51, main_c, main_v52, main_v53]

set_option maxRecDepth 8192 in
theorem chunk0_writes : Cert.PeelLib.WritesIn (chunk0 : List (HloOp τ sig (Elt F))) WR0 :=
  Cert.PeelLib.writesIn_of_forall₂ (by (repeat (refine List.Forall₂.cons rfl ?_)); exact List.Forall₂.nil)

/-- The reference's operations 66 … 125 of 910, in order. -/
abbrev chunk1 : List (HloOp τ sig (Elt F)) :=
  [ nullary main_c_4 (constantI S_ 32 64#32),
    unary main_c_4 main_v54 (broadcastInDim S2x100000 ![] bcast_S_S2x100000 : (⟨S_, .i32⟩ : BufTy).Contents (Elt F) → (⟨S2x100000, .i32⟩ : BufTy).Contents (Elt F)),
    binary main_v22 main_v54 main_v55 (addi : (⟨S2x100000, .i32⟩ : BufTy).Contents (Elt F) → (⟨S2x100000, .i32⟩ : BufTy).Contents (Elt F) → (⟨S2x100000, .i32⟩ : BufTy).Contents (Elt F)),
    ternary main_v53 main_v55 main_v22 main_v56 (select : (⟨S2x100000, .i1⟩ : BufTy).Contents (Elt F) → (⟨S2x100000, .i32⟩ : BufTy).Contents (Elt F) → (⟨S2x100000, .i32⟩ : BufTy).Contents (Elt F) → (⟨S2x100000, .i32⟩ : BufTy).Contents (Elt F)),
    nullary main_c_5 (constantI S_ 32 0#32),
    unary main_c_5 main_v57 (broadcastInDim S2x100000 ![] bcast_S_S2x100000 : (⟨S_, .i32⟩ : BufTy).Contents (Elt F) → (⟨S2x100000, .i32⟩ : BufTy).Contents (Elt F)),
    binary main_v24 main_v57 main_v58 (cmpi .slt : (⟨S2x100000, .i32⟩ : BufTy).Contents (Elt F) → (⟨S2x100000, .i32⟩ : BufTy).Contents (Elt F) → (⟨S2x100000, .i1⟩ : BufTy).Contents (Elt F)),
    nullary main_c_6 (constantI S_ 32 64#32),
    unary main_c_6 main_v59 (broadcastInDim S2x100000 ![] bcast_S_S2x100000 : (⟨S_, .i32⟩ : BufTy).Contents (Elt F) → (⟨S2x100000, .i32⟩ : BufTy).Contents (Elt F)),
    binary main_v24 main_v59 main_v60 (addi : (⟨S2x100000, .i32⟩ : BufTy).Contents (Elt F) → (⟨S2x100000, .i32⟩ : BufTy).Contents (Elt F) → (⟨S2x100000, .i32⟩ : BufTy).Contents (Elt F)),
    ternary main_v58 main_v60 main_v24 main_v61 (select : (⟨S2x100000, .i1⟩ : BufTy).Contents (Elt F) → (⟨S2x100000, .i32⟩ : BufTy).Contents (Elt F) → (⟨S2x100000, .i32⟩ : BufTy).Contents (Elt F) → (⟨S2x100000, .i32⟩ : BufTy).Contents (Elt F)),
    nullary main_c_7 (constantI S_ 32 0#32),
    unary main_c_7 main_v62 (broadcastInDim S2x100000 ![] bcast_S_S2x100000 : (⟨S_, .i32⟩ : BufTy).Contents (Elt F) → (⟨S2x100000, .i32⟩ : BufTy).Contents (Elt F)),
    binary main_v26 main_v62 main_v63 (cmpi .slt : (⟨S2x100000, .i32⟩ : BufTy).Contents (Elt F) → (⟨S2x100000, .i32⟩ : BufTy).Contents (Elt F) → (⟨S2x100000, .i1⟩ : BufTy).Contents (Elt F)),
    nullary main_c_8 (constantI S_ 32 64#32),
    unary main_c_8 main_v64 (broadcastInDim S2x100000 ![] bcast_S_S2x100000 : (⟨S_, .i32⟩ : BufTy).Contents (Elt F) → (⟨S2x100000, .i32⟩ : BufTy).Contents (Elt F)),
    binary main_v26 main_v64 main_v65 (addi : (⟨S2x100000, .i32⟩ : BufTy).Contents (Elt F) → (⟨S2x100000, .i32⟩ : BufTy).Contents (Elt F) → (⟨S2x100000, .i32⟩ : BufTy).Contents (Elt F)),
    ternary main_v63 main_v65 main_v26 main_v66 (select : (⟨S2x100000, .i1⟩ : BufTy).Contents (Elt F) → (⟨S2x100000, .i32⟩ : BufTy).Contents (Elt F) → (⟨S2x100000, .i32⟩ : BufTy).Contents (Elt F) → (⟨S2x100000, .i32⟩ : BufTy).Contents (Elt F)),
    unary main_v56 main_v67 (broadcastInDim S2x100000x1 ![0, 1] bcast_S2x100000_S2x100000x1_0_1 : (⟨S2x100000, .i32⟩ : BufTy).Contents (Elt F) → (⟨S2x100000x1, .i32⟩ : BufTy).Contents (Elt F)),
    unary main_v61 main_v68 (broadcastInDim S2x100000x1 ![0, 1] bcast_S2x100000_S2x100000x1_0_1 : (⟨S2x100000, .i32⟩ : BufTy).Contents (Elt F) → (⟨S2x100000x1, .i32⟩ : BufTy).Contents (Elt F)),
    unary main_v66 main_v69 (broadcastInDim S2x100000x1 ![0, 1] bcast_S2x100000_S2x100000x1_0_1 : (⟨S2x100000, .i32⟩ : BufTy).Contents (Elt F) → (⟨S2x100000x1, .i32⟩ : BufTy).Contents (Elt F)),
    nary ![main_v67, main_v68, main_v69] main_v70 (fun u => concatenate S2x100000x3 2 [⟨S2x100000x1, u 0⟩, ⟨S2x100000x1, u 1⟩, ⟨S2x100000x1, u 2⟩] concatenates_S2x100000x1_S2x100000x1_S2x100000x1_S2x100000x3_d2),
    binary main_arg1 main_v70 main_v71 ((fun x i => Host.gather gather_S2x64x64x64x32_S2x100000x3_S2x100000x32_2_123_0_0_123_2_111132 x i) : (⟨S2x64x64x64x32, .f32⟩ : BufTy).Contents (Elt F) → (⟨S2x100000x3, .i32⟩ : BufTy).Contents (Elt F) → (⟨S2x100000x32, .f32⟩ : BufTy).Contents (Elt F)),
    nullary main_c_9 (constantI S_ 32 0#32),
    unary main_c_9 main_v72 (broadcastInDim S2x100000 ![] bcast_S_S2x100000 : (⟨S_, .i32⟩ : BufTy).Contents (Elt F) → (⟨S2x100000, .i32⟩ : BufTy).Contents (Elt F)),
    binary main_v23 main_v72 main_v73 (cmpi .slt : (⟨S2x100000, .i32⟩ : BufTy).Contents (Elt F) → (⟨S2x100000, .i32⟩ : BufTy).Contents (Elt F) → (⟨S2x100000, .i1⟩ : BufTy).Contents (Elt F)),
    nullary main_c_10 (constantI S_ 32 64#32),
    unary main_c_10 main_v74 (broadcastInDim S2x100000 ![] bcast_S_S2x100000 : (⟨S_, .i32⟩ : BufTy).Contents (Elt F) → (⟨S2x100000, .i32⟩ : BufTy).Contents (Elt F)),
    binary main_v23 main_v74 main_v75 (addi : (⟨S2x100000, .i32⟩ : BufTy).Contents (Elt F) → (⟨S2x100000, .i32⟩ : BufTy).Contents (Elt F) → (⟨S2x100000, .i32⟩ : BufTy).Contents (Elt F)),
    ternary main_v73 main_v75 main_v23 main_v76 (select : (⟨S2x100000, .i1⟩ : BufTy).Contents (Elt F) → (⟨S2x100000, .i32⟩ : BufTy).Contents (Elt F) → (⟨S2x100000, .i32⟩ : BufTy).Contents (Elt F) → (⟨S2x100000, .i32⟩ : BufTy).Contents (Elt F)),
    nullary main_c_11 (constantI S_ 32 0#32),
    unary main_c_11 main_v77 (broadcastInDim S2x100000 ![] bcast_S_S2x100000 : (⟨S_, .i32⟩ : BufTy).Contents (Elt F) → (⟨S2x100000, .i32⟩ : BufTy).Contents (Elt F)),
    binary main_v24 main_v77 main_v78 (cmpi .slt : (⟨S2x100000, .i32⟩ : BufTy).Contents (Elt F) → (⟨S2x100000, .i32⟩ : BufTy).Contents (Elt F) → (⟨S2x100000, .i1⟩ : BufTy).Contents (Elt F)),
    nullary main_c_12 (constantI S_ 32 64#32),
    unary main_c_12 main_v79 (broadcastInDim S2x100000 ![] bcast_S_S2x100000 : (⟨S_, .i32⟩ : BufTy).Contents (Elt F) → (⟨S2x100000, .i32⟩ : BufTy).Contents (Elt F)),
    binary main_v24 main_v79 main_v80 (addi : (⟨S2x100000, .i32⟩ : BufTy).Contents (Elt F) → (⟨S2x100000, .i32⟩ : BufTy).Contents (Elt F) → (⟨S2x100000, .i32⟩ : BufTy).Contents (Elt F)),
    ternary main_v78 main_v80 main_v24 main_v81 (select : (⟨S2x100000, .i1⟩ : BufTy).Contents (Elt F) → (⟨S2x100000, .i32⟩ : BufTy).Contents (Elt F) → (⟨S2x100000, .i32⟩ : BufTy).Contents (Elt F) → (⟨S2x100000, .i32⟩ : BufTy).Contents (Elt F)),
    nullary main_c_13 (constantI S_ 32 0#32),
    unary main_c_13 main_v82 (broadcastInDim S2x100000 ![] bcast_S_S2x100000 : (⟨S_, .i32⟩ : BufTy).Contents (Elt F) → (⟨S2x100000, .i32⟩ : BufTy).Contents (Elt F)),
    binary main_v26 main_v82 main_v83 (cmpi .slt : (⟨S2x100000, .i32⟩ : BufTy).Contents (Elt F) → (⟨S2x100000, .i32⟩ : BufTy).Contents (Elt F) → (⟨S2x100000, .i1⟩ : BufTy).Contents (Elt F)),
    nullary main_c_14 (constantI S_ 32 64#32),
    unary main_c_14 main_v84 (broadcastInDim S2x100000 ![] bcast_S_S2x100000 : (⟨S_, .i32⟩ : BufTy).Contents (Elt F) → (⟨S2x100000, .i32⟩ : BufTy).Contents (Elt F)),
    binary main_v26 main_v84 main_v85 (addi : (⟨S2x100000, .i32⟩ : BufTy).Contents (Elt F) → (⟨S2x100000, .i32⟩ : BufTy).Contents (Elt F) → (⟨S2x100000, .i32⟩ : BufTy).Contents (Elt F)),
    ternary main_v83 main_v85 main_v26 main_v86 (select : (⟨S2x100000, .i1⟩ : BufTy).Contents (Elt F) → (⟨S2x100000, .i32⟩ : BufTy).Contents (Elt F) → (⟨S2x100000, .i32⟩ : BufTy).Contents (Elt F) → (⟨S2x100000, .i32⟩ : BufTy).Contents (Elt F)),
    unary main_v76 main_v87 (broadcastInDim S2x100000x1 ![0, 1] bcast_S2x100000_S2x100000x1_0_1 : (⟨S2x100000, .i32⟩ : BufTy).Contents (Elt F) → (⟨S2x100000x1, .i32⟩ : BufTy).Contents (Elt F)),
    unary main_v81 main_v88 (broadcastInDim S2x100000x1 ![0, 1] bcast_S2x100000_S2x100000x1_0_1 : (⟨S2x100000, .i32⟩ : BufTy).Contents (Elt F) → (⟨S2x100000x1, .i32⟩ : BufTy).Contents (Elt F)),
    unary main_v86 main_v89 (broadcastInDim S2x100000x1 ![0, 1] bcast_S2x100000_S2x100000x1_0_1 : (⟨S2x100000, .i32⟩ : BufTy).Contents (Elt F) → (⟨S2x100000x1, .i32⟩ : BufTy).Contents (Elt F)),
    nary ![main_v87, main_v88, main_v89] main_v90 (fun u => concatenate S2x100000x3 2 [⟨S2x100000x1, u 0⟩, ⟨S2x100000x1, u 1⟩, ⟨S2x100000x1, u 2⟩] concatenates_S2x100000x1_S2x100000x1_S2x100000x1_S2x100000x3_d2),
    binary main_arg1 main_v90 main_v91 ((fun x i => Host.gather gather_S2x64x64x64x32_S2x100000x3_S2x100000x32_2_123_0_0_123_2_111132 x i) : (⟨S2x64x64x64x32, .f32⟩ : BufTy).Contents (Elt F) → (⟨S2x100000x3, .i32⟩ : BufTy).Contents (Elt F) → (⟨S2x100000x32, .f32⟩ : BufTy).Contents (Elt F)),
    nullary main_c_15 (constantI S_ 32 0#32),
    unary main_c_15 main_v92 (broadcastInDim S2x100000 ![] bcast_S_S2x100000 : (⟨S_, .i32⟩ : BufTy).Contents (Elt F) → (⟨S2x100000, .i32⟩ : BufTy).Contents (Elt F)),
    binary main_v22 main_v92 main_v93 (cmpi .slt : (⟨S2x100000, .i32⟩ : BufTy).Contents (Elt F) → (⟨S2x100000, .i32⟩ : BufTy).Contents (Elt F) → (⟨S2x100000, .i1⟩ : BufTy).Contents (Elt F)),
    nullary main_c_16 (constantI S_ 32 64#32),
    unary main_c_16 main_v94 (broadcastInDim S2x100000 ![] bcast_S_S2x100000 : (⟨S_, .i32⟩ : BufTy).Contents (Elt F) → (⟨S2x100000, .i32⟩ : BufTy).Contents (Elt F)),
    binary main_v22 main_v94 main_v95 (addi : (⟨S2x100000, .i32⟩ : BufTy).Contents (Elt F) → (⟨S2x100000, .i32⟩ : BufTy).Contents (Elt F) → (⟨S2x100000, .i32⟩ : BufTy).Contents (Elt F)),
    ternary main_v93 main_v95 main_v22 main_v96 (select : (⟨S2x100000, .i1⟩ : BufTy).Contents (Elt F) → (⟨S2x100000, .i32⟩ : BufTy).Contents (Elt F) → (⟨S2x100000, .i32⟩ : BufTy).Contents (Elt F) → (⟨S2x100000, .i32⟩ : BufTy).Contents (Elt F)),
    nullary main_c_17 (constantI S_ 32 0#32),
    unary main_c_17 main_v97 (broadcastInDim S2x100000 ![] bcast_S_S2x100000 : (⟨S_, .i32⟩ : BufTy).Contents (Elt F) → (⟨S2x100000, .i32⟩ : BufTy).Contents (Elt F)),
    binary main_v25 main_v97 main_v98 (cmpi .slt : (⟨S2x100000, .i32⟩ : BufTy).Contents (Elt F) → (⟨S2x100000, .i32⟩ : BufTy).Contents (Elt F) → (⟨S2x100000, .i1⟩ : BufTy).Contents (Elt F)),
    nullary main_c_18 (constantI S_ 32 64#32) ]

set_option maxRecDepth 8192 in
set_option maxHeartbeats 4000000 in
theorem main_part1_eq (c : Dev nD) : main_part1 (F := F) c = seq chunk1 := rfl

set_option maxRecDepth 8192 in
theorem chunk1_sub : (chunk1 : List (HloOp τ sig (Elt F))).Forall fun op => op.bufs ⊆ tcRefs τ sig :=
  ⟨nullary_bufs_sub .., unary_bufs_sub .., binary_bufs_sub .., ternary_bufs_sub .., nullary_bufs_sub .., unary_bufs_sub .., binary_bufs_sub .., nullary_bufs_sub .., unary_bufs_sub .., binary_bufs_sub .., ternary_bufs_sub .., nullary_bufs_sub .., unary_bufs_sub .., binary_bufs_sub .., nullary_bufs_sub .., unary_bufs_sub .., binary_bufs_sub .., ternary_bufs_sub .., unary_bufs_sub .., unary_bufs_sub .., unary_bufs_sub .., nary_bufs_sub .., binary_bufs_sub .., nullary_bufs_sub .., unary_bufs_sub .., binary_bufs_sub .., nullary_bufs_sub .., unary_bufs_sub .., binary_bufs_sub .., ternary_bufs_sub .., nullary_bufs_sub .., unary_bufs_sub .., binary_bufs_sub .., nullary_bufs_sub .., unary_bufs_sub .., binary_bufs_sub .., ternary_bufs_sub .., nullary_bufs_sub .., unary_bufs_sub .., binary_bufs_sub .., nullary_bufs_sub .., unary_bufs_sub .., binary_bufs_sub .., ternary_bufs_sub .., unary_bufs_sub .., unary_bufs_sub .., unary_bufs_sub .., nary_bufs_sub .., binary_bufs_sub .., nullary_bufs_sub .., unary_bufs_sub .., binary_bufs_sub .., nullary_bufs_sub .., unary_bufs_sub .., binary_bufs_sub .., ternary_bufs_sub .., nullary_bufs_sub .., unary_bufs_sub .., binary_bufs_sub .., nullary_bufs_sub ..⟩

set_option maxRecDepth 8192 in
theorem chunk1_fresh : (chunk1 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

/-- The references window 1 writes, in order. -/
abbrev WR1 : List (Ref sig .tc) :=
  [main_c_4, main_v54, main_v55, main_v56, main_c_5, main_v57, main_v58, main_c_6, main_v59, main_v60, main_v61, main_c_7, main_v62, main_v63, main_c_8, main_v64, main_v65, main_v66, main_v67, main_v68, main_v69, main_v70, main_v71, main_c_9, main_v72, main_v73, main_c_10, main_v74, main_v75, main_v76, main_c_11, main_v77, main_v78, main_c_12, main_v79, main_v80, main_v81, main_c_13, main_v82, main_v83, main_c_14, main_v84, main_v85, main_v86, main_v87, main_v88, main_v89, main_v90, main_v91, main_c_15, main_v92, main_v93, main_c_16, main_v94, main_v95, main_v96, main_c_17, main_v97, main_v98, main_c_18]

set_option maxRecDepth 8192 in
theorem chunk1_writes : Cert.PeelLib.WritesIn (chunk1 : List (HloOp τ sig (Elt F))) WR1 :=
  Cert.PeelLib.writesIn_of_forall₂ (by (repeat (refine List.Forall₂.cons rfl ?_)); exact List.Forall₂.nil)

/-- The reference's operations 126 … 185 of 910, in order. -/
abbrev chunk2 : List (HloOp τ sig (Elt F)) :=
  [ unary main_c_18 main_v99 (broadcastInDim S2x100000 ![] bcast_S_S2x100000 : (⟨S_, .i32⟩ : BufTy).Contents (Elt F) → (⟨S2x100000, .i32⟩ : BufTy).Contents (Elt F)),
    binary main_v25 main_v99 main_v100 (addi : (⟨S2x100000, .i32⟩ : BufTy).Contents (Elt F) → (⟨S2x100000, .i32⟩ : BufTy).Contents (Elt F) → (⟨S2x100000, .i32⟩ : BufTy).Contents (Elt F)),
    ternary main_v98 main_v100 main_v25 main_v101 (select : (⟨S2x100000, .i1⟩ : BufTy).Contents (Elt F) → (⟨S2x100000, .i32⟩ : BufTy).Contents (Elt F) → (⟨S2x100000, .i32⟩ : BufTy).Contents (Elt F) → (⟨S2x100000, .i32⟩ : BufTy).Contents (Elt F)),
    nullary main_c_19 (constantI S_ 32 0#32),
    unary main_c_19 main_v102 (broadcastInDim S2x100000 ![] bcast_S_S2x100000 : (⟨S_, .i32⟩ : BufTy).Contents (Elt F) → (⟨S2x100000, .i32⟩ : BufTy).Contents (Elt F)),
    binary main_v26 main_v102 main_v103 (cmpi .slt : (⟨S2x100000, .i32⟩ : BufTy).Contents (Elt F) → (⟨S2x100000, .i32⟩ : BufTy).Contents (Elt F) → (⟨S2x100000, .i1⟩ : BufTy).Contents (Elt F)),
    nullary main_c_20 (constantI S_ 32 64#32),
    unary main_c_20 main_v104 (broadcastInDim S2x100000 ![] bcast_S_S2x100000 : (⟨S_, .i32⟩ : BufTy).Contents (Elt F) → (⟨S2x100000, .i32⟩ : BufTy).Contents (Elt F)),
    binary main_v26 main_v104 main_v105 (addi : (⟨S2x100000, .i32⟩ : BufTy).Contents (Elt F) → (⟨S2x100000, .i32⟩ : BufTy).Contents (Elt F) → (⟨S2x100000, .i32⟩ : BufTy).Contents (Elt F)),
    ternary main_v103 main_v105 main_v26 main_v106 (select : (⟨S2x100000, .i1⟩ : BufTy).Contents (Elt F) → (⟨S2x100000, .i32⟩ : BufTy).Contents (Elt F) → (⟨S2x100000, .i32⟩ : BufTy).Contents (Elt F) → (⟨S2x100000, .i32⟩ : BufTy).Contents (Elt F)),
    unary main_v96 main_v107 (broadcastInDim S2x100000x1 ![0, 1] bcast_S2x100000_S2x100000x1_0_1 : (⟨S2x100000, .i32⟩ : BufTy).Contents (Elt F) → (⟨S2x100000x1, .i32⟩ : BufTy).Contents (Elt F)),
    unary main_v101 main_v108 (broadcastInDim S2x100000x1 ![0, 1] bcast_S2x100000_S2x100000x1_0_1 : (⟨S2x100000, .i32⟩ : BufTy).Contents (Elt F) → (⟨S2x100000x1, .i32⟩ : BufTy).Contents (Elt F)),
    unary main_v106 main_v109 (broadcastInDim S2x100000x1 ![0, 1] bcast_S2x100000_S2x100000x1_0_1 : (⟨S2x100000, .i32⟩ : BufTy).Contents (Elt F) → (⟨S2x100000x1, .i32⟩ : BufTy).Contents (Elt F)),
    nary ![main_v107, main_v108, main_v109] main_v110 (fun u => concatenate S2x100000x3 2 [⟨S2x100000x1, u 0⟩, ⟨S2x100000x1, u 1⟩, ⟨S2x100000x1, u 2⟩] concatenates_S2x100000x1_S2x100000x1_S2x100000x1_S2x100000x3_d2),
    binary main_arg1 main_v110 main_v111 ((fun x i => Host.gather gather_S2x64x64x64x32_S2x100000x3_S2x100000x32_2_123_0_0_123_2_111132 x i) : (⟨S2x64x64x64x32, .f32⟩ : BufTy).Contents (Elt F) → (⟨S2x100000x3, .i32⟩ : BufTy).Contents (Elt F) → (⟨S2x100000x32, .f32⟩ : BufTy).Contents (Elt F)),
    nullary main_c_21 (constantI S_ 32 0#32),
    unary main_c_21 main_v112 (broadcastInDim S2x100000 ![] bcast_S_S2x100000 : (⟨S_, .i32⟩ : BufTy).Contents (Elt F) → (⟨S2x100000, .i32⟩ : BufTy).Contents (Elt F)),
    binary main_v23 main_v112 main_v113 (cmpi .slt : (⟨S2x100000, .i32⟩ : BufTy).Contents (Elt F) → (⟨S2x100000, .i32⟩ : BufTy).Contents (Elt F) → (⟨S2x100000, .i1⟩ : BufTy).Contents (Elt F)),
    nullary main_c_22 (constantI S_ 32 64#32),
    unary main_c_22 main_v114 (broadcastInDim S2x100000 ![] bcast_S_S2x100000 : (⟨S_, .i32⟩ : BufTy).Contents (Elt F) → (⟨S2x100000, .i32⟩ : BufTy).Contents (Elt F)),
    binary main_v23 main_v114 main_v115 (addi : (⟨S2x100000, .i32⟩ : BufTy).Contents (Elt F) → (⟨S2x100000, .i32⟩ : BufTy).Contents (Elt F) → (⟨S2x100000, .i32⟩ : BufTy).Contents (Elt F)),
    ternary main_v113 main_v115 main_v23 main_v116 (select : (⟨S2x100000, .i1⟩ : BufTy).Contents (Elt F) → (⟨S2x100000, .i32⟩ : BufTy).Contents (Elt F) → (⟨S2x100000, .i32⟩ : BufTy).Contents (Elt F) → (⟨S2x100000, .i32⟩ : BufTy).Contents (Elt F)),
    nullary main_c_23 (constantI S_ 32 0#32),
    unary main_c_23 main_v117 (broadcastInDim S2x100000 ![] bcast_S_S2x100000 : (⟨S_, .i32⟩ : BufTy).Contents (Elt F) → (⟨S2x100000, .i32⟩ : BufTy).Contents (Elt F)),
    binary main_v25 main_v117 main_v118 (cmpi .slt : (⟨S2x100000, .i32⟩ : BufTy).Contents (Elt F) → (⟨S2x100000, .i32⟩ : BufTy).Contents (Elt F) → (⟨S2x100000, .i1⟩ : BufTy).Contents (Elt F)),
    nullary main_c_24 (constantI S_ 32 64#32),
    unary main_c_24 main_v119 (broadcastInDim S2x100000 ![] bcast_S_S2x100000 : (⟨S_, .i32⟩ : BufTy).Contents (Elt F) → (⟨S2x100000, .i32⟩ : BufTy).Contents (Elt F)),
    binary main_v25 main_v119 main_v120 (addi : (⟨S2x100000, .i32⟩ : BufTy).Contents (Elt F) → (⟨S2x100000, .i32⟩ : BufTy).Contents (Elt F) → (⟨S2x100000, .i32⟩ : BufTy).Contents (Elt F)),
    ternary main_v118 main_v120 main_v25 main_v121 (select : (⟨S2x100000, .i1⟩ : BufTy).Contents (Elt F) → (⟨S2x100000, .i32⟩ : BufTy).Contents (Elt F) → (⟨S2x100000, .i32⟩ : BufTy).Contents (Elt F) → (⟨S2x100000, .i32⟩ : BufTy).Contents (Elt F)),
    nullary main_c_25 (constantI S_ 32 0#32),
    unary main_c_25 main_v122 (broadcastInDim S2x100000 ![] bcast_S_S2x100000 : (⟨S_, .i32⟩ : BufTy).Contents (Elt F) → (⟨S2x100000, .i32⟩ : BufTy).Contents (Elt F)),
    binary main_v26 main_v122 main_v123 (cmpi .slt : (⟨S2x100000, .i32⟩ : BufTy).Contents (Elt F) → (⟨S2x100000, .i32⟩ : BufTy).Contents (Elt F) → (⟨S2x100000, .i1⟩ : BufTy).Contents (Elt F)),
    nullary main_c_26 (constantI S_ 32 64#32),
    unary main_c_26 main_v124 (broadcastInDim S2x100000 ![] bcast_S_S2x100000 : (⟨S_, .i32⟩ : BufTy).Contents (Elt F) → (⟨S2x100000, .i32⟩ : BufTy).Contents (Elt F)),
    binary main_v26 main_v124 main_v125 (addi : (⟨S2x100000, .i32⟩ : BufTy).Contents (Elt F) → (⟨S2x100000, .i32⟩ : BufTy).Contents (Elt F) → (⟨S2x100000, .i32⟩ : BufTy).Contents (Elt F)),
    ternary main_v123 main_v125 main_v26 main_v126 (select : (⟨S2x100000, .i1⟩ : BufTy).Contents (Elt F) → (⟨S2x100000, .i32⟩ : BufTy).Contents (Elt F) → (⟨S2x100000, .i32⟩ : BufTy).Contents (Elt F) → (⟨S2x100000, .i32⟩ : BufTy).Contents (Elt F)),
    unary main_v116 main_v127 (broadcastInDim S2x100000x1 ![0, 1] bcast_S2x100000_S2x100000x1_0_1 : (⟨S2x100000, .i32⟩ : BufTy).Contents (Elt F) → (⟨S2x100000x1, .i32⟩ : BufTy).Contents (Elt F)),
    unary main_v121 main_v128 (broadcastInDim S2x100000x1 ![0, 1] bcast_S2x100000_S2x100000x1_0_1 : (⟨S2x100000, .i32⟩ : BufTy).Contents (Elt F) → (⟨S2x100000x1, .i32⟩ : BufTy).Contents (Elt F)),
    unary main_v126 main_v129 (broadcastInDim S2x100000x1 ![0, 1] bcast_S2x100000_S2x100000x1_0_1 : (⟨S2x100000, .i32⟩ : BufTy).Contents (Elt F) → (⟨S2x100000x1, .i32⟩ : BufTy).Contents (Elt F)),
    nary ![main_v127, main_v128, main_v129] main_v130 (fun u => concatenate S2x100000x3 2 [⟨S2x100000x1, u 0⟩, ⟨S2x100000x1, u 1⟩, ⟨S2x100000x1, u 2⟩] concatenates_S2x100000x1_S2x100000x1_S2x100000x1_S2x100000x3_d2),
    binary main_arg1 main_v130 main_v131 ((fun x i => Host.gather gather_S2x64x64x64x32_S2x100000x3_S2x100000x32_2_123_0_0_123_2_111132 x i) : (⟨S2x64x64x64x32, .f32⟩ : BufTy).Contents (Elt F) → (⟨S2x100000x3, .i32⟩ : BufTy).Contents (Elt F) → (⟨S2x100000x32, .f32⟩ : BufTy).Contents (Elt F)),
    unary main_v31 main_v132 (broadcastInDim S2x100000x32 ![0, 1, 2] bcast_S2x100000x1_S2x100000x32_0_1_2 : (⟨S2x100000x1, .f32⟩ : BufTy).Contents (Elt F) → (⟨S2x100000x32, .f32⟩ : BufTy).Contents (Elt F)),
    binary main_v131 main_v132 main_v133 (mulf : (⟨S2x100000x32, .f32⟩ : BufTy).Contents (Elt F) → (⟨S2x100000x32, .f32⟩ : BufTy).Contents (Elt F) → (⟨S2x100000x32, .f32⟩ : BufTy).Contents (Elt F)),
    unary main_v35 main_v134 (broadcastInDim S2x100000x32 ![0, 1, 2] bcast_S2x100000x1_S2x100000x32_0_1_2 : (⟨S2x100000x1, .f32⟩ : BufTy).Contents (Elt F) → (⟨S2x100000x32, .f32⟩ : BufTy).Contents (Elt F)),
    binary main_v111 main_v134 main_v135 (mulf : (⟨S2x100000x32, .f32⟩ : BufTy).Contents (Elt F) → (⟨S2x100000x32, .f32⟩ : BufTy).Contents (Elt F) → (⟨S2x100000x32, .f32⟩ : BufTy).Contents (Elt F)),
    binary main_v133 main_v135 main_v136 (addf : (⟨S2x100000x32, .f32⟩ : BufTy).Contents (Elt F) → (⟨S2x100000x32, .f32⟩ : BufTy).Contents (Elt F) → (⟨S2x100000x32, .f32⟩ : BufTy).Contents (Elt F)),
    unary main_v39 main_v137 (broadcastInDim S2x100000x32 ![0, 1, 2] bcast_S2x100000x1_S2x100000x32_0_1_2 : (⟨S2x100000x1, .f32⟩ : BufTy).Contents (Elt F) → (⟨S2x100000x32, .f32⟩ : BufTy).Contents (Elt F)),
    binary main_v136 main_v137 main_v138 (mulf : (⟨S2x100000x32, .f32⟩ : BufTy).Contents (Elt F) → (⟨S2x100000x32, .f32⟩ : BufTy).Contents (Elt F) → (⟨S2x100000x32, .f32⟩ : BufTy).Contents (Elt F)),
    unary main_v31 main_v139 (broadcastInDim S2x100000x32 ![0, 1, 2] bcast_S2x100000x1_S2x100000x32_0_1_2 : (⟨S2x100000x1, .f32⟩ : BufTy).Contents (Elt F) → (⟨S2x100000x32, .f32⟩ : BufTy).Contents (Elt F)),
    binary main_v91 main_v139 main_v140 (mulf : (⟨S2x100000x32, .f32⟩ : BufTy).Contents (Elt F) → (⟨S2x100000x32, .f32⟩ : BufTy).Contents (Elt F) → (⟨S2x100000x32, .f32⟩ : BufTy).Contents (Elt F)),
    unary main_v35 main_v141 (broadcastInDim S2x100000x32 ![0, 1, 2] bcast_S2x100000x1_S2x100000x32_0_1_2 : (⟨S2x100000x1, .f32⟩ : BufTy).Contents (Elt F) → (⟨S2x100000x32, .f32⟩ : BufTy).Contents (Elt F)),
    binary main_v71 main_v141 main_v142 (mulf : (⟨S2x100000x32, .f32⟩ : BufTy).Contents (Elt F) → (⟨S2x100000x32, .f32⟩ : BufTy).Contents (Elt F) → (⟨S2x100000x32, .f32⟩ : BufTy).Contents (Elt F)),
    binary main_v140 main_v142 main_v143 (addf : (⟨S2x100000x32, .f32⟩ : BufTy).Contents (Elt F) → (⟨S2x100000x32, .f32⟩ : BufTy).Contents (Elt F) → (⟨S2x100000x32, .f32⟩ : BufTy).Contents (Elt F)),
    unary main_v43 main_v144 (broadcastInDim S2x100000x32 ![0, 1, 2] bcast_S2x100000x1_S2x100000x32_0_1_2 : (⟨S2x100000x1, .f32⟩ : BufTy).Contents (Elt F) → (⟨S2x100000x32, .f32⟩ : BufTy).Contents (Elt F)),
    binary main_v143 main_v144 main_v145 (mulf : (⟨S2x100000x32, .f32⟩ : BufTy).Contents (Elt F) → (⟨S2x100000x32, .f32⟩ : BufTy).Contents (Elt F) → (⟨S2x100000x32, .f32⟩ : BufTy).Contents (Elt F)),
    binary main_v138 main_v145 main_v146 (addf : (⟨S2x100000x32, .f32⟩ : BufTy).Contents (Elt F) → (⟨S2x100000x32, .f32⟩ : BufTy).Contents (Elt F) → (⟨S2x100000x32, .f32⟩ : BufTy).Contents (Elt F)),
    nullary main_c_27 (constantI S_ 32 0#32),
    unary main_c_27 main_v147 (broadcastInDim S2x100000 ![] bcast_S_S2x100000 : (⟨S_, .i32⟩ : BufTy).Contents (Elt F) → (⟨S2x100000, .i32⟩ : BufTy).Contents (Elt F)),
    binary main_v22 main_v147 main_v148 (cmpi .slt : (⟨S2x100000, .i32⟩ : BufTy).Contents (Elt F) → (⟨S2x100000, .i32⟩ : BufTy).Contents (Elt F) → (⟨S2x100000, .i1⟩ : BufTy).Contents (Elt F)),
    nullary main_c_28 (constantI S_ 32 64#32) ]

set_option maxRecDepth 8192 in
set_option maxHeartbeats 4000000 in
theorem main_part2_eq (c : Dev nD) : main_part2 (F := F) c = seq chunk2 := rfl

set_option maxRecDepth 8192 in
theorem chunk2_sub : (chunk2 : List (HloOp τ sig (Elt F))).Forall fun op => op.bufs ⊆ tcRefs τ sig :=
  ⟨unary_bufs_sub .., binary_bufs_sub .., ternary_bufs_sub .., nullary_bufs_sub .., unary_bufs_sub .., binary_bufs_sub .., nullary_bufs_sub .., unary_bufs_sub .., binary_bufs_sub .., ternary_bufs_sub .., unary_bufs_sub .., unary_bufs_sub .., unary_bufs_sub .., nary_bufs_sub .., binary_bufs_sub .., nullary_bufs_sub .., unary_bufs_sub .., binary_bufs_sub .., nullary_bufs_sub .., unary_bufs_sub .., binary_bufs_sub .., ternary_bufs_sub .., nullary_bufs_sub .., unary_bufs_sub .., binary_bufs_sub .., nullary_bufs_sub .., unary_bufs_sub .., binary_bufs_sub .., ternary_bufs_sub .., nullary_bufs_sub .., unary_bufs_sub .., binary_bufs_sub .., nullary_bufs_sub .., unary_bufs_sub .., binary_bufs_sub .., ternary_bufs_sub .., unary_bufs_sub .., unary_bufs_sub .., unary_bufs_sub .., nary_bufs_sub .., binary_bufs_sub .., unary_bufs_sub .., binary_bufs_sub .., unary_bufs_sub .., binary_bufs_sub .., binary_bufs_sub .., unary_bufs_sub .., binary_bufs_sub .., unary_bufs_sub .., binary_bufs_sub .., unary_bufs_sub .., binary_bufs_sub .., binary_bufs_sub .., unary_bufs_sub .., binary_bufs_sub .., binary_bufs_sub .., nullary_bufs_sub .., unary_bufs_sub .., binary_bufs_sub .., nullary_bufs_sub ..⟩

set_option maxRecDepth 8192 in
theorem chunk2_fresh : (chunk2 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

/-- The references window 2 writes, in order. -/
abbrev WR2 : List (Ref sig .tc) :=
  [main_v99, main_v100, main_v101, main_c_19, main_v102, main_v103, main_c_20, main_v104, main_v105, main_v106, main_v107, main_v108, main_v109, main_v110, main_v111, main_c_21, main_v112, main_v113, main_c_22, main_v114, main_v115, main_v116, main_c_23, main_v117, main_v118, main_c_24, main_v119, main_v120, main_v121, main_c_25, main_v122, main_v123, main_c_26, main_v124, main_v125, main_v126, main_v127, main_v128, main_v129, main_v130, main_v131, main_v132, main_v133, main_v134, main_v135, main_v136, main_v137, main_v138, main_v139, main_v140, main_v141, main_v142, main_v143, main_v144, main_v145, main_v146, main_c_27, main_v147, main_v148, main_c_28]

set_option maxRecDepth 8192 in
theorem chunk2_writes : Cert.PeelLib.WritesIn (chunk2 : List (HloOp τ sig (Elt F))) WR2 :=
  Cert.PeelLib.writesIn_of_forall₂ (by (repeat (refine List.Forall₂.cons rfl ?_)); exact List.Forall₂.nil)

/-- The reference's operations 186 … 245 of 910, in order. -/
abbrev chunk3 : List (HloOp τ sig (Elt F)) :=
  [ unary main_c_28 main_v149 (broadcastInDim S2x100000 ![] bcast_S_S2x100000 : (⟨S_, .i32⟩ : BufTy).Contents (Elt F) → (⟨S2x100000, .i32⟩ : BufTy).Contents (Elt F)),
    binary main_v22 main_v149 main_v150 (addi : (⟨S2x100000, .i32⟩ : BufTy).Contents (Elt F) → (⟨S2x100000, .i32⟩ : BufTy).Contents (Elt F) → (⟨S2x100000, .i32⟩ : BufTy).Contents (Elt F)),
    ternary main_v148 main_v150 main_v22 main_v151 (select : (⟨S2x100000, .i1⟩ : BufTy).Contents (Elt F) → (⟨S2x100000, .i32⟩ : BufTy).Contents (Elt F) → (⟨S2x100000, .i32⟩ : BufTy).Contents (Elt F) → (⟨S2x100000, .i32⟩ : BufTy).Contents (Elt F)),
    nullary main_c_29 (constantI S_ 32 0#32),
    unary main_c_29 main_v152 (broadcastInDim S2x100000 ![] bcast_S_S2x100000 : (⟨S_, .i32⟩ : BufTy).Contents (Elt F) → (⟨S2x100000, .i32⟩ : BufTy).Contents (Elt F)),
    binary main_v24 main_v152 main_v153 (cmpi .slt : (⟨S2x100000, .i32⟩ : BufTy).Contents (Elt F) → (⟨S2x100000, .i32⟩ : BufTy).Contents (Elt F) → (⟨S2x100000, .i1⟩ : BufTy).Contents (Elt F)),
    nullary main_c_30 (constantI S_ 32 64#32),
    unary main_c_30 main_v154 (broadcastInDim S2x100000 ![] bcast_S_S2x100000 : (⟨S_, .i32⟩ : BufTy).Contents (Elt F) → (⟨S2x100000, .i32⟩ : BufTy).Contents (Elt F)),
    binary main_v24 main_v154 main_v155 (addi : (⟨S2x100000, .i32⟩ : BufTy).Contents (Elt F) → (⟨S2x100000, .i32⟩ : BufTy).Contents (Elt F) → (⟨S2x100000, .i32⟩ : BufTy).Contents (Elt F)),
    ternary main_v153 main_v155 main_v24 main_v156 (select : (⟨S2x100000, .i1⟩ : BufTy).Contents (Elt F) → (⟨S2x100000, .i32⟩ : BufTy).Contents (Elt F) → (⟨S2x100000, .i32⟩ : BufTy).Contents (Elt F) → (⟨S2x100000, .i32⟩ : BufTy).Contents (Elt F)),
    nullary main_c_31 (constantI S_ 32 0#32),
    unary main_c_31 main_v157 (broadcastInDim S2x100000 ![] bcast_S_S2x100000 : (⟨S_, .i32⟩ : BufTy).Contents (Elt F) → (⟨S2x100000, .i32⟩ : BufTy).Contents (Elt F)),
    binary main_v27 main_v157 main_v158 (cmpi .slt : (⟨S2x100000, .i32⟩ : BufTy).Contents (Elt F) → (⟨S2x100000, .i32⟩ : BufTy).Contents (Elt F) → (⟨S2x100000, .i1⟩ : BufTy).Contents (Elt F)),
    nullary main_c_32 (constantI S_ 32 64#32),
    unary main_c_32 main_v159 (broadcastInDim S2x100000 ![] bcast_S_S2x100000 : (⟨S_, .i32⟩ : BufTy).Contents (Elt F) → (⟨S2x100000, .i32⟩ : BufTy).Contents (Elt F)),
    binary main_v27 main_v159 main_v160 (addi : (⟨S2x100000, .i32⟩ : BufTy).Contents (Elt F) → (⟨S2x100000, .i32⟩ : BufTy).Contents (Elt F) → (⟨S2x100000, .i32⟩ : BufTy).Contents (Elt F)),
    ternary main_v158 main_v160 main_v27 main_v161 (select : (⟨S2x100000, .i1⟩ : BufTy).Contents (Elt F) → (⟨S2x100000, .i32⟩ : BufTy).Contents (Elt F) → (⟨S2x100000, .i32⟩ : BufTy).Contents (Elt F) → (⟨S2x100000, .i32⟩ : BufTy).Contents (Elt F)),
    unary main_v151 main_v162 (broadcastInDim S2x100000x1 ![0, 1] bcast_S2x100000_S2x100000x1_0_1 : (⟨S2x100000, .i32⟩ : BufTy).Contents (Elt F) → (⟨S2x100000x1, .i32⟩ : BufTy).Contents (Elt F)),
    unary main_v156 main_v163 (broadcastInDim S2x100000x1 ![0, 1] bcast_S2x100000_S2x100000x1_0_1 : (⟨S2x100000, .i32⟩ : BufTy).Contents (Elt F) → (⟨S2x100000x1, .i32⟩ : BufTy).Contents (Elt F)),
    unary main_v161 main_v164 (broadcastInDim S2x100000x1 ![0, 1] bcast_S2x100000_S2x100000x1_0_1 : (⟨S2x100000, .i32⟩ : BufTy).Contents (Elt F) → (⟨S2x100000x1, .i32⟩ : BufTy).Contents (Elt F)),
    nary ![main_v162, main_v163, main_v164] main_v165 (fun u => concatenate S2x100000x3 2 [⟨S2x100000x1, u 0⟩, ⟨S2x100000x1, u 1⟩, ⟨S2x100000x1, u 2⟩] concatenates_S2x100000x1_S2x100000x1_S2x100000x1_S2x100000x3_d2),
    binary main_arg1 main_v165 main_v166 ((fun x i => Host.gather gather_S2x64x64x64x32_S2x100000x3_S2x100000x32_2_123_0_0_123_2_111132 x i) : (⟨S2x64x64x64x32, .f32⟩ : BufTy).Contents (Elt F) → (⟨S2x100000x3, .i32⟩ : BufTy).Contents (Elt F) → (⟨S2x100000x32, .f32⟩ : BufTy).Contents (Elt F)),
    nullary main_c_33 (constantI S_ 32 0#32),
    unary main_c_33 main_v167 (broadcastInDim S2x100000 ![] bcast_S_S2x100000 : (⟨S_, .i32⟩ : BufTy).Contents (Elt F) → (⟨S2x100000, .i32⟩ : BufTy).Contents (Elt F)),
    binary main_v23 main_v167 main_v168 (cmpi .slt : (⟨S2x100000, .i32⟩ : BufTy).Contents (Elt F) → (⟨S2x100000, .i32⟩ : BufTy).Contents (Elt F) → (⟨S2x100000, .i1⟩ : BufTy).Contents (Elt F)),
    nullary main_c_34 (constantI S_ 32 64#32),
    unary main_c_34 main_v169 (broadcastInDim S2x100000 ![] bcast_S_S2x100000 : (⟨S_, .i32⟩ : BufTy).Contents (Elt F) → (⟨S2x100000, .i32⟩ : BufTy).Contents (Elt F)),
    binary main_v23 main_v169 main_v170 (addi : (⟨S2x100000, .i32⟩ : BufTy).Contents (Elt F) → (⟨S2x100000, .i32⟩ : BufTy).Contents (Elt F) → (⟨S2x100000, .i32⟩ : BufTy).Contents (Elt F)),
    ternary main_v168 main_v170 main_v23 main_v171 (select : (⟨S2x100000, .i1⟩ : BufTy).Contents (Elt F) → (⟨S2x100000, .i32⟩ : BufTy).Contents (Elt F) → (⟨S2x100000, .i32⟩ : BufTy).Contents (Elt F) → (⟨S2x100000, .i32⟩ : BufTy).Contents (Elt F)),
    nullary main_c_35 (constantI S_ 32 0#32),
    unary main_c_35 main_v172 (broadcastInDim S2x100000 ![] bcast_S_S2x100000 : (⟨S_, .i32⟩ : BufTy).Contents (Elt F) → (⟨S2x100000, .i32⟩ : BufTy).Contents (Elt F)),
    binary main_v24 main_v172 main_v173 (cmpi .slt : (⟨S2x100000, .i32⟩ : BufTy).Contents (Elt F) → (⟨S2x100000, .i32⟩ : BufTy).Contents (Elt F) → (⟨S2x100000, .i1⟩ : BufTy).Contents (Elt F)),
    nullary main_c_36 (constantI S_ 32 64#32),
    unary main_c_36 main_v174 (broadcastInDim S2x100000 ![] bcast_S_S2x100000 : (⟨S_, .i32⟩ : BufTy).Contents (Elt F) → (⟨S2x100000, .i32⟩ : BufTy).Contents (Elt F)),
    binary main_v24 main_v174 main_v175 (addi : (⟨S2x100000, .i32⟩ : BufTy).Contents (Elt F) → (⟨S2x100000, .i32⟩ : BufTy).Contents (Elt F) → (⟨S2x100000, .i32⟩ : BufTy).Contents (Elt F)),
    ternary main_v173 main_v175 main_v24 main_v176 (select : (⟨S2x100000, .i1⟩ : BufTy).Contents (Elt F) → (⟨S2x100000, .i32⟩ : BufTy).Contents (Elt F) → (⟨S2x100000, .i32⟩ : BufTy).Contents (Elt F) → (⟨S2x100000, .i32⟩ : BufTy).Contents (Elt F)),
    nullary main_c_37 (constantI S_ 32 0#32),
    unary main_c_37 main_v177 (broadcastInDim S2x100000 ![] bcast_S_S2x100000 : (⟨S_, .i32⟩ : BufTy).Contents (Elt F) → (⟨S2x100000, .i32⟩ : BufTy).Contents (Elt F)),
    binary main_v27 main_v177 main_v178 (cmpi .slt : (⟨S2x100000, .i32⟩ : BufTy).Contents (Elt F) → (⟨S2x100000, .i32⟩ : BufTy).Contents (Elt F) → (⟨S2x100000, .i1⟩ : BufTy).Contents (Elt F)),
    nullary main_c_38 (constantI S_ 32 64#32),
    unary main_c_38 main_v179 (broadcastInDim S2x100000 ![] bcast_S_S2x100000 : (⟨S_, .i32⟩ : BufTy).Contents (Elt F) → (⟨S2x100000, .i32⟩ : BufTy).Contents (Elt F)),
    binary main_v27 main_v179 main_v180 (addi : (⟨S2x100000, .i32⟩ : BufTy).Contents (Elt F) → (⟨S2x100000, .i32⟩ : BufTy).Contents (Elt F) → (⟨S2x100000, .i32⟩ : BufTy).Contents (Elt F)),
    ternary main_v178 main_v180 main_v27 main_v181 (select : (⟨S2x100000, .i1⟩ : BufTy).Contents (Elt F) → (⟨S2x100000, .i32⟩ : BufTy).Contents (Elt F) → (⟨S2x100000, .i32⟩ : BufTy).Contents (Elt F) → (⟨S2x100000, .i32⟩ : BufTy).Contents (Elt F)),
    unary main_v171 main_v182 (broadcastInDim S2x100000x1 ![0, 1] bcast_S2x100000_S2x100000x1_0_1 : (⟨S2x100000, .i32⟩ : BufTy).Contents (Elt F) → (⟨S2x100000x1, .i32⟩ : BufTy).Contents (Elt F)),
    unary main_v176 main_v183 (broadcastInDim S2x100000x1 ![0, 1] bcast_S2x100000_S2x100000x1_0_1 : (⟨S2x100000, .i32⟩ : BufTy).Contents (Elt F) → (⟨S2x100000x1, .i32⟩ : BufTy).Contents (Elt F)),
    unary main_v181 main_v184 (broadcastInDim S2x100000x1 ![0, 1] bcast_S2x100000_S2x100000x1_0_1 : (⟨S2x100000, .i32⟩ : BufTy).Contents (Elt F) → (⟨S2x100000x1, .i32⟩ : BufTy).Contents (Elt F)),
    nary ![main_v182, main_v183, main_v184] main_v185 (fun u => concatenate S2x100000x3 2 [⟨S2x100000x1, u 0⟩, ⟨S2x100000x1, u 1⟩, ⟨S2x100000x1, u 2⟩] concatenates_S2x100000x1_S2x100000x1_S2x100000x1_S2x100000x3_d2),
    binary main_arg1 main_v185 main_v186 ((fun x i => Host.gather gather_S2x64x64x64x32_S2x100000x3_S2x100000x32_2_123_0_0_123_2_111132 x i) : (⟨S2x64x64x64x32, .f32⟩ : BufTy).Contents (Elt F) → (⟨S2x100000x3, .i32⟩ : BufTy).Contents (Elt F) → (⟨S2x100000x32, .f32⟩ : BufTy).Contents (Elt F)),
    nullary main_c_39 (constantI S_ 32 0#32),
    unary main_c_39 main_v187 (broadcastInDim S2x100000 ![] bcast_S_S2x100000 : (⟨S_, .i32⟩ : BufTy).Contents (Elt F) → (⟨S2x100000, .i32⟩ : BufTy).Contents (Elt F)),
    binary main_v22 main_v187 main_v188 (cmpi .slt : (⟨S2x100000, .i32⟩ : BufTy).Contents (Elt F) → (⟨S2x100000, .i32⟩ : BufTy).Contents (Elt F) → (⟨S2x100000, .i1⟩ : BufTy).Contents (Elt F)),
    nullary main_c_40 (constantI S_ 32 64#32),
    unary main_c_40 main_v189 (broadcastInDim S2x100000 ![] bcast_S_S2x100000 : (⟨S_, .i32⟩ : BufTy).Contents (Elt F) → (⟨S2x100000, .i32⟩ : BufTy).Contents (Elt F)),
    binary main_v22 main_v189 main_v190 (addi : (⟨S2x100000, .i32⟩ : BufTy).Contents (Elt F) → (⟨S2x100000, .i32⟩ : BufTy).Contents (Elt F) → (⟨S2x100000, .i32⟩ : BufTy).Contents (Elt F)),
    ternary main_v188 main_v190 main_v22 main_v191 (select : (⟨S2x100000, .i1⟩ : BufTy).Contents (Elt F) → (⟨S2x100000, .i32⟩ : BufTy).Contents (Elt F) → (⟨S2x100000, .i32⟩ : BufTy).Contents (Elt F) → (⟨S2x100000, .i32⟩ : BufTy).Contents (Elt F)),
    nullary main_c_41 (constantI S_ 32 0#32),
    unary main_c_41 main_v192 (broadcastInDim S2x100000 ![] bcast_S_S2x100000 : (⟨S_, .i32⟩ : BufTy).Contents (Elt F) → (⟨S2x100000, .i32⟩ : BufTy).Contents (Elt F)),
    binary main_v25 main_v192 main_v193 (cmpi .slt : (⟨S2x100000, .i32⟩ : BufTy).Contents (Elt F) → (⟨S2x100000, .i32⟩ : BufTy).Contents (Elt F) → (⟨S2x100000, .i1⟩ : BufTy).Contents (Elt F)),
    nullary main_c_42 (constantI S_ 32 64#32),
    unary main_c_42 main_v194 (broadcastInDim S2x100000 ![] bcast_S_S2x100000 : (⟨S_, .i32⟩ : BufTy).Contents (Elt F) → (⟨S2x100000, .i32⟩ : BufTy).Contents (Elt F)) ]

set_option maxRecDepth 8192 in
set_option maxHeartbeats 4000000 in
theorem main_part3_eq (c : Dev nD) : main_part3 (F := F) c = seq chunk3 := rfl

set_option maxRecDepth 8192 in
theorem chunk3_sub : (chunk3 : List (HloOp τ sig (Elt F))).Forall fun op => op.bufs ⊆ tcRefs τ sig :=
  ⟨unary_bufs_sub .., binary_bufs_sub .., ternary_bufs_sub .., nullary_bufs_sub .., unary_bufs_sub .., binary_bufs_sub .., nullary_bufs_sub .., unary_bufs_sub .., binary_bufs_sub .., ternary_bufs_sub .., nullary_bufs_sub .., unary_bufs_sub .., binary_bufs_sub .., nullary_bufs_sub .., unary_bufs_sub .., binary_bufs_sub .., ternary_bufs_sub .., unary_bufs_sub .., unary_bufs_sub .., unary_bufs_sub .., nary_bufs_sub .., binary_bufs_sub .., nullary_bufs_sub .., unary_bufs_sub .., binary_bufs_sub .., nullary_bufs_sub .., unary_bufs_sub .., binary_bufs_sub .., ternary_bufs_sub .., nullary_bufs_sub .., unary_bufs_sub .., binary_bufs_sub .., nullary_bufs_sub .., unary_bufs_sub .., binary_bufs_sub .., ternary_bufs_sub .., nullary_bufs_sub .., unary_bufs_sub .., binary_bufs_sub .., nullary_bufs_sub .., unary_bufs_sub .., binary_bufs_sub .., ternary_bufs_sub .., unary_bufs_sub .., unary_bufs_sub .., unary_bufs_sub .., nary_bufs_sub .., binary_bufs_sub .., nullary_bufs_sub .., unary_bufs_sub .., binary_bufs_sub .., nullary_bufs_sub .., unary_bufs_sub .., binary_bufs_sub .., ternary_bufs_sub .., nullary_bufs_sub .., unary_bufs_sub .., binary_bufs_sub .., nullary_bufs_sub .., unary_bufs_sub ..⟩

set_option maxRecDepth 8192 in
theorem chunk3_fresh : (chunk3 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

/-- The references window 3 writes, in order. -/
abbrev WR3 : List (Ref sig .tc) :=
  [main_v149, main_v150, main_v151, main_c_29, main_v152, main_v153, main_c_30, main_v154, main_v155, main_v156, main_c_31, main_v157, main_v158, main_c_32, main_v159, main_v160, main_v161, main_v162, main_v163, main_v164, main_v165, main_v166, main_c_33, main_v167, main_v168, main_c_34, main_v169, main_v170, main_v171, main_c_35, main_v172, main_v173, main_c_36, main_v174, main_v175, main_v176, main_c_37, main_v177, main_v178, main_c_38, main_v179, main_v180, main_v181, main_v182, main_v183, main_v184, main_v185, main_v186, main_c_39, main_v187, main_v188, main_c_40, main_v189, main_v190, main_v191, main_c_41, main_v192, main_v193, main_c_42, main_v194]

set_option maxRecDepth 8192 in
theorem chunk3_writes : Cert.PeelLib.WritesIn (chunk3 : List (HloOp τ sig (Elt F))) WR3 :=
  Cert.PeelLib.writesIn_of_forall₂ (by (repeat (refine List.Forall₂.cons rfl ?_)); exact List.Forall₂.nil)

/-- The reference's operations 246 … 305 of 910, in order. -/
abbrev chunk4 : List (HloOp τ sig (Elt F)) :=
  [ binary main_v25 main_v194 main_v195 (addi : (⟨S2x100000, .i32⟩ : BufTy).Contents (Elt F) → (⟨S2x100000, .i32⟩ : BufTy).Contents (Elt F) → (⟨S2x100000, .i32⟩ : BufTy).Contents (Elt F)),
    ternary main_v193 main_v195 main_v25 main_v196 (select : (⟨S2x100000, .i1⟩ : BufTy).Contents (Elt F) → (⟨S2x100000, .i32⟩ : BufTy).Contents (Elt F) → (⟨S2x100000, .i32⟩ : BufTy).Contents (Elt F) → (⟨S2x100000, .i32⟩ : BufTy).Contents (Elt F)),
    nullary main_c_43 (constantI S_ 32 0#32),
    unary main_c_43 main_v197 (broadcastInDim S2x100000 ![] bcast_S_S2x100000 : (⟨S_, .i32⟩ : BufTy).Contents (Elt F) → (⟨S2x100000, .i32⟩ : BufTy).Contents (Elt F)),
    binary main_v27 main_v197 main_v198 (cmpi .slt : (⟨S2x100000, .i32⟩ : BufTy).Contents (Elt F) → (⟨S2x100000, .i32⟩ : BufTy).Contents (Elt F) → (⟨S2x100000, .i1⟩ : BufTy).Contents (Elt F)),
    nullary main_c_44 (constantI S_ 32 64#32),
    unary main_c_44 main_v199 (broadcastInDim S2x100000 ![] bcast_S_S2x100000 : (⟨S_, .i32⟩ : BufTy).Contents (Elt F) → (⟨S2x100000, .i32⟩ : BufTy).Contents (Elt F)),
    binary main_v27 main_v199 main_v200 (addi : (⟨S2x100000, .i32⟩ : BufTy).Contents (Elt F) → (⟨S2x100000, .i32⟩ : BufTy).Contents (Elt F) → (⟨S2x100000, .i32⟩ : BufTy).Contents (Elt F)),
    ternary main_v198 main_v200 main_v27 main_v201 (select : (⟨S2x100000, .i1⟩ : BufTy).Contents (Elt F) → (⟨S2x100000, .i32⟩ : BufTy).Contents (Elt F) → (⟨S2x100000, .i32⟩ : BufTy).Contents (Elt F) → (⟨S2x100000, .i32⟩ : BufTy).Contents (Elt F)),
    unary main_v191 main_v202 (broadcastInDim S2x100000x1 ![0, 1] bcast_S2x100000_S2x100000x1_0_1 : (⟨S2x100000, .i32⟩ : BufTy).Contents (Elt F) → (⟨S2x100000x1, .i32⟩ : BufTy).Contents (Elt F)),
    unary main_v196 main_v203 (broadcastInDim S2x100000x1 ![0, 1] bcast_S2x100000_S2x100000x1_0_1 : (⟨S2x100000, .i32⟩ : BufTy).Contents (Elt F) → (⟨S2x100000x1, .i32⟩ : BufTy).Contents (Elt F)),
    unary main_v201 main_v204 (broadcastInDim S2x100000x1 ![0, 1] bcast_S2x100000_S2x100000x1_0_1 : (⟨S2x100000, .i32⟩ : BufTy).Contents (Elt F) → (⟨S2x100000x1, .i32⟩ : BufTy).Contents (Elt F)),
    nary ![main_v202, main_v203, main_v204] main_v205 (fun u => concatenate S2x100000x3 2 [⟨S2x100000x1, u 0⟩, ⟨S2x100000x1, u 1⟩, ⟨S2x100000x1, u 2⟩] concatenates_S2x100000x1_S2x100000x1_S2x100000x1_S2x100000x3_d2),
    binary main_arg1 main_v205 main_v206 ((fun x i => Host.gather gather_S2x64x64x64x32_S2x100000x3_S2x100000x32_2_123_0_0_123_2_111132 x i) : (⟨S2x64x64x64x32, .f32⟩ : BufTy).Contents (Elt F) → (⟨S2x100000x3, .i32⟩ : BufTy).Contents (Elt F) → (⟨S2x100000x32, .f32⟩ : BufTy).Contents (Elt F)),
    nullary main_c_45 (constantI S_ 32 0#32),
    unary main_c_45 main_v207 (broadcastInDim S2x100000 ![] bcast_S_S2x100000 : (⟨S_, .i32⟩ : BufTy).Contents (Elt F) → (⟨S2x100000, .i32⟩ : BufTy).Contents (Elt F)),
    binary main_v23 main_v207 main_v208 (cmpi .slt : (⟨S2x100000, .i32⟩ : BufTy).Contents (Elt F) → (⟨S2x100000, .i32⟩ : BufTy).Contents (Elt F) → (⟨S2x100000, .i1⟩ : BufTy).Contents (Elt F)),
    nullary main_c_46 (constantI S_ 32 64#32),
    unary main_c_46 main_v209 (broadcastInDim S2x100000 ![] bcast_S_S2x100000 : (⟨S_, .i32⟩ : BufTy).Contents (Elt F) → (⟨S2x100000, .i32⟩ : BufTy).Contents (Elt F)),
    binary main_v23 main_v209 main_v210 (addi : (⟨S2x100000, .i32⟩ : BufTy).Contents (Elt F) → (⟨S2x100000, .i32⟩ : BufTy).Contents (Elt F) → (⟨S2x100000, .i32⟩ : BufTy).Contents (Elt F)),
    ternary main_v208 main_v210 main_v23 main_v211 (select : (⟨S2x100000, .i1⟩ : BufTy).Contents (Elt F) → (⟨S2x100000, .i32⟩ : BufTy).Contents (Elt F) → (⟨S2x100000, .i32⟩ : BufTy).Contents (Elt F) → (⟨S2x100000, .i32⟩ : BufTy).Contents (Elt F)),
    nullary main_c_47 (constantI S_ 32 0#32),
    unary main_c_47 main_v212 (broadcastInDim S2x100000 ![] bcast_S_S2x100000 : (⟨S_, .i32⟩ : BufTy).Contents (Elt F) → (⟨S2x100000, .i32⟩ : BufTy).Contents (Elt F)),
    binary main_v25 main_v212 main_v213 (cmpi .slt : (⟨S2x100000, .i32⟩ : BufTy).Contents (Elt F) → (⟨S2x100000, .i32⟩ : BufTy).Contents (Elt F) → (⟨S2x100000, .i1⟩ : BufTy).Contents (Elt F)),
    nullary main_c_48 (constantI S_ 32 64#32),
    unary main_c_48 main_v214 (broadcastInDim S2x100000 ![] bcast_S_S2x100000 : (⟨S_, .i32⟩ : BufTy).Contents (Elt F) → (⟨S2x100000, .i32⟩ : BufTy).Contents (Elt F)),
    binary main_v25 main_v214 main_v215 (addi : (⟨S2x100000, .i32⟩ : BufTy).Contents (Elt F) → (⟨S2x100000, .i32⟩ : BufTy).Contents (Elt F) → (⟨S2x100000, .i32⟩ : BufTy).Contents (Elt F)),
    ternary main_v213 main_v215 main_v25 main_v216 (select : (⟨S2x100000, .i1⟩ : BufTy).Contents (Elt F) → (⟨S2x100000, .i32⟩ : BufTy).Contents (Elt F) → (⟨S2x100000, .i32⟩ : BufTy).Contents (Elt F) → (⟨S2x100000, .i32⟩ : BufTy).Contents (Elt F)),
    nullary main_c_49 (constantI S_ 32 0#32),
    unary main_c_49 main_v217 (broadcastInDim S2x100000 ![] bcast_S_S2x100000 : (⟨S_, .i32⟩ : BufTy).Contents (Elt F) → (⟨S2x100000, .i32⟩ : BufTy).Contents (Elt F)),
    binary main_v27 main_v217 main_v218 (cmpi .slt : (⟨S2x100000, .i32⟩ : BufTy).Contents (Elt F) → (⟨S2x100000, .i32⟩ : BufTy).Contents (Elt F) → (⟨S2x100000, .i1⟩ : BufTy).Contents (Elt F)),
    nullary main_c_50 (constantI S_ 32 64#32),
    unary main_c_50 main_v219 (broadcastInDim S2x100000 ![] bcast_S_S2x100000 : (⟨S_, .i32⟩ : BufTy).Contents (Elt F) → (⟨S2x100000, .i32⟩ : BufTy).Contents (Elt F)),
    binary main_v27 main_v219 main_v220 (addi : (⟨S2x100000, .i32⟩ : BufTy).Contents (Elt F) → (⟨S2x100000, .i32⟩ : BufTy).Contents (Elt F) → (⟨S2x100000, .i32⟩ : BufTy).Contents (Elt F)),
    ternary main_v218 main_v220 main_v27 main_v221 (select : (⟨S2x100000, .i1⟩ : BufTy).Contents (Elt F) → (⟨S2x100000, .i32⟩ : BufTy).Contents (Elt F) → (⟨S2x100000, .i32⟩ : BufTy).Contents (Elt F) → (⟨S2x100000, .i32⟩ : BufTy).Contents (Elt F)),
    unary main_v211 main_v222 (broadcastInDim S2x100000x1 ![0, 1] bcast_S2x100000_S2x100000x1_0_1 : (⟨S2x100000, .i32⟩ : BufTy).Contents (Elt F) → (⟨S2x100000x1, .i32⟩ : BufTy).Contents (Elt F)),
    unary main_v216 main_v223 (broadcastInDim S2x100000x1 ![0, 1] bcast_S2x100000_S2x100000x1_0_1 : (⟨S2x100000, .i32⟩ : BufTy).Contents (Elt F) → (⟨S2x100000x1, .i32⟩ : BufTy).Contents (Elt F)),
    unary main_v221 main_v224 (broadcastInDim S2x100000x1 ![0, 1] bcast_S2x100000_S2x100000x1_0_1 : (⟨S2x100000, .i32⟩ : BufTy).Contents (Elt F) → (⟨S2x100000x1, .i32⟩ : BufTy).Contents (Elt F)),
    nary ![main_v222, main_v223, main_v224] main_v225 (fun u => concatenate S2x100000x3 2 [⟨S2x100000x1, u 0⟩, ⟨S2x100000x1, u 1⟩, ⟨S2x100000x1, u 2⟩] concatenates_S2x100000x1_S2x100000x1_S2x100000x1_S2x100000x3_d2),
    binary main_arg1 main_v225 main_v226 ((fun x i => Host.gather gather_S2x64x64x64x32_S2x100000x3_S2x100000x32_2_123_0_0_123_2_111132 x i) : (⟨S2x64x64x64x32, .f32⟩ : BufTy).Contents (Elt F) → (⟨S2x100000x3, .i32⟩ : BufTy).Contents (Elt F) → (⟨S2x100000x32, .f32⟩ : BufTy).Contents (Elt F)),
    unary main_v31 main_v227 (broadcastInDim S2x100000x32 ![0, 1, 2] bcast_S2x100000x1_S2x100000x32_0_1_2 : (⟨S2x100000x1, .f32⟩ : BufTy).Contents (Elt F) → (⟨S2x100000x32, .f32⟩ : BufTy).Contents (Elt F)),
    binary main_v226 main_v227 main_v228 (mulf : (⟨S2x100000x32, .f32⟩ : BufTy).Contents (Elt F) → (⟨S2x100000x32, .f32⟩ : BufTy).Contents (Elt F) → (⟨S2x100000x32, .f32⟩ : BufTy).Contents (Elt F)),
    unary main_v35 main_v229 (broadcastInDim S2x100000x32 ![0, 1, 2] bcast_S2x100000x1_S2x100000x32_0_1_2 : (⟨S2x100000x1, .f32⟩ : BufTy).Contents (Elt F) → (⟨S2x100000x32, .f32⟩ : BufTy).Contents (Elt F)),
    binary main_v206 main_v229 main_v230 (mulf : (⟨S2x100000x32, .f32⟩ : BufTy).Contents (Elt F) → (⟨S2x100000x32, .f32⟩ : BufTy).Contents (Elt F) → (⟨S2x100000x32, .f32⟩ : BufTy).Contents (Elt F)),
    binary main_v228 main_v230 main_v231 (addf : (⟨S2x100000x32, .f32⟩ : BufTy).Contents (Elt F) → (⟨S2x100000x32, .f32⟩ : BufTy).Contents (Elt F) → (⟨S2x100000x32, .f32⟩ : BufTy).Contents (Elt F)),
    unary main_v39 main_v232 (broadcastInDim S2x100000x32 ![0, 1, 2] bcast_S2x100000x1_S2x100000x32_0_1_2 : (⟨S2x100000x1, .f32⟩ : BufTy).Contents (Elt F) → (⟨S2x100000x32, .f32⟩ : BufTy).Contents (Elt F)),
    binary main_v231 main_v232 main_v233 (mulf : (⟨S2x100000x32, .f32⟩ : BufTy).Contents (Elt F) → (⟨S2x100000x32, .f32⟩ : BufTy).Contents (Elt F) → (⟨S2x100000x32, .f32⟩ : BufTy).Contents (Elt F)),
    unary main_v31 main_v234 (broadcastInDim S2x100000x32 ![0, 1, 2] bcast_S2x100000x1_S2x100000x32_0_1_2 : (⟨S2x100000x1, .f32⟩ : BufTy).Contents (Elt F) → (⟨S2x100000x32, .f32⟩ : BufTy).Contents (Elt F)),
    binary main_v186 main_v234 main_v235 (mulf : (⟨S2x100000x32, .f32⟩ : BufTy).Contents (Elt F) → (⟨S2x100000x32, .f32⟩ : BufTy).Contents (Elt F) → (⟨S2x100000x32, .f32⟩ : BufTy).Contents (Elt F)),
    unary main_v35 main_v236 (broadcastInDim S2x100000x32 ![0, 1, 2] bcast_S2x100000x1_S2x100000x32_0_1_2 : (⟨S2x100000x1, .f32⟩ : BufTy).Contents (Elt F) → (⟨S2x100000x32, .f32⟩ : BufTy).Contents (Elt F)),
    binary main_v166 main_v236 main_v237 (mulf : (⟨S2x100000x32, .f32⟩ : BufTy).Contents (Elt F) → (⟨S2x100000x32, .f32⟩ : BufTy).Contents (Elt F) → (⟨S2x100000x32, .f32⟩ : BufTy).Contents (Elt F)),
    binary main_v235 main_v237 main_v238 (addf : (⟨S2x100000x32, .f32⟩ : BufTy).Contents (Elt F) → (⟨S2x100000x32, .f32⟩ : BufTy).Contents (Elt F) → (⟨S2x100000x32, .f32⟩ : BufTy).Contents (Elt F)),
    unary main_v43 main_v239 (broadcastInDim S2x100000x32 ![0, 1, 2] bcast_S2x100000x1_S2x100000x32_0_1_2 : (⟨S2x100000x1, .f32⟩ : BufTy).Contents (Elt F) → (⟨S2x100000x32, .f32⟩ : BufTy).Contents (Elt F)),
    binary main_v238 main_v239 main_v240 (mulf : (⟨S2x100000x32, .f32⟩ : BufTy).Contents (Elt F) → (⟨S2x100000x32, .f32⟩ : BufTy).Contents (Elt F) → (⟨S2x100000x32, .f32⟩ : BufTy).Contents (Elt F)),
    binary main_v233 main_v240 main_v241 (addf : (⟨S2x100000x32, .f32⟩ : BufTy).Contents (Elt F) → (⟨S2x100000x32, .f32⟩ : BufTy).Contents (Elt F) → (⟨S2x100000x32, .f32⟩ : BufTy).Contents (Elt F)),
    unary main_v47 main_v242 (broadcastInDim S2x100000x32 ![0, 1, 2] bcast_S2x100000x1_S2x100000x32_0_1_2 : (⟨S2x100000x1, .f32⟩ : BufTy).Contents (Elt F) → (⟨S2x100000x32, .f32⟩ : BufTy).Contents (Elt F)),
    binary main_v241 main_v242 main_v243 (mulf : (⟨S2x100000x32, .f32⟩ : BufTy).Contents (Elt F) → (⟨S2x100000x32, .f32⟩ : BufTy).Contents (Elt F) → (⟨S2x100000x32, .f32⟩ : BufTy).Contents (Elt F)),
    unary main_v51 main_v244 (broadcastInDim S2x100000x32 ![0, 1, 2] bcast_S2x100000x1_S2x100000x32_0_1_2 : (⟨S2x100000x1, .f32⟩ : BufTy).Contents (Elt F) → (⟨S2x100000x32, .f32⟩ : BufTy).Contents (Elt F)),
    binary main_v146 main_v244 main_v245 (mulf : (⟨S2x100000x32, .f32⟩ : BufTy).Contents (Elt F) → (⟨S2x100000x32, .f32⟩ : BufTy).Contents (Elt F) → (⟨S2x100000x32, .f32⟩ : BufTy).Contents (Elt F)),
    binary main_v243 main_v245 main_v246 (addf : (⟨S2x100000x32, .f32⟩ : BufTy).Contents (Elt F) → (⟨S2x100000x32, .f32⟩ : BufTy).Contents (Elt F) → (⟨S2x100000x32, .f32⟩ : BufTy).Contents (Elt F)) ]

set_option maxRecDepth 8192 in
set_option maxHeartbeats 4000000 in
theorem main_part4_eq (c : Dev nD) : main_part4 (F := F) c = seq chunk4 := rfl

set_option maxRecDepth 8192 in
theorem chunk4_sub : (chunk4 : List (HloOp τ sig (Elt F))).Forall fun op => op.bufs ⊆ tcRefs τ sig :=
  ⟨binary_bufs_sub .., ternary_bufs_sub .., nullary_bufs_sub .., unary_bufs_sub .., binary_bufs_sub .., nullary_bufs_sub .., unary_bufs_sub .., binary_bufs_sub .., ternary_bufs_sub .., unary_bufs_sub .., unary_bufs_sub .., unary_bufs_sub .., nary_bufs_sub .., binary_bufs_sub .., nullary_bufs_sub .., unary_bufs_sub .., binary_bufs_sub .., nullary_bufs_sub .., unary_bufs_sub .., binary_bufs_sub .., ternary_bufs_sub .., nullary_bufs_sub .., unary_bufs_sub .., binary_bufs_sub .., nullary_bufs_sub .., unary_bufs_sub .., binary_bufs_sub .., ternary_bufs_sub .., nullary_bufs_sub .., unary_bufs_sub .., binary_bufs_sub .., nullary_bufs_sub .., unary_bufs_sub .., binary_bufs_sub .., ternary_bufs_sub .., unary_bufs_sub .., unary_bufs_sub .., unary_bufs_sub .., nary_bufs_sub .., binary_bufs_sub .., unary_bufs_sub .., binary_bufs_sub .., unary_bufs_sub .., binary_bufs_sub .., binary_bufs_sub .., unary_bufs_sub .., binary_bufs_sub .., unary_bufs_sub .., binary_bufs_sub .., unary_bufs_sub .., binary_bufs_sub .., binary_bufs_sub .., unary_bufs_sub .., binary_bufs_sub .., binary_bufs_sub .., unary_bufs_sub .., binary_bufs_sub .., unary_bufs_sub .., binary_bufs_sub .., binary_bufs_sub ..⟩

set_option maxRecDepth 8192 in
theorem chunk4_fresh : (chunk4 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

/-- The references window 4 writes, in order. -/
abbrev WR4 : List (Ref sig .tc) :=
  [main_v195, main_v196, main_c_43, main_v197, main_v198, main_c_44, main_v199, main_v200, main_v201, main_v202, main_v203, main_v204, main_v205, main_v206, main_c_45, main_v207, main_v208, main_c_46, main_v209, main_v210, main_v211, main_c_47, main_v212, main_v213, main_c_48, main_v214, main_v215, main_v216, main_c_49, main_v217, main_v218, main_c_50, main_v219, main_v220, main_v221, main_v222, main_v223, main_v224, main_v225, main_v226, main_v227, main_v228, main_v229, main_v230, main_v231, main_v232, main_v233, main_v234, main_v235, main_v236, main_v237, main_v238, main_v239, main_v240, main_v241, main_v242, main_v243, main_v244, main_v245, main_v246]

set_option maxRecDepth 8192 in
theorem chunk4_writes : Cert.PeelLib.WritesIn (chunk4 : List (HloOp τ sig (Elt F))) WR4 :=
  Cert.PeelLib.writesIn_of_forall₂ (by (repeat (refine List.Forall₂.cons rfl ?_)); exact List.Forall₂.nil)

/-- The reference's operations 306 … 370 of 910, in order. -/
abbrev chunk5 : List (HloOp τ sig (Elt F)) :=
  [ unary main_cst_0 main_v247 (broadcastInDim S1x1x3 ![2] bcast_S3_S1x1x3_2 : (⟨S3, .f32⟩ : BufTy).Contents (Elt F) → (⟨S1x1x3, .f32⟩ : BufTy).Contents (Elt F)),
    unary main_v247 main_v248 (broadcastInDim S2x100000x3 ![0, 1, 2] bcast_S1x1x3_S2x100000x3_0_1_2 : (⟨S1x1x3, .f32⟩ : BufTy).Contents (Elt F) → (⟨S2x100000x3, .f32⟩ : BufTy).Contents (Elt F)),
    binary main_arg5 main_v248 main_v249 (mulf : (⟨S2x100000x3, .f32⟩ : BufTy).Contents (Elt F) → (⟨S2x100000x3, .f32⟩ : BufTy).Contents (Elt F) → (⟨S2x100000x3, .f32⟩ : BufTy).Contents (Elt F)),
    nullary main_cst_51 (constant S_ .f32 0x3C23D70A#32),
    nullary main_cst_52 (constant S_ .f32 0x41F7EB85#32),
    TRef.unary (TRef.of (T := ⟨S_, .f32⟩) main_cst_51) (TRef.of (T := ⟨S_, .f32⟩) main_call1_v0) id,
    TRef.unary (TRef.of (T := ⟨S_, .f32⟩) main_call1_v0) (TRef.of (T := ⟨S2x100000x3, .f32⟩) main_call1_v1) (broadcastInDim S2x100000x3 ![] bcast_S_S2x100000x3),
    TRef.binary (TRef.of (T := ⟨S2x100000x3, .f32⟩) main_call1_v1) (TRef.of (T := ⟨S2x100000x3, .f32⟩) main_v249) (TRef.of (T := ⟨S2x100000x3, .f32⟩) main_call1_v2) maximumf,
    TRef.unary (TRef.of (T := ⟨S_, .f32⟩) main_cst_52) (TRef.of (T := ⟨S_, .f32⟩) main_call1_v3) id,
    TRef.unary (TRef.of (T := ⟨S_, .f32⟩) main_call1_v3) (TRef.of (T := ⟨S2x100000x3, .f32⟩) main_call1_v4) (broadcastInDim S2x100000x3 ![] bcast_S_S2x100000x3),
    TRef.binary (TRef.of (T := ⟨S2x100000x3, .f32⟩) main_call1_v4) (TRef.of (T := ⟨S2x100000x3, .f32⟩) main_call1_v2) (TRef.of (T := ⟨S2x100000x3, .f32⟩) main_v250) minimumf,
    unary main_v250 main_v251 ((extractStridedSlice S2x100000x1 ![0, 0, 0] · slices_S2x100000x3_S2x100000x1_0_0_0) : (⟨S2x100000x3, .f32⟩ : BufTy).Contents (Elt F) → (⟨S2x100000x1, .f32⟩ : BufTy).Contents (Elt F)),
    reshape main_v251 main_v252 rfl shapeCasts_S2x100000x1_S2x100000,
    unary main_v252 main_v253 (Host.floor : (⟨S2x100000, .f32⟩ : BufTy).Contents (Elt F) → (⟨S2x100000, .f32⟩ : BufTy).Contents (Elt F)),
    unary main_v250 main_v254 ((extractStridedSlice S2x100000x1 ![0, 0, 0] · slices_S2x100000x3_S2x100000x1_0_0_0) : (⟨S2x100000x3, .f32⟩ : BufTy).Contents (Elt F) → (⟨S2x100000x1, .f32⟩ : BufTy).Contents (Elt F)),
    reshape main_v254 main_v255 rfl shapeCasts_S2x100000x1_S2x100000,
    unary main_v255 main_v256 (Host.ceil : (⟨S2x100000, .f32⟩ : BufTy).Contents (Elt F) → (⟨S2x100000, .f32⟩ : BufTy).Contents (Elt F)),
    unary main_v250 main_v257 ((extractStridedSlice S2x100000x1 ![0, 0, 1] · slices_S2x100000x3_S2x100000x1_0_0_1) : (⟨S2x100000x3, .f32⟩ : BufTy).Contents (Elt F) → (⟨S2x100000x1, .f32⟩ : BufTy).Contents (Elt F)),
    reshape main_v257 main_v258 rfl shapeCasts_S2x100000x1_S2x100000,
    unary main_v258 main_v259 (Host.floor : (⟨S2x100000, .f32⟩ : BufTy).Contents (Elt F) → (⟨S2x100000, .f32⟩ : BufTy).Contents (Elt F)),
    unary main_v250 main_v260 ((extractStridedSlice S2x100000x1 ![0, 0, 1] · slices_S2x100000x3_S2x100000x1_0_0_1) : (⟨S2x100000x3, .f32⟩ : BufTy).Contents (Elt F) → (⟨S2x100000x1, .f32⟩ : BufTy).Contents (Elt F)),
    reshape main_v260 main_v261 rfl shapeCasts_S2x100000x1_S2x100000,
    unary main_v261 main_v262 (Host.ceil : (⟨S2x100000, .f32⟩ : BufTy).Contents (Elt F) → (⟨S2x100000, .f32⟩ : BufTy).Contents (Elt F)),
    unary main_v250 main_v263 ((extractStridedSlice S2x100000x1 ![0, 0, 2] · slices_S2x100000x3_S2x100000x1_0_0_2) : (⟨S2x100000x3, .f32⟩ : BufTy).Contents (Elt F) → (⟨S2x100000x1, .f32⟩ : BufTy).Contents (Elt F)),
    reshape main_v263 main_v264 rfl shapeCasts_S2x100000x1_S2x100000,
    unary main_v264 main_v265 (Host.floor : (⟨S2x100000, .f32⟩ : BufTy).Contents (Elt F) → (⟨S2x100000, .f32⟩ : BufTy).Contents (Elt F)),
    unary main_v250 main_v266 ((extractStridedSlice S2x100000x1 ![0, 0, 2] · slices_S2x100000x3_S2x100000x1_0_0_2) : (⟨S2x100000x3, .f32⟩ : BufTy).Contents (Elt F) → (⟨S2x100000x1, .f32⟩ : BufTy).Contents (Elt F)),
    reshape main_v266 main_v267 rfl shapeCasts_S2x100000x1_S2x100000,
    unary main_v267 main_v268 (Host.ceil : (⟨S2x100000, .f32⟩ : BufTy).Contents (Elt F) → (⟨S2x100000, .f32⟩ : BufTy).Contents (Elt F)),
    unary main_v253 main_v269 (fptosi 32 : (⟨S2x100000, .f32⟩ : BufTy).Contents (Elt F) → (⟨S2x100000, .i32⟩ : BufTy).Contents (Elt F)),
    unary main_v256 main_v270 (fptosi 32 : (⟨S2x100000, .f32⟩ : BufTy).Contents (Elt F) → (⟨S2x100000, .i32⟩ : BufTy).Contents (Elt F)),
    unary main_v259 main_v271 (fptosi 32 : (⟨S2x100000, .f32⟩ : BufTy).Contents (Elt F) → (⟨S2x100000, .i32⟩ : BufTy).Contents (Elt F)),
    unary main_v262 main_v272 (fptosi 32 : (⟨S2x100000, .f32⟩ : BufTy).Contents (Elt F) → (⟨S2x100000, .i32⟩ : BufTy).Contents (Elt F)),
    unary main_v265 main_v273 (fptosi 32 : (⟨S2x100000, .f32⟩ : BufTy).Contents (Elt F) → (⟨S2x100000, .i32⟩ : BufTy).Contents (Elt F)),
    unary main_v268 main_v274 (fptosi 32 : (⟨S2x100000, .f32⟩ : BufTy).Contents (Elt F) → (⟨S2x100000, .i32⟩ : BufTy).Contents (Elt F)),
    unary main_v250 main_v275 ((extractStridedSlice S2x100000x1 ![0, 0, 0] · slices_S2x100000x3_S2x100000x1_0_0_0) : (⟨S2x100000x3, .f32⟩ : BufTy).Contents (Elt F) → (⟨S2x100000x1, .f32⟩ : BufTy).Contents (Elt F)),
    reshape main_v275 main_v276 rfl shapeCasts_S2x100000x1_S2x100000,
    binary main_v276 main_v253 main_v277 (subf : (⟨S2x100000, .f32⟩ : BufTy).Contents (Elt F) → (⟨S2x100000, .f32⟩ : BufTy).Contents (Elt F) → (⟨S2x100000, .f32⟩ : BufTy).Contents (Elt F)),
    unary main_v277 main_v278 (broadcastInDim S2x100000x1 ![0, 1] bcast_S2x100000_S2x100000x1_0_1 : (⟨S2x100000, .f32⟩ : BufTy).Contents (Elt F) → (⟨S2x100000x1, .f32⟩ : BufTy).Contents (Elt F)),
    unary main_v250 main_v279 ((extractStridedSlice S2x100000x1 ![0, 0, 0] · slices_S2x100000x3_S2x100000x1_0_0_0) : (⟨S2x100000x3, .f32⟩ : BufTy).Contents (Elt F) → (⟨S2x100000x1, .f32⟩ : BufTy).Contents (Elt F)),
    reshape main_v279 main_v280 rfl shapeCasts_S2x100000x1_S2x100000,
    binary main_v256 main_v280 main_v281 (subf : (⟨S2x100000, .f32⟩ : BufTy).Contents (Elt F) → (⟨S2x100000, .f32⟩ : BufTy).Contents (Elt F) → (⟨S2x100000, .f32⟩ : BufTy).Contents (Elt F)),
    unary main_v281 main_v282 (broadcastInDim S2x100000x1 ![0, 1] bcast_S2x100000_S2x100000x1_0_1 : (⟨S2x100000, .f32⟩ : BufTy).Contents (Elt F) → (⟨S2x100000x1, .f32⟩ : BufTy).Contents (Elt F)),
    unary main_v250 main_v283 ((extractStridedSlice S2x100000x1 ![0, 0, 1] · slices_S2x100000x3_S2x100000x1_0_0_1) : (⟨S2x100000x3, .f32⟩ : BufTy).Contents (Elt F) → (⟨S2x100000x1, .f32⟩ : BufTy).Contents (Elt F)),
    reshape main_v283 main_v284 rfl shapeCasts_S2x100000x1_S2x100000,
    binary main_v284 main_v259 main_v285 (subf : (⟨S2x100000, .f32⟩ : BufTy).Contents (Elt F) → (⟨S2x100000, .f32⟩ : BufTy).Contents (Elt F) → (⟨S2x100000, .f32⟩ : BufTy).Contents (Elt F)),
    unary main_v285 main_v286 (broadcastInDim S2x100000x1 ![0, 1] bcast_S2x100000_S2x100000x1_0_1 : (⟨S2x100000, .f32⟩ : BufTy).Contents (Elt F) → (⟨S2x100000x1, .f32⟩ : BufTy).Contents (Elt F)),
    unary main_v250 main_v287 ((extractStridedSlice S2x100000x1 ![0, 0, 1] · slices_S2x100000x3_S2x100000x1_0_0_1) : (⟨S2x100000x3, .f32⟩ : BufTy).Contents (Elt F) → (⟨S2x100000x1, .f32⟩ : BufTy).Contents (Elt F)),
    reshape main_v287 main_v288 rfl shapeCasts_S2x100000x1_S2x100000,
    binary main_v262 main_v288 main_v289 (subf : (⟨S2x100000, .f32⟩ : BufTy).Contents (Elt F) → (⟨S2x100000, .f32⟩ : BufTy).Contents (Elt F) → (⟨S2x100000, .f32⟩ : BufTy).Contents (Elt F)),
    unary main_v289 main_v290 (broadcastInDim S2x100000x1 ![0, 1] bcast_S2x100000_S2x100000x1_0_1 : (⟨S2x100000, .f32⟩ : BufTy).Contents (Elt F) → (⟨S2x100000x1, .f32⟩ : BufTy).Contents (Elt F)),
    unary main_v250 main_v291 ((extractStridedSlice S2x100000x1 ![0, 0, 2] · slices_S2x100000x3_S2x100000x1_0_0_2) : (⟨S2x100000x3, .f32⟩ : BufTy).Contents (Elt F) → (⟨S2x100000x1, .f32⟩ : BufTy).Contents (Elt F)),
    reshape main_v291 main_v292 rfl shapeCasts_S2x100000x1_S2x100000,
    binary main_v292 main_v265 main_v293 (subf : (⟨S2x100000, .f32⟩ : BufTy).Contents (Elt F) → (⟨S2x100000, .f32⟩ : BufTy).Contents (Elt F) → (⟨S2x100000, .f32⟩ : BufTy).Contents (Elt F)),
    unary main_v293 main_v294 (broadcastInDim S2x100000x1 ![0, 1] bcast_S2x100000_S2x100000x1_0_1 : (⟨S2x100000, .f32⟩ : BufTy).Contents (Elt F) → (⟨S2x100000x1, .f32⟩ : BufTy).Contents (Elt F)),
    unary main_v250 main_v295 ((extractStridedSlice S2x100000x1 ![0, 0, 2] · slices_S2x100000x3_S2x100000x1_0_0_2) : (⟨S2x100000x3, .f32⟩ : BufTy).Contents (Elt F) → (⟨S2x100000x1, .f32⟩ : BufTy).Contents (Elt F)),
    reshape main_v295 main_v296 rfl shapeCasts_S2x100000x1_S2x100000,
    binary main_v268 main_v296 main_v297 (subf : (⟨S2x100000, .f32⟩ : BufTy).Contents (Elt F) → (⟨S2x100000, .f32⟩ : BufTy).Contents (Elt F) → (⟨S2x100000, .f32⟩ : BufTy).Contents (Elt F)),
    unary main_v297 main_v298 (broadcastInDim S2x100000x1 ![0, 1] bcast_S2x100000_S2x100000x1_0_1 : (⟨S2x100000, .f32⟩ : BufTy).Contents (Elt F) → (⟨S2x100000x1, .f32⟩ : BufTy).Contents (Elt F)),
    nullary main_c_53 (constantI S_ 32 0#32),
    unary main_c_53 main_v299 (broadcastInDim S2x100000 ![] bcast_S_S2x100000 : (⟨S_, .i32⟩ : BufTy).Contents (Elt F) → (⟨S2x100000, .i32⟩ : BufTy).Contents (Elt F)),
    binary main_v269 main_v299 main_v300 (cmpi .slt : (⟨S2x100000, .i32⟩ : BufTy).Contents (Elt F) → (⟨S2x100000, .i32⟩ : BufTy).Contents (Elt F) → (⟨S2x100000, .i1⟩ : BufTy).Contents (Elt F)),
    nullary main_c_54 (constantI S_ 32 32#32),
    unary main_c_54 main_v301 (broadcastInDim S2x100000 ![] bcast_S_S2x100000 : (⟨S_, .i32⟩ : BufTy).Contents (Elt F) → (⟨S2x100000, .i32⟩ : BufTy).Contents (Elt F)),
    binary main_v269 main_v301 main_v302 (addi : (⟨S2x100000, .i32⟩ : BufTy).Contents (Elt F) → (⟨S2x100000, .i32⟩ : BufTy).Contents (Elt F) → (⟨S2x100000, .i32⟩ : BufTy).Contents (Elt F)) ]

set_option maxRecDepth 8192 in
set_option maxHeartbeats 4000000 in
theorem main_part5_eq (c : Dev nD) : main_part5 (F := F) c = seq chunk5 := rfl

set_option maxRecDepth 8192 in
theorem chunk5_sub : (chunk5 : List (HloOp τ sig (Elt F))).Forall fun op => op.bufs ⊆ tcRefs τ sig :=
  ⟨unary_bufs_sub .., unary_bufs_sub .., binary_bufs_sub .., nullary_bufs_sub .., nullary_bufs_sub .., unary_bufs_sub .., unary_bufs_sub .., binary_bufs_sub .., unary_bufs_sub .., unary_bufs_sub .., binary_bufs_sub .., unary_bufs_sub .., reshape_bufs_sub .., unary_bufs_sub .., unary_bufs_sub .., reshape_bufs_sub .., unary_bufs_sub .., unary_bufs_sub .., reshape_bufs_sub .., unary_bufs_sub .., unary_bufs_sub .., reshape_bufs_sub .., unary_bufs_sub .., unary_bufs_sub .., reshape_bufs_sub .., unary_bufs_sub .., unary_bufs_sub .., reshape_bufs_sub .., unary_bufs_sub .., unary_bufs_sub .., unary_bufs_sub .., unary_bufs_sub .., unary_bufs_sub .., unary_bufs_sub .., unary_bufs_sub .., unary_bufs_sub .., reshape_bufs_sub .., binary_bufs_sub .., unary_bufs_sub .., unary_bufs_sub .., reshape_bufs_sub .., binary_bufs_sub .., unary_bufs_sub .., unary_bufs_sub .., reshape_bufs_sub .., binary_bufs_sub .., unary_bufs_sub .., unary_bufs_sub .., reshape_bufs_sub .., binary_bufs_sub .., unary_bufs_sub .., unary_bufs_sub .., reshape_bufs_sub .., binary_bufs_sub .., unary_bufs_sub .., unary_bufs_sub .., reshape_bufs_sub .., binary_bufs_sub .., unary_bufs_sub .., nullary_bufs_sub .., unary_bufs_sub .., binary_bufs_sub .., nullary_bufs_sub .., unary_bufs_sub .., binary_bufs_sub ..⟩

set_option maxRecDepth 8192 in
theorem chunk5_fresh : (chunk5 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

/-- The references window 5 writes, in order. -/
abbrev WR5 : List (Ref sig .tc) :=
  [main_v247, main_v248, main_v249, main_cst_51, main_cst_52, main_call1_v0, main_call1_v1, main_call1_v2, main_call1_v3, main_call1_v4, main_v250, main_v251, main_v252, main_v253, main_v254, main_v255, main_v256, main_v257, main_v258, main_v259, main_v260, main_v261, main_v262, main_v263, main_v264, main_v265, main_v266, main_v267, main_v268, main_v269, main_v270, main_v271, main_v272, main_v273, main_v274, main_v275, main_v276, main_v277, main_v278, main_v279, main_v280, main_v281, main_v282, main_v283, main_v284, main_v285, main_v286, main_v287, main_v288, main_v289, main_v290, main_v291, main_v292, main_v293, main_v294, main_v295, main_v296, main_v297, main_v298, main_c_53, main_v299, main_v300, main_c_54, main_v301, main_v302]

set_option maxRecDepth 8192 in
theorem chunk5_writes : Cert.PeelLib.WritesIn (chunk5 : List (HloOp τ sig (Elt F))) WR5 :=
  Cert.PeelLib.writesIn_of_forall₂ (by (repeat (refine List.Forall₂.cons rfl ?_)); exact List.Forall₂.nil)

/-- The reference's operations 371 … 430 of 910, in order. -/
abbrev chunk6 : List (HloOp τ sig (Elt F)) :=
  [ ternary main_v300 main_v302 main_v269 main_v303 (select : (⟨S2x100000, .i1⟩ : BufTy).Contents (Elt F) → (⟨S2x100000, .i32⟩ : BufTy).Contents (Elt F) → (⟨S2x100000, .i32⟩ : BufTy).Contents (Elt F) → (⟨S2x100000, .i32⟩ : BufTy).Contents (Elt F)),
    nullary main_c_55 (constantI S_ 32 0#32),
    unary main_c_55 main_v304 (broadcastInDim S2x100000 ![] bcast_S_S2x100000 : (⟨S_, .i32⟩ : BufTy).Contents (Elt F) → (⟨S2x100000, .i32⟩ : BufTy).Contents (Elt F)),
    binary main_v271 main_v304 main_v305 (cmpi .slt : (⟨S2x100000, .i32⟩ : BufTy).Contents (Elt F) → (⟨S2x100000, .i32⟩ : BufTy).Contents (Elt F) → (⟨S2x100000, .i1⟩ : BufTy).Contents (Elt F)),
    nullary main_c_56 (constantI S_ 32 32#32),
    unary main_c_56 main_v306 (broadcastInDim S2x100000 ![] bcast_S_S2x100000 : (⟨S_, .i32⟩ : BufTy).Contents (Elt F) → (⟨S2x100000, .i32⟩ : BufTy).Contents (Elt F)),
    binary main_v271 main_v306 main_v307 (addi : (⟨S2x100000, .i32⟩ : BufTy).Contents (Elt F) → (⟨S2x100000, .i32⟩ : BufTy).Contents (Elt F) → (⟨S2x100000, .i32⟩ : BufTy).Contents (Elt F)),
    ternary main_v305 main_v307 main_v271 main_v308 (select : (⟨S2x100000, .i1⟩ : BufTy).Contents (Elt F) → (⟨S2x100000, .i32⟩ : BufTy).Contents (Elt F) → (⟨S2x100000, .i32⟩ : BufTy).Contents (Elt F) → (⟨S2x100000, .i32⟩ : BufTy).Contents (Elt F)),
    nullary main_c_57 (constantI S_ 32 0#32),
    unary main_c_57 main_v309 (broadcastInDim S2x100000 ![] bcast_S_S2x100000 : (⟨S_, .i32⟩ : BufTy).Contents (Elt F) → (⟨S2x100000, .i32⟩ : BufTy).Contents (Elt F)),
    binary main_v273 main_v309 main_v310 (cmpi .slt : (⟨S2x100000, .i32⟩ : BufTy).Contents (Elt F) → (⟨S2x100000, .i32⟩ : BufTy).Contents (Elt F) → (⟨S2x100000, .i1⟩ : BufTy).Contents (Elt F)),
    nullary main_c_58 (constantI S_ 32 32#32),
    unary main_c_58 main_v311 (broadcastInDim S2x100000 ![] bcast_S_S2x100000 : (⟨S_, .i32⟩ : BufTy).Contents (Elt F) → (⟨S2x100000, .i32⟩ : BufTy).Contents (Elt F)),
    binary main_v273 main_v311 main_v312 (addi : (⟨S2x100000, .i32⟩ : BufTy).Contents (Elt F) → (⟨S2x100000, .i32⟩ : BufTy).Contents (Elt F) → (⟨S2x100000, .i32⟩ : BufTy).Contents (Elt F)),
    ternary main_v310 main_v312 main_v273 main_v313 (select : (⟨S2x100000, .i1⟩ : BufTy).Contents (Elt F) → (⟨S2x100000, .i32⟩ : BufTy).Contents (Elt F) → (⟨S2x100000, .i32⟩ : BufTy).Contents (Elt F) → (⟨S2x100000, .i32⟩ : BufTy).Contents (Elt F)),
    unary main_v303 main_v314 (broadcastInDim S2x100000x1 ![0, 1] bcast_S2x100000_S2x100000x1_0_1 : (⟨S2x100000, .i32⟩ : BufTy).Contents (Elt F) → (⟨S2x100000x1, .i32⟩ : BufTy).Contents (Elt F)),
    unary main_v308 main_v315 (broadcastInDim S2x100000x1 ![0, 1] bcast_S2x100000_S2x100000x1_0_1 : (⟨S2x100000, .i32⟩ : BufTy).Contents (Elt F) → (⟨S2x100000x1, .i32⟩ : BufTy).Contents (Elt F)),
    unary main_v313 main_v316 (broadcastInDim S2x100000x1 ![0, 1] bcast_S2x100000_S2x100000x1_0_1 : (⟨S2x100000, .i32⟩ : BufTy).Contents (Elt F) → (⟨S2x100000x1, .i32⟩ : BufTy).Contents (Elt F)),
    nary ![main_v314, main_v315, main_v316] main_v317 (fun u => concatenate S2x100000x3 2 [⟨S2x100000x1, u 0⟩, ⟨S2x100000x1, u 1⟩, ⟨S2x100000x1, u 2⟩] concatenates_S2x100000x1_S2x100000x1_S2x100000x1_S2x100000x3_d2),
    binary main_arg2 main_v317 main_v318 ((fun x i => Host.gather gather_S2x32x32x32x64_S2x100000x3_S2x100000x64_2_123_0_0_123_2_111164 x i) : (⟨S2x32x32x32x64, .f32⟩ : BufTy).Contents (Elt F) → (⟨S2x100000x3, .i32⟩ : BufTy).Contents (Elt F) → (⟨S2x100000x64, .f32⟩ : BufTy).Contents (Elt F)),
    nullary main_c_59 (constantI S_ 32 0#32),
    unary main_c_59 main_v319 (broadcastInDim S2x100000 ![] bcast_S_S2x100000 : (⟨S_, .i32⟩ : BufTy).Contents (Elt F) → (⟨S2x100000, .i32⟩ : BufTy).Contents (Elt F)),
    binary main_v270 main_v319 main_v320 (cmpi .slt : (⟨S2x100000, .i32⟩ : BufTy).Contents (Elt F) → (⟨S2x100000, .i32⟩ : BufTy).Contents (Elt F) → (⟨S2x100000, .i1⟩ : BufTy).Contents (Elt F)),
    nullary main_c_60 (constantI S_ 32 32#32),
    unary main_c_60 main_v321 (broadcastInDim S2x100000 ![] bcast_S_S2x100000 : (⟨S_, .i32⟩ : BufTy).Contents (Elt F) → (⟨S2x100000, .i32⟩ : BufTy).Contents (Elt F)),
    binary main_v270 main_v321 main_v322 (addi : (⟨S2x100000, .i32⟩ : BufTy).Contents (Elt F) → (⟨S2x100000, .i32⟩ : BufTy).Contents (Elt F) → (⟨S2x100000, .i32⟩ : BufTy).Contents (Elt F)),
    ternary main_v320 main_v322 main_v270 main_v323 (select : (⟨S2x100000, .i1⟩ : BufTy).Contents (Elt F) → (⟨S2x100000, .i32⟩ : BufTy).Contents (Elt F) → (⟨S2x100000, .i32⟩ : BufTy).Contents (Elt F) → (⟨S2x100000, .i32⟩ : BufTy).Contents (Elt F)),
    nullary main_c_61 (constantI S_ 32 0#32),
    unary main_c_61 main_v324 (broadcastInDim S2x100000 ![] bcast_S_S2x100000 : (⟨S_, .i32⟩ : BufTy).Contents (Elt F) → (⟨S2x100000, .i32⟩ : BufTy).Contents (Elt F)),
    binary main_v271 main_v324 main_v325 (cmpi .slt : (⟨S2x100000, .i32⟩ : BufTy).Contents (Elt F) → (⟨S2x100000, .i32⟩ : BufTy).Contents (Elt F) → (⟨S2x100000, .i1⟩ : BufTy).Contents (Elt F)),
    nullary main_c_62 (constantI S_ 32 32#32),
    unary main_c_62 main_v326 (broadcastInDim S2x100000 ![] bcast_S_S2x100000 : (⟨S_, .i32⟩ : BufTy).Contents (Elt F) → (⟨S2x100000, .i32⟩ : BufTy).Contents (Elt F)),
    binary main_v271 main_v326 main_v327 (addi : (⟨S2x100000, .i32⟩ : BufTy).Contents (Elt F) → (⟨S2x100000, .i32⟩ : BufTy).Contents (Elt F) → (⟨S2x100000, .i32⟩ : BufTy).Contents (Elt F)),
    ternary main_v325 main_v327 main_v271 main_v328 (select : (⟨S2x100000, .i1⟩ : BufTy).Contents (Elt F) → (⟨S2x100000, .i32⟩ : BufTy).Contents (Elt F) → (⟨S2x100000, .i32⟩ : BufTy).Contents (Elt F) → (⟨S2x100000, .i32⟩ : BufTy).Contents (Elt F)),
    nullary main_c_63 (constantI S_ 32 0#32),
    unary main_c_63 main_v329 (broadcastInDim S2x100000 ![] bcast_S_S2x100000 : (⟨S_, .i32⟩ : BufTy).Contents (Elt F) → (⟨S2x100000, .i32⟩ : BufTy).Contents (Elt F)),
    binary main_v273 main_v329 main_v330 (cmpi .slt : (⟨S2x100000, .i32⟩ : BufTy).Contents (Elt F) → (⟨S2x100000, .i32⟩ : BufTy).Contents (Elt F) → (⟨S2x100000, .i1⟩ : BufTy).Contents (Elt F)),
    nullary main_c_64 (constantI S_ 32 32#32),
    unary main_c_64 main_v331 (broadcastInDim S2x100000 ![] bcast_S_S2x100000 : (⟨S_, .i32⟩ : BufTy).Contents (Elt F) → (⟨S2x100000, .i32⟩ : BufTy).Contents (Elt F)),
    binary main_v273 main_v331 main_v332 (addi : (⟨S2x100000, .i32⟩ : BufTy).Contents (Elt F) → (⟨S2x100000, .i32⟩ : BufTy).Contents (Elt F) → (⟨S2x100000, .i32⟩ : BufTy).Contents (Elt F)),
    ternary main_v330 main_v332 main_v273 main_v333 (select : (⟨S2x100000, .i1⟩ : BufTy).Contents (Elt F) → (⟨S2x100000, .i32⟩ : BufTy).Contents (Elt F) → (⟨S2x100000, .i32⟩ : BufTy).Contents (Elt F) → (⟨S2x100000, .i32⟩ : BufTy).Contents (Elt F)),
    unary main_v323 main_v334 (broadcastInDim S2x100000x1 ![0, 1] bcast_S2x100000_S2x100000x1_0_1 : (⟨S2x100000, .i32⟩ : BufTy).Contents (Elt F) → (⟨S2x100000x1, .i32⟩ : BufTy).Contents (Elt F)),
    unary main_v328 main_v335 (broadcastInDim S2x100000x1 ![0, 1] bcast_S2x100000_S2x100000x1_0_1 : (⟨S2x100000, .i32⟩ : BufTy).Contents (Elt F) → (⟨S2x100000x1, .i32⟩ : BufTy).Contents (Elt F)),
    unary main_v333 main_v336 (broadcastInDim S2x100000x1 ![0, 1] bcast_S2x100000_S2x100000x1_0_1 : (⟨S2x100000, .i32⟩ : BufTy).Contents (Elt F) → (⟨S2x100000x1, .i32⟩ : BufTy).Contents (Elt F)),
    nary ![main_v334, main_v335, main_v336] main_v337 (fun u => concatenate S2x100000x3 2 [⟨S2x100000x1, u 0⟩, ⟨S2x100000x1, u 1⟩, ⟨S2x100000x1, u 2⟩] concatenates_S2x100000x1_S2x100000x1_S2x100000x1_S2x100000x3_d2),
    binary main_arg2 main_v337 main_v338 ((fun x i => Host.gather gather_S2x32x32x32x64_S2x100000x3_S2x100000x64_2_123_0_0_123_2_111164 x i) : (⟨S2x32x32x32x64, .f32⟩ : BufTy).Contents (Elt F) → (⟨S2x100000x3, .i32⟩ : BufTy).Contents (Elt F) → (⟨S2x100000x64, .f32⟩ : BufTy).Contents (Elt F)),
    nullary main_c_65 (constantI S_ 32 0#32),
    unary main_c_65 main_v339 (broadcastInDim S2x100000 ![] bcast_S_S2x100000 : (⟨S_, .i32⟩ : BufTy).Contents (Elt F) → (⟨S2x100000, .i32⟩ : BufTy).Contents (Elt F)),
    binary main_v269 main_v339 main_v340 (cmpi .slt : (⟨S2x100000, .i32⟩ : BufTy).Contents (Elt F) → (⟨S2x100000, .i32⟩ : BufTy).Contents (Elt F) → (⟨S2x100000, .i1⟩ : BufTy).Contents (Elt F)),
    nullary main_c_66 (constantI S_ 32 32#32),
    unary main_c_66 main_v341 (broadcastInDim S2x100000 ![] bcast_S_S2x100000 : (⟨S_, .i32⟩ : BufTy).Contents (Elt F) → (⟨S2x100000, .i32⟩ : BufTy).Contents (Elt F)),
    binary main_v269 main_v341 main_v342 (addi : (⟨S2x100000, .i32⟩ : BufTy).Contents (Elt F) → (⟨S2x100000, .i32⟩ : BufTy).Contents (Elt F) → (⟨S2x100000, .i32⟩ : BufTy).Contents (Elt F)),
    ternary main_v340 main_v342 main_v269 main_v343 (select : (⟨S2x100000, .i1⟩ : BufTy).Contents (Elt F) → (⟨S2x100000, .i32⟩ : BufTy).Contents (Elt F) → (⟨S2x100000, .i32⟩ : BufTy).Contents (Elt F) → (⟨S2x100000, .i32⟩ : BufTy).Contents (Elt F)),
    nullary main_c_67 (constantI S_ 32 0#32),
    unary main_c_67 main_v344 (broadcastInDim S2x100000 ![] bcast_S_S2x100000 : (⟨S_, .i32⟩ : BufTy).Contents (Elt F) → (⟨S2x100000, .i32⟩ : BufTy).Contents (Elt F)),
    binary main_v272 main_v344 main_v345 (cmpi .slt : (⟨S2x100000, .i32⟩ : BufTy).Contents (Elt F) → (⟨S2x100000, .i32⟩ : BufTy).Contents (Elt F) → (⟨S2x100000, .i1⟩ : BufTy).Contents (Elt F)),
    nullary main_c_68 (constantI S_ 32 32#32),
    unary main_c_68 main_v346 (broadcastInDim S2x100000 ![] bcast_S_S2x100000 : (⟨S_, .i32⟩ : BufTy).Contents (Elt F) → (⟨S2x100000, .i32⟩ : BufTy).Contents (Elt F)),
    binary main_v272 main_v346 main_v347 (addi : (⟨S2x100000, .i32⟩ : BufTy).Contents (Elt F) → (⟨S2x100000, .i32⟩ : BufTy).Contents (Elt F) → (⟨S2x100000, .i32⟩ : BufTy).Contents (Elt F)),
    ternary main_v345 main_v347 main_v272 main_v348 (select : (⟨S2x100000, .i1⟩ : BufTy).Contents (Elt F) → (⟨S2x100000, .i32⟩ : BufTy).Contents (Elt F) → (⟨S2x100000, .i32⟩ : BufTy).Contents (Elt F) → (⟨S2x100000, .i32⟩ : BufTy).Contents (Elt F)) ]

set_option maxRecDepth 8192 in
set_option maxHeartbeats 4000000 in
theorem main_part6_eq (c : Dev nD) : main_part6 (F := F) c = seq chunk6 := rfl

set_option maxRecDepth 8192 in
theorem chunk6_sub : (chunk6 : List (HloOp τ sig (Elt F))).Forall fun op => op.bufs ⊆ tcRefs τ sig :=
  ⟨ternary_bufs_sub .., nullary_bufs_sub .., unary_bufs_sub .., binary_bufs_sub .., nullary_bufs_sub .., unary_bufs_sub .., binary_bufs_sub .., ternary_bufs_sub .., nullary_bufs_sub .., unary_bufs_sub .., binary_bufs_sub .., nullary_bufs_sub .., unary_bufs_sub .., binary_bufs_sub .., ternary_bufs_sub .., unary_bufs_sub .., unary_bufs_sub .., unary_bufs_sub .., nary_bufs_sub .., binary_bufs_sub .., nullary_bufs_sub .., unary_bufs_sub .., binary_bufs_sub .., nullary_bufs_sub .., unary_bufs_sub .., binary_bufs_sub .., ternary_bufs_sub .., nullary_bufs_sub .., unary_bufs_sub .., binary_bufs_sub .., nullary_bufs_sub .., unary_bufs_sub .., binary_bufs_sub .., ternary_bufs_sub .., nullary_bufs_sub .., unary_bufs_sub .., binary_bufs_sub .., nullary_bufs_sub .., unary_bufs_sub .., binary_bufs_sub .., ternary_bufs_sub .., unary_bufs_sub .., unary_bufs_sub .., unary_bufs_sub .., nary_bufs_sub .., binary_bufs_sub .., nullary_bufs_sub .., unary_bufs_sub .., binary_bufs_sub .., nullary_bufs_sub .., unary_bufs_sub .., binary_bufs_sub .., ternary_bufs_sub .., nullary_bufs_sub .., unary_bufs_sub .., binary_bufs_sub .., nullary_bufs_sub .., unary_bufs_sub .., binary_bufs_sub .., ternary_bufs_sub ..⟩

set_option maxRecDepth 8192 in
theorem chunk6_fresh : (chunk6 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

/-- The references window 6 writes, in order. -/
abbrev WR6 : List (Ref sig .tc) :=
  [main_v303, main_c_55, main_v304, main_v305, main_c_56, main_v306, main_v307, main_v308, main_c_57, main_v309, main_v310, main_c_58, main_v311, main_v312, main_v313, main_v314, main_v315, main_v316, main_v317, main_v318, main_c_59, main_v319, main_v320, main_c_60, main_v321, main_v322, main_v323, main_c_61, main_v324, main_v325, main_c_62, main_v326, main_v327, main_v328, main_c_63, main_v329, main_v330, main_c_64, main_v331, main_v332, main_v333, main_v334, main_v335, main_v336, main_v337, main_v338, main_c_65, main_v339, main_v340, main_c_66, main_v341, main_v342, main_v343, main_c_67, main_v344, main_v345, main_c_68, main_v346, main_v347, main_v348]

set_option maxRecDepth 8192 in
theorem chunk6_writes : Cert.PeelLib.WritesIn (chunk6 : List (HloOp τ sig (Elt F))) WR6 :=
  Cert.PeelLib.writesIn_of_forall₂ (by (repeat (refine List.Forall₂.cons rfl ?_)); exact List.Forall₂.nil)

/-- The reference's operations 431 … 490 of 910, in order. -/
abbrev chunk7 : List (HloOp τ sig (Elt F)) :=
  [ nullary main_c_69 (constantI S_ 32 0#32),
    unary main_c_69 main_v349 (broadcastInDim S2x100000 ![] bcast_S_S2x100000 : (⟨S_, .i32⟩ : BufTy).Contents (Elt F) → (⟨S2x100000, .i32⟩ : BufTy).Contents (Elt F)),
    binary main_v273 main_v349 main_v350 (cmpi .slt : (⟨S2x100000, .i32⟩ : BufTy).Contents (Elt F) → (⟨S2x100000, .i32⟩ : BufTy).Contents (Elt F) → (⟨S2x100000, .i1⟩ : BufTy).Contents (Elt F)),
    nullary main_c_70 (constantI S_ 32 32#32),
    unary main_c_70 main_v351 (broadcastInDim S2x100000 ![] bcast_S_S2x100000 : (⟨S_, .i32⟩ : BufTy).Contents (Elt F) → (⟨S2x100000, .i32⟩ : BufTy).Contents (Elt F)),
    binary main_v273 main_v351 main_v352 (addi : (⟨S2x100000, .i32⟩ : BufTy).Contents (Elt F) → (⟨S2x100000, .i32⟩ : BufTy).Contents (Elt F) → (⟨S2x100000, .i32⟩ : BufTy).Contents (Elt F)),
    ternary main_v350 main_v352 main_v273 main_v353 (select : (⟨S2x100000, .i1⟩ : BufTy).Contents (Elt F) → (⟨S2x100000, .i32⟩ : BufTy).Contents (Elt F) → (⟨S2x100000, .i32⟩ : BufTy).Contents (Elt F) → (⟨S2x100000, .i32⟩ : BufTy).Contents (Elt F)),
    unary main_v343 main_v354 (broadcastInDim S2x100000x1 ![0, 1] bcast_S2x100000_S2x100000x1_0_1 : (⟨S2x100000, .i32⟩ : BufTy).Contents (Elt F) → (⟨S2x100000x1, .i32⟩ : BufTy).Contents (Elt F)),
    unary main_v348 main_v355 (broadcastInDim S2x100000x1 ![0, 1] bcast_S2x100000_S2x100000x1_0_1 : (⟨S2x100000, .i32⟩ : BufTy).Contents (Elt F) → (⟨S2x100000x1, .i32⟩ : BufTy).Contents (Elt F)),
    unary main_v353 main_v356 (broadcastInDim S2x100000x1 ![0, 1] bcast_S2x100000_S2x100000x1_0_1 : (⟨S2x100000, .i32⟩ : BufTy).Contents (Elt F) → (⟨S2x100000x1, .i32⟩ : BufTy).Contents (Elt F)),
    nary ![main_v354, main_v355, main_v356] main_v357 (fun u => concatenate S2x100000x3 2 [⟨S2x100000x1, u 0⟩, ⟨S2x100000x1, u 1⟩, ⟨S2x100000x1, u 2⟩] concatenates_S2x100000x1_S2x100000x1_S2x100000x1_S2x100000x3_d2),
    binary main_arg2 main_v357 main_v358 ((fun x i => Host.gather gather_S2x32x32x32x64_S2x100000x3_S2x100000x64_2_123_0_0_123_2_111164 x i) : (⟨S2x32x32x32x64, .f32⟩ : BufTy).Contents (Elt F) → (⟨S2x100000x3, .i32⟩ : BufTy).Contents (Elt F) → (⟨S2x100000x64, .f32⟩ : BufTy).Contents (Elt F)),
    nullary main_c_71 (constantI S_ 32 0#32),
    unary main_c_71 main_v359 (broadcastInDim S2x100000 ![] bcast_S_S2x100000 : (⟨S_, .i32⟩ : BufTy).Contents (Elt F) → (⟨S2x100000, .i32⟩ : BufTy).Contents (Elt F)),
    binary main_v270 main_v359 main_v360 (cmpi .slt : (⟨S2x100000, .i32⟩ : BufTy).Contents (Elt F) → (⟨S2x100000, .i32⟩ : BufTy).Contents (Elt F) → (⟨S2x100000, .i1⟩ : BufTy).Contents (Elt F)),
    nullary main_c_72 (constantI S_ 32 32#32),
    unary main_c_72 main_v361 (broadcastInDim S2x100000 ![] bcast_S_S2x100000 : (⟨S_, .i32⟩ : BufTy).Contents (Elt F) → (⟨S2x100000, .i32⟩ : BufTy).Contents (Elt F)),
    binary main_v270 main_v361 main_v362 (addi : (⟨S2x100000, .i32⟩ : BufTy).Contents (Elt F) → (⟨S2x100000, .i32⟩ : BufTy).Contents (Elt F) → (⟨S2x100000, .i32⟩ : BufTy).Contents (Elt F)),
    ternary main_v360 main_v362 main_v270 main_v363 (select : (⟨S2x100000, .i1⟩ : BufTy).Contents (Elt F) → (⟨S2x100000, .i32⟩ : BufTy).Contents (Elt F) → (⟨S2x100000, .i32⟩ : BufTy).Contents (Elt F) → (⟨S2x100000, .i32⟩ : BufTy).Contents (Elt F)),
    nullary main_c_73 (constantI S_ 32 0#32),
    unary main_c_73 main_v364 (broadcastInDim S2x100000 ![] bcast_S_S2x100000 : (⟨S_, .i32⟩ : BufTy).Contents (Elt F) → (⟨S2x100000, .i32⟩ : BufTy).Contents (Elt F)),
    binary main_v272 main_v364 main_v365 (cmpi .slt : (⟨S2x100000, .i32⟩ : BufTy).Contents (Elt F) → (⟨S2x100000, .i32⟩ : BufTy).Contents (Elt F) → (⟨S2x100000, .i1⟩ : BufTy).Contents (Elt F)),
    nullary main_c_74 (constantI S_ 32 32#32),
    unary main_c_74 main_v366 (broadcastInDim S2x100000 ![] bcast_S_S2x100000 : (⟨S_, .i32⟩ : BufTy).Contents (Elt F) → (⟨S2x100000, .i32⟩ : BufTy).Contents (Elt F)),
    binary main_v272 main_v366 main_v367 (addi : (⟨S2x100000, .i32⟩ : BufTy).Contents (Elt F) → (⟨S2x100000, .i32⟩ : BufTy).Contents (Elt F) → (⟨S2x100000, .i32⟩ : BufTy).Contents (Elt F)),
    ternary main_v365 main_v367 main_v272 main_v368 (select : (⟨S2x100000, .i1⟩ : BufTy).Contents (Elt F) → (⟨S2x100000, .i32⟩ : BufTy).Contents (Elt F) → (⟨S2x100000, .i32⟩ : BufTy).Contents (Elt F) → (⟨S2x100000, .i32⟩ : BufTy).Contents (Elt F)),
    nullary main_c_75 (constantI S_ 32 0#32),
    unary main_c_75 main_v369 (broadcastInDim S2x100000 ![] bcast_S_S2x100000 : (⟨S_, .i32⟩ : BufTy).Contents (Elt F) → (⟨S2x100000, .i32⟩ : BufTy).Contents (Elt F)),
    binary main_v273 main_v369 main_v370 (cmpi .slt : (⟨S2x100000, .i32⟩ : BufTy).Contents (Elt F) → (⟨S2x100000, .i32⟩ : BufTy).Contents (Elt F) → (⟨S2x100000, .i1⟩ : BufTy).Contents (Elt F)),
    nullary main_c_76 (constantI S_ 32 32#32),
    unary main_c_76 main_v371 (broadcastInDim S2x100000 ![] bcast_S_S2x100000 : (⟨S_, .i32⟩ : BufTy).Contents (Elt F) → (⟨S2x100000, .i32⟩ : BufTy).Contents (Elt F)),
    binary main_v273 main_v371 main_v372 (addi : (⟨S2x100000, .i32⟩ : BufTy).Contents (Elt F) → (⟨S2x100000, .i32⟩ : BufTy).Contents (Elt F) → (⟨S2x100000, .i32⟩ : BufTy).Contents (Elt F)),
    ternary main_v370 main_v372 main_v273 main_v373 (select : (⟨S2x100000, .i1⟩ : BufTy).Contents (Elt F) → (⟨S2x100000, .i32⟩ : BufTy).Contents (Elt F) → (⟨S2x100000, .i32⟩ : BufTy).Contents (Elt F) → (⟨S2x100000, .i32⟩ : BufTy).Contents (Elt F)),
    unary main_v363 main_v374 (broadcastInDim S2x100000x1 ![0, 1] bcast_S2x100000_S2x100000x1_0_1 : (⟨S2x100000, .i32⟩ : BufTy).Contents (Elt F) → (⟨S2x100000x1, .i32⟩ : BufTy).Contents (Elt F)),
    unary main_v368 main_v375 (broadcastInDim S2x100000x1 ![0, 1] bcast_S2x100000_S2x100000x1_0_1 : (⟨S2x100000, .i32⟩ : BufTy).Contents (Elt F) → (⟨S2x100000x1, .i32⟩ : BufTy).Contents (Elt F)),
    unary main_v373 main_v376 (broadcastInDim S2x100000x1 ![0, 1] bcast_S2x100000_S2x100000x1_0_1 : (⟨S2x100000, .i32⟩ : BufTy).Contents (Elt F) → (⟨S2x100000x1, .i32⟩ : BufTy).Contents (Elt F)),
    nary ![main_v374, main_v375, main_v376] main_v377 (fun u => concatenate S2x100000x3 2 [⟨S2x100000x1, u 0⟩, ⟨S2x100000x1, u 1⟩, ⟨S2x100000x1, u 2⟩] concatenates_S2x100000x1_S2x100000x1_S2x100000x1_S2x100000x3_d2),
    binary main_arg2 main_v377 main_v378 ((fun x i => Host.gather gather_S2x32x32x32x64_S2x100000x3_S2x100000x64_2_123_0_0_123_2_111164 x i) : (⟨S2x32x32x32x64, .f32⟩ : BufTy).Contents (Elt F) → (⟨S2x100000x3, .i32⟩ : BufTy).Contents (Elt F) → (⟨S2x100000x64, .f32⟩ : BufTy).Contents (Elt F)),
    unary main_v278 main_v379 (broadcastInDim S2x100000x64 ![0, 1, 2] bcast_S2x100000x1_S2x100000x64_0_1_2 : (⟨S2x100000x1, .f32⟩ : BufTy).Contents (Elt F) → (⟨S2x100000x64, .f32⟩ : BufTy).Contents (Elt F)),
    binary main_v378 main_v379 main_v380 (mulf : (⟨S2x100000x64, .f32⟩ : BufTy).Contents (Elt F) → (⟨S2x100000x64, .f32⟩ : BufTy).Contents (Elt F) → (⟨S2x100000x64, .f32⟩ : BufTy).Contents (Elt F)),
    unary main_v282 main_v381 (broadcastInDim S2x100000x64 ![0, 1, 2] bcast_S2x100000x1_S2x100000x64_0_1_2 : (⟨S2x100000x1, .f32⟩ : BufTy).Contents (Elt F) → (⟨S2x100000x64, .f32⟩ : BufTy).Contents (Elt F)),
    binary main_v358 main_v381 main_v382 (mulf : (⟨S2x100000x64, .f32⟩ : BufTy).Contents (Elt F) → (⟨S2x100000x64, .f32⟩ : BufTy).Contents (Elt F) → (⟨S2x100000x64, .f32⟩ : BufTy).Contents (Elt F)),
    binary main_v380 main_v382 main_v383 (addf : (⟨S2x100000x64, .f32⟩ : BufTy).Contents (Elt F) → (⟨S2x100000x64, .f32⟩ : BufTy).Contents (Elt F) → (⟨S2x100000x64, .f32⟩ : BufTy).Contents (Elt F)),
    unary main_v286 main_v384 (broadcastInDim S2x100000x64 ![0, 1, 2] bcast_S2x100000x1_S2x100000x64_0_1_2 : (⟨S2x100000x1, .f32⟩ : BufTy).Contents (Elt F) → (⟨S2x100000x64, .f32⟩ : BufTy).Contents (Elt F)),
    binary main_v383 main_v384 main_v385 (mulf : (⟨S2x100000x64, .f32⟩ : BufTy).Contents (Elt F) → (⟨S2x100000x64, .f32⟩ : BufTy).Contents (Elt F) → (⟨S2x100000x64, .f32⟩ : BufTy).Contents (Elt F)),
    unary main_v278 main_v386 (broadcastInDim S2x100000x64 ![0, 1, 2] bcast_S2x100000x1_S2x100000x64_0_1_2 : (⟨S2x100000x1, .f32⟩ : BufTy).Contents (Elt F) → (⟨S2x100000x64, .f32⟩ : BufTy).Contents (Elt F)),
    binary main_v338 main_v386 main_v387 (mulf : (⟨S2x100000x64, .f32⟩ : BufTy).Contents (Elt F) → (⟨S2x100000x64, .f32⟩ : BufTy).Contents (Elt F) → (⟨S2x100000x64, .f32⟩ : BufTy).Contents (Elt F)),
    unary main_v282 main_v388 (broadcastInDim S2x100000x64 ![0, 1, 2] bcast_S2x100000x1_S2x100000x64_0_1_2 : (⟨S2x100000x1, .f32⟩ : BufTy).Contents (Elt F) → (⟨S2x100000x64, .f32⟩ : BufTy).Contents (Elt F)),
    binary main_v318 main_v388 main_v389 (mulf : (⟨S2x100000x64, .f32⟩ : BufTy).Contents (Elt F) → (⟨S2x100000x64, .f32⟩ : BufTy).Contents (Elt F) → (⟨S2x100000x64, .f32⟩ : BufTy).Contents (Elt F)),
    binary main_v387 main_v389 main_v390 (addf : (⟨S2x100000x64, .f32⟩ : BufTy).Contents (Elt F) → (⟨S2x100000x64, .f32⟩ : BufTy).Contents (Elt F) → (⟨S2x100000x64, .f32⟩ : BufTy).Contents (Elt F)),
    unary main_v290 main_v391 (broadcastInDim S2x100000x64 ![0, 1, 2] bcast_S2x100000x1_S2x100000x64_0_1_2 : (⟨S2x100000x1, .f32⟩ : BufTy).Contents (Elt F) → (⟨S2x100000x64, .f32⟩ : BufTy).Contents (Elt F)),
    binary main_v390 main_v391 main_v392 (mulf : (⟨S2x100000x64, .f32⟩ : BufTy).Contents (Elt F) → (⟨S2x100000x64, .f32⟩ : BufTy).Contents (Elt F) → (⟨S2x100000x64, .f32⟩ : BufTy).Contents (Elt F)),
    binary main_v385 main_v392 main_v393 (addf : (⟨S2x100000x64, .f32⟩ : BufTy).Contents (Elt F) → (⟨S2x100000x64, .f32⟩ : BufTy).Contents (Elt F) → (⟨S2x100000x64, .f32⟩ : BufTy).Contents (Elt F)),
    nullary main_c_77 (constantI S_ 32 0#32),
    unary main_c_77 main_v394 (broadcastInDim S2x100000 ![] bcast_S_S2x100000 : (⟨S_, .i32⟩ : BufTy).Contents (Elt F) → (⟨S2x100000, .i32⟩ : BufTy).Contents (Elt F)),
    binary main_v269 main_v394 main_v395 (cmpi .slt : (⟨S2x100000, .i32⟩ : BufTy).Contents (Elt F) → (⟨S2x100000, .i32⟩ : BufTy).Contents (Elt F) → (⟨S2x100000, .i1⟩ : BufTy).Contents (Elt F)),
    nullary main_c_78 (constantI S_ 32 32#32),
    unary main_c_78 main_v396 (broadcastInDim S2x100000 ![] bcast_S_S2x100000 : (⟨S_, .i32⟩ : BufTy).Contents (Elt F) → (⟨S2x100000, .i32⟩ : BufTy).Contents (Elt F)),
    binary main_v269 main_v396 main_v397 (addi : (⟨S2x100000, .i32⟩ : BufTy).Contents (Elt F) → (⟨S2x100000, .i32⟩ : BufTy).Contents (Elt F) → (⟨S2x100000, .i32⟩ : BufTy).Contents (Elt F)),
    ternary main_v395 main_v397 main_v269 main_v398 (select : (⟨S2x100000, .i1⟩ : BufTy).Contents (Elt F) → (⟨S2x100000, .i32⟩ : BufTy).Contents (Elt F) → (⟨S2x100000, .i32⟩ : BufTy).Contents (Elt F) → (⟨S2x100000, .i32⟩ : BufTy).Contents (Elt F)) ]

set_option maxRecDepth 8192 in
set_option maxHeartbeats 4000000 in
theorem main_part7_eq (c : Dev nD) : main_part7 (F := F) c = seq chunk7 := rfl

set_option maxRecDepth 8192 in
theorem chunk7_sub : (chunk7 : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., unary_bufs_sub .., unary_bufs_sub .., unary_bufs_sub .., nary_bufs_sub .., binary_bufs_sub .., nullary_bufs_sub .., unary_bufs_sub .., binary_bufs_sub .., nullary_bufs_sub .., unary_bufs_sub .., binary_bufs_sub .., ternary_bufs_sub .., nullary_bufs_sub .., unary_bufs_sub .., binary_bufs_sub .., nullary_bufs_sub .., unary_bufs_sub .., binary_bufs_sub .., ternary_bufs_sub .., nullary_bufs_sub .., unary_bufs_sub .., binary_bufs_sub .., nullary_bufs_sub .., unary_bufs_sub .., binary_bufs_sub .., ternary_bufs_sub .., unary_bufs_sub .., unary_bufs_sub .., unary_bufs_sub .., nary_bufs_sub .., binary_bufs_sub .., unary_bufs_sub .., binary_bufs_sub .., unary_bufs_sub .., binary_bufs_sub .., binary_bufs_sub .., unary_bufs_sub .., binary_bufs_sub .., unary_bufs_sub .., binary_bufs_sub .., unary_bufs_sub .., binary_bufs_sub .., binary_bufs_sub .., unary_bufs_sub .., binary_bufs_sub .., binary_bufs_sub .., nullary_bufs_sub .., unary_bufs_sub .., binary_bufs_sub .., nullary_bufs_sub .., unary_bufs_sub .., binary_bufs_sub .., ternary_bufs_sub ..⟩

set_option maxRecDepth 8192 in
theorem chunk7_fresh : (chunk7 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

/-- The references window 7 writes, in order. -/
abbrev WR7 : List (Ref sig .tc) :=
  [main_c_69, main_v349, main_v350, main_c_70, main_v351, main_v352, main_v353, main_v354, main_v355, main_v356, main_v357, main_v358, main_c_71, main_v359, main_v360, main_c_72, main_v361, main_v362, main_v363, main_c_73, main_v364, main_v365, main_c_74, main_v366, main_v367, main_v368, main_c_75, main_v369, main_v370, main_c_76, main_v371, main_v372, main_v373, main_v374, main_v375, main_v376, main_v377, main_v378, main_v379, main_v380, main_v381, main_v382, main_v383, main_v384, main_v385, main_v386, main_v387, main_v388, main_v389, main_v390, main_v391, main_v392, main_v393, main_c_77, main_v394, main_v395, main_c_78, main_v396, main_v397, main_v398]

set_option maxRecDepth 8192 in
theorem chunk7_writes : Cert.PeelLib.WritesIn (chunk7 : List (HloOp τ sig (Elt F))) WR7 :=
  Cert.PeelLib.writesIn_of_forall₂ (by (repeat (refine List.Forall₂.cons rfl ?_)); exact List.Forall₂.nil)

/-- The reference's operations 491 … 550 of 910, in order. -/
abbrev chunk8 : List (HloOp τ sig (Elt F)) :=
  [ nullary main_c_79 (constantI S_ 32 0#32),
    unary main_c_79 main_v399 (broadcastInDim S2x100000 ![] bcast_S_S2x100000 : (⟨S_, .i32⟩ : BufTy).Contents (Elt F) → (⟨S2x100000, .i32⟩ : BufTy).Contents (Elt F)),
    binary main_v271 main_v399 main_v400 (cmpi .slt : (⟨S2x100000, .i32⟩ : BufTy).Contents (Elt F) → (⟨S2x100000, .i32⟩ : BufTy).Contents (Elt F) → (⟨S2x100000, .i1⟩ : BufTy).Contents (Elt F)),
    nullary main_c_80 (constantI S_ 32 32#32),
    unary main_c_80 main_v401 (broadcastInDim S2x100000 ![] bcast_S_S2x100000 : (⟨S_, .i32⟩ : BufTy).Contents (Elt F) → (⟨S2x100000, .i32⟩ : BufTy).Contents (Elt F)),
    binary main_v271 main_v401 main_v402 (addi : (⟨S2x100000, .i32⟩ : BufTy).Contents (Elt F) → (⟨S2x100000, .i32⟩ : BufTy).Contents (Elt F) → (⟨S2x100000, .i32⟩ : BufTy).Contents (Elt F)),
    ternary main_v400 main_v402 main_v271 main_v403 (select : (⟨S2x100000, .i1⟩ : BufTy).Contents (Elt F) → (⟨S2x100000, .i32⟩ : BufTy).Contents (Elt F) → (⟨S2x100000, .i32⟩ : BufTy).Contents (Elt F) → (⟨S2x100000, .i32⟩ : BufTy).Contents (Elt F)),
    nullary main_c_81 (constantI S_ 32 0#32),
    unary main_c_81 main_v404 (broadcastInDim S2x100000 ![] bcast_S_S2x100000 : (⟨S_, .i32⟩ : BufTy).Contents (Elt F) → (⟨S2x100000, .i32⟩ : BufTy).Contents (Elt F)),
    binary main_v274 main_v404 main_v405 (cmpi .slt : (⟨S2x100000, .i32⟩ : BufTy).Contents (Elt F) → (⟨S2x100000, .i32⟩ : BufTy).Contents (Elt F) → (⟨S2x100000, .i1⟩ : BufTy).Contents (Elt F)),
    nullary main_c_82 (constantI S_ 32 32#32),
    unary main_c_82 main_v406 (broadcastInDim S2x100000 ![] bcast_S_S2x100000 : (⟨S_, .i32⟩ : BufTy).Contents (Elt F) → (⟨S2x100000, .i32⟩ : BufTy).Contents (Elt F)),
    binary main_v274 main_v406 main_v407 (addi : (⟨S2x100000, .i32⟩ : BufTy).Contents (Elt F) → (⟨S2x100000, .i32⟩ : BufTy).Contents (Elt F) → (⟨S2x100000, .i32⟩ : BufTy).Contents (Elt F)),
    ternary main_v405 main_v407 main_v274 main_v408 (select : (⟨S2x100000, .i1⟩ : BufTy).Contents (Elt F) → (⟨S2x100000, .i32⟩ : BufTy).Contents (Elt F) → (⟨S2x100000, .i32⟩ : BufTy).Contents (Elt F) → (⟨S2x100000, .i32⟩ : BufTy).Contents (Elt F)),
    unary main_v398 main_v409 (broadcastInDim S2x100000x1 ![0, 1] bcast_S2x100000_S2x100000x1_0_1 : (⟨S2x100000, .i32⟩ : BufTy).Contents (Elt F) → (⟨S2x100000x1, .i32⟩ : BufTy).Contents (Elt F)),
    unary main_v403 main_v410 (broadcastInDim S2x100000x1 ![0, 1] bcast_S2x100000_S2x100000x1_0_1 : (⟨S2x100000, .i32⟩ : BufTy).Contents (Elt F) → (⟨S2x100000x1, .i32⟩ : BufTy).Contents (Elt F)),
    unary main_v408 main_v411 (broadcastInDim S2x100000x1 ![0, 1] bcast_S2x100000_S2x100000x1_0_1 : (⟨S2x100000, .i32⟩ : BufTy).Contents (Elt F) → (⟨S2x100000x1, .i32⟩ : BufTy).Contents (Elt F)),
    nary ![main_v409, main_v410, main_v411] main_v412 (fun u => concatenate S2x100000x3 2 [⟨S2x100000x1, u 0⟩, ⟨S2x100000x1, u 1⟩, ⟨S2x100000x1, u 2⟩] concatenates_S2x100000x1_S2x100000x1_S2x100000x1_S2x100000x3_d2),
    binary main_arg2 main_v412 main_v413 ((fun x i => Host.gather gather_S2x32x32x32x64_S2x100000x3_S2x100000x64_2_123_0_0_123_2_111164 x i) : (⟨S2x32x32x32x64, .f32⟩ : BufTy).Contents (Elt F) → (⟨S2x100000x3, .i32⟩ : BufTy).Contents (Elt F) → (⟨S2x100000x64, .f32⟩ : BufTy).Contents (Elt F)),
    nullary main_c_83 (constantI S_ 32 0#32),
    unary main_c_83 main_v414 (broadcastInDim S2x100000 ![] bcast_S_S2x100000 : (⟨S_, .i32⟩ : BufTy).Contents (Elt F) → (⟨S2x100000, .i32⟩ : BufTy).Contents (Elt F)),
    binary main_v270 main_v414 main_v415 (cmpi .slt : (⟨S2x100000, .i32⟩ : BufTy).Contents (Elt F) → (⟨S2x100000, .i32⟩ : BufTy).Contents (Elt F) → (⟨S2x100000, .i1⟩ : BufTy).Contents (Elt F)),
    nullary main_c_84 (constantI S_ 32 32#32),
    unary main_c_84 main_v416 (broadcastInDim S2x100000 ![] bcast_S_S2x100000 : (⟨S_, .i32⟩ : BufTy).Contents (Elt F) → (⟨S2x100000, .i32⟩ : BufTy).Contents (Elt F)),
    binary main_v270 main_v416 main_v417 (addi : (⟨S2x100000, .i32⟩ : BufTy).Contents (Elt F) → (⟨S2x100000, .i32⟩ : BufTy).Contents (Elt F) → (⟨S2x100000, .i32⟩ : BufTy).Contents (Elt F)),
    ternary main_v415 main_v417 main_v270 main_v418 (select : (⟨S2x100000, .i1⟩ : BufTy).Contents (Elt F) → (⟨S2x100000, .i32⟩ : BufTy).Contents (Elt F) → (⟨S2x100000, .i32⟩ : BufTy).Contents (Elt F) → (⟨S2x100000, .i32⟩ : BufTy).Contents (Elt F)),
    nullary main_c_85 (constantI S_ 32 0#32),
    unary main_c_85 main_v419 (broadcastInDim S2x100000 ![] bcast_S_S2x100000 : (⟨S_, .i32⟩ : BufTy).Contents (Elt F) → (⟨S2x100000, .i32⟩ : BufTy).Contents (Elt F)),
    binary main_v271 main_v419 main_v420 (cmpi .slt : (⟨S2x100000, .i32⟩ : BufTy).Contents (Elt F) → (⟨S2x100000, .i32⟩ : BufTy).Contents (Elt F) → (⟨S2x100000, .i1⟩ : BufTy).Contents (Elt F)),
    nullary main_c_86 (constantI S_ 32 32#32),
    unary main_c_86 main_v421 (broadcastInDim S2x100000 ![] bcast_S_S2x100000 : (⟨S_, .i32⟩ : BufTy).Contents (Elt F) → (⟨S2x100000, .i32⟩ : BufTy).Contents (Elt F)),
    binary main_v271 main_v421 main_v422 (addi : (⟨S2x100000, .i32⟩ : BufTy).Contents (Elt F) → (⟨S2x100000, .i32⟩ : BufTy).Contents (Elt F) → (⟨S2x100000, .i32⟩ : BufTy).Contents (Elt F)),
    ternary main_v420 main_v422 main_v271 main_v423 (select : (⟨S2x100000, .i1⟩ : BufTy).Contents (Elt F) → (⟨S2x100000, .i32⟩ : BufTy).Contents (Elt F) → (⟨S2x100000, .i32⟩ : BufTy).Contents (Elt F) → (⟨S2x100000, .i32⟩ : BufTy).Contents (Elt F)),
    nullary main_c_87 (constantI S_ 32 0#32),
    unary main_c_87 main_v424 (broadcastInDim S2x100000 ![] bcast_S_S2x100000 : (⟨S_, .i32⟩ : BufTy).Contents (Elt F) → (⟨S2x100000, .i32⟩ : BufTy).Contents (Elt F)),
    binary main_v274 main_v424 main_v425 (cmpi .slt : (⟨S2x100000, .i32⟩ : BufTy).Contents (Elt F) → (⟨S2x100000, .i32⟩ : BufTy).Contents (Elt F) → (⟨S2x100000, .i1⟩ : BufTy).Contents (Elt F)),
    nullary main_c_88 (constantI S_ 32 32#32),
    unary main_c_88 main_v426 (broadcastInDim S2x100000 ![] bcast_S_S2x100000 : (⟨S_, .i32⟩ : BufTy).Contents (Elt F) → (⟨S2x100000, .i32⟩ : BufTy).Contents (Elt F)),
    binary main_v274 main_v426 main_v427 (addi : (⟨S2x100000, .i32⟩ : BufTy).Contents (Elt F) → (⟨S2x100000, .i32⟩ : BufTy).Contents (Elt F) → (⟨S2x100000, .i32⟩ : BufTy).Contents (Elt F)),
    ternary main_v425 main_v427 main_v274 main_v428 (select : (⟨S2x100000, .i1⟩ : BufTy).Contents (Elt F) → (⟨S2x100000, .i32⟩ : BufTy).Contents (Elt F) → (⟨S2x100000, .i32⟩ : BufTy).Contents (Elt F) → (⟨S2x100000, .i32⟩ : BufTy).Contents (Elt F)),
    unary main_v418 main_v429 (broadcastInDim S2x100000x1 ![0, 1] bcast_S2x100000_S2x100000x1_0_1 : (⟨S2x100000, .i32⟩ : BufTy).Contents (Elt F) → (⟨S2x100000x1, .i32⟩ : BufTy).Contents (Elt F)),
    unary main_v423 main_v430 (broadcastInDim S2x100000x1 ![0, 1] bcast_S2x100000_S2x100000x1_0_1 : (⟨S2x100000, .i32⟩ : BufTy).Contents (Elt F) → (⟨S2x100000x1, .i32⟩ : BufTy).Contents (Elt F)),
    unary main_v428 main_v431 (broadcastInDim S2x100000x1 ![0, 1] bcast_S2x100000_S2x100000x1_0_1 : (⟨S2x100000, .i32⟩ : BufTy).Contents (Elt F) → (⟨S2x100000x1, .i32⟩ : BufTy).Contents (Elt F)),
    nary ![main_v429, main_v430, main_v431] main_v432 (fun u => concatenate S2x100000x3 2 [⟨S2x100000x1, u 0⟩, ⟨S2x100000x1, u 1⟩, ⟨S2x100000x1, u 2⟩] concatenates_S2x100000x1_S2x100000x1_S2x100000x1_S2x100000x3_d2),
    binary main_arg2 main_v432 main_v433 ((fun x i => Host.gather gather_S2x32x32x32x64_S2x100000x3_S2x100000x64_2_123_0_0_123_2_111164 x i) : (⟨S2x32x32x32x64, .f32⟩ : BufTy).Contents (Elt F) → (⟨S2x100000x3, .i32⟩ : BufTy).Contents (Elt F) → (⟨S2x100000x64, .f32⟩ : BufTy).Contents (Elt F)),
    nullary main_c_89 (constantI S_ 32 0#32),
    unary main_c_89 main_v434 (broadcastInDim S2x100000 ![] bcast_S_S2x100000 : (⟨S_, .i32⟩ : BufTy).Contents (Elt F) → (⟨S2x100000, .i32⟩ : BufTy).Contents (Elt F)),
    binary main_v269 main_v434 main_v435 (cmpi .slt : (⟨S2x100000, .i32⟩ : BufTy).Contents (Elt F) → (⟨S2x100000, .i32⟩ : BufTy).Contents (Elt F) → (⟨S2x100000, .i1⟩ : BufTy).Contents (Elt F)),
    nullary main_c_90 (constantI S_ 32 32#32),
    unary main_c_90 main_v436 (broadcastInDim S2x100000 ![] bcast_S_S2x100000 : (⟨S_, .i32⟩ : BufTy).Contents (Elt F) → (⟨S2x100000, .i32⟩ : BufTy).Contents (Elt F)),
    binary main_v269 main_v436 main_v437 (addi : (⟨S2x100000, .i32⟩ : BufTy).Contents (Elt F) → (⟨S2x100000, .i32⟩ : BufTy).Contents (Elt F) → (⟨S2x100000, .i32⟩ : BufTy).Contents (Elt F)),
    ternary main_v435 main_v437 main_v269 main_v438 (select : (⟨S2x100000, .i1⟩ : BufTy).Contents (Elt F) → (⟨S2x100000, .i32⟩ : BufTy).Contents (Elt F) → (⟨S2x100000, .i32⟩ : BufTy).Contents (Elt F) → (⟨S2x100000, .i32⟩ : BufTy).Contents (Elt F)),
    nullary main_c_91 (constantI S_ 32 0#32),
    unary main_c_91 main_v439 (broadcastInDim S2x100000 ![] bcast_S_S2x100000 : (⟨S_, .i32⟩ : BufTy).Contents (Elt F) → (⟨S2x100000, .i32⟩ : BufTy).Contents (Elt F)),
    binary main_v272 main_v439 main_v440 (cmpi .slt : (⟨S2x100000, .i32⟩ : BufTy).Contents (Elt F) → (⟨S2x100000, .i32⟩ : BufTy).Contents (Elt F) → (⟨S2x100000, .i1⟩ : BufTy).Contents (Elt F)),
    nullary main_c_92 (constantI S_ 32 32#32),
    unary main_c_92 main_v441 (broadcastInDim S2x100000 ![] bcast_S_S2x100000 : (⟨S_, .i32⟩ : BufTy).Contents (Elt F) → (⟨S2x100000, .i32⟩ : BufTy).Contents (Elt F)),
    binary main_v272 main_v441 main_v442 (addi : (⟨S2x100000, .i32⟩ : BufTy).Contents (Elt F) → (⟨S2x100000, .i32⟩ : BufTy).Contents (Elt F) → (⟨S2x100000, .i32⟩ : BufTy).Contents (Elt F)),
    ternary main_v440 main_v442 main_v272 main_v443 (select : (⟨S2x100000, .i1⟩ : BufTy).Contents (Elt F) → (⟨S2x100000, .i32⟩ : BufTy).Contents (Elt F) → (⟨S2x100000, .i32⟩ : BufTy).Contents (Elt F) → (⟨S2x100000, .i32⟩ : BufTy).Contents (Elt F)),
    nullary main_c_93 (constantI S_ 32 0#32) ]

set_option maxRecDepth 8192 in
set_option maxHeartbeats 4000000 in
theorem main_part8_eq (c : Dev nD) : main_part8 (F := F) c = seq chunk8 := rfl

set_option maxRecDepth 8192 in
theorem chunk8_sub : (chunk8 : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., nullary_bufs_sub .., unary_bufs_sub .., binary_bufs_sub .., nullary_bufs_sub .., unary_bufs_sub .., binary_bufs_sub .., ternary_bufs_sub .., unary_bufs_sub .., unary_bufs_sub .., unary_bufs_sub .., nary_bufs_sub .., binary_bufs_sub .., nullary_bufs_sub .., unary_bufs_sub .., binary_bufs_sub .., nullary_bufs_sub .., unary_bufs_sub .., binary_bufs_sub .., ternary_bufs_sub .., nullary_bufs_sub .., unary_bufs_sub .., binary_bufs_sub .., nullary_bufs_sub .., unary_bufs_sub .., binary_bufs_sub .., ternary_bufs_sub .., nullary_bufs_sub .., unary_bufs_sub .., binary_bufs_sub .., nullary_bufs_sub .., unary_bufs_sub .., binary_bufs_sub .., ternary_bufs_sub .., unary_bufs_sub .., unary_bufs_sub .., unary_bufs_sub .., nary_bufs_sub .., binary_bufs_sub .., nullary_bufs_sub .., unary_bufs_sub .., binary_bufs_sub .., nullary_bufs_sub .., unary_bufs_sub .., binary_bufs_sub .., ternary_bufs_sub .., nullary_bufs_sub .., unary_bufs_sub .., binary_bufs_sub .., nullary_bufs_sub .., unary_bufs_sub .., binary_bufs_sub .., ternary_bufs_sub .., nullary_bufs_sub ..⟩

set_option maxRecDepth 8192 in
theorem chunk8_fresh : (chunk8 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

/-- The references window 8 writes, in order. -/
abbrev WR8 : List (Ref sig .tc) :=
  [main_c_79, main_v399, main_v400, main_c_80, main_v401, main_v402, main_v403, main_c_81, main_v404, main_v405, main_c_82, main_v406, main_v407, main_v408, main_v409, main_v410, main_v411, main_v412, main_v413, main_c_83, main_v414, main_v415, main_c_84, main_v416, main_v417, main_v418, main_c_85, main_v419, main_v420, main_c_86, main_v421, main_v422, main_v423, main_c_87, main_v424, main_v425, main_c_88, main_v426, main_v427, main_v428, main_v429, main_v430, main_v431, main_v432, main_v433, main_c_89, main_v434, main_v435, main_c_90, main_v436, main_v437, main_v438, main_c_91, main_v439, main_v440, main_c_92, main_v441, main_v442, main_v443, main_c_93]

set_option maxRecDepth 8192 in
theorem chunk8_writes : Cert.PeelLib.WritesIn (chunk8 : List (HloOp τ sig (Elt F))) WR8 :=
  Cert.PeelLib.writesIn_of_forall₂ (by (repeat (refine List.Forall₂.cons rfl ?_)); exact List.Forall₂.nil)

/-- The reference's operations 551 … 610 of 910, in order. -/
abbrev chunk9 : List (HloOp τ sig (Elt F)) :=
  [ unary main_c_93 main_v444 (broadcastInDim S2x100000 ![] bcast_S_S2x100000 : (⟨S_, .i32⟩ : BufTy).Contents (Elt F) → (⟨S2x100000, .i32⟩ : BufTy).Contents (Elt F)),
    binary main_v274 main_v444 main_v445 (cmpi .slt : (⟨S2x100000, .i32⟩ : BufTy).Contents (Elt F) → (⟨S2x100000, .i32⟩ : BufTy).Contents (Elt F) → (⟨S2x100000, .i1⟩ : BufTy).Contents (Elt F)),
    nullary main_c_94 (constantI S_ 32 32#32),
    unary main_c_94 main_v446 (broadcastInDim S2x100000 ![] bcast_S_S2x100000 : (⟨S_, .i32⟩ : BufTy).Contents (Elt F) → (⟨S2x100000, .i32⟩ : BufTy).Contents (Elt F)),
    binary main_v274 main_v446 main_v447 (addi : (⟨S2x100000, .i32⟩ : BufTy).Contents (Elt F) → (⟨S2x100000, .i32⟩ : BufTy).Contents (Elt F) → (⟨S2x100000, .i32⟩ : BufTy).Contents (Elt F)),
    ternary main_v445 main_v447 main_v274 main_v448 (select : (⟨S2x100000, .i1⟩ : BufTy).Contents (Elt F) → (⟨S2x100000, .i32⟩ : BufTy).Contents (Elt F) → (⟨S2x100000, .i32⟩ : BufTy).Contents (Elt F) → (⟨S2x100000, .i32⟩ : BufTy).Contents (Elt F)),
    unary main_v438 main_v449 (broadcastInDim S2x100000x1 ![0, 1] bcast_S2x100000_S2x100000x1_0_1 : (⟨S2x100000, .i32⟩ : BufTy).Contents (Elt F) → (⟨S2x100000x1, .i32⟩ : BufTy).Contents (Elt F)),
    unary main_v443 main_v450 (broadcastInDim S2x100000x1 ![0, 1] bcast_S2x100000_S2x100000x1_0_1 : (⟨S2x100000, .i32⟩ : BufTy).Contents (Elt F) → (⟨S2x100000x1, .i32⟩ : BufTy).Contents (Elt F)),
    unary main_v448 main_v451 (broadcastInDim S2x100000x1 ![0, 1] bcast_S2x100000_S2x100000x1_0_1 : (⟨S2x100000, .i32⟩ : BufTy).Contents (Elt F) → (⟨S2x100000x1, .i32⟩ : BufTy).Contents (Elt F)),
    nary ![main_v449, main_v450, main_v451] main_v452 (fun u => concatenate S2x100000x3 2 [⟨S2x100000x1, u 0⟩, ⟨S2x100000x1, u 1⟩, ⟨S2x100000x1, u 2⟩] concatenates_S2x100000x1_S2x100000x1_S2x100000x1_S2x100000x3_d2),
    binary main_arg2 main_v452 main_v453 ((fun x i => Host.gather gather_S2x32x32x32x64_S2x100000x3_S2x100000x64_2_123_0_0_123_2_111164 x i) : (⟨S2x32x32x32x64, .f32⟩ : BufTy).Contents (Elt F) → (⟨S2x100000x3, .i32⟩ : BufTy).Contents (Elt F) → (⟨S2x100000x64, .f32⟩ : BufTy).Contents (Elt F)),
    nullary main_c_95 (constantI S_ 32 0#32),
    unary main_c_95 main_v454 (broadcastInDim S2x100000 ![] bcast_S_S2x100000 : (⟨S_, .i32⟩ : BufTy).Contents (Elt F) → (⟨S2x100000, .i32⟩ : BufTy).Contents (Elt F)),
    binary main_v270 main_v454 main_v455 (cmpi .slt : (⟨S2x100000, .i32⟩ : BufTy).Contents (Elt F) → (⟨S2x100000, .i32⟩ : BufTy).Contents (Elt F) → (⟨S2x100000, .i1⟩ : BufTy).Contents (Elt F)),
    nullary main_c_96 (constantI S_ 32 32#32),
    unary main_c_96 main_v456 (broadcastInDim S2x100000 ![] bcast_S_S2x100000 : (⟨S_, .i32⟩ : BufTy).Contents (Elt F) → (⟨S2x100000, .i32⟩ : BufTy).Contents (Elt F)),
    binary main_v270 main_v456 main_v457 (addi : (⟨S2x100000, .i32⟩ : BufTy).Contents (Elt F) → (⟨S2x100000, .i32⟩ : BufTy).Contents (Elt F) → (⟨S2x100000, .i32⟩ : BufTy).Contents (Elt F)),
    ternary main_v455 main_v457 main_v270 main_v458 (select : (⟨S2x100000, .i1⟩ : BufTy).Contents (Elt F) → (⟨S2x100000, .i32⟩ : BufTy).Contents (Elt F) → (⟨S2x100000, .i32⟩ : BufTy).Contents (Elt F) → (⟨S2x100000, .i32⟩ : BufTy).Contents (Elt F)),
    nullary main_c_97 (constantI S_ 32 0#32),
    unary main_c_97 main_v459 (broadcastInDim S2x100000 ![] bcast_S_S2x100000 : (⟨S_, .i32⟩ : BufTy).Contents (Elt F) → (⟨S2x100000, .i32⟩ : BufTy).Contents (Elt F)),
    binary main_v272 main_v459 main_v460 (cmpi .slt : (⟨S2x100000, .i32⟩ : BufTy).Contents (Elt F) → (⟨S2x100000, .i32⟩ : BufTy).Contents (Elt F) → (⟨S2x100000, .i1⟩ : BufTy).Contents (Elt F)),
    nullary main_c_98 (constantI S_ 32 32#32),
    unary main_c_98 main_v461 (broadcastInDim S2x100000 ![] bcast_S_S2x100000 : (⟨S_, .i32⟩ : BufTy).Contents (Elt F) → (⟨S2x100000, .i32⟩ : BufTy).Contents (Elt F)),
    binary main_v272 main_v461 main_v462 (addi : (⟨S2x100000, .i32⟩ : BufTy).Contents (Elt F) → (⟨S2x100000, .i32⟩ : BufTy).Contents (Elt F) → (⟨S2x100000, .i32⟩ : BufTy).Contents (Elt F)),
    ternary main_v460 main_v462 main_v272 main_v463 (select : (⟨S2x100000, .i1⟩ : BufTy).Contents (Elt F) → (⟨S2x100000, .i32⟩ : BufTy).Contents (Elt F) → (⟨S2x100000, .i32⟩ : BufTy).Contents (Elt F) → (⟨S2x100000, .i32⟩ : BufTy).Contents (Elt F)),
    nullary main_c_99 (constantI S_ 32 0#32),
    unary main_c_99 main_v464 (broadcastInDim S2x100000 ![] bcast_S_S2x100000 : (⟨S_, .i32⟩ : BufTy).Contents (Elt F) → (⟨S2x100000, .i32⟩ : BufTy).Contents (Elt F)),
    binary main_v274 main_v464 main_v465 (cmpi .slt : (⟨S2x100000, .i32⟩ : BufTy).Contents (Elt F) → (⟨S2x100000, .i32⟩ : BufTy).Contents (Elt F) → (⟨S2x100000, .i1⟩ : BufTy).Contents (Elt F)),
    nullary main_c_100 (constantI S_ 32 32#32),
    unary main_c_100 main_v466 (broadcastInDim S2x100000 ![] bcast_S_S2x100000 : (⟨S_, .i32⟩ : BufTy).Contents (Elt F) → (⟨S2x100000, .i32⟩ : BufTy).Contents (Elt F)),
    binary main_v274 main_v466 main_v467 (addi : (⟨S2x100000, .i32⟩ : BufTy).Contents (Elt F) → (⟨S2x100000, .i32⟩ : BufTy).Contents (Elt F) → (⟨S2x100000, .i32⟩ : BufTy).Contents (Elt F)),
    ternary main_v465 main_v467 main_v274 main_v468 (select : (⟨S2x100000, .i1⟩ : BufTy).Contents (Elt F) → (⟨S2x100000, .i32⟩ : BufTy).Contents (Elt F) → (⟨S2x100000, .i32⟩ : BufTy).Contents (Elt F) → (⟨S2x100000, .i32⟩ : BufTy).Contents (Elt F)),
    unary main_v458 main_v469 (broadcastInDim S2x100000x1 ![0, 1] bcast_S2x100000_S2x100000x1_0_1 : (⟨S2x100000, .i32⟩ : BufTy).Contents (Elt F) → (⟨S2x100000x1, .i32⟩ : BufTy).Contents (Elt F)),
    unary main_v463 main_v470 (broadcastInDim S2x100000x1 ![0, 1] bcast_S2x100000_S2x100000x1_0_1 : (⟨S2x100000, .i32⟩ : BufTy).Contents (Elt F) → (⟨S2x100000x1, .i32⟩ : BufTy).Contents (Elt F)),
    unary main_v468 main_v471 (broadcastInDim S2x100000x1 ![0, 1] bcast_S2x100000_S2x100000x1_0_1 : (⟨S2x100000, .i32⟩ : BufTy).Contents (Elt F) → (⟨S2x100000x1, .i32⟩ : BufTy).Contents (Elt F)),
    nary ![main_v469, main_v470, main_v471] main_v472 (fun u => concatenate S2x100000x3 2 [⟨S2x100000x1, u 0⟩, ⟨S2x100000x1, u 1⟩, ⟨S2x100000x1, u 2⟩] concatenates_S2x100000x1_S2x100000x1_S2x100000x1_S2x100000x3_d2),
    binary main_arg2 main_v472 main_v473 ((fun x i => Host.gather gather_S2x32x32x32x64_S2x100000x3_S2x100000x64_2_123_0_0_123_2_111164 x i) : (⟨S2x32x32x32x64, .f32⟩ : BufTy).Contents (Elt F) → (⟨S2x100000x3, .i32⟩ : BufTy).Contents (Elt F) → (⟨S2x100000x64, .f32⟩ : BufTy).Contents (Elt F)),
    unary main_v278 main_v474 (broadcastInDim S2x100000x64 ![0, 1, 2] bcast_S2x100000x1_S2x100000x64_0_1_2 : (⟨S2x100000x1, .f32⟩ : BufTy).Contents (Elt F) → (⟨S2x100000x64, .f32⟩ : BufTy).Contents (Elt F)),
    binary main_v473 main_v474 main_v475 (mulf : (⟨S2x100000x64, .f32⟩ : BufTy).Contents (Elt F) → (⟨S2x100000x64, .f32⟩ : BufTy).Contents (Elt F) → (⟨S2x100000x64, .f32⟩ : BufTy).Contents (Elt F)),
    unary main_v282 main_v476 (broadcastInDim S2x100000x64 ![0, 1, 2] bcast_S2x100000x1_S2x100000x64_0_1_2 : (⟨S2x100000x1, .f32⟩ : BufTy).Contents (Elt F) → (⟨S2x100000x64, .f32⟩ : BufTy).Contents (Elt F)),
    binary main_v453 main_v476 main_v477 (mulf : (⟨S2x100000x64, .f32⟩ : BufTy).Contents (Elt F) → (⟨S2x100000x64, .f32⟩ : BufTy).Contents (Elt F) → (⟨S2x100000x64, .f32⟩ : BufTy).Contents (Elt F)),
    binary main_v475 main_v477 main_v478 (addf : (⟨S2x100000x64, .f32⟩ : BufTy).Contents (Elt F) → (⟨S2x100000x64, .f32⟩ : BufTy).Contents (Elt F) → (⟨S2x100000x64, .f32⟩ : BufTy).Contents (Elt F)),
    unary main_v286 main_v479 (broadcastInDim S2x100000x64 ![0, 1, 2] bcast_S2x100000x1_S2x100000x64_0_1_2 : (⟨S2x100000x1, .f32⟩ : BufTy).Contents (Elt F) → (⟨S2x100000x64, .f32⟩ : BufTy).Contents (Elt F)),
    binary main_v478 main_v479 main_v480 (mulf : (⟨S2x100000x64, .f32⟩ : BufTy).Contents (Elt F) → (⟨S2x100000x64, .f32⟩ : BufTy).Contents (Elt F) → (⟨S2x100000x64, .f32⟩ : BufTy).Contents (Elt F)),
    unary main_v278 main_v481 (broadcastInDim S2x100000x64 ![0, 1, 2] bcast_S2x100000x1_S2x100000x64_0_1_2 : (⟨S2x100000x1, .f32⟩ : BufTy).Contents (Elt F) → (⟨S2x100000x64, .f32⟩ : BufTy).Contents (Elt F)),
    binary main_v433 main_v481 main_v482 (mulf : (⟨S2x100000x64, .f32⟩ : BufTy).Contents (Elt F) → (⟨S2x100000x64, .f32⟩ : BufTy).Contents (Elt F) → (⟨S2x100000x64, .f32⟩ : BufTy).Contents (Elt F)),
    unary main_v282 main_v483 (broadcastInDim S2x100000x64 ![0, 1, 2] bcast_S2x100000x1_S2x100000x64_0_1_2 : (⟨S2x100000x1, .f32⟩ : BufTy).Contents (Elt F) → (⟨S2x100000x64, .f32⟩ : BufTy).Contents (Elt F)),
    binary main_v413 main_v483 main_v484 (mulf : (⟨S2x100000x64, .f32⟩ : BufTy).Contents (Elt F) → (⟨S2x100000x64, .f32⟩ : BufTy).Contents (Elt F) → (⟨S2x100000x64, .f32⟩ : BufTy).Contents (Elt F)),
    binary main_v482 main_v484 main_v485 (addf : (⟨S2x100000x64, .f32⟩ : BufTy).Contents (Elt F) → (⟨S2x100000x64, .f32⟩ : BufTy).Contents (Elt F) → (⟨S2x100000x64, .f32⟩ : BufTy).Contents (Elt F)),
    unary main_v290 main_v486 (broadcastInDim S2x100000x64 ![0, 1, 2] bcast_S2x100000x1_S2x100000x64_0_1_2 : (⟨S2x100000x1, .f32⟩ : BufTy).Contents (Elt F) → (⟨S2x100000x64, .f32⟩ : BufTy).Contents (Elt F)),
    binary main_v485 main_v486 main_v487 (mulf : (⟨S2x100000x64, .f32⟩ : BufTy).Contents (Elt F) → (⟨S2x100000x64, .f32⟩ : BufTy).Contents (Elt F) → (⟨S2x100000x64, .f32⟩ : BufTy).Contents (Elt F)),
    binary main_v480 main_v487 main_v488 (addf : (⟨S2x100000x64, .f32⟩ : BufTy).Contents (Elt F) → (⟨S2x100000x64, .f32⟩ : BufTy).Contents (Elt F) → (⟨S2x100000x64, .f32⟩ : BufTy).Contents (Elt F)),
    unary main_v294 main_v489 (broadcastInDim S2x100000x64 ![0, 1, 2] bcast_S2x100000x1_S2x100000x64_0_1_2 : (⟨S2x100000x1, .f32⟩ : BufTy).Contents (Elt F) → (⟨S2x100000x64, .f32⟩ : BufTy).Contents (Elt F)),
    binary main_v488 main_v489 main_v490 (mulf : (⟨S2x100000x64, .f32⟩ : BufTy).Contents (Elt F) → (⟨S2x100000x64, .f32⟩ : BufTy).Contents (Elt F) → (⟨S2x100000x64, .f32⟩ : BufTy).Contents (Elt F)),
    unary main_v298 main_v491 (broadcastInDim S2x100000x64 ![0, 1, 2] bcast_S2x100000x1_S2x100000x64_0_1_2 : (⟨S2x100000x1, .f32⟩ : BufTy).Contents (Elt F) → (⟨S2x100000x64, .f32⟩ : BufTy).Contents (Elt F)),
    binary main_v393 main_v491 main_v492 (mulf : (⟨S2x100000x64, .f32⟩ : BufTy).Contents (Elt F) → (⟨S2x100000x64, .f32⟩ : BufTy).Contents (Elt F) → (⟨S2x100000x64, .f32⟩ : BufTy).Contents (Elt F)),
    binary main_v490 main_v492 main_v493 (addf : (⟨S2x100000x64, .f32⟩ : BufTy).Contents (Elt F) → (⟨S2x100000x64, .f32⟩ : BufTy).Contents (Elt F) → (⟨S2x100000x64, .f32⟩ : BufTy).Contents (Elt F)),
    unary main_cst_1 main_v494 (broadcastInDim S1x1x3 ![2] bcast_S3_S1x1x3_2 : (⟨S3, .f32⟩ : BufTy).Contents (Elt F) → (⟨S1x1x3, .f32⟩ : BufTy).Contents (Elt F)),
    unary main_v494 main_v495 (broadcastInDim S2x100000x3 ![0, 1, 2] bcast_S1x1x3_S2x100000x3_0_1_2 : (⟨S1x1x3, .f32⟩ : BufTy).Contents (Elt F) → (⟨S2x100000x3, .f32⟩ : BufTy).Contents (Elt F)),
    binary main_arg5 main_v495 main_v496 (mulf : (⟨S2x100000x3, .f32⟩ : BufTy).Contents (Elt F) → (⟨S2x100000x3, .f32⟩ : BufTy).Contents (Elt F) → (⟨S2x100000x3, .f32⟩ : BufTy).Contents (Elt F)) ]

set_option maxRecDepth 8192 in
set_option maxHeartbeats 4000000 in
theorem main_part9_eq (c : Dev nD) : main_part9 (F := F) c = seq chunk9 := rfl

set_option maxRecDepth 8192 in
theorem chunk9_sub : (chunk9 : List (HloOp τ sig (Elt F))).Forall fun op => op.bufs ⊆ tcRefs τ sig :=
  ⟨unary_bufs_sub .., binary_bufs_sub .., nullary_bufs_sub .., unary_bufs_sub .., binary_bufs_sub .., ternary_bufs_sub .., unary_bufs_sub .., unary_bufs_sub .., unary_bufs_sub .., nary_bufs_sub .., binary_bufs_sub .., nullary_bufs_sub .., unary_bufs_sub .., binary_bufs_sub .., nullary_bufs_sub .., unary_bufs_sub .., binary_bufs_sub .., ternary_bufs_sub .., nullary_bufs_sub .., unary_bufs_sub .., binary_bufs_sub .., nullary_bufs_sub .., unary_bufs_sub .., binary_bufs_sub .., ternary_bufs_sub .., nullary_bufs_sub .., unary_bufs_sub .., binary_bufs_sub .., nullary_bufs_sub .., unary_bufs_sub .., binary_bufs_sub .., ternary_bufs_sub .., unary_bufs_sub .., unary_bufs_sub .., unary_bufs_sub .., nary_bufs_sub .., binary_bufs_sub .., unary_bufs_sub .., binary_bufs_sub .., unary_bufs_sub .., binary_bufs_sub .., binary_bufs_sub .., unary_bufs_sub .., binary_bufs_sub .., unary_bufs_sub .., binary_bufs_sub .., unary_bufs_sub .., binary_bufs_sub .., binary_bufs_sub .., unary_bufs_sub .., binary_bufs_sub .., binary_bufs_sub .., unary_bufs_sub .., binary_bufs_sub .., unary_bufs_sub .., binary_bufs_sub .., binary_bufs_sub .., unary_bufs_sub .., unary_bufs_sub .., binary_bufs_sub ..⟩

set_option maxRecDepth 8192 in
theorem chunk9_fresh : (chunk9 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

/-- The references window 9 writes, in order. -/
abbrev WR9 : List (Ref sig .tc) :=
  [main_v444, main_v445, main_c_94, main_v446, main_v447, main_v448, main_v449, main_v450, main_v451, main_v452, main_v453, main_c_95, main_v454, main_v455, main_c_96, main_v456, main_v457, main_v458, main_c_97, main_v459, main_v460, main_c_98, main_v461, main_v462, main_v463, main_c_99, main_v464, main_v465, main_c_100, main_v466, main_v467, main_v468, main_v469, main_v470, main_v471, main_v472, main_v473, main_v474, main_v475, main_v476, main_v477, main_v478, main_v479, main_v480, main_v481, main_v482, main_v483, main_v484, main_v485, main_v486, main_v487, main_v488, main_v489, main_v490, main_v491, main_v492, main_v493, main_v494, main_v495, main_v496]

set_option maxRecDepth 8192 in
theorem chunk9_writes : Cert.PeelLib.WritesIn (chunk9 : List (HloOp τ sig (Elt F))) WR9 :=
  Cert.PeelLib.writesIn_of_forall₂ (by (repeat (refine List.Forall₂.cons rfl ?_)); exact List.Forall₂.nil)

/-- The reference's operations 611 … 675 of 910, in order. -/
abbrev chunk10 : List (HloOp τ sig (Elt F)) :=
  [ nullary main_cst_101 (constant S_ .f32 0x3C23D70A#32),
    nullary main_cst_102 (constant S_ .f32 0x416FD70A#32),
    TRef.unary (TRef.of (T := ⟨S_, .f32⟩) main_cst_101) (TRef.of (T := ⟨S_, .f32⟩) main_call2_v0) id,
    TRef.unary (TRef.of (T := ⟨S_, .f32⟩) main_call2_v0) (TRef.of (T := ⟨S2x100000x3, .f32⟩) main_call2_v1) (broadcastInDim S2x100000x3 ![] bcast_S_S2x100000x3),
    TRef.binary (TRef.of (T := ⟨S2x100000x3, .f32⟩) main_call2_v1) (TRef.of (T := ⟨S2x100000x3, .f32⟩) main_v496) (TRef.of (T := ⟨S2x100000x3, .f32⟩) main_call2_v2) maximumf,
    TRef.unary (TRef.of (T := ⟨S_, .f32⟩) main_cst_102) (TRef.of (T := ⟨S_, .f32⟩) main_call2_v3) id,
    TRef.unary (TRef.of (T := ⟨S_, .f32⟩) main_call2_v3) (TRef.of (T := ⟨S2x100000x3, .f32⟩) main_call2_v4) (broadcastInDim S2x100000x3 ![] bcast_S_S2x100000x3),
    TRef.binary (TRef.of (T := ⟨S2x100000x3, .f32⟩) main_call2_v4) (TRef.of (T := ⟨S2x100000x3, .f32⟩) main_call2_v2) (TRef.of (T := ⟨S2x100000x3, .f32⟩) main_v497) minimumf,
    unary main_v497 main_v498 ((extractStridedSlice S2x100000x1 ![0, 0, 0] · slices_S2x100000x3_S2x100000x1_0_0_0) : (⟨S2x100000x3, .f32⟩ : BufTy).Contents (Elt F) → (⟨S2x100000x1, .f32⟩ : BufTy).Contents (Elt F)),
    reshape main_v498 main_v499 rfl shapeCasts_S2x100000x1_S2x100000,
    unary main_v499 main_v500 (Host.floor : (⟨S2x100000, .f32⟩ : BufTy).Contents (Elt F) → (⟨S2x100000, .f32⟩ : BufTy).Contents (Elt F)),
    unary main_v497 main_v501 ((extractStridedSlice S2x100000x1 ![0, 0, 0] · slices_S2x100000x3_S2x100000x1_0_0_0) : (⟨S2x100000x3, .f32⟩ : BufTy).Contents (Elt F) → (⟨S2x100000x1, .f32⟩ : BufTy).Contents (Elt F)),
    reshape main_v501 main_v502 rfl shapeCasts_S2x100000x1_S2x100000,
    unary main_v502 main_v503 (Host.ceil : (⟨S2x100000, .f32⟩ : BufTy).Contents (Elt F) → (⟨S2x100000, .f32⟩ : BufTy).Contents (Elt F)),
    unary main_v497 main_v504 ((extractStridedSlice S2x100000x1 ![0, 0, 1] · slices_S2x100000x3_S2x100000x1_0_0_1) : (⟨S2x100000x3, .f32⟩ : BufTy).Contents (Elt F) → (⟨S2x100000x1, .f32⟩ : BufTy).Contents (Elt F)),
    reshape main_v504 main_v505 rfl shapeCasts_S2x100000x1_S2x100000,
    unary main_v505 main_v506 (Host.floor : (⟨S2x100000, .f32⟩ : BufTy).Contents (Elt F) → (⟨S2x100000, .f32⟩ : BufTy).Contents (Elt F)),
    unary main_v497 main_v507 ((extractStridedSlice S2x100000x1 ![0, 0, 1] · slices_S2x100000x3_S2x100000x1_0_0_1) : (⟨S2x100000x3, .f32⟩ : BufTy).Contents (Elt F) → (⟨S2x100000x1, .f32⟩ : BufTy).Contents (Elt F)),
    reshape main_v507 main_v508 rfl shapeCasts_S2x100000x1_S2x100000,
    unary main_v508 main_v509 (Host.ceil : (⟨S2x100000, .f32⟩ : BufTy).Contents (Elt F) → (⟨S2x100000, .f32⟩ : BufTy).Contents (Elt F)),
    unary main_v497 main_v510 ((extractStridedSlice S2x100000x1 ![0, 0, 2] · slices_S2x100000x3_S2x100000x1_0_0_2) : (⟨S2x100000x3, .f32⟩ : BufTy).Contents (Elt F) → (⟨S2x100000x1, .f32⟩ : BufTy).Contents (Elt F)),
    reshape main_v510 main_v511 rfl shapeCasts_S2x100000x1_S2x100000,
    unary main_v511 main_v512 (Host.floor : (⟨S2x100000, .f32⟩ : BufTy).Contents (Elt F) → (⟨S2x100000, .f32⟩ : BufTy).Contents (Elt F)),
    unary main_v497 main_v513 ((extractStridedSlice S2x100000x1 ![0, 0, 2] · slices_S2x100000x3_S2x100000x1_0_0_2) : (⟨S2x100000x3, .f32⟩ : BufTy).Contents (Elt F) → (⟨S2x100000x1, .f32⟩ : BufTy).Contents (Elt F)),
    reshape main_v513 main_v514 rfl shapeCasts_S2x100000x1_S2x100000,
    unary main_v514 main_v515 (Host.ceil : (⟨S2x100000, .f32⟩ : BufTy).Contents (Elt F) → (⟨S2x100000, .f32⟩ : BufTy).Contents (Elt F)),
    unary main_v500 main_v516 (fptosi 32 : (⟨S2x100000, .f32⟩ : BufTy).Contents (Elt F) → (⟨S2x100000, .i32⟩ : BufTy).Contents (Elt F)),
    unary main_v503 main_v517 (fptosi 32 : (⟨S2x100000, .f32⟩ : BufTy).Contents (Elt F) → (⟨S2x100000, .i32⟩ : BufTy).Contents (Elt F)),
    unary main_v506 main_v518 (fptosi 32 : (⟨S2x100000, .f32⟩ : BufTy).Contents (Elt F) → (⟨S2x100000, .i32⟩ : BufTy).Contents (Elt F)),
    unary main_v509 main_v519 (fptosi 32 : (⟨S2x100000, .f32⟩ : BufTy).Contents (Elt F) → (⟨S2x100000, .i32⟩ : BufTy).Contents (Elt F)),
    unary main_v512 main_v520 (fptosi 32 : (⟨S2x100000, .f32⟩ : BufTy).Contents (Elt F) → (⟨S2x100000, .i32⟩ : BufTy).Contents (Elt F)),
    unary main_v515 main_v521 (fptosi 32 : (⟨S2x100000, .f32⟩ : BufTy).Contents (Elt F) → (⟨S2x100000, .i32⟩ : BufTy).Contents (Elt F)),
    unary main_v497 main_v522 ((extractStridedSlice S2x100000x1 ![0, 0, 0] · slices_S2x100000x3_S2x100000x1_0_0_0) : (⟨S2x100000x3, .f32⟩ : BufTy).Contents (Elt F) → (⟨S2x100000x1, .f32⟩ : BufTy).Contents (Elt F)),
    reshape main_v522 main_v523 rfl shapeCasts_S2x100000x1_S2x100000,
    binary main_v523 main_v500 main_v524 (subf : (⟨S2x100000, .f32⟩ : BufTy).Contents (Elt F) → (⟨S2x100000, .f32⟩ : BufTy).Contents (Elt F) → (⟨S2x100000, .f32⟩ : BufTy).Contents (Elt F)),
    unary main_v524 main_v525 (broadcastInDim S2x100000x1 ![0, 1] bcast_S2x100000_S2x100000x1_0_1 : (⟨S2x100000, .f32⟩ : BufTy).Contents (Elt F) → (⟨S2x100000x1, .f32⟩ : BufTy).Contents (Elt F)),
    unary main_v497 main_v526 ((extractStridedSlice S2x100000x1 ![0, 0, 0] · slices_S2x100000x3_S2x100000x1_0_0_0) : (⟨S2x100000x3, .f32⟩ : BufTy).Contents (Elt F) → (⟨S2x100000x1, .f32⟩ : BufTy).Contents (Elt F)),
    reshape main_v526 main_v527 rfl shapeCasts_S2x100000x1_S2x100000,
    binary main_v503 main_v527 main_v528 (subf : (⟨S2x100000, .f32⟩ : BufTy).Contents (Elt F) → (⟨S2x100000, .f32⟩ : BufTy).Contents (Elt F) → (⟨S2x100000, .f32⟩ : BufTy).Contents (Elt F)),
    unary main_v528 main_v529 (broadcastInDim S2x100000x1 ![0, 1] bcast_S2x100000_S2x100000x1_0_1 : (⟨S2x100000, .f32⟩ : BufTy).Contents (Elt F) → (⟨S2x100000x1, .f32⟩ : BufTy).Contents (Elt F)),
    unary main_v497 main_v530 ((extractStridedSlice S2x100000x1 ![0, 0, 1] · slices_S2x100000x3_S2x100000x1_0_0_1) : (⟨S2x100000x3, .f32⟩ : BufTy).Contents (Elt F) → (⟨S2x100000x1, .f32⟩ : BufTy).Contents (Elt F)),
    reshape main_v530 main_v531 rfl shapeCasts_S2x100000x1_S2x100000,
    binary main_v531 main_v506 main_v532 (subf : (⟨S2x100000, .f32⟩ : BufTy).Contents (Elt F) → (⟨S2x100000, .f32⟩ : BufTy).Contents (Elt F) → (⟨S2x100000, .f32⟩ : BufTy).Contents (Elt F)),
    unary main_v532 main_v533 (broadcastInDim S2x100000x1 ![0, 1] bcast_S2x100000_S2x100000x1_0_1 : (⟨S2x100000, .f32⟩ : BufTy).Contents (Elt F) → (⟨S2x100000x1, .f32⟩ : BufTy).Contents (Elt F)),
    unary main_v497 main_v534 ((extractStridedSlice S2x100000x1 ![0, 0, 1] · slices_S2x100000x3_S2x100000x1_0_0_1) : (⟨S2x100000x3, .f32⟩ : BufTy).Contents (Elt F) → (⟨S2x100000x1, .f32⟩ : BufTy).Contents (Elt F)),
    reshape main_v534 main_v535 rfl shapeCasts_S2x100000x1_S2x100000,
    binary main_v509 main_v535 main_v536 (subf : (⟨S2x100000, .f32⟩ : BufTy).Contents (Elt F) → (⟨S2x100000, .f32⟩ : BufTy).Contents (Elt F) → (⟨S2x100000, .f32⟩ : BufTy).Contents (Elt F)),
    unary main_v536 main_v537 (broadcastInDim S2x100000x1 ![0, 1] bcast_S2x100000_S2x100000x1_0_1 : (⟨S2x100000, .f32⟩ : BufTy).Contents (Elt F) → (⟨S2x100000x1, .f32⟩ : BufTy).Contents (Elt F)),
    unary main_v497 main_v538 ((extractStridedSlice S2x100000x1 ![0, 0, 2] · slices_S2x100000x3_S2x100000x1_0_0_2) : (⟨S2x100000x3, .f32⟩ : BufTy).Contents (Elt F) → (⟨S2x100000x1, .f32⟩ : BufTy).Contents (Elt F)),
    reshape main_v538 main_v539 rfl shapeCasts_S2x100000x1_S2x100000,
    binary main_v539 main_v512 main_v540 (subf : (⟨S2x100000, .f32⟩ : BufTy).Contents (Elt F) → (⟨S2x100000, .f32⟩ : BufTy).Contents (Elt F) → (⟨S2x100000, .f32⟩ : BufTy).Contents (Elt F)),
    unary main_v540 main_v541 (broadcastInDim S2x100000x1 ![0, 1] bcast_S2x100000_S2x100000x1_0_1 : (⟨S2x100000, .f32⟩ : BufTy).Contents (Elt F) → (⟨S2x100000x1, .f32⟩ : BufTy).Contents (Elt F)),
    unary main_v497 main_v542 ((extractStridedSlice S2x100000x1 ![0, 0, 2] · slices_S2x100000x3_S2x100000x1_0_0_2) : (⟨S2x100000x3, .f32⟩ : BufTy).Contents (Elt F) → (⟨S2x100000x1, .f32⟩ : BufTy).Contents (Elt F)),
    reshape main_v542 main_v543 rfl shapeCasts_S2x100000x1_S2x100000,
    binary main_v515 main_v543 main_v544 (subf : (⟨S2x100000, .f32⟩ : BufTy).Contents (Elt F) → (⟨S2x100000, .f32⟩ : BufTy).Contents (Elt F) → (⟨S2x100000, .f32⟩ : BufTy).Contents (Elt F)),
    unary main_v544 main_v545 (broadcastInDim S2x100000x1 ![0, 1] bcast_S2x100000_S2x100000x1_0_1 : (⟨S2x100000, .f32⟩ : BufTy).Contents (Elt F) → (⟨S2x100000x1, .f32⟩ : BufTy).Contents (Elt F)),
    nullary main_c_103 (constantI S_ 32 0#32),
    unary main_c_103 main_v546 (broadcastInDim S2x100000 ![] bcast_S_S2x100000 : (⟨S_, .i32⟩ : BufTy).Contents (Elt F) → (⟨S2x100000, .i32⟩ : BufTy).Contents (Elt F)),
    binary main_v516 main_v546 main_v547 (cmpi .slt : (⟨S2x100000, .i32⟩ : BufTy).Contents (Elt F) → (⟨S2x100000, .i32⟩ : BufTy).Contents (Elt F) → (⟨S2x100000, .i1⟩ : BufTy).Contents (Elt F)),
    nullary main_c_104 (constantI S_ 32 16#32),
    unary main_c_104 main_v548 (broadcastInDim S2x100000 ![] bcast_S_S2x100000 : (⟨S_, .i32⟩ : BufTy).Contents (Elt F) → (⟨S2x100000, .i32⟩ : BufTy).Contents (Elt F)),
    binary main_v516 main_v548 main_v549 (addi : (⟨S2x100000, .i32⟩ : BufTy).Contents (Elt F) → (⟨S2x100000, .i32⟩ : BufTy).Contents (Elt F) → (⟨S2x100000, .i32⟩ : BufTy).Contents (Elt F)),
    ternary main_v547 main_v549 main_v516 main_v550 (select : (⟨S2x100000, .i1⟩ : BufTy).Contents (Elt F) → (⟨S2x100000, .i32⟩ : BufTy).Contents (Elt F) → (⟨S2x100000, .i32⟩ : BufTy).Contents (Elt F) → (⟨S2x100000, .i32⟩ : BufTy).Contents (Elt F)),
    nullary main_c_105 (constantI S_ 32 0#32),
    unary main_c_105 main_v551 (broadcastInDim S2x100000 ![] bcast_S_S2x100000 : (⟨S_, .i32⟩ : BufTy).Contents (Elt F) → (⟨S2x100000, .i32⟩ : BufTy).Contents (Elt F)) ]

set_option maxRecDepth 8192 in
set_option maxHeartbeats 4000000 in
theorem main_part10_eq (c : Dev nD) : main_part10 (F := F) c = seq chunk10 := rfl

set_option maxRecDepth 8192 in
theorem chunk10_sub : (chunk10 : List (HloOp τ sig (Elt F))).Forall fun op => op.bufs ⊆ tcRefs τ sig :=
  ⟨nullary_bufs_sub .., nullary_bufs_sub .., unary_bufs_sub .., unary_bufs_sub .., binary_bufs_sub .., unary_bufs_sub .., unary_bufs_sub .., binary_bufs_sub .., unary_bufs_sub .., reshape_bufs_sub .., unary_bufs_sub .., unary_bufs_sub .., reshape_bufs_sub .., unary_bufs_sub .., unary_bufs_sub .., reshape_bufs_sub .., unary_bufs_sub .., unary_bufs_sub .., reshape_bufs_sub .., unary_bufs_sub .., unary_bufs_sub .., reshape_bufs_sub .., unary_bufs_sub .., unary_bufs_sub .., reshape_bufs_sub .., unary_bufs_sub .., unary_bufs_sub .., unary_bufs_sub .., unary_bufs_sub .., unary_bufs_sub .., unary_bufs_sub .., unary_bufs_sub .., unary_bufs_sub .., reshape_bufs_sub .., binary_bufs_sub .., unary_bufs_sub .., unary_bufs_sub .., reshape_bufs_sub .., binary_bufs_sub .., unary_bufs_sub .., unary_bufs_sub .., reshape_bufs_sub .., binary_bufs_sub .., unary_bufs_sub .., unary_bufs_sub .., reshape_bufs_sub .., binary_bufs_sub .., unary_bufs_sub .., unary_bufs_sub .., reshape_bufs_sub .., binary_bufs_sub .., unary_bufs_sub .., unary_bufs_sub .., reshape_bufs_sub .., binary_bufs_sub .., unary_bufs_sub .., nullary_bufs_sub .., unary_bufs_sub .., binary_bufs_sub .., nullary_bufs_sub .., unary_bufs_sub .., binary_bufs_sub .., ternary_bufs_sub .., nullary_bufs_sub .., unary_bufs_sub ..⟩

set_option maxRecDepth 8192 in
theorem chunk10_fresh : (chunk10 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

/-- The references window 10 writes, in order. -/
abbrev WR10 : List (Ref sig .tc) :=
  [main_cst_101, main_cst_102, main_call2_v0, main_call2_v1, main_call2_v2, main_call2_v3, main_call2_v4, main_v497, main_v498, main_v499, main_v500, main_v501, main_v502, main_v503, main_v504, main_v505, main_v506, main_v507, main_v508, main_v509, main_v510, main_v511, main_v512, main_v513, main_v514, main_v515, main_v516, main_v517, main_v518, main_v519, main_v520, main_v521, main_v522, main_v523, main_v524, main_v525, main_v526, main_v527, main_v528, main_v529, main_v530, main_v531, main_v532, main_v533, main_v534, main_v535, main_v536, main_v537, main_v538, main_v539, main_v540, main_v541, main_v542, main_v543, main_v544, main_v545, main_c_103, main_v546, main_v547, main_c_104, main_v548, main_v549, main_v550, main_c_105, main_v551]

set_option maxRecDepth 8192 in
theorem chunk10_writes : Cert.PeelLib.WritesIn (chunk10 : List (HloOp τ sig (Elt F))) WR10 :=
  Cert.PeelLib.writesIn_of_forall₂ (by (repeat (refine List.Forall₂.cons rfl ?_)); exact List.Forall₂.nil)

/-- The reference's operations 676 … 735 of 910, in order. -/
abbrev chunk11 : List (HloOp τ sig (Elt F)) :=
  [ binary main_v518 main_v551 main_v552 (cmpi .slt : (⟨S2x100000, .i32⟩ : BufTy).Contents (Elt F) → (⟨S2x100000, .i32⟩ : BufTy).Contents (Elt F) → (⟨S2x100000, .i1⟩ : BufTy).Contents (Elt F)),
    nullary main_c_106 (constantI S_ 32 16#32),
    unary main_c_106 main_v553 (broadcastInDim S2x100000 ![] bcast_S_S2x100000 : (⟨S_, .i32⟩ : BufTy).Contents (Elt F) → (⟨S2x100000, .i32⟩ : BufTy).Contents (Elt F)),
    binary main_v518 main_v553 main_v554 (addi : (⟨S2x100000, .i32⟩ : BufTy).Contents (Elt F) → (⟨S2x100000, .i32⟩ : BufTy).Contents (Elt F) → (⟨S2x100000, .i32⟩ : BufTy).Contents (Elt F)),
    ternary main_v552 main_v554 main_v518 main_v555 (select : (⟨S2x100000, .i1⟩ : BufTy).Contents (Elt F) → (⟨S2x100000, .i32⟩ : BufTy).Contents (Elt F) → (⟨S2x100000, .i32⟩ : BufTy).Contents (Elt F) → (⟨S2x100000, .i32⟩ : BufTy).Contents (Elt F)),
    nullary main_c_107 (constantI S_ 32 0#32),
    unary main_c_107 main_v556 (broadcastInDim S2x100000 ![] bcast_S_S2x100000 : (⟨S_, .i32⟩ : BufTy).Contents (Elt F) → (⟨S2x100000, .i32⟩ : BufTy).Contents (Elt F)),
    binary main_v520 main_v556 main_v557 (cmpi .slt : (⟨S2x100000, .i32⟩ : BufTy).Contents (Elt F) → (⟨S2x100000, .i32⟩ : BufTy).Contents (Elt F) → (⟨S2x100000, .i1⟩ : BufTy).Contents (Elt F)),
    nullary main_c_108 (constantI S_ 32 16#32),
    unary main_c_108 main_v558 (broadcastInDim S2x100000 ![] bcast_S_S2x100000 : (⟨S_, .i32⟩ : BufTy).Contents (Elt F) → (⟨S2x100000, .i32⟩ : BufTy).Contents (Elt F)),
    binary main_v520 main_v558 main_v559 (addi : (⟨S2x100000, .i32⟩ : BufTy).Contents (Elt F) → (⟨S2x100000, .i32⟩ : BufTy).Contents (Elt F) → (⟨S2x100000, .i32⟩ : BufTy).Contents (Elt F)),
    ternary main_v557 main_v559 main_v520 main_v560 (select : (⟨S2x100000, .i1⟩ : BufTy).Contents (Elt F) → (⟨S2x100000, .i32⟩ : BufTy).Contents (Elt F) → (⟨S2x100000, .i32⟩ : BufTy).Contents (Elt F) → (⟨S2x100000, .i32⟩ : BufTy).Contents (Elt F)),
    unary main_v550 main_v561 (broadcastInDim S2x100000x1 ![0, 1] bcast_S2x100000_S2x100000x1_0_1 : (⟨S2x100000, .i32⟩ : BufTy).Contents (Elt F) → (⟨S2x100000x1, .i32⟩ : BufTy).Contents (Elt F)),
    unary main_v555 main_v562 (broadcastInDim S2x100000x1 ![0, 1] bcast_S2x100000_S2x100000x1_0_1 : (⟨S2x100000, .i32⟩ : BufTy).Contents (Elt F) → (⟨S2x100000x1, .i32⟩ : BufTy).Contents (Elt F)),
    unary main_v560 main_v563 (broadcastInDim S2x100000x1 ![0, 1] bcast_S2x100000_S2x100000x1_0_1 : (⟨S2x100000, .i32⟩ : BufTy).Contents (Elt F) → (⟨S2x100000x1, .i32⟩ : BufTy).Contents (Elt F)),
    nary ![main_v561, main_v562, main_v563] main_v564 (fun u => concatenate S2x100000x3 2 [⟨S2x100000x1, u 0⟩, ⟨S2x100000x1, u 1⟩, ⟨S2x100000x1, u 2⟩] concatenates_S2x100000x1_S2x100000x1_S2x100000x1_S2x100000x3_d2),
    binary main_arg3 main_v564 main_v565 ((fun x i => Host.gather gather_S2x16x16x16x128_S2x100000x3_S2x100000x128_2_123_0_0_123_2_1111128 x i) : (⟨S2x16x16x16x128, .f32⟩ : BufTy).Contents (Elt F) → (⟨S2x100000x3, .i32⟩ : BufTy).Contents (Elt F) → (⟨S2x100000x128, .f32⟩ : BufTy).Contents (Elt F)),
    nullary main_c_109 (constantI S_ 32 0#32),
    unary main_c_109 main_v566 (broadcastInDim S2x100000 ![] bcast_S_S2x100000 : (⟨S_, .i32⟩ : BufTy).Contents (Elt F) → (⟨S2x100000, .i32⟩ : BufTy).Contents (Elt F)),
    binary main_v517 main_v566 main_v567 (cmpi .slt : (⟨S2x100000, .i32⟩ : BufTy).Contents (Elt F) → (⟨S2x100000, .i32⟩ : BufTy).Contents (Elt F) → (⟨S2x100000, .i1⟩ : BufTy).Contents (Elt F)),
    nullary main_c_110 (constantI S_ 32 16#32),
    unary main_c_110 main_v568 (broadcastInDim S2x100000 ![] bcast_S_S2x100000 : (⟨S_, .i32⟩ : BufTy).Contents (Elt F) → (⟨S2x100000, .i32⟩ : BufTy).Contents (Elt F)),
    binary main_v517 main_v568 main_v569 (addi : (⟨S2x100000, .i32⟩ : BufTy).Contents (Elt F) → (⟨S2x100000, .i32⟩ : BufTy).Contents (Elt F) → (⟨S2x100000, .i32⟩ : BufTy).Contents (Elt F)),
    ternary main_v567 main_v569 main_v517 main_v570 (select : (⟨S2x100000, .i1⟩ : BufTy).Contents (Elt F) → (⟨S2x100000, .i32⟩ : BufTy).Contents (Elt F) → (⟨S2x100000, .i32⟩ : BufTy).Contents (Elt F) → (⟨S2x100000, .i32⟩ : BufTy).Contents (Elt F)),
    nullary main_c_111 (constantI S_ 32 0#32),
    unary main_c_111 main_v571 (broadcastInDim S2x100000 ![] bcast_S_S2x100000 : (⟨S_, .i32⟩ : BufTy).Contents (Elt F) → (⟨S2x100000, .i32⟩ : BufTy).Contents (Elt F)),
    binary main_v518 main_v571 main_v572 (cmpi .slt : (⟨S2x100000, .i32⟩ : BufTy).Contents (Elt F) → (⟨S2x100000, .i32⟩ : BufTy).Contents (Elt F) → (⟨S2x100000, .i1⟩ : BufTy).Contents (Elt F)),
    nullary main_c_112 (constantI S_ 32 16#32),
    unary main_c_112 main_v573 (broadcastInDim S2x100000 ![] bcast_S_S2x100000 : (⟨S_, .i32⟩ : BufTy).Contents (Elt F) → (⟨S2x100000, .i32⟩ : BufTy).Contents (Elt F)),
    binary main_v518 main_v573 main_v574 (addi : (⟨S2x100000, .i32⟩ : BufTy).Contents (Elt F) → (⟨S2x100000, .i32⟩ : BufTy).Contents (Elt F) → (⟨S2x100000, .i32⟩ : BufTy).Contents (Elt F)),
    ternary main_v572 main_v574 main_v518 main_v575 (select : (⟨S2x100000, .i1⟩ : BufTy).Contents (Elt F) → (⟨S2x100000, .i32⟩ : BufTy).Contents (Elt F) → (⟨S2x100000, .i32⟩ : BufTy).Contents (Elt F) → (⟨S2x100000, .i32⟩ : BufTy).Contents (Elt F)),
    nullary main_c_113 (constantI S_ 32 0#32),
    unary main_c_113 main_v576 (broadcastInDim S2x100000 ![] bcast_S_S2x100000 : (⟨S_, .i32⟩ : BufTy).Contents (Elt F) → (⟨S2x100000, .i32⟩ : BufTy).Contents (Elt F)),
    binary main_v520 main_v576 main_v577 (cmpi .slt : (⟨S2x100000, .i32⟩ : BufTy).Contents (Elt F) → (⟨S2x100000, .i32⟩ : BufTy).Contents (Elt F) → (⟨S2x100000, .i1⟩ : BufTy).Contents (Elt F)),
    nullary main_c_114 (constantI S_ 32 16#32),
    unary main_c_114 main_v578 (broadcastInDim S2x100000 ![] bcast_S_S2x100000 : (⟨S_, .i32⟩ : BufTy).Contents (Elt F) → (⟨S2x100000, .i32⟩ : BufTy).Contents (Elt F)),
    binary main_v520 main_v578 main_v579 (addi : (⟨S2x100000, .i32⟩ : BufTy).Contents (Elt F) → (⟨S2x100000, .i32⟩ : BufTy).Contents (Elt F) → (⟨S2x100000, .i32⟩ : BufTy).Contents (Elt F)),
    ternary main_v577 main_v579 main_v520 main_v580 (select : (⟨S2x100000, .i1⟩ : BufTy).Contents (Elt F) → (⟨S2x100000, .i32⟩ : BufTy).Contents (Elt F) → (⟨S2x100000, .i32⟩ : BufTy).Contents (Elt F) → (⟨S2x100000, .i32⟩ : BufTy).Contents (Elt F)),
    unary main_v570 main_v581 (broadcastInDim S2x100000x1 ![0, 1] bcast_S2x100000_S2x100000x1_0_1 : (⟨S2x100000, .i32⟩ : BufTy).Contents (Elt F) → (⟨S2x100000x1, .i32⟩ : BufTy).Contents (Elt F)),
    unary main_v575 main_v582 (broadcastInDim S2x100000x1 ![0, 1] bcast_S2x100000_S2x100000x1_0_1 : (⟨S2x100000, .i32⟩ : BufTy).Contents (Elt F) → (⟨S2x100000x1, .i32⟩ : BufTy).Contents (Elt F)),
    unary main_v580 main_v583 (broadcastInDim S2x100000x1 ![0, 1] bcast_S2x100000_S2x100000x1_0_1 : (⟨S2x100000, .i32⟩ : BufTy).Contents (Elt F) → (⟨S2x100000x1, .i32⟩ : BufTy).Contents (Elt F)),
    nary ![main_v581, main_v582, main_v583] main_v584 (fun u => concatenate S2x100000x3 2 [⟨S2x100000x1, u 0⟩, ⟨S2x100000x1, u 1⟩, ⟨S2x100000x1, u 2⟩] concatenates_S2x100000x1_S2x100000x1_S2x100000x1_S2x100000x3_d2),
    binary main_arg3 main_v584 main_v585 ((fun x i => Host.gather gather_S2x16x16x16x128_S2x100000x3_S2x100000x128_2_123_0_0_123_2_1111128 x i) : (⟨S2x16x16x16x128, .f32⟩ : BufTy).Contents (Elt F) → (⟨S2x100000x3, .i32⟩ : BufTy).Contents (Elt F) → (⟨S2x100000x128, .f32⟩ : BufTy).Contents (Elt F)),
    nullary main_c_115 (constantI S_ 32 0#32),
    unary main_c_115 main_v586 (broadcastInDim S2x100000 ![] bcast_S_S2x100000 : (⟨S_, .i32⟩ : BufTy).Contents (Elt F) → (⟨S2x100000, .i32⟩ : BufTy).Contents (Elt F)),
    binary main_v516 main_v586 main_v587 (cmpi .slt : (⟨S2x100000, .i32⟩ : BufTy).Contents (Elt F) → (⟨S2x100000, .i32⟩ : BufTy).Contents (Elt F) → (⟨S2x100000, .i1⟩ : BufTy).Contents (Elt F)),
    nullary main_c_116 (constantI S_ 32 16#32),
    unary main_c_116 main_v588 (broadcastInDim S2x100000 ![] bcast_S_S2x100000 : (⟨S_, .i32⟩ : BufTy).Contents (Elt F) → (⟨S2x100000, .i32⟩ : BufTy).Contents (Elt F)),
    binary main_v516 main_v588 main_v589 (addi : (⟨S2x100000, .i32⟩ : BufTy).Contents (Elt F) → (⟨S2x100000, .i32⟩ : BufTy).Contents (Elt F) → (⟨S2x100000, .i32⟩ : BufTy).Contents (Elt F)),
    ternary main_v587 main_v589 main_v516 main_v590 (select : (⟨S2x100000, .i1⟩ : BufTy).Contents (Elt F) → (⟨S2x100000, .i32⟩ : BufTy).Contents (Elt F) → (⟨S2x100000, .i32⟩ : BufTy).Contents (Elt F) → (⟨S2x100000, .i32⟩ : BufTy).Contents (Elt F)),
    nullary main_c_117 (constantI S_ 32 0#32),
    unary main_c_117 main_v591 (broadcastInDim S2x100000 ![] bcast_S_S2x100000 : (⟨S_, .i32⟩ : BufTy).Contents (Elt F) → (⟨S2x100000, .i32⟩ : BufTy).Contents (Elt F)),
    binary main_v519 main_v591 main_v592 (cmpi .slt : (⟨S2x100000, .i32⟩ : BufTy).Contents (Elt F) → (⟨S2x100000, .i32⟩ : BufTy).Contents (Elt F) → (⟨S2x100000, .i1⟩ : BufTy).Contents (Elt F)),
    nullary main_c_118 (constantI S_ 32 16#32),
    unary main_c_118 main_v593 (broadcastInDim S2x100000 ![] bcast_S_S2x100000 : (⟨S_, .i32⟩ : BufTy).Contents (Elt F) → (⟨S2x100000, .i32⟩ : BufTy).Contents (Elt F)),
    binary main_v519 main_v593 main_v594 (addi : (⟨S2x100000, .i32⟩ : BufTy).Contents (Elt F) → (⟨S2x100000, .i32⟩ : BufTy).Contents (Elt F) → (⟨S2x100000, .i32⟩ : BufTy).Contents (Elt F)),
    ternary main_v592 main_v594 main_v519 main_v595 (select : (⟨S2x100000, .i1⟩ : BufTy).Contents (Elt F) → (⟨S2x100000, .i32⟩ : BufTy).Contents (Elt F) → (⟨S2x100000, .i32⟩ : BufTy).Contents (Elt F) → (⟨S2x100000, .i32⟩ : BufTy).Contents (Elt F)),
    nullary main_c_119 (constantI S_ 32 0#32),
    unary main_c_119 main_v596 (broadcastInDim S2x100000 ![] bcast_S_S2x100000 : (⟨S_, .i32⟩ : BufTy).Contents (Elt F) → (⟨S2x100000, .i32⟩ : BufTy).Contents (Elt F)),
    binary main_v520 main_v596 main_v597 (cmpi .slt : (⟨S2x100000, .i32⟩ : BufTy).Contents (Elt F) → (⟨S2x100000, .i32⟩ : BufTy).Contents (Elt F) → (⟨S2x100000, .i1⟩ : BufTy).Contents (Elt F)) ]

set_option maxRecDepth 8192 in
set_option maxHeartbeats 4000000 in
theorem main_part11_eq (c : Dev nD) : main_part11 (F := F) c = seq chunk11 := rfl

set_option maxRecDepth 8192 in
theorem chunk11_sub : (chunk11 : List (HloOp τ sig (Elt F))).Forall fun op => op.bufs ⊆ tcRefs τ sig :=
  ⟨binary_bufs_sub .., nullary_bufs_sub .., unary_bufs_sub .., binary_bufs_sub .., ternary_bufs_sub .., nullary_bufs_sub .., unary_bufs_sub .., binary_bufs_sub .., nullary_bufs_sub .., unary_bufs_sub .., binary_bufs_sub .., ternary_bufs_sub .., unary_bufs_sub .., unary_bufs_sub .., unary_bufs_sub .., nary_bufs_sub .., binary_bufs_sub .., nullary_bufs_sub .., unary_bufs_sub .., binary_bufs_sub .., nullary_bufs_sub .., unary_bufs_sub .., binary_bufs_sub .., ternary_bufs_sub .., nullary_bufs_sub .., unary_bufs_sub .., binary_bufs_sub .., nullary_bufs_sub .., unary_bufs_sub .., binary_bufs_sub .., ternary_bufs_sub .., nullary_bufs_sub .., unary_bufs_sub .., binary_bufs_sub .., nullary_bufs_sub .., unary_bufs_sub .., binary_bufs_sub .., ternary_bufs_sub .., unary_bufs_sub .., unary_bufs_sub .., unary_bufs_sub .., nary_bufs_sub .., binary_bufs_sub .., nullary_bufs_sub .., unary_bufs_sub .., binary_bufs_sub .., nullary_bufs_sub .., unary_bufs_sub .., binary_bufs_sub .., ternary_bufs_sub .., nullary_bufs_sub .., unary_bufs_sub .., binary_bufs_sub .., nullary_bufs_sub .., unary_bufs_sub .., binary_bufs_sub .., ternary_bufs_sub .., nullary_bufs_sub .., unary_bufs_sub .., binary_bufs_sub ..⟩

set_option maxRecDepth 8192 in
theorem chunk11_fresh : (chunk11 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

/-- The references window 11 writes, in order. -/
abbrev WR11 : List (Ref sig .tc) :=
  [main_v552, main_c_106, main_v553, main_v554, main_v555, main_c_107, main_v556, main_v557, main_c_108, main_v558, main_v559, main_v560, main_v561, main_v562, main_v563, main_v564, main_v565, main_c_109, main_v566, main_v567, main_c_110, main_v568, main_v569, main_v570, main_c_111, main_v571, main_v572, main_c_112, main_v573, main_v574, main_v575, main_c_113, main_v576, main_v577, main_c_114, main_v578, main_v579, main_v580, main_v581, main_v582, main_v583, main_v584, main_v585, main_c_115, main_v586, main_v587, main_c_116, main_v588, main_v589, main_v590, main_c_117, main_v591, main_v592, main_c_118, main_v593, main_v594, main_v595, main_c_119, main_v596, main_v597]

set_option maxRecDepth 8192 in
theorem chunk11_writes : Cert.PeelLib.WritesIn (chunk11 : List (HloOp τ sig (Elt F))) WR11 :=
  Cert.PeelLib.writesIn_of_forall₂ (by (repeat (refine List.Forall₂.cons rfl ?_)); exact List.Forall₂.nil)

/-- The reference's operations 736 … 795 of 910, in order. -/
abbrev chunk12 : List (HloOp τ sig (Elt F)) :=
  [ nullary main_c_120 (constantI S_ 32 16#32),
    unary main_c_120 main_v598 (broadcastInDim S2x100000 ![] bcast_S_S2x100000 : (⟨S_, .i32⟩ : BufTy).Contents (Elt F) → (⟨S2x100000, .i32⟩ : BufTy).Contents (Elt F)),
    binary main_v520 main_v598 main_v599 (addi : (⟨S2x100000, .i32⟩ : BufTy).Contents (Elt F) → (⟨S2x100000, .i32⟩ : BufTy).Contents (Elt F) → (⟨S2x100000, .i32⟩ : BufTy).Contents (Elt F)),
    ternary main_v597 main_v599 main_v520 main_v600 (select : (⟨S2x100000, .i1⟩ : BufTy).Contents (Elt F) → (⟨S2x100000, .i32⟩ : BufTy).Contents (Elt F) → (⟨S2x100000, .i32⟩ : BufTy).Contents (Elt F) → (⟨S2x100000, .i32⟩ : BufTy).Contents (Elt F)),
    unary main_v590 main_v601 (broadcastInDim S2x100000x1 ![0, 1] bcast_S2x100000_S2x100000x1_0_1 : (⟨S2x100000, .i32⟩ : BufTy).Contents (Elt F) → (⟨S2x100000x1, .i32⟩ : BufTy).Contents (Elt F)),
    unary main_v595 main_v602 (broadcastInDim S2x100000x1 ![0, 1] bcast_S2x100000_S2x100000x1_0_1 : (⟨S2x100000, .i32⟩ : BufTy).Contents (Elt F) → (⟨S2x100000x1, .i32⟩ : BufTy).Contents (Elt F)),
    unary main_v600 main_v603 (broadcastInDim S2x100000x1 ![0, 1] bcast_S2x100000_S2x100000x1_0_1 : (⟨S2x100000, .i32⟩ : BufTy).Contents (Elt F) → (⟨S2x100000x1, .i32⟩ : BufTy).Contents (Elt F)),
    nary ![main_v601, main_v602, main_v603] main_v604 (fun u => concatenate S2x100000x3 2 [⟨S2x100000x1, u 0⟩, ⟨S2x100000x1, u 1⟩, ⟨S2x100000x1, u 2⟩] concatenates_S2x100000x1_S2x100000x1_S2x100000x1_S2x100000x3_d2),
    binary main_arg3 main_v604 main_v605 ((fun x i => Host.gather gather_S2x16x16x16x128_S2x100000x3_S2x100000x128_2_123_0_0_123_2_1111128 x i) : (⟨S2x16x16x16x128, .f32⟩ : BufTy).Contents (Elt F) → (⟨S2x100000x3, .i32⟩ : BufTy).Contents (Elt F) → (⟨S2x100000x128, .f32⟩ : BufTy).Contents (Elt F)),
    nullary main_c_121 (constantI S_ 32 0#32),
    unary main_c_121 main_v606 (broadcastInDim S2x100000 ![] bcast_S_S2x100000 : (⟨S_, .i32⟩ : BufTy).Contents (Elt F) → (⟨S2x100000, .i32⟩ : BufTy).Contents (Elt F)),
    binary main_v517 main_v606 main_v607 (cmpi .slt : (⟨S2x100000, .i32⟩ : BufTy).Contents (Elt F) → (⟨S2x100000, .i32⟩ : BufTy).Contents (Elt F) → (⟨S2x100000, .i1⟩ : BufTy).Contents (Elt F)),
    nullary main_c_122 (constantI S_ 32 16#32),
    unary main_c_122 main_v608 (broadcastInDim S2x100000 ![] bcast_S_S2x100000 : (⟨S_, .i32⟩ : BufTy).Contents (Elt F) → (⟨S2x100000, .i32⟩ : BufTy).Contents (Elt F)),
    binary main_v517 main_v608 main_v609 (addi : (⟨S2x100000, .i32⟩ : BufTy).Contents (Elt F) → (⟨S2x100000, .i32⟩ : BufTy).Contents (Elt F) → (⟨S2x100000, .i32⟩ : BufTy).Contents (Elt F)),
    ternary main_v607 main_v609 main_v517 main_v610 (select : (⟨S2x100000, .i1⟩ : BufTy).Contents (Elt F) → (⟨S2x100000, .i32⟩ : BufTy).Contents (Elt F) → (⟨S2x100000, .i32⟩ : BufTy).Contents (Elt F) → (⟨S2x100000, .i32⟩ : BufTy).Contents (Elt F)),
    nullary main_c_123 (constantI S_ 32 0#32),
    unary main_c_123 main_v611 (broadcastInDim S2x100000 ![] bcast_S_S2x100000 : (⟨S_, .i32⟩ : BufTy).Contents (Elt F) → (⟨S2x100000, .i32⟩ : BufTy).Contents (Elt F)),
    binary main_v519 main_v611 main_v612 (cmpi .slt : (⟨S2x100000, .i32⟩ : BufTy).Contents (Elt F) → (⟨S2x100000, .i32⟩ : BufTy).Contents (Elt F) → (⟨S2x100000, .i1⟩ : BufTy).Contents (Elt F)),
    nullary main_c_124 (constantI S_ 32 16#32),
    unary main_c_124 main_v613 (broadcastInDim S2x100000 ![] bcast_S_S2x100000 : (⟨S_, .i32⟩ : BufTy).Contents (Elt F) → (⟨S2x100000, .i32⟩ : BufTy).Contents (Elt F)),
    binary main_v519 main_v613 main_v614 (addi : (⟨S2x100000, .i32⟩ : BufTy).Contents (Elt F) → (⟨S2x100000, .i32⟩ : BufTy).Contents (Elt F) → (⟨S2x100000, .i32⟩ : BufTy).Contents (Elt F)),
    ternary main_v612 main_v614 main_v519 main_v615 (select : (⟨S2x100000, .i1⟩ : BufTy).Contents (Elt F) → (⟨S2x100000, .i32⟩ : BufTy).Contents (Elt F) → (⟨S2x100000, .i32⟩ : BufTy).Contents (Elt F) → (⟨S2x100000, .i32⟩ : BufTy).Contents (Elt F)),
    nullary main_c_125 (constantI S_ 32 0#32),
    unary main_c_125 main_v616 (broadcastInDim S2x100000 ![] bcast_S_S2x100000 : (⟨S_, .i32⟩ : BufTy).Contents (Elt F) → (⟨S2x100000, .i32⟩ : BufTy).Contents (Elt F)),
    binary main_v520 main_v616 main_v617 (cmpi .slt : (⟨S2x100000, .i32⟩ : BufTy).Contents (Elt F) → (⟨S2x100000, .i32⟩ : BufTy).Contents (Elt F) → (⟨S2x100000, .i1⟩ : BufTy).Contents (Elt F)),
    nullary main_c_126 (constantI S_ 32 16#32),
    unary main_c_126 main_v618 (broadcastInDim S2x100000 ![] bcast_S_S2x100000 : (⟨S_, .i32⟩ : BufTy).Contents (Elt F) → (⟨S2x100000, .i32⟩ : BufTy).Contents (Elt F)),
    binary main_v520 main_v618 main_v619 (addi : (⟨S2x100000, .i32⟩ : BufTy).Contents (Elt F) → (⟨S2x100000, .i32⟩ : BufTy).Contents (Elt F) → (⟨S2x100000, .i32⟩ : BufTy).Contents (Elt F)),
    ternary main_v617 main_v619 main_v520 main_v620 (select : (⟨S2x100000, .i1⟩ : BufTy).Contents (Elt F) → (⟨S2x100000, .i32⟩ : BufTy).Contents (Elt F) → (⟨S2x100000, .i32⟩ : BufTy).Contents (Elt F) → (⟨S2x100000, .i32⟩ : BufTy).Contents (Elt F)),
    unary main_v610 main_v621 (broadcastInDim S2x100000x1 ![0, 1] bcast_S2x100000_S2x100000x1_0_1 : (⟨S2x100000, .i32⟩ : BufTy).Contents (Elt F) → (⟨S2x100000x1, .i32⟩ : BufTy).Contents (Elt F)),
    unary main_v615 main_v622 (broadcastInDim S2x100000x1 ![0, 1] bcast_S2x100000_S2x100000x1_0_1 : (⟨S2x100000, .i32⟩ : BufTy).Contents (Elt F) → (⟨S2x100000x1, .i32⟩ : BufTy).Contents (Elt F)),
    unary main_v620 main_v623 (broadcastInDim S2x100000x1 ![0, 1] bcast_S2x100000_S2x100000x1_0_1 : (⟨S2x100000, .i32⟩ : BufTy).Contents (Elt F) → (⟨S2x100000x1, .i32⟩ : BufTy).Contents (Elt F)),
    nary ![main_v621, main_v622, main_v623] main_v624 (fun u => concatenate S2x100000x3 2 [⟨S2x100000x1, u 0⟩, ⟨S2x100000x1, u 1⟩, ⟨S2x100000x1, u 2⟩] concatenates_S2x100000x1_S2x100000x1_S2x100000x1_S2x100000x3_d2),
    binary main_arg3 main_v624 main_v625 ((fun x i => Host.gather gather_S2x16x16x16x128_S2x100000x3_S2x100000x128_2_123_0_0_123_2_1111128 x i) : (⟨S2x16x16x16x128, .f32⟩ : BufTy).Contents (Elt F) → (⟨S2x100000x3, .i32⟩ : BufTy).Contents (Elt F) → (⟨S2x100000x128, .f32⟩ : BufTy).Contents (Elt F)),
    unary main_v525 main_v626 (broadcastInDim S2x100000x128 ![0, 1, 2] bcast_S2x100000x1_S2x100000x128_0_1_2 : (⟨S2x100000x1, .f32⟩ : BufTy).Contents (Elt F) → (⟨S2x100000x128, .f32⟩ : BufTy).Contents (Elt F)),
    binary main_v625 main_v626 main_v627 (mulf : (⟨S2x100000x128, .f32⟩ : BufTy).Contents (Elt F) → (⟨S2x100000x128, .f32⟩ : BufTy).Contents (Elt F) → (⟨S2x100000x128, .f32⟩ : BufTy).Contents (Elt F)),
    unary main_v529 main_v628 (broadcastInDim S2x100000x128 ![0, 1, 2] bcast_S2x100000x1_S2x100000x128_0_1_2 : (⟨S2x100000x1, .f32⟩ : BufTy).Contents (Elt F) → (⟨S2x100000x128, .f32⟩ : BufTy).Contents (Elt F)),
    binary main_v605 main_v628 main_v629 (mulf : (⟨S2x100000x128, .f32⟩ : BufTy).Contents (Elt F) → (⟨S2x100000x128, .f32⟩ : BufTy).Contents (Elt F) → (⟨S2x100000x128, .f32⟩ : BufTy).Contents (Elt F)),
    binary main_v627 main_v629 main_v630 (addf : (⟨S2x100000x128, .f32⟩ : BufTy).Contents (Elt F) → (⟨S2x100000x128, .f32⟩ : BufTy).Contents (Elt F) → (⟨S2x100000x128, .f32⟩ : BufTy).Contents (Elt F)),
    unary main_v533 main_v631 (broadcastInDim S2x100000x128 ![0, 1, 2] bcast_S2x100000x1_S2x100000x128_0_1_2 : (⟨S2x100000x1, .f32⟩ : BufTy).Contents (Elt F) → (⟨S2x100000x128, .f32⟩ : BufTy).Contents (Elt F)),
    binary main_v630 main_v631 main_v632 (mulf : (⟨S2x100000x128, .f32⟩ : BufTy).Contents (Elt F) → (⟨S2x100000x128, .f32⟩ : BufTy).Contents (Elt F) → (⟨S2x100000x128, .f32⟩ : BufTy).Contents (Elt F)),
    unary main_v525 main_v633 (broadcastInDim S2x100000x128 ![0, 1, 2] bcast_S2x100000x1_S2x100000x128_0_1_2 : (⟨S2x100000x1, .f32⟩ : BufTy).Contents (Elt F) → (⟨S2x100000x128, .f32⟩ : BufTy).Contents (Elt F)),
    binary main_v585 main_v633 main_v634 (mulf : (⟨S2x100000x128, .f32⟩ : BufTy).Contents (Elt F) → (⟨S2x100000x128, .f32⟩ : BufTy).Contents (Elt F) → (⟨S2x100000x128, .f32⟩ : BufTy).Contents (Elt F)),
    unary main_v529 main_v635 (broadcastInDim S2x100000x128 ![0, 1, 2] bcast_S2x100000x1_S2x100000x128_0_1_2 : (⟨S2x100000x1, .f32⟩ : BufTy).Contents (Elt F) → (⟨S2x100000x128, .f32⟩ : BufTy).Contents (Elt F)),
    binary main_v565 main_v635 main_v636 (mulf : (⟨S2x100000x128, .f32⟩ : BufTy).Contents (Elt F) → (⟨S2x100000x128, .f32⟩ : BufTy).Contents (Elt F) → (⟨S2x100000x128, .f32⟩ : BufTy).Contents (Elt F)),
    binary main_v634 main_v636 main_v637 (addf : (⟨S2x100000x128, .f32⟩ : BufTy).Contents (Elt F) → (⟨S2x100000x128, .f32⟩ : BufTy).Contents (Elt F) → (⟨S2x100000x128, .f32⟩ : BufTy).Contents (Elt F)),
    unary main_v537 main_v638 (broadcastInDim S2x100000x128 ![0, 1, 2] bcast_S2x100000x1_S2x100000x128_0_1_2 : (⟨S2x100000x1, .f32⟩ : BufTy).Contents (Elt F) → (⟨S2x100000x128, .f32⟩ : BufTy).Contents (Elt F)),
    binary main_v637 main_v638 main_v639 (mulf : (⟨S2x100000x128, .f32⟩ : BufTy).Contents (Elt F) → (⟨S2x100000x128, .f32⟩ : BufTy).Contents (Elt F) → (⟨S2x100000x128, .f32⟩ : BufTy).Contents (Elt F)),
    binary main_v632 main_v639 main_v640 (addf : (⟨S2x100000x128, .f32⟩ : BufTy).Contents (Elt F) → (⟨S2x100000x128, .f32⟩ : BufTy).Contents (Elt F) → (⟨S2x100000x128, .f32⟩ : BufTy).Contents (Elt F)),
    nullary main_c_127 (constantI S_ 32 0#32),
    unary main_c_127 main_v641 (broadcastInDim S2x100000 ![] bcast_S_S2x100000 : (⟨S_, .i32⟩ : BufTy).Contents (Elt F) → (⟨S2x100000, .i32⟩ : BufTy).Contents (Elt F)),
    binary main_v516 main_v641 main_v642 (cmpi .slt : (⟨S2x100000, .i32⟩ : BufTy).Contents (Elt F) → (⟨S2x100000, .i32⟩ : BufTy).Contents (Elt F) → (⟨S2x100000, .i1⟩ : BufTy).Contents (Elt F)),
    nullary main_c_128 (constantI S_ 32 16#32),
    unary main_c_128 main_v643 (broadcastInDim S2x100000 ![] bcast_S_S2x100000 : (⟨S_, .i32⟩ : BufTy).Contents (Elt F) → (⟨S2x100000, .i32⟩ : BufTy).Contents (Elt F)),
    binary main_v516 main_v643 main_v644 (addi : (⟨S2x100000, .i32⟩ : BufTy).Contents (Elt F) → (⟨S2x100000, .i32⟩ : BufTy).Contents (Elt F) → (⟨S2x100000, .i32⟩ : BufTy).Contents (Elt F)),
    ternary main_v642 main_v644 main_v516 main_v645 (select : (⟨S2x100000, .i1⟩ : BufTy).Contents (Elt F) → (⟨S2x100000, .i32⟩ : BufTy).Contents (Elt F) → (⟨S2x100000, .i32⟩ : BufTy).Contents (Elt F) → (⟨S2x100000, .i32⟩ : BufTy).Contents (Elt F)),
    nullary main_c_129 (constantI S_ 32 0#32),
    unary main_c_129 main_v646 (broadcastInDim S2x100000 ![] bcast_S_S2x100000 : (⟨S_, .i32⟩ : BufTy).Contents (Elt F) → (⟨S2x100000, .i32⟩ : BufTy).Contents (Elt F)),
    binary main_v518 main_v646 main_v647 (cmpi .slt : (⟨S2x100000, .i32⟩ : BufTy).Contents (Elt F) → (⟨S2x100000, .i32⟩ : BufTy).Contents (Elt F) → (⟨S2x100000, .i1⟩ : BufTy).Contents (Elt F)) ]

set_option maxRecDepth 8192 in
set_option maxHeartbeats 4000000 in
theorem main_part12_eq (c : Dev nD) : main_part12 (F := F) c = seq chunk12 := rfl

set_option maxRecDepth 8192 in
theorem chunk12_sub : (chunk12 : List (HloOp τ sig (Elt F))).Forall fun op => op.bufs ⊆ tcRefs τ sig :=
  ⟨nullary_bufs_sub .., unary_bufs_sub .., binary_bufs_sub .., ternary_bufs_sub .., unary_bufs_sub .., unary_bufs_sub .., unary_bufs_sub .., nary_bufs_sub .., binary_bufs_sub .., nullary_bufs_sub .., unary_bufs_sub .., binary_bufs_sub .., nullary_bufs_sub .., unary_bufs_sub .., binary_bufs_sub .., ternary_bufs_sub .., nullary_bufs_sub .., unary_bufs_sub .., binary_bufs_sub .., nullary_bufs_sub .., unary_bufs_sub .., binary_bufs_sub .., ternary_bufs_sub .., nullary_bufs_sub .., unary_bufs_sub .., binary_bufs_sub .., nullary_bufs_sub .., unary_bufs_sub .., binary_bufs_sub .., ternary_bufs_sub .., unary_bufs_sub .., unary_bufs_sub .., unary_bufs_sub .., nary_bufs_sub .., binary_bufs_sub .., unary_bufs_sub .., binary_bufs_sub .., unary_bufs_sub .., binary_bufs_sub .., binary_bufs_sub .., unary_bufs_sub .., binary_bufs_sub .., unary_bufs_sub .., binary_bufs_sub .., unary_bufs_sub .., binary_bufs_sub .., binary_bufs_sub .., unary_bufs_sub .., binary_bufs_sub .., binary_bufs_sub .., nullary_bufs_sub .., unary_bufs_sub .., binary_bufs_sub .., nullary_bufs_sub .., unary_bufs_sub .., binary_bufs_sub .., ternary_bufs_sub .., nullary_bufs_sub .., unary_bufs_sub .., binary_bufs_sub ..⟩

set_option maxRecDepth 8192 in
theorem chunk12_fresh : (chunk12 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

/-- The references window 12 writes, in order. -/
abbrev WR12 : List (Ref sig .tc) :=
  [main_c_120, main_v598, main_v599, main_v600, main_v601, main_v602, main_v603, main_v604, main_v605, main_c_121, main_v606, main_v607, main_c_122, main_v608, main_v609, main_v610, main_c_123, main_v611, main_v612, main_c_124, main_v613, main_v614, main_v615, main_c_125, main_v616, main_v617, main_c_126, main_v618, main_v619, main_v620, main_v621, main_v622, main_v623, main_v624, main_v625, main_v626, main_v627, main_v628, main_v629, main_v630, main_v631, main_v632, main_v633, main_v634, main_v635, main_v636, main_v637, main_v638, main_v639, main_v640, main_c_127, main_v641, main_v642, main_c_128, main_v643, main_v644, main_v645, main_c_129, main_v646, main_v647]

set_option maxRecDepth 8192 in
theorem chunk12_writes : Cert.PeelLib.WritesIn (chunk12 : List (HloOp τ sig (Elt F))) WR12 :=
  Cert.PeelLib.writesIn_of_forall₂ (by (repeat (refine List.Forall₂.cons rfl ?_)); exact List.Forall₂.nil)

/-- The reference's operations 796 … 855 of 910, in order. -/
abbrev chunk13 : List (HloOp τ sig (Elt F)) :=
  [ nullary main_c_130 (constantI S_ 32 16#32),
    unary main_c_130 main_v648 (broadcastInDim S2x100000 ![] bcast_S_S2x100000 : (⟨S_, .i32⟩ : BufTy).Contents (Elt F) → (⟨S2x100000, .i32⟩ : BufTy).Contents (Elt F)),
    binary main_v518 main_v648 main_v649 (addi : (⟨S2x100000, .i32⟩ : BufTy).Contents (Elt F) → (⟨S2x100000, .i32⟩ : BufTy).Contents (Elt F) → (⟨S2x100000, .i32⟩ : BufTy).Contents (Elt F)),
    ternary main_v647 main_v649 main_v518 main_v650 (select : (⟨S2x100000, .i1⟩ : BufTy).Contents (Elt F) → (⟨S2x100000, .i32⟩ : BufTy).Contents (Elt F) → (⟨S2x100000, .i32⟩ : BufTy).Contents (Elt F) → (⟨S2x100000, .i32⟩ : BufTy).Contents (Elt F)),
    nullary main_c_131 (constantI S_ 32 0#32),
    unary main_c_131 main_v651 (broadcastInDim S2x100000 ![] bcast_S_S2x100000 : (⟨S_, .i32⟩ : BufTy).Contents (Elt F) → (⟨S2x100000, .i32⟩ : BufTy).Contents (Elt F)),
    binary main_v521 main_v651 main_v652 (cmpi .slt : (⟨S2x100000, .i32⟩ : BufTy).Contents (Elt F) → (⟨S2x100000, .i32⟩ : BufTy).Contents (Elt F) → (⟨S2x100000, .i1⟩ : BufTy).Contents (Elt F)),
    nullary main_c_132 (constantI S_ 32 16#32),
    unary main_c_132 main_v653 (broadcastInDim S2x100000 ![] bcast_S_S2x100000 : (⟨S_, .i32⟩ : BufTy).Contents (Elt F) → (⟨S2x100000, .i32⟩ : BufTy).Contents (Elt F)),
    binary main_v521 main_v653 main_v654 (addi : (⟨S2x100000, .i32⟩ : BufTy).Contents (Elt F) → (⟨S2x100000, .i32⟩ : BufTy).Contents (Elt F) → (⟨S2x100000, .i32⟩ : BufTy).Contents (Elt F)),
    ternary main_v652 main_v654 main_v521 main_v655 (select : (⟨S2x100000, .i1⟩ : BufTy).Contents (Elt F) → (⟨S2x100000, .i32⟩ : BufTy).Contents (Elt F) → (⟨S2x100000, .i32⟩ : BufTy).Contents (Elt F) → (⟨S2x100000, .i32⟩ : BufTy).Contents (Elt F)),
    unary main_v645 main_v656 (broadcastInDim S2x100000x1 ![0, 1] bcast_S2x100000_S2x100000x1_0_1 : (⟨S2x100000, .i32⟩ : BufTy).Contents (Elt F) → (⟨S2x100000x1, .i32⟩ : BufTy).Contents (Elt F)),
    unary main_v650 main_v657 (broadcastInDim S2x100000x1 ![0, 1] bcast_S2x100000_S2x100000x1_0_1 : (⟨S2x100000, .i32⟩ : BufTy).Contents (Elt F) → (⟨S2x100000x1, .i32⟩ : BufTy).Contents (Elt F)),
    unary main_v655 main_v658 (broadcastInDim S2x100000x1 ![0, 1] bcast_S2x100000_S2x100000x1_0_1 : (⟨S2x100000, .i32⟩ : BufTy).Contents (Elt F) → (⟨S2x100000x1, .i32⟩ : BufTy).Contents (Elt F)),
    nary ![main_v656, main_v657, main_v658] main_v659 (fun u => concatenate S2x100000x3 2 [⟨S2x100000x1, u 0⟩, ⟨S2x100000x1, u 1⟩, ⟨S2x100000x1, u 2⟩] concatenates_S2x100000x1_S2x100000x1_S2x100000x1_S2x100000x3_d2),
    binary main_arg3 main_v659 main_v660 ((fun x i => Host.gather gather_S2x16x16x16x128_S2x100000x3_S2x100000x128_2_123_0_0_123_2_1111128 x i) : (⟨S2x16x16x16x128, .f32⟩ : BufTy).Contents (Elt F) → (⟨S2x100000x3, .i32⟩ : BufTy).Contents (Elt F) → (⟨S2x100000x128, .f32⟩ : BufTy).Contents (Elt F)),
    nullary main_c_133 (constantI S_ 32 0#32),
    unary main_c_133 main_v661 (broadcastInDim S2x100000 ![] bcast_S_S2x100000 : (⟨S_, .i32⟩ : BufTy).Contents (Elt F) → (⟨S2x100000, .i32⟩ : BufTy).Contents (Elt F)),
    binary main_v517 main_v661 main_v662 (cmpi .slt : (⟨S2x100000, .i32⟩ : BufTy).Contents (Elt F) → (⟨S2x100000, .i32⟩ : BufTy).Contents (Elt F) → (⟨S2x100000, .i1⟩ : BufTy).Contents (Elt F)),
    nullary main_c_134 (constantI S_ 32 16#32),
    unary main_c_134 main_v663 (broadcastInDim S2x100000 ![] bcast_S_S2x100000 : (⟨S_, .i32⟩ : BufTy).Contents (Elt F) → (⟨S2x100000, .i32⟩ : BufTy).Contents (Elt F)),
    binary main_v517 main_v663 main_v664 (addi : (⟨S2x100000, .i32⟩ : BufTy).Contents (Elt F) → (⟨S2x100000, .i32⟩ : BufTy).Contents (Elt F) → (⟨S2x100000, .i32⟩ : BufTy).Contents (Elt F)),
    ternary main_v662 main_v664 main_v517 main_v665 (select : (⟨S2x100000, .i1⟩ : BufTy).Contents (Elt F) → (⟨S2x100000, .i32⟩ : BufTy).Contents (Elt F) → (⟨S2x100000, .i32⟩ : BufTy).Contents (Elt F) → (⟨S2x100000, .i32⟩ : BufTy).Contents (Elt F)),
    nullary main_c_135 (constantI S_ 32 0#32),
    unary main_c_135 main_v666 (broadcastInDim S2x100000 ![] bcast_S_S2x100000 : (⟨S_, .i32⟩ : BufTy).Contents (Elt F) → (⟨S2x100000, .i32⟩ : BufTy).Contents (Elt F)),
    binary main_v518 main_v666 main_v667 (cmpi .slt : (⟨S2x100000, .i32⟩ : BufTy).Contents (Elt F) → (⟨S2x100000, .i32⟩ : BufTy).Contents (Elt F) → (⟨S2x100000, .i1⟩ : BufTy).Contents (Elt F)),
    nullary main_c_136 (constantI S_ 32 16#32),
    unary main_c_136 main_v668 (broadcastInDim S2x100000 ![] bcast_S_S2x100000 : (⟨S_, .i32⟩ : BufTy).Contents (Elt F) → (⟨S2x100000, .i32⟩ : BufTy).Contents (Elt F)),
    binary main_v518 main_v668 main_v669 (addi : (⟨S2x100000, .i32⟩ : BufTy).Contents (Elt F) → (⟨S2x100000, .i32⟩ : BufTy).Contents (Elt F) → (⟨S2x100000, .i32⟩ : BufTy).Contents (Elt F)),
    ternary main_v667 main_v669 main_v518 main_v670 (select : (⟨S2x100000, .i1⟩ : BufTy).Contents (Elt F) → (⟨S2x100000, .i32⟩ : BufTy).Contents (Elt F) → (⟨S2x100000, .i32⟩ : BufTy).Contents (Elt F) → (⟨S2x100000, .i32⟩ : BufTy).Contents (Elt F)),
    nullary main_c_137 (constantI S_ 32 0#32),
    unary main_c_137 main_v671 (broadcastInDim S2x100000 ![] bcast_S_S2x100000 : (⟨S_, .i32⟩ : BufTy).Contents (Elt F) → (⟨S2x100000, .i32⟩ : BufTy).Contents (Elt F)),
    binary main_v521 main_v671 main_v672 (cmpi .slt : (⟨S2x100000, .i32⟩ : BufTy).Contents (Elt F) → (⟨S2x100000, .i32⟩ : BufTy).Contents (Elt F) → (⟨S2x100000, .i1⟩ : BufTy).Contents (Elt F)),
    nullary main_c_138 (constantI S_ 32 16#32),
    unary main_c_138 main_v673 (broadcastInDim S2x100000 ![] bcast_S_S2x100000 : (⟨S_, .i32⟩ : BufTy).Contents (Elt F) → (⟨S2x100000, .i32⟩ : BufTy).Contents (Elt F)),
    binary main_v521 main_v673 main_v674 (addi : (⟨S2x100000, .i32⟩ : BufTy).Contents (Elt F) → (⟨S2x100000, .i32⟩ : BufTy).Contents (Elt F) → (⟨S2x100000, .i32⟩ : BufTy).Contents (Elt F)),
    ternary main_v672 main_v674 main_v521 main_v675 (select : (⟨S2x100000, .i1⟩ : BufTy).Contents (Elt F) → (⟨S2x100000, .i32⟩ : BufTy).Contents (Elt F) → (⟨S2x100000, .i32⟩ : BufTy).Contents (Elt F) → (⟨S2x100000, .i32⟩ : BufTy).Contents (Elt F)),
    unary main_v665 main_v676 (broadcastInDim S2x100000x1 ![0, 1] bcast_S2x100000_S2x100000x1_0_1 : (⟨S2x100000, .i32⟩ : BufTy).Contents (Elt F) → (⟨S2x100000x1, .i32⟩ : BufTy).Contents (Elt F)),
    unary main_v670 main_v677 (broadcastInDim S2x100000x1 ![0, 1] bcast_S2x100000_S2x100000x1_0_1 : (⟨S2x100000, .i32⟩ : BufTy).Contents (Elt F) → (⟨S2x100000x1, .i32⟩ : BufTy).Contents (Elt F)),
    unary main_v675 main_v678 (broadcastInDim S2x100000x1 ![0, 1] bcast_S2x100000_S2x100000x1_0_1 : (⟨S2x100000, .i32⟩ : BufTy).Contents (Elt F) → (⟨S2x100000x1, .i32⟩ : BufTy).Contents (Elt F)),
    nary ![main_v676, main_v677, main_v678] main_v679 (fun u => concatenate S2x100000x3 2 [⟨S2x100000x1, u 0⟩, ⟨S2x100000x1, u 1⟩, ⟨S2x100000x1, u 2⟩] concatenates_S2x100000x1_S2x100000x1_S2x100000x1_S2x100000x3_d2),
    binary main_arg3 main_v679 main_v680 ((fun x i => Host.gather gather_S2x16x16x16x128_S2x100000x3_S2x100000x128_2_123_0_0_123_2_1111128 x i) : (⟨S2x16x16x16x128, .f32⟩ : BufTy).Contents (Elt F) → (⟨S2x100000x3, .i32⟩ : BufTy).Contents (Elt F) → (⟨S2x100000x128, .f32⟩ : BufTy).Contents (Elt F)),
    nullary main_c_139 (constantI S_ 32 0#32),
    unary main_c_139 main_v681 (broadcastInDim S2x100000 ![] bcast_S_S2x100000 : (⟨S_, .i32⟩ : BufTy).Contents (Elt F) → (⟨S2x100000, .i32⟩ : BufTy).Contents (Elt F)),
    binary main_v516 main_v681 main_v682 (cmpi .slt : (⟨S2x100000, .i32⟩ : BufTy).Contents (Elt F) → (⟨S2x100000, .i32⟩ : BufTy).Contents (Elt F) → (⟨S2x100000, .i1⟩ : BufTy).Contents (Elt F)),
    nullary main_c_140 (constantI S_ 32 16#32),
    unary main_c_140 main_v683 (broadcastInDim S2x100000 ![] bcast_S_S2x100000 : (⟨S_, .i32⟩ : BufTy).Contents (Elt F) → (⟨S2x100000, .i32⟩ : BufTy).Contents (Elt F)),
    binary main_v516 main_v683 main_v684 (addi : (⟨S2x100000, .i32⟩ : BufTy).Contents (Elt F) → (⟨S2x100000, .i32⟩ : BufTy).Contents (Elt F) → (⟨S2x100000, .i32⟩ : BufTy).Contents (Elt F)),
    ternary main_v682 main_v684 main_v516 main_v685 (select : (⟨S2x100000, .i1⟩ : BufTy).Contents (Elt F) → (⟨S2x100000, .i32⟩ : BufTy).Contents (Elt F) → (⟨S2x100000, .i32⟩ : BufTy).Contents (Elt F) → (⟨S2x100000, .i32⟩ : BufTy).Contents (Elt F)),
    nullary main_c_141 (constantI S_ 32 0#32),
    unary main_c_141 main_v686 (broadcastInDim S2x100000 ![] bcast_S_S2x100000 : (⟨S_, .i32⟩ : BufTy).Contents (Elt F) → (⟨S2x100000, .i32⟩ : BufTy).Contents (Elt F)),
    binary main_v519 main_v686 main_v687 (cmpi .slt : (⟨S2x100000, .i32⟩ : BufTy).Contents (Elt F) → (⟨S2x100000, .i32⟩ : BufTy).Contents (Elt F) → (⟨S2x100000, .i1⟩ : BufTy).Contents (Elt F)),
    nullary main_c_142 (constantI S_ 32 16#32),
    unary main_c_142 main_v688 (broadcastInDim S2x100000 ![] bcast_S_S2x100000 : (⟨S_, .i32⟩ : BufTy).Contents (Elt F) → (⟨S2x100000, .i32⟩ : BufTy).Contents (Elt F)),
    binary main_v519 main_v688 main_v689 (addi : (⟨S2x100000, .i32⟩ : BufTy).Contents (Elt F) → (⟨S2x100000, .i32⟩ : BufTy).Contents (Elt F) → (⟨S2x100000, .i32⟩ : BufTy).Contents (Elt F)),
    ternary main_v687 main_v689 main_v519 main_v690 (select : (⟨S2x100000, .i1⟩ : BufTy).Contents (Elt F) → (⟨S2x100000, .i32⟩ : BufTy).Contents (Elt F) → (⟨S2x100000, .i32⟩ : BufTy).Contents (Elt F) → (⟨S2x100000, .i32⟩ : BufTy).Contents (Elt F)),
    nullary main_c_143 (constantI S_ 32 0#32),
    unary main_c_143 main_v691 (broadcastInDim S2x100000 ![] bcast_S_S2x100000 : (⟨S_, .i32⟩ : BufTy).Contents (Elt F) → (⟨S2x100000, .i32⟩ : BufTy).Contents (Elt F)),
    binary main_v521 main_v691 main_v692 (cmpi .slt : (⟨S2x100000, .i32⟩ : BufTy).Contents (Elt F) → (⟨S2x100000, .i32⟩ : BufTy).Contents (Elt F) → (⟨S2x100000, .i1⟩ : BufTy).Contents (Elt F)),
    nullary main_c_144 (constantI S_ 32 16#32) ]

set_option maxRecDepth 8192 in
set_option maxHeartbeats 4000000 in
theorem main_part13_eq (c : Dev nD) : main_part13 (F := F) c = seq chunk13 := rfl

set_option maxRecDepth 8192 in
theorem chunk13_sub : (chunk13 : List (HloOp τ sig (Elt F))).Forall fun op => op.bufs ⊆ tcRefs τ sig :=
  ⟨nullary_bufs_sub .., unary_bufs_sub .., binary_bufs_sub .., ternary_bufs_sub .., nullary_bufs_sub .., unary_bufs_sub .., binary_bufs_sub .., nullary_bufs_sub .., unary_bufs_sub .., binary_bufs_sub .., ternary_bufs_sub .., unary_bufs_sub .., unary_bufs_sub .., unary_bufs_sub .., nary_bufs_sub .., binary_bufs_sub .., nullary_bufs_sub .., unary_bufs_sub .., binary_bufs_sub .., nullary_bufs_sub .., unary_bufs_sub .., binary_bufs_sub .., ternary_bufs_sub .., nullary_bufs_sub .., unary_bufs_sub .., binary_bufs_sub .., nullary_bufs_sub .., unary_bufs_sub .., binary_bufs_sub .., ternary_bufs_sub .., nullary_bufs_sub .., unary_bufs_sub .., binary_bufs_sub .., nullary_bufs_sub .., unary_bufs_sub .., binary_bufs_sub .., ternary_bufs_sub .., unary_bufs_sub .., unary_bufs_sub .., unary_bufs_sub .., nary_bufs_sub .., binary_bufs_sub .., nullary_bufs_sub .., unary_bufs_sub .., binary_bufs_sub .., nullary_bufs_sub .., unary_bufs_sub .., binary_bufs_sub .., ternary_bufs_sub .., nullary_bufs_sub .., unary_bufs_sub .., binary_bufs_sub .., nullary_bufs_sub .., unary_bufs_sub .., binary_bufs_sub .., ternary_bufs_sub .., nullary_bufs_sub .., unary_bufs_sub .., binary_bufs_sub .., nullary_bufs_sub ..⟩

set_option maxRecDepth 8192 in
theorem chunk13_fresh : (chunk13 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

/-- The references window 13 writes, in order. -/
abbrev WR13 : List (Ref sig .tc) :=
  [main_c_130, main_v648, main_v649, main_v650, main_c_131, main_v651, main_v652, main_c_132, main_v653, main_v654, main_v655, main_v656, main_v657, main_v658, main_v659, main_v660, main_c_133, main_v661, main_v662, main_c_134, main_v663, main_v664, main_v665, main_c_135, main_v666, main_v667, main_c_136, main_v668, main_v669, main_v670, main_c_137, main_v671, main_v672, main_c_138, main_v673, main_v674, main_v675, main_v676, main_v677, main_v678, main_v679, main_v680, main_c_139, main_v681, main_v682, main_c_140, main_v683, main_v684, main_v685, main_c_141, main_v686, main_v687, main_c_142, main_v688, main_v689, main_v690, main_c_143, main_v691, main_v692, main_c_144]

set_option maxRecDepth 8192 in
theorem chunk13_writes : Cert.PeelLib.WritesIn (chunk13 : List (HloOp τ sig (Elt F))) WR13 :=
  Cert.PeelLib.writesIn_of_forall₂ (by (repeat (refine List.Forall₂.cons rfl ?_)); exact List.Forall₂.nil)

/-- The reference's operations 856 … 910 of 910, in order. -/
abbrev chunk14 : List (HloOp τ sig (Elt F)) :=
  [ unary main_c_144 main_v693 (broadcastInDim S2x100000 ![] bcast_S_S2x100000 : (⟨S_, .i32⟩ : BufTy).Contents (Elt F) → (⟨S2x100000, .i32⟩ : BufTy).Contents (Elt F)),
    binary main_v521 main_v693 main_v694 (addi : (⟨S2x100000, .i32⟩ : BufTy).Contents (Elt F) → (⟨S2x100000, .i32⟩ : BufTy).Contents (Elt F) → (⟨S2x100000, .i32⟩ : BufTy).Contents (Elt F)),
    ternary main_v692 main_v694 main_v521 main_v695 (select : (⟨S2x100000, .i1⟩ : BufTy).Contents (Elt F) → (⟨S2x100000, .i32⟩ : BufTy).Contents (Elt F) → (⟨S2x100000, .i32⟩ : BufTy).Contents (Elt F) → (⟨S2x100000, .i32⟩ : BufTy).Contents (Elt F)),
    unary main_v685 main_v696 (broadcastInDim S2x100000x1 ![0, 1] bcast_S2x100000_S2x100000x1_0_1 : (⟨S2x100000, .i32⟩ : BufTy).Contents (Elt F) → (⟨S2x100000x1, .i32⟩ : BufTy).Contents (Elt F)),
    unary main_v690 main_v697 (broadcastInDim S2x100000x1 ![0, 1] bcast_S2x100000_S2x100000x1_0_1 : (⟨S2x100000, .i32⟩ : BufTy).Contents (Elt F) → (⟨S2x100000x1, .i32⟩ : BufTy).Contents (Elt F)),
    unary main_v695 main_v698 (broadcastInDim S2x100000x1 ![0, 1] bcast_S2x100000_S2x100000x1_0_1 : (⟨S2x100000, .i32⟩ : BufTy).Contents (Elt F) → (⟨S2x100000x1, .i32⟩ : BufTy).Contents (Elt F)),
    nary ![main_v696, main_v697, main_v698] main_v699 (fun u => concatenate S2x100000x3 2 [⟨S2x100000x1, u 0⟩, ⟨S2x100000x1, u 1⟩, ⟨S2x100000x1, u 2⟩] concatenates_S2x100000x1_S2x100000x1_S2x100000x1_S2x100000x3_d2),
    binary main_arg3 main_v699 main_v700 ((fun x i => Host.gather gather_S2x16x16x16x128_S2x100000x3_S2x100000x128_2_123_0_0_123_2_1111128 x i) : (⟨S2x16x16x16x128, .f32⟩ : BufTy).Contents (Elt F) → (⟨S2x100000x3, .i32⟩ : BufTy).Contents (Elt F) → (⟨S2x100000x128, .f32⟩ : BufTy).Contents (Elt F)),
    nullary main_c_145 (constantI S_ 32 0#32),
    unary main_c_145 main_v701 (broadcastInDim S2x100000 ![] bcast_S_S2x100000 : (⟨S_, .i32⟩ : BufTy).Contents (Elt F) → (⟨S2x100000, .i32⟩ : BufTy).Contents (Elt F)),
    binary main_v517 main_v701 main_v702 (cmpi .slt : (⟨S2x100000, .i32⟩ : BufTy).Contents (Elt F) → (⟨S2x100000, .i32⟩ : BufTy).Contents (Elt F) → (⟨S2x100000, .i1⟩ : BufTy).Contents (Elt F)),
    nullary main_c_146 (constantI S_ 32 16#32),
    unary main_c_146 main_v703 (broadcastInDim S2x100000 ![] bcast_S_S2x100000 : (⟨S_, .i32⟩ : BufTy).Contents (Elt F) → (⟨S2x100000, .i32⟩ : BufTy).Contents (Elt F)),
    binary main_v517 main_v703 main_v704 (addi : (⟨S2x100000, .i32⟩ : BufTy).Contents (Elt F) → (⟨S2x100000, .i32⟩ : BufTy).Contents (Elt F) → (⟨S2x100000, .i32⟩ : BufTy).Contents (Elt F)),
    ternary main_v702 main_v704 main_v517 main_v705 (select : (⟨S2x100000, .i1⟩ : BufTy).Contents (Elt F) → (⟨S2x100000, .i32⟩ : BufTy).Contents (Elt F) → (⟨S2x100000, .i32⟩ : BufTy).Contents (Elt F) → (⟨S2x100000, .i32⟩ : BufTy).Contents (Elt F)),
    nullary main_c_147 (constantI S_ 32 0#32),
    unary main_c_147 main_v706 (broadcastInDim S2x100000 ![] bcast_S_S2x100000 : (⟨S_, .i32⟩ : BufTy).Contents (Elt F) → (⟨S2x100000, .i32⟩ : BufTy).Contents (Elt F)),
    binary main_v519 main_v706 main_v707 (cmpi .slt : (⟨S2x100000, .i32⟩ : BufTy).Contents (Elt F) → (⟨S2x100000, .i32⟩ : BufTy).Contents (Elt F) → (⟨S2x100000, .i1⟩ : BufTy).Contents (Elt F)),
    nullary main_c_148 (constantI S_ 32 16#32),
    unary main_c_148 main_v708 (broadcastInDim S2x100000 ![] bcast_S_S2x100000 : (⟨S_, .i32⟩ : BufTy).Contents (Elt F) → (⟨S2x100000, .i32⟩ : BufTy).Contents (Elt F)),
    binary main_v519 main_v708 main_v709 (addi : (⟨S2x100000, .i32⟩ : BufTy).Contents (Elt F) → (⟨S2x100000, .i32⟩ : BufTy).Contents (Elt F) → (⟨S2x100000, .i32⟩ : BufTy).Contents (Elt F)),
    ternary main_v707 main_v709 main_v519 main_v710 (select : (⟨S2x100000, .i1⟩ : BufTy).Contents (Elt F) → (⟨S2x100000, .i32⟩ : BufTy).Contents (Elt F) → (⟨S2x100000, .i32⟩ : BufTy).Contents (Elt F) → (⟨S2x100000, .i32⟩ : BufTy).Contents (Elt F)),
    nullary main_c_149 (constantI S_ 32 0#32),
    unary main_c_149 main_v711 (broadcastInDim S2x100000 ![] bcast_S_S2x100000 : (⟨S_, .i32⟩ : BufTy).Contents (Elt F) → (⟨S2x100000, .i32⟩ : BufTy).Contents (Elt F)),
    binary main_v521 main_v711 main_v712 (cmpi .slt : (⟨S2x100000, .i32⟩ : BufTy).Contents (Elt F) → (⟨S2x100000, .i32⟩ : BufTy).Contents (Elt F) → (⟨S2x100000, .i1⟩ : BufTy).Contents (Elt F)),
    nullary main_c_150 (constantI S_ 32 16#32),
    unary main_c_150 main_v713 (broadcastInDim S2x100000 ![] bcast_S_S2x100000 : (⟨S_, .i32⟩ : BufTy).Contents (Elt F) → (⟨S2x100000, .i32⟩ : BufTy).Contents (Elt F)),
    binary main_v521 main_v713 main_v714 (addi : (⟨S2x100000, .i32⟩ : BufTy).Contents (Elt F) → (⟨S2x100000, .i32⟩ : BufTy).Contents (Elt F) → (⟨S2x100000, .i32⟩ : BufTy).Contents (Elt F)),
    ternary main_v712 main_v714 main_v521 main_v715 (select : (⟨S2x100000, .i1⟩ : BufTy).Contents (Elt F) → (⟨S2x100000, .i32⟩ : BufTy).Contents (Elt F) → (⟨S2x100000, .i32⟩ : BufTy).Contents (Elt F) → (⟨S2x100000, .i32⟩ : BufTy).Contents (Elt F)),
    unary main_v705 main_v716 (broadcastInDim S2x100000x1 ![0, 1] bcast_S2x100000_S2x100000x1_0_1 : (⟨S2x100000, .i32⟩ : BufTy).Contents (Elt F) → (⟨S2x100000x1, .i32⟩ : BufTy).Contents (Elt F)),
    unary main_v710 main_v717 (broadcastInDim S2x100000x1 ![0, 1] bcast_S2x100000_S2x100000x1_0_1 : (⟨S2x100000, .i32⟩ : BufTy).Contents (Elt F) → (⟨S2x100000x1, .i32⟩ : BufTy).Contents (Elt F)),
    unary main_v715 main_v718 (broadcastInDim S2x100000x1 ![0, 1] bcast_S2x100000_S2x100000x1_0_1 : (⟨S2x100000, .i32⟩ : BufTy).Contents (Elt F) → (⟨S2x100000x1, .i32⟩ : BufTy).Contents (Elt F)),
    nary ![main_v716, main_v717, main_v718] main_v719 (fun u => concatenate S2x100000x3 2 [⟨S2x100000x1, u 0⟩, ⟨S2x100000x1, u 1⟩, ⟨S2x100000x1, u 2⟩] concatenates_S2x100000x1_S2x100000x1_S2x100000x1_S2x100000x3_d2),
    binary main_arg3 main_v719 main_v720 ((fun x i => Host.gather gather_S2x16x16x16x128_S2x100000x3_S2x100000x128_2_123_0_0_123_2_1111128 x i) : (⟨S2x16x16x16x128, .f32⟩ : BufTy).Contents (Elt F) → (⟨S2x100000x3, .i32⟩ : BufTy).Contents (Elt F) → (⟨S2x100000x128, .f32⟩ : BufTy).Contents (Elt F)),
    unary main_v525 main_v721 (broadcastInDim S2x100000x128 ![0, 1, 2] bcast_S2x100000x1_S2x100000x128_0_1_2 : (⟨S2x100000x1, .f32⟩ : BufTy).Contents (Elt F) → (⟨S2x100000x128, .f32⟩ : BufTy).Contents (Elt F)),
    binary main_v720 main_v721 main_v722 (mulf : (⟨S2x100000x128, .f32⟩ : BufTy).Contents (Elt F) → (⟨S2x100000x128, .f32⟩ : BufTy).Contents (Elt F) → (⟨S2x100000x128, .f32⟩ : BufTy).Contents (Elt F)),
    unary main_v529 main_v723 (broadcastInDim S2x100000x128 ![0, 1, 2] bcast_S2x100000x1_S2x100000x128_0_1_2 : (⟨S2x100000x1, .f32⟩ : BufTy).Contents (Elt F) → (⟨S2x100000x128, .f32⟩ : BufTy).Contents (Elt F)),
    binary main_v700 main_v723 main_v724 (mulf : (⟨S2x100000x128, .f32⟩ : BufTy).Contents (Elt F) → (⟨S2x100000x128, .f32⟩ : BufTy).Contents (Elt F) → (⟨S2x100000x128, .f32⟩ : BufTy).Contents (Elt F)),
    binary main_v722 main_v724 main_v725 (addf : (⟨S2x100000x128, .f32⟩ : BufTy).Contents (Elt F) → (⟨S2x100000x128, .f32⟩ : BufTy).Contents (Elt F) → (⟨S2x100000x128, .f32⟩ : BufTy).Contents (Elt F)),
    unary main_v533 main_v726 (broadcastInDim S2x100000x128 ![0, 1, 2] bcast_S2x100000x1_S2x100000x128_0_1_2 : (⟨S2x100000x1, .f32⟩ : BufTy).Contents (Elt F) → (⟨S2x100000x128, .f32⟩ : BufTy).Contents (Elt F)),
    binary main_v725 main_v726 main_v727 (mulf : (⟨S2x100000x128, .f32⟩ : BufTy).Contents (Elt F) → (⟨S2x100000x128, .f32⟩ : BufTy).Contents (Elt F) → (⟨S2x100000x128, .f32⟩ : BufTy).Contents (Elt F)),
    unary main_v525 main_v728 (broadcastInDim S2x100000x128 ![0, 1, 2] bcast_S2x100000x1_S2x100000x128_0_1_2 : (⟨S2x100000x1, .f32⟩ : BufTy).Contents (Elt F) → (⟨S2x100000x128, .f32⟩ : BufTy).Contents (Elt F)),
    binary main_v680 main_v728 main_v729 (mulf : (⟨S2x100000x128, .f32⟩ : BufTy).Contents (Elt F) → (⟨S2x100000x128, .f32⟩ : BufTy).Contents (Elt F) → (⟨S2x100000x128, .f32⟩ : BufTy).Contents (Elt F)),
    unary main_v529 main_v730 (broadcastInDim S2x100000x128 ![0, 1, 2] bcast_S2x100000x1_S2x100000x128_0_1_2 : (⟨S2x100000x1, .f32⟩ : BufTy).Contents (Elt F) → (⟨S2x100000x128, .f32⟩ : BufTy).Contents (Elt F)),
    binary main_v660 main_v730 main_v731 (mulf : (⟨S2x100000x128, .f32⟩ : BufTy).Contents (Elt F) → (⟨S2x100000x128, .f32⟩ : BufTy).Contents (Elt F) → (⟨S2x100000x128, .f32⟩ : BufTy).Contents (Elt F)),
    binary main_v729 main_v731 main_v732 (addf : (⟨S2x100000x128, .f32⟩ : BufTy).Contents (Elt F) → (⟨S2x100000x128, .f32⟩ : BufTy).Contents (Elt F) → (⟨S2x100000x128, .f32⟩ : BufTy).Contents (Elt F)),
    unary main_v537 main_v733 (broadcastInDim S2x100000x128 ![0, 1, 2] bcast_S2x100000x1_S2x100000x128_0_1_2 : (⟨S2x100000x1, .f32⟩ : BufTy).Contents (Elt F) → (⟨S2x100000x128, .f32⟩ : BufTy).Contents (Elt F)),
    binary main_v732 main_v733 main_v734 (mulf : (⟨S2x100000x128, .f32⟩ : BufTy).Contents (Elt F) → (⟨S2x100000x128, .f32⟩ : BufTy).Contents (Elt F) → (⟨S2x100000x128, .f32⟩ : BufTy).Contents (Elt F)),
    binary main_v727 main_v734 main_v735 (addf : (⟨S2x100000x128, .f32⟩ : BufTy).Contents (Elt F) → (⟨S2x100000x128, .f32⟩ : BufTy).Contents (Elt F) → (⟨S2x100000x128, .f32⟩ : BufTy).Contents (Elt F)),
    unary main_v541 main_v736 (broadcastInDim S2x100000x128 ![0, 1, 2] bcast_S2x100000x1_S2x100000x128_0_1_2 : (⟨S2x100000x1, .f32⟩ : BufTy).Contents (Elt F) → (⟨S2x100000x128, .f32⟩ : BufTy).Contents (Elt F)),
    binary main_v735 main_v736 main_v737 (mulf : (⟨S2x100000x128, .f32⟩ : BufTy).Contents (Elt F) → (⟨S2x100000x128, .f32⟩ : BufTy).Contents (Elt F) → (⟨S2x100000x128, .f32⟩ : BufTy).Contents (Elt F)),
    unary main_v545 main_v738 (broadcastInDim S2x100000x128 ![0, 1, 2] bcast_S2x100000x1_S2x100000x128_0_1_2 : (⟨S2x100000x1, .f32⟩ : BufTy).Contents (Elt F) → (⟨S2x100000x128, .f32⟩ : BufTy).Contents (Elt F)),
    binary main_v640 main_v738 main_v739 (mulf : (⟨S2x100000x128, .f32⟩ : BufTy).Contents (Elt F) → (⟨S2x100000x128, .f32⟩ : BufTy).Contents (Elt F) → (⟨S2x100000x128, .f32⟩ : BufTy).Contents (Elt F)),
    binary main_v737 main_v739 main_v740 (addf : (⟨S2x100000x128, .f32⟩ : BufTy).Contents (Elt F) → (⟨S2x100000x128, .f32⟩ : BufTy).Contents (Elt F) → (⟨S2x100000x128, .f32⟩ : BufTy).Contents (Elt F)),
    nary ![main_v246, main_v493, main_v740] main_v741 (fun u => concatenate S2x100000x224 2 [⟨S2x100000x32, u 0⟩, ⟨S2x100000x64, u 1⟩, ⟨S2x100000x128, u 2⟩] concatenates_S2x100000x32_S2x100000x64_S2x100000x128_S2x100000x224_d2) ]

set_option maxRecDepth 8192 in
set_option maxHeartbeats 4000000 in
theorem main_part14_eq (c : Dev nD) : main_part14 (F := F) c = seq chunk14 := rfl

set_option maxRecDepth 8192 in
theorem chunk14_sub : (chunk14 : List (HloOp τ sig (Elt F))).Forall fun op => op.bufs ⊆ tcRefs τ sig :=
  ⟨unary_bufs_sub .., binary_bufs_sub .., ternary_bufs_sub .., unary_bufs_sub .., unary_bufs_sub .., unary_bufs_sub .., nary_bufs_sub .., binary_bufs_sub .., nullary_bufs_sub .., unary_bufs_sub .., binary_bufs_sub .., nullary_bufs_sub .., unary_bufs_sub .., binary_bufs_sub .., ternary_bufs_sub .., nullary_bufs_sub .., unary_bufs_sub .., binary_bufs_sub .., nullary_bufs_sub .., unary_bufs_sub .., binary_bufs_sub .., ternary_bufs_sub .., nullary_bufs_sub .., unary_bufs_sub .., binary_bufs_sub .., nullary_bufs_sub .., unary_bufs_sub .., binary_bufs_sub .., ternary_bufs_sub .., unary_bufs_sub .., unary_bufs_sub .., unary_bufs_sub .., nary_bufs_sub .., binary_bufs_sub .., unary_bufs_sub .., binary_bufs_sub .., unary_bufs_sub .., binary_bufs_sub .., binary_bufs_sub .., unary_bufs_sub .., binary_bufs_sub .., unary_bufs_sub .., binary_bufs_sub .., unary_bufs_sub .., binary_bufs_sub .., binary_bufs_sub .., unary_bufs_sub .., binary_bufs_sub .., binary_bufs_sub .., unary_bufs_sub .., binary_bufs_sub .., unary_bufs_sub .., binary_bufs_sub .., binary_bufs_sub .., nary_bufs_sub ..⟩

set_option maxRecDepth 8192 in
theorem chunk14_fresh : (chunk14 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

/-- The references window 14 writes, in order. -/
abbrev WR14 : List (Ref sig .tc) :=
  [main_v693, main_v694, main_v695, main_v696, main_v697, main_v698, main_v699, main_v700, main_c_145, main_v701, main_v702, main_c_146, main_v703, main_v704, main_v705, main_c_147, main_v706, main_v707, main_c_148, main_v708, main_v709, main_v710, main_c_149, main_v711, main_v712, main_c_150, main_v713, main_v714, main_v715, main_v716, main_v717, main_v718, main_v719, main_v720, main_v721, main_v722, main_v723, main_v724, main_v725, main_v726, main_v727, main_v728, main_v729, main_v730, main_v731, main_v732, main_v733, main_v734, main_v735, main_v736, main_v737, main_v738, main_v739, main_v740, main_v741]

set_option maxRecDepth 8192 in
theorem chunk14_writes : Cert.PeelLib.WritesIn (chunk14 : List (HloOp τ sig (Elt F))) WR14 :=
  Cert.PeelLib.writesIn_of_forall₂ (by (repeat (refine List.Forall₂.cons rfl ?_)); exact List.Forall₂.nil)

end Cert.ReferenceIdeal.Hand

end
-- ==== Proof.Ref.Ops.lean ====
/-
  The reference program's run, read off its operations.

  The program is a straight line of 910 host operations, printed in fifteen windows; `chunks` lists the windows'
  operation lists in order. The program is the flattened list run in a row (`main_eq`: window by window, then the
  windows joined), so on every device every weakly fair execution terminates with each buffer at the fold of the
  operations' results over the launch contents (`run0`); `VR` names that final valuation. Every operation writes
  one result buffer of its own and none writes an argument, so the six arguments end as they began (`VR_main_argK`).
-/
import proofs.«414534_j76854144795318_3_alg».proof.Proof.Ref.OpsTable
import Idealize.ShloMosaic.Lib.StableHlo.Run
import Idealize.ShloMosaic.Lib.Pipeline.Frame

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

/-- The fifteen windows' operation lists, in order. -/
abbrev chunks : List (List (HloOp τ sig (Elt F))) :=
  [chunk0, chunk1, chunk2, chunk3, chunk4, chunk5, chunk6, chunk7, chunk8, chunk9, chunk10, chunk11, chunk12, chunk13, chunk14]

/-- The references each window writes, window by window. -/
abbrev WRtab : List (List (Ref sig .tc)) :=
  [WR0, WR1, WR2, WR3, WR4, WR5, WR6, WR7, WR8, WR9, WR10, WR11, WR12, WR13, WR14]

/-- The flattened list is the windows' lists appended in order. -/
theorem chunks_flatten :
    (chunks (F := F)).flatten
      = chunk0 ++ (chunk1 ++ (chunk2 ++ (chunk3 ++ (chunk4 ++ (chunk5 ++ (chunk6 ++ (chunk7 ++ (chunk8 ++ (chunk9 ++ (chunk10 ++ (chunk11 ++ (chunk12 ++ (chunk13 ++ chunk14))))))))))))) := by
  simp only [chunks, List.flatten_cons, List.flatten_nil, List.append_nil]

/-- The program is its 910 operations run in a row: each window is its operations run in a row, and two lines run one
    after the other are their concatenation run as one. -/
theorem main_eq (c : Dev nD) : main (F := F) c = seq (chunks (F := F)).flatten := by
  rw [chunks_flatten]
  simp only [seq_append, ← main_part0_eq c, ← main_part1_eq c, ← main_part2_eq c, ← main_part3_eq c, ← main_part4_eq c, ← main_part5_eq c, ← main_part6_eq c, ← main_part7_eq c, ← main_part8_eq c, ← main_part9_eq c, ← main_part10_eq c, ← main_part11_eq c, ← main_part12_eq c, ← main_part13_eq c, ← main_part14_eq c]
  rfl

/-- The program's signature scopes no buffer and no semaphore. -/
theorem scopedRefs_eq : (Finset.univ.filter fun b : Ref sig .tc => b.isScoped) = ∅ := by decide
theorem scopedSems_eq : (Finset.univ.filter fun sm : SemLoc sig => sm.isScoped .tc) = ∅ := by decide

/-- What holds of every element of every list holds of every element of the flattened list. -/
theorem forall_flatten {α : Type _} {p : α → Prop} {L : List (List α)} (h : L.Forall fun l => l.Forall p) :
    L.flatten.Forall p :=
  List.forall_iff_forall_mem.mpr fun a ha => by
    obtain ⟨l, hl, hal⟩ := List.mem_flatten.mp ha
    exact List.forall_iff_forall_mem.mp (List.forall_iff_forall_mem.mp h l hl) a hal

/-- Every operation touches TensorCore references only. -/
theorem chunks_sub : (chunks (F := F)).flatten.Forall fun op => op.bufs ⊆ tcRefs τ sig :=
  forall_flatten ⟨chunk0_sub, chunk1_sub, chunk2_sub, chunk3_sub, chunk4_sub, chunk5_sub, chunk6_sub, chunk7_sub, chunk8_sub, chunk9_sub, chunk10_sub, chunk11_sub, chunk12_sub, chunk13_sub, chunk14_sub⟩

/-- Every operation determines everything it writes. -/
theorem chunks_fresh : (chunks (F := F)).flatten.Forall fun op => op.fresh = ∅ :=
  forall_flatten ⟨chunk0_fresh, chunk1_fresh, chunk2_fresh, chunk3_fresh, chunk4_fresh, chunk5_fresh, chunk6_fresh, chunk7_fresh, chunk8_fresh, chunk9_fresh, chunk10_fresh, chunk11_fresh, chunk12_fresh, chunk13_fresh, chunk14_fresh⟩

/-- On every device, for any float values, from any memory with zero counters: every weakly fair execution of the
    reference terminates with every TensorCore buffer at the fold of the operations' results over its launch contents. -/
theorem run0 (m : (ℓ : Loc nD τ sig) → Buf (Elt F) ℓ) (ρ : Dev nD → PrngReg) :
    θ_run defs (onTc (τ := τ) (main (F := F))) ⟨m, fun _ => 0, ρ⟩ fun r => ∀ (c : Dev nD) (b : Ref sig .tc),
      r.2.mem ((c.tc : Thread nD τ).loc b) = after (chunks (F := F)).flatten (fun b' => m (c, b')) (Proc.devRef .tc b) :=
  run_seq scopedRefs_eq scopedSems_eq defs main (fun _ => (chunks (F := F)).flatten) main_eq (fun _ => chunks_sub) m ρ
    (fun _ => List.forall_iff_forall_mem.mp chunks_fresh)

/-- The contents of buffer `b` on device `c` when the reference has run from memory `m`. -/
abbrev VR (m : (ℓ : Loc nD τ sig) → Buf (Elt F) ℓ) (c : Dev nD) (b : Ref sig .tc) : Buf (Elt F) ((c : Thread nD τ).loc b) :=
  after (chunks (F := F)).flatten (fun b' => m (c, b')) (Proc.devRef .tc b)

/-- Window by window, every operation writes inside the window's list of references. -/
theorem chunks_writes : List.Forall₂ Cert.PeelLib.WritesIn (chunks (F := F)) WRtab :=
  .cons chunk0_writes (.cons chunk1_writes (.cons chunk2_writes (.cons chunk3_writes (.cons chunk4_writes (.cons chunk5_writes (.cons chunk6_writes (.cons chunk7_writes (.cons chunk8_writes (.cons chunk9_writes (.cons chunk10_writes (.cons chunk11_writes (.cons chunk12_writes (.cons chunk13_writes (.cons chunk14_writes (.nil)))))))))))))))

/-- Every operation of the whole line writes inside the flattened table. -/
theorem writes_all : Cert.PeelLib.WritesIn (chunks (F := F)).flatten WRtab.flatten := by
  have h := Cert.PeelLib.writesIn_drop_of_table (chunks_writes (F := F)) 0
  rwa [List.drop_zero, List.drop_zero] at h

/-! No operation writes an argument: each argument ends holding its launch contents. -/

theorem VR_main_arg0 (m : (ℓ : Loc nD τ sig) → Buf (Elt F) ℓ) (c : Dev nD) :
    VR m c main_arg0 = m ((c : Thread nD τ).loc main_arg0) :=
  after_of_writes_sub _ _ writes_all (by decide)

theorem VR_main_arg1 (m : (ℓ : Loc nD τ sig) → Buf (Elt F) ℓ) (c : Dev nD) :
    VR m c main_arg1 = m ((c : Thread nD τ).loc main_arg1) :=
  after_of_writes_sub _ _ writes_all (by decide)

theorem VR_main_arg2 (m : (ℓ : Loc nD τ sig) → Buf (Elt F) ℓ) (c : Dev nD) :
    VR m c main_arg2 = m ((c : Thread nD τ).loc main_arg2) :=
  after_of_writes_sub _ _ writes_all (by decide)

theorem VR_main_arg3 (m : (ℓ : Loc nD τ sig) → Buf (Elt F) ℓ) (c : Dev nD) :
    VR m c main_arg3 = m ((c : Thread nD τ).loc main_arg3) :=
  after_of_writes_sub _ _ writes_all (by decide)

theorem VR_main_arg4 (m : (ℓ : Loc nD τ sig) → Buf (Elt F) ℓ) (c : Dev nD) :
    VR m c main_arg4 = m ((c : Thread nD τ).loc main_arg4) :=
  after_of_writes_sub _ _ writes_all (by decide)

theorem VR_main_arg5 (m : (ℓ : Loc nD τ sig) → Buf (Elt F) ℓ) (c : Dev nD) :
    VR m c main_arg5 = m ((c : Thread nD τ).loc main_arg5) :=
  after_of_writes_sub _ _ writes_all (by decide)

end Cert.ReferenceIdeal.Hand

end
-- ==== Proof.Ref.Peel.lean ====
/-
  Reading one buffer of the reference program out of the window that writes it.

  The program's 910 operations run in a row, cut into fifteen windows; it is in single-assignment form. With the table
  of the references each window writes: a reference that no window from the k-th on writes holds at the end what it
  held just before window k; and a reference that no window after the k-th writes holds at the end what window k
  alone, run from the contents before it, left there.
-/
import proofs.«414534_j76854144795318_3_alg».proof.Proof.Ref.Ops
import proofs.«414534_j76854144795318_3_alg».proof.Proof.PeelLib

noncomputable section

namespace Cert.ReferenceIdeal.Hand

open Cert.ReferenceIdeal Cert.ReferenceIdeal.Gen Idealize.ShloMosaic Idealize.ShloMosaic.TcCoe Idealize.SL.Sem
open Idealize.ShloMosaic.StableHlo

variable {F : FTy → Type} [FloatOps F]
variable (m : (ℓ : Loc nD τ sig) → Buf (Elt F) ℓ)

/-- The contents just before window `k`: the launch memory after the windows 0, …, k − 1. -/
abbrev UR (k : Nat) (c : Dev nD) : Valuation τ sig (Elt F) :=
  StableHlo.after ((chunks (F := F)).take k).flatten (fun b => m (c, b))

/-- The references the windows k, k + 1, …, 14 write. -/
def WRfrom (k : Nat) : List (Ref sig .tc) := (WRtab.drop k).flatten

/-- The windows from the k-th on write inside `WRfrom k`. -/
theorem writesFromR (k : Nat) : Cert.PeelLib.WritesIn ((chunks (F := F)).drop k).flatten (WRfrom k) :=
  Cert.PeelLib.writesIn_drop_of_table chunks_writes k

/-- A reference that no window from the k-th on writes holds at the end what it held before window k. -/
theorem VR_eq_U (k : Nat) (c : Dev nD) (r : Ref sig .tc) (hr : r ∉ WRfrom k) :
    VR m c r = UR m k c (Proc.devRef .tc r) :=
  Cert.PeelLib.after_eq_before (chunks (F := F)) (fun b => m (c, b)) WRfrom writesFromR k r hr

/-- A reference that no window after the k-th writes holds at the end what window k, run from the contents before
    it, left there. -/
theorem VR_eq_stretch (k : Nat) (S : List (HloOp τ sig (Elt F))) (hS : (chunks (F := F))[k]? = some S) (c : Dev nD)
    (r : Ref sig .tc) (hr : r ∉ WRfrom (k + 1)) :
    VR m c r = StableHlo.after S (UR m k c) (Proc.devRef .tc r) :=
  Cert.PeelLib.after_eq_stretch (chunks (F := F)) (fun b => m (c, b)) WRfrom writesFromR k S hS r hr

end Cert.ReferenceIdeal.Hand

end
-- ==== Proof.Ref.Pure1.lean ====
/-
  The reference's level-1 computation as pure functions of its arrays, and each of them read at an index.

  The reference scales the query coordinates by 64, clamps them into [0.01, 62.99] (`Uc`), takes each axis'
  column (`col0`, `col1`, `col2`), the 32-bit integers of its floor and ceiling (`ifl`, `ice`), and the distances to them (`dlo`, `dhi`);
  it wraps each integer array once around the axis if negative (`wrapIx`), stacks three of them as the start indices
  of a gather (`cat3` of three unit columns `unit`), gathers the feature array (`gat1`), and interpolates the eight
  gathered arrays with the distances broadcast over the channels (`chan`): along x, then y (`plane`), then z (`lvl`).

  Read at batch `b`, point `n`, channel `ch` these are the specification's `uc`, `fl`, `ce`, `cvt`, `nrm`, `corner`, `R`.
-/
import Idealize.ShloMosaic.Lib.Pipeline.Value
import Idealize.ShloMosaic.Lib.ValueIdx
import proofs.«414534_j76854144795318_3_alg».proof.ReferenceIdeal
import proofs.«414534_j76854144795318_3_alg».proof.Proof.Spec
import proofs.«414534_j76854144795318_3_alg».proof.Proof.GatherRead

noncomputable section

namespace Cert.ReferenceIdeal.Val1

open Cert.ReferenceIdeal Idealize.ShloMosaic Idealize.ShloMosaic.ValueIdx

variable [Facts]
open Facts₀ Facts

/-! ## The pieces of the computation -/

section Defs
variable {F : FTy → Type} [FloatOps F] {α : Type}

/-- The scaled coordinates clamped into `[lo, hi]`: the minimum of `hi` and the maximum of `lo` and `co * 64`. -/
def Uc (co : FVec F S2x100000x3 .f32) : FVec F S2x100000x3 .f32 :=
  minimumf (broadcastInDim S2x100000x3 ![] bcast_S_S2x100000x3 (id (constant S_ .f32 0x427BF5C3#32)))
    (maximumf (broadcastInDim S2x100000x3 ![] bcast_S_S2x100000x3 (id (constant S_ .f32 0x3C23D70A#32)))
      (mulf co (broadcastInDim S2x100000x3 ![0, 1, 2] bcast_S1x1x3_S2x100000x3_0_1_2
        (broadcastInDim S1x1x3 ![2] bcast_S3_S1x1x3_2 (constant S3 .f32 0x42800000#32)))))

/-- Axis 0 / 1 / 2 of a three-axis array, as an array over batch and point. -/
def col0 (u : S2x100000x3.Idx → α) : S2x100000.Idx → α :=
  shapeCast S2x100000 (extractStridedSlice S2x100000x1 ![0, 0, 0] u slices_S2x100000x3_S2x100000x1_0_0_0) shapeCasts_S2x100000x1_S2x100000
def col1 (u : S2x100000x3.Idx → α) : S2x100000.Idx → α :=
  shapeCast S2x100000 (extractStridedSlice S2x100000x1 ![0, 0, 1] u slices_S2x100000x3_S2x100000x1_0_0_1) shapeCasts_S2x100000x1_S2x100000
def col2 (u : S2x100000x3.Idx → α) : S2x100000.Idx → α :=
  shapeCast S2x100000 (extractStridedSlice S2x100000x1 ![0, 0, 2] u slices_S2x100000x3_S2x100000x1_0_0_2) shapeCasts_S2x100000x1_S2x100000

/-- The 32-bit integers of the floors / of the ceilings of an array. -/
def ifl (u : FVec F S2x100000 .f32) : IVec S2x100000 32 := fptosi 32 (Host.floor u)
def ice (u : FVec F S2x100000 .f32) : IVec S2x100000 32 := fptosi 32 (Host.ceil u)

/-- An integer array with `D` added where it is negative. -/
def wrapIx (D : BitVec 32) (w : IVec S2x100000 32) : IVec S2x100000 32 :=
  select (cmpi .slt w (broadcastInDim S2x100000 ![] bcast_S_S2x100000 (constantI S_ 32 0#32)))
    (addi w (broadcastInDim S2x100000 ![] bcast_S_S2x100000 (constantI S_ 32 D))) w

/-- An array over batch and point given a unit last axis. -/
def unit (y : S2x100000.Idx → α) : S2x100000x1.Idx → α :=
  broadcastInDim S2x100000x1 ![0, 1] bcast_S2x100000_S2x100000x1_0_1 y

/-- The distance of an array to its floor / of its ceiling to it, with a unit last axis. -/
def dlo (u : FVec F S2x100000 .f32) : FVec F S2x100000x1 .f32 := unit (subf u (Host.floor u))
def dhi (u : FVec F S2x100000 .f32) : FVec F S2x100000x1 .f32 := unit (subf (Host.ceil u) u)

/-- Three unit columns side by side along the last axis. -/
def cat3 (x y z : S2x100000x1.Idx → α) : S2x100000x3.Idx → α :=
  concatenate S2x100000x3 2 [⟨S2x100000x1, x⟩, ⟨S2x100000x1, y⟩, ⟨S2x100000x1, z⟩]
    concatenates_S2x100000x1_S2x100000x1_S2x100000x1_S2x100000x3_d2

/-- The three-piece concatenate of the program is `cat3` of its pieces, whatever proof of the shape relation it carries. -/
theorem cat3_fold (x y z : S2x100000x1.Idx → α)
    (h : Shape.Concatenates (([⟨S2x100000x1, x⟩, ⟨S2x100000x1, y⟩, ⟨S2x100000x1, z⟩] : List ((s : Shape) × (s.Idx → α))).map (·.1)) S2x100000x3 2) :
    concatenate S2x100000x3 2 [⟨S2x100000x1, x⟩, ⟨S2x100000x1, y⟩, ⟨S2x100000x1, z⟩] h = cat3 x y z := rfl

/-- A literal family of three references at 0 / 1 / 2. -/
theorem vec3_0 (a b c : Ref sig .tc) : (![a, b, c] : Fin 3 → Ref sig .tc) 0 = a := rfl
theorem vec3_1 (a b c : Ref sig .tc) : (![a, b, c] : Fin 3 → Ref sig .tc) 1 = b := rfl
theorem vec3_2 (a b c : Ref sig .tc) : (![a, b, c] : Fin 3 → Ref sig .tc) 2 = c := rfl

/-- The feature array gathered at the lattice points whose three coordinates are the integer arrays `i`, `j`, `k`. -/
def gat1 (feat : FVec F S2x64x64x64x32 .f32) (i j k : IVec S2x100000 32) : FVec F S2x100000x32 .f32 :=
  Host.gather gather_S2x64x64x64x32_S2x100000x3_S2x100000x32_2_123_0_0_123_2_111132 feat (cat3 (unit i) (unit j) (unit k))

/-- A per-point array broadcast over the 32 channels. -/
def chan (w : S2x100000x1.Idx → α) : S2x100000x32.Idx → α :=
  broadcastInDim S2x100000x32 ![0, 1, 2] bcast_S2x100000x1_S2x100000x32_0_1_2 w

/-- One z plane: the four gathered corners interpolated along x, then along y. -/
def plane (q22 q12 q21 q11 : FVec F S2x100000x32 .f32) (wx wx2 wy wy2 : FVec F S2x100000x1 .f32) : FVec F S2x100000x32 .f32 :=
  addf (mulf (addf (mulf q22 (chan wx)) (mulf q12 (chan wx2))) (chan wy))
    (mulf (addf (mulf q21 (chan wx)) (mulf q11 (chan wx2))) (chan wy2))

/-- The level's value: the upper z plane times the distance to the floor plus the lower z plane times the distance
    to the ceiling. -/
def lvl (pz2 pz1 : FVec F S2x100000x32 .f32) (wz wz2 : FVec F S2x100000x1 .f32) : FVec F S2x100000x32 .f32 :=
  addf (mulf pz2 (chan wz)) (mulf pz1 (chan wz2))

end Defs

end Cert.ReferenceIdeal.Val1

end
-- ==== Proof.Ref.Cross1.lean ====
/-
  The reference's level-1 buffers, each as a pure function of earlier buffers.

  When the reference has run, the six integer index arrays are the 32-bit integers of the floor and the ceiling of the
  three columns of the clamped scaled coordinates; the six distance arrays are the differences between a column and its
  floor, or its ceiling and the column, given a unit last axis; each of the eight gathered arrays is the feature array
  gathered at three wrapped index arrays; the lower z plane interpolates four of them along x then y, and the level's
  result interpolates the two planes along z.

  Each equation is read off the one window of the program that writes the buffer: the window's operations, folded
  over the contents before the window, give the buffer as a composed term of buffers written before the window (which
  hold at the end what they held then, every buffer being written once) and of buffers of the same window (read off
  the same window). Where the program's windows cut an index wrap in two, the earlier half is read off its own window
  first.
-/
import proofs.«414534_j76854144795318_3_alg».proof.Proof.Ref.Peel
import proofs.«414534_j76854144795318_3_alg».proof.Proof.Ref.Pure1

noncomputable section

namespace Cert.ReferenceIdeal.Val1

open Cert.ReferenceIdeal Cert.ReferenceIdeal.Gen Cert.ReferenceIdeal.Hand Idealize.ShloMosaic Idealize.ShloMosaic.TcCoe Idealize.SL.Sem
open Idealize.ShloMosaic.StableHlo

variable {F : FTy → Type} [FloatOps F]
variable (m : (ℓ : Loc nD τ sig) → Buf (Elt F) ℓ) (c : Dev nD)

/-- Fold a window's operations at the buffers read, entering the three-piece concatenates. -/
macro "window_fold" : tactic =>
  `(tactic| (after_results_simp; try (dsimp only [vec3_0, vec3_1, vec3_2]; simp only [cat3_fold]; after_results_simp)))

/-! ## Window 0: the index arrays and the distances

Each is a chain of the window's own operations from the coordinates argument. -/

theorem eq_v22 : VR m c main_v22 = ifl (col0 (Uc (VR m c main_arg5))) := by
  rw [VR_eq_stretch m 0 chunk0 rfl c main_v22 (by decide), VR_eq_U m 0 c main_arg5 (by decide)]
  generalize UR m 0 c = G
  window_fold
  rfl

theorem eq_v23 : VR m c main_v23 = ice (col0 (Uc (VR m c main_arg5))) := by
  rw [VR_eq_stretch m 0 chunk0 rfl c main_v23 (by decide), VR_eq_U m 0 c main_arg5 (by decide)]
  generalize UR m 0 c = G
  window_fold
  rfl

theorem eq_v24 : VR m c main_v24 = ifl (col1 (Uc (VR m c main_arg5))) := by
  rw [VR_eq_stretch m 0 chunk0 rfl c main_v24 (by decide), VR_eq_U m 0 c main_arg5 (by decide)]
  generalize UR m 0 c = G
  window_fold
  rfl

theorem eq_v25 : VR m c main_v25 = ice (col1 (Uc (VR m c main_arg5))) := by
  rw [VR_eq_stretch m 0 chunk0 rfl c main_v25 (by decide), VR_eq_U m 0 c main_arg5 (by decide)]
  generalize UR m 0 c = G
  window_fold
  rfl

theorem eq_v26 : VR m c main_v26 = ifl (col2 (Uc (VR m c main_arg5))) := by
  rw [VR_eq_stretch m 0 chunk0 rfl c main_v26 (by decide), VR_eq_U m 0 c main_arg5 (by decide)]
  generalize UR m 0 c = G
  window_fold
  rfl

theorem eq_v27 : VR m c main_v27 = ice (col2 (Uc (VR m c main_arg5))) := by
  rw [VR_eq_stretch m 0 chunk0 rfl c main_v27 (by decide), VR_eq_U m 0 c main_arg5 (by decide)]
  generalize UR m 0 c = G
  window_fold
  rfl

theorem eq_v31 : VR m c main_v31 = dlo (col0 (Uc (VR m c main_arg5))) := by
  rw [VR_eq_stretch m 0 chunk0 rfl c main_v31 (by decide), VR_eq_U m 0 c main_arg5 (by decide)]
  generalize UR m 0 c = G
  window_fold
  rfl

theorem eq_v35 : VR m c main_v35 = dhi (col0 (Uc (VR m c main_arg5))) := by
  rw [VR_eq_stretch m 0 chunk0 rfl c main_v35 (by decide), VR_eq_U m 0 c main_arg5 (by decide)]
  generalize UR m 0 c = G
  window_fold
  rfl

theorem eq_v39 : VR m c main_v39 = dlo (col1 (Uc (VR m c main_arg5))) := by
  rw [VR_eq_stretch m 0 chunk0 rfl c main_v39 (by decide), VR_eq_U m 0 c main_arg5 (by decide)]
  generalize UR m 0 c = G
  window_fold
  rfl

theorem eq_v43 : VR m c main_v43 = dhi (col1 (Uc (VR m c main_arg5))) := by
  rw [VR_eq_stretch m 0 chunk0 rfl c main_v43 (by decide), VR_eq_U m 0 c main_arg5 (by decide)]
  generalize UR m 0 c = G
  window_fold
  rfl

theorem eq_v47 : VR m c main_v47 = dlo (col2 (Uc (VR m c main_arg5))) := by
  rw [VR_eq_stretch m 0 chunk0 rfl c main_v47 (by decide), VR_eq_U m 0 c main_arg5 (by decide)]
  generalize UR m 0 c = G
  window_fold
  rfl

theorem eq_v51 : VR m c main_v51 = dhi (col2 (Uc (VR m c main_arg5))) := by
  rw [VR_eq_stretch m 0 chunk0 rfl c main_v51 (by decide), VR_eq_U m 0 c main_arg5 (by decide)]
  generalize UR m 0 c = G
  window_fold
  rfl

/-! ## The halves of index wraps that a window boundary cuts off

An index array is wrapped by three operations: "is it negative" (a comparison with the zero array), "plus the
extent" (an addition of the array of 64s), and the choice between the two. A window boundary may fall between them;
the half before the boundary is read off the earlier window here. -/

theorem aux_v53 : VR m c main_v53
    = cmpi .slt (VR m c main_v22) (broadcastInDim S2x100000 ![] bcast_S_S2x100000 (constantI S_ 32 0#32)) := by
  rw [VR_eq_stretch m 0 chunk0 rfl c main_v53 (by decide), VR_eq_stretch m 0 chunk0 rfl c main_v22 (by decide)]
  generalize UR m 0 c = G
  window_fold

theorem aux_v96 : VR m c main_v96 = wrapIx 64#32 (VR m c main_v22) := by
  rw [VR_eq_stretch m 1 chunk1 rfl c main_v96 (by decide), VR_eq_U m 1 c main_v22 (by decide)]
  generalize UR m 1 c = G
  window_fold
  rfl

theorem aux_v98 : VR m c main_v98
    = cmpi .slt (VR m c main_v25) (broadcastInDim S2x100000 ![] bcast_S_S2x100000 (constantI S_ 32 0#32)) := by
  rw [VR_eq_stretch m 1 chunk1 rfl c main_v98 (by decide), VR_eq_U m 1 c main_v25 (by decide)]
  generalize UR m 1 c = G
  window_fold

theorem aux_c_18 : VR m c main_c_18 = constantI S_ 32 64#32 := by
  rw [VR_eq_stretch m 1 chunk1 rfl c main_c_18 (by decide)]
  generalize UR m 1 c = G
  window_fold

theorem aux_v148 : VR m c main_v148
    = cmpi .slt (VR m c main_v22) (broadcastInDim S2x100000 ![] bcast_S_S2x100000 (constantI S_ 32 0#32)) := by
  rw [VR_eq_stretch m 2 chunk2 rfl c main_v148 (by decide), VR_eq_U m 2 c main_v22 (by decide)]
  generalize UR m 2 c = G
  window_fold

theorem aux_c_28 : VR m c main_c_28 = constantI S_ 32 64#32 := by
  rw [VR_eq_stretch m 2 chunk2 rfl c main_c_28 (by decide)]
  generalize UR m 2 c = G
  window_fold

theorem aux_v191 : VR m c main_v191 = wrapIx 64#32 (VR m c main_v22) := by
  rw [VR_eq_stretch m 3 chunk3 rfl c main_v191 (by decide), VR_eq_U m 3 c main_v22 (by decide)]
  generalize UR m 3 c = G
  window_fold
  rfl

theorem aux_v193 : VR m c main_v193
    = cmpi .slt (VR m c main_v25) (broadcastInDim S2x100000 ![] bcast_S_S2x100000 (constantI S_ 32 0#32)) := by
  rw [VR_eq_stretch m 3 chunk3 rfl c main_v193 (by decide), VR_eq_U m 3 c main_v25 (by decide)]
  generalize UR m 3 c = G
  window_fold

theorem aux_v194 : VR m c main_v194 = broadcastInDim S2x100000 ![] bcast_S_S2x100000 (constantI S_ 32 64#32) := by
  rw [VR_eq_stretch m 3 chunk3 rfl c main_v194 (by decide)]
  generalize UR m 3 c = G
  window_fold

/-! ## The eight gathers

Each gathers the feature argument at three wrapped index arrays stacked as unit columns. The contents before the
gather's window are named once; a wrap cut by the window boundary is completed with its earlier half. -/

theorem eq_v71 : VR m c main_v71
    = gat1 (VR m c main_arg1) (wrapIx 64#32 (VR m c main_v22)) (wrapIx 64#32 (VR m c main_v24)) (wrapIx 64#32 (VR m c main_v26)) := by
  have h0 := aux_v53 m c
  rw [VR_eq_U m 1 c main_v53 (by decide), VR_eq_U m 1 c main_v22 (by decide)] at h0
  rw [VR_eq_stretch m 1 chunk1 rfl c main_v71 (by decide), VR_eq_U m 1 c main_arg1 (by decide),
    VR_eq_U m 1 c main_v22 (by decide), VR_eq_U m 1 c main_v24 (by decide), VR_eq_U m 1 c main_v26 (by decide)]
  generalize UR m 1 c = G at h0 ⊢
  window_fold
  rw [h0]
  rfl

theorem eq_v91 : VR m c main_v91
    = gat1 (VR m c main_arg1) (wrapIx 64#32 (VR m c main_v23)) (wrapIx 64#32 (VR m c main_v24)) (wrapIx 64#32 (VR m c main_v26)) := by
  rw [VR_eq_stretch m 1 chunk1 rfl c main_v91 (by decide), VR_eq_U m 1 c main_arg1 (by decide),
    VR_eq_U m 1 c main_v23 (by decide), VR_eq_U m 1 c main_v24 (by decide), VR_eq_U m 1 c main_v26 (by decide)]
  generalize UR m 1 c = G
  window_fold
  rfl

theorem eq_v111 : VR m c main_v111
    = gat1 (VR m c main_arg1) (wrapIx 64#32 (VR m c main_v22)) (wrapIx 64#32 (VR m c main_v25)) (wrapIx 64#32 (VR m c main_v26)) := by
  have h0 := aux_v96 m c
  rw [VR_eq_U m 2 c main_v96 (by decide), VR_eq_U m 2 c main_v22 (by decide)] at h0
  have h1 := aux_v98 m c
  rw [VR_eq_U m 2 c main_v98 (by decide), VR_eq_U m 2 c main_v25 (by decide)] at h1
  have h2 := aux_c_18 m c
  rw [VR_eq_U m 2 c main_c_18 (by decide)] at h2
  rw [VR_eq_stretch m 2 chunk2 rfl c main_v111 (by decide), VR_eq_U m 2 c main_arg1 (by decide),
    VR_eq_U m 2 c main_v22 (by decide), VR_eq_U m 2 c main_v25 (by decide), VR_eq_U m 2 c main_v26 (by decide)]
  generalize UR m 2 c = G at h0 h1 h2 ⊢
  window_fold
  rw [h0, h1, h2]
  rfl

theorem eq_v131 : VR m c main_v131
    = gat1 (VR m c main_arg1) (wrapIx 64#32 (VR m c main_v23)) (wrapIx 64#32 (VR m c main_v25)) (wrapIx 64#32 (VR m c main_v26)) := by
  rw [VR_eq_stretch m 2 chunk2 rfl c main_v131 (by decide), VR_eq_U m 2 c main_arg1 (by decide),
    VR_eq_U m 2 c main_v23 (by decide), VR_eq_U m 2 c main_v25 (by decide), VR_eq_U m 2 c main_v26 (by decide)]
  generalize UR m 2 c = G
  window_fold
  rfl

theorem eq_v166 : VR m c main_v166
    = gat1 (VR m c main_arg1) (wrapIx 64#32 (VR m c main_v22)) (wrapIx 64#32 (VR m c main_v24)) (wrapIx 64#32 (VR m c main_v27)) := by
  have h0 := aux_v148 m c
  rw [VR_eq_U m 3 c main_v148 (by decide), VR_eq_U m 3 c main_v22 (by decide)] at h0
  have h1 := aux_c_28 m c
  rw [VR_eq_U m 3 c main_c_28 (by decide)] at h1
  rw [VR_eq_stretch m 3 chunk3 rfl c main_v166 (by decide), VR_eq_U m 3 c main_arg1 (by decide),
    VR_eq_U m 3 c main_v22 (by decide), VR_eq_U m 3 c main_v24 (by decide), VR_eq_U m 3 c main_v27 (by decide)]
  generalize UR m 3 c = G at h0 h1 ⊢
  window_fold
  rw [h0, h1]
  rfl

theorem eq_v186 : VR m c main_v186
    = gat1 (VR m c main_arg1) (wrapIx 64#32 (VR m c main_v23)) (wrapIx 64#32 (VR m c main_v24)) (wrapIx 64#32 (VR m c main_v27)) := by
  rw [VR_eq_stretch m 3 chunk3 rfl c main_v186 (by decide), VR_eq_U m 3 c main_arg1 (by decide),
    VR_eq_U m 3 c main_v23 (by decide), VR_eq_U m 3 c main_v24 (by decide), VR_eq_U m 3 c main_v27 (by decide)]
  generalize UR m 3 c = G
  window_fold
  rfl

theorem eq_v206 : VR m c main_v206
    = gat1 (VR m c main_arg1) (wrapIx 64#32 (VR m c main_v22)) (wrapIx 64#32 (VR m c main_v25)) (wrapIx 64#32 (VR m c main_v27)) := by
  have h0 := aux_v191 m c
  rw [VR_eq_U m 4 c main_v191 (by decide), VR_eq_U m 4 c main_v22 (by decide)] at h0
  have h1 := aux_v193 m c
  rw [VR_eq_U m 4 c main_v193 (by decide), VR_eq_U m 4 c main_v25 (by decide)] at h1
  have h2 := aux_v194 m c
  rw [VR_eq_U m 4 c main_v194 (by decide)] at h2
  rw [VR_eq_stretch m 4 chunk4 rfl c main_v206 (by decide), VR_eq_U m 4 c main_arg1 (by decide),
    VR_eq_U m 4 c main_v22 (by decide), VR_eq_U m 4 c main_v25 (by decide), VR_eq_U m 4 c main_v27 (by decide)]
  generalize UR m 4 c = G at h0 h1 h2 ⊢
  window_fold
  rw [h0, h1, h2]
  rfl

theorem eq_v226 : VR m c main_v226
    = gat1 (VR m c main_arg1) (wrapIx 64#32 (VR m c main_v23)) (wrapIx 64#32 (VR m c main_v25)) (wrapIx 64#32 (VR m c main_v27)) := by
  rw [VR_eq_stretch m 4 chunk4 rfl c main_v226 (by decide), VR_eq_U m 4 c main_arg1 (by decide),
    VR_eq_U m 4 c main_v23 (by decide), VR_eq_U m 4 c main_v25 (by decide), VR_eq_U m 4 c main_v27 (by decide)]
  generalize UR m 4 c = G
  window_fold
  rfl

/-! ## The planes

The lower z plane is written in the window of two of its four gathers, the level's result in the window of two of
the upper plane's: those are read off the same window on both sides, the others are buffers from before it. -/

set_option maxHeartbeats 400000 in
theorem eq_v146 : VR m c main_v146
    = plane (VR m c main_v131) (VR m c main_v111) (VR m c main_v91) (VR m c main_v71)
        (VR m c main_v31) (VR m c main_v35) (VR m c main_v39) (VR m c main_v43) := by
  rw [VR_eq_stretch m 2 chunk2 rfl c main_v146 (by decide), VR_eq_stretch m 2 chunk2 rfl c main_v131 (by decide),
    VR_eq_stretch m 2 chunk2 rfl c main_v111 (by decide), VR_eq_U m 2 c main_v91 (by decide),
    VR_eq_U m 2 c main_v71 (by decide), VR_eq_U m 2 c main_v31 (by decide), VR_eq_U m 2 c main_v35 (by decide),
    VR_eq_U m 2 c main_v39 (by decide), VR_eq_U m 2 c main_v43 (by decide)]
  generalize UR m 2 c = G
  window_fold
  rfl

set_option maxHeartbeats 400000 in
theorem eq_v246 : VR m c main_v246
    = lvl (plane (VR m c main_v226) (VR m c main_v206) (VR m c main_v186) (VR m c main_v166)
        (VR m c main_v31) (VR m c main_v35) (VR m c main_v39) (VR m c main_v43))
      (VR m c main_v146) (VR m c main_v47) (VR m c main_v51) := by
  rw [VR_eq_stretch m 4 chunk4 rfl c main_v246 (by decide), VR_eq_stretch m 4 chunk4 rfl c main_v226 (by decide),
    VR_eq_stretch m 4 chunk4 rfl c main_v206 (by decide), VR_eq_U m 4 c main_v186 (by decide),
    VR_eq_U m 4 c main_v166 (by decide), VR_eq_U m 4 c main_v31 (by decide), VR_eq_U m 4 c main_v35 (by decide),
    VR_eq_U m 4 c main_v39 (by decide), VR_eq_U m 4 c main_v43 (by decide), VR_eq_U m 4 c main_v47 (by decide),
    VR_eq_U m 4 c main_v146 (by decide), VR_eq_U m 4 c main_v51 (by decide)]
  generalize UR m 4 c = G
  window_fold
  rfl

end Cert.ReferenceIdeal.Val1

end
-- ==== Proof.Ref.Level1.lean ====
/-
  Level 1 of the reference at an index.

  The reference's level-1 result, read at batch `b`, point `n`, channel `ch`, is the specification's `R1` of the
  feature array and the coordinates array the program was launched with.

  The result buffer is the interpolation along z of two planes, each the interpolation along x and then y of four
  gathered arrays; each gathered array reads the feature array at the lattice point whose coordinates are the
  integers of the floors or ceilings of the clamped scaled coordinates, wrapped once if negative and clamped into
  the axis; the six weights are the distances of the clamped scaled coordinates to their floors and ceilings.
  Each layout operation on the way (a slice of one axis, dropping or adding a unit axis, a broadcast over the
  channels, three unit columns side by side) read at an index given by its coordinates is its operand at the index
  with the matching coordinates; each pointwise operation at an index is the operation on the elements.
-/
import Idealize.ShloMosaic.Lib.Pipeline.Value
import Idealize.ShloMosaic.Lib.ValueIdx
import proofs.«414534_j76854144795318_3_alg».proof.Proof.Spec
import proofs.«414534_j76854144795318_3_alg».proof.Proof.GatherRead
import proofs.«414534_j76854144795318_3_alg».proof.Proof.Ref.Peel
import proofs.«414534_j76854144795318_3_alg».proof.Proof.Ref.Pure1
import proofs.«414534_j76854144795318_3_alg».proof.Proof.Ref.Cross1

noncomputable section

namespace Cert.ReferenceIdeal.Val1

open Cert.ReferenceIdeal Cert.ReferenceIdeal.Hand Idealize.ShloMosaic Idealize.ShloMosaic.ValueIdx
open Idealize.ShloMosaic.TcCoe Idealize.SL.Sem
open Facts₀ Facts

/-! ## Layout operations of the reference read at an index given by its coordinates -/

section Layout
variable {α : Type}

/-- The per-axis constant broadcast to one row reads the constant at the axis. -/
theorem bc_axis_row (y : S3.Idx → α) (a0 a1 : Fin 1) (a : Fin 3) :
    broadcastInDim S1x1x3 ![2] bcast_S3_S1x1x3_2 y (ix3 a0 a1 a) = y (ix1 a) :=
  broadcastInDim_apply _ bcast_S3_S1x1x3_2 y _ (ix1 a) (fun k => match k with
    | ⟨0, _⟩ => by show a.val = if (3 : Nat) = 1 then 0 else a.val; rw [if_neg (by decide)])

/-- The row broadcast over batch and point reads the row at the axis. -/
theorem bc_row_all (y : S1x1x3.Idx → α) (b : Fin 2) (n : Fin 100000) (a : Fin 3) :
    broadcastInDim S2x100000x3 ![0, 1, 2] bcast_S1x1x3_S2x100000x3_0_1_2 y (ix3 b n a) = y (ix3 0 0 a) :=
  broadcastInDim_apply _ bcast_S1x1x3_S2x100000x3_0_1_2 y _ (ix3 0 0 a) (fun k => match k with
    | ⟨0, _⟩ => by show 0 = if (1 : Nat) = 1 then 0 else b.val; rw [if_pos rfl]
    | ⟨1, _⟩ => by show 0 = if (1 : Nat) = 1 then 0 else n.val; rw [if_pos rfl]
    | ⟨2, _⟩ => by show a.val = if (3 : Nat) = 1 then 0 else a.val; rw [if_neg (by decide)])

/-- A scalar broadcast over batch, point and axis reads the scalar. -/
theorem bc_scalar3 (y : S_.Idx → α) (j : S2x100000x3.Idx) :
    broadcastInDim S2x100000x3 ![] bcast_S_S2x100000x3 y j = y ix0 :=
  broadcastInDim_apply _ bcast_S_S2x100000x3 y j ix0 (fun k => k.elim0)

/-- A scalar broadcast over batch and point reads the scalar. -/
theorem bc_scalar2 (y : S_.Idx → α) (j : S2x100000.Idx) :
    broadcastInDim S2x100000 ![] bcast_S_S2x100000 y j = y ix0 :=
  broadcastInDim_apply _ bcast_S_S2x100000 y j ix0 (fun k => k.elim0)

/-- The slice of axis 0 / 1 / 2 of a three-axis array reads that axis. -/
theorem slice0 (y : S2x100000x3.Idx → α) (b : Fin 2) (n : Fin 100000) (k : Fin 1) :
    extractStridedSlice S2x100000x1 ![0, 0, 0] y slices_S2x100000x3_S2x100000x1_0_0_0 (ix3 b n k) = y (ix3 b n 0) :=
  extractStridedSlice_apply ![0, 0, 0] y slices_S2x100000x3_S2x100000x1_0_0_0 _ (ix3 b n 0) (fun a => match a with
    | ⟨0, _⟩ => by show b.val = 0 + b.val; omega
    | ⟨1, _⟩ => by show n.val = 0 + n.val; omega
    | ⟨2, _⟩ => by show 0 = 0 + k.val; omega)
theorem slice1 (y : S2x100000x3.Idx → α) (b : Fin 2) (n : Fin 100000) (k : Fin 1) :
    extractStridedSlice S2x100000x1 ![0, 0, 1] y slices_S2x100000x3_S2x100000x1_0_0_1 (ix3 b n k) = y (ix3 b n 1) :=
  extractStridedSlice_apply ![0, 0, 1] y slices_S2x100000x3_S2x100000x1_0_0_1 _ (ix3 b n 1) (fun a => match a with
    | ⟨0, _⟩ => by show b.val = 0 + b.val; omega
    | ⟨1, _⟩ => by show n.val = 0 + n.val; omega
    | ⟨2, _⟩ => by show 1 = 1 + k.val; omega)
theorem slice2 (y : S2x100000x3.Idx → α) (b : Fin 2) (n : Fin 100000) (k : Fin 1) :
    extractStridedSlice S2x100000x1 ![0, 0, 2] y slices_S2x100000x3_S2x100000x1_0_0_2 (ix3 b n k) = y (ix3 b n 2) :=
  extractStridedSlice_apply ![0, 0, 2] y slices_S2x100000x3_S2x100000x1_0_0_2 _ (ix3 b n 2) (fun a => match a with
    | ⟨0, _⟩ => by show b.val = 0 + b.val; omega
    | ⟨1, _⟩ => by show n.val = 0 + n.val; omega
    | ⟨2, _⟩ => by show 2 = 2 + k.val; omega)

/-- Dropping the unit last axis reads the array at the point. -/
theorem drop_unit (y : S2x100000x1.Idx → α) (b : Fin 2) (n : Fin 100000) :
    shapeCast S2x100000 y shapeCasts_S2x100000x1_S2x100000 (ix2 b n) = y (ix3 b n 0) :=
  shapeCast_apply y shapeCasts_S2x100000x1_S2x100000 _ (ix3 b n 0)
    (by rewrite [Shape.rowMajor_val_three, Shape.rowMajor_val_two]
        show (b.val * 100000 + n.val) * 1 + 0 = b.val * 100000 + n.val; omega)

/-- Axis `a` of a three-axis array at batch `b`, point `n`. -/
theorem col0_at (u : S2x100000x3.Idx → α) (b : Fin 2) (n : Fin 100000) : col0 u (ix2 b n) = u (ix3 b n 0) := by
  unfold col0; rw [drop_unit, slice0]
theorem col1_at (u : S2x100000x3.Idx → α) (b : Fin 2) (n : Fin 100000) : col1 u (ix2 b n) = u (ix3 b n 1) := by
  unfold col1; rw [drop_unit, slice1]
theorem col2_at (u : S2x100000x3.Idx → α) (b : Fin 2) (n : Fin 100000) : col2 u (ix2 b n) = u (ix3 b n 2) := by
  unfold col2; rw [drop_unit, slice2]

/-- A per-point array given a unit last axis reads the array at the point. -/
theorem unit_at (y : S2x100000.Idx → α) (b : Fin 2) (n : Fin 100000) (k : Fin 1) : unit y (ix3 b n k) = y (ix2 b n) :=
  broadcastInDim_apply _ bcast_S2x100000_S2x100000x1_0_1 y _ (ix2 b n) (fun a => match a with
    | ⟨0, _⟩ => by show b.val = if (2 : Nat) = 1 then 0 else b.val; rw [if_neg (by decide)]
    | ⟨1, _⟩ => by show n.val = if (100000 : Nat) = 1 then 0 else n.val; rw [if_neg (by decide)])

/-- A unit-last-axis array broadcast over the channels reads the array at the point. -/
theorem chan_at (y : S2x100000x1.Idx → α) (b : Fin 2) (n : Fin 100000) (ch : Fin 32) : chan y (ix3 b n ch) = y (ix3 b n 0) :=
  broadcastInDim_apply _ bcast_S2x100000x1_S2x100000x32_0_1_2 y _ (ix3 b n 0) (fun a => match a with
    | ⟨0, _⟩ => by show b.val = if (2 : Nat) = 1 then 0 else b.val; rw [if_neg (by decide)]
    | ⟨1, _⟩ => by show n.val = if (100000 : Nat) = 1 then 0 else n.val; rw [if_neg (by decide)]
    | ⟨2, _⟩ => by show 0 = if (1 : Nat) = 1 then 0 else ch.val; rw [if_pos rfl])

/-- Three unit columns side by side: column `k` of the result is piece `k`. -/
theorem cat3_at0 (x y z : S2x100000x1.Idx → α) (b : Fin 2) (n : Fin 100000) : cat3 x y z (ix3 b n 0) = x (ix3 b n 0) :=
  concatenate_apply_piece (2 : Fin S2x100000x3.rank) _ _ (ix3 b n 0) 0 (by show (0 : Nat) < 3; decide) S2x100000x1 x rfl rfl 0 rfl (ix3 b n 0)
    (fun a ha => match a, ha with
      | ⟨0, _⟩, _ => rfl
      | ⟨1, _⟩, _ => rfl
      | ⟨2, _⟩, ha => absurd rfl ha) rfl
theorem cat3_at1 (x y z : S2x100000x1.Idx → α) (b : Fin 2) (n : Fin 100000) : cat3 x y z (ix3 b n 1) = y (ix3 b n 0) :=
  concatenate_apply_piece (2 : Fin S2x100000x3.rank) _ _ (ix3 b n 1) 1 (by show (1 : Nat) < 3; decide) S2x100000x1 y rfl rfl 1 rfl (ix3 b n 0)
    (fun a ha => match a, ha with
      | ⟨0, _⟩, _ => rfl
      | ⟨1, _⟩, _ => rfl
      | ⟨2, _⟩, ha => absurd rfl ha) rfl
theorem cat3_at2 (x y z : S2x100000x1.Idx → α) (b : Fin 2) (n : Fin 100000) : cat3 x y z (ix3 b n 2) = z (ix3 b n 0) :=
  concatenate_apply_piece (2 : Fin S2x100000x3.rank) _ _ (ix3 b n 2) 2 (by show (2 : Nat) < 3; decide) S2x100000x1 z rfl rfl 2 rfl (ix3 b n 0)
    (fun a ha => match a, ha with
      | ⟨0, _⟩, _ => rfl
      | ⟨1, _⟩, _ => rfl
      | ⟨2, _⟩, ha => absurd rfl ha) rfl

end Layout

/-! ## The pieces read at an index, at the ideal instance: the specification's terms -/

section AtIdeal

/-- A floor / ceiling / conversion of an array reads the specification's `fl` / `ce` / `cvt` of the element. -/
theorem floor_at {s : Shape} (x : FVec Ideal s .f32) (i : s.Idx) : Host.floor x i = Cert.Spec.fl (x i) := rfl
theorem ceil_at {s : Shape} (x : FVec Ideal s .f32) (i : s.Idx) : Host.ceil x i = Cert.Spec.ce (x i) := rfl
theorem cvt_at {s : Shape} (x : FVec Ideal s .f32) (i : s.Idx) : (fptosi 32 x : IVec s 32) i = Cert.Spec.cvt (x i) := rfl

/-- The integer of the floor / of the ceiling of an array reads `cvt (fl ·)` / `cvt (ce ·)` of the element. -/
theorem ifl_at (u : FVec Ideal S2x100000 .f32) (j : S2x100000.Idx) : ifl u j = Cert.Spec.cvt (Cert.Spec.fl (u j)) := rfl
theorem ice_at (u : FVec Ideal S2x100000 .f32) (j : S2x100000.Idx) : ice u j = Cert.Spec.cvt (Cert.Spec.ce (u j)) := rfl

/-- The distance to the floor / of the ceiling at batch `b`, point `n`. -/
theorem dlo_at (u : FVec Ideal S2x100000 .f32) (b : Fin 2) (n : Fin 100000) (k : Fin 1) :
    dlo u (ix3 b n k) = u (ix2 b n) - Cert.Spec.fl (u (ix2 b n)) := by
  unfold dlo; rw [unit_at]; rfl
theorem dhi_at (u : FVec Ideal S2x100000 .f32) (b : Fin 2) (n : Fin 100000) (k : Fin 1) :
    dhi u (ix3 b n k) = Cert.Spec.ce (u (ix2 b n)) - u (ix2 b n) := by
  unfold dhi; rw [unit_at]; rfl

/-- The clamped scaled coordinate at batch `b`, point `n`, axis `a` is `uc` of the coordinate. -/
theorem Uc_at (co : FVec Ideal S2x100000x3 .f32) (b : Fin 2) (n : Fin 100000) (a : Fin 3) :
    Uc co (ix3 b n a) = Cert.Spec.uc Cert.Spec.s1 Cert.Spec.hi1 (co (ix3 b n a)) := by
  unfold Uc
  rw [minimumf_apply, maximumf_apply, mulf_apply, bc_scalar3, bc_scalar3, bc_row_all, bc_axis_row]
  rfl

/-- The wrapped integer array reads `nrm` of the element. -/
theorem wrapIx_at (D : BitVec 32) (w : IVec S2x100000 32) (j : S2x100000.Idx) :
    wrapIx D w j = Cert.Spec.nrm D (w j) := by
  unfold wrapIx
  rw [select_apply]
  show Scalar.select (IntOp.cmpi .slt (w j) (broadcastInDim S2x100000 ![] bcast_S_S2x100000 (constantI S_ 32 0#32) j))
      (IntOp.addi (w j) (broadcastInDim S2x100000 ![] bcast_S_S2x100000 (constantI S_ 32 D) j)) (w j) = _
  rw [bc_scalar2, bc_scalar2]
  rfl

/-- The gathered array at batch `b`, point `n`, channel `ch`: the feature array at the three start indices of the
    point, each read signed and clamped into the axis. -/
theorem gat1_at (feat : FVec Ideal S2x64x64x64x32 .f32) (i j k : IVec S2x100000 32) (b : Fin 2) (n : Fin 100000) (ch : Fin 32) :
    gat1 feat i j k (ix3 b n ch)
      = feat (ix5 b (Cert.Spec.cl 64 (by decide) (i (ix2 b n))) (Cert.Spec.cl 64 (by decide) (j (ix2 b n)))
          (Cert.Spec.cl 64 (by decide) (k (ix2 b n))) ch) := by
  unfold gat1
  rw [Cert.GatherRead.gather3b_apply (by decide) _ rfl rfl rfl rfl rfl rfl rfl feat _ b n ch,
    cat3_at0, cat3_at1, cat3_at2, unit_at, unit_at, unit_at]

/-- One z plane at batch `b`, point `n`, channel `ch`. -/
theorem plane_at (q22 q12 q21 q11 : FVec Ideal S2x100000x32 .f32) (wx wx2 wy wy2 : FVec Ideal S2x100000x1 .f32)
    (b : Fin 2) (n : Fin 100000) (ch : Fin 32) :
    plane q22 q12 q21 q11 wx wx2 wy wy2 (ix3 b n ch)
      = (q22 (ix3 b n ch) * wx (ix3 b n 0) + q12 (ix3 b n ch) * wx2 (ix3 b n 0)) * wy (ix3 b n 0)
        + (q21 (ix3 b n ch) * wx (ix3 b n 0) + q11 (ix3 b n ch) * wx2 (ix3 b n 0)) * wy2 (ix3 b n 0) := by
  unfold plane
  simp only [addf_apply, mulf_apply, chan_at]

/-- The level's value at batch `b`, point `n`, channel `ch`. -/
theorem lvl_at (pz2 pz1 : FVec Ideal S2x100000x32 .f32) (wz wz2 : FVec Ideal S2x100000x1 .f32)
    (b : Fin 2) (n : Fin 100000) (ch : Fin 32) :
    lvl pz2 pz1 wz wz2 (ix3 b n ch) = pz2 (ix3 b n ch) * wz (ix3 b n 0) + pz1 (ix3 b n ch) * wz2 (ix3 b n 0) := by
  unfold lvl
  simp only [addf_apply, mulf_apply, chan_at]

end AtIdeal

/-! ## The level's result at an index -/

/-- LEVEL 1 OF THE REFERENCE AT AN INDEX: what the reference leaves in its level-1 result at batch `b`, point `n`,
    channel `ch` is the specification's `R1` of the feature array and the coordinates. The result is `lvl` of two
    planes and the two z distances, each plane `plane` of four gathers and the x and y distances, each gather reads
    the feature array at the wrapped, clamped integers of the floors / ceilings of the clamped scaled coordinates:
    read at the index, term by term the specification's `R`. -/
theorem level_at (m : (ℓ : Loc nD τ sig) → Buf (Elt Ideal) ℓ) (c : Dev nD) (b : Fin 2) (n : Fin 100000) (ch : Fin 32) :
    (VR (F := Ideal) m c main_v246 : S2x100000x32.Idx → EReal) (ix3 b n ch)
      = Cert.Spec.R1 (m ((c : Thread nD τ).loc main_arg1) : Cert.Spec.Feat1)
          (m ((c : Thread nD τ).loc main_arg5) : Cert.Spec.Coords) b n ch := by
  rewrite [eq_v246]
  rewrite [lvl_at]
  rewrite [plane_at]
  rewrite [eq_v146]
  rewrite [plane_at]
  rewrite [eq_v226, eq_v206, eq_v186, eq_v166, eq_v131, eq_v111, eq_v91, eq_v71]
  simp only [gat1_at, wrapIx_at]
  rewrite [eq_v31, eq_v35, eq_v39, eq_v43, eq_v47, eq_v51, eq_v22, eq_v23, eq_v24, eq_v25, eq_v26, eq_v27]
  simp only [dlo_at, dhi_at, ifl_at, ice_at, col0_at, col1_at, col2_at, Uc_at]
  rewrite [VR_main_arg1, VR_main_arg5]
  rfl

end Cert.ReferenceIdeal.Val1

end
-- ==== Proof.Ref.Pure2.lean ====
/-
  Level 2 of the reference (feature array of extent 32 and 64 channels) as a function of its arrays, read at an index.

  The reference scales the query coordinates by 32 and clamps them into [0.01, 30.99] (CL), takes each axis' column
  (P0, P1, P2), its floor and ceiling, their 32-bit integers (ilo, ihi) and the two distances to them as unit columns
  (dlo, dhi); it wraps an integer array once around the axis where negative (wrapv), lays three index arrays side by
  side as the start indices of a gather of the feature array (gatw, G), and interpolates the eight gathered arrays
  with the distances spread over the channels (spread): along x, then along y (plane), then along z (L2).

  Read at batch b, point n, channel ch, these are the specification's uc, fl, ce, cvt, nrm, corner, and L2 is its R2.
-/
import proofs.«414534_j76854144795318_3_alg».proof.ReferenceIdeal
import proofs.«414534_j76854144795318_3_alg».proof.Proof.Spec
import proofs.«414534_j76854144795318_3_alg».proof.Proof.GatherRead
import Idealize.ShloMosaic.Lib.Pipeline.Value
import Idealize.ShloMosaic.Lib.ValueIdx

noncomputable section

namespace Cert.ReferenceIdeal.Val2

open Cert.ReferenceIdeal Idealize.ShloMosaic Idealize.ShloMosaic.ValueIdx
open Cert.ReferenceIdeal.Facts₀

variable [Cert.ReferenceIdeal.Facts₀]

section Layout
variable {α : Type}

/-- A column `[2,100000,1]` spread along the channel axis reads the column at the same point. -/
theorem bcC_apply (x : S2x100000x1.Idx → α) (b : Fin 2) (n : Fin 100000) (ch : Fin 64) :
    broadcastInDim S2x100000x64 ![0, 1, 2] bcast_S2x100000x1_S2x100000x64_0_1_2 x (ix3 b n ch) = x (ix3 b n (0 : Fin 1)) :=
  broadcastInDim_apply _ bcast_S2x100000x1_S2x100000x64_0_1_2 x _ _ (fun a => match a with
    | ⟨0, _⟩ => by show b.val = if (2 : Nat) = 1 then 0 else b.val; rw [if_neg (by decide)]
    | ⟨1, _⟩ => by show n.val = if (100000 : Nat) = 1 then 0 else n.val; rw [if_neg (by decide)]
    | ⟨2, _⟩ => by show 0 = if (1 : Nat) = 1 then 0 else ch.val; rw [if_pos rfl])

/-- A `[2,100000]` array given a unit trailing axis reads the array at the same point. -/
theorem bc1_apply (x : S2x100000.Idx → α) (b : Fin 2) (n : Fin 100000) (k : Fin 1) :
    broadcastInDim S2x100000x1 ![0, 1] bcast_S2x100000_S2x100000x1_0_1 x (ix3 b n k) = x (ix2 b n) :=
  broadcastInDim_apply _ bcast_S2x100000_S2x100000x1_0_1 x _ _ (fun a => match a with
    | ⟨0, _⟩ => by show b.val = if (2 : Nat) = 1 then 0 else b.val; rw [if_neg (by decide)]
    | ⟨1, _⟩ => by show n.val = if (100000 : Nat) = 1 then 0 else n.val; rw [if_neg (by decide)])

/-- A scalar spread over `[2,100000]` reads the scalar. -/
theorem bc0_apply (x : S_.Idx → α) (i : S2x100000.Idx) :
    broadcastInDim S2x100000 ![] bcast_S_S2x100000 x i = x ix0 :=
  broadcastInDim_apply _ bcast_S_S2x100000 x _ _ (fun a => a.elim0)

/-- A scalar spread over `[2,100000,3]` reads the scalar. -/
theorem bc03_apply (x : S_.Idx → α) (i : S2x100000x3.Idx) :
    broadcastInDim S2x100000x3 ![] bcast_S_S2x100000x3 x i = x ix0 :=
  broadcastInDim_apply _ bcast_S_S2x100000x3 x _ _ (fun a => a.elim0)

/-- A 3-vector spread over the points reads its component on the last axis. -/
theorem bcs_apply (x : S3.Idx → α) (b : Fin 2) (n : Fin 100000) (a : Fin 3) :
    broadcastInDim S2x100000x3 ![0, 1, 2] bcast_S1x1x3_S2x100000x3_0_1_2
      (broadcastInDim S1x1x3 ![2] bcast_S3_S1x1x3_2 x) (ix3 b n a) = x (ix1 a) := by
  refine (broadcastInDim_apply _ bcast_S1x1x3_S2x100000x3_0_1_2 _ _ (ix3 (0 : Fin 1) (0 : Fin 1) a) (fun k => match k with
    | ⟨0, _⟩ => by show 0 = if (1 : Nat) = 1 then 0 else b.val; rw [if_pos rfl]
    | ⟨1, _⟩ => by show 0 = if (1 : Nat) = 1 then 0 else n.val; rw [if_pos rfl]
    | ⟨2, _⟩ => by show a.val = if (3 : Nat) = 1 then 0 else a.val; rw [if_neg (by decide)])).trans ?_
  exact broadcastInDim_apply _ bcast_S3_S1x1x3_2 x _ _ (fun k => match k with
    | ⟨0, _⟩ => by show a.val = if (3 : Nat) = 1 then 0 else a.val; rw [if_neg (by decide)])

end Layout

section Layout2
variable {α : Type}

/-- Column `a` of a `[2,100000,3]` array, flattened to `[2,100000]`, reads the array at `(b, n, a)`. -/
theorem col0_apply (x : S2x100000x3.Idx → α) (b : Fin 2) (n : Fin 100000) :
    shapeCast S2x100000 (extractStridedSlice S2x100000x1 ![0, 0, 0] x slices_S2x100000x3_S2x100000x1_0_0_0)
      shapeCasts_S2x100000x1_S2x100000 (ix2 b n) = x (ix3 b n (0 : Fin 3)) := by
  refine (shapeCast_apply _ shapeCasts_S2x100000x1_S2x100000 (ix2 b n) (ix3 b n (0 : Fin 1)) ?_).trans ?_
  · rewrite [Shape.rowMajor_val_three, Shape.rowMajor_val_two]
    show (b.val * 100000 + n.val) * 1 + 0 = b.val * 100000 + n.val
    omega
  · exact extractStridedSlice_apply ![0, 0, 0] x slices_S2x100000x3_S2x100000x1_0_0_0 _ _ (fun a => match a with
      | ⟨0, _⟩ => by show b.val = 0 + b.val; omega
      | ⟨1, _⟩ => by show n.val = 0 + n.val; omega
      | ⟨2, _⟩ => by show 0 = 0 + 0; omega)

theorem col1_apply (x : S2x100000x3.Idx → α) (b : Fin 2) (n : Fin 100000) :
    shapeCast S2x100000 (extractStridedSlice S2x100000x1 ![0, 0, 1] x slices_S2x100000x3_S2x100000x1_0_0_1)
      shapeCasts_S2x100000x1_S2x100000 (ix2 b n) = x (ix3 b n (1 : Fin 3)) := by
  refine (shapeCast_apply _ shapeCasts_S2x100000x1_S2x100000 (ix2 b n) (ix3 b n (0 : Fin 1)) ?_).trans ?_
  · rewrite [Shape.rowMajor_val_three, Shape.rowMajor_val_two]
    show (b.val * 100000 + n.val) * 1 + 0 = b.val * 100000 + n.val
    omega
  · exact extractStridedSlice_apply ![0, 0, 1] x slices_S2x100000x3_S2x100000x1_0_0_1 _ _ (fun a => match a with
      | ⟨0, _⟩ => by show b.val = 0 + b.val; omega
      | ⟨1, _⟩ => by show n.val = 0 + n.val; omega
      | ⟨2, _⟩ => by show 1 = 1 + 0; omega)

theorem col2_apply (x : S2x100000x3.Idx → α) (b : Fin 2) (n : Fin 100000) :
    shapeCast S2x100000 (extractStridedSlice S2x100000x1 ![0, 0, 2] x slices_S2x100000x3_S2x100000x1_0_0_2)
      shapeCasts_S2x100000x1_S2x100000 (ix2 b n) = x (ix3 b n (2 : Fin 3)) := by
  refine (shapeCast_apply _ shapeCasts_S2x100000x1_S2x100000 (ix2 b n) (ix3 b n (0 : Fin 1)) ?_).trans ?_
  · rewrite [Shape.rowMajor_val_three, Shape.rowMajor_val_two]
    show (b.val * 100000 + n.val) * 1 + 0 = b.val * 100000 + n.val
    omega
  · exact extractStridedSlice_apply ![0, 0, 2] x slices_S2x100000x3_S2x100000x1_0_0_2 _ _ (fun a => match a with
      | ⟨0, _⟩ => by show b.val = 0 + b.val; omega
      | ⟨1, _⟩ => by show n.val = 0 + n.val; omega
      | ⟨2, _⟩ => by show 2 = 2 + 0; omega)

/-- Three columns laid side by side: component `k` at a point is column `k` at that point. -/
theorem cat0_apply (u0 u1 u2 : S2x100000x1.Idx → α) (b : Fin 2) (n : Fin 100000) :
    concatenate S2x100000x3 2 [⟨S2x100000x1, u0⟩, ⟨S2x100000x1, u1⟩, ⟨S2x100000x1, u2⟩]
      concatenates_S2x100000x1_S2x100000x1_S2x100000x1_S2x100000x3_d2 (ix3 b n (0 : Fin 3)) = u0 (ix3 b n (0 : Fin 1)) :=
  concatenate_apply_piece (t := S2x100000x3) (2 : Fin 3) [⟨S2x100000x1, u0⟩, ⟨S2x100000x1, u1⟩, ⟨S2x100000x1, u2⟩]
    concatenates_S2x100000x1_S2x100000x1_S2x100000x1_S2x100000x3_d2 _ 0 (Nat.zero_lt_succ _)
    S2x100000x1 u0 rfl rfl 0 rfl (ix3 b n (0 : Fin 1)) (fun a ha => match a with
      | ⟨0, _⟩ => rfl
      | ⟨1, _⟩ => rfl
      | ⟨2, _⟩ => absurd rfl ha) rfl

theorem cat1_apply (u0 u1 u2 : S2x100000x1.Idx → α) (b : Fin 2) (n : Fin 100000) :
    concatenate S2x100000x3 2 [⟨S2x100000x1, u0⟩, ⟨S2x100000x1, u1⟩, ⟨S2x100000x1, u2⟩]
      concatenates_S2x100000x1_S2x100000x1_S2x100000x1_S2x100000x3_d2 (ix3 b n (1 : Fin 3)) = u1 (ix3 b n (0 : Fin 1)) :=
  concatenate_apply_piece (t := S2x100000x3) (2 : Fin 3) [⟨S2x100000x1, u0⟩, ⟨S2x100000x1, u1⟩, ⟨S2x100000x1, u2⟩]
    concatenates_S2x100000x1_S2x100000x1_S2x100000x1_S2x100000x3_d2 _ 1 (Nat.succ_lt_succ (Nat.zero_lt_succ _))
    S2x100000x1 u1 rfl rfl 1 rfl (ix3 b n (0 : Fin 1)) (fun a ha => match a with
      | ⟨0, _⟩ => rfl
      | ⟨1, _⟩ => rfl
      | ⟨2, _⟩ => absurd rfl ha) rfl

theorem cat2_apply (u0 u1 u2 : S2x100000x1.Idx → α) (b : Fin 2) (n : Fin 100000) :
    concatenate S2x100000x3 2 [⟨S2x100000x1, u0⟩, ⟨S2x100000x1, u1⟩, ⟨S2x100000x1, u2⟩]
      concatenates_S2x100000x1_S2x100000x1_S2x100000x1_S2x100000x3_d2 (ix3 b n (2 : Fin 3)) = u2 (ix3 b n (0 : Fin 1)) :=
  concatenate_apply_piece (t := S2x100000x3) (2 : Fin 3) [⟨S2x100000x1, u0⟩, ⟨S2x100000x1, u1⟩, ⟨S2x100000x1, u2⟩]
    concatenates_S2x100000x1_S2x100000x1_S2x100000x1_S2x100000x3_d2 _ 2 (Nat.succ_lt_succ (Nat.succ_lt_succ (Nat.zero_lt_succ _)))
    S2x100000x1 u2 rfl rfl 2 rfl (ix3 b n (0 : Fin 1)) (fun a ha => match a with
      | ⟨0, _⟩ => rfl
      | ⟨1, _⟩ => rfl
      | ⟨2, _⟩ => absurd rfl ha) rfl

end Layout2

/-! ## The level as a function of the feature array and the coordinates -/

section Pure

abbrev A3 := FVec Ideal S2x100000x3 .f32
abbrev A2 := FVec Ideal S2x100000 .f32
abbrev A1 := FVec Ideal S2x100000x1 .f32
abbrev AC := FVec Ideal S2x100000x64 .f32
abbrev I2 := IVec S2x100000 32
abbrev Feat := FVec Ideal S2x32x32x32x64 .f32

/-- The coordinates scaled by 32 and clamped into `[lo, hi2]`. -/
def CL (co : A3) : A3 :=
  minimumf (broadcastInDim S2x100000x3 ![] bcast_S_S2x100000x3 (id (constant S_ .f32 0x41F7EB85#32)))
    (maximumf (broadcastInDim S2x100000x3 ![] bcast_S_S2x100000x3 (id (constant S_ .f32 0x3C23D70A#32)))
      (mulf co (broadcastInDim S2x100000x3 ![0, 1, 2] bcast_S1x1x3_S2x100000x3_0_1_2
        (broadcastInDim S1x1x3 ![2] bcast_S3_S1x1x3_2 (constant S3 .f32 0x42000000#32)))))

theorem CL_apply (co : A3) (b : Fin 2) (n : Fin 100000) (a : Fin 3) :
    CL co (ix3 b n a) = Cert.Spec.uc Cert.Spec.s2 Cert.Spec.hi2 (co (ix3 b n a)) := by
  unfold CL
  rw [minimumf_apply, maximumf_apply, mulf_apply, bc03_apply, bc03_apply, bcs_apply]
  rfl

/-- The three coordinate columns of a `[2,100000,3]` array, each as a `[2,100000]` array. -/
def P0 (u : A3) : A2 :=
  shapeCast S2x100000 (extractStridedSlice S2x100000x1 ![0, 0, 0] u slices_S2x100000x3_S2x100000x1_0_0_0) shapeCasts_S2x100000x1_S2x100000
def P1 (u : A3) : A2 :=
  shapeCast S2x100000 (extractStridedSlice S2x100000x1 ![0, 0, 1] u slices_S2x100000x3_S2x100000x1_0_0_1) shapeCasts_S2x100000x1_S2x100000
def P2 (u : A3) : A2 :=
  shapeCast S2x100000 (extractStridedSlice S2x100000x1 ![0, 0, 2] u slices_S2x100000x3_S2x100000x1_0_0_2) shapeCasts_S2x100000x1_S2x100000

theorem P0_apply (u : A3) (b : Fin 2) (n : Fin 100000) : P0 u (ix2 b n) = u (ix3 b n (0 : Fin 3)) := col0_apply u b n
theorem P1_apply (u : A3) (b : Fin 2) (n : Fin 100000) : P1 u (ix2 b n) = u (ix3 b n (1 : Fin 3)) := col1_apply u b n
theorem P2_apply (u : A3) (b : Fin 2) (n : Fin 100000) : P2 u (ix2 b n) = u (ix3 b n (2 : Fin 3)) := col2_apply u b n

/-- The integer index below and above a coordinate. -/
def ilo (p : A2) : I2 := fptosi 32 (Host.floor p)
def ihi (p : A2) : I2 := fptosi 32 (Host.ceil p)
theorem ilo_apply (p : A2) (i : S2x100000.Idx) : ilo p i = Cert.Spec.cvt (Cert.Spec.fl (p i)) := rfl
theorem ihi_apply (p : A2) (i : S2x100000.Idx) : ihi p i = Cert.Spec.cvt (Cert.Spec.ce (p i)) := rfl

/-- The distance of a coordinate from its floor, and of its ceiling from it, as columns. -/
def dlo (p : A2) : A1 := broadcastInDim S2x100000x1 ![0, 1] bcast_S2x100000_S2x100000x1_0_1 (subf p (Host.floor p))
def dhi (p : A2) : A1 := broadcastInDim S2x100000x1 ![0, 1] bcast_S2x100000_S2x100000x1_0_1 (subf (Host.ceil p) p)
theorem dlo_apply (p : A2) (b : Fin 2) (n : Fin 100000) (k : Fin 1) :
    dlo p (ix3 b n k) = p (ix2 b n) - Cert.Spec.fl (p (ix2 b n)) := by
  unfold dlo; rw [bc1_apply]; rfl
theorem dhi_apply (p : A2) (b : Fin 2) (n : Fin 100000) (k : Fin 1) :
    dhi p (ix3 b n k) = Cert.Spec.ce (p (ix2 b n)) - p (ix2 b n) := by
  unfold dhi; rw [bc1_apply]; rfl

/-- An index array with its negative entries moved up by the axis extent 32. -/
def wrapv (w : I2) : I2 :=
  select (cmpi .slt w (broadcastInDim S2x100000 ![] bcast_S_S2x100000 (constantI S_ 32 0#32)))
    (addi w (broadcastInDim S2x100000 ![] bcast_S_S2x100000 (constantI S_ 32 32#32))) w
theorem wrapv_apply (w : I2) (i : S2x100000.Idx) : wrapv w i = Cert.Spec.nrm 32#32 (w i) := by
  show Scalar.select (IntOp.cmpi .slt (w i) (broadcastInDim S2x100000 ![] bcast_S_S2x100000 (constantI S_ 32 0#32) i))
    (IntOp.addi (w i) (broadcastInDim S2x100000 ![] bcast_S_S2x100000 (constantI S_ 32 32#32) i)) (w i) = _
  rw [bc0_apply, bc0_apply]; rfl

/-- The feature array read at the lattice points three (already wrapped) index arrays name. -/
def gatw (feat : Feat) (p0 p1 p2 : I2) : AC :=
  Host.gather gather_S2x32x32x32x64_S2x100000x3_S2x100000x64_2_123_0_0_123_2_111164 feat
    (concatenate S2x100000x3 2
      [⟨S2x100000x1, broadcastInDim S2x100000x1 ![0, 1] bcast_S2x100000_S2x100000x1_0_1 p0⟩,
       ⟨S2x100000x1, broadcastInDim S2x100000x1 ![0, 1] bcast_S2x100000_S2x100000x1_0_1 p1⟩,
       ⟨S2x100000x1, broadcastInDim S2x100000x1 ![0, 1] bcast_S2x100000_S2x100000x1_0_1 p2⟩]
      concatenates_S2x100000x1_S2x100000x1_S2x100000x1_S2x100000x3_d2)
theorem gatw_apply (feat : Feat) (p0 p1 p2 : I2) (b : Fin 2) (n : Fin 100000) (ch : Fin 64) :
    gatw feat p0 p1 p2 (ix3 b n ch)
      = feat (ix5 b (Cert.Spec.cl 32 (by decide) (p0 (ix2 b n))) (Cert.Spec.cl 32 (by decide) (p1 (ix2 b n)))
          (Cert.Spec.cl 32 (by decide) (p2 (ix2 b n))) ch) := by
  unfold gatw
  rw [Cert.GatherRead.gather3b_apply (by decide) _ rfl rfl rfl rfl rfl rfl rfl, cat0_apply, cat1_apply, cat2_apply,
    bc1_apply, bc1_apply, bc1_apply]

end Pure

section Whole

/-- A column spread along the 64 channels. -/
def spread (w : A1) : AC := broadcastInDim S2x100000x64 ![0, 1, 2] bcast_S2x100000x1_S2x100000x64_0_1_2 w
theorem spread_apply (w : A1) (b : Fin 2) (n : Fin 100000) (ch : Fin 64) : spread w (ix3 b n ch) = w (ix3 b n (0 : Fin 1)) :=
  bcC_apply w b n ch

/-- One z plane: interpolate along x in the y-ceiling row and in the y-floor row, then along y. -/
def plane (q22 q12 q21 q11 : AC) (wx wx2 wy wy2 : A1) : AC :=
  addf (mulf (addf (mulf q22 (spread wx)) (mulf q12 (spread wx2))) (spread wy))
    (mulf (addf (mulf q21 (spread wx)) (mulf q11 (spread wx2))) (spread wy2))

/-- The corner array of three index arrays: wrap each, then read the feature array. -/
def G (feat : Feat) (ax ay az : I2) : AC := gatw feat (wrapv ax) (wrapv ay) (wrapv az)

/-- The whole level: the z-ceiling plane times the z distance from the floor plus the z-floor plane times the distance to
    the ceiling. -/
def L2 (feat : Feat) (co : A3) : AC :=
  addf
    (mulf (plane (G feat (ihi (P0 (CL co))) (ihi (P1 (CL co))) (ihi (P2 (CL co)))) (G feat (ilo (P0 (CL co))) (ihi (P1 (CL co))) (ihi (P2 (CL co))))
                 (G feat (ihi (P0 (CL co))) (ilo (P1 (CL co))) (ihi (P2 (CL co)))) (G feat (ilo (P0 (CL co))) (ilo (P1 (CL co))) (ihi (P2 (CL co))))
                 (dlo (P0 (CL co))) (dhi (P0 (CL co))) (dlo (P1 (CL co))) (dhi (P1 (CL co))))
          (spread (dlo (P2 (CL co)))))
    (mulf (plane (G feat (ihi (P0 (CL co))) (ihi (P1 (CL co))) (ilo (P2 (CL co)))) (G feat (ilo (P0 (CL co))) (ihi (P1 (CL co))) (ilo (P2 (CL co))))
                 (G feat (ihi (P0 (CL co))) (ilo (P1 (CL co))) (ilo (P2 (CL co)))) (G feat (ilo (P0 (CL co))) (ilo (P1 (CL co))) (ilo (P2 (CL co))))
                 (dlo (P0 (CL co))) (dhi (P0 (CL co))) (dlo (P1 (CL co))) (dhi (P1 (CL co))))
          (spread (dhi (P2 (CL co)))))

theorem G_apply (feat : Feat) (ax ay az : I2) (b : Fin 2) (n : Fin 100000) (ch : Fin 64) :
    G feat ax ay az (ix3 b n ch)
      = feat (ix5 b (Cert.Spec.cl 32 (by decide) (Cert.Spec.nrm 32#32 (ax (ix2 b n)))) (Cert.Spec.cl 32 (by decide) (Cert.Spec.nrm 32#32 (ay (ix2 b n))))
          (Cert.Spec.cl 32 (by decide) (Cert.Spec.nrm 32#32 (az (ix2 b n)))) ch) := by
  unfold G; rw [gatw_apply, wrapv_apply, wrapv_apply, wrapv_apply]

theorem plane_apply (q22 q12 q21 q11 : AC) (wx wx2 wy wy2 : A1) (b : Fin 2) (n : Fin 100000) (ch : Fin 64) :
    plane q22 q12 q21 q11 wx wx2 wy wy2 (ix3 b n ch)
      = (q22 (ix3 b n ch) * wx (ix3 b n (0 : Fin 1)) + q12 (ix3 b n ch) * wx2 (ix3 b n (0 : Fin 1))) * wy (ix3 b n (0 : Fin 1))
        + (q21 (ix3 b n ch) * wx (ix3 b n (0 : Fin 1)) + q11 (ix3 b n ch) * wx2 (ix3 b n (0 : Fin 1))) * wy2 (ix3 b n (0 : Fin 1)) := by
  unfold plane
  simp only [addf_apply, mulf_apply, spread_apply]

/-- The level at a point is the specification's value there. -/
theorem L2_apply (feat : Feat) (co : A3) (b : Fin 2) (n : Fin 100000) (ch : Fin 64) :
    L2 feat co (ix3 b n ch) = Cert.Spec.R2 feat co b n ch := by
  unfold L2
  simp only [addf_apply, mulf_apply, plane_apply, spread_apply, G_apply, dlo_apply, dhi_apply, ilo_apply, ihi_apply,
    P0_apply, P1_apply, P2_apply, CL_apply]
  rfl

end Whole

end Cert.ReferenceIdeal.Val2
-- ==== Proof.Ref.Level2.lean ====
/-
  Level 2 of the reference program, read off its operations: the level's result at a batch, a point and a channel is
  the specification's value there.

  The level's operations lie in five consecutive windows of the program (the sixth to the tenth), after the first window, which holds the scale
  constant. Each buffer that a later window reads is stated as a function of the two argument arrays (the feature array and
  the query coordinates): the six integer index arrays and the six distance columns of the coordinates scaled by 32 and clamped,
  the wrapped index arrays and the gathered corner arrays that cross a window boundary, the interpolated z-floor plane,
  and last the level's result, which is the function L2 of the two arrays. Read at an index, L2 is the
  specification's R2; and the argument arrays end as they began.
-/
import proofs.«414534_j76854144795318_3_alg».proof.Proof.Ref.Peel
import proofs.«414534_j76854144795318_3_alg».proof.Proof.Ref.Pure2
import proofs.«414534_j76854144795318_3_alg».proof.Proof.LibNary
import proofs.«414534_j76854144795318_3_alg».proof.Proof.Spec

noncomputable section

namespace Cert.ReferenceIdeal.Val2

open Cert.ReferenceIdeal Cert.ReferenceIdeal.Hand Idealize.ShloMosaic Idealize.ShloMosaic.ValueIdx
open Idealize.ShloMosaic.StableHlo Idealize.ShloMosaic.TcCoe Idealize.SL.Sem

variable (m : (ℓ : Loc nD τ sig) → Buf (Elt Ideal) ℓ) (c : Dev nD)

/-- The clamped scaled coordinates, and the feature array, the program ends with. -/
local notation "𝐂" => CL (VR (F := Ideal) m c main_arg5)
local notation "𝐀" => VR (F := Ideal) m c main_arg2

/-! ## The first window: the scale constant -/

/-- The scale 3-vector is the constant 32. -/
theorem e_cst0 : VR (F := Ideal) m c main_cst_0 = (constant S3 .f32 0x42000000#32 : FVec Ideal S3 .f32) := by
  rewrite [VR_eq_stretch m 0 chunk0 rfl c main_cst_0 (by decide)]
  after_results_nary

/-! ## The sixth window: the index arrays and the distance columns -/

/-- The integer below the x coordinate. -/
theorem e269 : VR (F := Ideal) m c main_v269 = ilo (P0 𝐂) := by
  rewrite [VR_eq_stretch m 5 chunk5 rfl c main_v269 (by decide)]
  after_results_nary
  simp (disch := decide) only [← VR_eq_U m 5 c]
  rewrite [e_cst0 m c]
  generalize VR (F := Ideal) m c main_arg5 = a5
  rfl
/-- The integer above the x coordinate. -/
theorem e270 : VR (F := Ideal) m c main_v270 = ihi (P0 𝐂) := by
  rewrite [VR_eq_stretch m 5 chunk5 rfl c main_v270 (by decide)]
  after_results_nary
  simp (disch := decide) only [← VR_eq_U m 5 c]
  rewrite [e_cst0 m c]
  generalize VR (F := Ideal) m c main_arg5 = a5
  rfl
/-- The integer below the y coordinate. -/
theorem e271 : VR (F := Ideal) m c main_v271 = ilo (P1 𝐂) := by
  rewrite [VR_eq_stretch m 5 chunk5 rfl c main_v271 (by decide)]
  after_results_nary
  simp (disch := decide) only [← VR_eq_U m 5 c]
  rewrite [e_cst0 m c]
  generalize VR (F := Ideal) m c main_arg5 = a5
  rfl
/-- The integer above the y coordinate. -/
theorem e272 : VR (F := Ideal) m c main_v272 = ihi (P1 𝐂) := by
  rewrite [VR_eq_stretch m 5 chunk5 rfl c main_v272 (by decide)]
  after_results_nary
  simp (disch := decide) only [← VR_eq_U m 5 c]
  rewrite [e_cst0 m c]
  generalize VR (F := Ideal) m c main_arg5 = a5
  rfl
/-- The integer below the z coordinate. -/
theorem e273 : VR (F := Ideal) m c main_v273 = ilo (P2 𝐂) := by
  rewrite [VR_eq_stretch m 5 chunk5 rfl c main_v273 (by decide)]
  after_results_nary
  simp (disch := decide) only [← VR_eq_U m 5 c]
  rewrite [e_cst0 m c]
  generalize VR (F := Ideal) m c main_arg5 = a5
  rfl
/-- The integer above the z coordinate. -/
theorem e274 : VR (F := Ideal) m c main_v274 = ihi (P2 𝐂) := by
  rewrite [VR_eq_stretch m 5 chunk5 rfl c main_v274 (by decide)]
  after_results_nary
  simp (disch := decide) only [← VR_eq_U m 5 c]
  rewrite [e_cst0 m c]
  generalize VR (F := Ideal) m c main_arg5 = a5
  rfl
/-- The distance of x from its floor. -/
theorem e278 : VR (F := Ideal) m c main_v278 = dlo (P0 𝐂) := by
  rewrite [VR_eq_stretch m 5 chunk5 rfl c main_v278 (by decide)]
  after_results_nary
  simp (disch := decide) only [← VR_eq_U m 5 c]
  rewrite [e_cst0 m c]
  generalize VR (F := Ideal) m c main_arg5 = a5
  rfl
/-- The distance of x to its ceiling. -/
theorem e282 : VR (F := Ideal) m c main_v282 = dhi (P0 𝐂) := by
  rewrite [VR_eq_stretch m 5 chunk5 rfl c main_v282 (by decide)]
  after_results_nary
  simp (disch := decide) only [← VR_eq_U m 5 c]
  rewrite [e_cst0 m c]
  generalize VR (F := Ideal) m c main_arg5 = a5
  rfl
/-- The distance of y from its floor. -/
theorem e286 : VR (F := Ideal) m c main_v286 = dlo (P1 𝐂) := by
  rewrite [VR_eq_stretch m 5 chunk5 rfl c main_v286 (by decide)]
  after_results_nary
  simp (disch := decide) only [← VR_eq_U m 5 c]
  rewrite [e_cst0 m c]
  generalize VR (F := Ideal) m c main_arg5 = a5
  rfl
/-- The distance of y to its ceiling. -/
theorem e290 : VR (F := Ideal) m c main_v290 = dhi (P1 𝐂) := by
  rewrite [VR_eq_stretch m 5 chunk5 rfl c main_v290 (by decide)]
  after_results_nary
  simp (disch := decide) only [← VR_eq_U m 5 c]
  rewrite [e_cst0 m c]
  generalize VR (F := Ideal) m c main_arg5 = a5
  rfl
/-- The distance of z from its floor. -/
theorem e294 : VR (F := Ideal) m c main_v294 = dlo (P2 𝐂) := by
  rewrite [VR_eq_stretch m 5 chunk5 rfl c main_v294 (by decide)]
  after_results_nary
  simp (disch := decide) only [← VR_eq_U m 5 c]
  rewrite [e_cst0 m c]
  generalize VR (F := Ideal) m c main_arg5 = a5
  rfl
/-- The distance of z to its ceiling. -/
theorem e298 : VR (F := Ideal) m c main_v298 = dhi (P2 𝐂) := by
  rewrite [VR_eq_stretch m 5 chunk5 rfl c main_v298 (by decide)]
  after_results_nary
  simp (disch := decide) only [← VR_eq_U m 5 c]
  rewrite [e_cst0 m c]
  generalize VR (F := Ideal) m c main_arg5 = a5
  rfl
/-- Where the integer below x is negative. -/
theorem e300 : VR (F := Ideal) m c main_v300
    = cmpi .slt (ilo (P0 𝐂)) (broadcastInDim S2x100000 ![] Facts₀.bcast_S_S2x100000 (constantI S_ 32 0#32)) := by
  rewrite [VR_eq_stretch m 5 chunk5 rfl c main_v300 (by decide)]
  after_results_nary
  simp (disch := decide) only [← VR_eq_U m 5 c]
  rewrite [e_cst0 m c]
  generalize VR (F := Ideal) m c main_arg5 = a5
  rfl
/-- The integer below x moved up by the axis extent. -/
theorem e302 : VR (F := Ideal) m c main_v302
    = addi (ilo (P0 𝐂)) (broadcastInDim S2x100000 ![] Facts₀.bcast_S_S2x100000 (constantI S_ 32 32#32)) := by
  rewrite [VR_eq_stretch m 5 chunk5 rfl c main_v302 (by decide)]
  after_results_nary
  simp (disch := decide) only [← VR_eq_U m 5 c]
  rewrite [e_cst0 m c]
  generalize VR (F := Ideal) m c main_arg5 = a5
  rfl

/-! ## The seventh window: two corners of the z-floor plane, two wrapped index arrays -/

/-- The corner array at (x floor, y floor, z floor). -/
theorem e318 : VR (F := Ideal) m c main_v318 = G 𝐀 (ilo (P0 𝐂)) (ilo (P1 𝐂)) (ilo (P2 𝐂)) := by
  rewrite [VR_eq_stretch m 6 chunk6 rfl c main_v318 (by decide)]
  after_results_nary
  simp (disch := decide) only [← VR_eq_U m 6 c]
  rewrite [e300 m c, e302 m c, e269 m c, e271 m c, e273 m c]
  generalize VR (F := Ideal) m c main_arg5 = a5
  generalize VR (F := Ideal) m c main_arg2 = a2
  rfl
/-- The corner array at (x ceiling, y floor, z floor). -/
theorem e338 : VR (F := Ideal) m c main_v338 = G 𝐀 (ihi (P0 𝐂)) (ilo (P1 𝐂)) (ilo (P2 𝐂)) := by
  rewrite [VR_eq_stretch m 6 chunk6 rfl c main_v338 (by decide)]
  after_results_nary
  simp (disch := decide) only [← VR_eq_U m 6 c]
  rewrite [e270 m c, e271 m c, e273 m c]
  generalize VR (F := Ideal) m c main_arg5 = a5
  generalize VR (F := Ideal) m c main_arg2 = a2
  rfl
/-- The x-floor index array, wrapped. -/
theorem e343 : VR (F := Ideal) m c main_v343 = wrapv (ilo (P0 𝐂)) := by
  rewrite [VR_eq_stretch m 6 chunk6 rfl c main_v343 (by decide)]
  after_results_nary
  simp (disch := decide) only [← VR_eq_U m 6 c]
  rewrite [e269 m c]
  generalize VR (F := Ideal) m c main_arg5 = a5
  rfl
/-- The y-ceiling index array, wrapped. -/
theorem e348 : VR (F := Ideal) m c main_v348 = wrapv (ihi (P1 𝐂)) := by
  rewrite [VR_eq_stretch m 6 chunk6 rfl c main_v348 (by decide)]
  after_results_nary
  simp (disch := decide) only [← VR_eq_U m 6 c]
  rewrite [e272 m c]
  generalize VR (F := Ideal) m c main_arg5 = a5
  rfl

/-! ## The eighth window: the z-floor plane -/

set_option maxHeartbeats 1600000 in
/-- The z-floor plane: the four corner arrays at z floor interpolated along x, then along y. -/
theorem e393 : VR (F := Ideal) m c main_v393
    = plane (G 𝐀 (ihi (P0 𝐂)) (ihi (P1 𝐂)) (ilo (P2 𝐂))) (G 𝐀 (ilo (P0 𝐂)) (ihi (P1 𝐂)) (ilo (P2 𝐂)))
        (G 𝐀 (ihi (P0 𝐂)) (ilo (P1 𝐂)) (ilo (P2 𝐂))) (G 𝐀 (ilo (P0 𝐂)) (ilo (P1 𝐂)) (ilo (P2 𝐂)))
        (dlo (P0 𝐂)) (dhi (P0 𝐂)) (dlo (P1 𝐂)) (dhi (P1 𝐂)) := by
  rewrite [VR_eq_stretch m 7 chunk7 rfl c main_v393 (by decide)]
  after_results_nary
  simp (disch := decide) only [← VR_eq_U m 7 c]
  rewrite [e270 m c, e272 m c, e273 m c, e343 m c, e348 m c, e318 m c, e338 m c, e278 m c, e282 m c, e286 m c, e290 m c]
  generalize VR (F := Ideal) m c main_arg5 = a5
  generalize VR (F := Ideal) m c main_arg2 = a2
  rfl
/-- The x-floor index array, wrapped. -/
theorem e398 : VR (F := Ideal) m c main_v398 = wrapv (ilo (P0 𝐂)) := by
  rewrite [VR_eq_stretch m 7 chunk7 rfl c main_v398 (by decide)]
  after_results_nary
  simp (disch := decide) only [← VR_eq_U m 7 c]
  rewrite [e269 m c]
  generalize VR (F := Ideal) m c main_arg5 = a5
  rfl

/-! ## The ninth window: two corners of the z-ceiling plane, two wrapped index arrays, a zero -/

/-- The corner array at (x floor, y floor, z ceiling). -/
theorem e413 : VR (F := Ideal) m c main_v413 = G 𝐀 (ilo (P0 𝐂)) (ilo (P1 𝐂)) (ihi (P2 𝐂)) := by
  rewrite [VR_eq_stretch m 8 chunk8 rfl c main_v413 (by decide)]
  after_results_nary
  simp (disch := decide) only [← VR_eq_U m 8 c]
  rewrite [e398 m c, e271 m c, e274 m c]
  generalize VR (F := Ideal) m c main_arg5 = a5
  generalize VR (F := Ideal) m c main_arg2 = a2
  rfl
/-- The corner array at (x ceiling, y floor, z ceiling). -/
theorem e433 : VR (F := Ideal) m c main_v433 = G 𝐀 (ihi (P0 𝐂)) (ilo (P1 𝐂)) (ihi (P2 𝐂)) := by
  rewrite [VR_eq_stretch m 8 chunk8 rfl c main_v433 (by decide)]
  after_results_nary
  simp (disch := decide) only [← VR_eq_U m 8 c]
  rewrite [e270 m c, e271 m c, e274 m c]
  generalize VR (F := Ideal) m c main_arg5 = a5
  generalize VR (F := Ideal) m c main_arg2 = a2
  rfl
/-- The x-floor index array, wrapped. -/
theorem e438 : VR (F := Ideal) m c main_v438 = wrapv (ilo (P0 𝐂)) := by
  rewrite [VR_eq_stretch m 8 chunk8 rfl c main_v438 (by decide)]
  after_results_nary
  simp (disch := decide) only [← VR_eq_U m 8 c]
  rewrite [e269 m c]
  generalize VR (F := Ideal) m c main_arg5 = a5
  rfl
/-- The y-ceiling index array, wrapped. -/
theorem e443 : VR (F := Ideal) m c main_v443 = wrapv (ihi (P1 𝐂)) := by
  rewrite [VR_eq_stretch m 8 chunk8 rfl c main_v443 (by decide)]
  after_results_nary
  simp (disch := decide) only [← VR_eq_U m 8 c]
  rewrite [e272 m c]
  generalize VR (F := Ideal) m c main_arg5 = a5
  rfl
/-- The integer zero. -/
theorem e_c93 : VR (F := Ideal) m c main_c_93 = (constantI S_ 32 0#32 : IVec S_ 32) := by
  rewrite [VR_eq_stretch m 8 chunk8 rfl c main_c_93 (by decide)]
  after_results_nary

/-! ## The tenth window: the level's result -/

set_option maxHeartbeats 1600000 in
/-- The level's result is the function L2 of the feature array and the coordinates. -/
theorem e493 : VR (F := Ideal) m c main_v493 = L2 𝐀 (VR (F := Ideal) m c main_arg5) := by
  rewrite [VR_eq_stretch m 9 chunk9 rfl c main_v493 (by decide)]
  after_results_nary
  simp (disch := decide) only [← VR_eq_U m 9 c]
  rewrite [e270 m c, e272 m c, e274 m c, e438 m c, e443 m c, e_c93 m c, e413 m c, e433 m c, e393 m c, e278 m c, e282 m c, e286 m c,
    e290 m c, e294 m c, e298 m c]
  generalize VR (F := Ideal) m c main_arg5 = a5
  generalize VR (F := Ideal) m c main_arg2 = a2
  rfl

/-! ## The level at an index -/

/-- The level's result at batch b, point n, channel ch is the specification's value there, over the feature array and the
    coordinates of the launch memory. -/
theorem level_at (m : (ℓ : Loc nD τ sig) → Buf (Elt Ideal) ℓ) (c : Dev nD) (b : Fin 2) (n : Fin 100000) (ch : Fin 64) :
    (VR (F := Ideal) m c main_v493 : S2x100000x64.Idx → EReal) (ix3 b n ch)
      = Cert.Spec.R2 (m ((c : Thread nD τ).loc main_arg2) : Cert.Spec.Feat2) (m ((c : Thread nD τ).loc main_arg5) : Cert.Spec.Coords) b n ch := by
  rewrite [e493 m c, VR_main_arg2, VR_main_arg5]
  exact L2_apply _ _ b n ch

end Cert.ReferenceIdeal.Val2

end
-- ==== Proof.Ref.Level3.lean ====
/-
  Level 3 of the reference (feature array of 2 x 16 x 16 x 16 lattice points and 128 channels, scale 16, upper clamp
  14.99), read at a batch b, a point n and a channel ch.

  The program scales the point's three coordinates by 16 and clamps them into [0.01, 14.99]; along each axis it takes the
  floor and the ceiling of the clamped coordinate, their conversions to 32-bit integers, and the two distances to them.
  Each of the eight corners of the lattice cell is read by a gather whose start indices are the join of three index
  columns, each index wrapped once if negative; the gather itself reads every index signed and clamped into [0, 15].
  The eight corner values are interpolated along x, then y (in the z-floor and the z-ceiling plane), then z.

  The 910 operations run in fifteen windows. A buffer that a later window reads is stated here as the composed term
  of its own window over the buffers of earlier windows; read at an index, each such term is the specification's
  quantity: the clamped coordinate, its floor or ceiling converted, a distance, a wrapped index, a corner value.
  Chained, the level's result at (b, n, ch) is the specification's R3.
-/
import Idealize.ShloMosaic.Lib.StableHlo.Run
import Idealize.ShloMosaic.Lib.Pipeline.Value
import Idealize.ShloMosaic.Lib.ValueIdx
import proofs.«414534_j76854144795318_3_alg».proof.Proof.Ref.Peel
import proofs.«414534_j76854144795318_3_alg».proof.Proof.Spec
import proofs.«414534_j76854144795318_3_alg».proof.Proof.GatherRead

noncomputable section

namespace Cert.ReferenceIdeal.Val3

open Cert.ReferenceIdeal Cert.ReferenceIdeal.Gen Cert.ReferenceIdeal.Hand Idealize.ShloMosaic Idealize.ShloMosaic.TcCoe
open Idealize.ShloMosaic.ValueIdx Idealize.ShloMosaic.StableHlo

/-! ## Layout operations read at an index -/

/-- A scalar broadcast to any shape reads the scalar. -/
theorem bscalar_at {t : Shape} {α : Type} (h : S_.BroadcastsInDim t (![] : Fin 0 → Fin t.rank)) (x : S_.Idx → α) (j : t.Idx) :
    broadcastInDim t ![] h x j = x ix0 :=
  broadcastInDim_apply _ h x j ix0 (fun a => a.elim0)

/-- Column k of a [2,100000,3] array, reshaped to [2,100000], at (b, n): the array at (b, n, k). -/
theorem col_at {α : Type} (k : Nat) (hk : k < 3) (hs : S2x100000x3.Slices ![0, 0, k] S2x100000x1)
    (u : S2x100000x3.Idx → α) (b : Fin 2) (n : Fin 100000) :
    shapeCast S2x100000 (extractStridedSlice S2x100000x1 ![0, 0, k] u hs) shapeCasts_S2x100000x1_S2x100000 (ix2 b n)
      = u (ix3 b n ⟨k, hk⟩) := by
  rw [shapeCast_apply _ shapeCasts_S2x100000x1_S2x100000 (ix2 b n) (ix3 b n (0 : Fin 1))
    (by rw [Shape.rowMajor_val_three, Shape.rowMajor_val_two]; show (b.val * 100000 + n.val) * 1 + 0 = b.val * 100000 + n.val; omega)]
  exact extractStridedSlice_apply ![0, 0, k] u hs (ix3 b n (0 : Fin 1)) (ix3 b n ⟨k, hk⟩) (fun a => match a with
    | ⟨0, _⟩ => by show b.val = 0 + b.val; omega
    | ⟨1, _⟩ => by show n.val = 0 + n.val; omega
    | ⟨2, _⟩ => by show k = k + 0; omega)

/-- A [2,100000] array broadcast to [2,100000,1] at (b, n, 0): the array at (b, n). -/
theorem bc1_at {α : Type} (w : S2x100000.Idx → α) (b : Fin 2) (n : Fin 100000) (j : Fin 1) :
    broadcastInDim S2x100000x1 ![0, 1] bcast_S2x100000_S2x100000x1_0_1 w (ix3 b n j) = w (ix2 b n) :=
  broadcastInDim_apply _ bcast_S2x100000_S2x100000x1_0_1 w (ix3 b n j) (ix2 b n) (fun a => match a with
    | ⟨0, _⟩ => by show b.val = if (2 : Nat) = 1 then 0 else b.val; rw [if_neg (by decide)]
    | ⟨1, _⟩ => by show n.val = if (100000 : Nat) = 1 then 0 else n.val; rw [if_neg (by decide)])

/-- A [2,100000,1] array broadcast along the channel axis at (b, n, ch): the array at (b, n, 0). -/
theorem bc128_at {α : Type} (d : S2x100000x1.Idx → α) (b : Fin 2) (n : Fin 100000) (ch : Fin 128) :
    broadcastInDim S2x100000x128 ![0, 1, 2] bcast_S2x100000x1_S2x100000x128_0_1_2 d (ix3 b n ch) = d (ix3 b n (0 : Fin 1)) :=
  broadcastInDim_apply _ bcast_S2x100000x1_S2x100000x128_0_1_2 d (ix3 b n ch) (ix3 b n (0 : Fin 1)) (fun a => match a with
    | ⟨0, _⟩ => by show b.val = if (2 : Nat) = 1 then 0 else b.val; rw [if_neg (by decide)]
    | ⟨1, _⟩ => by show n.val = if (100000 : Nat) = 1 then 0 else n.val; rw [if_neg (by decide)]
    | ⟨2, _⟩ => by show 0 = if (1 : Nat) = 1 then 0 else ch.val; rw [if_pos rfl])

/-- The join of three [2,100000,1] columns along the last axis, at (b, n, k): column k at (b, n, 0). -/
theorem cat3_at0 {α : Type} (p0 p1 p2 : S2x100000x1.Idx → α) (b : Fin 2) (n : Fin 100000) :
    concatenate S2x100000x3 2 [⟨S2x100000x1, p0⟩, ⟨S2x100000x1, p1⟩, ⟨S2x100000x1, p2⟩]
      concatenates_S2x100000x1_S2x100000x1_S2x100000x1_S2x100000x3_d2 (ix3 b n (0 : Fin 3)) = p0 (ix3 b n (0 : Fin 1)) :=
  concatenate_apply_piece 2 _ _ (ix3 b n (0 : Fin 3)) 0 (by show 0 < 3; omega) S2x100000x1 p0 rfl rfl 0 rfl (ix3 b n (0 : Fin 1))
    (fun a ha => match a, ha with
      | ⟨0, _⟩, _ => rfl
      | ⟨1, _⟩, _ => rfl
      | ⟨2, _⟩, ha => absurd rfl ha) rfl

theorem cat3_at1 {α : Type} (p0 p1 p2 : S2x100000x1.Idx → α) (b : Fin 2) (n : Fin 100000) :
    concatenate S2x100000x3 2 [⟨S2x100000x1, p0⟩, ⟨S2x100000x1, p1⟩, ⟨S2x100000x1, p2⟩]
      concatenates_S2x100000x1_S2x100000x1_S2x100000x1_S2x100000x3_d2 (ix3 b n (1 : Fin 3)) = p1 (ix3 b n (0 : Fin 1)) :=
  concatenate_apply_piece 2 _ _ (ix3 b n (1 : Fin 3)) 1 (by show 1 < 3; omega) S2x100000x1 p1 rfl rfl 1 rfl (ix3 b n (0 : Fin 1))
    (fun a ha => match a, ha with
      | ⟨0, _⟩, _ => rfl
      | ⟨1, _⟩, _ => rfl
      | ⟨2, _⟩, ha => absurd rfl ha) rfl

theorem cat3_at2 {α : Type} (p0 p1 p2 : S2x100000x1.Idx → α) (b : Fin 2) (n : Fin 100000) :
    concatenate S2x100000x3 2 [⟨S2x100000x1, p0⟩, ⟨S2x100000x1, p1⟩, ⟨S2x100000x1, p2⟩]
      concatenates_S2x100000x1_S2x100000x1_S2x100000x1_S2x100000x3_d2 (ix3 b n (2 : Fin 3)) = p2 (ix3 b n (0 : Fin 1)) :=
  concatenate_apply_piece 2 _ _ (ix3 b n (2 : Fin 3)) 2 (by show 2 < 3; omega) S2x100000x1 p2 rfl rfl 2 rfl (ix3 b n (0 : Fin 1))
    (fun a ha => match a, ha with
      | ⟨0, _⟩, _ => rfl
      | ⟨1, _⟩, _ => rfl
      | ⟨2, _⟩, ha => absurd rfl ha) rfl

/-- THE GATHER GROUP: the level-3 feature array gathered at the join of three broadcast index arrays, at (b, n, ch):
    the array at batch b, at the three indices each read signed and clamped into [0, 15], at channel ch. -/
theorem gather_group_at {α : Type} (x : S2x16x16x16x128.Idx → α) (w0 w1 w2 : IVec S2x100000 32)
    (b : Fin 2) (n : Fin 100000) (ch : Fin 128) :
    Host.gather gather_S2x16x16x16x128_S2x100000x3_S2x100000x128_2_123_0_0_123_2_1111128 x
      (concatenate S2x100000x3 2
        [⟨S2x100000x1, broadcastInDim S2x100000x1 ![0, 1] bcast_S2x100000_S2x100000x1_0_1 w0⟩,
         ⟨S2x100000x1, broadcastInDim S2x100000x1 ![0, 1] bcast_S2x100000_S2x100000x1_0_1 w1⟩,
         ⟨S2x100000x1, broadcastInDim S2x100000x1 ![0, 1] bcast_S2x100000_S2x100000x1_0_1 w2⟩]
        concatenates_S2x100000x1_S2x100000x1_S2x100000x1_S2x100000x3_d2) (ix3 b n ch)
      = x (ix5 b (Cert.Spec.cl 16 (by decide) (w0 (ix2 b n))) (Cert.Spec.cl 16 (by decide) (w1 (ix2 b n)))
            (Cert.Spec.cl 16 (by decide) (w2 (ix2 b n))) ch) := by
  rw [Cert.GatherRead.gather3b_apply (by decide) _ rfl rfl rfl rfl rfl rfl rfl x _ b n ch,
    cat3_at0, cat3_at1, cat3_at2, bc1_at, bc1_at, bc1_at]

/-! ## The pointwise operations at an index, in the specification's words -/

theorem floor_at {s : Shape} (x : FVec Ideal s .f32) (i : s.Idx) : Host.floor x i = Cert.Spec.fl (x i) := rfl
theorem ceil_at {s : Shape} (x : FVec Ideal s .f32) (i : s.Idx) : Host.ceil x i = Cert.Spec.ce (x i) := rfl
theorem cvt_at {s : Shape} (x : FVec Ideal s .f32) (i : s.Idx) : fptosi 32 x i = Cert.Spec.cvt (x i) := rfl

/-! ## The recurring composites -/

/-- The clamp into [0.01, 14.99]. -/
abbrev clip3 (x : FVec Ideal S2x100000x3 .f32) : FVec Ideal S2x100000x3 .f32 :=
  minimumf (broadcastInDim S2x100000x3 ![] bcast_S_S2x100000x3 (id (constant S_ .f32 0x416FD70A#32)))
    (maximumf (broadcastInDim S2x100000x3 ![] bcast_S_S2x100000x3 (id (constant S_ .f32 0x3C23D70A#32))) x)

theorem clip3_at (x : FVec Ideal S2x100000x3 .f32) (i : S2x100000x3.Idx) :
    clip3 x i = min Cert.Spec.hi3 (max Cert.Spec.lo (x i)) := rfl

/-- The three coordinate columns as [2,100000] arrays. -/
abbrev col0 {α : Type} (u : S2x100000x3.Idx → α) : S2x100000.Idx → α :=
  shapeCast S2x100000 (extractStridedSlice S2x100000x1 ![0, 0, 0] u slices_S2x100000x3_S2x100000x1_0_0_0) shapeCasts_S2x100000x1_S2x100000
abbrev col1 {α : Type} (u : S2x100000x3.Idx → α) : S2x100000.Idx → α :=
  shapeCast S2x100000 (extractStridedSlice S2x100000x1 ![0, 0, 1] u slices_S2x100000x3_S2x100000x1_0_0_1) shapeCasts_S2x100000x1_S2x100000
abbrev col2 {α : Type} (u : S2x100000x3.Idx → α) : S2x100000.Idx → α :=
  shapeCast S2x100000 (extractStridedSlice S2x100000x1 ![0, 0, 2] u slices_S2x100000x3_S2x100000x1_0_0_2) shapeCasts_S2x100000x1_S2x100000

theorem col0_at {α : Type} (u : S2x100000x3.Idx → α) (b : Fin 2) (n : Fin 100000) : col0 u (ix2 b n) = u (ix3 b n (0 : Fin 3)) :=
  col_at 0 (by decide) _ u b n
theorem col1_at {α : Type} (u : S2x100000x3.Idx → α) (b : Fin 2) (n : Fin 100000) : col1 u (ix2 b n) = u (ix3 b n (1 : Fin 3)) :=
  col_at 1 (by decide) _ u b n
theorem col2_at {α : Type} (u : S2x100000x3.Idx → α) (b : Fin 2) (n : Fin 100000) : col2 u (ix2 b n) = u (ix3 b n (2 : Fin 3)) :=
  col_at 2 (by decide) _ u b n

/-- A 32-bit scalar broadcast to [2,100000]. -/
abbrev bz (v : IVec S_ 32) : IVec S2x100000 32 := broadcastInDim S2x100000 ![] bcast_S_S2x100000 v

/-- A [2,100000] array as a [2,100000,1] column. -/
abbrev b1 {α : Type} (w : S2x100000.Idx → α) : S2x100000x1.Idx → α :=
  broadcastInDim S2x100000x1 ![0, 1] bcast_S2x100000_S2x100000x1_0_1 w

/-- A [2,100000,1] column along the 128 channels. -/
abbrev bC {α : Type} (d : S2x100000x1.Idx → α) : S2x100000x128.Idx → α :=
  broadcastInDim S2x100000x128 ![0, 1, 2] bcast_S2x100000x1_S2x100000x128_0_1_2 d

/-- The wrap of a negative index once around the axis of 16. -/
abbrev wrap (w : IVec S2x100000 32) : IVec S2x100000 32 :=
  select (cmpi .slt w (bz (constantI S_ 32 0#32))) (addi w (bz (constantI S_ 32 16#32))) w

theorem wrap_at (w : IVec S2x100000 32) (i : S2x100000.Idx) : wrap w i = Cert.Spec.nrm 16#32 (w i) := rfl

/-- The wrap with its comparison and its addend given: equal to the wrap wherever they are the comparison with 0 and 16. -/
theorem wrapsel_at (cm : IVec S2x100000 1) (w s : IVec S2x100000 32) (i : S2x100000.Idx)
    (hc : cm i = IntOp.cmpi .slt (w i) 0#32) (hs : s i = 16#32) :
    select cm (addi w s) w i = Cert.Spec.nrm 16#32 (w i) := by
  show Scalar.select (cm i) (IntOp.addi (w i) (s i)) (w i) = _
  rw [hc, hs]; rfl

theorem cmp0_at (w : IVec S2x100000 32) (i : S2x100000.Idx) : cmpi .slt w (bz (constantI S_ 32 0#32)) i = IntOp.cmpi .slt (w i) 0#32 := rfl
theorem bz_at (v : BitVec 32) (i : S2x100000.Idx) : bz (constantI S_ 32 v) i = v := rfl

/-- The gather at the join of three index columns. -/
abbrev gat {α : Type} (x : S2x16x16x16x128.Idx → α) (w0 w1 w2 : IVec S2x100000 32) : S2x100000x128.Idx → α :=
  Host.gather gather_S2x16x16x16x128_S2x100000x3_S2x100000x128_2_123_0_0_123_2_1111128 x
    (concatenate S2x100000x3 2 [⟨S2x100000x1, b1 w0⟩, ⟨S2x100000x1, b1 w1⟩, ⟨S2x100000x1, b1 w2⟩]
      concatenates_S2x100000x1_S2x100000x1_S2x100000x1_S2x100000x3_d2)

theorem gat_at {α : Type} (x : S2x16x16x16x128.Idx → α) (w0 w1 w2 : IVec S2x100000 32) (b : Fin 2) (n : Fin 100000) (ch : Fin 128) :
    gat x w0 w1 w2 (ix3 b n ch)
      = x (ix5 b (Cert.Spec.cl 16 (by decide) (w0 (ix2 b n))) (Cert.Spec.cl 16 (by decide) (w1 (ix2 b n)))
            (Cert.Spec.cl 16 (by decide) (w2 (ix2 b n))) ch) :=
  gather_group_at x w0 w1 w2 b n ch

theorem b1_at {α : Type} (w : S2x100000.Idx → α) (b : Fin 2) (n : Fin 100000) (j : Fin 1) : b1 w (ix3 b n j) = w (ix2 b n) :=
  bc1_at w b n j
theorem bC_at {α : Type} (d : S2x100000x1.Idx → α) (b : Fin 2) (n : Fin 100000) (ch : Fin 128) : bC d (ix3 b n ch) = d (ix3 b n (0 : Fin 1)) :=
  bc128_at d b n ch

theorem scale_at (x : FVec Ideal S2x100000x3 .f32) (i : S2x100000x3.Idx) :
    mulf x (broadcastInDim S2x100000x3 ![0, 1, 2] bcast_S1x1x3_S2x100000x3_0_1_2
      (broadcastInDim S1x1x3 ![2] bcast_S3_S1x1x3_2 (constant S3 .f32 0x41800000#32))) i = x i * Cert.Spec.s3 := rfl

/-! ## The level's buffers, chunk by chunk -/

section Chain

variable (m : (ℓ : Loc nD τ sig) → Buf (Elt Ideal) ℓ) (c : Dev nD)

local notation "V[" r "]" => VR (F := Ideal) m c r

/-- The coordinates and the level-3 feature array at launch. -/
abbrev co : Cert.Spec.Coords := m ((c : Thread nD τ).loc main_arg5)
abbrev feat : Cert.Spec.Feat3 := m ((c : Thread nD τ).loc main_arg3)

/-- The clamped scaled coordinate of point (b, n) along axis a. -/
abbrev Uc (b : Fin 2) (n : Fin 100000) (a : Fin 3) : EReal := Cert.Spec.uc Cert.Spec.s3 Cert.Spec.hi3 (co m c (ix3 b n a))

/-! ### The crossing equations (each buffer as the composed term of its chunk over earlier chunks' buffers) -/

theorem eq_cst_1 : (V[main_cst_1] : FVec Ideal S3 .f32) = constant (F := Ideal) S3 .f32 0x41800000#32 := by
  rw [VR_eq_stretch m 0 chunk0 rfl c main_cst_1 (by decide)]
  generalize UR m 0 c = U
  after_results_simp <;> rfl

theorem eq_v496 : (V[main_v496] : FVec Ideal S2x100000x3 .f32)
    = mulf (F := Ideal) (s := S2x100000x3) (φ := .f32) V[main_arg5] (broadcastInDim S2x100000x3 ![0, 1, 2] bcast_S1x1x3_S2x100000x3_0_1_2
        (broadcastInDim S1x1x3 ![2] bcast_S3_S1x1x3_2 (V[main_cst_1] : FVec Ideal S3 .f32))) := by
  rw [VR_eq_stretch m 9 chunk9 rfl c main_v496 (by decide),
    VR_eq_U m 9 c main_arg5 (by decide),
    VR_eq_U m 9 c main_cst_1 (by decide)]
  generalize UR m 9 c = U
  after_results_simp <;> rfl

theorem eq_v516 : (V[main_v516] : IVec S2x100000 32) = fptosi 32 (Host.floor (col0 (clip3 V[main_v496]))) := by
  rw [VR_eq_stretch m 10 chunk10 rfl c main_v516 (by decide),
    VR_eq_U m 10 c main_v496 (by decide)]
  generalize UR m 10 c = U
  after_results_simp <;> rfl
theorem eq_v517 : (V[main_v517] : IVec S2x100000 32) = fptosi 32 (Host.ceil (col0 (clip3 V[main_v496]))) := by
  rw [VR_eq_stretch m 10 chunk10 rfl c main_v517 (by decide),
    VR_eq_U m 10 c main_v496 (by decide)]
  generalize UR m 10 c = U
  after_results_simp <;> rfl
theorem eq_v518 : (V[main_v518] : IVec S2x100000 32) = fptosi 32 (Host.floor (col1 (clip3 V[main_v496]))) := by
  rw [VR_eq_stretch m 10 chunk10 rfl c main_v518 (by decide),
    VR_eq_U m 10 c main_v496 (by decide)]
  generalize UR m 10 c = U
  after_results_simp <;> rfl
theorem eq_v519 : (V[main_v519] : IVec S2x100000 32) = fptosi 32 (Host.ceil (col1 (clip3 V[main_v496]))) := by
  rw [VR_eq_stretch m 10 chunk10 rfl c main_v519 (by decide),
    VR_eq_U m 10 c main_v496 (by decide)]
  generalize UR m 10 c = U
  after_results_simp <;> rfl
theorem eq_v520 : (V[main_v520] : IVec S2x100000 32) = fptosi 32 (Host.floor (col2 (clip3 V[main_v496]))) := by
  rw [VR_eq_stretch m 10 chunk10 rfl c main_v520 (by decide),
    VR_eq_U m 10 c main_v496 (by decide)]
  generalize UR m 10 c = U
  after_results_simp <;> rfl
theorem eq_v521 : (V[main_v521] : IVec S2x100000 32) = fptosi 32 (Host.ceil (col2 (clip3 V[main_v496]))) := by
  rw [VR_eq_stretch m 10 chunk10 rfl c main_v521 (by decide),
    VR_eq_U m 10 c main_v496 (by decide)]
  generalize UR m 10 c = U
  after_results_simp <;> rfl

theorem eq_v525 : (V[main_v525] : FVec Ideal S2x100000x1 .f32)
    = b1 (subf (col0 (clip3 V[main_v496])) (Host.floor (col0 (clip3 V[main_v496])))) := by
  rw [VR_eq_stretch m 10 chunk10 rfl c main_v525 (by decide),
    VR_eq_U m 10 c main_v496 (by decide)]
  generalize UR m 10 c = U
  after_results_simp <;> rfl
theorem eq_v529 : (V[main_v529] : FVec Ideal S2x100000x1 .f32)
    = b1 (subf (Host.ceil (col0 (clip3 V[main_v496]))) (col0 (clip3 V[main_v496]))) := by
  rw [VR_eq_stretch m 10 chunk10 rfl c main_v529 (by decide),
    VR_eq_U m 10 c main_v496 (by decide)]
  generalize UR m 10 c = U
  after_results_simp <;> rfl
theorem eq_v533 : (V[main_v533] : FVec Ideal S2x100000x1 .f32)
    = b1 (subf (col1 (clip3 V[main_v496])) (Host.floor (col1 (clip3 V[main_v496])))) := by
  rw [VR_eq_stretch m 10 chunk10 rfl c main_v533 (by decide),
    VR_eq_U m 10 c main_v496 (by decide)]
  generalize UR m 10 c = U
  after_results_simp <;> rfl
theorem eq_v537 : (V[main_v537] : FVec Ideal S2x100000x1 .f32)
    = b1 (subf (Host.ceil (col1 (clip3 V[main_v496]))) (col1 (clip3 V[main_v496]))) := by
  rw [VR_eq_stretch m 10 chunk10 rfl c main_v537 (by decide),
    VR_eq_U m 10 c main_v496 (by decide)]
  generalize UR m 10 c = U
  after_results_simp <;> rfl
theorem eq_v541 : (V[main_v541] : FVec Ideal S2x100000x1 .f32)
    = b1 (subf (col2 (clip3 V[main_v496])) (Host.floor (col2 (clip3 V[main_v496])))) := by
  rw [VR_eq_stretch m 10 chunk10 rfl c main_v541 (by decide),
    VR_eq_U m 10 c main_v496 (by decide)]
  generalize UR m 10 c = U
  after_results_simp <;> rfl
theorem eq_v545 : (V[main_v545] : FVec Ideal S2x100000x1 .f32)
    = b1 (subf (Host.ceil (col2 (clip3 V[main_v496]))) (col2 (clip3 V[main_v496]))) := by
  rw [VR_eq_stretch m 10 chunk10 rfl c main_v545 (by decide),
    VR_eq_U m 10 c main_v496 (by decide)]
  generalize UR m 10 c = U
  after_results_simp <;> rfl

theorem eq_v550 : (V[main_v550] : IVec S2x100000 32) = wrap (fptosi 32 (Host.floor (col0 (clip3 V[main_v496])))) := by
  rw [VR_eq_stretch m 10 chunk10 rfl c main_v550 (by decide),
    VR_eq_U m 10 c main_v496 (by decide)]
  generalize UR m 10 c = U
  after_results_simp <;> rfl
theorem eq_v551 : (V[main_v551] : IVec S2x100000 32) = bz (constantI S_ 32 0#32) := by
  rw [VR_eq_stretch m 10 chunk10 rfl c main_v551 (by decide)]
  generalize UR m 10 c = U
  after_results_simp <;> rfl

/-! ### Chunk by chunk at an index -/

theorem X_at (b : Fin 2) (n : Fin 100000) (a : Fin 3) :
    (V[main_v496] : FVec Ideal S2x100000x3 .f32) (ix3 b n a) = co m c (ix3 b n a) * Cert.Spec.s3 := by
  rw [eq_v496, eq_cst_1, VR_main_arg5, scale_at]

theorem clipX_at (b : Fin 2) (n : Fin 100000) (a : Fin 3) :
    clip3 V[main_v496] (ix3 b n a) = Uc m c b n a := by
  rw [clip3_at, X_at]; rfl

theorem I516_at (b : Fin 2) (n : Fin 100000) :
    (V[main_v516] : IVec S2x100000 32) (ix2 b n) = Cert.Spec.cvt (Cert.Spec.fl (Uc m c b n 0)) := by
  rw [eq_v516, cvt_at, floor_at, col0_at, clipX_at]
theorem I517_at (b : Fin 2) (n : Fin 100000) :
    (V[main_v517] : IVec S2x100000 32) (ix2 b n) = Cert.Spec.cvt (Cert.Spec.ce (Uc m c b n 0)) := by
  rw [eq_v517, cvt_at, ceil_at, col0_at, clipX_at]
theorem I518_at (b : Fin 2) (n : Fin 100000) :
    (V[main_v518] : IVec S2x100000 32) (ix2 b n) = Cert.Spec.cvt (Cert.Spec.fl (Uc m c b n 1)) := by
  rw [eq_v518, cvt_at, floor_at, col1_at, clipX_at]
theorem I519_at (b : Fin 2) (n : Fin 100000) :
    (V[main_v519] : IVec S2x100000 32) (ix2 b n) = Cert.Spec.cvt (Cert.Spec.ce (Uc m c b n 1)) := by
  rw [eq_v519, cvt_at, ceil_at, col1_at, clipX_at]
theorem I520_at (b : Fin 2) (n : Fin 100000) :
    (V[main_v520] : IVec S2x100000 32) (ix2 b n) = Cert.Spec.cvt (Cert.Spec.fl (Uc m c b n 2)) := by
  rw [eq_v520, cvt_at, floor_at, col2_at, clipX_at]
theorem I521_at (b : Fin 2) (n : Fin 100000) :
    (V[main_v521] : IVec S2x100000 32) (ix2 b n) = Cert.Spec.cvt (Cert.Spec.ce (Uc m c b n 2)) := by
  rw [eq_v521, cvt_at, ceil_at, col2_at, clipX_at]

theorem D525_at (b : Fin 2) (n : Fin 100000) :
    (V[main_v525] : FVec Ideal S2x100000x1 .f32) (ix3 b n (0 : Fin 1)) = Uc m c b n 0 - Cert.Spec.fl (Uc m c b n 0) := by
  rw [eq_v525, b1_at, subf_apply, floor_at, col0_at, clipX_at]
theorem D529_at (b : Fin 2) (n : Fin 100000) :
    (V[main_v529] : FVec Ideal S2x100000x1 .f32) (ix3 b n (0 : Fin 1)) = Cert.Spec.ce (Uc m c b n 0) - Uc m c b n 0 := by
  rw [eq_v529, b1_at, subf_apply, ceil_at, col0_at, clipX_at]
theorem D533_at (b : Fin 2) (n : Fin 100000) :
    (V[main_v533] : FVec Ideal S2x100000x1 .f32) (ix3 b n (0 : Fin 1)) = Uc m c b n 1 - Cert.Spec.fl (Uc m c b n 1) := by
  rw [eq_v533, b1_at, subf_apply, floor_at, col1_at, clipX_at]
theorem D537_at (b : Fin 2) (n : Fin 100000) :
    (V[main_v537] : FVec Ideal S2x100000x1 .f32) (ix3 b n (0 : Fin 1)) = Cert.Spec.ce (Uc m c b n 1) - Uc m c b n 1 := by
  rw [eq_v537, b1_at, subf_apply, ceil_at, col1_at, clipX_at]
theorem D541_at (b : Fin 2) (n : Fin 100000) :
    (V[main_v541] : FVec Ideal S2x100000x1 .f32) (ix3 b n (0 : Fin 1)) = Uc m c b n 2 - Cert.Spec.fl (Uc m c b n 2) := by
  rw [eq_v541, b1_at, subf_apply, floor_at, col2_at, clipX_at]
theorem D545_at (b : Fin 2) (n : Fin 100000) :
    (V[main_v545] : FVec Ideal S2x100000x1 .f32) (ix3 b n (0 : Fin 1)) = Cert.Spec.ce (Uc m c b n 2) - Uc m c b n 2 := by
  rw [eq_v545, b1_at, subf_apply, ceil_at, col2_at, clipX_at]

theorem N550_at (b : Fin 2) (n : Fin 100000) :
    (V[main_v550] : IVec S2x100000 32) (ix2 b n) = Cert.Spec.nrm 16#32 (Cert.Spec.cvt (Cert.Spec.fl (Uc m c b n 0))) := by
  rw [eq_v550, wrap_at, cvt_at, floor_at, col0_at, clipX_at]
theorem Z551_at (i : S2x100000.Idx) : (V[main_v551] : IVec S2x100000 32) i = 0#32 := by
  rw [eq_v551, bz_at]

end Chain

section Chain2

variable (m : (ℓ : Loc nD τ sig) → Buf (Elt Ideal) ℓ) (c : Dev nD)

local notation "V[" r "]" => VR (F := Ideal) m c r

/-- The corner value of point (b, n) at the lattice indices of three (floored or ceiled) reals. -/
abbrev q (b : Fin 2) (vx vy vz : EReal) (ch : Fin 128) : EReal :=
  Cert.Spec.corner (by decide : 0 < 16) (feat m c) b vx vy vz ch

theorem cmpi_at (p : CmpIPredicate) (x y : IVec S2x100000 32) (i : S2x100000.Idx) : cmpi p x y i = IntOp.cmpi p (x i) (y i) := rfl

/-! ### Chunk 11 -/

theorem eq_v565 : (V[main_v565] : FVec Ideal S2x100000x128 .f32)
    = gat V[main_arg3] V[main_v550]
        (select (cmpi .slt V[main_v518] V[main_v551]) (addi V[main_v518] (bz (constantI S_ 32 16#32))) V[main_v518])
        (wrap V[main_v520]) := by
  rw [VR_eq_stretch m 11 chunk11 rfl c main_v565 (by decide),
    VR_eq_U m 11 c main_arg3 (by decide),
    VR_eq_U m 11 c main_v550 (by decide),
    VR_eq_U m 11 c main_v518 (by decide),
    VR_eq_U m 11 c main_v551 (by decide),
    VR_eq_U m 11 c main_v520 (by decide)]
  generalize UR m 11 c = U
  after_results_simp <;> rfl
theorem eq_v585 : (V[main_v585] : FVec Ideal S2x100000x128 .f32)
    = gat V[main_arg3] (wrap V[main_v517]) (wrap V[main_v518]) (wrap V[main_v520]) := by
  rw [VR_eq_stretch m 11 chunk11 rfl c main_v585 (by decide),
    VR_eq_U m 11 c main_arg3 (by decide),
    VR_eq_U m 11 c main_v517 (by decide),
    VR_eq_U m 11 c main_v518 (by decide),
    VR_eq_U m 11 c main_v520 (by decide)]
  generalize UR m 11 c = U
  after_results_simp <;> rfl
theorem eq_v590 : (V[main_v590] : IVec S2x100000 32) = wrap V[main_v516] := by
  rw [VR_eq_stretch m 11 chunk11 rfl c main_v590 (by decide),
    VR_eq_U m 11 c main_v516 (by decide)]
  generalize UR m 11 c = U
  after_results_simp <;> rfl
theorem eq_v595 : (V[main_v595] : IVec S2x100000 32) = wrap V[main_v519] := by
  rw [VR_eq_stretch m 11 chunk11 rfl c main_v595 (by decide),
    VR_eq_U m 11 c main_v519 (by decide)]
  generalize UR m 11 c = U
  after_results_simp <;> rfl
theorem eq_v597 : (V[main_v597] : IVec S2x100000 1) = cmpi .slt V[main_v520] (bz (constantI S_ 32 0#32)) := by
  rw [VR_eq_stretch m 11 chunk11 rfl c main_v597 (by decide),
    VR_eq_U m 11 c main_v520 (by decide)]
  generalize UR m 11 c = U
  after_results_simp <;> rfl

theorem G565_at (b : Fin 2) (n : Fin 100000) (ch : Fin 128) :
    (V[main_v565] : FVec Ideal S2x100000x128 .f32) (ix3 b n ch)
      = q m c b (Cert.Spec.fl (Uc m c b n 0)) (Cert.Spec.fl (Uc m c b n 1)) (Cert.Spec.fl (Uc m c b n 2)) ch := by
  rw [eq_v565, gat_at, VR_main_arg3, N550_at,
    wrapsel_at (cmpi .slt V[main_v518] V[main_v551]) V[main_v518] (bz (constantI S_ 32 16#32)) (ix2 b n)
      (by rw [cmpi_at, Z551_at]) (bz_at _ _),
    wrap_at, I518_at, I520_at]
  rfl
theorem G585_at (b : Fin 2) (n : Fin 100000) (ch : Fin 128) :
    (V[main_v585] : FVec Ideal S2x100000x128 .f32) (ix3 b n ch)
      = q m c b (Cert.Spec.ce (Uc m c b n 0)) (Cert.Spec.fl (Uc m c b n 1)) (Cert.Spec.fl (Uc m c b n 2)) ch := by
  rw [eq_v585, gat_at, VR_main_arg3, wrap_at, wrap_at, wrap_at, I517_at, I518_at, I520_at]
  rfl
theorem N590_at (b : Fin 2) (n : Fin 100000) :
    (V[main_v590] : IVec S2x100000 32) (ix2 b n) = Cert.Spec.nrm 16#32 (Cert.Spec.cvt (Cert.Spec.fl (Uc m c b n 0))) := by
  rw [eq_v590, wrap_at, I516_at]
theorem N595_at (b : Fin 2) (n : Fin 100000) :
    (V[main_v595] : IVec S2x100000 32) (ix2 b n) = Cert.Spec.nrm 16#32 (Cert.Spec.cvt (Cert.Spec.ce (Uc m c b n 1))) := by
  rw [eq_v595, wrap_at, I519_at]
theorem C597_at (b : Fin 2) (n : Fin 100000) :
    (V[main_v597] : IVec S2x100000 1) (ix2 b n) = IntOp.cmpi .slt ((V[main_v520] : IVec S2x100000 32) (ix2 b n)) 0#32 := by
  rw [eq_v597, cmp0_at]

/-! ### Chunk 12: the z-floor plane -/

set_option maxHeartbeats 400000 in
theorem eq_v640 : (V[main_v640] : FVec Ideal S2x100000x128 .f32)
    = addf (F := Ideal) (s := S2x100000x128) (φ := .f32)
        (mulf (addf (mulf (gat V[main_arg3] (wrap V[main_v517]) (wrap V[main_v519]) (wrap V[main_v520])) (bC V[main_v525]))
                    (mulf (gat V[main_arg3] V[main_v590] V[main_v595]
                            (select V[main_v597] (addi V[main_v520] (bz (constantI S_ 32 16#32))) V[main_v520])) (bC V[main_v529])))
              (bC V[main_v533]))
        (mulf (addf (mulf V[main_v585] (bC V[main_v525])) (mulf V[main_v565] (bC V[main_v529]))) (bC V[main_v537])) := by
  rw [VR_eq_stretch m 12 chunk12 rfl c main_v640 (by decide),
    VR_eq_U m 12 c main_arg3 (by decide),
    VR_eq_U m 12 c main_v517 (by decide),
    VR_eq_U m 12 c main_v519 (by decide),
    VR_eq_U m 12 c main_v520 (by decide),
    VR_eq_U m 12 c main_v525 (by decide),
    VR_eq_U m 12 c main_v590 (by decide),
    VR_eq_U m 12 c main_v595 (by decide),
    VR_eq_U m 12 c main_v597 (by decide),
    VR_eq_U m 12 c main_v529 (by decide),
    VR_eq_U m 12 c main_v533 (by decide),
    VR_eq_U m 12 c main_v585 (by decide),
    VR_eq_U m 12 c main_v565 (by decide),
    VR_eq_U m 12 c main_v537 (by decide)]
  generalize UR m 12 c = U
  after_results_simp <;> rfl
theorem eq_v645 : (V[main_v645] : IVec S2x100000 32) = wrap V[main_v516] := by
  rw [VR_eq_stretch m 12 chunk12 rfl c main_v645 (by decide),
    VR_eq_U m 12 c main_v516 (by decide)]
  generalize UR m 12 c = U
  after_results_simp <;> rfl
theorem eq_v647 : (V[main_v647] : IVec S2x100000 1) = cmpi .slt V[main_v518] (bz (constantI S_ 32 0#32)) := by
  rw [VR_eq_stretch m 12 chunk12 rfl c main_v647 (by decide),
    VR_eq_U m 12 c main_v518 (by decide)]
  generalize UR m 12 c = U
  after_results_simp <;> rfl

theorem P640_at (b : Fin 2) (n : Fin 100000) (ch : Fin 128) :
    (V[main_v640] : FVec Ideal S2x100000x128 .f32) (ix3 b n ch)
      = (q m c b (Cert.Spec.ce (Uc m c b n 0)) (Cert.Spec.ce (Uc m c b n 1)) (Cert.Spec.fl (Uc m c b n 2)) ch * (Uc m c b n 0 - Cert.Spec.fl (Uc m c b n 0))
          + q m c b (Cert.Spec.fl (Uc m c b n 0)) (Cert.Spec.ce (Uc m c b n 1)) (Cert.Spec.fl (Uc m c b n 2)) ch * (Cert.Spec.ce (Uc m c b n 0) - Uc m c b n 0))
            * (Uc m c b n 1 - Cert.Spec.fl (Uc m c b n 1))
        + (q m c b (Cert.Spec.ce (Uc m c b n 0)) (Cert.Spec.fl (Uc m c b n 1)) (Cert.Spec.fl (Uc m c b n 2)) ch * (Uc m c b n 0 - Cert.Spec.fl (Uc m c b n 0))
          + q m c b (Cert.Spec.fl (Uc m c b n 0)) (Cert.Spec.fl (Uc m c b n 1)) (Cert.Spec.fl (Uc m c b n 2)) ch * (Cert.Spec.ce (Uc m c b n 0) - Uc m c b n 0))
            * (Cert.Spec.ce (Uc m c b n 1) - Uc m c b n 1) := by
  rw [eq_v640]
  simp only [addf_apply, mulf_apply, bC_at, gat_at, wrap_at]
  rw [wrapsel_at V[main_v597] V[main_v520] (bz (constantI S_ 32 16#32)) (ix2 b n) (C597_at m c b n) (bz_at _ _),
    D525_at, D529_at, D533_at, D537_at, G585_at, G565_at, VR_main_arg3, N590_at, N595_at, I517_at, I519_at, I520_at]
  rfl
theorem N645_at (b : Fin 2) (n : Fin 100000) :
    (V[main_v645] : IVec S2x100000 32) (ix2 b n) = Cert.Spec.nrm 16#32 (Cert.Spec.cvt (Cert.Spec.fl (Uc m c b n 0))) := by
  rw [eq_v645, wrap_at, I516_at]
theorem C647_at (b : Fin 2) (n : Fin 100000) :
    (V[main_v647] : IVec S2x100000 1) (ix2 b n) = IntOp.cmpi .slt ((V[main_v518] : IVec S2x100000 32) (ix2 b n)) 0#32 := by
  rw [eq_v647, cmp0_at]

/-! ### Chunk 13 -/

theorem eq_v660 : (V[main_v660] : FVec Ideal S2x100000x128 .f32)
    = gat V[main_arg3] V[main_v645]
        (select V[main_v647] (addi V[main_v518] (bz (constantI S_ 32 16#32))) V[main_v518])
        (wrap V[main_v521]) := by
  rw [VR_eq_stretch m 13 chunk13 rfl c main_v660 (by decide),
    VR_eq_U m 13 c main_arg3 (by decide),
    VR_eq_U m 13 c main_v645 (by decide),
    VR_eq_U m 13 c main_v647 (by decide),
    VR_eq_U m 13 c main_v518 (by decide),
    VR_eq_U m 13 c main_v521 (by decide)]
  generalize UR m 13 c = U
  after_results_simp <;> rfl
theorem eq_v680 : (V[main_v680] : FVec Ideal S2x100000x128 .f32)
    = gat V[main_arg3] (wrap V[main_v517]) (wrap V[main_v518]) (wrap V[main_v521]) := by
  rw [VR_eq_stretch m 13 chunk13 rfl c main_v680 (by decide),
    VR_eq_U m 13 c main_arg3 (by decide),
    VR_eq_U m 13 c main_v517 (by decide),
    VR_eq_U m 13 c main_v518 (by decide),
    VR_eq_U m 13 c main_v521 (by decide)]
  generalize UR m 13 c = U
  after_results_simp <;> rfl
theorem eq_v685 : (V[main_v685] : IVec S2x100000 32) = wrap V[main_v516] := by
  rw [VR_eq_stretch m 13 chunk13 rfl c main_v685 (by decide),
    VR_eq_U m 13 c main_v516 (by decide)]
  generalize UR m 13 c = U
  after_results_simp <;> rfl
theorem eq_v690 : (V[main_v690] : IVec S2x100000 32) = wrap V[main_v519] := by
  rw [VR_eq_stretch m 13 chunk13 rfl c main_v690 (by decide),
    VR_eq_U m 13 c main_v519 (by decide)]
  generalize UR m 13 c = U
  after_results_simp <;> rfl
theorem eq_v692 : (V[main_v692] : IVec S2x100000 1) = cmpi .slt V[main_v521] (bz (constantI S_ 32 0#32)) := by
  rw [VR_eq_stretch m 13 chunk13 rfl c main_v692 (by decide),
    VR_eq_U m 13 c main_v521 (by decide)]
  generalize UR m 13 c = U
  after_results_simp <;> rfl
theorem eq_c_144 : (V[main_c_144] : IVec S_ 32) = constantI S_ 32 16#32 := by
  rw [VR_eq_stretch m 13 chunk13 rfl c main_c_144 (by decide)]
  generalize UR m 13 c = U
  after_results_simp <;> rfl

theorem G660_at (b : Fin 2) (n : Fin 100000) (ch : Fin 128) :
    (V[main_v660] : FVec Ideal S2x100000x128 .f32) (ix3 b n ch)
      = q m c b (Cert.Spec.fl (Uc m c b n 0)) (Cert.Spec.fl (Uc m c b n 1)) (Cert.Spec.ce (Uc m c b n 2)) ch := by
  rw [eq_v660, gat_at, VR_main_arg3, N645_at,
    wrapsel_at V[main_v647] V[main_v518] (bz (constantI S_ 32 16#32)) (ix2 b n) (C647_at m c b n) (bz_at _ _),
    wrap_at, I518_at, I521_at]
  rfl
theorem G680_at (b : Fin 2) (n : Fin 100000) (ch : Fin 128) :
    (V[main_v680] : FVec Ideal S2x100000x128 .f32) (ix3 b n ch)
      = q m c b (Cert.Spec.ce (Uc m c b n 0)) (Cert.Spec.fl (Uc m c b n 1)) (Cert.Spec.ce (Uc m c b n 2)) ch := by
  rw [eq_v680, gat_at, VR_main_arg3, wrap_at, wrap_at, wrap_at, I517_at, I518_at, I521_at]
  rfl
theorem N685_at (b : Fin 2) (n : Fin 100000) :
    (V[main_v685] : IVec S2x100000 32) (ix2 b n) = Cert.Spec.nrm 16#32 (Cert.Spec.cvt (Cert.Spec.fl (Uc m c b n 0))) := by
  rw [eq_v685, wrap_at, I516_at]
theorem N690_at (b : Fin 2) (n : Fin 100000) :
    (V[main_v690] : IVec S2x100000 32) (ix2 b n) = Cert.Spec.nrm 16#32 (Cert.Spec.cvt (Cert.Spec.ce (Uc m c b n 1))) := by
  rw [eq_v690, wrap_at, I519_at]
theorem C692_at (b : Fin 2) (n : Fin 100000) :
    (V[main_v692] : IVec S2x100000 1) (ix2 b n) = IntOp.cmpi .slt ((V[main_v521] : IVec S2x100000 32) (ix2 b n)) 0#32 := by
  rw [eq_v692, cmp0_at]

/-! ### Chunk 14: the z-ceiling plane and the interpolation along z -/

set_option maxHeartbeats 400000 in
theorem eq_v740 : (V[main_v740] : FVec Ideal S2x100000x128 .f32)
    = addf (F := Ideal) (s := S2x100000x128) (φ := .f32)
        (mulf
          (addf
            (mulf (addf (mulf (gat V[main_arg3] (wrap V[main_v517]) (wrap V[main_v519]) (wrap V[main_v521])) (bC V[main_v525]))
                        (mulf (gat V[main_arg3] V[main_v685] V[main_v690]
                                (select V[main_v692] (addi V[main_v521] (bz V[main_c_144])) V[main_v521])) (bC V[main_v529])))
                  (bC V[main_v533]))
            (mulf (addf (mulf V[main_v680] (bC V[main_v525])) (mulf V[main_v660] (bC V[main_v529]))) (bC V[main_v537])))
          (bC V[main_v541]))
        (mulf V[main_v640] (bC V[main_v545])) := by
  rw [VR_eq_stretch m 14 chunk14 rfl c main_v740 (by decide),
    VR_eq_U m 14 c main_arg3 (by decide),
    VR_eq_U m 14 c main_v517 (by decide),
    VR_eq_U m 14 c main_v519 (by decide),
    VR_eq_U m 14 c main_v521 (by decide),
    VR_eq_U m 14 c main_v525 (by decide),
    VR_eq_U m 14 c main_v685 (by decide),
    VR_eq_U m 14 c main_v690 (by decide),
    VR_eq_U m 14 c main_v692 (by decide),
    VR_eq_U m 14 c main_c_144 (by decide),
    VR_eq_U m 14 c main_v529 (by decide),
    VR_eq_U m 14 c main_v533 (by decide),
    VR_eq_U m 14 c main_v680 (by decide),
    VR_eq_U m 14 c main_v660 (by decide),
    VR_eq_U m 14 c main_v537 (by decide),
    VR_eq_U m 14 c main_v541 (by decide),
    VR_eq_U m 14 c main_v640 (by decide),
    VR_eq_U m 14 c main_v545 (by decide)]
  generalize UR m 14 c = U
  after_results_simp <;> rfl

end Chain2

/-- THE LEVEL-3 RESULT AT (b, n, ch): the reference's interpolation of the eight corners of the lattice cell around the clamped
    scaled point. -/
theorem level_at (m : (ℓ : Loc nD τ sig) → Buf (Elt Ideal) ℓ) (c : Dev nD) (b : Fin 2) (n : Fin 100000) (ch : Fin 128) :
    (VR (F := Ideal) m c main_v740 : S2x100000x128.Idx → EReal) (ix3 b n ch)
      = Cert.Spec.R3 (m ((c : Thread nD τ).loc main_arg3) : Cert.Spec.Feat3) (m ((c : Thread nD τ).loc main_arg5) : Cert.Spec.Coords) b n ch := by
  rw [eq_v740]
  simp only [addf_apply, mulf_apply, bC_at, gat_at, wrap_at]
  rw [wrapsel_at (VR (F := Ideal) m c main_v692) (VR (F := Ideal) m c main_v521) (bz (VR (F := Ideal) m c main_c_144)) (ix2 b n)
      (C692_at m c b n) (by rw [eq_c_144, bz_at]),
    D525_at, D529_at, D533_at, D537_at, D541_at, D545_at, G680_at, G660_at, P640_at, VR_main_arg3, N685_at, N690_at,
    I517_at, I519_at, I521_at]
  rfl

end Cert.ReferenceIdeal.Val3

end
-- ==== Proof.Ref.Value.lean ====
/-
  The reference program's result, as a function of its argument arrays.

  The program's last operation joins the three levels' results (32, 64 and 128 channels) along the channel axis into
  the 224-channel result. Read at an index, a join of three arrays along an axis is the array whose span along that
  axis holds the index's coordinate, read at the coordinate less the extents of the arrays before it: channel `k` of
  the result is channel `k` of level 1 when `k < 32`, channel `k - 32` of level 2 when `32 ≤ k < 96`, and channel
  `k - 96` of level 3 otherwise. Each level's result, at a batch, a point and a channel, is the trilinear interpolation
  of the eight lattice corners around the point (the three level modules). Together: the program's result is the three
  interpolations laid side by side, which is what the specification calls `resultR`; and the argument arrays end as
  they began, since no operation writes them.
-/
import proofs.«414534_j76854144795318_3_alg».proof.Proof.Ref.Level1
import proofs.«414534_j76854144795318_3_alg».proof.Proof.Ref.Level2
import proofs.«414534_j76854144795318_3_alg».proof.Proof.Ref.Level3
import proofs.«414534_j76854144795318_3_alg».proof.Proof.Ref.Peel
import proofs.«414534_j76854144795318_3_alg».proof.Proof.Spec
import Idealize.ShloMosaic.Lib.StableHlo.Run
import Idealize.ShloMosaic.Lib.Pipeline.Value

noncomputable section

namespace Cert.ReferenceIdeal.Val

open Cert.ReferenceIdeal Cert.ReferenceIdeal.Gen Cert.ReferenceIdeal.Hand
open Idealize.ShloMosaic Idealize.ShloMosaic.TcCoe Idealize.SL.Sem
open Idealize.ShloMosaic.StableHlo Idealize.ShloMosaic.ValueIdx

/-! ## Three arrays joined along the channel axis, read at an index -/

/-- Three arrays of 32, 64 and 128 channels joined along the channel axis, read at the index `j`: channel `k = j 2`
    comes from the first array when `k < 32`, from the second (at `k - 32`) when `32 ≤ k < 96`, and from the third
    (at `k - 96`) otherwise; the batch and point coordinates are kept. -/
theorem concat3_apply {α : Type} (x1 : S2x100000x32.Idx → α) (x2 : S2x100000x64.Idx → α) (x3 : S2x100000x128.Idx → α)
    (h : Shape.Concatenates [S2x100000x32, S2x100000x64, S2x100000x128] S2x100000x224 2) (j : S2x100000x224.Idx) :
    concatenate S2x100000x224 2 [⟨S2x100000x32, x1⟩, ⟨S2x100000x64, x2⟩, ⟨S2x100000x128, x3⟩] h j
      = if h1 : (j 2).val < 32 then x1 (ix3 (j 0) (j 1) ⟨(j 2).val, h1⟩)
        else if h2 : (j 2).val < 96 then x2 (ix3 (j 0) (j 1) ⟨(j 2).val - 32, by omega⟩)
        else x3 (ix3 (j 0) (j 1) ⟨(j 2).val - 96, by have := (j 2).isLt; simp only [Matrix.cons_val] at this; omega⟩) := by
  have hj2 : (j 2).val < 224 := (j 2).isLt
  split
  · -- the first piece: no channel before it
    next h1 =>
    refine concatenate_apply_piece (2 : Fin S2x100000x224.rank)
      [⟨S2x100000x32, x1⟩, ⟨S2x100000x64, x2⟩, ⟨S2x100000x128, x3⟩] h j 0 (Nat.zero_lt_succ _) S2x100000x32 x1 rfl rfl 0 rfl _ ?_ ?_
    · intro b hb
      match b, hb with
      | ⟨0, _⟩, _ => rfl
      | ⟨1, _⟩, _ => rfl
      | ⟨2, _⟩, hb => exact absurd rfl hb
    · show 0 + (j 2).val = (j 2).val
      omega
  · split
    · -- the second piece: the 32 channels of the first before it
      next h1 h2 =>
      refine concatenate_apply_piece (2 : Fin S2x100000x224.rank)
        [⟨S2x100000x32, x1⟩, ⟨S2x100000x64, x2⟩, ⟨S2x100000x128, x3⟩] h j 1 (show 1 < 3 by omega) S2x100000x64 x2 rfl rfl 32 rfl _ ?_ ?_
      · intro b hb
        match b, hb with
        | ⟨0, _⟩, _ => rfl
        | ⟨1, _⟩, _ => rfl
        | ⟨2, _⟩, hb => exact absurd rfl hb
      · show 32 + ((j 2).val - 32) = (j 2).val
        omega
    · -- the third piece: the 32 + 64 channels of the first two before it
      next h1 h2 =>
      refine concatenate_apply_piece (2 : Fin S2x100000x224.rank)
        [⟨S2x100000x32, x1⟩, ⟨S2x100000x64, x2⟩, ⟨S2x100000x128, x3⟩] h j 2 (show 2 < 3 by omega) S2x100000x128 x3 rfl rfl 96 rfl _ ?_ ?_
      · intro b hb
        match b, hb with
        | ⟨0, _⟩, _ => rfl
        | ⟨1, _⟩, _ => rfl
        | ⟨2, _⟩, hb => exact absurd rfl hb
      · show 96 + ((j 2).val - 96) = (j 2).val
        omega

/-! ## The last operation of a line -/

/-- A line of operations ending in an operation of several operands, none of which is its result: the result buffer
    ends holding the operation's function of what the operands' buffers END holding (the last operation leaves its
    operands as they were). -/
theorem after_snoc_nary {τ : Topo} {sig : RefSig} {Val : EltTy → Type} {n : Nat} (pre : List (HloOp τ sig Val))
    (xs : Fin n → Ref sig .tc) (y : Ref sig .tc)
    (f : ((k : Fin n) → (xs k).ty.Contents Val) → y.ty.Contents Val) (hxs hy) (V : Valuation τ sig Val)
    (hne : ∀ k, xs k ≠ y) :
    after (pre ++ [nary xs y f hxs hy]) V (Proc.devRef .tc y)
      = f (fun k => after (pre ++ [nary xs y f hxs hy]) V (Proc.devRef .tc (xs k))) := by
  rw [after_append, after_cons, after_nil, nary_result]
  congr 1
  funext k
  exact (nary_result_ne y xs f hxs hy (after pre V) (hne k)).symm

/-! ## The reference's result -/

variable (m : (ℓ : Loc nD τ sig) → Buf (Elt Ideal) ℓ)

/-- The program's last operation joins the three levels' results along the channel axis: the result buffer ends
    holding the concatenation of what the three levels' buffers end holding. -/
theorem VR_main_v741 (c : Dev nD) :
    VR (F := Ideal) m c main_v741
      = concatenate S2x100000x224 2 [⟨S2x100000x32, VR m c main_v246⟩, ⟨S2x100000x64, VR m c main_v493⟩, ⟨S2x100000x128, VR m c main_v740⟩]
          concatenates_S2x100000x32_S2x100000x64_S2x100000x128_S2x100000x224_d2 := by
  -- every buffer ends holding what the last window, run from the contents before it, leaves there
  rewrite [VR_eq_stretch m 14 chunk14 rfl c main_v741 (by decide), VR_eq_stretch m 14 chunk14 rfl c main_v246 (by decide),
    VR_eq_stretch m 14 chunk14 rfl c main_v493 (by decide), VR_eq_stretch m 14 chunk14 rfl c main_v740 (by decide)]
  generalize UR m 14 c = U
  -- the last window is the operations before the concatenation, then the concatenation
  have hL : (chunk14 (F := Ideal)).dropLast ++ [nary ![main_v246, main_v493, main_v740] main_v741
      (fun u => concatenate S2x100000x224 2 [⟨S2x100000x32, u 0⟩, ⟨S2x100000x64, u 1⟩, ⟨S2x100000x128, u 2⟩]
        concatenates_S2x100000x32_S2x100000x64_S2x100000x128_S2x100000x224_d2)] = chunk14 := rfl
  have key := after_snoc_nary (chunk14 (F := Ideal)).dropLast ![main_v246, main_v493, main_v740] main_v741
    (fun u => concatenate S2x100000x224 2 [⟨S2x100000x32, u 0⟩, ⟨S2x100000x64, u 1⟩, ⟨S2x100000x128, u 2⟩]
      concatenates_S2x100000x32_S2x100000x64_S2x100000x128_S2x100000x224_d2)
    (by decide) (by decide) U (by decide)
  rewrite [hL] at key
  exact key

/-- The reference's result is the three levels' interpolated values laid side by side along the channel axis. -/
theorem result_eq (c : Dev nD) :
    VR (F := Ideal) m c main_v741
      = Cert.Spec.resultR (m ((c.tc : Thread nD τ).loc main_arg1)) (m ((c.tc : Thread nD τ).loc main_arg2))
          (m ((c.tc : Thread nD τ).loc main_arg3)) (m ((c.tc : Thread nD τ).loc main_arg5)) := by
  rewrite [VR_main_v741]
  funext j
  rewrite [concat3_apply]
  unfold Cert.Spec.resultR Cert.Spec.side
  split
  · exact Val1.level_at m c _ _ _
  · split
    · exact Val2.level_at m c _ _ _
    · exact Val3.level_at m c _ _ _

/-- The reference runs, ends with the side-by-side interpolated values in its result, and leaves its arguments as
    they were. -/
theorem ref_run (ρ : Dev nD → PrngReg) :
    θ_run (defs (F := Ideal)) (onTc (τ := τ) (main (F := Ideal))) ⟨m, fun _ => 0, ρ⟩ (fun r => ∀ c : Dev nD,
      r.2.mem ((c.tc : Thread nD τ).loc main_v741)
          = Cert.Spec.resultR (m ((c.tc : Thread nD τ).loc main_arg1)) (m ((c.tc : Thread nD τ).loc main_arg2))
              (m ((c.tc : Thread nD τ).loc main_arg3)) (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono
    (fun r h c => ⟨(h c main_v741).trans (result_eq m c), (h c main_arg0).trans (VR_main_arg0 m c),
      (h c main_arg1).trans (VR_main_arg1 m c), (h c main_arg2).trans (VR_main_arg2 m c),
      (h c main_arg3).trans (VR_main_arg3 m c), (h c main_arg4).trans (VR_main_arg4 m c),
      (h c main_arg5).trans (VR_main_arg5 m c)⟩)
    (run0 m ρ)

/-- The reference runs and leaves its arguments as they were. -/
theorem ref_frame (ρ : Dev nD → PrngReg) :
    θ_run (defs (F := Ideal)) (onTc (τ := τ) (main (F := Ideal))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun r h c => (h c).2) (ref_run m ρ)

end Cert.ReferenceIdeal.Val

end
-- ==== Proof.lean ====
/-
  Trilinear sampling of three feature pyramids at 2 × 100000 query points: a Pallas kernel against its jnp reference.

  For each level the query coordinate is scaled and clamped, split into its floor, its ceiling and the two
  distances to them; the eight lattice corners around the point are read from the level's feature array and
  combined with the products of three distances. The kernel does the index and weight arithmetic and the eight
  gathers on the host, over the flattened and padded point axis, and adds the eight corner-times-weight terms in one
  grid of row blocks; the reference interpolates along x, then y, then z. Both are the same function of the arguments
  over the extended reals once every quantity is a real number (distributivity), which the precondition gives for the
  feature arrays and the clamp gives for the coordinates.

  frame_Kernel, frame_KernelIdeal: the launch of the one region between the host operations before and after it,
  the body's triple, the arguments never written (K/, KI/).  frame_ReferenceIdeal and the reference's value: its run
  over its operations in order (Ref/).  preserves: the ideal pass rewrote nothing.  algebraic: the kernel's result
  array read off the region's blocks and the host operations around it (KI/), the reference's (Ref/), the common
  specification (Spec) and the law that joins them (Algebra, Finite).
-/
import proofs.«414534_j76854144795318_3_alg».proof.Defs
import proofs.«414534_j76854144795318_3_alg».proof.Proof.Gen.Kernel
import proofs.«414534_j76854144795318_3_alg».proof.Proof.Gen.KernelIdeal
import proofs.«414534_j76854144795318_3_alg».proof.Proof.Gen.ReferenceIdeal
import proofs.«414534_j76854144795318_3_alg».proof.Proof.Gen.Pre_finite_inputs
import proofs.«414534_j76854144795318_3_alg».proof.Proof.Spec
import proofs.«414534_j76854144795318_3_alg».proof.Proof.Algebra
import proofs.«414534_j76854144795318_3_alg».proof.Proof.Finite
import proofs.«414534_j76854144795318_3_alg».proof.Proof.K.Run
import proofs.«414534_j76854144795318_3_alg».proof.Proof.KI.Value
import proofs.«414534_j76854144795318_3_alg».proof.Proof.Ref.Value
import Idealize.ShloMosaic.Adequacy
import Idealize.ShloMosaic.Init

noncomputable section

namespace Cert.Proof

open Idealize.ShloMosaic Idealize.SL.Sem

theorem frame_Kernel : Cert.frame_Kernel := fun m ρ _ => Cert.Kernel.Hand.frame (F := Bits) m ρ
theorem frame_KernelIdeal : Cert.frame_KernelIdeal := fun m ρ _ => Cert.KernelIdeal.Hand.frame (F := Ideal) m ρ
theorem frame_ReferenceIdeal : Cert.frame_ReferenceIdeal := fun m ρ _ => Cert.ReferenceIdeal.Val.ref_frame m ρ

/-- At the ideal instance the kernel's result array ends at the eight-term sums of the three levels side by side, the
    reference's at the nested interpolations, of argument arrays that agree; the precondition makes every entry of the
    three feature arrays a real number, and on real numbers the two arrangements are equal. -/
theorem algebraic : Cert.algebraic_KernelIdeal_ReferenceIdeal := by
  intro m ρ m' ρ' hpre hagree
  refine ⟨_, Cert.KernelIdeal.Val.kernel_run m ρ, ?_⟩
  refine (θ_run Cert.ReferenceIdeal.defs _ _).mono (fun _ h c => ⟨(h c).1.trans ?_, (h c).2⟩)
    (Cert.ReferenceIdeal.Val.ref_run m' ρ')
  obtain ⟨_, e1, e2, e3, _, e5⟩ := hagree c
  rw [e1, e2, e3, e5]
  have hf := Cert.Finite.finite_of_pre _ _ _ _ _ _ (hpre c)
  exact (Cert.Spec.resultK_eq_resultR _ _ _ _ hf.1 hf.2.1 hf.2.2).symm

theorem claim : Cert.Claim := ⟨Cert.Kernel.Gen.facts, Cert.KernelIdeal.Gen.facts, Cert.ReferenceIdeal.Gen.facts, Cert.Pre_finite_inputs.Gen.facts,
  frame_Kernel, frame_KernelIdeal, frame_ReferenceIdeal, trivial, algebraic⟩

end Cert.Proof

end
